-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v128_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v237) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S800000 : Shape := ⟨1, ![800000]⟩
abbrev S1x64 : Shape := ⟨2, ![1, 64]⟩
abbrev S16x64 : Shape := ⟨2, ![16, 64]⟩
abbrev S5x64x64 : Shape := ⟨3, ![5, 64, 64]⟩
abbrev S64 : Shape := ⟨1, ![64]⟩
abbrev S4x64x64 : Shape := ⟨3, ![4, 64, 64]⟩
abbrev S800000x2 : Shape := ⟨2, ![800000, 2]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S800000 : S_.BroadcastsInDim S800000 (![] : Fin 0 → Fin S800000.rank)
  reducesTo_S800000_S_d0 : S800000.ReducesTo [0] S_
  bcast_S_S1x64 : S_.BroadcastsInDim S1x64 (![] : Fin 0 → Fin S1x64.rank)
  reducesTo_S1x64_S_d0_1 : S1x64.ReducesTo [0, 1] S_
  bcast_S_S16x64 : S_.BroadcastsInDim S16x64 (![] : Fin 0 → Fin S16x64.rank)
  reducesTo_S16x64_S_d0_1 : S16x64.ReducesTo [0, 1] S_
  bcast_S_S5x64x64 : S_.BroadcastsInDim S5x64x64 (![] : Fin 0 → Fin S5x64x64.rank)
  reducesTo_S5x64x64_S_d0_1_2 : S5x64x64.ReducesTo [0, 1, 2] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg7 : FVec F S4x64x64 .f32) (main_arg8 : FVec F S64 .f32) (main_arg9 : FVec F S4x64x64 .f32) (main_arg10 : FVec F S64 .f32) (main_v33 : IVec S_ 1) : IVec S_ 1 :=
  let main_v34 : FVec F S4x64x64 .f32 := Host.absf main_arg7
  let main_cst_12 : FVec F S_ .f32 := constant S_ .f32 0x7F800000#32
  let main_v35 : FVec F S4x64x64 .f32 := broadcastInDim S4x64x64 ![] bcast_S_S4x64x64 main_cst_12
  let main_v36 : IVec S4x64x64 1 := cmpf .olt main_v34 main_v35
  let main_c_13 : IVec S_ 1 := constantI S_ 1 1#1
  let main_v37 : IVec S_ 1 := (fun x v => Host.reduce IntOp.andi x v reducesTo_S4x64x64_S_d0_1_2 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S4x64x64 .f32 := Host.absf main_arg9
  let main_cst_16 : FVec F S_ .f32 := constant S_ .f32 0x7F800000#32
  let main_v45 : FVec F S4x64x64 .f32 := broadcastInDim S4x64x64 ![] bcast_S_S4x64x64 main_cst_16
  let main_v46 : IVec S4x64x64 1 := cmpf .olt main_v44 main_v45
  let main_c_17 : IVec S_ 1 := constantI S_ 1 1#1
  let main_v47 : IVec S_ 1 := (fun x v => Host.reduce IntOp.andi x v reducesTo_S4x64x64_S_d0_1_2 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg4 : FVec F S16x64 .f32) (main_arg5 : FVec F S5x64x64 .f32) (main_arg6 : FVec F S64 .f32) (main_arg7 : FVec F S4x64x64 .f32) (main_arg8 : FVec F S64 .f32) (main_arg9 : FVec F S4x64x64 .f32) (main_arg10 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S16x64 .f32 := Host.absf main_arg4
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S5x64x64 .f32 := Host.absf main_arg5
  let main_cst_8 : FVec F S_ .f32 := constant S_ .f32 0x7F800000#32
  let main_v25 : FVec F S5x64x64 .f32 := broadcastInDim S5x64x64 ![] bcast_S_S5x64x64 main_cst_8
  let main_v26 : IVec S5x64x64 1 := cmpf .olt main_v24 main_v25
  let main_c_9 : IVec S_ 1 := constantI S_ 1 1#1
  let main_v27 : IVec S_ 1 := (fun x v => Host.reduce IntOp.andi x v reducesTo_S5x64x64_S_d0_1_2 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x16 .f32) (main_arg1 : FVec F S800000 .f32) (main_arg2 : FVec F S1x64 .f32) (main_arg3 : FVec F S16x64 .f32) (main_arg4 : FVec F S16x64 .f32) (main_arg5 : FVec F S5x64x64 .f32) (main_arg6 : FVec F S64 .f32) (main_arg7 : FVec F S4x64x64 .f32) (main_arg8 : FVec F S64 .f32) (main_arg9 : FVec F S4x64x64 .f32) (main_arg10 : FVec F S64 .f32) (main_arg11 : IVec S800000x2 32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg4 main_arg5 main_arg6 main_arg7 main_arg8 main_arg9 main_arg10 main_v13 main_v16
-- ==== Kernel.lean ====
abbrev S100000x16 : Shape := ⟨2, ![100000, 16]⟩
abbrev S800000 : Shape := ⟨1, ![800000]⟩
abbrev S1x64 : Shape := ⟨2, ![1, 64]⟩
abbrev S16x64 : Shape := ⟨2, ![16, 64]⟩
abbrev S5x64x64 : Shape := ⟨3, ![5, 64, 64]⟩
abbrev S64 : Shape := ⟨1, ![64]⟩
abbrev S4x64x64 : Shape := ⟨3, ![4, 64, 64]⟩
abbrev S800000x2 : Shape := ⟨2, ![800000, 2]⟩
abbrev S800000x1 : Shape := ⟨2, ![800000, 1]⟩
abbrev S800000x64 : Shape := ⟨2, ![800000, 64]⟩
abbrev S100000x64 : Shape := ⟨2, ![100000, 64]⟩
abbrev S_ : Shape := ⟨0, ![]⟩
abbrev S16 : Shape := ⟨1, ![16]⟩
abbrev S1x16 : Shape := ⟨2, ![1, 16]⟩
abbrev S10000x64 : Shape := ⟨2, ![10000, 64]⟩
abbrev S1x64x64 : Shape := ⟨3, ![1, 64, 64]⟩
abbrev S64x64 : Shape := ⟨2, ![64, 64]⟩

abbrev nBuf : Space → Nat
  | .hbm => 215
  | .vmem => 84
  | .smem => 0
  | _ => 0

abbrev hbmTy0_0 (i : Nat) : BufTy := match i % 128 with
  | 0 => ⟨S100000x16, .f32⟩
  | 1 => ⟨S800000, .f32⟩
  | 2 => ⟨S1x64, .f32⟩
  | 3 => ⟨S16x64, .f32⟩
  | 4 => ⟨S16x64, .f32⟩
  | 5 => ⟨S5x64x64, .f32⟩
  | 6 => ⟨S64, .f32⟩
  | 7 => ⟨S4x64x64, .f32⟩
  | 8 => ⟨S64, .f32⟩
  | 9 => ⟨S4x64x64, .f32⟩
  | 10 => ⟨S64, .f32⟩
  | 11 => ⟨S800000x2, .i32⟩
  | 12 => ⟨S800000x1, .i32⟩
  | 13 => ⟨S800000, .i32⟩
  | 14 => ⟨S800000x1, .i32⟩
  | 15 => ⟨S800000, .i32⟩
  | 16 => ⟨S800000x1, .f32⟩
  | 17 => ⟨S64, .f32⟩
  | 18 => ⟨S1x64, .f32⟩
  | 19 => ⟨S800000x64, .f32⟩
  | 20 => ⟨S800000x64, .f32⟩
  | 21 => ⟨S800000x64, .f32⟩
  | 22 => ⟨S100000x64, .f32⟩
  | 23 => ⟨S_, .f32⟩
  | 24 => ⟨S16, .f32⟩
  | 25 => ⟨S1x16, .f32⟩
  | 26 => ⟨S1x64, .f32⟩
  | 27 => ⟨S1x64, .f32⟩
  | 28 => ⟨S1x64, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x64, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x64, .f32⟩
  | 47 => ⟨S800000x64, .f32⟩
  | 48 => ⟨S1x64, .f32⟩
  | 49 => ⟨S_, .f32⟩
  | 50 => ⟨S100000x64, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S100000x64, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S100000x64, .f32⟩
  | 69 => ⟨S100000x64, .f32⟩
  | 70 => ⟨S1x64, .f32⟩
  | 71 => ⟨S1x64x64, .f32⟩
  | 72 => ⟨S64x64, .f32⟩
  | 73 => ⟨S1x64, .f32⟩
  | 74 => ⟨S1x64x64, .f32⟩
  | 75 => ⟨S64x64, .f32⟩
  | 76 => ⟨S1x64, .f32⟩
  | 77 => ⟨S1x64, .f32⟩
  | 78 => ⟨S1x64x64, .f32⟩
  | 79 => ⟨S64x64, .f32⟩
  | 80 => ⟨S1x64, .f32⟩
  | 81 => ⟨S1x64, .f32⟩
  | 82 => ⟨S1x64x64, .f32⟩
  | 83 => ⟨S64x64, .f32⟩
  | 84 => ⟨S1x64, .f32⟩
  | 85 => ⟨S1x64, .f32⟩
  | 86 => ⟨S1x64, .f32⟩
  | 87 => ⟨S1x64, .f32⟩
  | 88 => ⟨S_, .f32⟩
  | 89 => ⟨S1x64, .f32⟩
  | 90 => ⟨S1x64, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x64, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x64, .f32⟩
  | 109 => ⟨S800000x64, .f32⟩
  | 110 => ⟨S1x64, .f32⟩
  | 111 => ⟨S_, .f32⟩
  | 112 => ⟨S100000x64, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S100000x64, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S100000x16, .f32⟩

abbrev hbmTy0_1 (i : Nat) : BufTy := match i % 128 with
  | 0 => ⟨S800000, .i32⟩
  | 1 => ⟨S800000x1, .i32⟩
  | 2 => ⟨S100000x64, .f32⟩
  | 3 => ⟨S100000x64, .f32⟩
  | 4 => ⟨S1x64, .f32⟩
  | 5 => ⟨S1x64x64, .f32⟩
  | 6 => ⟨S64x64, .f32⟩
  | 7 => ⟨S1x64, .f32⟩
  | 8 => ⟨S1x64x64, .f32⟩
  | 9 => ⟨S64x64, .f32⟩
  | 10 => ⟨S1x64, .f32⟩
  | 11 => ⟨S1x64, .f32⟩
  | 12 => ⟨S1x64x64, .f32⟩
  | 13 => ⟨S64x64, .f32⟩
  | 14 => ⟨S1x64, .f32⟩
  | 15 => ⟨S1x64, .f32⟩
  | 16 => ⟨S1x64x64, .f32⟩
  | 17 => ⟨S64x64, .f32⟩
  | 18 => ⟨S1x64, .f32⟩
  | 19 => ⟨S1x64, .f32⟩
  | 20 => ⟨S1x64, .f32⟩
  | 21 => ⟨S1x64, .f32⟩
  | 22 => ⟨S_, .f32⟩
  | 23 => ⟨S1x64, .f32⟩
  | 24 => ⟨S1x64, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x64, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x64, .f32⟩
  | 43 => ⟨S800000x64, .f32⟩
  | 44 => ⟨S1x64, .f32⟩
  | 45 => ⟨S_, .f32⟩
  | 46 => ⟨S100000x64, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S100000x64, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S100000x64, .f32⟩
  | 65 => ⟨S100000x64, .f32⟩
  | 66 => ⟨S1x64, .f32⟩
  | 67 => ⟨S1x64x64, .f32⟩
  | 68 => ⟨S64x64, .f32⟩
  | 69 => ⟨S1x64, .f32⟩
  | 70 => ⟨S1x64x64, .f32⟩
  | 71 => ⟨S64x64, .f32⟩
  | 72 => ⟨S1x64, .f32⟩
  | 73 => ⟨S1x64, .f32⟩
  | 74 => ⟨S1x64x64, .f32⟩
  | 75 => ⟨S64x64, .f32⟩
  | 76 => ⟨S1x64, .f32⟩
  | 77 => ⟨S1x64, .f32⟩
  | 78 => ⟨S1x64x64, .f32⟩
  | 79 => ⟨S64x64, .f32⟩
  | 80 => ⟨S1x64, .f32⟩
  | 81 => ⟨S1x64, .f32⟩
  | 82 => ⟨S1x64, .f32⟩
  | 83 => ⟨S1x64, .f32⟩
  | 84 => ⟨S_, .f32⟩
  | 85 => ⟨S1x64, .f32⟩
  | 86 => ⟨S1x64, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S5x64x64, .f32⟩
  | .local _ .vmem, ⟨10, _⟩ => ⟨S1x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S1x64, .f32⟩
  | .local _ .vmem, ⟨22, _⟩ => ⟨S4x64x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S1x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S1x64, .f32⟩
  | .local _ .vmem, ⟨37, _⟩ => ⟨S5x64x64, .f32⟩
  | .local _ .vmem, ⟨38, _⟩ => ⟨S1x64, .f32⟩
  | .local _ .vmem, ⟨39, _⟩ => ⟨S10000x64, .f32⟩
  | .local _ .vmem, ⟨40, _⟩ => ⟨S10000x64, .f32⟩
  | .local _ .vmem, ⟨41, _⟩ => ⟨S1x64, .f32⟩
  | .local _ .vmem, ⟨42, _⟩ => ⟨S1x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S1x64, .f32⟩
  | .local _ .vmem, ⟨50, _⟩ => ⟨S4x64x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | .local _ .vmem, ⟨54, _⟩ => ⟨S1x64, .f32⟩
  | .local _ .vmem, ⟨55, _⟩ => ⟨S1x64, .f32⟩
  | .local _ .vmem, ⟨56, _⟩ => ⟨S10000x64, .f32⟩
  | .local _ .vmem, ⟨57, _⟩ => ⟨S10000x64, .f32⟩
  | .local _ .vmem, ⟨58, _⟩ => ⟨S10000x64, .f32⟩
  | .local _ .vmem, ⟨59, _⟩ => ⟨S10000x64, .f32⟩
  | .local _ .vmem, ⟨60, _⟩ => ⟨S10000x64, .f32⟩
  | .local _ .vmem, ⟨61, _⟩ => ⟨S10000x64, .f32⟩
  | .local _ .vmem, ⟨62, _⟩ => ⟨S10000x64, .f32⟩
  | .local _ .vmem, ⟨63, _⟩ => ⟨S10000x64, .f32⟩
  | .local _ .vmem, ⟨64, _⟩ => ⟨S1x64, .f32⟩
  | .local _ .vmem, ⟨65, _⟩ => ⟨S5x64x64, .f32⟩
  | .local _ .vmem, ⟨66, _⟩ => ⟨S1x64, .f32⟩
  | .local _ .vmem, ⟨67, _⟩ => ⟨S10000x64, .f32⟩
  | .local _ .vmem, ⟨68, _⟩ => ⟨S10000x64, .f32⟩
  | .local _ .vmem, ⟨69, _⟩ => ⟨S1x64, .f32⟩
  | .local _ .vmem, ⟨70, _⟩ => ⟨S1x64, .f32⟩
  | .local _ .vmem, ⟨71, _⟩ => ⟨S10000x64, .f32⟩
  | .local _ .vmem, ⟨72, _⟩ => ⟨S10000x64, .f32⟩
  | .local _ .vmem, ⟨73, _⟩ => ⟨S10000x64, .f32⟩
  | .local _ .vmem, ⟨74, _⟩ => ⟨S10000x64, .f32⟩
  | .local _ .vmem, ⟨75, _⟩ => ⟨S10000x64, .f32⟩
  | .local _ .vmem, ⟨76, _⟩ => ⟨S10000x64, .f32⟩
  | .local _ .vmem, ⟨77, _⟩ => ⟨S1x64, .f32⟩
  | .local _ .vmem, ⟨78, _⟩ => ⟨S4x64x64, .f32⟩
  | .local _ .vmem, ⟨79, _⟩ => ⟨S1x64, .f32⟩
  | .local _ .vmem, ⟨80, _⟩ => ⟨S10000x64, .f32⟩
  | .local _ .vmem, ⟨81, _⟩ => ⟨S10000x64, .f32⟩
  | .local _ .vmem, ⟨82, _⟩ => ⟨S1x64, .f32⟩
  | .local _ .vmem, ⟨83, _⟩ => ⟨S1x64, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_1 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev main_cst_3 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_6 : Ref sig .tc := ⟨.hbm, 60, rfl⟩
abbrev main_v39 : Ref sig .tc := ⟨.hbm, 61, rfl⟩
abbrev main_v40 : Ref sig .tc := ⟨.hbm, 62, rfl⟩
abbrev main_c_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46_0 : Ref sig .tc := ⟨.hbm, 69, rfl⟩
abbrev main_v46_1 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call0_cst : Ref sig .tc := ⟨.hbm, 88, rfl⟩
abbrev main_call0_v0 : Ref sig .tc := ⟨.hbm, 89, rfl⟩
abbrev main_v64 : Ref sig .tc := ⟨.hbm, 90, rfl⟩
abbrev main_c_8 : Ref sig .tc := ⟨.hbm, 91, rfl⟩
abbrev main_v65 : Ref sig .tc := ⟨.hbm, 92, rfl⟩
abbrev main_v66 : Ref sig .tc := ⟨.hbm, 93, rfl⟩
abbrev main_c_9 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_10 : Ref sig .tc := ⟨.hbm, 100, rfl⟩
abbrev main_v72 : Ref sig .tc := ⟨.hbm, 101, rfl⟩
abbrev main_v73 : Ref sig .tc := ⟨.hbm, 102, rfl⟩
abbrev main_c_11 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79_0 : Ref sig .tc := ⟨.hbm, 109, rfl⟩
abbrev main_v79_1 : Ref sig .tc := ⟨.hbm, 110, rfl⟩
abbrev main_cst_12 : Ref sig .tc := ⟨.hbm, 111, rfl⟩
abbrev main_v80 : Ref sig .tc := ⟨.hbm, 112, rfl⟩
abbrev main_c_13 : Ref sig .tc := ⟨.hbm, 113, rfl⟩
abbrev main_v81 : Ref sig .tc := ⟨.hbm, 114, rfl⟩
abbrev main_v82 : Ref sig .tc := ⟨.hbm, 115, rfl⟩
abbrev main_c_14 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_15 : Ref sig .tc := ⟨.hbm, 122, rfl⟩
abbrev main_v88 : Ref sig .tc := ⟨.hbm, 123, rfl⟩
abbrev main_v89 : Ref sig .tc := ⟨.hbm, 124, rfl⟩
abbrev main_c_16 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95_0 : Ref sig .tc := ⟨.hbm, 131, rfl⟩
abbrev main_v95_1 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_call1_cst : Ref sig .tc := ⟨.hbm, 150, rfl⟩
abbrev main_call1_v0 : Ref sig .tc := ⟨.hbm, 151, rfl⟩
abbrev main_v113 : Ref sig .tc := ⟨.hbm, 152, rfl⟩
abbrev main_c_17 : Ref sig .tc := ⟨.hbm, 153, rfl⟩
abbrev main_v114 : Ref sig .tc := ⟨.hbm, 154, rfl⟩
abbrev main_v115 : Ref sig .tc := ⟨.hbm, 155, rfl⟩
abbrev main_c_18 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_c_19 : Ref sig .tc := ⟨.hbm, 162, rfl⟩
abbrev main_v121 : Ref sig .tc := ⟨.hbm, 163, rfl⟩
abbrev main_v122 : Ref sig .tc := ⟨.hbm, 164, rfl⟩
abbrev main_c_20 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128_0 : Ref sig .tc := ⟨.hbm, 171, rfl⟩
abbrev main_v128_1 : Ref sig .tc := ⟨.hbm, 172, rfl⟩
abbrev main_cst_21 : Ref sig .tc := ⟨.hbm, 173, rfl⟩
abbrev main_v129 : Ref sig .tc := ⟨.hbm, 174, rfl⟩
abbrev main_c_22 : Ref sig .tc := ⟨.hbm, 175, rfl⟩
abbrev main_v130 : Ref sig .tc := ⟨.hbm, 176, rfl⟩
abbrev main_v131 : Ref sig .tc := ⟨.hbm, 177, rfl⟩
abbrev main_c_23 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_c_24 : Ref sig .tc := ⟨.hbm, 184, rfl⟩
abbrev main_v137 : Ref sig .tc := ⟨.hbm, 185, rfl⟩
abbrev main_v138 : Ref sig .tc := ⟨.hbm, 186, rfl⟩
abbrev main_c_25 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144_0 : Ref sig .tc := ⟨.hbm, 193, rfl⟩
abbrev main_v144_1 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_call2_cst : Ref sig .tc := ⟨.hbm, 212, rfl⟩
abbrev main_call2_v0 : Ref sig .tc := ⟨.hbm, 213, rfl⟩
abbrev main_v162 : Ref sig .tc := ⟨.hbm, 214, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_scratch0 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg7_1 : Ref sig .tc := ⟨.vmem, 40, rfl⟩
abbrev cc2_stg8_0 : Ref sig .tc := ⟨.vmem, 41, rfl⟩
abbrev cc2_scratch0 : Ref sig .tc := ⟨.vmem, 42, rfl⟩
abbrev cc3_stg0_0 : Ref sig .tc := ⟨.vmem, 43, rfl⟩
abbrev cc3_stg0_1 : Ref sig .tc := ⟨.vmem, 44, rfl⟩
abbrev cc3_stg1_0 : Ref sig .tc := ⟨.vmem, 45, rfl⟩
abbrev cc3_stg1_1 : Ref sig .tc := ⟨.vmem, 46, rfl⟩
abbrev cc3_stg2_0 : Ref sig .tc := ⟨.vmem, 47, rfl⟩
abbrev cc3_stg2_1 : Ref sig .tc := ⟨.vmem, 48, rfl⟩
abbrev cc3_stg3_0 : Ref sig .tc := ⟨.vmem, 49, rfl⟩
abbrev cc3_stg4_0 : Ref sig .tc := ⟨.vmem, 50, rfl⟩
abbrev cc3_stg5_0 : Ref sig .tc := ⟨.vmem, 51, rfl⟩
abbrev cc3_stg6_0 : Ref sig .tc := ⟨.vmem, 52, rfl⟩
abbrev cc3_stg6_1 : Ref sig .tc := ⟨.vmem, 53, rfl⟩
abbrev cc3_stg7_0 : Ref sig .tc := ⟨.vmem, 54, rfl⟩
abbrev cc3_scratch0 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg2_1 : Ref sig .tc := ⟨.vmem, 61, rfl⟩
abbrev cc4_stg3_0 : Ref sig .tc := ⟨.vmem, 62, rfl⟩
abbrev cc4_stg3_1 : Ref sig .tc := ⟨.vmem, 63, rfl⟩
abbrev cc4_stg4_0 : Ref sig .tc := ⟨.vmem, 64, rfl⟩
abbrev cc4_stg5_0 : Ref sig .tc := ⟨.vmem, 65, rfl⟩
abbrev cc4_stg6_0 : Ref sig .tc := ⟨.vmem, 66, rfl⟩
abbrev cc4_stg7_0 : Ref sig .tc := ⟨.vmem, 67, rfl⟩
abbrev cc4_stg7_1 : Ref sig .tc := ⟨.vmem, 68, rfl⟩
abbrev cc4_stg8_0 : Ref sig .tc := ⟨.vmem, 69, rfl⟩
abbrev cc4_scratch0 : Ref sig .tc := ⟨.vmem, 70, rfl⟩
abbrev cc5_stg0_0 : Ref sig .tc := ⟨.vmem, 71, rfl⟩
abbrev cc5_stg0_1 : Ref sig .tc := ⟨.vmem, 72, rfl⟩
abbrev cc5_stg1_0 : Ref sig .tc := ⟨.vmem, 73, rfl⟩
abbrev cc5_stg1_1 : Ref sig .tc := ⟨.vmem, 74, rfl⟩
abbrev cc5_stg2_0 : Ref sig .tc := ⟨.vmem, 75, rfl⟩
abbrev cc5_stg2_1 : Ref sig .tc := ⟨.vmem, 76, rfl⟩
abbrev cc5_stg3_0 : Ref sig .tc := ⟨.vmem, 77, rfl⟩
abbrev cc5_stg4_0 : Ref sig .tc := ⟨.vmem, 78, rfl⟩
abbrev cc5_stg5_0 : Ref sig .tc := ⟨.vmem, 79, rfl⟩
abbrev cc5_stg6_0 : Ref sig .tc := ⟨.vmem, 80, rfl⟩
abbrev cc5_stg6_1 : Ref sig .tc := ⟨.vmem, 81, rfl⟩
abbrev cc5_stg7_0 : Ref sig .tc := ⟨.vmem, 82, rfl⟩
abbrev cc5_scratch0 : Ref sig .tc := ⟨.vmem, 83, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem6_1 : DmaSem sig := 24
abbrev cc1_sem7_0 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem7_1 : DmaSem sig := 38
abbrev cc2_sem8_0 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem2_1 : DmaSem sig := 45
abbrev cc3_sem3_0 : DmaSem sig := 46
abbrev cc3_sem4_0 : DmaSem sig := 47
abbrev cc3_sem5_0 : DmaSem sig := 48
abbrev cc3_sem6_0 : DmaSem sig := 49
abbrev cc3_sem6_1 : DmaSem sig := 50
abbrev cc3_sem7_0 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem2_1 : DmaSem sig := 57
abbrev cc4_sem3_0 : DmaSem sig := 58
abbrev cc4_sem3_1 : DmaSem sig := 59
abbrev cc4_sem4_0 : DmaSem sig := 60
abbrev cc4_sem5_0 : DmaSem sig := 61
abbrev cc4_sem6_0 : DmaSem sig := 62
abbrev cc4_sem7_0 : DmaSem sig := 63
abbrev cc4_sem7_1 : DmaSem sig := 64
abbrev cc4_sem8_0 : DmaSem sig := 65
abbrev cc5_sem0_0 : DmaSem sig := 66
abbrev cc5_sem0_1 : DmaSem sig := 67
abbrev cc5_sem1_0 : DmaSem sig := 68
abbrev cc5_sem1_1 : DmaSem sig := 69
abbrev cc5_sem2_0 : DmaSem sig := 70
abbrev cc5_sem2_1 : DmaSem sig := 71
abbrev cc5_sem3_0 : DmaSem sig := 72
abbrev cc5_sem4_0 : DmaSem sig := 73
abbrev cc5_sem5_0 : DmaSem sig := 74
abbrev cc5_sem6_0 : DmaSem sig := 75
abbrev cc5_sem6_1 : DmaSem sig := 76
abbrev cc5_sem7_0 : DmaSem sig := 77

abbrev nD : Nat := 1
abbrev τ : Topo := Topo.v7x

variable {F : FTy → Type} [FloatOps F]

abbrev grid0 : Pipeline.Grid := ⟨1, ![80], ![false]⟩

def k0_cond2 (i : grid0.Coords) : BitVec 1 :=
  let arg0 : BitVec 32 := BitVec.ofNat 32 (i 0).val
  let c79_i32 : BitVec 32 := 79#32
  let v47 : BitVec 1 := Scalar.cmpi .eq arg0 c79_i32
  let v48 : BitVec 32 := Scalar.extui v47
  let c0_i32_35 : BitVec 32 := 0#32
  let v49 : BitVec 1 := Scalar.cmpi .ne v48 c0_i32_35
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v41 : BitVec 1 := Scalar.cmpi .eq arg0 c9_i32
  let v42 : BitVec 32 := Scalar.extui v41
  let c0_i32_30 : BitVec 32 := 0#32
  let v43 : BitVec 1 := Scalar.cmpi .ne v42 c0_i32_30
  v43

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![80], ![false]⟩

def k2_cond2 (i : grid2.Coords) : BitVec 1 :=
  let arg0 : BitVec 32 := BitVec.ofNat 32 (i 0).val
  let c79_i32 : BitVec 32 := 79#32
  let v47 : BitVec 1 := Scalar.cmpi .eq arg0 c79_i32
  let v48 : BitVec 32 := Scalar.extui v47
  let c0_i32_35 : BitVec 32 := 0#32
  let v49 : BitVec 1 := Scalar.cmpi .ne v48 c0_i32_35
  v49

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S5x64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v41 : BitVec 1 := Scalar.cmpi .eq arg0 c9_i32
  let v42 : BitVec 32 := Scalar.extui v41
  let c0_i32_30 : BitVec 32 := 0#32
  let v43 : BitVec 1 := Scalar.cmpi .ne v42 c0_i32_30
  v43

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S4x64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![80], ![false]⟩

def k4_cond2 (i : grid4.Coords) : BitVec 1 :=
  let arg0 : BitVec 32 := BitVec.ofNat 32 (i 0).val
  let c79_i32 : BitVec 32 := 79#32
  let v47 : BitVec 1 := Scalar.cmpi .eq arg0 c79_i32
  let v48 : BitVec 32 := Scalar.extui v47
  let c0_i32_35 : BitVec 32 := 0#32
  let v49 : BitVec 1 := Scalar.cmpi .ne v48 c0_i32_35
  v49

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S5x64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v41 : BitVec 1 := Scalar.cmpi .eq arg0 c9_i32
  let v42 : BitVec 32 := Scalar.extui v41
  let c0_i32_30 : BitVec 32 := 0#32
  let v43 : BitVec 1 := Scalar.cmpi .ne v42 c0_i32_30
  v43

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S4x64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S800000_S800000x1_0 : S800000.BroadcastsInDim S800000x1 (![0] : Fin 1 → Fin S800000x1.rank)
  shapeCasts_S1x64_S64 : S1x64.ShapeCasts S64
  bcast_S64_S1x64_1 : S64.BroadcastsInDim S1x64 (![1] : Fin 1 → Fin S1x64.rank)
  bcast_S800000x1_S800000x64_0_1 : S800000x1.BroadcastsInDim S800000x64 (![0, 1] : Fin 2 → Fin S800000x64.rank)
  bcast_S1x64_S800000x64_0_1 : S1x64.BroadcastsInDim S800000x64 (![0, 1] : Fin 2 → Fin S800000x64.rank)
  reducesTo_S100000x16_S16_d0 : S100000x16.ReducesTo [0] S16
  h_S_ : 0 < S_.numel
  bcast_S16_S1x16_1 : S16.BroadcastsInDim S1x16 (![1] : Fin 1 → Fin S1x16.rank)
  shapeCasts_S64_S1x64 : S64.ShapeCasts S1x64
  bcast_S_S800000 : S_.BroadcastsInDim S800000 (![] : Fin 0 → Fin S800000.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S5x64x64_S1x64x64_0_0_0 : ∀ a, (![0, 0, 0] : Fin 3 → Nat) a + S1x64x64.size a ≤ S5x64x64.size a
  h_S1x64x64 : 0 < S1x64x64.numel
  shapeCasts_S1x64x64_S64x64 : S1x64x64.ShapeCasts S64x64
  inb_S5x64x64_S1x64x64_1_0_0 : ∀ a, (![1, 0, 0] : Fin 3 → Nat) a + S1x64x64.size a ≤ S5x64x64.size a
  inb_S5x64x64_S1x64x64_2_0_0 : ∀ a, (![2, 0, 0] : Fin 3 → Nat) a + S1x64x64.size a ≤ S5x64x64.size a
  inb_S5x64x64_S1x64x64_3_0_0 : ∀ a, (![3, 0, 0] : Fin 3 → Nat) a + S1x64x64.size a ≤ S5x64x64.size a
  inb_S5x64x64_S1x64x64_4_0_0 : ∀ a, (![4, 0, 0] : Fin 3 → Nat) a + S1x64x64.size a ≤ S5x64x64.size a
  broadcasts_S1x64_S10000x64 : S1x64.Broadcasts S10000x64
  reduces_S10000x64_S64 : S10000x64.Reduces [0] S64
  bcast_S_S100000x64 : S_.BroadcastsInDim S100000x64 (![] : Fin 0 → Fin S100000x64.rank)
  inb_S4x64x64_S1x64x64_0_0_0 : ∀ a, (![0, 0, 0] : Fin 3 → Nat) a + S1x64x64.size a ≤ S4x64x64.size a
  inb_S4x64x64_S1x64x64_1_0_0 : ∀ a, (![1, 0, 0] : Fin 3 → Nat) a + S1x64x64.size a ≤ S4x64x64.size a
  inb_S4x64x64_S1x64x64_2_0_0 : ∀ a, (![2, 0, 0] : Fin 3 → Nat) a + S1x64x64.size a ≤ S4x64x64.size a
  inb_S4x64x64_S1x64x64_3_0_0 : ∀ a, (![3, 0, 0] : Fin 3 → Nat) a + S1x64x64.size a ≤ S4x64x64.size a
  slices_S4x64x64_S1x64x64_0_0_0 : S4x64x64.Slices ![0, 0, 0] S1x64x64
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  bcast_S_S1x64 : S_.BroadcastsInDim S1x64 (![] : Fin 0 → Fin S1x64.rank)
  dot_S100000x16_S16x64_S100000x64_1_0_0_1_n_n_wf : DotDims.WF S100000x16 S16x64 S100000x64 [1] [0] [0] [1] [] []
  dot_S1x16_S16x64_S1x64_1_0_0_1_n_n_wf : DotDims.WF S1x16 S16x64 S1x64 [1] [0] [0] [1] [] []
  gather_S100000x64_S800000x1_S800000x64_1_0_n_n_0_1_164_wf : GatherDims.WF S100000x64 S800000x1 S800000x64 [1] [0] [] [0] [] 1 ![1, 64]
  dot_S10000x64_S64x64_S10000x64_1_0_0_1_n_n_wf : DotDims.WF S10000x64 S64x64 S10000x64 [1] [0] [0] [1] [] []
  dot_S1x64_S64x64_S1x64_1_0_0_1_n_n_wf : DotDims.WF S1x64 S64x64 S1x64 [1] [0] [0] [1] [] []
  scatter_S100000x64_S800000x1_S800000x64_1_0_0_1_wf : ScatterDims.WF S100000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S800000x64.size a
  hwx0_0 : ∀ i : grid0.Coords, EltTy.bits .f32 = 32 ∨ (Rect.block (s := S800000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S800000x64.size a
  hwx0_1 : ∀ i : grid0.Coords, EltTy.bits .f32 = 32 ∨ (Rect.block (s := S800000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S800000x64.size a
  hwx0_2 : ∀ i : grid0.Coords, EltTy.bits .f32 = 32 ∨ (Rect.block (s := S800000x64) S10000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S800000x64.size a
  hwx0_3 : ∀ i : grid0.Coords, EltTy.bits .f32 = 32 ∨ (Rect.block (s := S800000x64) S10000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x64x64.size a ≤ S5x64x64.size a
  hwx0_5 : ∀ i : grid0.Coords, EltTy.bits .f32 = 32 ∨ (Rect.block (s := S5x64x64) S5x64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S800000x64.size a
  hwx0_7 : ∀ i : grid0.Coords, EltTy.bits .f32 = 32 ∨ (Rect.block (s := S800000x64) S10000x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x64x64.size a ≤ S4x64x64.size a
  hwx1_4 : ∀ i : grid1.Coords, EltTy.bits .f32 = 32 ∨ (Rect.block (s := S4x64x64) S4x64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S800000x64.size a
  hwx2_0 : ∀ i : grid2.Coords, EltTy.bits .f32 = 32 ∨ (Rect.block (s := S800000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S800000x64.size a
  hwx2_1 : ∀ i : grid2.Coords, EltTy.bits .f32 = 32 ∨ (Rect.block (s := S800000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S800000x64.size a
  hwx2_2 : ∀ i : grid2.Coords, EltTy.bits .f32 = 32 ∨ (Rect.block (s := S800000x64) S10000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S800000x64.size a
  hwx2_3 : ∀ i : grid2.Coords, EltTy.bits .f32 = 32 ∨ (Rect.block (s := S800000x64) S10000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S5x64x64.size a ≤ S5x64x64.size a
  hwx2_5 : ∀ i : grid2.Coords, EltTy.bits .f32 = 32 ∨ (Rect.block (s := S5x64x64) S5x64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x64.size a ≤ S800000x64.size a
  hwx2_7 : ∀ i : grid2.Coords, EltTy.bits .f32 = 32 ∨ (Rect.block (s := S800000x64) S10000x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S4x64x64.size a ≤ S4x64x64.size a
  hwx3_4 : ∀ i : grid3.Coords, EltTy.bits .f32 = 32 ∨ (Rect.block (s := S4x64x64) S4x64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S100000x64.size a
  hwx3_6 : ∀ i : grid3.Coords, EltTy.bits .f32 = 32 ∨ (Rect.block (s := S100000x64) S10000x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S800000x64.size a
  hwx4_0 : ∀ i : grid4.Coords, EltTy.bits .f32 = 32 ∨ (Rect.block (s := S800000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S800000x64.size a
  hwx4_1 : ∀ i : grid4.Coords, EltTy.bits .f32 = 32 ∨ (Rect.block (s := S800000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S800000x64.size a
  hwx4_2 : ∀ i : grid4.Coords, EltTy.bits .f32 = 32 ∨ (Rect.block (s := S800000x64) S10000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S800000x64.size a
  hwx4_3 : ∀ i : grid4.Coords, EltTy.bits .f32 = 32 ∨ (Rect.block (s := S800000x64) S10000x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S5x64x64.size a ≤ S5x64x64.size a
  hwx4_5 : ∀ i : grid4.Coords, EltTy.bits .f32 = 32 ∨ (Rect.block (s := S5x64x64) S5x64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x64.size a ≤ S800000x64.size a
  hwx4_7 : ∀ i : grid4.Coords, EltTy.bits .f32 = 32 ∨ (Rect.block (s := S800000x64) S10000x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S4x64x64.size a ≤ S4x64x64.size a
  hwx5_4 : ∀ i : grid5.Coords, EltTy.bits .f32 = 32 ∨ (Rect.block (s := S4x64x64) S4x64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x64.size a ≤ S100000x64.size a
  hwx5_6 : ∀ i : grid5.Coords, EltTy.bits .f32 = 32 ∨ (Rect.block (s := S100000x64) S10000x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x64.size a ≤ S1x64.size a
  hwx5_7 : ∀ i : grid5.Coords, EltTy.bits .f32 = 32 ∨ (Rect.block (s := S1x64) S1x64.size (cc5_transform_7 i) (hinb5_7 i)).WholeWords (EltTy.packing .f32)

variable [Facts₀]

def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def dot_S1x16_S16x64_S1x64_1_0_0_1_n_n : DotDims S1x16 S16x64 S1x64 where
  lhsContracting := [1]
  rhsContracting := [0]
  lhsNonContracting := [0]
  rhsNonContracting := [1]
  lhsBatch := []
  rhsBatch := []
  wf := dot_S1x16_S16x64_S1x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf

abbrev win0_0 : Pipeline.Window sig grid0 :=
  Pipeline.Window.ofSpec (Memref.whole main_v9) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S10000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S5x64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30_0) S10000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v30_1) S1x64.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v10) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S4x64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46_0) S10000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v46_1) S1x64.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v30_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v71) S10000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v78) S10000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v64) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg5) S5x64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v14) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v79_0) S10000x64.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v79_1) S1x64.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun _ => false | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v46_0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v94) S10000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg7) S4x64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v15) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v95_0) S10000x64.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v95_1) S1x64.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun _ => false | 7 => fun i => !(k3_cond2 i == 1#1) | ⟨_ + 8, h⟩ => absurd h (Nat.not_lt.2 (Nat.le_add_left _ _))

abbrev win4_0 : Pipeline.Window sig grid4 :=
  Pipeline.Window.ofSpec (Memref.whole main_v79_0) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v9) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v120) S10000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v127) S10000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v113) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg5) S5x64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v14) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v128_0) S10000x64.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v128_1) S1x64.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun _ => false | 8 => fun i => !(k4_cond2 i == 1#1) | ⟨_ + 9, h⟩ => absurd h (Nat.not_lt.2 (Nat.le_add_left _ _))

abbrev win5_0 : Pipeline.Window sig grid5 :=
  Pipeline.Window.ofSpec (Memref.whole main_v95_0) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v10) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v143) S10000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v113) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg7) S4x64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v15) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v144_0) S10000x64.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v144_1) S1x64.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev idle5 : Fin 8 → grid5.Coords → Bool := fun | 0 => fun _ => false | 1 => fun _ => false | 2 => fun _ => false | 3 => fun _ => false | 4 => fun _ => false | 5 => fun _ => false | 6 => fun _ => false | 7 => fun i => !(k5_cond2 i == 1#1) | ⟨_ + 8, h⟩ => absurd h (Nat.not_lt.2 (Nat.le_add_left _ _))

class Facts : Prop extends Facts₀ where

variable [Facts]
-- ==== ReferenceIdeal.lean ====
abbrev S100000x16 : Shape := ⟨2, ![100000, 16]⟩
abbrev S800000 : Shape := ⟨1, ![800000]⟩
abbrev S1x64 : Shape := ⟨2, ![1, 64]⟩
abbrev S16x64 : Shape := ⟨2, ![16, 64]⟩
abbrev S5x64x64 : Shape := ⟨3, ![5, 64, 64]⟩
abbrev S64 : Shape := ⟨1, ![64]⟩
abbrev S4x64x64 : Shape := ⟨3, ![4, 64, 64]⟩
abbrev S800000x2 : Shape := ⟨2, ![800000, 2]⟩
abbrev S800000x1 : Shape := ⟨2, ![800000, 1]⟩
abbrev S800000x64 : Shape := ⟨2, ![800000, 64]⟩
abbrev S100000x64 : Shape := ⟨2, ![100000, 64]⟩
abbrev S_ : Shape := ⟨0, ![]⟩
abbrev S16 : Shape := ⟨1, ![16]⟩
abbrev S1x16 : Shape := ⟨2, ![1, 16]⟩
abbrev S1x64x64 : Shape := ⟨3, ![1, 64, 64]⟩
abbrev S64x64 : Shape := ⟨2, ![64, 64]⟩

abbrev nBuf : Space → Nat
  | .hbm => 359
  | .vmem => 0
  | .smem => 0
  | _ => 0

abbrev hbmTy0_0 (i : Nat) : BufTy := match i % 128 with
  | 0 => ⟨S100000x16, .f32⟩
  | 1 => ⟨S800000, .f32⟩
  | 2 => ⟨S1x64, .f32⟩
  | 3 => ⟨S16x64, .f32⟩
  | 4 => ⟨S16x64, .f32⟩
  | 5 => ⟨S5x64x64, .f32⟩
  | 6 => ⟨S64, .f32⟩
  | 7 => ⟨S4x64x64, .f32⟩
  | 8 => ⟨S64, .f32⟩
  | 9 => ⟨S4x64x64, .f32⟩
  | 10 => ⟨S64, .f32⟩
  | 11 => ⟨S800000x2, .i32⟩
  | 12 => ⟨S800000x1, .i32⟩
  | 13 => ⟨S800000, .i32⟩
  | 14 => ⟨S800000x1, .i32⟩
  | 15 => ⟨S800000, .i32⟩
  | 16 => ⟨S800000x1, .f32⟩
  | 17 => ⟨S800000x64, .f32⟩
  | 18 => ⟨S100000x64, .f32⟩
  | 19 => ⟨S_, .f32⟩
  | 20 => ⟨S16, .f32⟩
  | 21 => ⟨S1x16, .f32⟩
  | 22 => ⟨S1x64, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S1x64x64, .f32⟩
  | 42 => ⟨S64x64, .f32⟩
  | 43 => ⟨S800000x64, .f32⟩
  | 44 => ⟨S1x64x64, .f32⟩
  | 45 => ⟨S64x64, .f32⟩
  | 46 => ⟨S800000x64, .f32⟩
  | 47 => ⟨S800000x64, .f32⟩
  | 48 => ⟨S1x64x64, .f32⟩
  | 49 => ⟨S64x64, .f32⟩
  | 50 => ⟨S800000x64, .f32⟩
  | 51 => ⟨S800000x64, .f32⟩
  | 52 => ⟨S1x64x64, .f32⟩
  | 53 => ⟨S64x64, .f32⟩
  | 54 => ⟨S800000x64, .f32⟩
  | 55 => ⟨S800000x64, .f32⟩
  | 56 => ⟨S1x64x64, .f32⟩
  | 57 => ⟨S64x64, .f32⟩
  | 58 => ⟨S1x64, .f32⟩
  | 59 => ⟨S800000x64, .f32⟩
  | 60 => ⟨S800000x64, .f32⟩
  | 61 => ⟨S1x64, .f32⟩
  | 62 => ⟨S800000x64, .f32⟩
  | 63 => ⟨S800000x64, .f32⟩
  | 64 => ⟨S_, .f32⟩
  | 65 => ⟨S800000x64, .f32⟩
  | 66 => ⟨S800000x64, .f32⟩
  | 67 => ⟨S_, .f32⟩
  | 68 => ⟨S100000x64, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S100000x64, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S100000x64, .f32⟩
  | 87 => ⟨S1x64x64, .f32⟩
  | 88 => ⟨S64x64, .f32⟩
  | 89 => ⟨S100000x64, .f32⟩
  | 90 => ⟨S1x64x64, .f32⟩
  | 91 => ⟨S64x64, .f32⟩
  | 92 => ⟨S100000x64, .f32⟩
  | 93 => ⟨S100000x64, .f32⟩
  | 94 => ⟨S1x64x64, .f32⟩
  | 95 => ⟨S64x64, .f32⟩
  | 96 => ⟨S100000x64, .f32⟩
  | 97 => ⟨S100000x64, .f32⟩
  | 98 => ⟨S1x64x64, .f32⟩
  | 99 => ⟨S64x64, .f32⟩
  | 100 => ⟨S1x64, .f32⟩
  | 101 => ⟨S100000x64, .f32⟩
  | 102 => ⟨S100000x64, .f32⟩
  | 103 => ⟨S1x64, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S_, .f32⟩
  | 110 => ⟨S64, .f32⟩
  | 111 => ⟨S1x64, .f32⟩
  | 112 => ⟨S_, .f32⟩
  | 113 => ⟨S64, .f32⟩
  | 114 => ⟨S1x64, .f32⟩
  | 115 => ⟨S1x64x64, .f32⟩
  | 116 => ⟨S64x64, .f32⟩
  | 117 => ⟨S1x64, .f32⟩
  | 118 => ⟨S1x64x64, .f32⟩
  | 119 => ⟨S64x64, .f32⟩
  | 120 => ⟨S1x64, .f32⟩
  | 121 => ⟨S1x64, .f32⟩
  | 122 => ⟨S1x64x64, .f32⟩
  | 123 => ⟨S64x64, .f32⟩
  | 124 => ⟨S1x64, .f32⟩
  | 125 => ⟨S1x64, .f32⟩
  | 126 => ⟨S1x64x64, .f32⟩
  | 127 => ⟨S64x64, .f32⟩
  | _ => ⟨S100000x16, .f32⟩

abbrev hbmTy0_1 (i : Nat) : BufTy := match i % 128 with
  | 0 => ⟨S1x64, .f32⟩
  | 1 => ⟨S1x64, .f32⟩
  | 2 => ⟨S1x64, .f32⟩
  | 3 => ⟨S1x64, .f32⟩
  | 4 => ⟨S_, .f32⟩
  | 5 => ⟨S1x64, .f32⟩
  | 6 => ⟨S1x64, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x64, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x64, .f32⟩
  | 25 => ⟨S1x64x64, .f32⟩
  | 26 => ⟨S64x64, .f32⟩
  | 27 => ⟨S800000x64, .f32⟩
  | 28 => ⟨S1x64x64, .f32⟩
  | 29 => ⟨S64x64, .f32⟩
  | 30 => ⟨S800000x64, .f32⟩
  | 31 => ⟨S800000x64, .f32⟩
  | 32 => ⟨S1x64x64, .f32⟩
  | 33 => ⟨S64x64, .f32⟩
  | 34 => ⟨S800000x64, .f32⟩
  | 35 => ⟨S800000x64, .f32⟩
  | 36 => ⟨S1x64x64, .f32⟩
  | 37 => ⟨S64x64, .f32⟩
  | 38 => ⟨S800000x64, .f32⟩
  | 39 => ⟨S800000x64, .f32⟩
  | 40 => ⟨S1x64x64, .f32⟩
  | 41 => ⟨S64x64, .f32⟩
  | 42 => ⟨S1x64, .f32⟩
  | 43 => ⟨S800000x64, .f32⟩
  | 44 => ⟨S800000x64, .f32⟩
  | 45 => ⟨S1x64, .f32⟩
  | 46 => ⟨S800000x64, .f32⟩
  | 47 => ⟨S800000x64, .f32⟩
  | 48 => ⟨S_, .f32⟩
  | 49 => ⟨S800000x64, .f32⟩
  | 50 => ⟨S800000x64, .f32⟩
  | 51 => ⟨S_, .f32⟩
  | 52 => ⟨S100000x64, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S100000x64, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S100000x64, .f32⟩
  | 71 => ⟨S1x64x64, .f32⟩
  | 72 => ⟨S64x64, .f32⟩
  | 73 => ⟨S100000x64, .f32⟩
  | 74 => ⟨S1x64x64, .f32⟩
  | 75 => ⟨S64x64, .f32⟩
  | 76 => ⟨S100000x64, .f32⟩
  | 77 => ⟨S100000x64, .f32⟩
  | 78 => ⟨S1x64x64, .f32⟩
  | 79 => ⟨S64x64, .f32⟩
  | 80 => ⟨S100000x64, .f32⟩
  | 81 => ⟨S100000x64, .f32⟩
  | 82 => ⟨S1x64x64, .f32⟩
  | 83 => ⟨S64x64, .f32⟩
  | 84 => ⟨S1x64, .f32⟩
  | 85 => ⟨S100000x64, .f32⟩
  | 86 => ⟨S100000x64, .f32⟩
  | 87 => ⟨S1x64, .f32⟩
  | 88 => ⟨S100000x64, .f32⟩
  | 89 => ⟨S100000x64, .f32⟩
  | 90 => ⟨S_, .f32⟩
  | 91 => ⟨S100000x64, .f32⟩
  | 92 => ⟨S100000x64, .f32⟩
  | 93 => ⟨S_, .f32⟩
  | 94 => ⟨S64, .f32⟩
  | 95 => ⟨S1x64, .f32⟩
  | 96 => ⟨S_, .f32⟩
  | 97 => ⟨S64, .f32⟩
  | 98 => ⟨S1x64, .f32⟩
  | 99 => ⟨S1x64x64, .f32⟩
  | 100 => ⟨S64x64, .f32⟩
  | 101 => ⟨S1x64, .f32⟩
  | 102 => ⟨S1x64x64, .f32⟩
  | 103 => ⟨S64x64, .f32⟩
  | 104 => ⟨S1x64, .f32⟩
  | 105 => ⟨S1x64, .f32⟩
  | 106 => ⟨S1x64x64, .f32⟩
  | 107 => ⟨S64x64, .f32⟩
  | 108 => ⟨S1x64, .f32⟩
  | 109 => ⟨S1x64, .f32⟩
  | 110 => ⟨S1x64x64, .f32⟩
  | 111 => ⟨S64x64, .f32⟩
  | 112 => ⟨S1x64, .f32⟩
  | 113 => ⟨S1x64, .f32⟩
  | 114 => ⟨S1x64, .f32⟩
  | 115 => ⟨S1x64, .f32⟩
  | 116 => ⟨S_, .f32⟩
  | 117 => ⟨S1x64, .f32⟩
  | 118 => ⟨S1x64, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x64, .f32⟩
  | _ => ⟨S100000x16, .f32⟩

abbrev hbmTy0_2 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x64, .f32⟩
  | 9 => ⟨S1x64x64, .f32⟩
  | 10 => ⟨S64x64, .f32⟩
  | 11 => ⟨S800000x64, .f32⟩
  | 12 => ⟨S1x64x64, .f32⟩
  | 13 => ⟨S64x64, .f32⟩
  | 14 => ⟨S800000x64, .f32⟩
  | 15 => ⟨S800000x64, .f32⟩
  | 16 => ⟨S1x64x64, .f32⟩
  | 17 => ⟨S64x64, .f32⟩
  | 18 => ⟨S800000x64, .f32⟩
  | 19 => ⟨S800000x64, .f32⟩
  | 20 => ⟨S1x64x64, .f32⟩
  | 21 => ⟨S64x64, .f32⟩
  | 22 => ⟨S800000x64, .f32⟩
  | 23 => ⟨S800000x64, .f32⟩
  | 24 => ⟨S1x64x64, .f32⟩
  | 25 => ⟨S64x64, .f32⟩
  | 26 => ⟨S1x64, .f32⟩
  | 27 => ⟨S800000x64, .f32⟩
  | 28 => ⟨S800000x64, .f32⟩
  | 29 => ⟨S1x64, .f32⟩
  | 30 => ⟨S800000x64, .f32⟩
  | 31 => ⟨S800000x64, .f32⟩
  | 32 => ⟨S_, .f32⟩
  | 33 => ⟨S800000x64, .f32⟩
  | 34 => ⟨S800000x64, .f32⟩
  | 35 => ⟨S_, .f32⟩
  | 36 => ⟨S100000x64, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S100000x64, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S100000x64, .f32⟩
  | 55 => ⟨S1x64x64, .f32⟩
  | 56 => ⟨S64x64, .f32⟩
  | 57 => ⟨S100000x64, .f32⟩
  | 58 => ⟨S1x64x64, .f32⟩
  | 59 => ⟨S64x64, .f32⟩
  | 60 => ⟨S100000x64, .f32⟩
  | 61 => ⟨S100000x64, .f32⟩
  | 62 => ⟨S1x64x64, .f32⟩
  | 63 => ⟨S64x64, .f32⟩
  | 64 => ⟨S100000x64, .f32⟩
  | 65 => ⟨S100000x64, .f32⟩
  | 66 => ⟨S1x64x64, .f32⟩
  | 67 => ⟨S64x64, .f32⟩
  | 68 => ⟨S1x64, .f32⟩
  | 69 => ⟨S100000x64, .f32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S_, .f32⟩
  | 78 => ⟨S64, .f32⟩
  | 79 => ⟨S1x64, .f32⟩
  | 80 => ⟨S_, .f32⟩
  | 81 => ⟨S64, .f32⟩
  | 82 => ⟨S1x64, .f32⟩
  | 83 => ⟨S1x64x64, .f32⟩
  | 84 => ⟨S64x64, .f32⟩
  | 85 => ⟨S1x64, .f32⟩
  | 86 => ⟨S1x64x64, .f32⟩
  | 87 => ⟨S64x64, .f32⟩
  | 88 => ⟨S1x64, .f32⟩
  | 89 => ⟨S1x64, .f32⟩
  | 90 => ⟨S1x64x64, .f32⟩
  | 91 => ⟨S64x64, .f32⟩
  | 92 => ⟨S1x64, .f32⟩
  | 93 => ⟨S1x64, .f32⟩
  | 94 => ⟨S1x64x64, .f32⟩
  | 95 => ⟨S64x64, .f32⟩
  | 96 => ⟨S1x64, .f32⟩
  | 97 => ⟨S1x64, .f32⟩
  | 98 => ⟨S1x64, .f32⟩
  | 99 => ⟨S1x64, .f32⟩
  | 100 => ⟨S_, .f32⟩
  | 101 => ⟨S1x64, .f32⟩
  | 102 => ⟨S1x64, .f32⟩
  | _ => ⟨S100000x16, .f32⟩

abbrev hbmTy (i : Nat) : BufTy := match i / 128 with
  | 0 => hbmTy0_0 i
  | 1 => hbmTy0_1 i
  | 2 => hbmTy0_2 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call0_cst : Ref sig .tc := ⟨.hbm, 64, rfl⟩
abbrev main_call0_v0 : Ref sig .tc := ⟨.hbm, 65, rfl⟩
abbrev main_v47 : Ref sig .tc := ⟨.hbm, 66, rfl⟩
abbrev main_cst_3 : Ref sig .tc := ⟨.hbm, 67, rfl⟩
abbrev main_v48 : Ref sig .tc := ⟨.hbm, 68, rfl⟩
abbrev main_c_4 : Ref sig .tc := ⟨.hbm, 69, rfl⟩
abbrev main_v49 : Ref sig .tc := ⟨.hbm, 70, rfl⟩
abbrev main_v50 : Ref sig .tc := ⟨.hbm, 71, rfl⟩
abbrev main_c_5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_6 : Ref sig .tc := ⟨.hbm, 78, rfl⟩
abbrev main_v56 : Ref sig .tc := ⟨.hbm, 79, rfl⟩
abbrev main_v57 : Ref sig .tc := ⟨.hbm, 80, rfl⟩
abbrev main_c_7 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_call1_cst : Ref sig .tc := ⟨.hbm, 106, rfl⟩
abbrev main_call1_v0 : Ref sig .tc := ⟨.hbm, 107, rfl⟩
abbrev main_v82 : Ref sig .tc := ⟨.hbm, 108, rfl⟩
abbrev main_cst_8 : Ref sig .tc := ⟨.hbm, 109, rfl⟩
abbrev main_v83 : Ref sig .tc := ⟨.hbm, 110, rfl⟩
abbrev main_v84 : Ref sig .tc := ⟨.hbm, 111, rfl⟩
abbrev main_cst_9 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_call2_cst : Ref sig .tc := ⟨.hbm, 132, rfl⟩
abbrev main_call2_v0 : Ref sig .tc := ⟨.hbm, 133, rfl⟩
abbrev main_v104 : Ref sig .tc := ⟨.hbm, 134, rfl⟩
abbrev main_c_10 : Ref sig .tc := ⟨.hbm, 135, rfl⟩
abbrev main_v105 : Ref sig .tc := ⟨.hbm, 136, rfl⟩
abbrev main_v106 : Ref sig .tc := ⟨.hbm, 137, rfl⟩
abbrev main_c_11 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_c_12 : Ref sig .tc := ⟨.hbm, 144, rfl⟩
abbrev main_v112 : Ref sig .tc := ⟨.hbm, 145, rfl⟩
abbrev main_v113 : Ref sig .tc := ⟨.hbm, 146, rfl⟩
abbrev main_c_13 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_call3_cst : Ref sig .tc := ⟨.hbm, 176, rfl⟩
abbrev main_call3_v0 : Ref sig .tc := ⟨.hbm, 177, rfl⟩
abbrev main_v142 : Ref sig .tc := ⟨.hbm, 178, rfl⟩
abbrev main_cst_14 : Ref sig .tc := ⟨.hbm, 179, rfl⟩
abbrev main_v143 : Ref sig .tc := ⟨.hbm, 180, rfl⟩
abbrev main_c_15 : Ref sig .tc := ⟨.hbm, 181, rfl⟩
abbrev main_v144 : Ref sig .tc := ⟨.hbm, 182, rfl⟩
abbrev main_v145 : Ref sig .tc := ⟨.hbm, 183, rfl⟩
abbrev main_c_16 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_c_17 : Ref sig .tc := ⟨.hbm, 190, rfl⟩
abbrev main_v151 : Ref sig .tc := ⟨.hbm, 191, rfl⟩
abbrev main_v152 : Ref sig .tc := ⟨.hbm, 192, rfl⟩
abbrev main_c_18 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_call4_cst : Ref sig .tc := ⟨.hbm, 218, rfl⟩
abbrev main_call4_v0 : Ref sig .tc := ⟨.hbm, 219, rfl⟩
abbrev main_v177 : Ref sig .tc := ⟨.hbm, 220, rfl⟩
abbrev main_cst_19 : Ref sig .tc := ⟨.hbm, 221, rfl⟩
abbrev main_v178 : Ref sig .tc := ⟨.hbm, 222, rfl⟩
abbrev main_v179 : Ref sig .tc := ⟨.hbm, 223, rfl⟩
abbrev main_cst_20 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_call5_cst : Ref sig .tc := ⟨.hbm, 244, rfl⟩
abbrev main_call5_v0 : Ref sig .tc := ⟨.hbm, 245, rfl⟩
abbrev main_v199 : Ref sig .tc := ⟨.hbm, 246, rfl⟩
abbrev main_c_21 : Ref sig .tc := ⟨.hbm, 247, rfl⟩
abbrev main_v200 : Ref sig .tc := ⟨.hbm, 248, rfl⟩
abbrev main_v201 : Ref sig .tc := ⟨.hbm, 249, rfl⟩
abbrev main_c_22 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_c_23 : Ref sig .tc := ⟨.hbm, 256, rfl⟩
abbrev main_v207 : Ref sig .tc := ⟨.hbm, 257, rfl⟩
abbrev main_v208 : Ref sig .tc := ⟨.hbm, 258, rfl⟩
abbrev main_c_24 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_call6_cst : Ref sig .tc := ⟨.hbm, 288, rfl⟩
abbrev main_call6_v0 : Ref sig .tc := ⟨.hbm, 289, rfl⟩
abbrev main_v237 : Ref sig .tc := ⟨.hbm, 290, rfl⟩
abbrev main_cst_25 : Ref sig .tc := ⟨.hbm, 291, rfl⟩
abbrev main_v238 : Ref sig .tc := ⟨.hbm, 292, rfl⟩
abbrev main_c_26 : Ref sig .tc := ⟨.hbm, 293, rfl⟩
abbrev main_v239 : Ref sig .tc := ⟨.hbm, 294, rfl⟩
abbrev main_v240 : Ref sig .tc := ⟨.hbm, 295, rfl⟩
abbrev main_c_27 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_v244 : Ref sig .tc := ⟨.hbm, 300, rfl⟩
abbrev main_v245 : Ref sig .tc := ⟨.hbm, 301, rfl⟩
abbrev main_c_28 : Ref sig .tc := ⟨.hbm, 302, rfl⟩
abbrev main_v246 : Ref sig .tc := ⟨.hbm, 303, rfl⟩
abbrev main_v247 : Ref sig .tc := ⟨.hbm, 304, rfl⟩
abbrev main_c_29 : Ref sig .tc := ⟨.hbm, 305, rfl⟩
abbrev main_v248 : Ref sig .tc := ⟨.hbm, 306, rfl⟩
abbrev main_v249 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_call7_cst : Ref sig .tc := ⟨.hbm, 330, rfl⟩
abbrev main_call7_v0 : Ref sig .tc := ⟨.hbm, 331, rfl⟩
abbrev main_v272 : Ref sig .tc := ⟨.hbm, 332, rfl⟩
abbrev main_cst_30 : Ref sig .tc := ⟨.hbm, 333, rfl⟩
abbrev main_v273 : Ref sig .tc := ⟨.hbm, 334, rfl⟩
abbrev main_v274 : Ref sig .tc := ⟨.hbm, 335, rfl⟩
abbrev main_cst_31 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_v282 : Ref sig .tc := ⟨.hbm, 344, rfl⟩
abbrev main_v283 : Ref sig .tc := ⟨.hbm, 345, rfl⟩
abbrev main_v284 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev main_v288 : Ref sig .tc := ⟨.hbm, 350, rfl⟩
abbrev main_v289 : Ref sig .tc := ⟨.hbm, 351, rfl⟩
abbrev main_v290 : Ref sig .tc := ⟨.hbm, 352, rfl⟩
abbrev main_v291 : Ref sig .tc := ⟨.hbm, 353, rfl⟩
abbrev main_v292 : Ref sig .tc := ⟨.hbm, 354, rfl⟩
abbrev main_v293 : Ref sig .tc := ⟨.hbm, 355, rfl⟩
abbrev main_call8_cst : Ref sig .tc := ⟨.hbm, 356, rfl⟩
abbrev main_call8_v0 : Ref sig .tc := ⟨.hbm, 357, rfl⟩
abbrev main_v294 : Ref sig .tc := ⟨.hbm, 358, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S800000_S800000x1_0 : S800000.BroadcastsInDim S800000x1 (![0] : Fin 1 → Fin S800000x1.rank)
  reducesTo_S100000x16_S16_d0 : S100000x16.ReducesTo [0] S16
  h_S_ : 0 < S_.numel
  bcast_S16_S1x16_1 : S16.BroadcastsInDim S1x16 (![1] : Fin 1 → Fin S1x16.rank)
  bcast_S_S800000 : S_.BroadcastsInDim S800000 (![] : Fin 0 → Fin S800000.rank)
  slices_S5x64x64_S1x64x64_0_0_0 : S5x64x64.Slices ![0, 0, 0] S1x64x64
  shapeCasts_S1x64x64_S64x64 : S1x64x64.ShapeCasts S64x64
  slices_S5x64x64_S1x64x64_1_0_0 : S5x64x64.Slices ![1, 0, 0] S1x64x64
  slices_S5x64x64_S1x64x64_2_0_0 : S5x64x64.Slices ![2, 0, 0] S1x64x64
  slices_S5x64x64_S1x64x64_3_0_0 : S5x64x64.Slices ![3, 0, 0] S1x64x64
  slices_S5x64x64_S1x64x64_4_0_0 : S5x64x64.Slices ![4, 0, 0] S1x64x64
  bcast_S1x64_S800000x64_0_1 : S1x64.BroadcastsInDim S800000x64 (![0, 1] : Fin 2 → Fin S800000x64.rank)
  bcast_S64_S1x64_1 : S64.BroadcastsInDim S1x64 (![1] : Fin 1 → Fin S1x64.rank)
  bcast_S_S800000x64 : S_.BroadcastsInDim S800000x64 (![] : Fin 0 → Fin S800000x64.rank)
  bcast_S_S100000x64 : S_.BroadcastsInDim S100000x64 (![] : Fin 0 → Fin S100000x64.rank)
  slices_S4x64x64_S1x64x64_0_0_0 : S4x64x64.Slices ![0, 0, 0] S1x64x64
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  bcast_S1x64_S100000x64_0_1 : S1x64.BroadcastsInDim S100000x64 (![0, 1] : Fin 2 → Fin S100000x64.rank)
  reducesTo_S800000x64_S64_d0 : S800000x64.ReducesTo [0] S64
  reducesTo_S100000x64_S64_d0 : S100000x64.ReducesTo [0] S64
  bcast_S_S1x64 : S_.BroadcastsInDim S1x64 (![] : Fin 0 → Fin S1x64.rank)
  dot_S800000x1_S1x64_S800000x64_1_0_0_1_n_n_wf : DotDims.WF S800000x1 S1x64 S800000x64 [1] [0] [0] [1] [] []
  dot_S100000x16_S16x64_S100000x64_1_0_0_1_n_n_wf : DotDims.WF S100000x16 S16x64 S100000x64 [1] [0] [0] [1] [] []
  dot_S1x16_S16x64_S1x64_1_0_0_1_n_n_wf : DotDims.WF S1x16 S16x64 S1x64 [1] [0] [0] [1] [] []
  gather_S100000x64_S800000x1_S800000x64_1_0_n_n_0_1_164_wf : GatherDims.WF S100000x64 S800000x1 S800000x64 [1] [0] [] [0] [] 1 ![1, 64]
  dot_S800000x64_S64x64_S800000x64_1_0_0_1_n_n_wf : DotDims.WF S800000x64 S64x64 S800000x64 [1] [0] [0] [1] [] []
  dot_S1x64_S64x64_S1x64_1_0_0_1_n_n_wf : DotDims.WF S1x64 S64x64 S1x64 [1] [0] [0] [1] [] []
  scatter_S100000x64_S800000x1_S800000x64_1_0_0_1_wf : ScatterDims.WF S100000x64 S800000x1 S800000x64 [1] [0] [0] 1
  dot_S100000x64_S64x64_S100000x64_1_0_0_1_n_n_wf : DotDims.WF S100000x64 S64x64 S100000x64 [1] [0] [0] [1] [] []

variable [Facts₀]

def dot_S800000x1_S1x64_S800000x64_1_0_0_1_n_n : DotDims S800000x1 S1x64 S800000x64 where
  lhsContracting := [1]
  rhsContracting := [0]
  lhsNonContracting := [0]
  rhsNonContracting := [1]
  lhsBatch := []
  rhsBatch := []
  wf := dot_S800000x1_S1x64_S800000x64_1_0_0_1_n_n_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def dot_S1x16_S16x64_S1x64_1_0_0_1_n_n : DotDims S1x16 S16x64 S1x64 where
  lhsContracting := [1]
  rhsContracting := [0]
  lhsNonContracting := [0]
  rhsNonContracting := [1]
  lhsBatch := []
  rhsBatch := []
  wf := dot_S1x16_S16x64_S1x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.K.E0.Runs.lean ====
/- The edge kernel's body at the pipeline `cfg0`, first module: what the three
   whole-body runs share. The windows' blocks read off the arrays as the region finds them (a parameter `V`), the
   inputs' staging buffers at their blocks at every point, the two branch conditions of the body in closed form over
   the 80 grid points, where the two output windows are live or idle, the staging and scratch memrefs the body is
   called with, and the region invariant with the kernel's own scratch split off. -/
import proofs.«108204_j49847390437921_1_alg».proof.Proof.Gen.Kernel.Launch
import proofs.«108204_j49847390437921_1_alg».proof.Proof.Gen.Kernel.Skeleton
import proofs.«108204_j49847390437921_1_alg».proof.Proof.Gen.Kernel.Points
import Idealize.ShloMosaic.Lib.Pipeline.FrameBody
import Idealize.ShloMosaic.Lib.Ring
import Idealize.ShloMosaic.Lib.Tactic

-- membership in a rectangle of production extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the TensorCore's buffer contents when the region is entered: everything below is stated at any such contents
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched
    input's block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an unfetched
    input's block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an unfetched
    input's block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (an unfetched
    input's block index has not moved), for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (an unfetched
    input's block index has not moved), for any proof data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (an unfetched
    input's block index has not moved), for any proof data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (an unfetched
    input's block index has not moved), for any proof data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The condition of the body's first `scf.if` (the scratch is reset): the grid coordinate is 0, as the body computes it. -/
abbrev cond0_0 (i : grid0.Coords) : Prop := (Scalar.cmpi .ne (Scalar.extui (Scalar.cmpi .eq (BitVec.ofNat 32 (i 0).val) 0#32)) 0#32) = 1#1
/-- It holds at the first of the 80 points only. -/
theorem hcond0_0 : ∀ t : Fin cfg0.N, cond0_0 (grid0.coords t) ↔ t.val % 80 = 0 :=
  (by decide +kernel : ∀ t : Fin grid0.N, cond0_0 (grid0.coords t) ↔ t.val % 80 = 0)

/-- The condition of the body's second `scf.if` (the scratch is stored to the second output): the grid coordinate is 79. -/
abbrev cond0_1 (i : grid0.Coords) : Prop := k0_cond2 i = 1#1
/-- It holds at the last of the 80 points only. -/
theorem hcond0_1 : ∀ t : Fin cfg0.N, cond0_1 (grid0.coords t) ↔ t.val % 80 = 79 :=
  (by decide +kernel : ∀ t : Fin grid0.N, cond0_1 (grid0.coords t) ↔ t.val % 80 = 79)

/-! ## Where the windows are idle -/

/-- Window 0 is never idle. -/
theorem liveAt0_0 : ∀ t : Fin cfg0.N, cfg0.idle 0 (grid0.coords t) = false := by decide +kernel
/-- Window 1 is never idle. -/
theorem liveAt0_1 : ∀ t : Fin cfg0.N, cfg0.idle 1 (grid0.coords t) = false := by decide +kernel
/-- Window 2 is never idle. -/
theorem liveAt0_2 : ∀ t : Fin cfg0.N, cfg0.idle 2 (grid0.coords t) = false := by decide +kernel
/-- Window 3 is never idle. -/
theorem liveAt0_3 : ∀ t : Fin cfg0.N, cfg0.idle 3 (grid0.coords t) = false := by decide +kernel
/-- Window 4 is never idle. -/
theorem liveAt0_4 : ∀ t : Fin cfg0.N, cfg0.idle 4 (grid0.coords t) = false := by decide +kernel
/-- Window 5 is never idle. -/
theorem liveAt0_5 : ∀ t : Fin cfg0.N, cfg0.idle 5 (grid0.coords t) = false := by decide +kernel
/-- Window 6 is never idle. -/
theorem liveAt0_6 : ∀ t : Fin cfg0.N, cfg0.idle 6 (grid0.coords t) = false := by decide +kernel
/-- Window 7 is never idle. -/
theorem liveAt0_7 : ∀ t : Fin cfg0.N, cfg0.idle 7 (grid0.coords t) = false := by decide +kernel
/-- At the first point (case A) output 8 is idle: the case stores nothing into it. -/
theorem idleAt0_8_A : ∀ t : Fin cfg0.N, cond0_0 (grid0.coords t) → ¬cond0_1 (grid0.coords t) → cfg0.idle 8 (grid0.coords t) = true := by decide +kernel
/-- At the first point the pipeline does not write output 8's block back. -/
theorem noFlush0_8_A : ∀ t : Fin cfg0.N, cond0_0 (grid0.coords t) → ¬cond0_1 (grid0.coords t) → (cfg0.win 8).flush t = false := by decide +kernel
/-- At the middle points (case B) output 8 is idle: the case stores nothing into it. -/
theorem idleAt0_8_B : ∀ t : Fin cfg0.N, ¬cond0_0 (grid0.coords t) → ¬cond0_1 (grid0.coords t) → cfg0.idle 8 (grid0.coords t) = true := by decide +kernel
/-- At the middle points the pipeline does not write output 8's block back. -/
theorem noFlush0_8_B : ∀ t : Fin cfg0.N, ¬cond0_0 (grid0.coords t) → ¬cond0_1 (grid0.coords t) → (cfg0.win 8).flush t = false := by decide +kernel
/-- At the last point (case C) output 8 is live: the case stores into it. -/
theorem liveAt0_8_C : ∀ t : Fin cfg0.N, ¬cond0_0 (grid0.coords t) → cond0_1 (grid0.coords t) → cfg0.idle 8 (grid0.coords t) = false := by decide +kernel

/-! ## The memrefs the body is called with -/

/-- One staging buffer of each output window, through which its contents are stated (any choice reads the same). -/
abbrev VO0_7 : View sig .tc .vmem S10000x64 .f32 := (Memref.whole cc0_stg7_0 : Memref sig .tc .vmem S10000x64 .f32).view
abbrev VO0_8 : View sig .tc .vmem S1x64 .f32 := (Memref.whole cc0_stg8_0 : Memref sig .tc .vmem S1x64 .f32).view
/-- Each window's current staging memref at point `t`, spelled as the pipeline passes it, and its wholeness. -/
abbrev ms0_0 (t : Fin cfg0.N) : Memref sig .tc .vmem S10000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S10000x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5x64x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S10000x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
/-- The scratch operand: a whole scoped buffer of the kernel's own, passed beside the windows. -/
abbrev scM0_0 : Memref sig .tc .vmem S1x64 .f32 := Memref.whole cc0_scratch0
/-- The scratch the kernel carries between points, as a view: what it holds is stated through it. -/
abbrev VS0_0 : View sig .tc .vmem S1x64 .f32 := scM0_0.view

/-- The region invariant with the kernel's scratch as a memref owned at some contents, every other scoped buffer
    carried unopened, and the generator register at some state: what the body obligation hands the run and takes back. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.Kernel.Hand

end
-- ==== Proof.K.E0.RunA.lean ====
/- The edge kernel's whole body at the pipeline `cfg0`, run once in case A: the first grid point (the first `scf.if` taken: the scratch is reset; the second not taken). The run's witness is the list
   of pieces each stored buffer ends with; one module per case, each importing the one before. -/
import proofs.«108204_j49847390437921_1_alg».proof.Proof.K.E0.Runs

-- membership in a rectangle of production extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each stored buffer, as pieces (last first), in case A, with the proof that on whole
    staging memrefs — the seven inputs' at their contents `x0 … x6`, output 7's at anything, output 8's (no store: the window is idle and not written back here) at contents `xi8` handed back untouched, the scratch at anything (it is reset before it is read) —
    the body runs to the continuation holding the inputs' as they were and each stored buffer with its pieces written
    (the body loads output 7's buffer before storing it: the loaded values are not used). The printed function is its
    skeleton, which the symbolic executor runs through the part call; each `scf.if` is decided by the case's hypotheses. -/
noncomputable def kernelRun0_A (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) :
    Σ' (L7 : List (View.Piece (Elt F) S10000x64 .f32)) (L8 : List (View.Piece (Elt F) S1x64 .f32)), { LS0 : List (View.Piece (Elt F) S1x64 .f32) //
      ∀ (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xi8 ∗ (∃ f, arg10.view.loc (c : Thread nD τ) ↦[arg10.view.set]{fullShare} arg10.view.writes (Elt F) f LS0)) -∗ K ⟨⟩))
          ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10) K } := by
  refine ⟨?_, [], ?_, fun xi8 E K => ?run⟩
  case run =>
    simp only [cc0__edge_kernel_eq_skeleton]; unfold cc0__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    iexists _; iexact HS0

end Cert.Kernel.Hand

end
-- ==== Proof.K.E0.RunB.lean ====
/- The edge kernel's whole body at the pipeline `cfg0`, run once in case B: a middle grid point (neither `scf.if` taken). The run's witness is the list
   of pieces each stored buffer ends with; one module per case, each importing the one before. -/
import proofs.«108204_j49847390437921_1_alg».proof.Proof.K.E0.RunA

-- membership in a rectangle of production extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each stored buffer, as pieces (last first), in case B, with the proof that on whole
    staging memrefs — the seven inputs' at their contents `x0 … x6`, output 7's at anything, output 8's (no store: the window is idle and not written back here) at contents `xi8` handed back untouched, the scratch at the contents `xs0` the point before left —
    the body runs to the continuation holding the inputs' as they were and each stored buffer with its pieces written
    (the body loads output 7's buffer before storing it: the loaded values are not used). The printed function is its
    skeleton, which the symbolic executor runs through the part call; each `scf.if` is decided by the case's hypotheses. -/
noncomputable def kernelRun0_B (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    Σ' (L7 : List (View.Piece (Elt F) S10000x64 .f32)) (L8 : List (View.Piece (Elt F) S1x64 .f32)), { LS0 : List (View.Piece (Elt F) S1x64 .f32) //
      ∀ (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xi8 ∗ (∃ f, arg10.view.loc (c : Thread nD τ) ↦[arg10.view.set]{fullShare} arg10.view.writes (Elt F) f LS0)) -∗ K ⟨⟩))
          ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10) K } := by
  refine ⟨?_, [], ?_, fun xi8 E K => ?run⟩
  case run =>
    simp only [cc0__edge_kernel_eq_skeleton]; unfold cc0__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    iexists _; iexact HS0

end Cert.Kernel.Hand

end
-- ==== Proof.K.E0.RunC.lean ====
/- The edge kernel's whole body at the pipeline `cfg0`, run once in case C: the last grid point (the first `scf.if` not taken; the second taken: the scratch is stored to output 8). The run's witness is the list
   of pieces each stored buffer ends with; one module per case, each importing the one before. -/
import proofs.«108204_j49847390437921_1_alg».proof.Proof.K.E0.RunB

-- membership in a rectangle of production extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each stored buffer, as pieces (last first), in case C, with the proof that on whole
    staging memrefs — the seven inputs' at their contents `x0 … x6`, both outputs' at anything, the scratch at the contents `xs0` the point before left —
    the body runs to the continuation holding the inputs' as they were and each stored buffer with its pieces written
    (the body loads output 7's buffer before storing it, and output 8's likewise: the loaded values are not used). The printed function is its
    skeleton, which the symbolic executor runs through the part call; each `scf.if` is decided by the case's hypotheses. -/
noncomputable def kernelRun0_C (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    Σ' (L7 : List (View.Piece (Elt F) S10000x64 .f32)) (L8 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0)) -∗ K ⟨⟩))
          ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__edge_kernel_eq_skeleton]; unfold cc0__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact HS0

end Cert.Kernel.Hand

end
-- ==== Proof.K.E0.Body.lean ====
/- The edge kernel's body at the pipeline `cfg0`, last module: what the two output
   windows' staging buffers and the carried scratch hold after each of the 80 points (per case, then point by point),
   the pipeline's proof data at any entry contents `V` and any input shares `q`, the body obligation at every point,
   and the region invariant's two ends. -/
import proofs.«108204_j49847390437921_1_alg».proof.Proof.K.E0.RunC

-- membership in a rectangle of production extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the stored buffers -/

/-- Case A's pieces for output 7 tile its 10000×64 block (one whole store), so they cover it. -/
theorem cover0_A_7 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (y : S10000x64.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4 x5 x6).1 S10000x64.size (by sl_kernel_rfl) y

/-- What case A leaves in output 7's staging buffer: its pieces read back over junk. -/
def out0_A_7 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) : Vec F S10000x64 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 hc1 x0 x1 x2 x3 x4 x5 x6).1)

/-- Case A stores nothing into output 8 (the window is idle at its points and not written back there): no pieces,
    a placeholder nothing consults, since at these points the window is neither written back nor read at the next point. -/
def out0_A_8 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) : Vec F S1x64 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 hc0 hc1 x0 x1 x2 x3 x4 x5 x6).2.1)

/-- Case A's pieces for the scratch the kernel carries between points cover it. -/
theorem scover0_A_0 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (y : S1x64.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4 x5 x6).2.2.1 S1x64.size (by sl_kernel_rfl) y

/-- What case A leaves in the scratch: its pieces read back over junk. -/
def sout0_A_0 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) : Vec F S1x64 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4 x5 x6).2.2.1)

/-- Case B's pieces for output 7 tile its 10000×64 block (one whole store), so they cover it. -/
theorem cover0_B_7 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S10000x64.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 x5 x6 xs0).1 S10000x64.size (by sl_kernel_rfl) y

/-- What case B leaves in output 7's staging buffer: its pieces read back over junk. -/
def out0_B_7 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S10000x64 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 hc1 x0 x1 x2 x3 x4 x5 x6 xs0).1)

/-- Case B stores nothing into output 8 (the window is idle at its points and not written back there): no pieces,
    a placeholder nothing consults, since at these points the window is neither written back nor read at the next point. -/
def out0_B_8 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 hc0 hc1 x0 x1 x2 x3 x4 x5 x6 xs0).2.1)

/-- Case B's pieces for the scratch the kernel carries between points cover it. -/
theorem scover0_B_0 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S1x64.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 x5 x6 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 x5 x6 xs0).2.2.1 S1x64.size (by sl_kernel_rfl) y

/-- What case B leaves in the scratch: its pieces read back over junk. -/
def sout0_B_0 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 x5 x6 xs0).2.2.1)

/-- Case C's pieces for output 7 tile its 10000×64 block (one whole store), so they cover it. -/
theorem cover0_C_7 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S10000x64.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 x5 x6 xs0).1 S10000x64.size (by sl_kernel_rfl) y

/-- What case C leaves in output 7's staging buffer: its pieces read back over junk. -/
def out0_C_7 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S10000x64 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 x5 x6 xs0).1)

/-- Case C's pieces for output 8 tile its 1×64 block (one whole store), so they cover it. -/
theorem cover0_C_8 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 x5 x6 xs0).2.1 S1x64.size (by sl_kernel_rfl) y

/-- What case C leaves in output 8's staging buffer: its pieces read back over junk. -/
def out0_C_8 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 hc0 hc1 x0 x1 x2 x3 x4 x5 x6 xs0).2.1)

/-- Case C's pieces for the scratch the kernel carries between points cover it. -/
theorem scover0_C_0 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 x5 x6 xs0).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 x5 x6 xs0).2.2.1 S1x64.size (by sl_kernel_rfl) y

/-- What case C leaves in the scratch: its pieces read back over junk. -/
def sout0_C_0 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 x5 x6 xs0).2.2.1)

section Region0

variable (q : Fin cfg0.W → PosShare TreeShare)
variable (V : (c : Dev nD) → (b : Ref sig .tc) → Buf (Elt F) ((c : Thread nD τ).loc b))

/-! ## What the outputs hold after each point -/

/-- THE ACCUMULATION. What output 7's and output 8's staging buffers and the carried scratch hold after the body at
    position `n` (a triple, in that order): the case the closed forms select at `n`, run at the point's memrefs and input
    blocks, the scratch read at what position `n - 1` left in it. An assignment of the conditions no point meets is no case. -/
def outsAt0 (c : Dev nD) : (n : ℕ) → n < cfg0.N → Vec F S10000x64 .f32 × Vec F S1x64 .f32 × Vec F S1x64 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 80 = 0 then
      if h1 : (n + 1) % 80 = 79 then
        False.elim (by omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : (n + 1) % 80 = 79 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2)

/-- `outsAt0` at a point of case A: that case's contents. -/
theorem outsAt0_A (c : Dev nD) (t : Fin cfg0.N) (h0 : t.val % 80 = 0) (h1 : ¬t.val % 80 = 79) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 80 = 0) (h1 : ¬t.val % 80 = 79) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 80 = 0) (h1 : t.val % 80 = 79) :
    outsAt0 V c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer of the region at
    anything, the generator register at some state); afterwards the same with the carried scratch at what the point
    before left in it (`outsAt0`'s third component). -/
def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(iprop(owns (c : Thread nD τ) scM0_0 fullShare (outsAt0 V c n hn).2.2) ∗ Pipeline.scopedRestBut (Ix := Unit) (Name := ℕ) (U := UR sig nD τ) (Lvl := ℕ) (Val := Elt F) spec0 c [cc0_scratch0]) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).2.2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the outputs' at `outsAt0`'s first two components; the invariant `PhiS0`;
    the inputs' shares `q`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
  Φ t := PhiS0 V c t.val (Nat.le_of_lt_succ t.isLt)
  q := q
  owed _ := 0

/-- The proof data's arrays are the region-entry contents (the definition projected, so that `V` is never unfolded). -/
theorem A_eq0 (c : Dev nD) (w : Fin cfg0.W) : (dat0 q V c).A w = V c (Pipeline.arrRef spec0 w) := by
  dsimp only [dat0]

/-- The invariant at a point's start (the proof data at `t.castSucc`), restated at `t.val`. -/
theorem PhiS0_castSucc (c : Dev nD) (t : Fin cfg0.N) :
    (dat0 q V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 q V c).after 0 t = iblk0 V c 0 t := by dsimp only [dat0]
theorem after0_1 (c : Dev nD) (t : Fin cfg0.N) : (dat0 q V c).after 1 t = iblk0 V c 1 t := by dsimp only [dat0]
theorem after0_2 (c : Dev nD) (t : Fin cfg0.N) : (dat0 q V c).after 2 t = iblk0 V c 2 t := by dsimp only [dat0]
theorem after0_3 (c : Dev nD) (t : Fin cfg0.N) : (dat0 q V c).after 3 t = iblk0 V c 3 t := by dsimp only [dat0]
theorem after0_4 (c : Dev nD) (t : Fin cfg0.N) : (dat0 q V c).after 4 t = iblk0 V c 4 t := by dsimp only [dat0]
theorem after0_5 (c : Dev nD) (t : Fin cfg0.N) : (dat0 q V c).after 5 t = iblk0 V c 5 t := by dsimp only [dat0]
theorem after0_6 (c : Dev nD) (t : Fin cfg0.N) : (dat0 q V c).after 6 t = iblk0 V c 6 t := by dsimp only [dat0]
theorem after0_7 (c : Dev nD) (t : Fin cfg0.N) : (dat0 q V c).after 7 t = (outsAt0 V c t.val t.isLt).1 := by dsimp only [dat0]
theorem after0_8 (c : Dev nD) (t : Fin cfg0.N) : (dat0 q V c).after 8 t = (outsAt0 V c t.val t.isLt).2.1 := by dsimp only [dat0]

/-- Each input's current staging buffer holds its block at every point, fetched there or not. -/
theorem before0_0 (c : Dev nD) (t : Fin cfg0.N) (d) : (dat0 q V c).before 0 t d = iblk0 V c 0 t :=
  before0_0_of V (dat0 q V c) (A_eq0 q V c 0) (after0_0 q V c) t d
theorem before0_1 (c : Dev nD) (t : Fin cfg0.N) (d) : (dat0 q V c).before 1 t d = iblk0 V c 1 t :=
  before0_1_of V (dat0 q V c) (A_eq0 q V c 1) (after0_1 q V c) t d
theorem before0_2 (c : Dev nD) (t : Fin cfg0.N) (d) : (dat0 q V c).before 2 t d = iblk0 V c 2 t :=
  before0_2_of V (dat0 q V c) (A_eq0 q V c 2) (after0_2 q V c) t d
theorem before0_3 (c : Dev nD) (t : Fin cfg0.N) (d) : (dat0 q V c).before 3 t d = iblk0 V c 3 t :=
  before0_3_of V (dat0 q V c) (A_eq0 q V c 3) (after0_3 q V c) t d
theorem before0_4 (c : Dev nD) (t : Fin cfg0.N) (d) : (dat0 q V c).before 4 t d = iblk0 V c 4 t :=
  before0_4_of V (dat0 q V c) (A_eq0 q V c 4) (after0_4 q V c) t d
theorem before0_5 (c : Dev nD) (t : Fin cfg0.N) (d) : (dat0 q V c).before 5 t d = iblk0 V c 5 t :=
  before0_5_of V (dat0 q V c) (A_eq0 q V c 5) (after0_5 q V c) t d
theorem before0_6 (c : Dev nD) (t : Fin cfg0.N) (d) : (dat0 q V c).before 6 t d = iblk0 V c 6 t :=
  before0_6_of V (dat0 q V c) (A_eq0 q V c 6) (after0_6 q V c) t d

/-! ## The body obligation, at a generic point -/

/-- What the body is called with at point `t` (the obligation's precondition, the windows one by one), -/
def bodyPre0 (c : Dev nD) (t : Fin cfg0.N) : sProp 𝕄 :=
  iprop((dat0 q V c).Φ t.castSucc ∗ (dat0 q V c).owesAt () t.castSucc
    ∗ (∃ d, owns (c : Thread nD τ) (ms0_0 t) fullShare ((dat0 q V c).before 0 t d))
    ∗ (∃ d, owns (c : Thread nD τ) (ms0_1 t) fullShare ((dat0 q V c).before 1 t d))
    ∗ (∃ d, owns (c : Thread nD τ) (ms0_2 t) fullShare ((dat0 q V c).before 2 t d))
    ∗ (∃ d, owns (c : Thread nD τ) (ms0_3 t) fullShare ((dat0 q V c).before 3 t d))
    ∗ (∃ d, owns (c : Thread nD τ) (ms0_4 t) fullShare ((dat0 q V c).before 4 t d))
    ∗ (∃ d, owns (c : Thread nD τ) (ms0_5 t) fullShare ((dat0 q V c).before 5 t d))
    ∗ (∃ d, owns (c : Thread nD τ) (ms0_6 t) fullShare ((dat0 q V c).before 6 t d))
    ∗ (∃ d, owns (c : Thread nD τ) (ms0_7 t) fullShare ((dat0 q V c).before 7 t d))
    ∗ (∃ d, owns (c : Thread nD τ) (ms0_8 t) fullShare ((dat0 q V c).before 8 t d)))

/-- and what it returns. -/
def bodyPost0 (c : Dev nD) (t : Fin cfg0.N) : sProp 𝕄 :=
  iprop((dat0 q V c).Φ t.succ ∗ (dat0 q V c).owesAt () t.succ
    ∗ (dat0 q V c).leavesExact 0 t
    ∗ (dat0 q V c).leavesExact 1 t
    ∗ (dat0 q V c).leavesExact 2 t
    ∗ (dat0 q V c).leavesExact 3 t
    ∗ (dat0 q V c).leavesExact 4 t
    ∗ (dat0 q V c).leavesExact 5 t
    ∗ (dat0 q V c).leavesExact 6 t
    ∗ (dat0 q V c).leavesExact 7 t
    ∗ (dat0 q V c).leavesExact 8 t)

set_option maxHeartbeats 4800000 in
/-- The body at any point: the inputs' memrefs hold their blocks; the closed forms say which case the point is in; so that
    case's run applies. The invariant hands the body the carried scratch at what the point before left (at anything at the
    first point) and takes it back at this point's contents; output 7's buffer comes back at the case's pieces read back,
    output 8's untouched where the case does not store it; the other scoped buffers, the generator register and what the
    core owes pass through unread. -/
theorem sound_body0 (c : Dev nD) (t : Fin cfg0.N) :
    bodyPre0 q V c t ⊢ wp frame (wpE (defs₀ (F := F)) Variants.none c none) Set.univ (bodyAt0 t) (fun _ => bodyPost0 q V c t) := by
  unfold bodyPre0 bodyPost0 bodyAt0
  simp only [before0_0, before0_1, before0_2, before0_3, before0_4, before0_5, before0_6]
  rw [show (dat0 q V c).owesAt () t.succ = (dat0 q V c).owesAt () t.castSucc from rfl]
  rw [show (dat0 q V c).Φ t.succ = PhiS0 V c (t.val + 1) t.isLt from rfl, PhiS0_succ]
  have hN : t.val < 80 := lt_of_lt_of_eq t.isLt (show cfg0.N = 80 from N_0)
  by_cases h0 : t.val % 80 = 0
  · by_cases h1 : t.val % 80 = 79
    · exfalso; omega
    ·
      rw [show (dat0 q V c).leavesExact 0 t = owns (c : Thread nD τ) (ms0_0 t) fullShare ((dat0 q V c).after 0 t) from by
        unfold Dat.leavesExact; rw [liveAt0_0 t], after0_0]
      rw [show (dat0 q V c).leavesExact 1 t = owns (c : Thread nD τ) (ms0_1 t) fullShare ((dat0 q V c).after 1 t) from by
        unfold Dat.leavesExact; rw [liveAt0_1 t], after0_1]
      rw [show (dat0 q V c).leavesExact 2 t = owns (c : Thread nD τ) (ms0_2 t) fullShare ((dat0 q V c).after 2 t) from by
        unfold Dat.leavesExact; rw [liveAt0_2 t], after0_2]
      rw [show (dat0 q V c).leavesExact 3 t = owns (c : Thread nD τ) (ms0_3 t) fullShare ((dat0 q V c).after 3 t) from by
        unfold Dat.leavesExact; rw [liveAt0_3 t], after0_3]
      rw [show (dat0 q V c).leavesExact 4 t = owns (c : Thread nD τ) (ms0_4 t) fullShare ((dat0 q V c).after 4 t) from by
        unfold Dat.leavesExact; rw [liveAt0_4 t], after0_4]
      rw [show (dat0 q V c).leavesExact 5 t = owns (c : Thread nD τ) (ms0_5 t) fullShare ((dat0 q V c).after 5 t) from by
        unfold Dat.leavesExact; rw [liveAt0_5 t], after0_5]
      rw [show (dat0 q V c).leavesExact 6 t = owns (c : Thread nD τ) (ms0_6 t) fullShare ((dat0 q V c).after 6 t) from by
        unfold Dat.leavesExact; rw [liveAt0_6 t], after0_6]
      rw [show (dat0 q V c).leavesExact 7 t = owns (c : Thread nD τ) (ms0_7 t) fullShare ((dat0 q V c).after 7 t) from by
        unfold Dat.leavesExact; rw [liveAt0_7 t], after0_7]
      rw [Dat.leavesExact_idle (dat0 q V c) 8 t (idleAt0_8_A t ((hcond0_0 t).mpr h0) (fun h => h1 ((hcond0_1 t).mp h))) (noFlush0_8_A t ((hcond0_0 t).mpr h0) (fun h => h1 ((hcond0_1 t).mp h)))]
      rw [outsAt0_A V c t h0 h1]
      unfold out0_A_7 sout0_A_0; (try dsimp only)
      by_cases hz : t.val = 0
      ·
        rw [PhiS0_castSucc q V c t, PhiS0_zero V c _ _ hz, PhiA0_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        iintro ⟨H0, H1, H2, H3, H4, H5, H6, ⟨%e7, H7⟩, H8, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _)
        iexists _; iexact H8
      · exfalso; omega
  · by_cases h1 : t.val % 80 = 79
    ·
      rw [show (dat0 q V c).leavesExact 0 t = owns (c : Thread nD τ) (ms0_0 t) fullShare ((dat0 q V c).after 0 t) from by
        unfold Dat.leavesExact; rw [liveAt0_0 t], after0_0]
      rw [show (dat0 q V c).leavesExact 1 t = owns (c : Thread nD τ) (ms0_1 t) fullShare ((dat0 q V c).after 1 t) from by
        unfold Dat.leavesExact; rw [liveAt0_1 t], after0_1]
      rw [show (dat0 q V c).leavesExact 2 t = owns (c : Thread nD τ) (ms0_2 t) fullShare ((dat0 q V c).after 2 t) from by
        unfold Dat.leavesExact; rw [liveAt0_2 t], after0_2]
      rw [show (dat0 q V c).leavesExact 3 t = owns (c : Thread nD τ) (ms0_3 t) fullShare ((dat0 q V c).after 3 t) from by
        unfold Dat.leavesExact; rw [liveAt0_3 t], after0_3]
      rw [show (dat0 q V c).leavesExact 4 t = owns (c : Thread nD τ) (ms0_4 t) fullShare ((dat0 q V c).after 4 t) from by
        unfold Dat.leavesExact; rw [liveAt0_4 t], after0_4]
      rw [show (dat0 q V c).leavesExact 5 t = owns (c : Thread nD τ) (ms0_5 t) fullShare ((dat0 q V c).after 5 t) from by
        unfold Dat.leavesExact; rw [liveAt0_5 t], after0_5]
      rw [show (dat0 q V c).leavesExact 6 t = owns (c : Thread nD τ) (ms0_6 t) fullShare ((dat0 q V c).after 6 t) from by
        unfold Dat.leavesExact; rw [liveAt0_6 t], after0_6]
      rw [show (dat0 q V c).leavesExact 7 t = owns (c : Thread nD τ) (ms0_7 t) fullShare ((dat0 q V c).after 7 t) from by
        unfold Dat.leavesExact; rw [liveAt0_7 t], after0_7]
      rw [show (dat0 q V c).leavesExact 8 t = owns (c : Thread nD τ) (ms0_8 t) fullShare ((dat0 q V c).after 8 t) from by
        unfold Dat.leavesExact; rw [liveAt0_8_C t (fun h => h0 ((hcond0_0 t).mp h)) ((hcond0_1 t).mpr h1)], after0_8]
      rw [outsAt0_C V c t h0 h1]
      unfold out0_C_7 out0_C_8 sout0_C_0; (try dsimp only)
      by_cases hz : t.val = 0
      · exfalso; omega
      ·
        rw [PhiS0_castSucc q V c t, PhiS0_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        iintro ⟨H0, H1, H2, H3, H4, H5, H6, ⟨%e7, H7⟩, ⟨%e8, H8⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _)
    ·
      rw [show (dat0 q V c).leavesExact 0 t = owns (c : Thread nD τ) (ms0_0 t) fullShare ((dat0 q V c).after 0 t) from by
        unfold Dat.leavesExact; rw [liveAt0_0 t], after0_0]
      rw [show (dat0 q V c).leavesExact 1 t = owns (c : Thread nD τ) (ms0_1 t) fullShare ((dat0 q V c).after 1 t) from by
        unfold Dat.leavesExact; rw [liveAt0_1 t], after0_1]
      rw [show (dat0 q V c).leavesExact 2 t = owns (c : Thread nD τ) (ms0_2 t) fullShare ((dat0 q V c).after 2 t) from by
        unfold Dat.leavesExact; rw [liveAt0_2 t], after0_2]
      rw [show (dat0 q V c).leavesExact 3 t = owns (c : Thread nD τ) (ms0_3 t) fullShare ((dat0 q V c).after 3 t) from by
        unfold Dat.leavesExact; rw [liveAt0_3 t], after0_3]
      rw [show (dat0 q V c).leavesExact 4 t = owns (c : Thread nD τ) (ms0_4 t) fullShare ((dat0 q V c).after 4 t) from by
        unfold Dat.leavesExact; rw [liveAt0_4 t], after0_4]
      rw [show (dat0 q V c).leavesExact 5 t = owns (c : Thread nD τ) (ms0_5 t) fullShare ((dat0 q V c).after 5 t) from by
        unfold Dat.leavesExact; rw [liveAt0_5 t], after0_5]
      rw [show (dat0 q V c).leavesExact 6 t = owns (c : Thread nD τ) (ms0_6 t) fullShare ((dat0 q V c).after 6 t) from by
        unfold Dat.leavesExact; rw [liveAt0_6 t], after0_6]
      rw [show (dat0 q V c).leavesExact 7 t = owns (c : Thread nD τ) (ms0_7 t) fullShare ((dat0 q V c).after 7 t) from by
        unfold Dat.leavesExact; rw [liveAt0_7 t], after0_7]
      rw [Dat.leavesExact_idle (dat0 q V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B V c t h0 h1]
      unfold out0_B_7 sout0_B_0; (try dsimp only)
      by_cases hz : t.val = 0
      · exfalso; omega
      ·
        rw [PhiS0_castSucc q V c t, PhiS0_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        iintro ⟨H0, H1, H2, H3, H4, H5, H6, ⟨%e7, H7⟩, H8, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _)
        iexists _; iexact H8

/-- The library's body obligation, at every point. -/
theorem body_obligation0 (c : Dev nD) : BodyObligation (dat0 (F := F) q V c) (defs₀ (F := F)) Variants.none () Set.univ := fun t => by
  rw [bigSep_W0, bigSep_W0]
  exact sound_body0 q V c t

/-- What the launch hands the region is the invariant before the first point. -/
theorem hin0 (c : Dev nD) : Pipeline.ΦA spec0 c ⊢ (dat0 q V c).Φ 0 := by
  rw [show (dat0 q V c).Φ 0 = PhiS0 V c 0 (Nat.zero_le _) from rfl, PhiS0_zero V c 0 _ rfl]
  try exact Idealize.SL.BI.Entails.refl _

/-- After any point but the first the invariant gives the class's back: the carried scratch's named contents are forgotten. -/
theorem Phi_out0 (c : Dev nD) (t : Fin (cfg0.N + 1)) (ht : t.val ≠ 0) : (dat0 q V c).Φ t ⊢ Pipeline.ΦA spec0 c := by
  rw [show (dat0 q V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 q V c).Φ (Fin.last cfg0.N) ⊢ Pipeline.ΦA spec0 c :=
  Phi_out0 q V c _ (by rw [Fin.val_last]; have : cfg0.N = 80 := N_0; omega)

end Region0

end Cert.Kernel.Hand

end
-- ==== Proof.K.N1.Runs.lean ====
/- The node kernel at this region: what the three cases of its body share. Each window's block at a point, read off the
   contents the region is entered with (a parameter `V`); each input's staging buffer at its block at every point;
   the body's two branch conditions, decided over the ten grid points (the first point resets the accumulator, the
   last stores it to output 7); where the windows are idle; the staging and scratch memrefs as the pipeline passes
   them; and the region invariant with the kernel's own scratch split out of the scoped rest. -/
import proofs.«108204_j49847390437921_1_alg».proof.Proof.Gen.Kernel.Launch
import proofs.«108204_j49847390437921_1_alg».proof.Proof.Gen.Kernel.Skeleton
import proofs.«108204_j49847390437921_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of the blocks' extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): unfetched, the block index
    has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): unfetched, the block index
    has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's branch conditions -/

/-- The condition of the body's first `scf.if` (the accumulator's reset), from the grid coordinates: the part's
    scalar chain substituted. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val % 10 = 0 :=
  (by decide +kernel : ∀ t : Fin grid1.N, cond1_0 (grid1.coords t) ↔ t.val % 10 = 0)

/-- The condition of the body's second `scf.if` (the store of the accumulator to output 7). -/
abbrev cond1_1 (i : grid1.Coords) : Prop := k1_cond2 i = 1#1
/-- It holds at the last point only — decided over the grid. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Window 5 is never idle (an input). -/
theorem liveAt1_5 : ∀ t : Fin cfg1.N, cfg1.idle 5 (grid1.coords t) = false := by decide +kernel
/-- Window 6 is never idle (stored at every point). -/
theorem liveAt1_6 : ∀ t : Fin cfg1.N, cfg1.idle 6 (grid1.coords t) = false := by decide +kernel

/-- At the first point output 7 is idle: the case stores nothing into it. -/
theorem idleAt1_7_A : ∀ t : Fin cfg1.N, cond1_0 (grid1.coords t) → ¬cond1_1 (grid1.coords t) → cfg1.idle 7 (grid1.coords t) = true := by decide +kernel
/-- At the first point the pipeline does not write output 7's block back. -/
theorem noFlush1_7_A : ∀ t : Fin cfg1.N, cond1_0 (grid1.coords t) → ¬cond1_1 (grid1.coords t) → (cfg1.win 7).flush t = false := by decide +kernel
/-- At a middle point output 7 is idle: the case stores nothing into it. -/
theorem idleAt1_7_B : ∀ t : Fin cfg1.N, ¬cond1_0 (grid1.coords t) → ¬cond1_1 (grid1.coords t) → cfg1.idle 7 (grid1.coords t) = true := by decide +kernel
/-- At a middle point the pipeline does not write output 7's block back. -/
theorem noFlush1_7_B : ∀ t : Fin cfg1.N, ¬cond1_0 (grid1.coords t) → ¬cond1_1 (grid1.coords t) → (cfg1.win 7).flush t = false := by decide +kernel
/-- At the last point output 7 is live: the case stores into it. -/
theorem liveAt1_7_C : ∀ t : Fin cfg1.N, ¬cond1_0 (grid1.coords t) → cond1_1 (grid1.coords t) → cfg1.idle 7 (grid1.coords t) = false := by decide +kernel

/-! ## The staging and scratch memrefs -/

/-- One staging buffer of each output window, through which its contents are stated (read back over its pieces: the
    choice of buffer does not matter). -/
abbrev VO1_6 : View sig .tc .vmem S10000x64 .f32 := (Memref.whole cc1_stg6_0 : Memref sig .tc .vmem S10000x64 .f32).view
abbrev VO1_7 : View sig .tc .vmem S1x64 .f32 := (Memref.whole cc1_stg7_0 : Memref sig .tc .vmem S1x64 .f32).view
/-- Each window's current staging memref at point `t`, spelled as the pipeline passes it, and its wholeness. -/
abbrev ms1_0 (t : Fin cfg1.N) : Memref sig .tc .vmem S10000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10000x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4x64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S10000x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x64 .f32 := win1_7.stage (cfg1.slots t 7)
abbrev hs1_7 (t : Fin cfg1.N) : (ms1_7 t).IsWhole := hstage1_7 ((cfg1.slots t 7).cast nbuf1_7)
/-- The scratch operand: a whole scoped buffer of the kernel's own, passed beside the windows. -/
abbrev scM1_0 : Memref sig .tc .vmem S1x64 .f32 := Memref.whole cc1_scratch0
/-- The scratch the kernel carries between points, as a view: what it holds is stated through it. -/
abbrev VS1_0 : View sig .tc .vmem S1x64 .f32 := scM1_0.view

/-- The class's region invariant with the kernel's scratch split out as a memref owned at some contents; the other
    scoped buffers stay unopened beside it. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.Hand

end
-- ==== Proof.K.N1.RunA.lean ====
/- The node kernel at this region: the run of its whole body at the first point (one module per case, each importing the one
   before it, so that each case elaborates on its own and an auxiliary equation of the part's skeleton is declared once). -/
import proofs.«108204_j49847390437921_1_alg».proof.Proof.K.N1.Runs

-- membership in a rectangle of the blocks' extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), at the first point: the accumulator's reset is taken, the store to output 7 is not;
    WITH the proof that on whole staging memrefs — the inputs' at their contents `x·`, output 6's at anything (the body
    loads it before storing, and uses nothing of what it loads), output 7's, into which the case stores nothing, at contents
    `xi7` handed back untouched, the scratch at anything (the reset overwrites it before it is read) — the
    body runs to the continuation holding the inputs' as they were and each written buffer with its pieces written. The
    printed function is its skeleton, run through its part; each `scf.if` is decided by the case's hypotheses; the
    pieces are the witness the run finds. -/
noncomputable def kernelRun1_A (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) :
    Σ' (L6 : List (View.Piece (Elt F) S10000x64 .f32)) (L7 : List (View.Piece (Elt F) S1x64 .f32)), { LS0 : List (View.Piece (Elt F) S1x64 .f32) //
      ∀ (xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc1__node_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc1__node_kernel_eq_skeleton]; unfold cc1__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

end Cert.Kernel.Hand

end
-- ==== Proof.K.N1.RunB.lean ====
/- The node kernel at this region: the run of its whole body at a middle point (one module per case, each importing the one
   before it, so that each case elaborates on its own and an auxiliary equation of the part's skeleton is declared once). -/
import proofs.«108204_j49847390437921_1_alg».proof.Proof.K.N1.RunA

-- membership in a rectangle of the blocks' extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), at a middle point: neither the accumulator's reset nor the store to output 7 is taken;
    WITH the proof that on whole staging memrefs — the inputs' at their contents `x·`, output 6's at anything (the body
    loads it before storing, and uses nothing of what it loads), output 7's, into which the case stores nothing, at contents
    `xi7` handed back untouched, the scratch at what the point before left (`xs0`) — the
    body runs to the continuation holding the inputs' as they were and each written buffer with its pieces written. The
    printed function is its skeleton, run through its part; each `scf.if` is decided by the case's hypotheses; the
    pieces are the witness the run finds. -/
noncomputable def kernelRun1_B (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) :
    Σ' (L6 : List (View.Piece (Elt F) S10000x64 .f32)) (L7 : List (View.Piece (Elt F) S1x64 .f32)), { LS0 : List (View.Piece (Elt F) S1x64 .f32) //
      ∀ (xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc1__node_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc1__node_kernel_eq_skeleton]; unfold cc1__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

end Cert.Kernel.Hand

end
-- ==== Proof.K.N1.RunC.lean ====
/- The node kernel at this region: the run of its whole body at the last point (one module per case, each importing the one
   before it, so that each case elaborates on its own and an auxiliary equation of the part's skeleton is declared once). -/
import proofs.«108204_j49847390437921_1_alg».proof.Proof.K.N1.RunB

-- membership in a rectangle of the blocks' extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), at the last point: the accumulator's reset is not taken, the store to output 7 is;
    WITH the proof that on whole staging memrefs — the inputs' at their contents `x·`, output 6's at anything (the body
    loads it before storing, and uses nothing of what it loads), output 7's at anything (likewise), the scratch at what the point before left (`xs0`) — the
    body runs to the continuation holding the inputs' as they were and each written buffer with its pieces written. The
    printed function is its skeleton, run through its part; each `scf.if` is decided by the case's hypotheses; the
    pieces are the witness the run finds. -/
noncomputable def kernelRun1_C (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) :
    Σ' (L6 : List (View.Piece (Elt F) S10000x64 .f32)) (L7 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc1__node_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc1__node_kernel_eq_skeleton]; unfold cc1__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.Kernel.Hand

end
-- ==== Proof.K.N1.Body.lean ====
/- The node kernel at this region: its proof data and body obligation, at region-entry contents `V` and array shares `q`.
   From the three runs: what each case leaves in output 6's and output 7's staging buffers and in the scratch (its
   pieces read back; they cover the buffer); the accumulation `outsAt1` over the ten points (the scratch carried from
   point to point); the region invariant with the scratch at what the point before left; the proof data `dat1`; the
   body at a generic point, by cases on the point; and the invariant's two ends. -/
import proofs.«108204_j49847390437921_1_alg».proof.Proof.K.N1.RunC

-- membership in a rectangle of the blocks' extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the share held of each window's array, and the TensorCore's buffer contents when the region is entered
variable (q : Fin cfg1.W → PosShare TreeShare) (V : (c : Dev nD) → (b : Ref sig .tc) → Buf (Elt F) ((c : Thread nD τ).loc b))

/-! ## What each case leaves -/

/-- The pieces the first point stores into output 6 tile its block (one store of the whole block), so they cover it. -/
theorem cover1_A_6 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) (y : S10000x64.Idx) :
    ∃ pc ∈ (kernelRun1_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3 x4 x5).1 S10000x64.size (by sl_kernel_rfl) y

/-- What the first point leaves in output 6's staging buffer: its pieces read back over junk. -/
def out1_A_6 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) : Vec F S10000x64 .f32 :=
  VO1_6.read (Elt F) (VO1_6.writes (Elt F) VO1_6.junk (kernelRun1_A c i arg1 harg1 arg2 harg2 arg3 harg3 arg4 harg4 arg5 harg5 arg6 harg6 arg7 harg7 arg8 harg8 arg9 harg9 hc0 hc1 x0 x1 x2 x3 x4 x5).1)

/-- The first point stores nothing into output 7 (the window is idle there and not written back): no pieces — a
    placeholder that nothing consults, the window being neither written back there nor read at the next point. -/
def out1_A_7 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) : Vec F S1x64 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 hc0 hc1 x0 x1 x2 x3 x4 x5).2.1)

/-- The pieces the first point stores into the scratch cover it. -/
theorem scover1_A_0 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) (y : S1x64.Idx) :
    ∃ pc ∈ (kernelRun1_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3 x4 x5).2.2.1 S1x64.size (by sl_kernel_rfl) y

/-- What the first point leaves in the scratch: its pieces read back over junk. -/
def sout1_A_0 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) : Vec F S1x64 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 hc0 hc1 x0 x1 x2 x3 x4 x5).2.2.1)

/-- The pieces a middle point stores into output 6 tile its block (one store of the whole block), so they cover it. -/
theorem cover1_B_6 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S10000x64.Idx) :
    ∃ pc ∈ (kernelRun1_B c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 x4 x5 xs0).1 S10000x64.size (by sl_kernel_rfl) y

/-- What a middle point leaves in output 6's staging buffer: its pieces read back over junk. -/
def out1_B_6 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S10000x64 .f32 :=
  VO1_6.read (Elt F) (VO1_6.writes (Elt F) VO1_6.junk (kernelRun1_B c i arg1 harg1 arg2 harg2 arg3 harg3 arg4 harg4 arg5 harg5 arg6 harg6 arg7 harg7 arg8 harg8 arg9 harg9 hc0 hc1 x0 x1 x2 x3 x4 x5 xs0).1)

/-- A middle point stores nothing into output 7 (the window is idle there and not written back): no pieces — a
    placeholder that nothing consults, the window being neither written back there nor read at the next point. -/
def out1_B_7 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VO1_7.read (Elt F) (VO1_7.writes (Elt F) VO1_7.junk (kernelRun1_B c i arg1 harg1 arg2 harg2 arg3 harg3 arg4 harg4 arg5 harg5 arg6 harg6 arg7 harg7 arg8 harg8 arg9 harg9 hc0 hc1 x0 x1 x2 x3 x4 x5 xs0).2.1)

/-- The pieces a middle point stores into the scratch cover it. -/
theorem scover1_B_0 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S1x64.Idx) :
    ∃ pc ∈ (kernelRun1_B c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 x4 x5 xs0).2.2.1 S1x64.size (by sl_kernel_rfl) y

/-- What a middle point leaves in the scratch: its pieces read back over junk. -/
def sout1_B_0 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 hc0 hc1 x0 x1 x2 x3 x4 x5 xs0).2.2.1)

/-- The pieces the last point stores into output 6 tile its block (one store of the whole block), so they cover it. -/
theorem cover1_C_6 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S10000x64.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 xs0).1 S10000x64.size (by sl_kernel_rfl) y

/-- What the last point leaves in output 6's staging buffer: its pieces read back over junk. -/
def out1_C_6 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S10000x64 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 hc0 hc1 x0 x1 x2 x3 x4 x5 xs0).1)

/-- The pieces the last point stores into output 7 tile its block (one store of the whole block), so they cover it. -/
theorem cover1_C_7 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S1x64.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 xs0).2.1 S1x64.size (by sl_kernel_rfl) y

/-- What the last point leaves in output 7's staging buffer: its pieces read back over junk. -/
def out1_C_7 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VO1_7.read (Elt F) (VO1_7.writes (Elt F) VO1_7.junk (kernelRun1_C c i arg1 harg1 arg2 harg2 arg3 harg3 arg4 harg4 arg5 harg5 arg6 harg6 arg7 harg7 arg8 harg8 arg9 harg9 hc0 hc1 x0 x1 x2 x3 x4 x5 xs0).2.1)

/-- The pieces the last point stores into the scratch cover it. -/
theorem scover1_C_0 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S1x64.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 xs0).2.2.1 S1x64.size (by sl_kernel_rfl) y

/-- What the last point leaves in the scratch: its pieces read back over junk. -/
def sout1_C_0 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 hc0 hc1 x0 x1 x2 x3 x4 x5 xs0).2.2.1)

/-! ## What the outputs and the scratch hold after each point -/

/-- THE ACCUMULATION. What output 6's and output 7's staging buffers and the scratch hold after the body at position
    `n`: the case the closed forms select at `n`, run at the point's memrefs and input blocks, the scratch at what
    this leaves at `n - 1`. An assignment of the conditions no point meets is no case. -/
def outsAt1 (c : Dev nD) : (n : ℕ) → n < cfg1.N → Vec F S10000x64 .f32 × Vec F S1x64 .f32 × Vec F S1x64 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 10 = 0 then
      if h1 : (n + 1) % 10 = 9 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 10 = 9 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2, out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2)

/-- `outsAt1` at the first point: that case's contents. -/
theorem outsAt1_A (c : Dev nD) (t : Fin cfg1.N) (h0 : t.val % 10 = 0) (h1 : ¬t.val % 10 = 9) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a middle point: that case's contents, over what the point before left. -/
theorem outsAt1_B (c : Dev nD) (t : Fin cfg1.N) (h0 : ¬t.val % 10 = 0) (h1 : ¬t.val % 10 = 9) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last point: that case's contents, over what the point before left. -/
theorem outsAt1_C (c : Dev nD) (t : Fin cfg1.N) (h0 : ¬t.val % 10 = 0) (h1 : t.val % 10 = 9) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the class's (the scratch at anything);
    afterwards the scratch at what the point before left in it (`outsAt1`'s third component), the other scoped buffers
    unopened, and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2)) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(iprop(owns (c : Thread nD τ) scM1_0 fullShare ((outsAt1 V c n hn).2.2)) ∗ Pipeline.scopedRestBut (Ix := Unit) (Name := ℕ) (U := UR sig nD τ) (Lvl := ℕ) (Val := Elt F) spec1 c [cc1_scratch0]) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the outputs' at `outsAt1`'s components; the invariant `PhiS1`;
    nothing owed; the arrays' shares `q`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
  Φ t := PhiS1 V c t.val (Nat.le_of_lt_succ t.isLt)
  q := q
  owed _ := 0

/-- The proof data's arrays are the region-entry contents (the definition projected, `V` never unfolded). -/
theorem A_eq1 (c : Dev nD) (w : Fin cfg1.W) : (dat1 q V c).A w = V c (Pipeline.arrRef spec1 w) := by
  dsimp only [dat1]

/-- The invariant at a point's start, restated at `t.val`. -/
theorem PhiS1_castSucc (c : Dev nD) (t : Fin cfg1.N) :
    (dat1 q V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 q V c).after 0 t = iblk1 V c 0 t := by dsimp only [dat1]
theorem after1_1 (c : Dev nD) (t : Fin cfg1.N) : (dat1 q V c).after 1 t = iblk1 V c 1 t := by dsimp only [dat1]
theorem after1_2 (c : Dev nD) (t : Fin cfg1.N) : (dat1 q V c).after 2 t = iblk1 V c 2 t := by dsimp only [dat1]
theorem after1_3 (c : Dev nD) (t : Fin cfg1.N) : (dat1 q V c).after 3 t = iblk1 V c 3 t := by dsimp only [dat1]
theorem after1_4 (c : Dev nD) (t : Fin cfg1.N) : (dat1 q V c).after 4 t = iblk1 V c 4 t := by dsimp only [dat1]
theorem after1_5 (c : Dev nD) (t : Fin cfg1.N) : (dat1 q V c).after 5 t = iblk1 V c 5 t := by dsimp only [dat1]
theorem after1_6 (c : Dev nD) (t : Fin cfg1.N) : (dat1 q V c).after 6 t = (outsAt1 V c t.val t.isLt).1 := by dsimp only [dat1]
theorem after1_7 (c : Dev nD) (t : Fin cfg1.N) : (dat1 q V c).after 7 t = (outsAt1 V c t.val t.isLt).2.1 := by dsimp only [dat1]

/-- Each input's current staging buffer holds its block at every point, fetched there or not. -/
theorem before1_0 (c : Dev nD) (t : Fin cfg1.N) (d) : (dat1 q V c).before 0 t d = iblk1 V c 0 t :=
  before1_0_of V (dat1 q V c) (A_eq1 q V c 0) (after1_0 q V c) t d
theorem before1_1 (c : Dev nD) (t : Fin cfg1.N) (d) : (dat1 q V c).before 1 t d = iblk1 V c 1 t :=
  before1_1_of V (dat1 q V c) (A_eq1 q V c 1) (after1_1 q V c) t d
theorem before1_2 (c : Dev nD) (t : Fin cfg1.N) (d) : (dat1 q V c).before 2 t d = iblk1 V c 2 t :=
  before1_2_of V (dat1 q V c) (A_eq1 q V c 2) (after1_2 q V c) t d
theorem before1_3 (c : Dev nD) (t : Fin cfg1.N) (d) : (dat1 q V c).before 3 t d = iblk1 V c 3 t :=
  before1_3_of V (dat1 q V c) (A_eq1 q V c 3) (after1_3 q V c) t d
theorem before1_4 (c : Dev nD) (t : Fin cfg1.N) (d) : (dat1 q V c).before 4 t d = iblk1 V c 4 t :=
  before1_4_of V (dat1 q V c) (A_eq1 q V c 4) (after1_4 q V c) t d
theorem before1_5 (c : Dev nD) (t : Fin cfg1.N) (d) : (dat1 q V c).before 5 t d = iblk1 V c 5 t :=
  before1_5_of V (dat1 q V c) (A_eq1 q V c 5) (after1_5 q V c) t d

/-! ## The body obligation, at a generic point -/

/-- What the body is called with at point `t` (the body obligation's precondition, the windows one by one), -/
def bodyPre1 (c : Dev nD) (t : Fin cfg1.N) : sProp 𝕄 :=
  iprop((dat1 q V c).Φ t.castSucc ∗ (dat1 q V c).owesAt () t.castSucc
    ∗ (∃ d, owns (c : Thread nD τ) (ms1_0 t) fullShare ((dat1 q V c).before 0 t d))
    ∗ (∃ d, owns (c : Thread nD τ) (ms1_1 t) fullShare ((dat1 q V c).before 1 t d))
    ∗ (∃ d, owns (c : Thread nD τ) (ms1_2 t) fullShare ((dat1 q V c).before 2 t d))
    ∗ (∃ d, owns (c : Thread nD τ) (ms1_3 t) fullShare ((dat1 q V c).before 3 t d))
    ∗ (∃ d, owns (c : Thread nD τ) (ms1_4 t) fullShare ((dat1 q V c).before 4 t d))
    ∗ (∃ d, owns (c : Thread nD τ) (ms1_5 t) fullShare ((dat1 q V c).before 5 t d))
    ∗ (∃ d, owns (c : Thread nD τ) (ms1_6 t) fullShare ((dat1 q V c).before 6 t d))
    ∗ (∃ d, owns (c : Thread nD τ) (ms1_7 t) fullShare ((dat1 q V c).before 7 t d)))

/-- and what it returns. -/
def bodyPost1 (c : Dev nD) (t : Fin cfg1.N) : sProp 𝕄 :=
  iprop((dat1 q V c).Φ t.succ ∗ (dat1 q V c).owesAt () t.succ
    ∗ (dat1 q V c).leavesExact 0 t
    ∗ (dat1 q V c).leavesExact 1 t
    ∗ (dat1 q V c).leavesExact 2 t
    ∗ (dat1 q V c).leavesExact 3 t
    ∗ (dat1 q V c).leavesExact 4 t
    ∗ (dat1 q V c).leavesExact 5 t
    ∗ (dat1 q V c).leavesExact 6 t
    ∗ (dat1 q V c).leavesExact 7 t)

set_option maxHeartbeats 4800000 in
/-- The body at any point: the inputs' memrefs hold their blocks; the closed forms say which case the point is in; so
    that case's run applies. The invariant hands the body the scratch at what the point before left (at anything at
    the first point) and takes it back at this point's contents, its pieces covering it; the other scoped buffers and
    the generator register pass through; output 6's buffer is left at its pieces read back; output 7's is handed back
    as found except at the last point, where it is left at its pieces read back; the core owes nothing throughout. -/
theorem sound_body1 (c : Dev nD) (t : Fin cfg1.N) :
    bodyPre1 q V c t ⊢ wp frame (wpE (defs₀ (F := F)) Variants.none c none) Set.univ (bodyAt1 t) (fun _ => bodyPost1 q V c t) := by
  unfold bodyPre1 bodyPost1 bodyAt1
  simp only [before1_0, before1_1, before1_2, before1_3, before1_4, before1_5]
  rw [show (dat1 q V c).owesAt () t.succ = (dat1 q V c).owesAt () t.castSucc from rfl]
  rw [show (dat1 q V c).Φ t.succ = PhiS1 V c (t.val + 1) t.isLt from rfl, PhiS1_succ]
  have hN : t.val < 10 := lt_of_lt_of_eq t.isLt (show cfg1.N = 10 from N_1)
  by_cases h0 : t.val % 10 = 0
  · by_cases h1 : t.val % 10 = 9
    · exfalso; omega
    · rw [show (dat1 q V c).leavesExact 0 t = owns (c : Thread nD τ) (ms1_0 t) fullShare ((dat1 q V c).after 0 t) from by
        unfold Dat.leavesExact; rw [liveAt1_0 t], after1_0]
      rw [show (dat1 q V c).leavesExact 1 t = owns (c : Thread nD τ) (ms1_1 t) fullShare ((dat1 q V c).after 1 t) from by
        unfold Dat.leavesExact; rw [liveAt1_1 t], after1_1]
      rw [show (dat1 q V c).leavesExact 2 t = owns (c : Thread nD τ) (ms1_2 t) fullShare ((dat1 q V c).after 2 t) from by
        unfold Dat.leavesExact; rw [liveAt1_2 t], after1_2]
      rw [show (dat1 q V c).leavesExact 3 t = owns (c : Thread nD τ) (ms1_3 t) fullShare ((dat1 q V c).after 3 t) from by
        unfold Dat.leavesExact; rw [liveAt1_3 t], after1_3]
      rw [show (dat1 q V c).leavesExact 4 t = owns (c : Thread nD τ) (ms1_4 t) fullShare ((dat1 q V c).after 4 t) from by
        unfold Dat.leavesExact; rw [liveAt1_4 t], after1_4]
      rw [show (dat1 q V c).leavesExact 5 t = owns (c : Thread nD τ) (ms1_5 t) fullShare ((dat1 q V c).after 5 t) from by
        unfold Dat.leavesExact; rw [liveAt1_5 t], after1_5]
      rw [show (dat1 q V c).leavesExact 6 t = owns (c : Thread nD τ) (ms1_6 t) fullShare ((dat1 q V c).after 6 t) from by
        unfold Dat.leavesExact; rw [liveAt1_6 t], after1_6]
      rw [Dat.leavesExact_idle (dat1 q V c) 7 t (idleAt1_7_A t ((hcond1_0 t).mpr h0) (fun h => h1 ((hcond1_1 t).mp h))) (noFlush1_7_A t ((hcond1_0 t).mpr h0) (fun h => h1 ((hcond1_1 t).mp h)))]
      rw [outsAt1_A V c t h0 h1]
      unfold out1_A_6 sout1_A_0; (try dsimp only)
      by_cases hz : t.val = 0
      · rw [PhiS1_castSucc q V c t, PhiS1_zero V c _ _ hz, PhiA1_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover1_A_6 c _ _ _ _ _ _ _ _ _ _ _ _ _ _ _ _ _ _ _ _ _ _ _ _ _ _ _)
        iexists _; iexact H7
      · exfalso; omega
  · by_cases h1 : t.val % 10 = 9
    · rw [show (dat1 q V c).leavesExact 0 t = owns (c : Thread nD τ) (ms1_0 t) fullShare ((dat1 q V c).after 0 t) from by
        unfold Dat.leavesExact; rw [liveAt1_0 t], after1_0]
      rw [show (dat1 q V c).leavesExact 1 t = owns (c : Thread nD τ) (ms1_1 t) fullShare ((dat1 q V c).after 1 t) from by
        unfold Dat.leavesExact; rw [liveAt1_1 t], after1_1]
      rw [show (dat1 q V c).leavesExact 2 t = owns (c : Thread nD τ) (ms1_2 t) fullShare ((dat1 q V c).after 2 t) from by
        unfold Dat.leavesExact; rw [liveAt1_2 t], after1_2]
      rw [show (dat1 q V c).leavesExact 3 t = owns (c : Thread nD τ) (ms1_3 t) fullShare ((dat1 q V c).after 3 t) from by
        unfold Dat.leavesExact; rw [liveAt1_3 t], after1_3]
      rw [show (dat1 q V c).leavesExact 4 t = owns (c : Thread nD τ) (ms1_4 t) fullShare ((dat1 q V c).after 4 t) from by
        unfold Dat.leavesExact; rw [liveAt1_4 t], after1_4]
      rw [show (dat1 q V c).leavesExact 5 t = owns (c : Thread nD τ) (ms1_5 t) fullShare ((dat1 q V c).after 5 t) from by
        unfold Dat.leavesExact; rw [liveAt1_5 t], after1_5]
      rw [show (dat1 q V c).leavesExact 6 t = owns (c : Thread nD τ) (ms1_6 t) fullShare ((dat1 q V c).after 6 t) from by
        unfold Dat.leavesExact; rw [liveAt1_6 t], after1_6]
      rw [show (dat1 q V c).leavesExact 7 t = owns (c : Thread nD τ) (ms1_7 t) fullShare ((dat1 q V c).after 7 t) from by
        unfold Dat.leavesExact; rw [liveAt1_7_C t (fun h => h0 ((hcond1_0 t).mp h)) ((hcond1_1 t).mpr h1)], after1_7]
      rw [outsAt1_C V c t h0 h1]
      unfold out1_C_6 out1_C_7 sout1_C_0; (try dsimp only)
      by_cases hz : t.val = 0
      · exfalso; omega
      · rw [PhiS1_castSucc q V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover1_C_6 c _ _ _ _ _ _ _ _ _ _ _ _ _ _ _ _ _ _ _ _ _ _ _ _ _ _ _ _)
        unfold owns; iexists _; isplitr
        swap; · iexact H7
        ipureintro; exact View.read_writes_of_cover _ _ _ _ _ (cover1_C_7 c _ _ _ _ _ _ _ _ _ _ _ _ _ _ _ _ _ _ _ _ _ _ _ _ _ _ _ _)
    · rw [show (dat1 q V c).leavesExact 0 t = owns (c : Thread nD τ) (ms1_0 t) fullShare ((dat1 q V c).after 0 t) from by
        unfold Dat.leavesExact; rw [liveAt1_0 t], after1_0]
      rw [show (dat1 q V c).leavesExact 1 t = owns (c : Thread nD τ) (ms1_1 t) fullShare ((dat1 q V c).after 1 t) from by
        unfold Dat.leavesExact; rw [liveAt1_1 t], after1_1]
      rw [show (dat1 q V c).leavesExact 2 t = owns (c : Thread nD τ) (ms1_2 t) fullShare ((dat1 q V c).after 2 t) from by
        unfold Dat.leavesExact; rw [liveAt1_2 t], after1_2]
      rw [show (dat1 q V c).leavesExact 3 t = owns (c : Thread nD τ) (ms1_3 t) fullShare ((dat1 q V c).after 3 t) from by
        unfold Dat.leavesExact; rw [liveAt1_3 t], after1_3]
      rw [show (dat1 q V c).leavesExact 4 t = owns (c : Thread nD τ) (ms1_4 t) fullShare ((dat1 q V c).after 4 t) from by
        unfold Dat.leavesExact; rw [liveAt1_4 t], after1_4]
      rw [show (dat1 q V c).leavesExact 5 t = owns (c : Thread nD τ) (ms1_5 t) fullShare ((dat1 q V c).after 5 t) from by
        unfold Dat.leavesExact; rw [liveAt1_5 t], after1_5]
      rw [show (dat1 q V c).leavesExact 6 t = owns (c : Thread nD τ) (ms1_6 t) fullShare ((dat1 q V c).after 6 t) from by
        unfold Dat.leavesExact; rw [liveAt1_6 t], after1_6]
      rw [Dat.leavesExact_idle (dat1 q V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [outsAt1_B V c t h0 h1]
      unfold out1_B_6 sout1_B_0; (try dsimp only)
      by_cases hz : t.val = 0
      · exfalso; omega
      · rw [PhiS1_castSucc q V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover1_B_6 c _ _ _ _ _ _ _ _ _ _ _ _ _ _ _ _ _ _ _ _ _ _ _ _ _ _ _ _)
        iexists _; iexact H7

/-- The library's body obligation, at every point. -/
theorem body_obligation1 (c : Dev nD) : BodyObligation (dat1 (F := F) q V c) (defs₀ (F := F)) Variants.none () Set.univ := fun t => by
  rw [bigSep_W1, bigSep_W1]
  exact sound_body1 q V c t

/-- What the launch hands the region is the invariant before the first point. -/
theorem hin1 (c : Dev nD) : (Pipeline.ΦA spec1 c : sProp 𝕄) ⊢ (dat1 q V c).Φ 0 := by
  rw [show (dat1 q V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 q V c).Φ t ⊢ (Pipeline.ΦA spec1 c : sProp 𝕄) := by
  rw [show (dat1 q V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

/-- The same after the last point. -/
theorem hout1 (c : Dev nD) : (dat1 q V c).Φ (Fin.last cfg1.N) ⊢ (Pipeline.ΦA spec1 c : sProp 𝕄) :=
  Phi_out1 q V c _ (by rw [Fin.val_last]; have : cfg1.N = 10 := N_1; omega)

end Regions

end Cert.Kernel.Hand

end
-- ==== Proof.K.E2.Runs.lean ====
/- The edge kernel's body at the pipeline `cfg2`, first module: what the three
   whole-body runs share. The windows' blocks read off the arrays as the region finds them (a parameter `V`), the
   inputs' staging buffers at their blocks at every point, the two branch conditions of the body in closed form over
   the 80 grid points, where the two output windows are live or idle, the staging and scratch memrefs the body is
   called with, and the region invariant with the kernel's own scratch split off. -/
import proofs.«108204_j49847390437921_1_alg».proof.Proof.Gen.Kernel.Launch
import proofs.«108204_j49847390437921_1_alg».proof.Proof.Gen.Kernel.Skeleton
import proofs.«108204_j49847390437921_1_alg».proof.Proof.Gen.Kernel.Points
import Idealize.ShloMosaic.Lib.Pipeline.FrameBody
import Idealize.ShloMosaic.Lib.Ring
import Idealize.ShloMosaic.Lib.Tactic

-- membership in a rectangle of production extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

-- the TensorCore's buffer contents when the region is entered: everything below is stated at any such contents
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (an unfetched
    input's block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (an unfetched
    input's block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (an unfetched
    input's block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (an unfetched
    input's block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (an unfetched
    input's block index has not moved), for any proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (an unfetched
    input's block index has not moved), for any proof data whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not (an unfetched
    input's block index has not moved), for any proof data whose array is `V`'s and whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's branch conditions -/

/-- The condition of the body's first `scf.if` (the scratch is reset): the grid coordinate is 0, as the body computes it. -/
abbrev cond2_0 (i : grid2.Coords) : Prop := (Scalar.cmpi .ne (Scalar.extui (Scalar.cmpi .eq (BitVec.ofNat 32 (i 0).val) 0#32)) 0#32) = 1#1
/-- It holds at the first of the 80 points only. -/
theorem hcond2_0 : ∀ t : Fin cfg2.N, cond2_0 (grid2.coords t) ↔ t.val % 80 = 0 :=
  (by decide +kernel : ∀ t : Fin grid2.N, cond2_0 (grid2.coords t) ↔ t.val % 80 = 0)

/-- The condition of the body's second `scf.if` (the scratch is stored to the second output): the grid coordinate is 79. -/
abbrev cond2_1 (i : grid2.Coords) : Prop := k2_cond2 i = 1#1
/-- It holds at the last of the 80 points only. -/
theorem hcond2_1 : ∀ t : Fin cfg2.N, cond2_1 (grid2.coords t) ↔ t.val % 80 = 79 :=
  (by decide +kernel : ∀ t : Fin grid2.N, cond2_1 (grid2.coords t) ↔ t.val % 80 = 79)

/-! ## Where the windows are idle -/

/-- Window 0 is never idle. -/
theorem liveAt2_0 : ∀ t : Fin cfg2.N, cfg2.idle 0 (grid2.coords t) = false := by decide +kernel
/-- Window 1 is never idle. -/
theorem liveAt2_1 : ∀ t : Fin cfg2.N, cfg2.idle 1 (grid2.coords t) = false := by decide +kernel
/-- Window 2 is never idle. -/
theorem liveAt2_2 : ∀ t : Fin cfg2.N, cfg2.idle 2 (grid2.coords t) = false := by decide +kernel
/-- Window 3 is never idle. -/
theorem liveAt2_3 : ∀ t : Fin cfg2.N, cfg2.idle 3 (grid2.coords t) = false := by decide +kernel
/-- Window 4 is never idle. -/
theorem liveAt2_4 : ∀ t : Fin cfg2.N, cfg2.idle 4 (grid2.coords t) = false := by decide +kernel
/-- Window 5 is never idle. -/
theorem liveAt2_5 : ∀ t : Fin cfg2.N, cfg2.idle 5 (grid2.coords t) = false := by decide +kernel
/-- Window 6 is never idle. -/
theorem liveAt2_6 : ∀ t : Fin cfg2.N, cfg2.idle 6 (grid2.coords t) = false := by decide +kernel
/-- Window 7 is never idle. -/
theorem liveAt2_7 : ∀ t : Fin cfg2.N, cfg2.idle 7 (grid2.coords t) = false := by decide +kernel
/-- At the first point (case A) output 8 is idle: the case stores nothing into it. -/
theorem idleAt2_8_A : ∀ t : Fin cfg2.N, cond2_0 (grid2.coords t) → ¬cond2_1 (grid2.coords t) → cfg2.idle 8 (grid2.coords t) = true := by decide +kernel
/-- At the first point the pipeline does not write output 8's block back. -/
theorem noFlush2_8_A : ∀ t : Fin cfg2.N, cond2_0 (grid2.coords t) → ¬cond2_1 (grid2.coords t) → (cfg2.win 8).flush t = false := by decide +kernel
/-- At the middle points (case B) output 8 is idle: the case stores nothing into it. -/
theorem idleAt2_8_B : ∀ t : Fin cfg2.N, ¬cond2_0 (grid2.coords t) → ¬cond2_1 (grid2.coords t) → cfg2.idle 8 (grid2.coords t) = true := by decide +kernel
/-- At the middle points the pipeline does not write output 8's block back. -/
theorem noFlush2_8_B : ∀ t : Fin cfg2.N, ¬cond2_0 (grid2.coords t) → ¬cond2_1 (grid2.coords t) → (cfg2.win 8).flush t = false := by decide +kernel
/-- At the last point (case C) output 8 is live: the case stores into it. -/
theorem liveAt2_8_C : ∀ t : Fin cfg2.N, ¬cond2_0 (grid2.coords t) → cond2_1 (grid2.coords t) → cfg2.idle 8 (grid2.coords t) = false := by decide +kernel

/-! ## The memrefs the body is called with -/

/-- One staging buffer of each output window, through which its contents are stated (any choice reads the same). -/
abbrev VO2_7 : View sig .tc .vmem S10000x64 .f32 := (Memref.whole cc2_stg7_0 : Memref sig .tc .vmem S10000x64 .f32).view
abbrev VO2_8 : View sig .tc .vmem S1x64 .f32 := (Memref.whole cc2_stg8_0 : Memref sig .tc .vmem S1x64 .f32).view
/-- Each window's current staging memref at point `t`, spelled as the pipeline passes it, and its wholeness. -/
abbrev ms2_0 (t : Fin cfg2.N) : Memref sig .tc .vmem S10000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S10000x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S10000x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S5x64x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S10000x64 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x64 .f32 := win2_8.stage (cfg2.slots t 8)
abbrev hs2_8 (t : Fin cfg2.N) : (ms2_8 t).IsWhole := hstage2_8 ((cfg2.slots t 8).cast nbuf2_8)
/-- The scratch operand: a whole scoped buffer of the kernel's own, passed beside the windows. -/
abbrev scM2_0 : Memref sig .tc .vmem S1x64 .f32 := Memref.whole cc2_scratch0
/-- The scratch the kernel carries between points, as a view: what it holds is stated through it. -/
abbrev VS2_0 : View sig .tc .vmem S1x64 .f32 := scM2_0.view

/-- The region invariant with the kernel's scratch as a memref owned at some contents, every other scoped buffer
    carried unopened, and the generator register at some state: what the body obligation hands the run and takes back. -/
theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.Kernel.Hand

end
-- ==== Proof.K.E2.RunA.lean ====
/- The edge kernel's whole body at the pipeline `cfg2`, run once in case A: the first grid point (the first `scf.if` taken: the scratch is reset; the second not taken). The run's witness is the list
   of pieces each stored buffer ends with; one module per case, each importing the one before. -/
import proofs.«108204_j49847390437921_1_alg».proof.Proof.K.E2.Runs

-- membership in a rectangle of production extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each stored buffer, as pieces (last first), in case A, with the proof that on whole
    staging memrefs — the seven inputs' at their contents `x0 … x6`, output 7's at anything, output 8's (no store: the window is idle and not written back here) at contents `xi8` handed back untouched, the scratch at anything (it is reset before it is read) —
    the body runs to the continuation holding the inputs' as they were and each stored buffer with its pieces written
    (the body loads output 7's buffer before storing it: the loaded values are not used). The printed function is its
    skeleton, which the symbolic executor runs through the part call; each `scf.if` is decided by the case's hypotheses. -/
noncomputable def kernelRun2_A (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) :
    Σ' (L7 : List (View.Piece (Elt F) S10000x64 .f32)) (L8 : List (View.Piece (Elt F) S1x64 .f32)), { LS0 : List (View.Piece (Elt F) S1x64 .f32) //
      ∀ (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xi8 ∗ (∃ f, arg10.view.loc (c : Thread nD τ) ↦[arg10.view.set]{fullShare} arg10.view.writes (Elt F) f LS0)) -∗ K ⟨⟩))
          ⊢ wp frame (wpE (defs₀ (F := F)) Variants.none c none) E (cc2__edge_kernel i arg1 harg1 arg2 harg2 arg3 harg3 arg4 harg4 arg5 harg5 arg6 harg6 arg7 harg7 arg8 harg8 arg9 harg9 arg10 harg10) K } := by
  refine ⟨?_, [], ?_, fun xi8 E K => ?run⟩
  case run =>
    simp only [cc2__edge_kernel_eq_skeleton]; unfold cc2__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    iexists _; iexact HS0

end Cert.Kernel.Hand

end
-- ==== Proof.K.E2.RunB.lean ====
/- The edge kernel's whole body at the pipeline `cfg2`, run once in case B: a middle grid point (neither `scf.if` taken). The run's witness is the list
   of pieces each stored buffer ends with; one module per case, each importing the one before. -/
import proofs.«108204_j49847390437921_1_alg».proof.Proof.K.E2.RunA

-- membership in a rectangle of production extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each stored buffer, as pieces (last first), in case B, with the proof that on whole
    staging memrefs — the seven inputs' at their contents `x0 … x6`, output 7's at anything, output 8's (no store: the window is idle and not written back here) at contents `xi8` handed back untouched, the scratch at the contents `xs0` the point before left —
    the body runs to the continuation holding the inputs' as they were and each stored buffer with its pieces written
    (the body loads output 7's buffer before storing it: the loaded values are not used). The printed function is its
    skeleton, which the symbolic executor runs through the part call; each `scf.if` is decided by the case's hypotheses. -/
noncomputable def kernelRun2_B (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    Σ' (L7 : List (View.Piece (Elt F) S10000x64 .f32)) (L8 : List (View.Piece (Elt F) S1x64 .f32)), { LS0 : List (View.Piece (Elt F) S1x64 .f32) //
      ∀ (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xi8 ∗ (∃ f, arg10.view.loc (c : Thread nD τ) ↦[arg10.view.set]{fullShare} arg10.view.writes (Elt F) f LS0)) -∗ K ⟨⟩))
          ⊢ wp frame (wpE (defs₀ (F := F)) Variants.none c none) E (cc2__edge_kernel i arg1 harg1 arg2 harg2 arg3 harg3 arg4 harg4 arg5 harg5 arg6 harg6 arg7 harg7 arg8 harg8 arg9 harg9 arg10 harg10) K } := by
  refine ⟨?_, [], ?_, fun xi8 E K => ?run⟩
  case run =>
    simp only [cc2__edge_kernel_eq_skeleton]; unfold cc2__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    iexists _; iexact HS0

end Cert.Kernel.Hand

end
-- ==== Proof.K.E2.RunC.lean ====
/- The edge kernel's whole body at the pipeline `cfg2`, run once in case C: the last grid point (the first `scf.if` not taken; the second taken: the scratch is stored to output 8). The run's witness is the list
   of pieces each stored buffer ends with; one module per case, each importing the one before. -/
import proofs.«108204_j49847390437921_1_alg».proof.Proof.K.E2.RunB

-- membership in a rectangle of production extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each stored buffer, as pieces (last first), in case C, with the proof that on whole
    staging memrefs — the seven inputs' at their contents `x0 … x6`, both outputs' at anything, the scratch at the contents `xs0` the point before left —
    the body runs to the continuation holding the inputs' as they were and each stored buffer with its pieces written
    (the body loads output 7's buffer before storing it, and output 8's likewise: the loaded values are not used). The printed function is its
    skeleton, which the symbolic executor runs through the part call; each `scf.if` is decided by the case's hypotheses. -/
noncomputable def kernelRun2_C (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    Σ' (L7 : List (View.Piece (Elt F) S10000x64 .f32)) (L8 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0)) -∗ K ⟨⟩))
          ⊢ wp frame (wpE (defs₀ (F := F)) Variants.none c none) E (cc2__edge_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc2__edge_kernel_eq_skeleton]; unfold cc2__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact HS0

end Cert.Kernel.Hand

end
-- ==== Proof.K.E2.Body.lean ====
/- The edge kernel's body at the pipeline `cfg2`, last module: what the two output
   windows' staging buffers and the carried scratch hold after each of the 80 points (per case, then point by point),
   the pipeline's proof data at any entry contents `V` and any input shares `q`, the body obligation at every point,
   and the region invariant's two ends. -/
import proofs.«108204_j49847390437921_1_alg».proof.Proof.K.E2.RunC

-- membership in a rectangle of production extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the stored buffers -/

/-- Case A's pieces for output 7 tile its 10000×64 block (one whole store), so they cover it. -/
theorem cover2_A_7 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (y : S10000x64.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4 x5 x6).1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4 x5 x6).1 S10000x64.size (by sl_kernel_rfl) y

/-- What case A leaves in output 7's staging buffer: its pieces read back over junk. -/
def out2_A_7 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) : Vec F S10000x64 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 arg10 harg10 hc0 hc1 x0 x1 x2 x3 x4 x5 x6).1)

/-- Case A stores nothing into output 8 (the window is idle at its points and not written back there): no pieces,
    a placeholder nothing consults, since at these points the window is neither written back nor read at the next point. -/
def out2_A_8 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) : Vec F S1x64 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 arg10 harg10 hc0 hc1 x0 x1 x2 x3 x4 x5 x6).2.1)

/-- Case A's pieces for the scratch the kernel carries between points cover it. -/
theorem scover2_A_0 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (y : S1x64.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4 x5 x6).2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4 x5 x6).2.2.1 S1x64.size (by sl_kernel_rfl) y

/-- What case A leaves in the scratch: its pieces read back over junk. -/
def sout2_A_0 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) : Vec F S1x64 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 hc0 hc1 x0 x1 x2 x3 x4 x5 x6).2.2.1)

/-- Case B's pieces for output 7 tile its 10000×64 block (one whole store), so they cover it. -/
theorem cover2_B_7 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S10000x64.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 x5 x6 xs0).1 S10000x64.size (by sl_kernel_rfl) y

/-- What case B leaves in output 7's staging buffer: its pieces read back over junk. -/
def out2_B_7 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S10000x64 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 arg10 harg10 hc0 hc1 x0 x1 x2 x3 x4 x5 x6 xs0).1)

/-- Case B stores nothing into output 8 (the window is idle at its points and not written back there): no pieces,
    a placeholder nothing consults, since at these points the window is neither written back nor read at the next point. -/
def out2_B_8 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VO2_8.read (Elt F) (VO2_8.writes (Elt F) VO2_8.junk (kernelRun2_B c i arg1 harg1 arg2 harg2 arg3 harg3 arg4 harg4 arg5 harg5 arg6 harg6 arg7 harg7 arg8 harg8 arg9 harg9 arg10 harg10 hc0 hc1 x0 x1 x2 x3 x4 x5 x6 xs0).2.1)

/-- Case B's pieces for the scratch the kernel carries between points cover it. -/
theorem scover2_B_0 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S1x64.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 x5 x6 xs0).2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 x5 x6 xs0).2.2.1 S1x64.size (by sl_kernel_rfl) y

/-- What case B leaves in the scratch: its pieces read back over junk. -/
def sout2_B_0 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 hc0 hc1 x0 x1 x2 x3 x4 x5 x6 xs0).2.2.1)

/-- Case C's pieces for output 7 tile its 10000×64 block (one whole store), so they cover it. -/
theorem cover2_C_7 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S10000x64.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 x5 x6 xs0).1 S10000x64.size (by sl_kernel_rfl) y

/-- What case C leaves in output 7's staging buffer: its pieces read back over junk. -/
def out2_C_7 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S10000x64 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 hc0 hc1 x0 x1 x2 x3 x4 x5 x6 xs0).1)

/-- Case C's pieces for output 8 tile its 1×64 block (one whole store), so they cover it. -/
theorem cover2_C_8 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 x5 x6 xs0).2.1 S1x64.size (by sl_kernel_rfl) y

/-- What case C leaves in output 8's staging buffer: its pieces read back over junk. -/
def out2_C_8 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VO2_8.read (Elt F) (VO2_8.writes (Elt F) VO2_8.junk (kernelRun2_C c i arg1 harg1 arg2 harg2 arg3 harg3 arg4 harg4 arg5 harg5 arg6 harg6 arg7 harg7 arg8 harg8 arg9 harg9 arg10 harg10 hc0 hc1 x0 x1 x2 x3 x4 x5 x6 xs0).2.1)

/-- Case C's pieces for the scratch the kernel carries between points cover it. -/
theorem scover2_C_0 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 x5 x6 xs0).2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 x5 x6 xs0).2.2.1 S1x64.size (by sl_kernel_rfl) y

/-- What case C leaves in the scratch: its pieces read back over junk. -/
def sout2_C_0 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 hc0 hc1 x0 x1 x2 x3 x4 x5 x6 xs0).2.2.1)

section Region2

variable (q : Fin cfg2.W → PosShare TreeShare)
variable (V : (c : Dev nD) → (b : Ref sig .tc) → Buf (Elt F) ((c : Thread nD τ).loc b))

/-! ## What the outputs hold after each point -/

/-- THE ACCUMULATION. What output 7's and output 8's staging buffers and the carried scratch hold after the body at
    position `n` (a triple, in that order): the case the closed forms select at `n`, run at the point's memrefs and input
    blocks, the scratch read at what position `n - 1` left in it. An assignment of the conditions no point meets is no case. -/
def outsAt2 (c : Dev nD) : (n : ℕ) → n < cfg2.N → Vec F S10000x64 .f32 × Vec F S1x64 .f32 × Vec F S1x64 .f32
  | 0, hn => (out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩))
  | n + 1, hn =>
    if h0 : (n + 1) % 80 = 0 then
      if h1 : (n + 1) % 80 = 79 then
        False.elim (by omega)
      else
        (out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩))
    else
      if h1 : (n + 1) % 80 = 79 then
        (out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2, out2_C_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2)
      else
        (out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2, out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2)

/-- `outsAt2` at a point of case A: that case's contents. -/
theorem outsAt2_A (c : Dev nD) (t : Fin cfg2.N) (h0 : t.val % 80 = 0) (h1 : ¬t.val % 80 = 79) :
    outsAt2 V c t.val t.isLt = (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 80 = 0) (h1 : ¬t.val % 80 = 79) :
    outsAt2 V c t.val t.isLt = (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2, out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 80 = 0) (h1 : t.val % 80 = 79) :
    outsAt2 V c t.val t.isLt = (out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2, out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer of the region at
    anything, the generator register at some state); afterwards the same with the carried scratch at what the point
    before left in it (`outsAt2`'s third component). -/
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the carried scratch at that point's contents. -/
theorem PhiS2_succ (c : Dev nD) (n : ℕ) (hn : n < cfg2.N) :
    PhiS2 V c (n + 1) hn = iprop(iprop(iprop(owns (c : Thread nD τ) scM2_0 fullShare (outsAt2 V c n hn).2.2) ∗ Pipeline.scopedRestBut (Ix := Unit) (Name := ℕ) (U := UR sig nD τ) (Lvl := ℕ) (Val := Elt F) spec2 c [cc2_scratch0]) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the outputs' at `outsAt2`'s first two components; the invariant `PhiS2`;
    the inputs' shares `q`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
    | ⟨8, _⟩ => (outsAt2 V c t.val t.isLt).2.1
  Φ t := PhiS2 V c t.val (Nat.le_of_lt_succ t.isLt)
  q := q
  owed _ := 0

/-- The proof data's arrays are the region-entry contents (the definition projected, so that `V` is never unfolded). -/
theorem A_eq2 (c : Dev nD) (w : Fin cfg2.W) : (dat2 q V c).A w = V c (Pipeline.arrRef spec2 w) := by
  dsimp only [dat2]

/-- The invariant at a point's start (the proof data at `t.castSucc`), restated at `t.val`. -/
theorem PhiS2_castSucc (c : Dev nD) (t : Fin cfg2.N) :
    (dat2 q V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 q V c).after 0 t = iblk2 V c 0 t := by dsimp only [dat2]
theorem after2_1 (c : Dev nD) (t : Fin cfg2.N) : (dat2 q V c).after 1 t = iblk2 V c 1 t := by dsimp only [dat2]
theorem after2_2 (c : Dev nD) (t : Fin cfg2.N) : (dat2 q V c).after 2 t = iblk2 V c 2 t := by dsimp only [dat2]
theorem after2_3 (c : Dev nD) (t : Fin cfg2.N) : (dat2 q V c).after 3 t = iblk2 V c 3 t := by dsimp only [dat2]
theorem after2_4 (c : Dev nD) (t : Fin cfg2.N) : (dat2 q V c).after 4 t = iblk2 V c 4 t := by dsimp only [dat2]
theorem after2_5 (c : Dev nD) (t : Fin cfg2.N) : (dat2 q V c).after 5 t = iblk2 V c 5 t := by dsimp only [dat2]
theorem after2_6 (c : Dev nD) (t : Fin cfg2.N) : (dat2 q V c).after 6 t = iblk2 V c 6 t := by dsimp only [dat2]
theorem after2_7 (c : Dev nD) (t : Fin cfg2.N) : (dat2 q V c).after 7 t = (outsAt2 V c t.val t.isLt).1 := by dsimp only [dat2]
theorem after2_8 (c : Dev nD) (t : Fin cfg2.N) : (dat2 q V c).after 8 t = (outsAt2 V c t.val t.isLt).2.1 := by dsimp only [dat2]

/-- Each input's current staging buffer holds its block at every point, fetched there or not. -/
theorem before2_0 (c : Dev nD) (t : Fin cfg2.N) (d) : (dat2 q V c).before 0 t d = iblk2 V c 0 t :=
  before2_0_of V (dat2 q V c) (A_eq2 q V c 0) (after2_0 q V c) t d
theorem before2_1 (c : Dev nD) (t : Fin cfg2.N) (d) : (dat2 q V c).before 1 t d = iblk2 V c 1 t :=
  before2_1_of V (dat2 q V c) (A_eq2 q V c 1) (after2_1 q V c) t d
theorem before2_2 (c : Dev nD) (t : Fin cfg2.N) (d) : (dat2 q V c).before 2 t d = iblk2 V c 2 t :=
  before2_2_of V (dat2 q V c) (A_eq2 q V c 2) (after2_2 q V c) t d
theorem before2_3 (c : Dev nD) (t : Fin cfg2.N) (d) : (dat2 q V c).before 3 t d = iblk2 V c 3 t :=
  before2_3_of V (dat2 q V c) (A_eq2 q V c 3) (after2_3 q V c) t d
theorem before2_4 (c : Dev nD) (t : Fin cfg2.N) (d) : (dat2 q V c).before 4 t d = iblk2 V c 4 t :=
  before2_4_of V (dat2 q V c) (A_eq2 q V c 4) (after2_4 q V c) t d
theorem before2_5 (c : Dev nD) (t : Fin cfg2.N) (d) : (dat2 q V c).before 5 t d = iblk2 V c 5 t :=
  before2_5_of V (dat2 q V c) (A_eq2 q V c 5) (after2_5 q V c) t d
theorem before2_6 (c : Dev nD) (t : Fin cfg2.N) (d) : (dat2 q V c).before 6 t d = iblk2 V c 6 t :=
  before2_6_of V (dat2 q V c) (A_eq2 q V c 6) (after2_6 q V c) t d

/-! ## The body obligation, at a generic point -/

/-- What the body is called with at point `t` (the obligation's precondition, the windows one by one), -/
def bodyPre2 (c : Dev nD) (t : Fin cfg2.N) : sProp 𝕄 :=
  iprop((dat2 q V c).Φ t.castSucc ∗ (dat2 q V c).owesAt () t.castSucc
    ∗ (∃ d, owns (c : Thread nD τ) (ms2_0 t) fullShare ((dat2 q V c).before 0 t d))
    ∗ (∃ d, owns (c : Thread nD τ) (ms2_1 t) fullShare ((dat2 q V c).before 1 t d))
    ∗ (∃ d, owns (c : Thread nD τ) (ms2_2 t) fullShare ((dat2 q V c).before 2 t d))
    ∗ (∃ d, owns (c : Thread nD τ) (ms2_3 t) fullShare ((dat2 q V c).before 3 t d))
    ∗ (∃ d, owns (c : Thread nD τ) (ms2_4 t) fullShare ((dat2 q V c).before 4 t d))
    ∗ (∃ d, owns (c : Thread nD τ) (ms2_5 t) fullShare ((dat2 q V c).before 5 t d))
    ∗ (∃ d, owns (c : Thread nD τ) (ms2_6 t) fullShare ((dat2 q V c).before 6 t d))
    ∗ (∃ d, owns (c : Thread nD τ) (ms2_7 t) fullShare ((dat2 q V c).before 7 t d))
    ∗ (∃ d, owns (c : Thread nD τ) (ms2_8 t) fullShare ((dat2 q V c).before 8 t d)))

/-- and what it returns. -/
def bodyPost2 (c : Dev nD) (t : Fin cfg2.N) : sProp 𝕄 :=
  iprop((dat2 q V c).Φ t.succ ∗ (dat2 q V c).owesAt () t.succ
    ∗ (dat2 q V c).leavesExact 0 t
    ∗ (dat2 q V c).leavesExact 1 t
    ∗ (dat2 q V c).leavesExact 2 t
    ∗ (dat2 q V c).leavesExact 3 t
    ∗ (dat2 q V c).leavesExact 4 t
    ∗ (dat2 q V c).leavesExact 5 t
    ∗ (dat2 q V c).leavesExact 6 t
    ∗ (dat2 q V c).leavesExact 7 t
    ∗ (dat2 q V c).leavesExact 8 t)

set_option maxHeartbeats 4800000 in
/-- The body at any point: the inputs' memrefs hold their blocks; the closed forms say which case the point is in; so that
    case's run applies. The invariant hands the body the carried scratch at what the point before left (at anything at the
    first point) and takes it back at this point's contents; output 7's buffer comes back at the case's pieces read back,
    output 8's untouched where the case does not store it; the other scoped buffers, the generator register and what the
    core owes pass through unread. -/
theorem sound_body2 (c : Dev nD) (t : Fin cfg2.N) :
    bodyPre2 q V c t ⊢ wp frame (wpE (defs₀ (F := F)) Variants.none c none) Set.univ (bodyAt2 t) (fun _ => bodyPost2 q V c t) := by
  unfold bodyPre2 bodyPost2 bodyAt2
  simp only [before2_0, before2_1, before2_2, before2_3, before2_4, before2_5, before2_6]
  rw [show (dat2 q V c).owesAt () t.succ = (dat2 q V c).owesAt () t.castSucc from rfl]
  rw [show (dat2 q V c).Φ t.succ = PhiS2 V c (t.val + 1) t.isLt from rfl, PhiS2_succ]
  have hN : t.val < 80 := lt_of_lt_of_eq t.isLt (show cfg2.N = 80 from N_2)
  by_cases h0 : t.val % 80 = 0
  · by_cases h1 : t.val % 80 = 79
    · exfalso; omega
    ·
      rw [show (dat2 q V c).leavesExact 0 t = owns (c : Thread nD τ) (ms2_0 t) fullShare ((dat2 q V c).after 0 t) from by
        unfold Dat.leavesExact; rw [liveAt2_0 t], after2_0]
      rw [show (dat2 q V c).leavesExact 1 t = owns (c : Thread nD τ) (ms2_1 t) fullShare ((dat2 q V c).after 1 t) from by
        unfold Dat.leavesExact; rw [liveAt2_1 t], after2_1]
      rw [show (dat2 q V c).leavesExact 2 t = owns (c : Thread nD τ) (ms2_2 t) fullShare ((dat2 q V c).after 2 t) from by
        unfold Dat.leavesExact; rw [liveAt2_2 t], after2_2]
      rw [show (dat2 q V c).leavesExact 3 t = owns (c : Thread nD τ) (ms2_3 t) fullShare ((dat2 q V c).after 3 t) from by
        unfold Dat.leavesExact; rw [liveAt2_3 t], after2_3]
      rw [show (dat2 q V c).leavesExact 4 t = owns (c : Thread nD τ) (ms2_4 t) fullShare ((dat2 q V c).after 4 t) from by
        unfold Dat.leavesExact; rw [liveAt2_4 t], after2_4]
      rw [show (dat2 q V c).leavesExact 5 t = owns (c : Thread nD τ) (ms2_5 t) fullShare ((dat2 q V c).after 5 t) from by
        unfold Dat.leavesExact; rw [liveAt2_5 t], after2_5]
      rw [show (dat2 q V c).leavesExact 6 t = owns (c : Thread nD τ) (ms2_6 t) fullShare ((dat2 q V c).after 6 t) from by
        unfold Dat.leavesExact; rw [liveAt2_6 t], after2_6]
      rw [show (dat2 q V c).leavesExact 7 t = owns (c : Thread nD τ) (ms2_7 t) fullShare ((dat2 q V c).after 7 t) from by
        unfold Dat.leavesExact; rw [liveAt2_7 t], after2_7]
      rw [Dat.leavesExact_idle (dat2 q V c) 8 t (idleAt2_8_A t ((hcond2_0 t).mpr h0) (fun h => h1 ((hcond2_1 t).mp h))) (noFlush2_8_A t ((hcond2_0 t).mpr h0) (fun h => h1 ((hcond2_1 t).mp h)))]
      rw [outsAt2_A V c t h0 h1]
      unfold out2_A_7 sout2_A_0; (try dsimp only)
      by_cases hz : t.val = 0
      ·
        rw [PhiS2_castSucc q V c t, PhiS2_zero V c _ _ hz, PhiA2_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_A c (grid2.coords t) _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        iintro ⟨H0, H1, H2, H3, H4, H5, H6, ⟨%e7, H7⟩, H8, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover2_A_7 c _ _ _ _ _ _ _ _ _ _ _ _ _ _ _ _ _ _ _ _ _ _ _ _ _ _ _ _ _ _)
        iexists _; iexact H8
      · exfalso; omega
  · by_cases h1 : t.val % 80 = 79
    ·
      rw [show (dat2 q V c).leavesExact 0 t = owns (c : Thread nD τ) (ms2_0 t) fullShare ((dat2 q V c).after 0 t) from by
        unfold Dat.leavesExact; rw [liveAt2_0 t], after2_0]
      rw [show (dat2 q V c).leavesExact 1 t = owns (c : Thread nD τ) (ms2_1 t) fullShare ((dat2 q V c).after 1 t) from by
        unfold Dat.leavesExact; rw [liveAt2_1 t], after2_1]
      rw [show (dat2 q V c).leavesExact 2 t = owns (c : Thread nD τ) (ms2_2 t) fullShare ((dat2 q V c).after 2 t) from by
        unfold Dat.leavesExact; rw [liveAt2_2 t], after2_2]
      rw [show (dat2 q V c).leavesExact 3 t = owns (c : Thread nD τ) (ms2_3 t) fullShare ((dat2 q V c).after 3 t) from by
        unfold Dat.leavesExact; rw [liveAt2_3 t], after2_3]
      rw [show (dat2 q V c).leavesExact 4 t = owns (c : Thread nD τ) (ms2_4 t) fullShare ((dat2 q V c).after 4 t) from by
        unfold Dat.leavesExact; rw [liveAt2_4 t], after2_4]
      rw [show (dat2 q V c).leavesExact 5 t = owns (c : Thread nD τ) (ms2_5 t) fullShare ((dat2 q V c).after 5 t) from by
        unfold Dat.leavesExact; rw [liveAt2_5 t], after2_5]
      rw [show (dat2 q V c).leavesExact 6 t = owns (c : Thread nD τ) (ms2_6 t) fullShare ((dat2 q V c).after 6 t) from by
        unfold Dat.leavesExact; rw [liveAt2_6 t], after2_6]
      rw [show (dat2 q V c).leavesExact 7 t = owns (c : Thread nD τ) (ms2_7 t) fullShare ((dat2 q V c).after 7 t) from by
        unfold Dat.leavesExact; rw [liveAt2_7 t], after2_7]
      rw [show (dat2 q V c).leavesExact 8 t = owns (c : Thread nD τ) (ms2_8 t) fullShare ((dat2 q V c).after 8 t) from by
        unfold Dat.leavesExact; rw [liveAt2_8_C t (fun h => h0 ((hcond2_0 t).mp h)) ((hcond2_1 t).mpr h1)], after2_8]
      rw [outsAt2_C V c t h0 h1]
      unfold out2_C_7 out2_C_8 sout2_C_0; (try dsimp only)
      by_cases hz : t.val = 0
      · exfalso; omega
      ·
        rw [PhiS2_castSucc q V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_C c (grid2.coords t) _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        iintro ⟨H0, H1, H2, H3, H4, H5, H6, ⟨%e7, H7⟩, ⟨%e8, H8⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover2_C_7 c _ _ _ _ _ _ _ _ _ _ _ _ _ _ _ _ _ _ _ _ _ _ _ _ _ _ _ _ _ _ _)
        unfold owns; iexists _; isplitr
        swap; · iexact H8
        ipureintro; exact View.read_writes_of_cover _ _ _ _ _ (cover2_C_8 c _ _ _ _ _ _ _ _ _ _ _ _ _ _ _ _ _ _ _ _ _ _ _ _ _ _ _ _ _ _ _)
    ·
      rw [show (dat2 q V c).leavesExact 0 t = owns (c : Thread nD τ) (ms2_0 t) fullShare ((dat2 q V c).after 0 t) from by
        unfold Dat.leavesExact; rw [liveAt2_0 t], after2_0]
      rw [show (dat2 q V c).leavesExact 1 t = owns (c : Thread nD τ) (ms2_1 t) fullShare ((dat2 q V c).after 1 t) from by
        unfold Dat.leavesExact; rw [liveAt2_1 t], after2_1]
      rw [show (dat2 q V c).leavesExact 2 t = owns (c : Thread nD τ) (ms2_2 t) fullShare ((dat2 q V c).after 2 t) from by
        unfold Dat.leavesExact; rw [liveAt2_2 t], after2_2]
      rw [show (dat2 q V c).leavesExact 3 t = owns (c : Thread nD τ) (ms2_3 t) fullShare ((dat2 q V c).after 3 t) from by
        unfold Dat.leavesExact; rw [liveAt2_3 t], after2_3]
      rw [show (dat2 q V c).leavesExact 4 t = owns (c : Thread nD τ) (ms2_4 t) fullShare ((dat2 q V c).after 4 t) from by
        unfold Dat.leavesExact; rw [liveAt2_4 t], after2_4]
      rw [show (dat2 q V c).leavesExact 5 t = owns (c : Thread nD τ) (ms2_5 t) fullShare ((dat2 q V c).after 5 t) from by
        unfold Dat.leavesExact; rw [liveAt2_5 t], after2_5]
      rw [show (dat2 q V c).leavesExact 6 t = owns (c : Thread nD τ) (ms2_6 t) fullShare ((dat2 q V c).after 6 t) from by
        unfold Dat.leavesExact; rw [liveAt2_6 t], after2_6]
      rw [show (dat2 q V c).leavesExact 7 t = owns (c : Thread nD τ) (ms2_7 t) fullShare ((dat2 q V c).after 7 t) from by
        unfold Dat.leavesExact; rw [liveAt2_7 t], after2_7]
      rw [Dat.leavesExact_idle (dat2 q V c) 8 t (idleAt2_8_B t (fun h => h0 ((hcond2_0 t).mp h)) (fun h => h1 ((hcond2_1 t).mp h))) (noFlush2_8_B t (fun h => h0 ((hcond2_0 t).mp h)) (fun h => h1 ((hcond2_1 t).mp h)))]
      rw [outsAt2_B V c t h0 h1]
      unfold out2_B_7 sout2_B_0; (try dsimp only)
      by_cases hz : t.val = 0
      · exfalso; omega
      ·
        rw [PhiS2_castSucc q V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_B c (grid2.coords t) _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        iintro ⟨H0, H1, H2, H3, H4, H5, H6, ⟨%e7, H7⟩, H8, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover2_B_7 c _ _ _ _ _ _ _ _ _ _ _ _ _ _ _ _ _ _ _ _ _ _ _ _ _ _ _ _ _ _ _)
        iexists _; iexact H8

/-- The library's body obligation, at every point. -/
theorem body_obligation2 (c : Dev nD) : BodyObligation (dat2 (F := F) q V c) (defs₀ (F := F)) Variants.none () Set.univ := fun t => by
  rw [bigSep_W2, bigSep_W2]
  exact sound_body2 q V c t

/-- What the launch hands the region is the invariant before the first point. -/
theorem hin2 (c : Dev nD) : Pipeline.ΦA spec2 c ⊢ (dat2 q V c).Φ 0 := by
  rw [show (dat2 q V c).Φ 0 = PhiS2 V c 0 (Nat.zero_le _) from rfl, PhiS2_zero V c 0 _ rfl]
  try exact Idealize.SL.BI.Entails.refl _

/-- After any point but the first the invariant gives the class's back: the carried scratch's named contents are forgotten. -/
theorem Phi_out2 (c : Dev nD) (t : Fin (cfg2.N + 1)) (ht : t.val ≠ 0) : (dat2 q V c).Φ t ⊢ Pipeline.ΦA spec2 c := by
  rw [show (dat2 q V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 q V c).Φ (Fin.last cfg2.N) ⊢ Pipeline.ΦA spec2 c :=
  Phi_out2 q V c _ (by rw [Fin.val_last]; have : cfg2.N = 80 := N_2; omega)

end Region2

end Cert.Kernel.Hand

end
-- ==== Proof.K.N3.Runs.lean ====
/- The node kernel at this region: what the three cases of its body share. Each window's block at a point, read off the
   contents the region is entered with (a parameter `V`); each input's staging buffer at its block at every point;
   the body's two branch conditions, decided over the ten grid points (the first point resets the accumulator, the
   last stores it to output 7); where the windows are idle; the staging and scratch memrefs as the pipeline passes
   them; and the region invariant with the kernel's own scratch split out of the scoped rest. -/
import proofs.«108204_j49847390437921_1_alg».proof.Proof.Gen.Kernel.Launch
import proofs.«108204_j49847390437921_1_alg».proof.Proof.Gen.Kernel.Skeleton
import proofs.«108204_j49847390437921_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of the blocks' extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block index
    has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): unfetched, the block index
    has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): unfetched, the block index
    has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): unfetched, the block index
    has not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s (`hA`) and whose body leaves the block in place (`hafter`): unfetched, the block index
    has not moved; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s (`hA`) and whose body leaves the block in place (`hafter`): unfetched, the block index
    has not moved; the window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

end Regions

/-! ## The body's branch conditions -/

/-- The condition of the body's first `scf.if` (the accumulator's reset), from the grid coordinates: the part's
    scalar chain substituted. -/
abbrev cond3_0 (i : grid3.Coords) : Prop := (Scalar.cmpi .ne (Scalar.extui (Scalar.cmpi .eq (BitVec.ofNat 32 (i 0).val) 0#32)) 0#32) = 1#1
/-- It holds at the first point only — decided over the grid. -/
theorem hcond3_0 : ∀ t : Fin cfg3.N, cond3_0 (grid3.coords t) ↔ t.val % 10 = 0 :=
  (by decide +kernel : ∀ t : Fin grid3.N, cond3_0 (grid3.coords t) ↔ t.val % 10 = 0)

/-- The condition of the body's second `scf.if` (the store of the accumulator to output 7). -/
abbrev cond3_1 (i : grid3.Coords) : Prop := k3_cond2 i = 1#1
/-- It holds at the last point only — decided over the grid. -/
theorem hcond3_1 : ∀ t : Fin cfg3.N, cond3_1 (grid3.coords t) ↔ t.val % 10 = 9 :=
  (by decide +kernel : ∀ t : Fin grid3.N, cond3_1 (grid3.coords t) ↔ t.val % 10 = 9)

/-! ## Where the windows are idle -/

/-- Window 0 is never idle (an input). -/
theorem liveAt3_0 : ∀ t : Fin cfg3.N, cfg3.idle 0 (grid3.coords t) = false := by decide +kernel
/-- Window 1 is never idle (an input). -/
theorem liveAt3_1 : ∀ t : Fin cfg3.N, cfg3.idle 1 (grid3.coords t) = false := by decide +kernel
/-- Window 2 is never idle (an input). -/
theorem liveAt3_2 : ∀ t : Fin cfg3.N, cfg3.idle 2 (grid3.coords t) = false := by decide +kernel
/-- Window 3 is never idle (an input). -/
theorem liveAt3_3 : ∀ t : Fin cfg3.N, cfg3.idle 3 (grid3.coords t) = false := by decide +kernel
/-- Window 4 is never idle (an input). -/
theorem liveAt3_4 : ∀ t : Fin cfg3.N, cfg3.idle 4 (grid3.coords t) = false := by decide +kernel
/-- Window 5 is never idle (an input). -/
theorem liveAt3_5 : ∀ t : Fin cfg3.N, cfg3.idle 5 (grid3.coords t) = false := by decide +kernel
/-- Window 6 is never idle (stored at every point). -/
theorem liveAt3_6 : ∀ t : Fin cfg3.N, cfg3.idle 6 (grid3.coords t) = false := by decide +kernel

/-- At the first point output 7 is idle: the case stores nothing into it. -/
theorem idleAt3_7_A : ∀ t : Fin cfg3.N, cond3_0 (grid3.coords t) → ¬cond3_1 (grid3.coords t) → cfg3.idle 7 (grid3.coords t) = true := by decide +kernel
/-- At the first point the pipeline does not write output 7's block back. -/
theorem noFlush3_7_A : ∀ t : Fin cfg3.N, cond3_0 (grid3.coords t) → ¬cond3_1 (grid3.coords t) → (cfg3.win 7).flush t = false := by decide +kernel
/-- At a middle point output 7 is idle: the case stores nothing into it. -/
theorem idleAt3_7_B : ∀ t : Fin cfg3.N, ¬cond3_0 (grid3.coords t) → ¬cond3_1 (grid3.coords t) → cfg3.idle 7 (grid3.coords t) = true := by decide +kernel
/-- At a middle point the pipeline does not write output 7's block back. -/
theorem noFlush3_7_B : ∀ t : Fin cfg3.N, ¬cond3_0 (grid3.coords t) → ¬cond3_1 (grid3.coords t) → (cfg3.win 7).flush t = false := by decide +kernel
/-- At the last point output 7 is live: the case stores into it. -/
theorem liveAt3_7_C : ∀ t : Fin cfg3.N, ¬cond3_0 (grid3.coords t) → cond3_1 (grid3.coords t) → cfg3.idle 7 (grid3.coords t) = false := by decide +kernel

/-! ## The staging and scratch memrefs -/

/-- One staging buffer of each output window, through which its contents are stated (read back over its pieces: the
    choice of buffer does not matter). -/
abbrev VO3_6 : View sig .tc .vmem S10000x64 .f32 := (Memref.whole cc3_stg6_0 : Memref sig .tc .vmem S10000x64 .f32).view
abbrev VO3_7 : View sig .tc .vmem S1x64 .f32 := (Memref.whole cc3_stg7_0 : Memref sig .tc .vmem S1x64 .f32).view
/-- Each window's current staging memref at point `t`, spelled as the pipeline passes it, and its wholeness. -/
abbrev ms3_0 (t : Fin cfg3.N) : Memref sig .tc .vmem S10000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10000x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S10000x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S4x64x64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x64 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S10000x64 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x64 .f32 := win3_7.stage (cfg3.slots t 7)
abbrev hs3_7 (t : Fin cfg3.N) : (ms3_7 t).IsWhole := hstage3_7 ((cfg3.slots t 7).cast nbuf3_7)
/-- The scratch operand: a whole scoped buffer of the kernel's own, passed beside the windows. -/
abbrev scM3_0 : Memref sig .tc .vmem S1x64 .f32 := Memref.whole cc3_scratch0
/-- The scratch the kernel carries between points, as a view: what it holds is stated through it. -/
abbrev VS3_0 : View sig .tc .vmem S1x64 .f32 := scM3_0.view

/-- The class's region invariant with the kernel's scratch split out as a memref owned at some contents; the other
    scoped buffers stay unopened beside it. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.Kernel.Hand

end
-- ==== Proof.K.N3.RunA.lean ====
/- The node kernel at this region: the run of its whole body at the first point (one module per case, each importing the one
   before it, so that each case elaborates on its own and an auxiliary equation of the part's skeleton is declared once). -/
import proofs.«108204_j49847390437921_1_alg».proof.Proof.K.N3.Runs

-- membership in a rectangle of the blocks' extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), at the first point: the accumulator's reset is taken, the store to output 7 is not;
    WITH the proof that on whole staging memrefs — the inputs' at their contents `x·`, output 6's at anything (the body
    loads it before storing, and uses nothing of what it loads), output 7's, into which the case stores nothing, at contents
    `xi7` handed back untouched, the scratch at anything (the reset overwrites it before it is read) — the
    body runs to the continuation holding the inputs' as they were and each written buffer with its pieces written. The
    printed function is its skeleton, run through its part; each `scf.if` is decided by the case's hypotheses; the
    pieces are the witness the run finds. -/
noncomputable def kernelRun3_A (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) :
    Σ' (L6 : List (View.Piece (Elt F) S10000x64 .f32)) (L7 : List (View.Piece (Elt F) S1x64 .f32)), { LS0 : List (View.Piece (Elt F) S1x64 .f32) //
      ∀ (xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc3__node_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc3__node_kernel_eq_skeleton]; unfold cc3__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

end Cert.Kernel.Hand

end
-- ==== Proof.K.N3.RunB.lean ====
/- The node kernel at this region: the run of its whole body at a middle point (one module per case, each importing the one
   before it, so that each case elaborates on its own and an auxiliary equation of the part's skeleton is declared once). -/
import proofs.«108204_j49847390437921_1_alg».proof.Proof.K.N3.RunA

-- membership in a rectangle of the blocks' extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), at a middle point: neither the accumulator's reset nor the store to output 7 is taken;
    WITH the proof that on whole staging memrefs — the inputs' at their contents `x·`, output 6's at anything (the body
    loads it before storing, and uses nothing of what it loads), output 7's, into which the case stores nothing, at contents
    `xi7` handed back untouched, the scratch at what the point before left (`xs0`) — the
    body runs to the continuation holding the inputs' as they were and each written buffer with its pieces written. The
    printed function is its skeleton, run through its part; each `scf.if` is decided by the case's hypotheses; the
    pieces are the witness the run finds. -/
noncomputable def kernelRun3_B (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) :
    Σ' (L6 : List (View.Piece (Elt F) S10000x64 .f32)) (L7 : List (View.Piece (Elt F) S1x64 .f32)), { LS0 : List (View.Piece (Elt F) S1x64 .f32) //
      ∀ (xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc3__node_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc3__node_kernel_eq_skeleton]; unfold cc3__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

end Cert.Kernel.Hand

end
-- ==== Proof.K.N3.RunC.lean ====
/- The node kernel at this region: the run of its whole body at the last point (one module per case, each importing the one
   before it, so that each case elaborates on its own and an auxiliary equation of the part's skeleton is declared once). -/
import proofs.«108204_j49847390437921_1_alg».proof.Proof.K.N3.RunB

-- membership in a rectangle of the blocks' extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), at the last point: the accumulator's reset is not taken, the store to output 7 is;
    WITH the proof that on whole staging memrefs — the inputs' at their contents `x·`, output 6's at anything (the body
    loads it before storing, and uses nothing of what it loads), output 7's at anything (likewise), the scratch at what the point before left (`xs0`) — the
    body runs to the continuation holding the inputs' as they were and each written buffer with its pieces written. The
    printed function is its skeleton, run through its part; each `scf.if` is decided by the case's hypotheses; the
    pieces are the witness the run finds. -/
noncomputable def kernelRun3_C (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) :
    Σ' (L6 : List (View.Piece (Elt F) S10000x64 .f32)) (L7 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc3__node_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc3__node_kernel_eq_skeleton]; unfold cc3__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.Kernel.Hand

end
-- ==== Proof.K.N3.Body.lean ====
/- The node kernel at this region: its proof data and body obligation, at region-entry contents `V` and array shares `q`.
   From the three runs: what each case leaves in output 6's and output 7's staging buffers and in the scratch (its
   pieces read back; they cover the buffer); the accumulation `outsAt3` over the ten points (the scratch carried from
   point to point); the region invariant with the scratch at what the point before left; the proof data `dat3`; the
   body at a generic point, by cases on the point; and the invariant's two ends. -/
import proofs.«108204_j49847390437921_1_alg».proof.Proof.K.N3.RunC

-- membership in a rectangle of the blocks' extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the share held of each window's array, and the TensorCore's buffer contents when the region is entered
variable (q : Fin cfg3.W → PosShare TreeShare) (V : (c : Dev nD) → (b : Ref sig .tc) → Buf (Elt F) ((c : Thread nD τ).loc b))

/-! ## What each case leaves -/

/-- The pieces the first point stores into output 6 tile its block (one store of the whole block), so they cover it. -/
theorem cover3_A_6 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) (y : S10000x64.Idx) :
    ∃ pc ∈ (kernelRun3_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3 x4 x5).1 S10000x64.size (by sl_kernel_rfl) y

/-- What the first point leaves in output 6's staging buffer: its pieces read back over junk. -/
def out3_A_6 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) : Vec F S10000x64 .f32 :=
  VO3_6.read (Elt F) (VO3_6.writes (Elt F) VO3_6.junk (kernelRun3_A c i arg1 harg1 arg2 harg2 arg3 harg3 arg4 harg4 arg5 harg5 arg6 harg6 arg7 harg7 arg8 harg8 arg9 harg9 hc0 hc1 x0 x1 x2 x3 x4 x5).1)

/-- The first point stores nothing into output 7 (the window is idle there and not written back): no pieces — a
    placeholder that nothing consults, the window being neither written back there nor read at the next point. -/
def out3_A_7 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) : Vec F S1x64 .f32 :=
  VO3_7.read (Elt F) (VO3_7.writes (Elt F) VO3_7.junk (kernelRun3_A c i arg1 harg1 arg2 harg2 arg3 harg3 arg4 harg4 arg5 harg5 arg6 harg6 arg7 harg7 arg8 harg8 arg9 harg9 hc0 hc1 x0 x1 x2 x3 x4 x5).2.1)

/-- The pieces the first point stores into the scratch cover it. -/
theorem scover3_A_0 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) (y : S1x64.Idx) :
    ∃ pc ∈ (kernelRun3_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3 x4 x5).2.2.1 S1x64.size (by sl_kernel_rfl) y

/-- What the first point leaves in the scratch: its pieces read back over junk. -/
def sout3_A_0 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) : Vec F S1x64 .f32 :=
  VS3_0.read (Elt F) (VS3_0.writes (Elt F) VS3_0.junk (kernelRun3_A c i arg1 harg1 arg2 harg2 arg3 harg3 arg4 harg4 arg5 harg5 arg6 harg6 arg7 harg7 arg8 harg8 arg9 harg9 hc0 hc1 x0 x1 x2 x3 x4 x5).2.2.1)

/-- The pieces a middle point stores into output 6 tile its block (one store of the whole block), so they cover it. -/
theorem cover3_B_6 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S10000x64.Idx) :
    ∃ pc ∈ (kernelRun3_B c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 x4 x5 xs0).1 S10000x64.size (by sl_kernel_rfl) y

/-- What a middle point leaves in output 6's staging buffer: its pieces read back over junk. -/
def out3_B_6 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S10000x64 .f32 :=
  VO3_6.read (Elt F) (VO3_6.writes (Elt F) VO3_6.junk (kernelRun3_B c i arg1 harg1 arg2 harg2 arg3 harg3 arg4 harg4 arg5 harg5 arg6 harg6 arg7 harg7 arg8 harg8 arg9 harg9 hc0 hc1 x0 x1 x2 x3 x4 x5 xs0).1)

/-- A middle point stores nothing into output 7 (the window is idle there and not written back): no pieces — a
    placeholder that nothing consults, the window being neither written back there nor read at the next point. -/
def out3_B_7 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VO3_7.read (Elt F) (VO3_7.writes (Elt F) VO3_7.junk (kernelRun3_B c i arg1 harg1 arg2 harg2 arg3 harg3 arg4 harg4 arg5 harg5 arg6 harg6 arg7 harg7 arg8 harg8 arg9 harg9 hc0 hc1 x0 x1 x2 x3 x4 x5 xs0).2.1)

/-- The pieces a middle point stores into the scratch cover it. -/
theorem scover3_B_0 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S1x64.Idx) :
    ∃ pc ∈ (kernelRun3_B c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 x4 x5 xs0).2.2.1 S1x64.size (by sl_kernel_rfl) y

/-- What a middle point leaves in the scratch: its pieces read back over junk. -/
def sout3_B_0 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VS3_0.read (Elt F) (VS3_0.writes (Elt F) VS3_0.junk (kernelRun3_B c i arg1 harg1 arg2 harg2 arg3 harg3 arg4 harg4 arg5 harg5 arg6 harg6 arg7 harg7 arg8 harg8 arg9 harg9 hc0 hc1 x0 x1 x2 x3 x4 x5 xs0).2.2.1)

/-- The pieces the last point stores into output 6 tile its block (one store of the whole block), so they cover it. -/
theorem cover3_C_6 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S10000x64.Idx) :
    ∃ pc ∈ (kernelRun3_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 x5 xs0).1 S10000x64.size (by sl_kernel_rfl) y

/-- What the last point leaves in output 6's staging buffer: its pieces read back over junk. -/
def out3_C_6 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S10000x64 .f32 :=
  VO3_6.read (Elt F) (VO3_6.writes (Elt F) VO3_6.junk (kernelRun3_C c i arg1 harg1 arg2 harg2 arg3 harg3 arg4 harg4 arg5 harg5 arg6 harg6 arg7 harg7 arg8 harg8 arg9 harg9 hc0 hc1 x0 x1 x2 x3 x4 x5 xs0).1)

/-- The pieces the last point stores into output 7 tile its block (one store of the whole block), so they cover it. -/
theorem cover3_C_7 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S1x64.Idx) :
    ∃ pc ∈ (kernelRun3_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 x5 xs0).2.1 S1x64.size (by sl_kernel_rfl) y

/-- What the last point leaves in output 7's staging buffer: its pieces read back over junk. -/
def out3_C_7 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VO3_7.read (Elt F) (VO3_7.writes (Elt F) VO3_7.junk (kernelRun3_C c i arg1 harg1 arg2 harg2 arg3 harg3 arg4 harg4 arg5 harg5 arg6 harg6 arg7 harg7 arg8 harg8 arg9 harg9 hc0 hc1 x0 x1 x2 x3 x4 x5 xs0).2.1)

/-- The pieces the last point stores into the scratch cover it. -/
theorem scover3_C_0 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S1x64.Idx) :
    ∃ pc ∈ (kernelRun3_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 x5 xs0).2.2.1 S1x64.size (by sl_kernel_rfl) y

/-- What the last point leaves in the scratch: its pieces read back over junk. -/
def sout3_C_0 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VS3_0.read (Elt F) (VS3_0.writes (Elt F) VS3_0.junk (kernelRun3_C c i arg1 harg1 arg2 harg2 arg3 harg3 arg4 harg4 arg5 harg5 arg6 harg6 arg7 harg7 arg8 harg8 arg9 harg9 hc0 hc1 x0 x1 x2 x3 x4 x5 xs0).2.2.1)

/-! ## What the outputs and the scratch hold after each point -/

/-- THE ACCUMULATION. What output 6's and output 7's staging buffers and the scratch hold after the body at position
    `n`: the case the closed forms select at `n`, run at the point's memrefs and input blocks, the scratch at what
    this leaves at `n - 1`. An assignment of the conditions no point meets is no case. -/
def outsAt3 (c : Dev nD) : (n : ℕ) → n < cfg3.N → Vec F S10000x64 .f32 × Vec F S1x64 .f32 × Vec F S1x64 .f32
  | 0, hn => (out3_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), out3_A_7 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩))
  | n + 1, hn =>
    if h0 : (n + 1) % 10 = 0 then
      if h1 : (n + 1) % 10 = 9 then
        False.elim (by omega)
      else
        (out3_A_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), out3_A_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩))
    else
      if h1 : (n + 1) % 10 = 9 then
        (out3_C_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2, out3_C_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2)
      else
        (out3_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2, out3_B_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2)

/-- `outsAt3` at the first point: that case's contents. -/
theorem outsAt3_A (c : Dev nD) (t : Fin cfg3.N) (h0 : t.val % 10 = 0) (h1 : ¬t.val % 10 = 9) :
    outsAt3 V c t.val t.isLt = (out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)) := by
  obtain ⟨n, hn⟩ := t
  cases n with
  | zero => exact rfl
  | succ n => exact (dif_pos h0).trans ((dif_neg h1).trans rfl)

/-- `outsAt3` at a middle point: that case's contents, over what the point before left. -/
theorem outsAt3_B (c : Dev nD) (t : Fin cfg3.N) (h0 : ¬t.val % 10 = 0) (h1 : ¬t.val % 10 = 9) :
    outsAt3 V c t.val t.isLt = (out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2, out3_B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt3` at the last point: that case's contents, over what the point before left. -/
theorem outsAt3_C (c : Dev nD) (t : Fin cfg3.N) (h0 : ¬t.val % 10 = 0) (h1 : t.val % 10 = 9) :
    outsAt3 V c t.val t.isLt = (out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2, out3_C_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the class's (the scratch at anything);
    afterwards the scratch at what the point before left in it (`outsAt3`'s third component), the other scoped buffers
    unopened, and the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2)) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the scratch at that point's contents. -/
theorem PhiS3_succ (c : Dev nD) (n : ℕ) (hn : n < cfg3.N) :
    PhiS3 V c (n + 1) hn = iprop(iprop(iprop(owns (c : Thread nD τ) scM3_0 fullShare ((outsAt3 V c n hn).2.2)) ∗ Pipeline.scopedRestBut (Ix := Unit) (Name := ℕ) (U := UR sig nD τ) (Lvl := ℕ) (Val := Elt F) spec3 c [cc3_scratch0]) ∗ (∃ r, prngReg c r)) := rfl

/-- Before a point that is not the first: the scratch at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the outputs' at `outsAt3`'s components; the invariant `PhiS3`;
    nothing owed; the arrays' shares `q`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
    | ⟨7, _⟩ => (outsAt3 V c t.val t.isLt).2.1
  Φ t := PhiS3 V c t.val (Nat.le_of_lt_succ t.isLt)
  q := q
  owed _ := 0

/-- The proof data's arrays are the region-entry contents (the definition projected, `V` never unfolded). -/
theorem A_eq3 (c : Dev nD) (w : Fin cfg3.W) : (dat3 q V c).A w = V c (Pipeline.arrRef spec3 w) := by
  dsimp only [dat3]

/-- The invariant at a point's start, restated at `t.val`. -/
theorem PhiS3_castSucc (c : Dev nD) (t : Fin cfg3.N) :
    (dat3 q V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 q V c).after 0 t = iblk3 V c 0 t := by dsimp only [dat3]
theorem after3_1 (c : Dev nD) (t : Fin cfg3.N) : (dat3 q V c).after 1 t = iblk3 V c 1 t := by dsimp only [dat3]
theorem after3_2 (c : Dev nD) (t : Fin cfg3.N) : (dat3 q V c).after 2 t = iblk3 V c 2 t := by dsimp only [dat3]
theorem after3_3 (c : Dev nD) (t : Fin cfg3.N) : (dat3 q V c).after 3 t = iblk3 V c 3 t := by dsimp only [dat3]
theorem after3_4 (c : Dev nD) (t : Fin cfg3.N) : (dat3 q V c).after 4 t = iblk3 V c 4 t := by dsimp only [dat3]
theorem after3_5 (c : Dev nD) (t : Fin cfg3.N) : (dat3 q V c).after 5 t = iblk3 V c 5 t := by dsimp only [dat3]
theorem after3_6 (c : Dev nD) (t : Fin cfg3.N) : (dat3 q V c).after 6 t = (outsAt3 V c t.val t.isLt).1 := by dsimp only [dat3]
theorem after3_7 (c : Dev nD) (t : Fin cfg3.N) : (dat3 q V c).after 7 t = (outsAt3 V c t.val t.isLt).2.1 := by dsimp only [dat3]

/-- Each input's current staging buffer holds its block at every point, fetched there or not. -/
theorem before3_0 (c : Dev nD) (t : Fin cfg3.N) (d) : (dat3 q V c).before 0 t d = iblk3 V c 0 t :=
  before3_0_of V (dat3 q V c) (A_eq3 q V c 0) (after3_0 q V c) t d
theorem before3_1 (c : Dev nD) (t : Fin cfg3.N) (d) : (dat3 q V c).before 1 t d = iblk3 V c 1 t :=
  before3_1_of V (dat3 q V c) (A_eq3 q V c 1) (after3_1 q V c) t d
theorem before3_2 (c : Dev nD) (t : Fin cfg3.N) (d) : (dat3 q V c).before 2 t d = iblk3 V c 2 t :=
  before3_2_of V (dat3 q V c) (A_eq3 q V c 2) (after3_2 q V c) t d
theorem before3_3 (c : Dev nD) (t : Fin cfg3.N) (d) : (dat3 q V c).before 3 t d = iblk3 V c 3 t :=
  before3_3_of V (dat3 q V c) (A_eq3 q V c 3) (after3_3 q V c) t d
theorem before3_4 (c : Dev nD) (t : Fin cfg3.N) (d) : (dat3 q V c).before 4 t d = iblk3 V c 4 t :=
  before3_4_of V (dat3 q V c) (A_eq3 q V c 4) (after3_4 q V c) t d
theorem before3_5 (c : Dev nD) (t : Fin cfg3.N) (d) : (dat3 q V c).before 5 t d = iblk3 V c 5 t :=
  before3_5_of V (dat3 q V c) (A_eq3 q V c 5) (after3_5 q V c) t d

/-! ## The body obligation, at a generic point -/

/-- What the body is called with at point `t` (the body obligation's precondition, the windows one by one), -/
def bodyPre3 (c : Dev nD) (t : Fin cfg3.N) : sProp 𝕄 :=
  iprop((dat3 q V c).Φ t.castSucc ∗ (dat3 q V c).owesAt () t.castSucc
    ∗ (∃ d, owns (c : Thread nD τ) (ms3_0 t) fullShare ((dat3 q V c).before 0 t d))
    ∗ (∃ d, owns (c : Thread nD τ) (ms3_1 t) fullShare ((dat3 q V c).before 1 t d))
    ∗ (∃ d, owns (c : Thread nD τ) (ms3_2 t) fullShare ((dat3 q V c).before 2 t d))
    ∗ (∃ d, owns (c : Thread nD τ) (ms3_3 t) fullShare ((dat3 q V c).before 3 t d))
    ∗ (∃ d, owns (c : Thread nD τ) (ms3_4 t) fullShare ((dat3 q V c).before 4 t d))
    ∗ (∃ d, owns (c : Thread nD τ) (ms3_5 t) fullShare ((dat3 q V c).before 5 t d))
    ∗ (∃ d, owns (c : Thread nD τ) (ms3_6 t) fullShare ((dat3 q V c).before 6 t d))
    ∗ (∃ d, owns (c : Thread nD τ) (ms3_7 t) fullShare ((dat3 q V c).before 7 t d)))

/-- and what it returns. -/
def bodyPost3 (c : Dev nD) (t : Fin cfg3.N) : sProp 𝕄 :=
  iprop((dat3 q V c).Φ t.succ ∗ (dat3 q V c).owesAt () t.succ
    ∗ (dat3 q V c).leavesExact 0 t
    ∗ (dat3 q V c).leavesExact 1 t
    ∗ (dat3 q V c).leavesExact 2 t
    ∗ (dat3 q V c).leavesExact 3 t
    ∗ (dat3 q V c).leavesExact 4 t
    ∗ (dat3 q V c).leavesExact 5 t
    ∗ (dat3 q V c).leavesExact 6 t
    ∗ (dat3 q V c).leavesExact 7 t)

set_option maxHeartbeats 4800000 in
/-- The body at any point: the inputs' memrefs hold their blocks; the closed forms say which case the point is in; so
    that case's run applies. The invariant hands the body the scratch at what the point before left (at anything at
    the first point) and takes it back at this point's contents, its pieces covering it; the other scoped buffers and
    the generator register pass through; output 6's buffer is left at its pieces read back; output 7's is handed back
    as found except at the last point, where it is left at its pieces read back; the core owes nothing throughout. -/
theorem sound_body3 (c : Dev nD) (t : Fin cfg3.N) :
    bodyPre3 q V c t ⊢ wp frame (wpE (defs₀ (F := F)) Variants.none c none) Set.univ (bodyAt3 t) (fun _ => bodyPost3 q V c t) := by
  unfold bodyPre3 bodyPost3 bodyAt3
  simp only [before3_0, before3_1, before3_2, before3_3, before3_4, before3_5]
  rw [show (dat3 q V c).owesAt () t.succ = (dat3 q V c).owesAt () t.castSucc from rfl]
  rw [show (dat3 q V c).Φ t.succ = PhiS3 V c (t.val + 1) t.isLt from rfl, PhiS3_succ]
  have hN : t.val < 10 := lt_of_lt_of_eq t.isLt (show cfg3.N = 10 from N_3)
  by_cases h0 : t.val % 10 = 0
  · by_cases h1 : t.val % 10 = 9
    · exfalso; omega
    · rw [show (dat3 q V c).leavesExact 0 t = owns (c : Thread nD τ) (ms3_0 t) fullShare ((dat3 q V c).after 0 t) from by
        unfold Dat.leavesExact; rw [liveAt3_0 t], after3_0]
      rw [show (dat3 q V c).leavesExact 1 t = owns (c : Thread nD τ) (ms3_1 t) fullShare ((dat3 q V c).after 1 t) from by
        unfold Dat.leavesExact; rw [liveAt3_1 t], after3_1]
      rw [show (dat3 q V c).leavesExact 2 t = owns (c : Thread nD τ) (ms3_2 t) fullShare ((dat3 q V c).after 2 t) from by
        unfold Dat.leavesExact; rw [liveAt3_2 t], after3_2]
      rw [show (dat3 q V c).leavesExact 3 t = owns (c : Thread nD τ) (ms3_3 t) fullShare ((dat3 q V c).after 3 t) from by
        unfold Dat.leavesExact; rw [liveAt3_3 t], after3_3]
      rw [show (dat3 q V c).leavesExact 4 t = owns (c : Thread nD τ) (ms3_4 t) fullShare ((dat3 q V c).after 4 t) from by
        unfold Dat.leavesExact; rw [liveAt3_4 t], after3_4]
      rw [show (dat3 q V c).leavesExact 5 t = owns (c : Thread nD τ) (ms3_5 t) fullShare ((dat3 q V c).after 5 t) from by
        unfold Dat.leavesExact; rw [liveAt3_5 t], after3_5]
      rw [show (dat3 q V c).leavesExact 6 t = owns (c : Thread nD τ) (ms3_6 t) fullShare ((dat3 q V c).after 6 t) from by
        unfold Dat.leavesExact; rw [liveAt3_6 t], after3_6]
      rw [Dat.leavesExact_idle (dat3 q V c) 7 t (idleAt3_7_A t ((hcond3_0 t).mpr h0) (fun h => h1 ((hcond3_1 t).mp h))) (noFlush3_7_A t ((hcond3_0 t).mpr h0) (fun h => h1 ((hcond3_1 t).mp h)))]
      rw [outsAt3_A V c t h0 h1]
      unfold out3_A_6 sout3_A_0; (try dsimp only)
      by_cases hz : t.val = 0
      · rw [PhiS3_castSucc q V c t, PhiS3_zero V c _ _ hz, PhiA3_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover3_A_6 c _ _ _ _ _ _ _ _ _ _ _ _ _ _ _ _ _ _ _ _ _ _ _ _ _ _ _)
        iexists _; iexact H7
      · exfalso; omega
  · by_cases h1 : t.val % 10 = 9
    · rw [show (dat3 q V c).leavesExact 0 t = owns (c : Thread nD τ) (ms3_0 t) fullShare ((dat3 q V c).after 0 t) from by
        unfold Dat.leavesExact; rw [liveAt3_0 t], after3_0]
      rw [show (dat3 q V c).leavesExact 1 t = owns (c : Thread nD τ) (ms3_1 t) fullShare ((dat3 q V c).after 1 t) from by
        unfold Dat.leavesExact; rw [liveAt3_1 t], after3_1]
      rw [show (dat3 q V c).leavesExact 2 t = owns (c : Thread nD τ) (ms3_2 t) fullShare ((dat3 q V c).after 2 t) from by
        unfold Dat.leavesExact; rw [liveAt3_2 t], after3_2]
      rw [show (dat3 q V c).leavesExact 3 t = owns (c : Thread nD τ) (ms3_3 t) fullShare ((dat3 q V c).after 3 t) from by
        unfold Dat.leavesExact; rw [liveAt3_3 t], after3_3]
      rw [show (dat3 q V c).leavesExact 4 t = owns (c : Thread nD τ) (ms3_4 t) fullShare ((dat3 q V c).after 4 t) from by
        unfold Dat.leavesExact; rw [liveAt3_4 t], after3_4]
      rw [show (dat3 q V c).leavesExact 5 t = owns (c : Thread nD τ) (ms3_5 t) fullShare ((dat3 q V c).after 5 t) from by
        unfold Dat.leavesExact; rw [liveAt3_5 t], after3_5]
      rw [show (dat3 q V c).leavesExact 6 t = owns (c : Thread nD τ) (ms3_6 t) fullShare ((dat3 q V c).after 6 t) from by
        unfold Dat.leavesExact; rw [liveAt3_6 t], after3_6]
      rw [show (dat3 q V c).leavesExact 7 t = owns (c : Thread nD τ) (ms3_7 t) fullShare ((dat3 q V c).after 7 t) from by
        unfold Dat.leavesExact; rw [liveAt3_7_C t (fun h => h0 ((hcond3_0 t).mp h)) ((hcond3_1 t).mpr h1)], after3_7]
      rw [outsAt3_C V c t h0 h1]
      unfold out3_C_6 out3_C_7 sout3_C_0; (try dsimp only)
      by_cases hz : t.val = 0
      · exfalso; omega
      · rw [PhiS3_castSucc q V c t, PhiS3_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun3_C c (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover3_C_6 c _ _ _ _ _ _ _ _ _ _ _ _ _ _ _ _ _ _ _ _ _ _ _ _ _ _ _ _)
        unfold owns; iexists _; isplitr
        swap; · iexact H7
        ipureintro; exact View.read_writes_of_cover _ _ _ _ _ (cover3_C_7 c _ _ _ _ _ _ _ _ _ _ _ _ _ _ _ _ _ _ _ _ _ _ _ _ _ _ _ _)
    · rw [show (dat3 q V c).leavesExact 0 t = owns (c : Thread nD τ) (ms3_0 t) fullShare ((dat3 q V c).after 0 t) from by
        unfold Dat.leavesExact; rw [liveAt3_0 t], after3_0]
      rw [show (dat3 q V c).leavesExact 1 t = owns (c : Thread nD τ) (ms3_1 t) fullShare ((dat3 q V c).after 1 t) from by
        unfold Dat.leavesExact; rw [liveAt3_1 t], after3_1]
      rw [show (dat3 q V c).leavesExact 2 t = owns (c : Thread nD τ) (ms3_2 t) fullShare ((dat3 q V c).after 2 t) from by
        unfold Dat.leavesExact; rw [liveAt3_2 t], after3_2]
      rw [show (dat3 q V c).leavesExact 3 t = owns (c : Thread nD τ) (ms3_3 t) fullShare ((dat3 q V c).after 3 t) from by
        unfold Dat.leavesExact; rw [liveAt3_3 t], after3_3]
      rw [show (dat3 q V c).leavesExact 4 t = owns (c : Thread nD τ) (ms3_4 t) fullShare ((dat3 q V c).after 4 t) from by
        unfold Dat.leavesExact; rw [liveAt3_4 t], after3_4]
      rw [show (dat3 q V c).leavesExact 5 t = owns (c : Thread nD τ) (ms3_5 t) fullShare ((dat3 q V c).after 5 t) from by
        unfold Dat.leavesExact; rw [liveAt3_5 t], after3_5]
      rw [show (dat3 q V c).leavesExact 6 t = owns (c : Thread nD τ) (ms3_6 t) fullShare ((dat3 q V c).after 6 t) from by
        unfold Dat.leavesExact; rw [liveAt3_6 t], after3_6]
      rw [Dat.leavesExact_idle (dat3 q V c) 7 t (idleAt3_7_B t (fun h => h0 ((hcond3_0 t).mp h)) (fun h => h1 ((hcond3_1 t).mp h))) (noFlush3_7_B t (fun h => h0 ((hcond3_0 t).mp h)) (fun h => h1 ((hcond3_1 t).mp h)))]
      rw [outsAt3_B V c t h0 h1]
      unfold out3_B_6 sout3_B_0; (try dsimp only)
      by_cases hz : t.val = 0
      · exfalso; omega
      · rw [PhiS3_castSucc q V c t, PhiS3_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun3_B c (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover3_B_6 c _ _ _ _ _ _ _ _ _ _ _ _ _ _ _ _ _ _ _ _ _ _ _ _ _ _ _ _)
        iexists _; iexact H7

/-- The library's body obligation, at every point. -/
theorem body_obligation3 (c : Dev nD) : BodyObligation (dat3 (F := F) q V c) (defs₀ (F := F)) Variants.none () Set.univ := fun t => by
  rw [bigSep_W3, bigSep_W3]
  exact sound_body3 q V c t

/-- What the launch hands the region is the invariant before the first point. -/
theorem hin3 (c : Dev nD) : (Pipeline.ΦA spec3 c : sProp 𝕄) ⊢ (dat3 q V c).Φ 0 := by
  rw [show (dat3 q V c).Φ 0 = PhiS3 V c 0 (Nat.zero_le _) from rfl, PhiS3_zero V c 0 _ rfl]
  try exact Idealize.SL.BI.Entails.refl _

/-- After any point but the first the invariant gives the class's back: the scratch's named contents are forgotten. -/
theorem Phi_out3 (c : Dev nD) (t : Fin (cfg3.N + 1)) (ht : t.val ≠ 0) : (dat3 q V c).Φ t ⊢ (Pipeline.ΦA spec3 c : sProp 𝕄) := by
  rw [show (dat3 q V c).Φ t = PhiS3 V c t.val (Nat.le_of_lt_succ t.isLt) from rfl, PhiS3_pos V c _ _ ht, PhiA3_eq]
  iintro ⟨⟨HS0, Hrest⟩, Hg⟩
  isplitl [HS0 Hrest]
  · isplitl [HS0]
    · iexists _; iexact HS0
    iexact Hrest
  iexact Hg

/-- The same after the last point. -/
theorem hout3 (c : Dev nD) : (dat3 q V c).Φ (Fin.last cfg3.N) ⊢ (Pipeline.ΦA spec3 c : sProp 𝕄) :=
  Phi_out3 q V c _ (by rw [Fin.val_last]; have : cfg3.N = 10 := N_3; omega)

end Regions

end Cert.Kernel.Hand

end
-- ==== Proof.K.E4.Runs.lean ====
/- The edge kernel's body at the pipeline `cfg4`, first module: what the three
   whole-body runs share. The windows' blocks read off the arrays as the region finds them (a parameter `V`), the
   inputs' staging buffers at their blocks at every point, the two branch conditions of the body in closed form over
   the 80 grid points, where the two output windows are live or idle, the staging and scratch memrefs the body is
   called with, and the region invariant with the kernel's own scratch split off. -/
import proofs.«108204_j49847390437921_1_alg».proof.Proof.Gen.Kernel.Launch
import proofs.«108204_j49847390437921_1_alg».proof.Proof.Gen.Kernel.Skeleton
import proofs.«108204_j49847390437921_1_alg».proof.Proof.Gen.Kernel.Points
import Idealize.ShloMosaic.Lib.Pipeline.FrameBody
import Idealize.ShloMosaic.Lib.Ring
import Idealize.ShloMosaic.Lib.Tactic

-- membership in a rectangle of production extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

-- the TensorCore's buffer contents when the region is entered: everything below is stated at any such contents
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (an unfetched
    input's block index has not moved), for any proof data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (an unfetched
    input's block index has not moved), for any proof data whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (an unfetched
    input's block index has not moved), for any proof data whose array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not (an unfetched
    input's block index has not moved), for any proof data whose array is `V`'s and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not (an unfetched
    input's block index has not moved), for any proof data whose array is `V`'s and whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not (an unfetched
    input's block index has not moved), for any proof data whose array is `V`'s and whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not (an unfetched
    input's block index has not moved), for any proof data whose array is `V`'s and whose body leaves the block in place. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

end Region4

/-! ## The body's branch conditions -/

/-- The condition of the body's first `scf.if` (the scratch is reset): the grid coordinate is 0, as the body computes it. -/
abbrev cond4_0 (i : grid4.Coords) : Prop := (Scalar.cmpi .ne (Scalar.extui (Scalar.cmpi .eq (BitVec.ofNat 32 (i 0).val) 0#32)) 0#32) = 1#1
/-- It holds at the first of the 80 points only. -/
theorem hcond4_0 : ∀ t : Fin cfg4.N, cond4_0 (grid4.coords t) ↔ t.val % 80 = 0 :=
  (by decide +kernel : ∀ t : Fin grid4.N, cond4_0 (grid4.coords t) ↔ t.val % 80 = 0)

/-- The condition of the body's second `scf.if` (the scratch is stored to the second output): the grid coordinate is 79. -/
abbrev cond4_1 (i : grid4.Coords) : Prop := k4_cond2 i = 1#1
/-- It holds at the last of the 80 points only. -/
theorem hcond4_1 : ∀ t : Fin cfg4.N, cond4_1 (grid4.coords t) ↔ t.val % 80 = 79 :=
  (by decide +kernel : ∀ t : Fin grid4.N, cond4_1 (grid4.coords t) ↔ t.val % 80 = 79)

/-! ## Where the windows are idle -/

/-- Window 0 is never idle. -/
theorem liveAt4_0 : ∀ t : Fin cfg4.N, cfg4.idle 0 (grid4.coords t) = false := by decide +kernel
/-- Window 1 is never idle. -/
theorem liveAt4_1 : ∀ t : Fin cfg4.N, cfg4.idle 1 (grid4.coords t) = false := by decide +kernel
/-- Window 2 is never idle. -/
theorem liveAt4_2 : ∀ t : Fin cfg4.N, cfg4.idle 2 (grid4.coords t) = false := by decide +kernel
/-- Window 3 is never idle. -/
theorem liveAt4_3 : ∀ t : Fin cfg4.N, cfg4.idle 3 (grid4.coords t) = false := by decide +kernel
/-- Window 4 is never idle. -/
theorem liveAt4_4 : ∀ t : Fin cfg4.N, cfg4.idle 4 (grid4.coords t) = false := by decide +kernel
/-- Window 5 is never idle. -/
theorem liveAt4_5 : ∀ t : Fin cfg4.N, cfg4.idle 5 (grid4.coords t) = false := by decide +kernel
/-- Window 6 is never idle. -/
theorem liveAt4_6 : ∀ t : Fin cfg4.N, cfg4.idle 6 (grid4.coords t) = false := by decide +kernel
/-- Window 7 is never idle. -/
theorem liveAt4_7 : ∀ t : Fin cfg4.N, cfg4.idle 7 (grid4.coords t) = false := by decide +kernel
/-- At the first point (case A) output 8 is idle: the case stores nothing into it. -/
theorem idleAt4_8_A : ∀ t : Fin cfg4.N, cond4_0 (grid4.coords t) → ¬cond4_1 (grid4.coords t) → cfg4.idle 8 (grid4.coords t) = true := by decide +kernel
/-- At the first point the pipeline does not write output 8's block back. -/
theorem noFlush4_8_A : ∀ t : Fin cfg4.N, cond4_0 (grid4.coords t) → ¬cond4_1 (grid4.coords t) → (cfg4.win 8).flush t = false := by decide +kernel
/-- At the middle points (case B) output 8 is idle: the case stores nothing into it. -/
theorem idleAt4_8_B : ∀ t : Fin cfg4.N, ¬cond4_0 (grid4.coords t) → ¬cond4_1 (grid4.coords t) → cfg4.idle 8 (grid4.coords t) = true := by decide +kernel
/-- At the middle points the pipeline does not write output 8's block back. -/
theorem noFlush4_8_B : ∀ t : Fin cfg4.N, ¬cond4_0 (grid4.coords t) → ¬cond4_1 (grid4.coords t) → (cfg4.win 8).flush t = false := by decide +kernel
/-- At the last point (case C) output 8 is live: the case stores into it. -/
theorem liveAt4_8_C : ∀ t : Fin cfg4.N, ¬cond4_0 (grid4.coords t) → cond4_1 (grid4.coords t) → cfg4.idle 8 (grid4.coords t) = false := by decide +kernel

/-! ## The memrefs the body is called with -/

/-- One staging buffer of each output window, through which its contents are stated (any choice reads the same). -/
abbrev VO4_7 : View sig .tc .vmem S10000x64 .f32 := (Memref.whole cc4_stg7_0 : Memref sig .tc .vmem S10000x64 .f32).view
abbrev VO4_8 : View sig .tc .vmem S1x64 .f32 := (Memref.whole cc4_stg8_0 : Memref sig .tc .vmem S1x64 .f32).view
/-- Each window's current staging memref at point `t`, spelled as the pipeline passes it, and its wholeness. -/
abbrev ms4_0 (t : Fin cfg4.N) : Memref sig .tc .vmem S10000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S10000x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S10000x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S10000x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5x64x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x64 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S10000x64 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x64 .f32 := win4_8.stage (cfg4.slots t 8)
abbrev hs4_8 (t : Fin cfg4.N) : (ms4_8 t).IsWhole := hstage4_8 ((cfg4.slots t 8).cast nbuf4_8)
/-- The scratch operand: a whole scoped buffer of the kernel's own, passed beside the windows. -/
abbrev scM4_0 : Memref sig .tc .vmem S1x64 .f32 := Memref.whole cc4_scratch0
/-- The scratch the kernel carries between points, as a view: what it holds is stated through it. -/
abbrev VS4_0 : View sig .tc .vmem S1x64 .f32 := scM4_0.view

/-- The region invariant with the kernel's scratch as a memref owned at some contents, every other scoped buffer
    carried unopened, and the generator register at some state: what the body obligation hands the run and takes back. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.Kernel.Hand

end
-- ==== Proof.K.E4.RunA.lean ====
/- The edge kernel's whole body at the pipeline `cfg4`, run once in case A: the first grid point (the first `scf.if` taken: the scratch is reset; the second not taken). The run's witness is the list
   of pieces each stored buffer ends with; one module per case, each importing the one before. -/
import proofs.«108204_j49847390437921_1_alg».proof.Proof.K.E4.Runs

-- membership in a rectangle of production extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each stored buffer, as pieces (last first), in case A, with the proof that on whole
    staging memrefs — the seven inputs' at their contents `x0 … x6`, output 7's at anything, output 8's (no store: the window is idle and not written back here) at contents `xi8` handed back untouched, the scratch at anything (it is reset before it is read) —
    the body runs to the continuation holding the inputs' as they were and each stored buffer with its pieces written
    (the body loads output 7's buffer before storing it: the loaded values are not used). The printed function is its
    skeleton, which the symbolic executor runs through the part call; each `scf.if` is decided by the case's hypotheses. -/
noncomputable def kernelRun4_A (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) :
    Σ' (L7 : List (View.Piece (Elt F) S10000x64 .f32)) (L8 : List (View.Piece (Elt F) S1x64 .f32)), { LS0 : List (View.Piece (Elt F) S1x64 .f32) //
      ∀ (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xi8 ∗ (∃ f, arg10.view.loc (c : Thread nD τ) ↦[arg10.view.set]{fullShare} arg10.view.writes (Elt F) f LS0)) -∗ K ⟨⟩))
          ⊢ wp frame (wpE (defs₀ (F := F)) Variants.none c none) E (cc4__edge_kernel i arg1 harg1 arg2 harg2 arg3 harg3 arg4 harg4 arg5 harg5 arg6 harg6 arg7 harg7 arg8 harg8 arg9 harg9 arg10 harg10) K } := by
  refine ⟨?_, [], ?_, fun xi8 E K => ?run⟩
  case run =>
    simp only [cc4__edge_kernel_eq_skeleton]; unfold cc4__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    iexists _; iexact HS0

end Cert.Kernel.Hand

end
-- ==== Proof.K.E4.RunB.lean ====
/- The edge kernel's whole body at the pipeline `cfg4`, run once in case B: a middle grid point (neither `scf.if` taken). The run's witness is the list
   of pieces each stored buffer ends with; one module per case, each importing the one before. -/
import proofs.«108204_j49847390437921_1_alg».proof.Proof.K.E4.RunA

-- membership in a rectangle of production extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each stored buffer, as pieces (last first), in case B, with the proof that on whole
    staging memrefs — the seven inputs' at their contents `x0 … x6`, output 7's at anything, output 8's (no store: the window is idle and not written back here) at contents `xi8` handed back untouched, the scratch at the contents `xs0` the point before left —
    the body runs to the continuation holding the inputs' as they were and each stored buffer with its pieces written
    (the body loads output 7's buffer before storing it: the loaded values are not used). The printed function is its
    skeleton, which the symbolic executor runs through the part call; each `scf.if` is decided by the case's hypotheses. -/
noncomputable def kernelRun4_B (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    Σ' (L7 : List (View.Piece (Elt F) S10000x64 .f32)) (L8 : List (View.Piece (Elt F) S1x64 .f32)), { LS0 : List (View.Piece (Elt F) S1x64 .f32) //
      ∀ (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xi8 ∗ (∃ f, arg10.view.loc (c : Thread nD τ) ↦[arg10.view.set]{fullShare} arg10.view.writes (Elt F) f LS0)) -∗ K ⟨⟩))
          ⊢ wp frame (wpE (defs₀ (F := F)) Variants.none c none) E (cc4__edge_kernel i arg1 harg1 arg2 harg2 arg3 harg3 arg4 harg4 arg5 harg5 arg6 harg6 arg7 harg7 arg8 harg8 arg9 harg9 arg10 harg10) K } := by
  refine ⟨?_, [], ?_, fun xi8 E K => ?run⟩
  case run =>
    simp only [cc4__edge_kernel_eq_skeleton]; unfold cc4__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    iexists _; iexact HS0

end Cert.Kernel.Hand

end
-- ==== Proof.K.E4.RunC.lean ====
/- The edge kernel's whole body at the pipeline `cfg4`, run once in case C: the last grid point (the first `scf.if` not taken; the second taken: the scratch is stored to output 8). The run's witness is the list
   of pieces each stored buffer ends with; one module per case, each importing the one before. -/
import proofs.«108204_j49847390437921_1_alg».proof.Proof.K.E4.RunB

-- membership in a rectangle of production extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each stored buffer, as pieces (last first), in case C, with the proof that on whole
    staging memrefs — the seven inputs' at their contents `x0 … x6`, both outputs' at anything, the scratch at the contents `xs0` the point before left —
    the body runs to the continuation holding the inputs' as they were and each stored buffer with its pieces written
    (the body loads output 7's buffer before storing it, and output 8's likewise: the loaded values are not used). The printed function is its
    skeleton, which the symbolic executor runs through the part call; each `scf.if` is decided by the case's hypotheses. -/
noncomputable def kernelRun4_C (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    Σ' (L7 : List (View.Piece (Elt F) S10000x64 .f32)) (L8 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0)) -∗ K ⟨⟩))
          ⊢ wp frame (wpE (defs₀ (F := F)) Variants.none c none) E (cc4__edge_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc4__edge_kernel_eq_skeleton]; unfold cc4__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact HS0

end Cert.Kernel.Hand

end
-- ==== Proof.K.E4.Body.lean ====
/- The edge kernel's body at the pipeline `cfg4`, last module: what the two output
   windows' staging buffers and the carried scratch hold after each of the 80 points (per case, then point by point),
   the pipeline's proof data at any entry contents `V` and any input shares `q`, the body obligation at every point,
   and the region invariant's two ends. -/
import proofs.«108204_j49847390437921_1_alg».proof.Proof.K.E4.RunC

-- membership in a rectangle of production extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the stored buffers -/

/-- Case A's pieces for output 7 tile its 10000×64 block (one whole store), so they cover it. -/
theorem cover4_A_7 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (y : S10000x64.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4 x5 x6).1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4 x5 x6).1 S10000x64.size (by sl_kernel_rfl) y

/-- What case A leaves in output 7's staging buffer: its pieces read back over junk. -/
def out4_A_7 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) : Vec F S10000x64 .f32 :=
  VO4_7.read (Elt F) (VO4_7.writes (Elt F) VO4_7.junk (kernelRun4_A c i arg1 harg1 arg2 harg2 arg3 harg3 arg4 harg4 arg5 harg5 arg6 harg6 arg7 harg7 arg8 harg8 arg9 harg9 arg10 harg10 hc0 hc1 x0 x1 x2 x3 x4 x5 x6).1)

/-- Case A stores nothing into output 8 (the window is idle at its points and not written back there): no pieces,
    a placeholder nothing consults, since at these points the window is neither written back nor read at the next point. -/
def out4_A_8 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) : Vec F S1x64 .f32 :=
  VO4_8.read (Elt F) (VO4_8.writes (Elt F) VO4_8.junk (kernelRun4_A c i arg1 harg1 arg2 harg2 arg3 harg3 arg4 harg4 arg5 harg5 arg6 harg6 arg7 harg7 arg8 harg8 arg9 harg9 arg10 harg10 hc0 hc1 x0 x1 x2 x3 x4 x5 x6).2.1)

/-- Case A's pieces for the scratch the kernel carries between points cover it. -/
theorem scover4_A_0 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (y : S1x64.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4 x5 x6).2.2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4 x5 x6).2.2.1 S1x64.size (by sl_kernel_rfl) y

/-- What case A leaves in the scratch: its pieces read back over junk. -/
def sout4_A_0 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) : Vec F S1x64 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 hc0 hc1 x0 x1 x2 x3 x4 x5 x6).2.2.1)

/-- Case B's pieces for output 7 tile its 10000×64 block (one whole store), so they cover it. -/
theorem cover4_B_7 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S10000x64.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 x5 x6 xs0).1 S10000x64.size (by sl_kernel_rfl) y

/-- What case B leaves in output 7's staging buffer: its pieces read back over junk. -/
def out4_B_7 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S10000x64 .f32 :=
  VO4_7.read (Elt F) (VO4_7.writes (Elt F) VO4_7.junk (kernelRun4_B c i arg1 harg1 arg2 harg2 arg3 harg3 arg4 harg4 arg5 harg5 arg6 harg6 arg7 harg7 arg8 harg8 arg9 harg9 arg10 harg10 hc0 hc1 x0 x1 x2 x3 x4 x5 x6 xs0).1)

/-- Case B stores nothing into output 8 (the window is idle at its points and not written back there): no pieces,
    a placeholder nothing consults, since at these points the window is neither written back nor read at the next point. -/
def out4_B_8 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VO4_8.read (Elt F) (VO4_8.writes (Elt F) VO4_8.junk (kernelRun4_B c i arg1 harg1 arg2 harg2 arg3 harg3 arg4 harg4 arg5 harg5 arg6 harg6 arg7 harg7 arg8 harg8 arg9 harg9 arg10 harg10 hc0 hc1 x0 x1 x2 x3 x4 x5 x6 xs0).2.1)

/-- Case B's pieces for the scratch the kernel carries between points cover it. -/
theorem scover4_B_0 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S1x64.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 x5 x6 xs0).2.2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 x5 x6 xs0).2.2.1 S1x64.size (by sl_kernel_rfl) y

/-- What case B leaves in the scratch: its pieces read back over junk. -/
def sout4_B_0 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 hc0 hc1 x0 x1 x2 x3 x4 x5 x6 xs0).2.2.1)

/-- Case C's pieces for output 7 tile its 10000×64 block (one whole store), so they cover it. -/
theorem cover4_C_7 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S10000x64.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 x5 x6 xs0).1 S10000x64.size (by sl_kernel_rfl) y

/-- What case C leaves in output 7's staging buffer: its pieces read back over junk. -/
def out4_C_7 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S10000x64 .f32 :=
  VO4_7.read (Elt F) (VO4_7.writes (Elt F) VO4_7.junk (kernelRun4_C c i arg1 harg1 arg2 harg2 arg3 harg3 arg4 harg4 arg5 harg5 arg6 harg6 arg7 harg7 arg8 harg8 arg9 harg9 arg10 harg10 hc0 hc1 x0 x1 x2 x3 x4 x5 x6 xs0).1)

/-- Case C's pieces for output 8 tile its 1×64 block (one whole store), so they cover it. -/
theorem cover4_C_8 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 x5 x6 xs0).2.1 S1x64.size (by sl_kernel_rfl) y

/-- What case C leaves in output 8's staging buffer: its pieces read back over junk. -/
def out4_C_8 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VO4_8.read (Elt F) (VO4_8.writes (Elt F) VO4_8.junk (kernelRun4_C c i arg1 harg1 arg2 harg2 arg3 harg3 arg4 harg4 arg5 harg5 arg6 harg6 arg7 harg7 arg8 harg8 arg9 harg9 arg10 harg10 hc0 hc1 x0 x1 x2 x3 x4 x5 x6 xs0).2.1)

/-- Case C's pieces for the scratch the kernel carries between points cover it. -/
theorem scover4_C_0 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 x5 x6 xs0).2.2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 x5 x6 xs0).2.2.1 S1x64.size (by sl_kernel_rfl) y

/-- What case C leaves in the scratch: its pieces read back over junk. -/
def sout4_C_0 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 arg10 harg10 hc0 hc1 x0 x1 x2 x3 x4 x5 x6 xs0).2.2.1)

section Region4

variable (q : Fin cfg4.W → PosShare TreeShare)
variable (V : (c : Dev nD) → (b : Ref sig .tc) → Buf (Elt F) ((c : Thread nD τ).loc b))

/-! ## What the outputs hold after each point -/

/-- THE ACCUMULATION. What output 7's and output 8's staging buffers and the carried scratch hold after the body at
    position `n` (a triple, in that order): the case the closed forms select at `n`, run at the point's memrefs and input
    blocks, the scratch read at what position `n - 1` left in it. An assignment of the conditions no point meets is no case. -/
def outsAt4 (c : Dev nD) : (n : ℕ) → n < cfg4.N → Vec F S10000x64 .f32 × Vec F S1x64 .f32 × Vec F S1x64 .f32
  | 0, hn => (out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩), out4_A_8 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩))
  | n + 1, hn =>
    if h0 : (n + 1) % 80 = 0 then
      if h1 : (n + 1) % 80 = 79 then
        False.elim (by omega)
      else
        (out4_A_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩), out4_A_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩))
    else
      if h1 : (n + 1) % 80 = 79 then
        (out4_C_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2, out4_C_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2)
      else
        (out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2, out4_B_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2)

/-- `outsAt4` at a point of case A: that case's contents. -/
theorem outsAt4_A (c : Dev nD) (t : Fin cfg4.N) (h0 : t.val % 80 = 0) (h1 : ¬t.val % 80 = 79) :
    outsAt4 V c t.val t.isLt = (out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t), out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t)) := by
  obtain ⟨n, hn⟩ := t
  cases n with
  | zero => exact rfl
  | succ n => exact (dif_pos h0).trans ((dif_neg h1).trans rfl)

/-- `outsAt4` at a point of case B: that case's contents, over what the point before left. -/
theorem outsAt4_B (c : Dev nD) (t : Fin cfg4.N) (h0 : ¬t.val % 80 = 0) (h1 : ¬t.val % 80 = 79) :
    outsAt4 V c t.val t.isLt = (out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2, out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: that case's contents, over what the point before left. -/
theorem outsAt4_C (c : Dev nD) (t : Fin cfg4.N) (h0 : ¬t.val % 80 = 0) (h1 : t.val % 80 = 79) :
    outsAt4 V c t.val t.isLt = (out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2, out4_C_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer of the region at
    anything, the generator register at some state); afterwards the same with the carried scratch at what the point
    before left in it (`outsAt4`'s third component). -/
def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the carried scratch at that point's contents. -/
theorem PhiS4_succ (c : Dev nD) (n : ℕ) (hn : n < cfg4.N) :
    PhiS4 V c (n + 1) hn = iprop(iprop(iprop(owns (c : Thread nD τ) scM4_0 fullShare (outsAt4 V c n hn).2.2) ∗ Pipeline.scopedRestBut (Ix := Unit) (Name := ℕ) (U := UR sig nD τ) (Lvl := ℕ) (Val := Elt F) spec4 c [cc4_scratch0]) ∗ (∃ r, prngReg c r)) := rfl

/-- Before a point that is not the first: the carried scratch at what the point before left. -/
theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).2.2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the outputs' at `outsAt4`'s first two components; the invariant `PhiS4`;
    the inputs' shares `q`; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => (outsAt4 V c t.val t.isLt).1
    | ⟨8, _⟩ => (outsAt4 V c t.val t.isLt).2.1
  Φ t := PhiS4 V c t.val (Nat.le_of_lt_succ t.isLt)
  q := q
  owed _ := 0

/-- The proof data's arrays are the region-entry contents (the definition projected, so that `V` is never unfolded). -/
theorem A_eq4 (c : Dev nD) (w : Fin cfg4.W) : (dat4 q V c).A w = V c (Pipeline.arrRef spec4 w) := by
  dsimp only [dat4]

/-- The invariant at a point's start (the proof data at `t.castSucc`), restated at `t.val`. -/
theorem PhiS4_castSucc (c : Dev nD) (t : Fin cfg4.N) :
    (dat4 q V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 q V c).after 0 t = iblk4 V c 0 t := by dsimp only [dat4]
theorem after4_1 (c : Dev nD) (t : Fin cfg4.N) : (dat4 q V c).after 1 t = iblk4 V c 1 t := by dsimp only [dat4]
theorem after4_2 (c : Dev nD) (t : Fin cfg4.N) : (dat4 q V c).after 2 t = iblk4 V c 2 t := by dsimp only [dat4]
theorem after4_3 (c : Dev nD) (t : Fin cfg4.N) : (dat4 q V c).after 3 t = iblk4 V c 3 t := by dsimp only [dat4]
theorem after4_4 (c : Dev nD) (t : Fin cfg4.N) : (dat4 q V c).after 4 t = iblk4 V c 4 t := by dsimp only [dat4]
theorem after4_5 (c : Dev nD) (t : Fin cfg4.N) : (dat4 q V c).after 5 t = iblk4 V c 5 t := by dsimp only [dat4]
theorem after4_6 (c : Dev nD) (t : Fin cfg4.N) : (dat4 q V c).after 6 t = iblk4 V c 6 t := by dsimp only [dat4]
theorem after4_7 (c : Dev nD) (t : Fin cfg4.N) : (dat4 q V c).after 7 t = (outsAt4 V c t.val t.isLt).1 := by dsimp only [dat4]
theorem after4_8 (c : Dev nD) (t : Fin cfg4.N) : (dat4 q V c).after 8 t = (outsAt4 V c t.val t.isLt).2.1 := by dsimp only [dat4]

/-- Each input's current staging buffer holds its block at every point, fetched there or not. -/
theorem before4_0 (c : Dev nD) (t : Fin cfg4.N) (d) : (dat4 q V c).before 0 t d = iblk4 V c 0 t :=
  before4_0_of V (dat4 q V c) (A_eq4 q V c 0) (after4_0 q V c) t d
theorem before4_1 (c : Dev nD) (t : Fin cfg4.N) (d) : (dat4 q V c).before 1 t d = iblk4 V c 1 t :=
  before4_1_of V (dat4 q V c) (A_eq4 q V c 1) (after4_1 q V c) t d
theorem before4_2 (c : Dev nD) (t : Fin cfg4.N) (d) : (dat4 q V c).before 2 t d = iblk4 V c 2 t :=
  before4_2_of V (dat4 q V c) (A_eq4 q V c 2) (after4_2 q V c) t d
theorem before4_3 (c : Dev nD) (t : Fin cfg4.N) (d) : (dat4 q V c).before 3 t d = iblk4 V c 3 t :=
  before4_3_of V (dat4 q V c) (A_eq4 q V c 3) (after4_3 q V c) t d
theorem before4_4 (c : Dev nD) (t : Fin cfg4.N) (d) : (dat4 q V c).before 4 t d = iblk4 V c 4 t :=
  before4_4_of V (dat4 q V c) (A_eq4 q V c 4) (after4_4 q V c) t d
theorem before4_5 (c : Dev nD) (t : Fin cfg4.N) (d) : (dat4 q V c).before 5 t d = iblk4 V c 5 t :=
  before4_5_of V (dat4 q V c) (A_eq4 q V c 5) (after4_5 q V c) t d
theorem before4_6 (c : Dev nD) (t : Fin cfg4.N) (d) : (dat4 q V c).before 6 t d = iblk4 V c 6 t :=
  before4_6_of V (dat4 q V c) (A_eq4 q V c 6) (after4_6 q V c) t d

/-! ## The body obligation, at a generic point -/

/-- What the body is called with at point `t` (the obligation's precondition, the windows one by one), -/
def bodyPre4 (c : Dev nD) (t : Fin cfg4.N) : sProp 𝕄 :=
  iprop((dat4 q V c).Φ t.castSucc ∗ (dat4 q V c).owesAt () t.castSucc
    ∗ (∃ d, owns (c : Thread nD τ) (ms4_0 t) fullShare ((dat4 q V c).before 0 t d))
    ∗ (∃ d, owns (c : Thread nD τ) (ms4_1 t) fullShare ((dat4 q V c).before 1 t d))
    ∗ (∃ d, owns (c : Thread nD τ) (ms4_2 t) fullShare ((dat4 q V c).before 2 t d))
    ∗ (∃ d, owns (c : Thread nD τ) (ms4_3 t) fullShare ((dat4 q V c).before 3 t d))
    ∗ (∃ d, owns (c : Thread nD τ) (ms4_4 t) fullShare ((dat4 q V c).before 4 t d))
    ∗ (∃ d, owns (c : Thread nD τ) (ms4_5 t) fullShare ((dat4 q V c).before 5 t d))
    ∗ (∃ d, owns (c : Thread nD τ) (ms4_6 t) fullShare ((dat4 q V c).before 6 t d))
    ∗ (∃ d, owns (c : Thread nD τ) (ms4_7 t) fullShare ((dat4 q V c).before 7 t d))
    ∗ (∃ d, owns (c : Thread nD τ) (ms4_8 t) fullShare ((dat4 q V c).before 8 t d)))

/-- and what it returns. -/
def bodyPost4 (c : Dev nD) (t : Fin cfg4.N) : sProp 𝕄 :=
  iprop((dat4 q V c).Φ t.succ ∗ (dat4 q V c).owesAt () t.succ
    ∗ (dat4 q V c).leavesExact 0 t
    ∗ (dat4 q V c).leavesExact 1 t
    ∗ (dat4 q V c).leavesExact 2 t
    ∗ (dat4 q V c).leavesExact 3 t
    ∗ (dat4 q V c).leavesExact 4 t
    ∗ (dat4 q V c).leavesExact 5 t
    ∗ (dat4 q V c).leavesExact 6 t
    ∗ (dat4 q V c).leavesExact 7 t
    ∗ (dat4 q V c).leavesExact 8 t)

set_option maxHeartbeats 4800000 in
/-- The body at any point: the inputs' memrefs hold their blocks; the closed forms say which case the point is in; so that
    case's run applies. The invariant hands the body the carried scratch at what the point before left (at anything at the
    first point) and takes it back at this point's contents; output 7's buffer comes back at the case's pieces read back,
    output 8's untouched where the case does not store it; the other scoped buffers, the generator register and what the
    core owes pass through unread. -/
theorem sound_body4 (c : Dev nD) (t : Fin cfg4.N) :
    bodyPre4 q V c t ⊢ wp frame (wpE (defs₀ (F := F)) Variants.none c none) Set.univ (bodyAt4 t) (fun _ => bodyPost4 q V c t) := by
  unfold bodyPre4 bodyPost4 bodyAt4
  simp only [before4_0, before4_1, before4_2, before4_3, before4_4, before4_5, before4_6]
  rw [show (dat4 q V c).owesAt () t.succ = (dat4 q V c).owesAt () t.castSucc from rfl]
  rw [show (dat4 q V c).Φ t.succ = PhiS4 V c (t.val + 1) t.isLt from rfl, PhiS4_succ]
  have hN : t.val < 80 := lt_of_lt_of_eq t.isLt (show cfg4.N = 80 from N_4)
  by_cases h0 : t.val % 80 = 0
  · by_cases h1 : t.val % 80 = 79
    · exfalso; omega
    ·
      rw [show (dat4 q V c).leavesExact 0 t = owns (c : Thread nD τ) (ms4_0 t) fullShare ((dat4 q V c).after 0 t) from by
        unfold Dat.leavesExact; rw [liveAt4_0 t], after4_0]
      rw [show (dat4 q V c).leavesExact 1 t = owns (c : Thread nD τ) (ms4_1 t) fullShare ((dat4 q V c).after 1 t) from by
        unfold Dat.leavesExact; rw [liveAt4_1 t], after4_1]
      rw [show (dat4 q V c).leavesExact 2 t = owns (c : Thread nD τ) (ms4_2 t) fullShare ((dat4 q V c).after 2 t) from by
        unfold Dat.leavesExact; rw [liveAt4_2 t], after4_2]
      rw [show (dat4 q V c).leavesExact 3 t = owns (c : Thread nD τ) (ms4_3 t) fullShare ((dat4 q V c).after 3 t) from by
        unfold Dat.leavesExact; rw [liveAt4_3 t], after4_3]
      rw [show (dat4 q V c).leavesExact 4 t = owns (c : Thread nD τ) (ms4_4 t) fullShare ((dat4 q V c).after 4 t) from by
        unfold Dat.leavesExact; rw [liveAt4_4 t], after4_4]
      rw [show (dat4 q V c).leavesExact 5 t = owns (c : Thread nD τ) (ms4_5 t) fullShare ((dat4 q V c).after 5 t) from by
        unfold Dat.leavesExact; rw [liveAt4_5 t], after4_5]
      rw [show (dat4 q V c).leavesExact 6 t = owns (c : Thread nD τ) (ms4_6 t) fullShare ((dat4 q V c).after 6 t) from by
        unfold Dat.leavesExact; rw [liveAt4_6 t], after4_6]
      rw [show (dat4 q V c).leavesExact 7 t = owns (c : Thread nD τ) (ms4_7 t) fullShare ((dat4 q V c).after 7 t) from by
        unfold Dat.leavesExact; rw [liveAt4_7 t], after4_7]
      rw [Dat.leavesExact_idle (dat4 q V c) 8 t (idleAt4_8_A t ((hcond4_0 t).mpr h0) (fun h => h1 ((hcond4_1 t).mp h))) (noFlush4_8_A t ((hcond4_0 t).mpr h0) (fun h => h1 ((hcond4_1 t).mp h)))]
      rw [outsAt4_A V c t h0 h1]
      unfold out4_A_7 sout4_A_0; (try dsimp only)
      by_cases hz : t.val = 0
      ·
        rw [PhiS4_castSucc q V c t, PhiS4_zero V c _ _ hz, PhiA4_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun4_A c (grid4.coords t) _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        iintro ⟨H0, H1, H2, H3, H4, H5, H6, ⟨%e7, H7⟩, H8, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover4_A_7 c _ _ _ _ _ _ _ _ _ _ _ _ _ _ _ _ _ _ _ _ _ _ _ _ _ _ _ _ _ _)
        iexists _; iexact H8
      · exfalso; omega
  · by_cases h1 : t.val % 80 = 79
    ·
      rw [show (dat4 q V c).leavesExact 0 t = owns (c : Thread nD τ) (ms4_0 t) fullShare ((dat4 q V c).after 0 t) from by
        unfold Dat.leavesExact; rw [liveAt4_0 t], after4_0]
      rw [show (dat4 q V c).leavesExact 1 t = owns (c : Thread nD τ) (ms4_1 t) fullShare ((dat4 q V c).after 1 t) from by
        unfold Dat.leavesExact; rw [liveAt4_1 t], after4_1]
      rw [show (dat4 q V c).leavesExact 2 t = owns (c : Thread nD τ) (ms4_2 t) fullShare ((dat4 q V c).after 2 t) from by
        unfold Dat.leavesExact; rw [liveAt4_2 t], after4_2]
      rw [show (dat4 q V c).leavesExact 3 t = owns (c : Thread nD τ) (ms4_3 t) fullShare ((dat4 q V c).after 3 t) from by
        unfold Dat.leavesExact; rw [liveAt4_3 t], after4_3]
      rw [show (dat4 q V c).leavesExact 4 t = owns (c : Thread nD τ) (ms4_4 t) fullShare ((dat4 q V c).after 4 t) from by
        unfold Dat.leavesExact; rw [liveAt4_4 t], after4_4]
      rw [show (dat4 q V c).leavesExact 5 t = owns (c : Thread nD τ) (ms4_5 t) fullShare ((dat4 q V c).after 5 t) from by
        unfold Dat.leavesExact; rw [liveAt4_5 t], after4_5]
      rw [show (dat4 q V c).leavesExact 6 t = owns (c : Thread nD τ) (ms4_6 t) fullShare ((dat4 q V c).after 6 t) from by
        unfold Dat.leavesExact; rw [liveAt4_6 t], after4_6]
      rw [show (dat4 q V c).leavesExact 7 t = owns (c : Thread nD τ) (ms4_7 t) fullShare ((dat4 q V c).after 7 t) from by
        unfold Dat.leavesExact; rw [liveAt4_7 t], after4_7]
      rw [show (dat4 q V c).leavesExact 8 t = owns (c : Thread nD τ) (ms4_8 t) fullShare ((dat4 q V c).after 8 t) from by
        unfold Dat.leavesExact; rw [liveAt4_8_C t (fun h => h0 ((hcond4_0 t).mp h)) ((hcond4_1 t).mpr h1)], after4_8]
      rw [outsAt4_C V c t h0 h1]
      unfold out4_C_7 out4_C_8 sout4_C_0; (try dsimp only)
      by_cases hz : t.val = 0
      · exfalso; omega
      ·
        rw [PhiS4_castSucc q V c t, PhiS4_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun4_C c (grid4.coords t) _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        iintro ⟨H0, H1, H2, H3, H4, H5, H6, ⟨%e7, H7⟩, ⟨%e8, H8⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover4_C_7 c _ _ _ _ _ _ _ _ _ _ _ _ _ _ _ _ _ _ _ _ _ _ _ _ _ _ _ _ _ _ _)
        unfold owns; iexists _; isplitr
        swap; · iexact H8
        ipureintro; exact View.read_writes_of_cover _ _ _ _ _ (cover4_C_8 c _ _ _ _ _ _ _ _ _ _ _ _ _ _ _ _ _ _ _ _ _ _ _ _ _ _ _ _ _ _ _)
    ·
      rw [show (dat4 q V c).leavesExact 0 t = owns (c : Thread nD τ) (ms4_0 t) fullShare ((dat4 q V c).after 0 t) from by
        unfold Dat.leavesExact; rw [liveAt4_0 t], after4_0]
      rw [show (dat4 q V c).leavesExact 1 t = owns (c : Thread nD τ) (ms4_1 t) fullShare ((dat4 q V c).after 1 t) from by
        unfold Dat.leavesExact; rw [liveAt4_1 t], after4_1]
      rw [show (dat4 q V c).leavesExact 2 t = owns (c : Thread nD τ) (ms4_2 t) fullShare ((dat4 q V c).after 2 t) from by
        unfold Dat.leavesExact; rw [liveAt4_2 t], after4_2]
      rw [show (dat4 q V c).leavesExact 3 t = owns (c : Thread nD τ) (ms4_3 t) fullShare ((dat4 q V c).after 3 t) from by
        unfold Dat.leavesExact; rw [liveAt4_3 t], after4_3]
      rw [show (dat4 q V c).leavesExact 4 t = owns (c : Thread nD τ) (ms4_4 t) fullShare ((dat4 q V c).after 4 t) from by
        unfold Dat.leavesExact; rw [liveAt4_4 t], after4_4]
      rw [show (dat4 q V c).leavesExact 5 t = owns (c : Thread nD τ) (ms4_5 t) fullShare ((dat4 q V c).after 5 t) from by
        unfold Dat.leavesExact; rw [liveAt4_5 t], after4_5]
      rw [show (dat4 q V c).leavesExact 6 t = owns (c : Thread nD τ) (ms4_6 t) fullShare ((dat4 q V c).after 6 t) from by
        unfold Dat.leavesExact; rw [liveAt4_6 t], after4_6]
      rw [show (dat4 q V c).leavesExact 7 t = owns (c : Thread nD τ) (ms4_7 t) fullShare ((dat4 q V c).after 7 t) from by
        unfold Dat.leavesExact; rw [liveAt4_7 t], after4_7]
      rw [Dat.leavesExact_idle (dat4 q V c) 8 t (idleAt4_8_B t (fun h => h0 ((hcond4_0 t).mp h)) (fun h => h1 ((hcond4_1 t).mp h))) (noFlush4_8_B t (fun h => h0 ((hcond4_0 t).mp h)) (fun h => h1 ((hcond4_1 t).mp h)))]
      rw [outsAt4_B V c t h0 h1]
      unfold out4_B_7 sout4_B_0; (try dsimp only)
      by_cases hz : t.val = 0
      · exfalso; omega
      ·
        rw [PhiS4_castSucc q V c t, PhiS4_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun4_B c (grid4.coords t) _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        iintro ⟨H0, H1, H2, H3, H4, H5, H6, ⟨%e7, H7⟩, H8, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover4_B_7 c _ _ _ _ _ _ _ _ _ _ _ _ _ _ _ _ _ _ _ _ _ _ _ _ _ _ _ _ _ _ _)
        iexists _; iexact H8

/-- The library's body obligation, at every point. -/
theorem body_obligation4 (c : Dev nD) : BodyObligation (dat4 (F := F) q V c) (defs₀ (F := F)) Variants.none () Set.univ := fun t => by
  rw [bigSep_W4, bigSep_W4]
  exact sound_body4 q V c t

/-- What the launch hands the region is the invariant before the first point. -/
theorem hin4 (c : Dev nD) : Pipeline.ΦA spec4 c ⊢ (dat4 q V c).Φ 0 := by
  rw [show (dat4 q V c).Φ 0 = PhiS4 V c 0 (Nat.zero_le _) from rfl, PhiS4_zero V c 0 _ rfl]
  try exact Idealize.SL.BI.Entails.refl _

/-- After any point but the first the invariant gives the class's back: the carried scratch's named contents are forgotten. -/
theorem Phi_out4 (c : Dev nD) (t : Fin (cfg4.N + 1)) (ht : t.val ≠ 0) : (dat4 q V c).Φ t ⊢ Pipeline.ΦA spec4 c := by
  rw [show (dat4 q V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

/-- The same after the last point. -/
theorem hout4 (c : Dev nD) : (dat4 q V c).Φ (Fin.last cfg4.N) ⊢ Pipeline.ΦA spec4 c :=
  Phi_out4 q V c _ (by rw [Fin.val_last]; have : cfg4.N = 80 := N_4; omega)

end Region4

end Cert.Kernel.Hand

end
-- ==== Proof.K.N5.Runs.lean ====
/- The node kernel at this region: what the three cases of its body share. Each window's block at a point, read off the
   contents the region is entered with (a parameter `V`); each input's staging buffer at its block at every point;
   the body's two branch conditions, decided over the ten grid points (the first point resets the accumulator, the
   last stores it to output 7); where the windows are idle; the staging and scratch memrefs as the pipeline passes
   them; and the region invariant with the kernel's own scratch split out of the scoped rest. -/
import proofs.«108204_j49847390437921_1_alg».proof.Proof.Gen.Kernel.Launch
import proofs.«108204_j49847390437921_1_alg».proof.Proof.Gen.Kernel.Skeleton
import proofs.«108204_j49847390437921_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of the blocks' extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block index
    has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): unfetched, the block index
    has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): unfetched, the block index
    has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): unfetched, the block index
    has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): unfetched, the block index
    has not moved; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof
    data whose array is `V`'s (`hA`) and whose body leaves the block in place (`hafter`): unfetched, the block index
    has not moved; the window is uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

end Regions

/-! ## The body's branch conditions -/

/-- The condition of the body's first `scf.if` (the accumulator's reset), from the grid coordinates: the part's
    scalar chain substituted. -/
abbrev cond5_0 (i : grid5.Coords) : Prop := (Scalar.cmpi .ne (Scalar.extui (Scalar.cmpi .eq (BitVec.ofNat 32 (i 0).val) 0#32)) 0#32) = 1#1
/-- It holds at the first point only — decided over the grid. -/
theorem hcond5_0 : ∀ t : Fin cfg5.N, cond5_0 (grid5.coords t) ↔ t.val % 10 = 0 :=
  (by decide +kernel : ∀ t : Fin grid5.N, cond5_0 (grid5.coords t) ↔ t.val % 10 = 0)

/-- The condition of the body's second `scf.if` (the store of the accumulator to output 7). -/
abbrev cond5_1 (i : grid5.Coords) : Prop := k5_cond2 i = 1#1
/-- It holds at the last point only — decided over the grid. -/
theorem hcond5_1 : ∀ t : Fin cfg5.N, cond5_1 (grid5.coords t) ↔ t.val % 10 = 9 :=
  (by decide +kernel : ∀ t : Fin grid5.N, cond5_1 (grid5.coords t) ↔ t.val % 10 = 9)

/-! ## Where the windows are idle -/

/-- Window 0 is never idle (an input). -/
theorem liveAt5_0 : ∀ t : Fin cfg5.N, cfg5.idle 0 (grid5.coords t) = false := by decide +kernel
/-- Window 1 is never idle (an input). -/
theorem liveAt5_1 : ∀ t : Fin cfg5.N, cfg5.idle 1 (grid5.coords t) = false := by decide +kernel
/-- Window 2 is never idle (an input). -/
theorem liveAt5_2 : ∀ t : Fin cfg5.N, cfg5.idle 2 (grid5.coords t) = false := by decide +kernel
/-- Window 3 is never idle (an input). -/
theorem liveAt5_3 : ∀ t : Fin cfg5.N, cfg5.idle 3 (grid5.coords t) = false := by decide +kernel
/-- Window 4 is never idle (an input). -/
theorem liveAt5_4 : ∀ t : Fin cfg5.N, cfg5.idle 4 (grid5.coords t) = false := by decide +kernel
/-- Window 5 is never idle (an input). -/
theorem liveAt5_5 : ∀ t : Fin cfg5.N, cfg5.idle 5 (grid5.coords t) = false := by decide +kernel
/-- Window 6 is never idle (stored at every point). -/
theorem liveAt5_6 : ∀ t : Fin cfg5.N, cfg5.idle 6 (grid5.coords t) = false := by decide +kernel

/-- At the first point output 7 is idle: the case stores nothing into it. -/
theorem idleAt5_7_A : ∀ t : Fin cfg5.N, cond5_0 (grid5.coords t) → ¬cond5_1 (grid5.coords t) → cfg5.idle 7 (grid5.coords t) = true := by decide +kernel
/-- At the first point the pipeline does not write output 7's block back. -/
theorem noFlush5_7_A : ∀ t : Fin cfg5.N, cond5_0 (grid5.coords t) → ¬cond5_1 (grid5.coords t) → (cfg5.win 7).flush t = false := by decide +kernel
/-- At a middle point output 7 is idle: the case stores nothing into it. -/
theorem idleAt5_7_B : ∀ t : Fin cfg5.N, ¬cond5_0 (grid5.coords t) → ¬cond5_1 (grid5.coords t) → cfg5.idle 7 (grid5.coords t) = true := by decide +kernel
/-- At a middle point the pipeline does not write output 7's block back. -/
theorem noFlush5_7_B : ∀ t : Fin cfg5.N, ¬cond5_0 (grid5.coords t) → ¬cond5_1 (grid5.coords t) → (cfg5.win 7).flush t = false := by decide +kernel
/-- At the last point output 7 is live: the case stores into it. -/
theorem liveAt5_7_C : ∀ t : Fin cfg5.N, ¬cond5_0 (grid5.coords t) → cond5_1 (grid5.coords t) → cfg5.idle 7 (grid5.coords t) = false := by decide +kernel

/-! ## The staging and scratch memrefs -/

/-- One staging buffer of each output window, through which its contents are stated (read back over its pieces: the
    choice of buffer does not matter). -/
abbrev VO5_6 : View sig .tc .vmem S10000x64 .f32 := (Memref.whole cc5_stg6_0 : Memref sig .tc .vmem S10000x64 .f32).view
abbrev VO5_7 : View sig .tc .vmem S1x64 .f32 := (Memref.whole cc5_stg7_0 : Memref sig .tc .vmem S1x64 .f32).view
/-- Each window's current staging memref at point `t`, spelled as the pipeline passes it, and its wholeness. -/
abbrev ms5_0 (t : Fin cfg5.N) : Memref sig .tc .vmem S10000x64 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S10000x64 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S10000x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x64 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S4x64x64 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x64 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S10000x64 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S1x64 .f32 := win5_7.stage (cfg5.slots t 7)
abbrev hs5_7 (t : Fin cfg5.N) : (ms5_7 t).IsWhole := hstage5_7 ((cfg5.slots t 7).cast nbuf5_7)
/-- The scratch operand: a whole scoped buffer of the kernel's own, passed beside the windows. -/
abbrev scM5_0 : Memref sig .tc .vmem S1x64 .f32 := Memref.whole cc5_scratch0
/-- The scratch the kernel carries between points, as a view: what it holds is stated through it. -/
abbrev VS5_0 : View sig .tc .vmem S1x64 .f32 := scM5_0.view

/-- The class's region invariant with the kernel's scratch split out as a memref owned at some contents; the other
    scoped buffers stay unopened beside it. -/
theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

end Cert.Kernel.Hand

end
-- ==== Proof.K.N5.RunA.lean ====
/- The node kernel at this region: the run of its whole body at the first point (one module per case, each importing the one
   before it, so that each case elaborates on its own and an auxiliary equation of the part's skeleton is declared once). -/
import proofs.«108204_j49847390437921_1_alg».proof.Proof.K.N5.Runs

-- membership in a rectangle of the blocks' extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), at the first point: the accumulator's reset is taken, the store to output 7 is not;
    WITH the proof that on whole staging memrefs — the inputs' at their contents `x·`, output 6's at anything (the body
    loads it before storing, and uses nothing of what it loads), output 7's, into which the case stores nothing, at contents
    `xi7` handed back untouched, the scratch at anything (the reset overwrites it before it is read) — the
    body runs to the continuation holding the inputs' as they were and each written buffer with its pieces written. The
    printed function is its skeleton, run through its part; each `scf.if` is decided by the case's hypotheses; the
    pieces are the witness the run finds. -/
noncomputable def kernelRun5_A (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) :
    Σ' (L6 : List (View.Piece (Elt F) S10000x64 .f32)) (L7 : List (View.Piece (Elt F) S1x64 .f32)), { LS0 : List (View.Piece (Elt F) S1x64 .f32) //
      ∀ (xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc5__node_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc5__node_kernel_eq_skeleton]; unfold cc5__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

end Cert.Kernel.Hand

end
-- ==== Proof.K.N5.RunB.lean ====
/- The node kernel at this region: the run of its whole body at a middle point (one module per case, each importing the one
   before it, so that each case elaborates on its own and an auxiliary equation of the part's skeleton is declared once). -/
import proofs.«108204_j49847390437921_1_alg».proof.Proof.K.N5.RunA

-- membership in a rectangle of the blocks' extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), at a middle point: neither the accumulator's reset nor the store to output 7 is taken;
    WITH the proof that on whole staging memrefs — the inputs' at their contents `x·`, output 6's at anything (the body
    loads it before storing, and uses nothing of what it loads), output 7's, into which the case stores nothing, at contents
    `xi7` handed back untouched, the scratch at what the point before left (`xs0`) — the
    body runs to the continuation holding the inputs' as they were and each written buffer with its pieces written. The
    printed function is its skeleton, run through its part; each `scf.if` is decided by the case's hypotheses; the
    pieces are the witness the run finds. -/
noncomputable def kernelRun5_B (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) :
    Σ' (L6 : List (View.Piece (Elt F) S10000x64 .f32)) (L7 : List (View.Piece (Elt F) S1x64 .f32)), { LS0 : List (View.Piece (Elt F) S1x64 .f32) //
      ∀ (xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc5__node_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc5__node_kernel_eq_skeleton]; unfold cc5__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

end Cert.Kernel.Hand

end
-- ==== Proof.K.N5.RunC.lean ====
/- The node kernel at this region: the run of its whole body at the last point (one module per case, each importing the one
   before it, so that each case elaborates on its own and an auxiliary equation of the part's skeleton is declared once). -/
import proofs.«108204_j49847390437921_1_alg».proof.Proof.K.N5.RunB

-- membership in a rectangle of the blocks' extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), at the last point: the accumulator's reset is not taken, the store to output 7 is;
    WITH the proof that on whole staging memrefs — the inputs' at their contents `x·`, output 6's at anything (the body
    loads it before storing, and uses nothing of what it loads), output 7's at anything (likewise), the scratch at what the point before left (`xs0`) — the
    body runs to the continuation holding the inputs' as they were and each written buffer with its pieces written. The
    printed function is its skeleton, run through its part; each `scf.if` is decided by the case's hypotheses; the
    pieces are the witness the run finds. -/
noncomputable def kernelRun5_C (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) :
    Σ' (L6 : List (View.Piece (Elt F) S10000x64 .f32)) (L7 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc5__node_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc5__node_kernel_eq_skeleton]; unfold cc5__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.Kernel.Hand

end
-- ==== Proof.K.N5.Body.lean ====
/- The node kernel at this region: its proof data and body obligation, at region-entry contents `V` and array shares `q`.
   From the three runs: what each case leaves in output 6's and output 7's staging buffers and in the scratch (its
   pieces read back; they cover the buffer); the accumulation `outsAt5` over the ten points (the scratch carried from
   point to point); the region invariant with the scratch at what the point before left; the proof data `dat5`; the
   body at a generic point, by cases on the point; and the invariant's two ends. -/
import proofs.«108204_j49847390437921_1_alg».proof.Proof.K.N5.RunC

-- membership in a rectangle of the blocks' extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the share held of each window's array, and the TensorCore's buffer contents when the region is entered
variable (q : Fin cfg5.W → PosShare TreeShare) (V : (c : Dev nD) → (b : Ref sig .tc) → Buf (Elt F) ((c : Thread nD τ).loc b))

/-! ## What each case leaves -/

/-- The pieces the first point stores into output 6 tile its block (one store of the whole block), so they cover it. -/
theorem cover5_A_6 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) (y : S10000x64.Idx) :
    ∃ pc ∈ (kernelRun5_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun5_A c i arg1 harg1 arg2 harg2 arg3 harg3 arg4 harg4 arg5 harg5 arg6 harg6 arg7 harg7 arg8 harg8 arg9 harg9 hc0 hc1 x0 x1 x2 x3 x4 x5).1 S10000x64.size (by sl_kernel_rfl) y

/-- What the first point leaves in output 6's staging buffer: its pieces read back over junk. -/
def out5_A_6 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) : Vec F S10000x64 .f32 :=
  VO5_6.read (Elt F) (VO5_6.writes (Elt F) VO5_6.junk (kernelRun5_A c i arg1 harg1 arg2 harg2 arg3 harg3 arg4 harg4 arg5 harg5 arg6 harg6 arg7 harg7 arg8 harg8 arg9 harg9 hc0 hc1 x0 x1 x2 x3 x4 x5).1)

/-- The first point stores nothing into output 7 (the window is idle there and not written back): no pieces — a
    placeholder that nothing consults, the window being neither written back there nor read at the next point. -/
def out5_A_7 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) : Vec F S1x64 .f32 :=
  VO5_7.read (Elt F) (VO5_7.writes (Elt F) VO5_7.junk (kernelRun5_A c i arg1 harg1 arg2 harg2 arg3 harg3 arg4 harg4 arg5 harg5 arg6 harg6 arg7 harg7 arg8 harg8 arg9 harg9 hc0 hc1 x0 x1 x2 x3 x4 x5).2.1)

/-- The pieces the first point stores into the scratch cover it. -/
theorem scover5_A_0 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) (y : S1x64.Idx) :
    ∃ pc ∈ (kernelRun5_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun5_A c i arg1 harg1 arg2 harg2 arg3 harg3 arg4 harg4 arg5 harg5 arg6 harg6 arg7 harg7 arg8 harg8 arg9 harg9 hc0 hc1 x0 x1 x2 x3 x4 x5).2.2.1 S1x64.size (by sl_kernel_rfl) y

/-- What the first point leaves in the scratch: its pieces read back over junk. -/
def sout5_A_0 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) : Vec F S1x64 .f32 :=
  VS5_0.read (Elt F) (VS5_0.writes (Elt F) VS5_0.junk (kernelRun5_A c i arg1 harg1 arg2 harg2 arg3 harg3 arg4 harg4 arg5 harg5 arg6 harg6 arg7 harg7 arg8 harg8 arg9 harg9 hc0 hc1 x0 x1 x2 x3 x4 x5).2.2.1)

/-- The pieces a middle point stores into output 6 tile its block (one store of the whole block), so they cover it. -/
theorem cover5_B_6 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S10000x64.Idx) :
    ∃ pc ∈ (kernelRun5_B c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun5_B c i arg1 harg1 arg2 harg2 arg3 harg3 arg4 harg4 arg5 harg5 arg6 harg6 arg7 harg7 arg8 harg8 arg9 harg9 hc0 hc1 x0 x1 x2 x3 x4 x5 xs0).1 S10000x64.size (by sl_kernel_rfl) y

/-- What a middle point leaves in output 6's staging buffer: its pieces read back over junk. -/
def out5_B_6 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S10000x64 .f32 :=
  VO5_6.read (Elt F) (VO5_6.writes (Elt F) VO5_6.junk (kernelRun5_B c i arg1 harg1 arg2 harg2 arg3 harg3 arg4 harg4 arg5 harg5 arg6 harg6 arg7 harg7 arg8 harg8 arg9 harg9 hc0 hc1 x0 x1 x2 x3 x4 x5 xs0).1)

/-- A middle point stores nothing into output 7 (the window is idle there and not written back): no pieces — a
    placeholder that nothing consults, the window being neither written back there nor read at the next point. -/
def out5_B_7 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VO5_7.read (Elt F) (VO5_7.writes (Elt F) VO5_7.junk (kernelRun5_B c i arg1 harg1 arg2 harg2 arg3 harg3 arg4 harg4 arg5 harg5 arg6 harg6 arg7 harg7 arg8 harg8 arg9 harg9 hc0 hc1 x0 x1 x2 x3 x4 x5 xs0).2.1)

/-- The pieces a middle point stores into the scratch cover it. -/
theorem scover5_B_0 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S1x64.Idx) :
    ∃ pc ∈ (kernelRun5_B c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun5_B c i arg1 harg1 arg2 harg2 arg3 harg3 arg4 harg4 arg5 harg5 arg6 harg6 arg7 harg7 arg8 harg8 arg9 harg9 hc0 hc1 x0 x1 x2 x3 x4 x5 xs0).2.2.1 S1x64.size (by sl_kernel_rfl) y

/-- What a middle point leaves in the scratch: its pieces read back over junk. -/
def sout5_B_0 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VS5_0.read (Elt F) (VS5_0.writes (Elt F) VS5_0.junk (kernelRun5_B c i arg1 harg1 arg2 harg2 arg3 harg3 arg4 harg4 arg5 harg5 arg6 harg6 arg7 harg7 arg8 harg8 arg9 harg9 hc0 hc1 x0 x1 x2 x3 x4 x5 xs0).2.2.1)

/-- The pieces the last point stores into output 6 tile its block (one store of the whole block), so they cover it. -/
theorem cover5_C_6 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S10000x64.Idx) :
    ∃ pc ∈ (kernelRun5_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun5_C c i arg1 harg1 arg2 harg2 arg3 harg3 arg4 harg4 arg5 harg5 arg6 harg6 arg7 harg7 arg8 harg8 arg9 harg9 hc0 hc1 x0 x1 x2 x3 x4 x5 xs0).1 S10000x64.size (by sl_kernel_rfl) y

/-- What the last point leaves in output 6's staging buffer: its pieces read back over junk. -/
def out5_C_6 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S10000x64 .f32 :=
  VO5_6.read (Elt F) (VO5_6.writes (Elt F) VO5_6.junk (kernelRun5_C c i arg1 harg1 arg2 harg2 arg3 harg3 arg4 harg4 arg5 harg5 arg6 harg6 arg7 harg7 arg8 harg8 arg9 harg9 hc0 hc1 x0 x1 x2 x3 x4 x5 xs0).1)

/-- The pieces the last point stores into output 7 tile its block (one store of the whole block), so they cover it. -/
theorem cover5_C_7 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S1x64.Idx) :
    ∃ pc ∈ (kernelRun5_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun5_C c i arg1 harg1 arg2 harg2 arg3 harg3 arg4 harg4 arg5 harg5 arg6 harg6 arg7 harg7 arg8 harg8 arg9 harg9 hc0 hc1 x0 x1 x2 x3 x4 x5 xs0).2.1 S1x64.size (by sl_kernel_rfl) y

/-- What the last point leaves in output 7's staging buffer: its pieces read back over junk. -/
def out5_C_7 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VO5_7.read (Elt F) (VO5_7.writes (Elt F) VO5_7.junk (kernelRun5_C c i arg1 harg1 arg2 harg2 arg3 harg3 arg4 harg4 arg5 harg5 arg6 harg6 arg7 harg7 arg8 harg8 arg9 harg9 hc0 hc1 x0 x1 x2 x3 x4 x5 xs0).2.1)

/-- The pieces the last point stores into the scratch cover it. -/
theorem scover5_C_0 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S1x64.Idx) :
    ∃ pc ∈ (kernelRun5_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun5_C c i arg1 harg1 arg2 harg2 arg3 harg3 arg4 harg4 arg5 harg5 arg6 harg6 arg7 harg7 arg8 harg8 arg9 harg9 hc0 hc1 x0 x1 x2 x3 x4 x5 xs0).2.2.1 S1x64.size (by sl_kernel_rfl) y

/-- What the last point leaves in the scratch: its pieces read back over junk. -/
def sout5_C_0 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VS5_0.read (Elt F) (VS5_0.writes (Elt F) VS5_0.junk (kernelRun5_C c i arg1 harg1 arg2 harg2 arg3 harg3 arg4 harg4 arg5 harg5 arg6 harg6 arg7 harg7 arg8 harg8 arg9 harg9 hc0 hc1 x0 x1 x2 x3 x4 x5 xs0).2.2.1)

/-! ## What the outputs and the scratch hold after each point -/

/-- THE ACCUMULATION. What output 6's and output 7's staging buffers and the scratch hold after the body at position
    `n`: the case the closed forms select at `n`, run at the point's memrefs and input blocks, the scratch at what
    this leaves at `n - 1`. An assignment of the conditions no point meets is no case. -/
def outsAt5 (c : Dev nD) : (n : ℕ) → n < cfg5.N → Vec F S10000x64 .f32 × Vec F S1x64 .f32 × Vec F S1x64 .f32
  | 0, hn => (out5_A_6 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩), out5_A_7 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩))
  | n + 1, hn =>
    if h0 : (n + 1) % 10 = 0 then
      if h1 : (n + 1) % 10 = 9 then
        False.elim (by omega)
      else
        (out5_A_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩), out5_A_7 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩))
    else
      if h1 : (n + 1) % 10 = 9 then
        (out5_C_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2.2, out5_C_7 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2.2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2.2)
      else
        (out5_B_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2.2, out5_B_7 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2.2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2.2)

/-- `outsAt5` at the first point: that case's contents. -/
theorem outsAt5_A (c : Dev nD) (t : Fin cfg5.N) (h0 : t.val % 10 = 0) (h1 : ¬t.val % 10 = 9) :
    outsAt5 V c t.val t.isLt = (out5_A_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t), out5_A_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t)) := by
  obtain ⟨n, hn⟩ := t
  cases n with
  | zero => exact rfl
  | succ n => exact (dif_pos h0).trans ((dif_neg h1).trans rfl)

/-- `outsAt5` at a middle point: that case's contents, over what the point before left. -/
theorem outsAt5_B (c : Dev nD) (t : Fin cfg5.N) (h0 : ¬t.val % 10 = 0) (h1 : ¬t.val % 10 = 9) :
    outsAt5 V c t.val t.isLt = (out5_B_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2.2, out5_B_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2.2, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt5` at the last point: that case's contents, over what the point before left. -/
theorem outsAt5_C (c : Dev nD) (t : Fin cfg5.N) (h0 : ¬t.val % 10 = 0) (h1 : t.val % 10 = 9) :
    outsAt5 V c t.val t.isLt = (out5_C_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2.2, out5_C_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2.2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the class's (the scratch at anything);
    afterwards the scratch at what the point before left in it (`outsAt5`'s third component), the other scoped buffers
    unopened, and the generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2.2)) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

/-- After point `n` (before point `n + 1`): the scratch at that point's contents. -/
theorem PhiS5_succ (c : Dev nD) (n : ℕ) (hn : n < cfg5.N) :
    PhiS5 V c (n + 1) hn = iprop(iprop(iprop(owns (c : Thread nD τ) scM5_0 fullShare ((outsAt5 V c n hn).2.2)) ∗ Pipeline.scopedRestBut (Ix := Unit) (Name := ℕ) (U := UR sig nD τ) (Lvl := ℕ) (Val := Elt F) spec5 c [cc5_scratch0]) ∗ (∃ r, prngReg c r)) := rfl

/-- Before a point that is not the first: the scratch at what the point before left. -/
theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2.2)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the outputs' at `outsAt5`'s components; the invariant `PhiS5`;
    nothing owed; the arrays' shares `q`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => (outsAt5 V c t.val t.isLt).1
    | ⟨7, _⟩ => (outsAt5 V c t.val t.isLt).2.1
  Φ t := PhiS5 V c t.val (Nat.le_of_lt_succ t.isLt)
  q := q
  owed _ := 0

/-- The proof data's arrays are the region-entry contents (the definition projected, `V` never unfolded). -/
theorem A_eq5 (c : Dev nD) (w : Fin cfg5.W) : (dat5 q V c).A w = V c (Pipeline.arrRef spec5 w) := by
  dsimp only [dat5]

/-- The invariant at a point's start, restated at `t.val`. -/
theorem PhiS5_castSucc (c : Dev nD) (t : Fin cfg5.N) :
    (dat5 q V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 q V c).after 0 t = iblk5 V c 0 t := by dsimp only [dat5]
theorem after5_1 (c : Dev nD) (t : Fin cfg5.N) : (dat5 q V c).after 1 t = iblk5 V c 1 t := by dsimp only [dat5]
theorem after5_2 (c : Dev nD) (t : Fin cfg5.N) : (dat5 q V c).after 2 t = iblk5 V c 2 t := by dsimp only [dat5]
theorem after5_3 (c : Dev nD) (t : Fin cfg5.N) : (dat5 q V c).after 3 t = iblk5 V c 3 t := by dsimp only [dat5]
theorem after5_4 (c : Dev nD) (t : Fin cfg5.N) : (dat5 q V c).after 4 t = iblk5 V c 4 t := by dsimp only [dat5]
theorem after5_5 (c : Dev nD) (t : Fin cfg5.N) : (dat5 q V c).after 5 t = iblk5 V c 5 t := by dsimp only [dat5]
theorem after5_6 (c : Dev nD) (t : Fin cfg5.N) : (dat5 q V c).after 6 t = (outsAt5 V c t.val t.isLt).1 := by dsimp only [dat5]
theorem after5_7 (c : Dev nD) (t : Fin cfg5.N) : (dat5 q V c).after 7 t = (outsAt5 V c t.val t.isLt).2.1 := by dsimp only [dat5]

/-- Each input's current staging buffer holds its block at every point, fetched there or not. -/
theorem before5_0 (c : Dev nD) (t : Fin cfg5.N) (d) : (dat5 q V c).before 0 t d = iblk5 V c 0 t :=
  before5_0_of V (dat5 q V c) (A_eq5 q V c 0) (after5_0 q V c) t d
theorem before5_1 (c : Dev nD) (t : Fin cfg5.N) (d) : (dat5 q V c).before 1 t d = iblk5 V c 1 t :=
  before5_1_of V (dat5 q V c) (A_eq5 q V c 1) (after5_1 q V c) t d
theorem before5_2 (c : Dev nD) (t : Fin cfg5.N) (d) : (dat5 q V c).before 2 t d = iblk5 V c 2 t :=
  before5_2_of V (dat5 q V c) (A_eq5 q V c 2) (after5_2 q V c) t d
theorem before5_3 (c : Dev nD) (t : Fin cfg5.N) (d) : (dat5 q V c).before 3 t d = iblk5 V c 3 t :=
  before5_3_of V (dat5 q V c) (A_eq5 q V c 3) (after5_3 q V c) t d
theorem before5_4 (c : Dev nD) (t : Fin cfg5.N) (d) : (dat5 q V c).before 4 t d = iblk5 V c 4 t :=
  before5_4_of V (dat5 q V c) (A_eq5 q V c 4) (after5_4 q V c) t d
theorem before5_5 (c : Dev nD) (t : Fin cfg5.N) (d) : (dat5 q V c).before 5 t d = iblk5 V c 5 t :=
  before5_5_of V (dat5 q V c) (A_eq5 q V c 5) (after5_5 q V c) t d

/-! ## The body obligation, at a generic point -/

/-- What the body is called with at point `t` (the body obligation's precondition, the windows one by one), -/
def bodyPre5 (c : Dev nD) (t : Fin cfg5.N) : sProp 𝕄 :=
  iprop((dat5 q V c).Φ t.castSucc ∗ (dat5 q V c).owesAt () t.castSucc
    ∗ (∃ d, owns (c : Thread nD τ) (ms5_0 t) fullShare ((dat5 q V c).before 0 t d))
    ∗ (∃ d, owns (c : Thread nD τ) (ms5_1 t) fullShare ((dat5 q V c).before 1 t d))
    ∗ (∃ d, owns (c : Thread nD τ) (ms5_2 t) fullShare ((dat5 q V c).before 2 t d))
    ∗ (∃ d, owns (c : Thread nD τ) (ms5_3 t) fullShare ((dat5 q V c).before 3 t d))
    ∗ (∃ d, owns (c : Thread nD τ) (ms5_4 t) fullShare ((dat5 q V c).before 4 t d))
    ∗ (∃ d, owns (c : Thread nD τ) (ms5_5 t) fullShare ((dat5 q V c).before 5 t d))
    ∗ (∃ d, owns (c : Thread nD τ) (ms5_6 t) fullShare ((dat5 q V c).before 6 t d))
    ∗ (∃ d, owns (c : Thread nD τ) (ms5_7 t) fullShare ((dat5 q V c).before 7 t d)))

/-- and what it returns. -/
def bodyPost5 (c : Dev nD) (t : Fin cfg5.N) : sProp 𝕄 :=
  iprop((dat5 q V c).Φ t.succ ∗ (dat5 q V c).owesAt () t.succ
    ∗ (dat5 q V c).leavesExact 0 t
    ∗ (dat5 q V c).leavesExact 1 t
    ∗ (dat5 q V c).leavesExact 2 t
    ∗ (dat5 q V c).leavesExact 3 t
    ∗ (dat5 q V c).leavesExact 4 t
    ∗ (dat5 q V c).leavesExact 5 t
    ∗ (dat5 q V c).leavesExact 6 t
    ∗ (dat5 q V c).leavesExact 7 t)

set_option maxHeartbeats 4800000 in
/-- The body at any point: the inputs' memrefs hold their blocks; the closed forms say which case the point is in; so
    that case's run applies. The invariant hands the body the scratch at what the point before left (at anything at
    the first point) and takes it back at this point's contents, its pieces covering it; the other scoped buffers and
    the generator register pass through; output 6's buffer is left at its pieces read back; output 7's is handed back
    as found except at the last point, where it is left at its pieces read back; the core owes nothing throughout. -/
theorem sound_body5 (c : Dev nD) (t : Fin cfg5.N) :
    bodyPre5 q V c t ⊢ wp frame (wpE (defs₀ (F := F)) Variants.none c none) Set.univ (bodyAt5 t) (fun _ => bodyPost5 q V c t) := by
  unfold bodyPre5 bodyPost5 bodyAt5
  simp only [before5_0, before5_1, before5_2, before5_3, before5_4, before5_5]
  rw [show (dat5 q V c).owesAt () t.succ = (dat5 q V c).owesAt () t.castSucc from rfl]
  rw [show (dat5 q V c).Φ t.succ = PhiS5 V c (t.val + 1) t.isLt from rfl, PhiS5_succ]
  have hN : t.val < 10 := lt_of_lt_of_eq t.isLt (show cfg5.N = 10 from N_5)
  by_cases h0 : t.val % 10 = 0
  · by_cases h1 : t.val % 10 = 9
    · exfalso; omega
    · rw [show (dat5 q V c).leavesExact 0 t = owns (c : Thread nD τ) (ms5_0 t) fullShare ((dat5 q V c).after 0 t) from by
        unfold Dat.leavesExact; rw [liveAt5_0 t], after5_0]
      rw [show (dat5 q V c).leavesExact 1 t = owns (c : Thread nD τ) (ms5_1 t) fullShare ((dat5 q V c).after 1 t) from by
        unfold Dat.leavesExact; rw [liveAt5_1 t], after5_1]
      rw [show (dat5 q V c).leavesExact 2 t = owns (c : Thread nD τ) (ms5_2 t) fullShare ((dat5 q V c).after 2 t) from by
        unfold Dat.leavesExact; rw [liveAt5_2 t], after5_2]
      rw [show (dat5 q V c).leavesExact 3 t = owns (c : Thread nD τ) (ms5_3 t) fullShare ((dat5 q V c).after 3 t) from by
        unfold Dat.leavesExact; rw [liveAt5_3 t], after5_3]
      rw [show (dat5 q V c).leavesExact 4 t = owns (c : Thread nD τ) (ms5_4 t) fullShare ((dat5 q V c).after 4 t) from by
        unfold Dat.leavesExact; rw [liveAt5_4 t], after5_4]
      rw [show (dat5 q V c).leavesExact 5 t = owns (c : Thread nD τ) (ms5_5 t) fullShare ((dat5 q V c).after 5 t) from by
        unfold Dat.leavesExact; rw [liveAt5_5 t], after5_5]
      rw [show (dat5 q V c).leavesExact 6 t = owns (c : Thread nD τ) (ms5_6 t) fullShare ((dat5 q V c).after 6 t) from by
        unfold Dat.leavesExact; rw [liveAt5_6 t], after5_6]
      rw [Dat.leavesExact_idle (dat5 q V c) 7 t (idleAt5_7_A t ((hcond5_0 t).mpr h0) (fun h => h1 ((hcond5_1 t).mp h))) (noFlush5_7_A t ((hcond5_0 t).mpr h0) (fun h => h1 ((hcond5_1 t).mp h)))]
      rw [outsAt5_A V c t h0 h1]
      unfold out5_A_6 sout5_A_0; (try dsimp only)
      by_cases hz : t.val = 0
      · rw [PhiS5_castSucc q V c t, PhiS5_zero V c _ _ hz, PhiA5_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun5_A c (grid5.coords t) _ _ _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t) (iblk5 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover5_A_0 c _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover5_A_6 c _ _ _ _ _ _ _ _ _ _ _ _ _ _ _ _ _ _ _ _ _ _ _ _ _ _ _)
        iexists _; iexact H7
      · exfalso; omega
  · by_cases h1 : t.val % 10 = 9
    · rw [show (dat5 q V c).leavesExact 0 t = owns (c : Thread nD τ) (ms5_0 t) fullShare ((dat5 q V c).after 0 t) from by
        unfold Dat.leavesExact; rw [liveAt5_0 t], after5_0]
      rw [show (dat5 q V c).leavesExact 1 t = owns (c : Thread nD τ) (ms5_1 t) fullShare ((dat5 q V c).after 1 t) from by
        unfold Dat.leavesExact; rw [liveAt5_1 t], after5_1]
      rw [show (dat5 q V c).leavesExact 2 t = owns (c : Thread nD τ) (ms5_2 t) fullShare ((dat5 q V c).after 2 t) from by
        unfold Dat.leavesExact; rw [liveAt5_2 t], after5_2]
      rw [show (dat5 q V c).leavesExact 3 t = owns (c : Thread nD τ) (ms5_3 t) fullShare ((dat5 q V c).after 3 t) from by
        unfold Dat.leavesExact; rw [liveAt5_3 t], after5_3]
      rw [show (dat5 q V c).leavesExact 4 t = owns (c : Thread nD τ) (ms5_4 t) fullShare ((dat5 q V c).after 4 t) from by
        unfold Dat.leavesExact; rw [liveAt5_4 t], after5_4]
      rw [show (dat5 q V c).leavesExact 5 t = owns (c : Thread nD τ) (ms5_5 t) fullShare ((dat5 q V c).after 5 t) from by
        unfold Dat.leavesExact; rw [liveAt5_5 t], after5_5]
      rw [show (dat5 q V c).leavesExact 6 t = owns (c : Thread nD τ) (ms5_6 t) fullShare ((dat5 q V c).after 6 t) from by
        unfold Dat.leavesExact; rw [liveAt5_6 t], after5_6]
      rw [show (dat5 q V c).leavesExact 7 t = owns (c : Thread nD τ) (ms5_7 t) fullShare ((dat5 q V c).after 7 t) from by
        unfold Dat.leavesExact; rw [liveAt5_7_C t (fun h => h0 ((hcond5_0 t).mp h)) ((hcond5_1 t).mpr h1)], after5_7]
      rw [outsAt5_C V c t h0 h1]
      unfold out5_C_6 out5_C_7 sout5_C_0; (try dsimp only)
      by_cases hz : t.val = 0
      · exfalso; omega
      · rw [PhiS5_castSucc q V c t, PhiS5_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun5_C c (grid5.coords t) _ _ _ _ _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) (iblk5 V c 5 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover5_C_0 c _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover5_C_6 c _ _ _ _ _ _ _ _ _ _ _ _ _ _ _ _ _ _ _ _ _ _ _ _ _ _ _ _)
        unfold owns; iexists _; isplitr
        swap; · iexact H7
        ipureintro; exact View.read_writes_of_cover _ _ _ _ _ (cover5_C_7 c _ _ _ _ _ _ _ _ _ _ _ _ _ _ _ _ _ _ _ _ _ _ _ _ _ _ _ _)
    · rw [show (dat5 q V c).leavesExact 0 t = owns (c : Thread nD τ) (ms5_0 t) fullShare ((dat5 q V c).after 0 t) from by
        unfold Dat.leavesExact; rw [liveAt5_0 t], after5_0]
      rw [show (dat5 q V c).leavesExact 1 t = owns (c : Thread nD τ) (ms5_1 t) fullShare ((dat5 q V c).after 1 t) from by
        unfold Dat.leavesExact; rw [liveAt5_1 t], after5_1]
      rw [show (dat5 q V c).leavesExact 2 t = owns (c : Thread nD τ) (ms5_2 t) fullShare ((dat5 q V c).after 2 t) from by
        unfold Dat.leavesExact; rw [liveAt5_2 t], after5_2]
      rw [show (dat5 q V c).leavesExact 3 t = owns (c : Thread nD τ) (ms5_3 t) fullShare ((dat5 q V c).after 3 t) from by
        unfold Dat.leavesExact; rw [liveAt5_3 t], after5_3]
      rw [show (dat5 q V c).leavesExact 4 t = owns (c : Thread nD τ) (ms5_4 t) fullShare ((dat5 q V c).after 4 t) from by
        unfold Dat.leavesExact; rw [liveAt5_4 t], after5_4]
      rw [show (dat5 q V c).leavesExact 5 t = owns (c : Thread nD τ) (ms5_5 t) fullShare ((dat5 q V c).after 5 t) from by
        unfold Dat.leavesExact; rw [liveAt5_5 t], after5_5]
      rw [show (dat5 q V c).leavesExact 6 t = owns (c : Thread nD τ) (ms5_6 t) fullShare ((dat5 q V c).after 6 t) from by
        unfold Dat.leavesExact; rw [liveAt5_6 t], after5_6]
      rw [Dat.leavesExact_idle (dat5 q V c) 7 t (idleAt5_7_B t (fun h => h0 ((hcond5_0 t).mp h)) (fun h => h1 ((hcond5_1 t).mp h))) (noFlush5_7_B t (fun h => h0 ((hcond5_0 t).mp h)) (fun h => h1 ((hcond5_1 t).mp h)))]
      rw [outsAt5_B V c t h0 h1]
      unfold out5_B_6 sout5_B_0; (try dsimp only)
      by_cases hz : t.val = 0
      · exfalso; omega
      · rw [PhiS5_castSucc q V c t, PhiS5_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun5_B c (grid5.coords t) _ _ _ _ _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover5_B_0 c _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover5_B_6 c _ _ _ _ _ _ _ _ _ _ _ _ _ _ _ _ _ _ _ _ _ _ _ _ _ _ _ _)
        iexists _; iexact H7

/-- The library's body obligation, at every point. -/
theorem body_obligation5 (c : Dev nD) : BodyObligation (dat5 (F := F) q V c) (defs₀ (F := F)) Variants.none () Set.univ := fun t => by
  rw [bigSep_W5, bigSep_W5]
  exact sound_body5 q V c t

/-- What the launch hands the region is the invariant before the first point. -/
theorem hin5 (c : Dev nD) : (Pipeline.ΦA spec5 c : sProp 𝕄) ⊢ (dat5 q V c).Φ 0 := by
  rw [show (dat5 q V c).Φ 0 = PhiS5 V c 0 (Nat.zero_le _) from rfl, PhiS5_zero V c 0 _ rfl]
  try exact Idealize.SL.BI.Entails.refl _

/-- After any point but the first the invariant gives the class's back: the scratch's named contents are forgotten. -/
theorem Phi_out5 (c : Dev nD) (t : Fin (cfg5.N + 1)) (ht : t.val ≠ 0) : (dat5 q V c).Φ t ⊢ (Pipeline.ΦA spec5 c : sProp 𝕄) := by
  rw [show (dat5 q V c).Φ t = PhiS5 V c t.val (Nat.le_of_lt_succ t.isLt) from rfl, PhiS5_pos V c _ _ ht, PhiA5_eq]
  iintro ⟨⟨HS0, Hrest⟩, Hg⟩
  isplitl [HS0 Hrest]
  · isplitl [HS0]
    · iexists _; iexact HS0
    iexact Hrest
  iexact Hg

/-- The same after the last point. -/
theorem hout5 (c : Dev nD) : (dat5 q V c).Φ (Fin.last cfg5.N) ⊢ (Pipeline.ΦA spec5 c : sProp 𝕄) :=
  Phi_out5 q V c _ (by rw [Fin.val_last]; have : cfg5.N = 10 := N_5; omega)

end Regions

end Cert.Kernel.Hand

end
-- ==== Proof.K.Bodies.lean ====
/- The word-level twin (program Kernel) of proof/Proof/KI/Bodies.lean: the proof data and body obligations of the six regions, the edge kernel at regions 0, 2, 4, the node kernel at regions 1, 3, 5. -/
import proofs.«108204_j49847390437921_1_alg».proof.Proof.K.E0.Body
import proofs.«108204_j49847390437921_1_alg».proof.Proof.K.N1.Body
import proofs.«108204_j49847390437921_1_alg».proof.Proof.K.E2.Body
import proofs.«108204_j49847390437921_1_alg».proof.Proof.K.N3.Body
import proofs.«108204_j49847390437921_1_alg».proof.Proof.K.E4.Body
import proofs.«108204_j49847390437921_1_alg».proof.Proof.K.N5.Body
-- ==== Proof.K.RegionsData.lean ====
/- The contents the six regions leave in their output arrays, each computed from the contents its region is entered
   with; the proof data of every region at those entry contents; and the thread state that rides through the run. -/
import proofs.«108204_j49847390437921_1_alg».proof.Proof.Gen.Kernel.Regions
import proofs.«108204_j49847390437921_1_alg».proof.Proof.K.Bodies

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The shares of the input arrays

Windows 0 and 1 of regions 0 and 1 read ONE array: each holds a half of it. Every other input array is held whole. -/

def qS0 : Fin cfg0.W → PosShare TreeShare := fun w => if w = 0 then fullShare.left else if w = 1 then fullShare.right else fullShare
def qS1 : Fin cfg1.W → PosShare TreeShare := fun w => if w = 0 then fullShare.left else if w = 1 then fullShare.right else fullShare

/-! ## What a region's exit valuation holds at the region's two output arrays (at any unknowns `o`) -/

theorem V2_at_0 (o : Outs (F := F)) (c : Dev nD) : V2 m o c main_v30_0 = o 2 main_v30_0 c := by
  simp only [V2, Function.update_of_ne (StableHlo.devRef_ne_of_ne (by decide : main_v30_0 ≠ main_v30_1) : (Proc.devRef .tc main_v30_0 : DevRef τ sig) ≠ Proc.devRef .tc main_v30_1), Function.update_self]
theorem V2_at_1 (o : Outs (F := F)) (c : Dev nD) : V2 m o c main_v30_1 = o 2 main_v30_1 c := by
  simp only [V2, Function.update_self]

theorem V4_at_0 (o : Outs (F := F)) (c : Dev nD) : V4 m o c main_v46_0 = o 4 main_v46_0 c := by
  simp only [V4, Function.update_of_ne (StableHlo.devRef_ne_of_ne (by decide : main_v46_0 ≠ main_v46_1) : (Proc.devRef .tc main_v46_0 : DevRef τ sig) ≠ Proc.devRef .tc main_v46_1), Function.update_self]
theorem V4_at_1 (o : Outs (F := F)) (c : Dev nD) : V4 m o c main_v46_1 = o 4 main_v46_1 c := by
  simp only [V4, Function.update_self]

theorem V8_at_0 (o : Outs (F := F)) (c : Dev nD) : V8 m o c main_v79_0 = o 8 main_v79_0 c := by
  simp only [V8, Function.update_of_ne (StableHlo.devRef_ne_of_ne (by decide : main_v79_0 ≠ main_v79_1) : (Proc.devRef .tc main_v79_0 : DevRef τ sig) ≠ Proc.devRef .tc main_v79_1), Function.update_self]
theorem V8_at_1 (o : Outs (F := F)) (c : Dev nD) : V8 m o c main_v79_1 = o 8 main_v79_1 c := by
  simp only [V8, Function.update_self]

theorem V10_at_0 (o : Outs (F := F)) (c : Dev nD) : V10 m o c main_v95_0 = o 10 main_v95_0 c := by
  simp only [V10, Function.update_of_ne (StableHlo.devRef_ne_of_ne (by decide : main_v95_0 ≠ main_v95_1) : (Proc.devRef .tc main_v95_0 : DevRef τ sig) ≠ Proc.devRef .tc main_v95_1), Function.update_self]
theorem V10_at_1 (o : Outs (F := F)) (c : Dev nD) : V10 m o c main_v95_1 = o 10 main_v95_1 c := by
  simp only [V10, Function.update_self]

theorem V14_at_0 (o : Outs (F := F)) (c : Dev nD) : V14 m o c main_v128_0 = o 14 main_v128_0 c := by
  simp only [V14, Function.update_of_ne (StableHlo.devRef_ne_of_ne (by decide : main_v128_0 ≠ main_v128_1) : (Proc.devRef .tc main_v128_0 : DevRef τ sig) ≠ Proc.devRef .tc main_v128_1), Function.update_self]
theorem V14_at_1 (o : Outs (F := F)) (c : Dev nD) : V14 m o c main_v128_1 = o 14 main_v128_1 c := by
  simp only [V14, Function.update_self]

theorem V16_at_0 (o : Outs (F := F)) (c : Dev nD) : V16 m o c main_v144_0 = o 16 main_v144_0 c := by
  simp only [V16, Function.update_of_ne (StableHlo.devRef_ne_of_ne (by decide : main_v144_0 ≠ main_v144_1) : (Proc.devRef .tc main_v144_0 : DevRef τ sig) ≠ Proc.devRef .tc main_v144_1), Function.update_self]
theorem V16_at_1 (o : Outs (F := F)) (c : Dev nD) : V16 m o c main_v144_1 = o 16 main_v144_1 c := by
  simp only [V16, Function.update_self]

/-! ## The valuations depend on the unknowns only at the points before them -/

theorem V3_congr (o o' : Outs (F := F)) (h2 : o 2 = o' 2) (c : Dev nD) : V3 m o c = V3 m o' c := by
  unfold V3 V2; rw [h2]
theorem V7_congr (o o' : Outs (F := F)) (h2 : o 2 = o' 2) (h4 : o 4 = o' 4) (c : Dev nD) : V7 m o c = V7 m o' c := by
  unfold V7 V6 V5 V4 V3 V2; rw [h2, h4]
theorem V9_congr (o o' : Outs (F := F)) (h2 : o 2 = o' 2) (h4 : o 4 = o' 4) (h8 : o 8 = o' 8) (c : Dev nD) : V9 m o c = V9 m o' c := by
  unfold V9 V8 V7 V6 V5 V4 V3 V2; rw [h2, h4, h8]
theorem V13_congr (o o' : Outs (F := F)) (h2 : o 2 = o' 2) (h4 : o 4 = o' 4) (h8 : o 8 = o' 8) (h10 : o 10 = o' 10) (c : Dev nD) :
    V13 m o c = V13 m o' c := by
  unfold V13 V12 V11 V10 V9 V8 V7 V6 V5 V4 V3 V2; rw [h2, h4, h8, h10]
theorem V15_congr (o o' : Outs (F := F)) (h2 : o 2 = o' 2) (h4 : o 4 = o' 4) (h8 : o 8 = o' 8) (h10 : o 10 = o' 10) (h14 : o 14 = o' 14)
    (c : Dev nD) : V15 m o c = V15 m o' c := by
  unfold V15 V14 V13 V12 V11 V10 V9 V8 V7 V6 V5 V4 V3 V2; rw [h2, h4, h8, h10, h14]

/-! ## The contents the regions leave, region by region

Region K's output arrays end at what its pipeline's write-backs fold to (`Dat.arrAt … N`) from the contents the region is
entered with; those are the launch contents carried through the host stretches and the EARLIER regions' outputs. So the
unknowns are built in six stages, each stage knowing the outputs of the regions before it; away from the twelve points
read, a stage holds the launch contents (never read). -/

/-- Stage none: nothing known. -/
def outsI : Outs (F := F) := fun _ r c => m ((c : Thread nD τ).loc r)

/-- What region 0 leaves in `main_v30_0` and in `main_v30_1`. -/
def X0_0 (c : Dev nD) : Buf (Elt F) ((c : Thread nD τ).loc main_v30_0) := (dat0 qS0 (fun c b => V1 m c b) c).arrAt 7 cfg0.N
def X0_1 (c : Dev nD) : Buf (Elt F) ((c : Thread nD τ).loc main_v30_1) := (dat0 qS0 (fun c b => V1 m c b) c).arrAt 8 cfg0.N
/-- The unknowns through region 0. -/
def outs0 : Outs (F := F) := fun J r c =>
  if J = 2 then
    if h : r = main_v30_0 then h ▸ X0_0 m c
    else if h : r = main_v30_1 then h ▸ X0_1 m c
    else outsI m J r c
  else outsI m J r c

/-- What region 1 leaves in `main_v46_0` and in `main_v46_1`. -/
def X1_0 (c : Dev nD) : Buf (Elt F) ((c : Thread nD τ).loc main_v46_0) := (dat1 qS1 (fun c b => V3 m (outs0 m) c b) c).arrAt 6 cfg1.N
def X1_1 (c : Dev nD) : Buf (Elt F) ((c : Thread nD τ).loc main_v46_1) := (dat1 qS1 (fun c b => V3 m (outs0 m) c b) c).arrAt 7 cfg1.N
/-- The unknowns through region 1. -/
def outs1 : Outs (F := F) := fun J r c =>
  if J = 4 then
    if h : r = main_v46_0 then h ▸ X1_0 m c
    else if h : r = main_v46_1 then h ▸ X1_1 m c
    else outs0 m J r c
  else outs0 m J r c

/-- What region 2 leaves in `main_v79_0` and in `main_v79_1`. -/
def X2_0 (c : Dev nD) : Buf (Elt F) ((c : Thread nD τ).loc main_v79_0) := (dat2 (fun _ => fullShare) (fun c b => V7 m (outs1 m) c b) c).arrAt 7 cfg2.N
def X2_1 (c : Dev nD) : Buf (Elt F) ((c : Thread nD τ).loc main_v79_1) := (dat2 (fun _ => fullShare) (fun c b => V7 m (outs1 m) c b) c).arrAt 8 cfg2.N
/-- The unknowns through region 2. -/
def outs2 : Outs (F := F) := fun J r c =>
  if J = 8 then
    if h : r = main_v79_0 then h ▸ X2_0 m c
    else if h : r = main_v79_1 then h ▸ X2_1 m c
    else outs1 m J r c
  else outs1 m J r c

/-- What region 3 leaves in `main_v95_0` and in `main_v95_1`. -/
def X3_0 (c : Dev nD) : Buf (Elt F) ((c : Thread nD τ).loc main_v95_0) := (dat3 (fun _ => fullShare) (fun c b => V9 m (outs2 m) c b) c).arrAt 6 cfg3.N
def X3_1 (c : Dev nD) : Buf (Elt F) ((c : Thread nD τ).loc main_v95_1) := (dat3 (fun _ => fullShare) (fun c b => V9 m (outs2 m) c b) c).arrAt 7 cfg3.N
/-- The unknowns through region 3. -/
def outs3 : Outs (F := F) := fun J r c =>
  if J = 10 then
    if h : r = main_v95_0 then h ▸ X3_0 m c
    else if h : r = main_v95_1 then h ▸ X3_1 m c
    else outs2 m J r c
  else outs2 m J r c

/-- What region 4 leaves in `main_v128_0` and in `main_v128_1`. -/
def X4_0 (c : Dev nD) : Buf (Elt F) ((c : Thread nD τ).loc main_v128_0) := (dat4 (fun _ => fullShare) (fun c b => V13 m (outs3 m) c b) c).arrAt 7 cfg4.N
def X4_1 (c : Dev nD) : Buf (Elt F) ((c : Thread nD τ).loc main_v128_1) := (dat4 (fun _ => fullShare) (fun c b => V13 m (outs3 m) c b) c).arrAt 8 cfg4.N
/-- The unknowns through region 4. -/
def outs4 : Outs (F := F) := fun J r c =>
  if J = 14 then
    if h : r = main_v128_0 then h ▸ X4_0 m c
    else if h : r = main_v128_1 then h ▸ X4_1 m c
    else outs3 m J r c
  else outs3 m J r c

/-- What region 5 leaves in `main_v144_0` and in `main_v144_1`. -/
def X5_0 (c : Dev nD) : Buf (Elt F) ((c : Thread nD τ).loc main_v144_0) := (dat5 (fun _ => fullShare) (fun c b => V15 m (outs4 m) c b) c).arrAt 6 cfg5.N
def X5_1 (c : Dev nD) : Buf (Elt F) ((c : Thread nD τ).loc main_v144_1) := (dat5 (fun _ => fullShare) (fun c b => V15 m (outs4 m) c b) c).arrAt 7 cfg5.N
/-- The unknowns through region 5. -/
def outs5 : Outs (F := F) := fun J r c =>
  if J = 16 then
    if h : r = main_v144_0 then h ▸ X5_0 m c
    else if h : r = main_v144_1 then h ▸ X5_1 m c
    else outs4 m J r c
  else outs4 m J r c

/-- THE CONTENTS THE REGIONS LEAVE: the unknowns of the generated valuations `V0 … V18`, all six regions known. -/
abbrev outs : Outs (F := F) := outs5 m

/-! ## A later stage agrees with an earlier one at the earlier one's points -/
theorem outs_eq0_at2 : outs m 2 = outs0 m 2 := by
  funext r c; simp only [outs, outs5, outs4, outs3, outs2, outs1, outs0, Nat.reduceEqDiff, ↓reduceIte]
theorem outs_eq1_at2 : outs m 2 = outs1 m 2 := by
  funext r c; simp only [outs, outs5, outs4, outs3, outs2, outs1, outs0, Nat.reduceEqDiff, ↓reduceIte]
theorem outs_eq1_at4 : outs m 4 = outs1 m 4 := by
  funext r c; simp only [outs, outs5, outs4, outs3, outs2, outs1, outs0, Nat.reduceEqDiff, ↓reduceIte]
theorem outs_eq2_at2 : outs m 2 = outs2 m 2 := by
  funext r c; simp only [outs, outs5, outs4, outs3, outs2, outs1, outs0, Nat.reduceEqDiff, ↓reduceIte]
theorem outs_eq2_at4 : outs m 4 = outs2 m 4 := by
  funext r c; simp only [outs, outs5, outs4, outs3, outs2, outs1, outs0, Nat.reduceEqDiff, ↓reduceIte]
theorem outs_eq2_at8 : outs m 8 = outs2 m 8 := by
  funext r c; simp only [outs, outs5, outs4, outs3, outs2, outs1, outs0, Nat.reduceEqDiff, ↓reduceIte]
theorem outs_eq3_at2 : outs m 2 = outs3 m 2 := by
  funext r c; simp only [outs, outs5, outs4, outs3, outs2, outs1, outs0, Nat.reduceEqDiff, ↓reduceIte]
theorem outs_eq3_at4 : outs m 4 = outs3 m 4 := by
  funext r c; simp only [outs, outs5, outs4, outs3, outs2, outs1, outs0, Nat.reduceEqDiff, ↓reduceIte]
theorem outs_eq3_at8 : outs m 8 = outs3 m 8 := by
  funext r c; simp only [outs, outs5, outs4, outs3, outs2, outs1, outs0, Nat.reduceEqDiff, ↓reduceIte]
theorem outs_eq3_at10 : outs m 10 = outs3 m 10 := by
  funext r c; simp only [outs, outs5, outs4, outs3, outs2, outs1, outs0, Nat.reduceEqDiff, ↓reduceIte]
theorem outs_eq4_at2 : outs m 2 = outs4 m 2 := by
  funext r c; simp only [outs, outs5, outs4, outs3, outs2, outs1, outs0, Nat.reduceEqDiff, ↓reduceIte]
theorem outs_eq4_at4 : outs m 4 = outs4 m 4 := by
  funext r c; simp only [outs, outs5, outs4, outs3, outs2, outs1, outs0, Nat.reduceEqDiff, ↓reduceIte]
theorem outs_eq4_at8 : outs m 8 = outs4 m 8 := by
  funext r c; simp only [outs, outs5, outs4, outs3, outs2, outs1, outs0, Nat.reduceEqDiff, ↓reduceIte]
theorem outs_eq4_at10 : outs m 10 = outs4 m 10 := by
  funext r c; simp only [outs, outs5, outs4, outs3, outs2, outs1, outs0, Nat.reduceEqDiff, ↓reduceIte]
theorem outs_eq4_at14 : outs m 14 = outs4 m 14 := by
  funext r c; simp only [outs, outs5, outs4, outs3, outs2, outs1, outs0, Nat.reduceEqDiff, ↓reduceIte]

/-! ## The contents each region is entered with and left at, read at the TensorCore's references -/

/-- Region 0's entry contents. -/
abbrev VE0 (c : Dev nD) (b : Ref sig .tc) : Buf (Elt F) ((c : Thread nD τ).loc b) := V1 m c b
/-- Region 0's exit contents. -/
abbrev VX0 (c : Dev nD) (b : Ref sig .tc) : Buf (Elt F) ((c : Thread nD τ).loc b) := V2 m (outs m) c b

/-- Region 1's entry contents. -/
abbrev VE1 (c : Dev nD) (b : Ref sig .tc) : Buf (Elt F) ((c : Thread nD τ).loc b) := V3 m (outs m) c b
/-- Region 1's exit contents. -/
abbrev VX1 (c : Dev nD) (b : Ref sig .tc) : Buf (Elt F) ((c : Thread nD τ).loc b) := V4 m (outs m) c b

/-- Region 2's entry contents. -/
abbrev VE2 (c : Dev nD) (b : Ref sig .tc) : Buf (Elt F) ((c : Thread nD τ).loc b) := V7 m (outs m) c b
/-- Region 2's exit contents. -/
abbrev VX2 (c : Dev nD) (b : Ref sig .tc) : Buf (Elt F) ((c : Thread nD τ).loc b) := V8 m (outs m) c b

/-- Region 3's entry contents. -/
abbrev VE3 (c : Dev nD) (b : Ref sig .tc) : Buf (Elt F) ((c : Thread nD τ).loc b) := V9 m (outs m) c b
/-- Region 3's exit contents. -/
abbrev VX3 (c : Dev nD) (b : Ref sig .tc) : Buf (Elt F) ((c : Thread nD τ).loc b) := V10 m (outs m) c b

/-- Region 4's entry contents. -/
abbrev VE4 (c : Dev nD) (b : Ref sig .tc) : Buf (Elt F) ((c : Thread nD τ).loc b) := V13 m (outs m) c b
/-- Region 4's exit contents. -/
abbrev VX4 (c : Dev nD) (b : Ref sig .tc) : Buf (Elt F) ((c : Thread nD τ).loc b) := V14 m (outs m) c b

/-- Region 5's entry contents. -/
abbrev VE5 (c : Dev nD) (b : Ref sig .tc) : Buf (Elt F) ((c : Thread nD τ).loc b) := V15 m (outs m) c b
/-- Region 5's exit contents. -/
abbrev VX5 (c : Dev nD) (b : Ref sig .tc) : Buf (Elt F) ((c : Thread nD τ).loc b) := V16 m (outs m) c b

/-! ## Each stage's entry contents are the final ones -/
theorem VE1_eq : (fun c b => V3 m (outs0 m) c b : (c : Dev nD) → (b : Ref sig .tc) → Buf (Elt F) ((c : Thread nD τ).loc b)) = VE1 m := by
  funext c b; exact (congrFun (V3_congr m (outs m) (outs0 m) (outs_eq0_at2 m) c) _).symm
theorem VE2_eq : (fun c b => V7 m (outs1 m) c b : (c : Dev nD) → (b : Ref sig .tc) → Buf (Elt F) ((c : Thread nD τ).loc b)) = VE2 m := by
  funext c b; exact (congrFun (V7_congr m (outs m) (outs1 m) (outs_eq1_at2 m) (outs_eq1_at4 m) c) _).symm
theorem VE3_eq : (fun c b => V9 m (outs2 m) c b : (c : Dev nD) → (b : Ref sig .tc) → Buf (Elt F) ((c : Thread nD τ).loc b)) = VE3 m := by
  funext c b; exact (congrFun (V9_congr m (outs m) (outs2 m) (outs_eq2_at2 m) (outs_eq2_at4 m) (outs_eq2_at8 m) c) _).symm
theorem VE4_eq : (fun c b => V13 m (outs3 m) c b : (c : Dev nD) → (b : Ref sig .tc) → Buf (Elt F) ((c : Thread nD τ).loc b)) = VE4 m := by
  funext c b; exact (congrFun (V13_congr m (outs m) (outs3 m) (outs_eq3_at2 m) (outs_eq3_at4 m) (outs_eq3_at8 m) (outs_eq3_at10 m) c) _).symm
theorem VE5_eq : (fun c b => V15 m (outs4 m) c b : (c : Dev nD) → (b : Ref sig .tc) → Buf (Elt F) ((c : Thread nD τ).loc b)) = VE5 m := by
  funext c b; exact (congrFun (V15_congr m (outs m) (outs4 m) (outs_eq4_at2 m) (outs_eq4_at4 m) (outs_eq4_at8 m) (outs_eq4_at10 m) (outs_eq4_at14 m) c) _).symm

/-! ## THE TWELVE READ-BACKS: what the unknowns hold at the points the valuations read them -/

theorem outs_2_0 (c : Dev nD) : outs m 2 main_v30_0 c = X0_0 m c := by
  rw [outs_eq0_at2 m]; simp only [outs0, ↓reduceIte, ↓reduceDIte]
/-- `main_v30_0` after region 0: window 7's array as the region's write-backs leave it, from the region's entry contents. -/
theorem X0_0_eq (c : Dev nD) : X0_0 m c = (dat0 qS0 (VE0 m) c).arrAt 7 cfg0.N := by
  rfl
theorem VX0_out0 (c : Dev nD) : VX0 m c main_v30_0 = (dat0 qS0 (VE0 m) c).arrAt 7 cfg0.N :=
  (V2_at_0 m (outs m) c).trans ((outs_2_0 m c).trans (X0_0_eq m c))

theorem outs_2_1 (c : Dev nD) : outs m 2 main_v30_1 c = X0_1 m c := by
  rw [outs_eq0_at2 m]; simp only [outs0, ↓reduceIte, ↓reduceDIte, dif_neg (by decide : ¬ main_v30_1 = main_v30_0)]
/-- `main_v30_1` after region 0: window 8's array as the region's write-backs leave it, from the region's entry contents. -/
theorem X0_1_eq (c : Dev nD) : X0_1 m c = (dat0 qS0 (VE0 m) c).arrAt 8 cfg0.N := by
  rfl
theorem VX0_out1 (c : Dev nD) : VX0 m c main_v30_1 = (dat0 qS0 (VE0 m) c).arrAt 8 cfg0.N :=
  (V2_at_1 m (outs m) c).trans ((outs_2_1 m c).trans (X0_1_eq m c))

theorem outs_4_0 (c : Dev nD) : outs m 4 main_v46_0 c = X1_0 m c := by
  rw [outs_eq1_at4 m]; simp only [outs1, ↓reduceIte, ↓reduceDIte]
/-- `main_v46_0` after region 1: window 6's array as the region's write-backs leave it, from the region's entry contents. -/
theorem X1_0_eq (c : Dev nD) : X1_0 m c = (dat1 qS1 (VE1 m) c).arrAt 6 cfg1.N := by
  rw [← VE1_eq m]; rfl
theorem VX1_out0 (c : Dev nD) : VX1 m c main_v46_0 = (dat1 qS1 (VE1 m) c).arrAt 6 cfg1.N :=
  (V4_at_0 m (outs m) c).trans ((outs_4_0 m c).trans (X1_0_eq m c))

theorem outs_4_1 (c : Dev nD) : outs m 4 main_v46_1 c = X1_1 m c := by
  rw [outs_eq1_at4 m]; simp only [outs1, ↓reduceIte, ↓reduceDIte, dif_neg (by decide : ¬ main_v46_1 = main_v46_0)]
/-- `main_v46_1` after region 1: window 7's array as the region's write-backs leave it, from the region's entry contents. -/
theorem X1_1_eq (c : Dev nD) : X1_1 m c = (dat1 qS1 (VE1 m) c).arrAt 7 cfg1.N := by
  rw [← VE1_eq m]; rfl
theorem VX1_out1 (c : Dev nD) : VX1 m c main_v46_1 = (dat1 qS1 (VE1 m) c).arrAt 7 cfg1.N :=
  (V4_at_1 m (outs m) c).trans ((outs_4_1 m c).trans (X1_1_eq m c))

theorem outs_8_0 (c : Dev nD) : outs m 8 main_v79_0 c = X2_0 m c := by
  rw [outs_eq2_at8 m]; simp only [outs2, ↓reduceIte, ↓reduceDIte]
/-- `main_v79_0` after region 2: window 7's array as the region's write-backs leave it, from the region's entry contents. -/
theorem X2_0_eq (c : Dev nD) : X2_0 m c = (dat2 (fun _ => fullShare) (VE2 m) c).arrAt 7 cfg2.N := by
  rw [← VE2_eq m]; rfl
theorem VX2_out0 (c : Dev nD) : VX2 m c main_v79_0 = (dat2 (fun _ => fullShare) (VE2 m) c).arrAt 7 cfg2.N :=
  (V8_at_0 m (outs m) c).trans ((outs_8_0 m c).trans (X2_0_eq m c))

theorem outs_8_1 (c : Dev nD) : outs m 8 main_v79_1 c = X2_1 m c := by
  rw [outs_eq2_at8 m]; simp only [outs2, ↓reduceIte, ↓reduceDIte, dif_neg (by decide : ¬ main_v79_1 = main_v79_0)]
/-- `main_v79_1` after region 2: window 8's array as the region's write-backs leave it, from the region's entry contents. -/
theorem X2_1_eq (c : Dev nD) : X2_1 m c = (dat2 (fun _ => fullShare) (VE2 m) c).arrAt 8 cfg2.N := by
  rw [← VE2_eq m]; rfl
theorem VX2_out1 (c : Dev nD) : VX2 m c main_v79_1 = (dat2 (fun _ => fullShare) (VE2 m) c).arrAt 8 cfg2.N :=
  (V8_at_1 m (outs m) c).trans ((outs_8_1 m c).trans (X2_1_eq m c))

theorem outs_10_0 (c : Dev nD) : outs m 10 main_v95_0 c = X3_0 m c := by
  rw [outs_eq3_at10 m]; simp only [outs3, ↓reduceIte, ↓reduceDIte]
/-- `main_v95_0` after region 3: window 6's array as the region's write-backs leave it, from the region's entry contents. -/
theorem X3_0_eq (c : Dev nD) : X3_0 m c = (dat3 (fun _ => fullShare) (VE3 m) c).arrAt 6 cfg3.N := by
  rw [← VE3_eq m]; rfl
theorem VX3_out0 (c : Dev nD) : VX3 m c main_v95_0 = (dat3 (fun _ => fullShare) (VE3 m) c).arrAt 6 cfg3.N :=
  (V10_at_0 m (outs m) c).trans ((outs_10_0 m c).trans (X3_0_eq m c))

theorem outs_10_1 (c : Dev nD) : outs m 10 main_v95_1 c = X3_1 m c := by
  rw [outs_eq3_at10 m]; simp only [outs3, ↓reduceIte, ↓reduceDIte, dif_neg (by decide : ¬ main_v95_1 = main_v95_0)]
/-- `main_v95_1` after region 3: window 7's array as the region's write-backs leave it, from the region's entry contents. -/
theorem X3_1_eq (c : Dev nD) : X3_1 m c = (dat3 (fun _ => fullShare) (VE3 m) c).arrAt 7 cfg3.N := by
  rw [← VE3_eq m]; rfl
theorem VX3_out1 (c : Dev nD) : VX3 m c main_v95_1 = (dat3 (fun _ => fullShare) (VE3 m) c).arrAt 7 cfg3.N :=
  (V10_at_1 m (outs m) c).trans ((outs_10_1 m c).trans (X3_1_eq m c))

theorem outs_14_0 (c : Dev nD) : outs m 14 main_v128_0 c = X4_0 m c := by
  rw [outs_eq4_at14 m]; simp only [outs4, ↓reduceIte, ↓reduceDIte]
/-- `main_v128_0` after region 4: window 7's array as the region's write-backs leave it, from the region's entry contents. -/
theorem X4_0_eq (c : Dev nD) : X4_0 m c = (dat4 (fun _ => fullShare) (VE4 m) c).arrAt 7 cfg4.N := by
  rw [← VE4_eq m]; rfl
theorem VX4_out0 (c : Dev nD) : VX4 m c main_v128_0 = (dat4 (fun _ => fullShare) (VE4 m) c).arrAt 7 cfg4.N :=
  (V14_at_0 m (outs m) c).trans ((outs_14_0 m c).trans (X4_0_eq m c))

theorem outs_14_1 (c : Dev nD) : outs m 14 main_v128_1 c = X4_1 m c := by
  rw [outs_eq4_at14 m]; simp only [outs4, ↓reduceIte, ↓reduceDIte, dif_neg (by decide : ¬ main_v128_1 = main_v128_0)]
/-- `main_v128_1` after region 4: window 8's array as the region's write-backs leave it, from the region's entry contents. -/
theorem X4_1_eq (c : Dev nD) : X4_1 m c = (dat4 (fun _ => fullShare) (VE4 m) c).arrAt 8 cfg4.N := by
  rw [← VE4_eq m]; rfl
theorem VX4_out1 (c : Dev nD) : VX4 m c main_v128_1 = (dat4 (fun _ => fullShare) (VE4 m) c).arrAt 8 cfg4.N :=
  (V14_at_1 m (outs m) c).trans ((outs_14_1 m c).trans (X4_1_eq m c))

theorem outs_16_0 (c : Dev nD) : outs m 16 main_v144_0 c = X5_0 m c := by
  simp only [outs, outs5, ↓reduceIte, ↓reduceDIte]
/-- `main_v144_0` after region 5: window 6's array as the region's write-backs leave it, from the region's entry contents. -/
theorem X5_0_eq (c : Dev nD) : X5_0 m c = (dat5 (fun _ => fullShare) (VE5 m) c).arrAt 6 cfg5.N := by
  rw [← VE5_eq m]; rfl
theorem VX5_out0 (c : Dev nD) : VX5 m c main_v144_0 = (dat5 (fun _ => fullShare) (VE5 m) c).arrAt 6 cfg5.N :=
  (V16_at_0 m (outs m) c).trans ((outs_16_0 m c).trans (X5_0_eq m c))

theorem outs_16_1 (c : Dev nD) : outs m 16 main_v144_1 c = X5_1 m c := by
  simp only [outs, outs5, ↓reduceIte, ↓reduceDIte, dif_neg (by decide : ¬ main_v144_1 = main_v144_0)]
/-- `main_v144_1` after region 5: window 7's array as the region's write-backs leave it, from the region's entry contents. -/
theorem X5_1_eq (c : Dev nD) : X5_1 m c = (dat5 (fun _ => fullShare) (VE5 m) c).arrAt 7 cfg5.N := by
  rw [← VE5_eq m]; rfl
theorem VX5_out1 (c : Dev nD) : VX5 m c main_v144_1 = (dat5 (fun _ => fullShare) (VE5 m) c).arrAt 7 cfg5.N :=
  (V16_at_1 m (outs m) c).trans ((outs_16_1 m c).trans (X5_1_eq m c))

/-! ## The proof data family and the thread state -/

/-- Every pipeline's proof data, each at its region's entry contents — a literal `match`, so that the kit's
    `Pipeline.pin pcfgs adm p` at a numeral reduces to the printed configuration. -/
def pdats : (p : Fin 6) → (c : Dev nD) → Dat τ (Elt F) Unit ℕ (UR sig nD τ) ℕ (Pipeline.pin (pcfgs (F := F)) adm p) c
  | ⟨0, _⟩ => fun c => dat0 qS0 (VE0 m) c
  | ⟨1, _⟩ => fun c => dat1 qS1 (VE1 m) c
  | ⟨2, _⟩ => fun c => dat2 (fun _ => fullShare) (VE2 m) c
  | ⟨3, _⟩ => fun c => dat3 (fun _ => fullShare) (VE3 m) c
  | ⟨4, _⟩ => fun c => dat4 (fun _ => fullShare) (VE4 m) c
  | ⟨5, _⟩ => fun c => dat5 (fun _ => fullShare) (VE5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)

end Cert.Kernel.Hand

end
-- ==== Proof.K.SharedLemmas.lean ====
/- The windows' arrays split out of a core's unscoped buffers, and put back, for the two regions whose first two input
   windows read one array. -/
import proofs.«108204_j49847390437921_1_alg».proof.Proof.Gen.Kernel.Launch
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Regions whose first two input windows read ONE array

Custom call 0's windows 0 and 1 both read one array (custom call 1's likewise). The core holds that array once,
whole, at the full share; the pipeline's proof data hold it once PER WINDOW. So at the region's entry the
whole-buffer points-to is dealt between the two windows along the two halves of the full share, and at its exit the
halves — which hold the same contents, no input being written — are joined again. Every other window's array is a
buffer of its own and passes through whole. -/

/-! ## Region 0: the buffers behind the arrays, one by one -/

/-- Windows 0 and 1 read one array; the other windows' arrays are buffers of their own: the arrays name
    8 distinct buffers, those of every window but window 1. -/
theorem arrImage0 : Finset.univ.image (Pipeline.arrRef spec0) = [Pipeline.arrRef spec0 0, Pipeline.arrRef spec0 2, Pipeline.arrRef spec0 3, Pipeline.arrRef spec0 4, Pipeline.arrRef spec0 5, Pipeline.arrRef spec0 6, Pipeline.arrRef spec0 7, Pipeline.arrRef spec0 8].toFinset := by decide
theorem arrList0_nodup : [Pipeline.arrRef spec0 0, Pipeline.arrRef spec0 2, Pipeline.arrRef spec0 3, Pipeline.arrRef spec0 4, Pipeline.arrRef spec0 5, Pipeline.arrRef spec0 6, Pipeline.arrRef spec0 7, Pipeline.arrRef spec0 8].Nodup := by decide

/-- The buffers behind the arrays, each whole at the full share, as a chain. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop(((((c : Thread nD τ).loc (Pipeline.arrRef spec0 0)) ↦{fullShare} V (Pipeline.arrRef spec0 0)) : sProp 𝕄)
          ∗ ((((c : Thread nD τ).loc (Pipeline.arrRef spec0 2)) ↦{fullShare} V (Pipeline.arrRef spec0 2)) : sProp 𝕄)
          ∗ ((((c : Thread nD τ).loc (Pipeline.arrRef spec0 3)) ↦{fullShare} V (Pipeline.arrRef spec0 3)) : sProp 𝕄)
          ∗ ((((c : Thread nD τ).loc (Pipeline.arrRef spec0 4)) ↦{fullShare} V (Pipeline.arrRef spec0 4)) : sProp 𝕄)
          ∗ ((((c : Thread nD τ).loc (Pipeline.arrRef spec0 5)) ↦{fullShare} V (Pipeline.arrRef spec0 5)) : sProp 𝕄)
          ∗ ((((c : Thread nD τ).loc (Pipeline.arrRef spec0 6)) ↦{fullShare} V (Pipeline.arrRef spec0 6)) : sProp 𝕄)
          ∗ ((((c : Thread nD τ).loc (Pipeline.arrRef spec0 7)) ↦{fullShare} V (Pipeline.arrRef spec0 7)) : sProp 𝕄)
          ∗ ((((c : Thread nD τ).loc (Pipeline.arrRef spec0 8)) ↦{fullShare} V (Pipeline.arrRef spec0 8)) : sProp 𝕄)) := by
  unfold Pipeline.arrBufs
  exact bigSep_eq_bigSepL_of_eq [Pipeline.arrRef spec0 0, Pipeline.arrRef spec0 2, Pipeline.arrRef spec0 3, Pipeline.arrRef spec0 4, Pipeline.arrRef spec0 5, Pipeline.arrRef spec0 6, Pipeline.arrRef spec0 7, Pipeline.arrRef spec0 8] arrImage0 arrList0_nodup _

/-- The proof data's arrays: every array is a whole buffer, so each window holds its buffer's every element,
    at the window's share. -/
theorem arrays0_eq (c : Dev nD) (dat : Dat τ (Elt F) Unit ℕ (UR sig nD τ) ℕ cfg0 c) (G : (w : Fin cfg0.W) → Buf (Elt F) ((cfg0.win w).arr.view.loc (c : Thread nD τ))) :
    dat.arrays G = bigSep Finset.univ fun w : Fin cfg0.W =>
      ((((c : Thread nD τ).loc (Pipeline.arrRef spec0 w)) ↦{dat.share w} G w) : sProp 𝕄) := by
  unfold Dat.arrays
  exact bigSep_congr fun w _ => by rw [(arr_whole0 w).set_eq_univ]

/-- The same, window by window. -/
theorem arrays0_chain (c : Dev nD) (dat : Dat τ (Elt F) Unit ℕ (UR sig nD τ) ℕ cfg0 c) (G : (w : Fin cfg0.W) → Buf (Elt F) ((cfg0.win w).arr.view.loc (c : Thread nD τ))) :
    dat.arrays G = iprop(((((c : Thread nD τ).loc (Pipeline.arrRef spec0 0)) ↦{dat.share 0} G 0) : sProp 𝕄)
          ∗ ((((c : Thread nD τ).loc (Pipeline.arrRef spec0 1)) ↦{dat.share 1} G 1) : sProp 𝕄)
          ∗ ((((c : Thread nD τ).loc (Pipeline.arrRef spec0 2)) ↦{dat.share 2} G 2) : sProp 𝕄)
          ∗ ((((c : Thread nD τ).loc (Pipeline.arrRef spec0 3)) ↦{dat.share 3} G 3) : sProp 𝕄)
          ∗ ((((c : Thread nD τ).loc (Pipeline.arrRef spec0 4)) ↦{dat.share 4} G 4) : sProp 𝕄)
          ∗ ((((c : Thread nD τ).loc (Pipeline.arrRef spec0 5)) ↦{dat.share 5} G 5) : sProp 𝕄)
          ∗ ((((c : Thread nD τ).loc (Pipeline.arrRef spec0 6)) ↦{dat.share 6} G 6) : sProp 𝕄)
          ∗ ((((c : Thread nD τ).loc (Pipeline.arrRef spec0 7)) ↦{dat.share 7} G 7) : sProp 𝕄)
          ∗ ((((c : Thread nD τ).loc (Pipeline.arrRef spec0 8)) ↦{dat.share 8} G 8) : sProp 𝕄)) :=
  (arrays0_eq c dat G).trans (bigSep_W0 _)

section Shares0

variable (c : Dev nD) (dat : Dat τ (Elt F) Unit ℕ (UR sig nD τ) ℕ cfg0 c)
  (hq0 : dat.q 0 = fullShare.left) (hq1 : dat.q 1 = fullShare.right)
  (hq : ∀ w : Fin cfg0.W, 2 ≤ w.val → dat.q w = fullShare)

include hq0 in
/-- Window 0 is an input: it holds its array at its own share, the left half. -/
theorem share0_0 : dat.share 0 = fullShare.left := by unfold Dat.share; exact hq0
include hq1 in
/-- Window 1 likewise, at the right half. -/
theorem share0_1 : dat.share 1 = fullShare.right := by unfold Dat.share; exact hq1
include hq in
/-- Every other window holds its array at the full share: an input by `hq`, an output always. -/
theorem share0_ge (w : Fin cfg0.W) (hw : 2 ≤ w.val) : dat.share w = fullShare := by
  unfold Dat.share; split
  · rfl
  · exact hq w hw

variable (V : (b : Ref sig .tc) → Buf (Elt F) ((c : Thread nD τ).loc b)) (G : (w : Fin cfg0.W) → Buf (Elt F) ((cfg0.win w).arr.view.loc (c : Thread nD τ))) (hG : ∀ w, G w = V (Pipeline.arrRef spec0 w))

include hq0 hG in
/-- Window 0's holding, at contents read off `V`: the left half of its buffer. -/
theorem win0_0 : ((((c : Thread nD τ).loc (Pipeline.arrRef spec0 0)) ↦{dat.share 0} G 0) : sProp 𝕄)
    = (((c : Thread nD τ).loc (Pipeline.arrRef spec0 0)) ↦{fullShare.left} V (Pipeline.arrRef spec0 0)) := by
  rw [share0_0 c dat hq0, hG 0]
include hq1 hG in
/-- Window 1's: the right half of the SAME buffer, window 1's array being window 0's. -/
theorem win0_1 : ((((c : Thread nD τ).loc (Pipeline.arrRef spec0 1)) ↦{dat.share 1} G 1) : sProp 𝕄)
    = (((c : Thread nD τ).loc (Pipeline.arrRef spec0 0)) ↦{fullShare.right} V (Pipeline.arrRef spec0 0)) := by
  rw [share0_1 c dat hq1, hG 1] <;> rfl
include hq hG in
/-- Any other window's: its buffer whole at the full share. -/
theorem win0_ge (w : Fin cfg0.W) (hw : 2 ≤ w.val) :
    ((((c : Thread nD τ).loc (Pipeline.arrRef spec0 w)) ↦{dat.share w} G w) : sProp 𝕄)
      = (((c : Thread nD τ).loc (Pipeline.arrRef spec0 w)) ↦{fullShare} V (Pipeline.arrRef spec0 w)) := by
  rw [share0_ge c dat hq w hw, hG w]

include hq0 hq1 hq hG in
/-- ENTRY, the arrays' part: the buffers behind the arrays at `V` make the proof data's arrays at contents read
    off `V`, the common array of windows 0 and 1 dealt between them along the full share's halves. -/
theorem arrays_of_arrBufs0 :
    (Pipeline.arrBufs (Ix := Unit) (Name := ℕ) (U := UR sig nD τ) (Lvl := ℕ) spec0 c V : sProp 𝕄) ⊢ dat.arrays G := by
  rw [arrBufs0_eq c V, arrays0_chain c dat G]
  refine .trans (BIClass.sep_mono ?_ ?_) Laws.sep_assoc.1
  · exact .trans (pointsTo_share (PosShare.mem_left_op_right fullShare)).1
      (BIClass.sep_mono (BIBase.Entails.of_eq (win0_0 c dat hq0 V G hG).symm) (BIBase.Entails.of_eq (win0_1 c dat hq1 V G hG).symm))
  · exact BIClass.sep_mono (BIBase.Entails.of_eq (win0_ge c dat hq V G hG 2 (by decide)).symm)
      (BIClass.sep_mono (BIBase.Entails.of_eq (win0_ge c dat hq V G hG 3 (by decide)).symm)
      (BIClass.sep_mono (BIBase.Entails.of_eq (win0_ge c dat hq V G hG 4 (by decide)).symm)
      (BIClass.sep_mono (BIBase.Entails.of_eq (win0_ge c dat hq V G hG 5 (by decide)).symm)
      (BIClass.sep_mono (BIBase.Entails.of_eq (win0_ge c dat hq V G hG 6 (by decide)).symm)
      (BIClass.sep_mono (BIBase.Entails.of_eq (win0_ge c dat hq V G hG 7 (by decide)).symm)
      ((BIBase.Entails.of_eq (win0_ge c dat hq V G hG 8 (by decide)).symm)))))))

-- the default heartbeat budget does not cover this declaration's elaboration
set_option maxHeartbeats 1000000 in
include hq0 hq1 hq hG in
/-- EXIT, the arrays' part: the converse. Windows 0 and 1 hold the same contents of their common array at the two
    halves, which join to the whole buffer at the full share. -/
theorem arrBufs_of_arrays0 :
    dat.arrays G ⊢ (Pipeline.arrBufs (Ix := Unit) (Name := ℕ) (U := UR sig nD τ) (Lvl := ℕ) spec0 c V : sProp 𝕄) := by
  rw [arrBufs0_eq c V, arrays0_chain c dat G]
  refine .trans Laws.sep_assoc.2 (BIClass.sep_mono ?_ ?_)
  · exact .trans (BIClass.sep_mono (BIBase.Entails.of_eq (win0_0 c dat hq0 V G hG)) (BIBase.Entails.of_eq (win0_1 c dat hq1 V G hG)))
      (pointsTo_share (PosShare.mem_left_op_right fullShare)).2
  · exact BIClass.sep_mono (BIBase.Entails.of_eq (win0_ge c dat hq V G hG 2 (by decide)))
      (BIClass.sep_mono (BIBase.Entails.of_eq (win0_ge c dat hq V G hG 3 (by decide)))
      (BIClass.sep_mono (BIBase.Entails.of_eq (win0_ge c dat hq V G hG 4 (by decide)))
      (BIClass.sep_mono (BIBase.Entails.of_eq (win0_ge c dat hq V G hG 5 (by decide)))
      (BIClass.sep_mono (BIBase.Entails.of_eq (win0_ge c dat hq V G hG 6 (by decide)))
      (BIClass.sep_mono (BIBase.Entails.of_eq (win0_ge c dat hq V G hG 7 (by decide)))
      ((BIBase.Entails.of_eq (win0_ge c dat hq V G hG 8 (by decide)))))))))

include hq0 hq1 hq in
/-- ENTRY, region 0: the core's unscoped buffers at `V` are the proof data's arrays at their entry contents — those
    being read off `V` — and the unscoped buffers that are no window's array. -/
theorem entry_split0 (hA : ∀ w, dat.arrAt w 0 = V (Pipeline.arrRef spec0 w)) :
    (unscopedBufs (Ix := Unit) (Name := ℕ) (U := UR sig nD τ) (Lvl := ℕ) c V : sProp 𝕄)
      ⊢ iprop(dat.arrays (dat.arrAt · 0) ∗ Pipeline.unscopedRest spec0 c V) := by
  rw [Pipeline.unscopedBufs_split₀ cfgs 0 winFacts₀0.arr_unscoped c V]
  exact BIClass.sep_mono (arrays_of_arrBufs0 c dat hq0 hq1 hq V _ hA) .rfl

include hq0 hq1 hq hG in
/-- EXIT, region 0: the arrays at contents `G`, read off `V`, and the other unscoped buffers at `V₀` are the
    core's unscoped buffers at `V`, when `V` agrees with `V₀` off the arrays. -/
theorem exit_join0 (V₀ : (b : Ref sig .tc) → Buf (Elt F) ((c : Thread nD τ).loc b))
    (hrest : ∀ b, b ∉ Finset.univ.image (Pipeline.arrRef spec0) → V b = V₀ b) :
    iprop(dat.arrays G ∗ Pipeline.unscopedRest spec0 c V₀)
      ⊢ (unscopedBufs (Ix := Unit) (Name := ℕ) (U := UR sig nD τ) (Lvl := ℕ) c V : sProp 𝕄) := by
  rw [Pipeline.unscopedBufs_split₀ cfgs 0 winFacts₀0.arr_unscoped c V]
  refine BIClass.sep_mono (arrBufs_of_arrays0 c dat hq0 hq1 hq V G hG) (BIBase.Entails.of_eq ?_)
  unfold Pipeline.unscopedRest
  exact bigSep_congr fun b hb => (by rw [hrest b (Finset.mem_sdiff.mp hb).2])

end Shares0

/-! ## Region 1: the buffers behind the arrays, one by one -/

/-- Windows 0 and 1 read one array; the other windows' arrays are buffers of their own: the arrays name
    7 distinct buffers, those of every window but window 1. -/
theorem arrImage1 : Finset.univ.image (Pipeline.arrRef spec1) = [Pipeline.arrRef spec1 0, Pipeline.arrRef spec1 2, Pipeline.arrRef spec1 3, Pipeline.arrRef spec1 4, Pipeline.arrRef spec1 5, Pipeline.arrRef spec1 6, Pipeline.arrRef spec1 7].toFinset := by decide
theorem arrList1_nodup : [Pipeline.arrRef spec1 0, Pipeline.arrRef spec1 2, Pipeline.arrRef spec1 3, Pipeline.arrRef spec1 4, Pipeline.arrRef spec1 5, Pipeline.arrRef spec1 6, Pipeline.arrRef spec1 7].Nodup := by decide

/-- The buffers behind the arrays, each whole at the full share, as a chain. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop(((((c : Thread nD τ).loc (Pipeline.arrRef spec1 0)) ↦{fullShare} V (Pipeline.arrRef spec1 0)) : sProp 𝕄)
          ∗ ((((c : Thread nD τ).loc (Pipeline.arrRef spec1 2)) ↦{fullShare} V (Pipeline.arrRef spec1 2)) : sProp 𝕄)
          ∗ ((((c : Thread nD τ).loc (Pipeline.arrRef spec1 3)) ↦{fullShare} V (Pipeline.arrRef spec1 3)) : sProp 𝕄)
          ∗ ((((c : Thread nD τ).loc (Pipeline.arrRef spec1 4)) ↦{fullShare} V (Pipeline.arrRef spec1 4)) : sProp 𝕄)
          ∗ ((((c : Thread nD τ).loc (Pipeline.arrRef spec1 5)) ↦{fullShare} V (Pipeline.arrRef spec1 5)) : sProp 𝕄)
          ∗ ((((c : Thread nD τ).loc (Pipeline.arrRef spec1 6)) ↦{fullShare} V (Pipeline.arrRef spec1 6)) : sProp 𝕄)
          ∗ ((((c : Thread nD τ).loc (Pipeline.arrRef spec1 7)) ↦{fullShare} V (Pipeline.arrRef spec1 7)) : sProp 𝕄)) := by
  unfold Pipeline.arrBufs
  exact bigSep_eq_bigSepL_of_eq [Pipeline.arrRef spec1 0, Pipeline.arrRef spec1 2, Pipeline.arrRef spec1 3, Pipeline.arrRef spec1 4, Pipeline.arrRef spec1 5, Pipeline.arrRef spec1 6, Pipeline.arrRef spec1 7] arrImage1 arrList1_nodup _

/-- The proof data's arrays: every array is a whole buffer, so each window holds its buffer's every element,
    at the window's share. -/
theorem arrays1_eq (c : Dev nD) (dat : Dat τ (Elt F) Unit ℕ (UR sig nD τ) ℕ cfg1 c) (G : (w : Fin cfg1.W) → Buf (Elt F) ((cfg1.win w).arr.view.loc (c : Thread nD τ))) :
    dat.arrays G = bigSep Finset.univ fun w : Fin cfg1.W =>
      ((((c : Thread nD τ).loc (Pipeline.arrRef spec1 w)) ↦{dat.share w} G w) : sProp 𝕄) := by
  unfold Dat.arrays
  exact bigSep_congr fun w _ => by rw [(arr_whole1 w).set_eq_univ]

/-- The same, window by window. -/
theorem arrays1_chain (c : Dev nD) (dat : Dat τ (Elt F) Unit ℕ (UR sig nD τ) ℕ cfg1 c) (G : (w : Fin cfg1.W) → Buf (Elt F) ((cfg1.win w).arr.view.loc (c : Thread nD τ))) :
    dat.arrays G = iprop(((((c : Thread nD τ).loc (Pipeline.arrRef spec1 0)) ↦{dat.share 0} G 0) : sProp 𝕄)
          ∗ ((((c : Thread nD τ).loc (Pipeline.arrRef spec1 1)) ↦{dat.share 1} G 1) : sProp 𝕄)
          ∗ ((((c : Thread nD τ).loc (Pipeline.arrRef spec1 2)) ↦{dat.share 2} G 2) : sProp 𝕄)
          ∗ ((((c : Thread nD τ).loc (Pipeline.arrRef spec1 3)) ↦{dat.share 3} G 3) : sProp 𝕄)
          ∗ ((((c : Thread nD τ).loc (Pipeline.arrRef spec1 4)) ↦{dat.share 4} G 4) : sProp 𝕄)
          ∗ ((((c : Thread nD τ).loc (Pipeline.arrRef spec1 5)) ↦{dat.share 5} G 5) : sProp 𝕄)
          ∗ ((((c : Thread nD τ).loc (Pipeline.arrRef spec1 6)) ↦{dat.share 6} G 6) : sProp 𝕄)
          ∗ ((((c : Thread nD τ).loc (Pipeline.arrRef spec1 7)) ↦{dat.share 7} G 7) : sProp 𝕄)) :=
  (arrays1_eq c dat G).trans (bigSep_W1 _)

section Shares1

variable (c : Dev nD) (dat : Dat τ (Elt F) Unit ℕ (UR sig nD τ) ℕ cfg1 c)
  (hq0 : dat.q 0 = fullShare.left) (hq1 : dat.q 1 = fullShare.right)
  (hq : ∀ w : Fin cfg1.W, 2 ≤ w.val → dat.q w = fullShare)

include hq0 in
/-- Window 0 is an input: it holds its array at its own share, the left half. -/
theorem share1_0 : dat.share 0 = fullShare.left := by unfold Dat.share; exact hq0
include hq1 in
/-- Window 1 likewise, at the right half. -/
theorem share1_1 : dat.share 1 = fullShare.right := by unfold Dat.share; exact hq1
include hq in
/-- Every other window holds its array at the full share: an input by `hq`, an output always. -/
theorem share1_ge (w : Fin cfg1.W) (hw : 2 ≤ w.val) : dat.share w = fullShare := by
  unfold Dat.share; split
  · rfl
  · exact hq w hw

variable (V : (b : Ref sig .tc) → Buf (Elt F) ((c : Thread nD τ).loc b)) (G : (w : Fin cfg1.W) → Buf (Elt F) ((cfg1.win w).arr.view.loc (c : Thread nD τ))) (hG : ∀ w, G w = V (Pipeline.arrRef spec1 w))

include hq0 hG in
/-- Window 0's holding, at contents read off `V`: the left half of its buffer. -/
theorem win1_0 : ((((c : Thread nD τ).loc (Pipeline.arrRef spec1 0)) ↦{dat.share 0} G 0) : sProp 𝕄)
    = (((c : Thread nD τ).loc (Pipeline.arrRef spec1 0)) ↦{fullShare.left} V (Pipeline.arrRef spec1 0)) := by
  rw [share1_0 c dat hq0, hG 0]
include hq1 hG in
/-- Window 1's: the right half of the SAME buffer, window 1's array being window 0's. -/
theorem win1_1 : ((((c : Thread nD τ).loc (Pipeline.arrRef spec1 1)) ↦{dat.share 1} G 1) : sProp 𝕄)
    = (((c : Thread nD τ).loc (Pipeline.arrRef spec1 0)) ↦{fullShare.right} V (Pipeline.arrRef spec1 0)) := by
  rw [share1_1 c dat hq1, hG 1] <;> rfl
include hq hG in
/-- Any other window's: its buffer whole at the full share. -/
theorem win1_ge (w : Fin cfg1.W) (hw : 2 ≤ w.val) :
    ((((c : Thread nD τ).loc (Pipeline.arrRef spec1 w)) ↦{dat.share w} G w) : sProp 𝕄)
      = (((c : Thread nD τ).loc (Pipeline.arrRef spec1 w)) ↦{fullShare} V (Pipeline.arrRef spec1 w)) := by
  rw [share1_ge c dat hq w hw, hG w]

include hq0 hq1 hq hG in
/-- ENTRY, the arrays' part: the buffers behind the arrays at `V` make the proof data's arrays at contents read
    off `V`, the common array of windows 0 and 1 dealt between them along the full share's halves. -/
theorem arrays_of_arrBufs1 :
    (Pipeline.arrBufs (Ix := Unit) (Name := ℕ) (U := UR sig nD τ) (Lvl := ℕ) spec1 c V : sProp 𝕄) ⊢ dat.arrays G := by
  rw [arrBufs1_eq c V, arrays1_chain c dat G]
  refine .trans (BIClass.sep_mono ?_ ?_) Laws.sep_assoc.1
  · exact .trans (pointsTo_share (PosShare.mem_left_op_right fullShare)).1
      (BIClass.sep_mono (BIBase.Entails.of_eq (win1_0 c dat hq0 V G hG).symm) (BIBase.Entails.of_eq (win1_1 c dat hq1 V G hG).symm))
  · exact BIClass.sep_mono (BIBase.Entails.of_eq (win1_ge c dat hq V G hG 2 (by decide)).symm)
      (BIClass.sep_mono (BIBase.Entails.of_eq (win1_ge c dat hq V G hG 3 (by decide)).symm)
      (BIClass.sep_mono (BIBase.Entails.of_eq (win1_ge c dat hq V G hG 4 (by decide)).symm)
      (BIClass.sep_mono (BIBase.Entails.of_eq (win1_ge c dat hq V G hG 5 (by decide)).symm)
      (BIClass.sep_mono (BIBase.Entails.of_eq (win1_ge c dat hq V G hG 6 (by decide)).symm)
      ((BIBase.Entails.of_eq (win1_ge c dat hq V G hG 7 (by decide)).symm))))))

-- the default heartbeat budget does not cover this declaration's elaboration
set_option maxHeartbeats 1000000 in
include hq0 hq1 hq hG in
/-- EXIT, the arrays' part: the converse. Windows 0 and 1 hold the same contents of their common array at the two
    halves, which join to the whole buffer at the full share. -/
theorem arrBufs_of_arrays1 :
    dat.arrays G ⊢ (Pipeline.arrBufs (Ix := Unit) (Name := ℕ) (U := UR sig nD τ) (Lvl := ℕ) spec1 c V : sProp 𝕄) := by
  rw [arrBufs1_eq c V, arrays1_chain c dat G]
  refine .trans Laws.sep_assoc.2 (BIClass.sep_mono ?_ ?_)
  · exact .trans (BIClass.sep_mono (BIBase.Entails.of_eq (win1_0 c dat hq0 V G hG)) (BIBase.Entails.of_eq (win1_1 c dat hq1 V G hG)))
      (pointsTo_share (PosShare.mem_left_op_right fullShare)).2
  · exact BIClass.sep_mono (BIBase.Entails.of_eq (win1_ge c dat hq V G hG 2 (by decide)))
      (BIClass.sep_mono (BIBase.Entails.of_eq (win1_ge c dat hq V G hG 3 (by decide)))
      (BIClass.sep_mono (BIBase.Entails.of_eq (win1_ge c dat hq V G hG 4 (by decide)))
      (BIClass.sep_mono (BIBase.Entails.of_eq (win1_ge c dat hq V G hG 5 (by decide)))
      (BIClass.sep_mono (BIBase.Entails.of_eq (win1_ge c dat hq V G hG 6 (by decide)))
      ((BIBase.Entails.of_eq (win1_ge c dat hq V G hG 7 (by decide))))))))

include hq0 hq1 hq in
/-- ENTRY, region 1: the core's unscoped buffers at `V` are the proof data's arrays at their entry contents — those
    being read off `V` — and the unscoped buffers that are no window's array. -/
theorem entry_split1 (hA : ∀ w, dat.arrAt w 0 = V (Pipeline.arrRef spec1 w)) :
    (unscopedBufs (Ix := Unit) (Name := ℕ) (U := UR sig nD τ) (Lvl := ℕ) c V : sProp 𝕄)
      ⊢ iprop(dat.arrays (dat.arrAt · 0) ∗ Pipeline.unscopedRest spec1 c V) := by
  rw [Pipeline.unscopedBufs_split₀ cfgs 1 winFacts₀1.arr_unscoped c V]
  exact BIClass.sep_mono (arrays_of_arrBufs1 c dat hq0 hq1 hq V _ hA) .rfl

include hq0 hq1 hq hG in
/-- EXIT, region 1: the arrays at contents `G`, read off `V`, and the other unscoped buffers at `V₀` are the
    core's unscoped buffers at `V`, when `V` agrees with `V₀` off the arrays. -/
theorem exit_join1 (V₀ : (b : Ref sig .tc) → Buf (Elt F) ((c : Thread nD τ).loc b))
    (hrest : ∀ b, b ∉ Finset.univ.image (Pipeline.arrRef spec1) → V b = V₀ b) :
    iprop(dat.arrays G ∗ Pipeline.unscopedRest spec1 c V₀)
      ⊢ (unscopedBufs (Ix := Unit) (Name := ℕ) (U := UR sig nD τ) (Lvl := ℕ) c V : sProp 𝕄) := by
  rw [Pipeline.unscopedBufs_split₀ cfgs 1 winFacts₀1.arr_unscoped c V]
  refine BIClass.sep_mono (arrBufs_of_arrays1 c dat hq0 hq1 hq V G hG) (BIBase.Entails.of_eq ?_)
  unfold Pipeline.unscopedRest
  exact bigSep_congr fun b hb => (by rw [hrest b (Finset.mem_sdiff.mp hb).2])

end Shares1

end Cert.Kernel.Hand
-- ==== Proof.K.Shared0.lean ====
/- Region 0 of @main as a segment of the run: a region whose first two input windows read one array. -/
import proofs.«108204_j49847390437921_1_alg».proof.Proof.K.RegionsData
import proofs.«108204_j49847390437921_1_alg».proof.Proof.K.SharedLemmas

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 0 of @main (custom call 0) as a segment of the run

Its first two input windows read one array, so the windows' arrays are not distinct buffers: the arrays are split out
of the core's unscoped buffers, and put back, by this region's own entry and exit lemmas, the common array dealt
between the two windows along the halves of the full share. -/

/-- The shares the proof data hold the input arrays at. -/
theorem qS0_0 : qS0 0 = fullShare.left := by unfold qS0; rfl
theorem qS0_1 : qS0 1 = fullShare.right := by unfold qS0; rfl
theorem qS0_ge (w : Fin cfg0.W) (hw : 2 ≤ w.val) : qS0 w = fullShare := by
  have h0 : w ≠ 0 := fun h => by rw [h] at hw; exact absurd hw (by decide)
  have h1 : w ≠ 1 := fun h => by rw [h] at hw; exact absurd hw (by decide)
  unfold qS0; rw [if_neg h0, if_neg h1]

/-- Region 0's output windows are 7 and 8; no input window's array is one of the two output arrays. -/
theorem outs0_cases : ∀ w : Fin 9, (cfg0.win w).isOut = true → w = 7 ∨ w = 8 := by decide
theorem ins0_ref : ∀ w : Fin 9, (cfg0.win w).isOut = false →
    Pipeline.arrRef spec0 w ∉ ([main_v30_0, main_v30_1] : List (Ref sig .tc)) := by decide

/-- At the region's exit each of its arrays holds what the pipeline leaves: an input array what it held at entry (no
    input is written, and the exit contents differ from the entry contents at the two outputs only), an output array
    its write-backs folded. -/
theorem hF0 (c : Dev nD) (w : Fin 9) : (dat0 qS0 (VE0 m) c).arrAt w cfg0.N = VX0 m c (Pipeline.arrRef spec0 w) := by
  cases ho : (cfg0.win w).isOut
  · exact ((dat0 qS0 (VE0 m) c).arrAt_in w ho _).trans
      ((A_eq0 _ _ c w).trans (V2_of m (outs m) c _ (ins0_ref w ho)).symm)
  · rcases outs0_cases w ho with rfl | rfl
    · exact (VX0_out0 m c).symm
    · exact (VX0_out1 m c).symm

/-- Off the region's arrays the exit contents are the entry contents: they differ at the two outputs only. -/
theorem hrest0 (c : Dev nD) : ∀ b, b ∉ Finset.univ.image (Pipeline.arrRef spec0) → VX0 m c b = VE0 m c b :=
  fun b hb => V2_of m (outs m) c b fun hm => hb <| by
    rcases List.mem_cons.mp hm with rfl | hm
    · exact Finset.mem_image.mpr ⟨7, Finset.mem_univ _, rfl⟩
    · rcases List.mem_cons.mp hm with rfl | hm
      · exact Finset.mem_image.mpr ⟨8, Finset.mem_univ _, rfl⟩
      · exact absurd hm List.not_mem_nil

/-- REGION 0 over the thread state: entered from every unscoped buffer at the entry contents, left at the exit
    contents. The generator register goes into the region's invariant and comes back; nothing is owed; the kernel has
    no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 qS0 (VE0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := entry_split0 c (dat0 qS0 (VE0 m) c) qS0_0 qS0_1 qS0_ge (VE0 m c)
      fun w => A_eq0 qS0 (VE0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 qS0 (VE0 m) c)
    unfold Pipeline.ΦA
    iintro ⟨Hp, -, Hr⟩
    isplitl [Hr]; · iexact Hr
    iexact Hp
  hout c := by
    rw [Pipeline.ownSems0_none]
    refine (hout0 qS0 (VE0 m) c).trans ?_
    unfold Pipeline.ΦA
    iintro ⟨Hr, Hp⟩
    isplitl [Hp]; · iexact Hp
    isplitr; · iempintro
    iexact Hr
  hexit c := by
    have hjoin := exit_join0 c (dat0 qS0 (VE0 m) c) qS0_0 qS0_1 qS0_ge (VX0 m c)
      (fun w => (dat0 qS0 (VE0 m) c).arrAt w cfg0.N) (hF0 m c) (VE0 m c) (hrest0 m c)
    rw [Pipeline.unscopedBufs_held] at hjoin
    iintro ⟨Ha, HO, HY, Hrest⟩
    imodintro
    isplitl [Ha Hrest]
    · iapply hjoin
      isplitl [Ha]
      · iexact Ha
      · iexact Hrest
    isplitl [HY]; · iexact HY
    unfold Pipeline.Dat.owesAt Pipeline.owesWithin
    icases HO with ⟨%W, -, HO⟩; iexists W; iexact HO

end Cert.Kernel.Hand
-- ==== Proof.K.Shared1.lean ====
/- Region 1 as a segment over the thread state. Its windows 0 and 1 read ONE array, each at a half of it: the arrays are
   split out of the unscoped buffers, and put back, by the two-halves lemmas of SharedLemmas.lean. -/
import proofs.«108204_j49847390437921_1_alg».proof.Proof.K.RegionsData
import proofs.«108204_j49847390437921_1_alg».proof.Proof.K.SharedLemmas

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 1 (custom_call 1) over the thread state -/

/-- Windows 0 and 1 hold the two halves of their common array; every other input window holds its array whole. -/
theorem qS1_0 : qS1 0 = fullShare.left := rfl
theorem qS1_1 : qS1 1 = fullShare.right := rfl
theorem qS1_ge (w : Fin cfg1.W) (hw : 2 ≤ w.val) : qS1 w = fullShare := by
  unfold qS1
  rw [if_neg (fun h => by rw [h] at hw; exact absurd hw (by decide)), if_neg (fun h => by rw [h] at hw; exact absurd hw (by decide))]

/-- Region 1's output windows are 6 and 7; no input window's array is one of the two output arrays. -/
theorem outs1_cases : ∀ w : Fin 8, (cfg1.win w).isOut = true → w = 6 ∨ w = 7 := by decide
theorem ins1_ref : ∀ w : Fin 8, (cfg1.win w).isOut = false →
    Pipeline.arrRef spec1 w ∉ ([main_v46_0, main_v46_1] : List (Ref sig .tc)) := by decide
/-- At region 1's exit each of its arrays holds what the pipeline leaves: an input array what the region was entered
    with (no write-back touches it, and the exit valuation differs from the entry one at the two outputs only), an
    output array the unknown the exit valuation puts there. -/
theorem hF1 (c : Dev nD) (w : Fin 8) : (dat1 qS1 (VE1 m) c).arrAt w cfg1.N = VX1 m c (Pipeline.arrRef spec1 w) := by
  cases ho : (cfg1.win w).isOut
  · exact ((dat1 qS1 (VE1 m) c).arrAt_in w ho _).trans
      ((A_eq1 _ _ c w).trans (V4_of m (outs m) c _ (ins1_ref w ho)).symm)
  · rcases outs1_cases w ho with rfl | rfl
    · exact (VX1_out0 m c).symm
    · exact (VX1_out1 m c).symm
/-- and every other buffer what it held at entry. -/
theorem hrest1 (c : Dev nD) : ∀ b, b ∉ Finset.univ.image (Pipeline.arrRef spec1) → VX1 m c b = VE1 m c b :=
  fun b hb => V4_of m (outs m) c b fun hm => hb <| by
    rcases List.mem_cons.mp hm with rfl | hm
    · exact Finset.mem_image.mpr ⟨6, Finset.mem_univ _, rfl⟩
    · rcases List.mem_cons.mp hm with rfl | hm
      · exact Finset.mem_image.mpr ⟨7, Finset.mem_univ _, rfl⟩
      · exact absurd hm List.not_mem_nil

-- the record's fields are stated over `pin pcs a p`, which unifies with the pinned configuration only when unification may
-- unfold plain definitions in a metavariable's type
set_option backward.isDefEq.respectTransparency.types false in
/-- REGION 1: entered from every unscoped buffer at `V3`, left at `V4`. Its arrays split out of the unscoped buffers
    (windows 0 and 1 each taking a half of their common array) and put back at the exit contents; the generator register
    and the scratch into the body's invariant and out; nothing owed; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 qS1 (VE1 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit : (unscopedBufs (Ix := Unit) (Name := ℕ) (U := UR sig nD τ) (Lvl := ℕ) c (VE1 m c) : sProp 𝕄)
        ⊢ iprop((pdats m 1 c).arrays ((pdats m 1 c).arrAt · 0) ∗ Pipeline.unscopedRest spec1 c (VE1 m c)) :=
      entry_split1 c (dat1 qS1 (VE1 m) c) qS1_0 qS1_1 qS1_ge (VE1 m c) fun w => A_eq1 _ _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 qS1 (VE1 m) c)
    unfold Pipeline.ΦA
    iintro ⟨Hp, -, Hr⟩
    isplitl [Hr]; · iexact Hr
    iexact Hp
  hout c := by
    rw [Pipeline.ownSems0_none]
    refine (hout1 qS1 (VE1 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (VE1 m c))
        ⊢ (unscopedBufs (Ix := Unit) (Name := ℕ) (U := UR sig nD τ) (Lvl := ℕ) c (VX1 m c) : sProp 𝕄) :=
      exit_join1 c (dat1 qS1 (VE1 m) c) qS1_0 qS1_1 qS1_ge (VX1 m c) ((dat1 qS1 (VE1 m) c).arrAt · cfg1.N) (hF1 m c) (VE1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Regions.lean ====
/- The run of the program over its six regions: regions 2 to 5 as segments over the thread state "every unscoped buffer at
   the boundary's contents, the generator register at some state, nothing owed" (regions 0 and 1, whose first two windows
   read one array, are in Shared0.lean and Shared1.lean), the launch over @main's eighteen segments, and from it the contents of the
   result's buffer at the end and the frame claim. -/
import Idealize.ShloMosaic.Lib.Pipeline.RegionsLoop
import proofs.«108204_j49847390437921_1_alg».proof.Proof.K.RegionsData
import proofs.«108204_j49847390437921_1_alg».proof.Proof.K.Shared0
import proofs.«108204_j49847390437921_1_alg».proof.Proof.K.Shared1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 2 (custom_call 2) over the thread state -/

/-- Region 2's output windows are 7 and 8; no input window's array is one of the two output arrays. -/
theorem outs2_cases : ∀ w : Fin 9, (cfg2.win w).isOut = true → w = 7 ∨ w = 8 := by decide
theorem ins2_ref : ∀ w : Fin 9, (cfg2.win w).isOut = false →
    Pipeline.arrRef spec2 w ∉ ([main_v79_0, main_v79_1] : List (Ref sig .tc)) := by decide
/-- At region 2's exit each of its arrays holds what the pipeline leaves: an input array what the region was entered
    with (no write-back touches it, and the exit valuation differs from the entry one at the two outputs only), an
    output array the unknown the exit valuation puts there. -/
theorem hF2 (c : Dev nD) (w : Fin 9) : (dat2 (fun _ => fullShare) (VE2 m) c).arrAt w cfg2.N = VX2 m c (Pipeline.arrRef spec2 w) := by
  cases ho : (cfg2.win w).isOut
  · exact ((dat2 (fun _ => fullShare) (VE2 m) c).arrAt_in w ho _).trans
      ((A_eq2 _ _ c w).trans (V8_of m (outs m) c _ (ins2_ref w ho)).symm)
  · rcases outs2_cases w ho with rfl | rfl
    · exact (VX2_out0 m c).symm
    · exact (VX2_out1 m c).symm
/-- and every other buffer what it held at entry. -/
theorem hrest2 (c : Dev nD) : ∀ b, b ∉ Finset.univ.image (Pipeline.arrRef spec2) → VX2 m c b = VE2 m c b :=
  fun b hb => V8_of m (outs m) c b fun hm => hb <| by
    rcases List.mem_cons.mp hm with rfl | hm
    · exact Finset.mem_image.mpr ⟨7, Finset.mem_univ _, rfl⟩
    · rcases List.mem_cons.mp hm with rfl | hm
      · exact Finset.mem_image.mpr ⟨8, Finset.mem_univ _, rfl⟩
      · exact absurd hm List.not_mem_nil

-- a library lemma stated over `pin pcs a p` unifies with the pinned configuration only when unification may unfold plain
-- definitions in a metavariable's type
set_option backward.isDefEq.respectTransparency.types false in
/-- REGION 2: entered from every unscoped buffer at `V7`, left at `V8`. Its arrays split out of the unscoped
    buffers and put back at the exit contents; the generator register and the scratch into the body's invariant and out;
    nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun _ => fullShare) (VE2 m) c).loose
  hwaits := Pipeline.hwaits_of_owed_zero _ _ _ _ L lv 2 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (VE2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VE2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (fun _ => fullShare) (VE2 m) c)
    unfold Pipeline.ΦA
    iintro ⟨Hp, -, Hr⟩
    isplitl [Hr]; · iexact Hr
    iexact Hp
  hout c := by
    rw [Pipeline.ownSems0_none]
    refine (hout2 (fun _ => fullShare) (VE2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VE2 m c) (VX2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # REGION 3 (custom_call 3) over the thread state -/

/-- Region 3's output windows are 6 and 7; no input window's array is one of the two output arrays. -/
theorem outs3_cases : ∀ w : Fin 8, (cfg3.win w).isOut = true → w = 6 ∨ w = 7 := by decide
theorem ins3_ref : ∀ w : Fin 8, (cfg3.win w).isOut = false →
    Pipeline.arrRef spec3 w ∉ ([main_v95_0, main_v95_1] : List (Ref sig .tc)) := by decide
/-- At region 3's exit each of its arrays holds what the pipeline leaves: an input array what the region was entered
    with (no write-back touches it, and the exit valuation differs from the entry one at the two outputs only), an
    output array the unknown the exit valuation puts there. -/
theorem hF3 (c : Dev nD) (w : Fin 8) : (dat3 (fun _ => fullShare) (VE3 m) c).arrAt w cfg3.N = VX3 m c (Pipeline.arrRef spec3 w) := by
  cases ho : (cfg3.win w).isOut
  · exact ((dat3 (fun _ => fullShare) (VE3 m) c).arrAt_in w ho _).trans
      ((A_eq3 _ _ c w).trans (V10_of m (outs m) c _ (ins3_ref w ho)).symm)
  · rcases outs3_cases w ho with rfl | rfl
    · exact (VX3_out0 m c).symm
    · exact (VX3_out1 m c).symm
/-- and every other buffer what it held at entry. -/
theorem hrest3 (c : Dev nD) : ∀ b, b ∉ Finset.univ.image (Pipeline.arrRef spec3) → VX3 m c b = VE3 m c b :=
  fun b hb => V10_of m (outs m) c b fun hm => hb <| by
    rcases List.mem_cons.mp hm with rfl | hm
    · exact Finset.mem_image.mpr ⟨6, Finset.mem_univ _, rfl⟩
    · rcases List.mem_cons.mp hm with rfl | hm
      · exact Finset.mem_image.mpr ⟨7, Finset.mem_univ _, rfl⟩
      · exact absurd hm List.not_mem_nil

-- a library lemma stated over `pin pcs a p` unifies with the pinned configuration only when unification may unfold plain
-- definitions in a metavariable's type
set_option backward.isDefEq.respectTransparency.types false in
/-- REGION 3: entered from every unscoped buffer at `V9`, left at `V10`. Its arrays split out of the unscoped
    buffers and put back at the exit contents; the generator register and the scratch into the body's invariant and out;
    nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun _ => fullShare) (VE3 m) c).loose
  hwaits := Pipeline.hwaits_of_owed_zero _ _ _ _ L lv 3 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec3 c (VE3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (VE3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (fun _ => fullShare) (VE3 m) c)
    unfold Pipeline.ΦA
    iintro ⟨Hp, -, Hr⟩
    isplitl [Hr]; · iexact Hr
    iexact Hp
  hout c := by
    rw [Pipeline.ownSems0_none]
    refine (hout3 (fun _ => fullShare) (VE3 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (VE3 m c) (VX3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # REGION 4 (custom_call 4) over the thread state -/

/-- Region 4's output windows are 7 and 8; no input window's array is one of the two output arrays. -/
theorem outs4_cases : ∀ w : Fin 9, (cfg4.win w).isOut = true → w = 7 ∨ w = 8 := by decide
theorem ins4_ref : ∀ w : Fin 9, (cfg4.win w).isOut = false →
    Pipeline.arrRef spec4 w ∉ ([main_v128_0, main_v128_1] : List (Ref sig .tc)) := by decide
/-- At region 4's exit each of its arrays holds what the pipeline leaves: an input array what the region was entered
    with (no write-back touches it, and the exit valuation differs from the entry one at the two outputs only), an
    output array the unknown the exit valuation puts there. -/
theorem hF4 (c : Dev nD) (w : Fin 9) : (dat4 (fun _ => fullShare) (VE4 m) c).arrAt w cfg4.N = VX4 m c (Pipeline.arrRef spec4 w) := by
  cases ho : (cfg4.win w).isOut
  · exact ((dat4 (fun _ => fullShare) (VE4 m) c).arrAt_in w ho _).trans
      ((A_eq4 _ _ c w).trans (V14_of m (outs m) c _ (ins4_ref w ho)).symm)
  · rcases outs4_cases w ho with rfl | rfl
    · exact (VX4_out0 m c).symm
    · exact (VX4_out1 m c).symm
/-- and every other buffer what it held at entry. -/
theorem hrest4 (c : Dev nD) : ∀ b, b ∉ Finset.univ.image (Pipeline.arrRef spec4) → VX4 m c b = VE4 m c b :=
  fun b hb => V14_of m (outs m) c b fun hm => hb <| by
    rcases List.mem_cons.mp hm with rfl | hm
    · exact Finset.mem_image.mpr ⟨7, Finset.mem_univ _, rfl⟩
    · rcases List.mem_cons.mp hm with rfl | hm
      · exact Finset.mem_image.mpr ⟨8, Finset.mem_univ _, rfl⟩
      · exact absurd hm List.not_mem_nil

-- a library lemma stated over `pin pcs a p` unifies with the pinned configuration only when unification may unfold plain
-- definitions in a metavariable's type
set_option backward.isDefEq.respectTransparency.types false in
/-- REGION 4: entered from every unscoped buffer at `V13`, left at `V14`. Its arrays split out of the unscoped
    buffers and put back at the exit contents; the generator register and the scratch into the body's invariant and out;
    nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (fun _ => fullShare) (VE4 m) c).loose
  hwaits := Pipeline.hwaits_of_owed_zero _ _ _ _ L lv 4 fun _ _ => rfl
  pre c := iprop(StableHlo.held (c : Thread nD τ) (Pipeline.ucRefs τ sig) (V13 m (outs m) c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := UR sig nD τ) (Lvl := ℕ) spec4 c (VE4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (VE4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (fun _ => fullShare) (VE4 m) c)
    unfold Pipeline.ΦA
    iintro ⟨Hp, -, Hr⟩
    isplitl [Hr]; · iexact Hr
    iexact Hp
  hout c := by
    rw [Pipeline.ownSems0_none]
    refine (hout4 (fun _ => fullShare) (VE4 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (VE4 m c) (VX4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # REGION 5 (custom_call 5) over the thread state -/

/-- Region 5's output windows are 6 and 7; no input window's array is one of the two output arrays. -/
theorem outs5_cases : ∀ w : Fin 8, (cfg5.win w).isOut = true → w = 6 ∨ w = 7 := by decide
theorem ins5_ref : ∀ w : Fin 8, (cfg5.win w).isOut = false →
    Pipeline.arrRef spec5 w ∉ ([main_v144_0, main_v144_1] : List (Ref sig .tc)) := by decide
/-- At region 5's exit each of its arrays holds what the pipeline leaves: an input array what the region was entered
    with (no write-back touches it, and the exit valuation differs from the entry one at the two outputs only), an
    output array the unknown the exit valuation puts there. -/
theorem hF5 (c : Dev nD) (w : Fin 8) : (dat5 (fun _ => fullShare) (VE5 m) c).arrAt w cfg5.N = VX5 m c (Pipeline.arrRef spec5 w) := by
  cases ho : (cfg5.win w).isOut
  · exact ((dat5 (fun _ => fullShare) (VE5 m) c).arrAt_in w ho _).trans
      ((A_eq5 _ _ c w).trans (V16_of m (outs m) c _ (ins5_ref w ho)).symm)
  · rcases outs5_cases w ho with rfl | rfl
    · exact (VX5_out0 m c).symm
    · exact (VX5_out1 m c).symm
/-- and every other buffer what it held at entry. -/
theorem hrest5 (c : Dev nD) : ∀ b, b ∉ Finset.univ.image (Pipeline.arrRef spec5) → VX5 m c b = VE5 m c b :=
  fun b hb => V16_of m (outs m) c b fun hm => hb <| by
    rcases List.mem_cons.mp hm with rfl | hm
    · exact Finset.mem_image.mpr ⟨6, Finset.mem_univ _, rfl⟩
    · rcases List.mem_cons.mp hm with rfl | hm
      · exact Finset.mem_image.mpr ⟨7, Finset.mem_univ _, rfl⟩
      · exact absurd hm List.not_mem_nil

-- a library lemma stated over `pin pcs a p` unifies with the pinned configuration only when unification may unfold plain
-- definitions in a metavariable's type
set_option backward.isDefEq.respectTransparency.types false in
/-- REGION 5: entered from every unscoped buffer at `V15`, left at `V16`. Its arrays split out of the unscoped
    buffers and put back at the exit contents; the generator register and the scratch into the body's invariant and out;
    nothing owed; no semaphore of the kernel's own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (fun _ => fullShare) (VE5 m) c).loose
  hwaits := Pipeline.hwaits_of_owed_zero _ _ _ _ L lv 5 fun _ _ => rfl
  pre c := iprop(StableHlo.held (c : Thread nD τ) (Pipeline.ucRefs τ sig) (V15 m (outs m) c) ∗ R c)
  post c := iprop(StableHlo.held (c : Thread nD τ) (Pipeline.ucRefs τ sig) (V16 m (outs m) c) ∗ R c)
  X c := iprop(∃ r, prngReg c r)
  Y c := iprop(∃ r, prngReg c r)
  Z c := Pipeline.unscopedRest (Ix := Unit) (Name := ℕ) (U := UR sig nD τ) (Lvl := ℕ) spec5 c (VE5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (VE5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (fun _ => fullShare) (VE5 m) c)
    unfold Pipeline.ΦA
    iintro ⟨Hp, -, Hr⟩
    isplitl [Hr]; · iexact Hr
    iexact Hp
  hout c := by
    rw [Pipeline.ownSems0_none]
    refine (hout5 (fun _ => fullShare) (VE5 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (VE5 m c) (VX5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # THE RUN: the launch over @main's eighteen segments -/

/-- The result's buffer `main_v128_0` ends at what region 4 leaves there: no later item writes it. -/
theorem V18_main_v128_0 (c : Dev nD) : V18 m (outs m) c main_v128_0 = X4_0 m c :=
  (V18_of m (outs m) c main_v128_0 (by decide)).trans <| (V17_of m (outs m) c main_v128_0 (by decide)).trans <|
    (V16_of m (outs m) c main_v128_0 (by decide)).trans <| (V15_of m (outs m) c main_v128_0 (by decide)).trans <|
    (V14_at_0 m (outs m) c).trans (outs_14_0 m c)

/-- The rest state ends owing nothing. -/
theorem R_owes (c : Dev nD) : R (F := F) c ⊢ (iprop(∃ W, owes (c : Thread nD τ) (0 : CellTallies nD τ sig Unit) W) : sProp 𝕄) := by
  iintro ⟨-, H⟩; iexact H

-- the launch theorem's implicit arguments are found by unifying its conclusion with this one, which takes unfolding
-- plain definitions in a metavariable's type
set_option backward.isDefEq.respectTransparency.types false in
/-- THE RUN OF @main: from any memory `m` with zero counters, every weakly fair execution of @main terminates, and every
    final memory holds the result's buffer `main_v128_0` at what region 4's write-backs fold to (`X4_0`) and each argument
    as launched. -/
theorem run_main (ρ : Dev nD → PrngReg) :
    θ_run defs (onTc (τ := τ) (main (F := F))) ⟨m, fun _ => 0, ρ⟩ (fun r => ∀ c : Dev nD,
      r.2.mem ((c.tc : Thread nD τ).loc main_v128_0) = X4_0 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm (pdats m) () cellOf_inj emb₁ defs₀ 𝒱₀ L lv m ρ main
    (segs m (outs m) 𝒱₀ L lv (fun _ => R) () (pdats m) (reg0 m) (reg1 m) (reg2 m) (reg3 m) (reg4 m) (reg5 m))
    (fun c Q => by
      rewrite [main_chain c, Pipeline.Seg.run_eq_chain,
        show (segs m (outs m) 𝒱₀ L lv (fun _ => R) () (pdats m) (reg0 m) (reg1 m) (reg2 m) (reg3 m) (reg4 m) (reg5 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          Prog.lift (.customCall (Pipeline.entry 5) ()),
          StableHlo.seq hostOps6,
          StableHlo.seq hostOps6_1 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V18 m (outs m) c))
    (hch := fun c => ⟨.rfl, .rfl, .rfl, .rfl, .rfl, .rfl, .rfl, .rfl, .rfl, .rfl, .rfl, .rfl, .rfl, .rfl, .rfl, .rfl, .rfl, .rfl, sep_mono .rfl (R_owes c)⟩)
    (hinit := ?_) (QY := fun c s => s.mem ((c.tc : Thread nD τ).loc main_v128_0) = X4_0 m c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h => h)
  · -- the launch: every core's unscoped buffers are `held` at `V0`, its generator register and its `owes` make the rest
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result's buffer and each argument's read off the last valuation
    unfold StableHlo.held
    iintro ⟨Hh, HSI⟩
    ihave Hr := (pointsTo_read_all (Pipeline.ucRefs τ sig) (fun b => ((c : Thread nD τ).1, b)) (V18 m (outs m) c) s') $$ [Hh HSI]
    · isplitl [Hh] <;> iassumption
    icases Hr with ⟨%h, HSI⟩
    imodintro
    isplitr
    · ipureintro
      exact ⟨(h (Proc.devRef .tc main_v128_0) (Finset.mem_filter.mpr ⟨StableHlo.devRef_mem_tcRefs main_v128_0, by decide⟩)).trans (V18_main_v128_0 m c),
        (h (Proc.devRef .tc main_arg0) (Finset.mem_filter.mpr ⟨StableHlo.devRef_mem_tcRefs main_arg0, by decide⟩)).trans (V18_main_arg0 m (outs m) c),
        (h (Proc.devRef .tc main_arg1) (Finset.mem_filter.mpr ⟨StableHlo.devRef_mem_tcRefs main_arg1, by decide⟩)).trans (V18_main_arg1 m (outs m) c),
        (h (Proc.devRef .tc main_arg2) (Finset.mem_filter.mpr ⟨StableHlo.devRef_mem_tcRefs main_arg2, by decide⟩)).trans (V18_main_arg2 m (outs m) c),
        (h (Proc.devRef .tc main_arg3) (Finset.mem_filter.mpr ⟨StableHlo.devRef_mem_tcRefs main_arg3, by decide⟩)).trans (V18_main_arg3 m (outs m) c),
        (h (Proc.devRef .tc main_arg4) (Finset.mem_filter.mpr ⟨StableHlo.devRef_mem_tcRefs main_arg4, by decide⟩)).trans (V18_main_arg4 m (outs m) c),
        (h (Proc.devRef .tc main_arg5) (Finset.mem_filter.mpr ⟨StableHlo.devRef_mem_tcRefs main_arg5, by decide⟩)).trans (V18_main_arg5 m (outs m) c),
        (h (Proc.devRef .tc main_arg6) (Finset.mem_filter.mpr ⟨StableHlo.devRef_mem_tcRefs main_arg6, by decide⟩)).trans (V18_main_arg6 m (outs m) c),
        (h (Proc.devRef .tc main_arg7) (Finset.mem_filter.mpr ⟨StableHlo.devRef_mem_tcRefs main_arg7, by decide⟩)).trans (V18_main_arg7 m (outs m) c),
        (h (Proc.devRef .tc main_arg8) (Finset.mem_filter.mpr ⟨StableHlo.devRef_mem_tcRefs main_arg8, by decide⟩)).trans (V18_main_arg8 m (outs m) c),
        (h (Proc.devRef .tc main_arg9) (Finset.mem_filter.mpr ⟨StableHlo.devRef_mem_tcRefs main_arg9, by decide⟩)).trans (V18_main_arg9 m (outs m) c),
        (h (Proc.devRef .tc main_arg10) (Finset.mem_filter.mpr ⟨StableHlo.devRef_mem_tcRefs main_arg10, by decide⟩)).trans (V18_main_arg10 m (outs m) c),
        (h (Proc.devRef .tc main_arg11) (Finset.mem_filter.mpr ⟨StableHlo.devRef_mem_tcRefs main_arg11, by decide⟩)).trans (V18_main_arg11 m (outs m) c)⟩
    · iexact HSI

/-- THE FRAME: every weakly fair execution of @main from `m` with zero counters terminates with each argument array as
    launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_main m ρ)

end Cert.Kernel.Hand

end
-- ==== Proof.KI.E0.Runs.lean ====
/- The edge kernel's body at the pipeline `cfg0`, first module: what the three
   whole-body runs share. The windows' blocks read off the arrays as the region finds them (a parameter `V`), the
   inputs' staging buffers at their blocks at every point, the two branch conditions of the body in closed form over
   the 80 grid points, where the two output windows are live or idle, the staging and scratch memrefs the body is
   called with, and the region invariant with the kernel's own scratch split off. -/
import proofs.«108204_j49847390437921_1_alg».proof.Proof.Gen.KernelIdeal.Launch
import proofs.«108204_j49847390437921_1_alg».proof.Proof.Gen.KernelIdeal.Skeleton
import proofs.«108204_j49847390437921_1_alg».proof.Proof.Gen.KernelIdeal.Points
import Idealize.ShloMosaic.Lib.Pipeline.FrameBody
import Idealize.ShloMosaic.Lib.Ring
import Idealize.ShloMosaic.Lib.Tactic

-- membership in a rectangle of production extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the TensorCore's buffer contents when the region is entered: everything below is stated at any such contents
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched
    input's block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an unfetched
    input's block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an unfetched
    input's block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (an unfetched
    input's block index has not moved), for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (an unfetched
    input's block index has not moved), for any proof data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (an unfetched
    input's block index has not moved), for any proof data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (an unfetched
    input's block index has not moved), for any proof data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The condition of the body's first `scf.if` (the scratch is reset): the grid coordinate is 0, as the body computes it. -/
abbrev cond0_0 (i : grid0.Coords) : Prop := (Scalar.cmpi .ne (Scalar.extui (Scalar.cmpi .eq (BitVec.ofNat 32 (i 0).val) 0#32)) 0#32) = 1#1
/-- It holds at the first of the 80 points only. -/
theorem hcond0_0 : ∀ t : Fin cfg0.N, cond0_0 (grid0.coords t) ↔ t.val % 80 = 0 :=
  (by decide +kernel : ∀ t : Fin grid0.N, cond0_0 (grid0.coords t) ↔ t.val % 80 = 0)

/-- The condition of the body's second `scf.if` (the scratch is stored to the second output): the grid coordinate is 79. -/
abbrev cond0_1 (i : grid0.Coords) : Prop := k0_cond2 i = 1#1
/-- It holds at the last of the 80 points only. -/
theorem hcond0_1 : ∀ t : Fin cfg0.N, cond0_1 (grid0.coords t) ↔ t.val % 80 = 79 :=
  (by decide +kernel : ∀ t : Fin grid0.N, cond0_1 (grid0.coords t) ↔ t.val % 80 = 79)

/-! ## Where the windows are idle -/

/-- Window 0 is never idle. -/
theorem liveAt0_0 : ∀ t : Fin cfg0.N, cfg0.idle 0 (grid0.coords t) = false := by decide +kernel
/-- Window 1 is never idle. -/
theorem liveAt0_1 : ∀ t : Fin cfg0.N, cfg0.idle 1 (grid0.coords t) = false := by decide +kernel
/-- Window 2 is never idle. -/
theorem liveAt0_2 : ∀ t : Fin cfg0.N, cfg0.idle 2 (grid0.coords t) = false := by decide +kernel
/-- Window 3 is never idle. -/
theorem liveAt0_3 : ∀ t : Fin cfg0.N, cfg0.idle 3 (grid0.coords t) = false := by decide +kernel
/-- Window 4 is never idle. -/
theorem liveAt0_4 : ∀ t : Fin cfg0.N, cfg0.idle 4 (grid0.coords t) = false := by decide +kernel
/-- Window 5 is never idle. -/
theorem liveAt0_5 : ∀ t : Fin cfg0.N, cfg0.idle 5 (grid0.coords t) = false := by decide +kernel
/-- Window 6 is never idle. -/
theorem liveAt0_6 : ∀ t : Fin cfg0.N, cfg0.idle 6 (grid0.coords t) = false := by decide +kernel
/-- Window 7 is never idle. -/
theorem liveAt0_7 : ∀ t : Fin cfg0.N, cfg0.idle 7 (grid0.coords t) = false := by decide +kernel
/-- At the first point (case A) output 8 is idle: the case stores nothing into it. -/
theorem idleAt0_8_A : ∀ t : Fin cfg0.N, cond0_0 (grid0.coords t) → ¬cond0_1 (grid0.coords t) → cfg0.idle 8 (grid0.coords t) = true := by decide +kernel
/-- At the first point the pipeline does not write output 8's block back. -/
theorem noFlush0_8_A : ∀ t : Fin cfg0.N, cond0_0 (grid0.coords t) → ¬cond0_1 (grid0.coords t) → (cfg0.win 8).flush t = false := by decide +kernel
/-- At the middle points (case B) output 8 is idle: the case stores nothing into it. -/
theorem idleAt0_8_B : ∀ t : Fin cfg0.N, ¬cond0_0 (grid0.coords t) → ¬cond0_1 (grid0.coords t) → cfg0.idle 8 (grid0.coords t) = true := by decide +kernel
/-- At the middle points the pipeline does not write output 8's block back. -/
theorem noFlush0_8_B : ∀ t : Fin cfg0.N, ¬cond0_0 (grid0.coords t) → ¬cond0_1 (grid0.coords t) → (cfg0.win 8).flush t = false := by decide +kernel
/-- At the last point (case C) output 8 is live: the case stores into it. -/
theorem liveAt0_8_C : ∀ t : Fin cfg0.N, ¬cond0_0 (grid0.coords t) → cond0_1 (grid0.coords t) → cfg0.idle 8 (grid0.coords t) = false := by decide +kernel

/-! ## The memrefs the body is called with -/

/-- One staging buffer of each output window, through which its contents are stated (any choice reads the same). -/
abbrev VO0_7 : View sig .tc .vmem S10000x64 .f32 := (Memref.whole cc0_stg7_0 : Memref sig .tc .vmem S10000x64 .f32).view
abbrev VO0_8 : View sig .tc .vmem S1x64 .f32 := (Memref.whole cc0_stg8_0 : Memref sig .tc .vmem S1x64 .f32).view
/-- Each window's current staging memref at point `t`, spelled as the pipeline passes it, and its wholeness. -/
abbrev ms0_0 (t : Fin cfg0.N) : Memref sig .tc .vmem S10000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S10000x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5x64x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S10000x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
/-- The scratch operand: a whole scoped buffer of the kernel's own, passed beside the windows. -/
abbrev scM0_0 : Memref sig .tc .vmem S1x64 .f32 := Memref.whole cc0_scratch0
/-- The scratch the kernel carries between points, as a view: what it holds is stated through it. -/
abbrev VS0_0 : View sig .tc .vmem S1x64 .f32 := scM0_0.view

/-- The region invariant with the kernel's scratch as a memref owned at some contents, every other scoped buffer
    carried unopened, and the generator register at some state: what the body obligation hands the run and takes back. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.KernelIdeal.Hand

end
-- ==== Proof.KI.E0.RunA.lean ====
/- The edge kernel's whole body at the pipeline `cfg0`, run once in case A: the first grid point (the first `scf.if` taken: the scratch is reset; the second not taken). The run's witness is the list
   of pieces each stored buffer ends with; one module per case, each importing the one before. -/
import proofs.«108204_j49847390437921_1_alg».proof.Proof.KI.E0.Runs

-- membership in a rectangle of production extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each stored buffer, as pieces (last first), in case A, with the proof that on whole
    staging memrefs — the seven inputs' at their contents `x0 … x6`, output 7's at anything, output 8's (no store: the window is idle and not written back here) at contents `xi8` handed back untouched, the scratch at anything (it is reset before it is read) —
    the body runs to the continuation holding the inputs' as they were and each stored buffer with its pieces written
    (the body loads output 7's buffer before storing it: the loaded values are not used). The printed function is its
    skeleton, which the symbolic executor runs through the part call; each `scf.if` is decided by the case's hypotheses. -/
noncomputable def kernelRun0_A (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) :
    Σ' (L7 : List (View.Piece (Elt F) S10000x64 .f32)) (L8 : List (View.Piece (Elt F) S1x64 .f32)), { LS0 : List (View.Piece (Elt F) S1x64 .f32) //
      ∀ (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xi8 ∗ (∃ f, arg10.view.loc (c : Thread nD τ) ↦[arg10.view.set]{fullShare} arg10.view.writes (Elt F) f LS0)) -∗ K ⟨⟩))
          ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10) K } := by
  refine ⟨?_, [], ?_, fun xi8 E K => ?run⟩
  case run =>
    simp only [cc0__edge_kernel_eq_skeleton]; unfold cc0__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    iexists _; iexact HS0

end Cert.KernelIdeal.Hand

end
-- ==== Proof.KI.E0.RunB.lean ====
/- The edge kernel's whole body at the pipeline `cfg0`, run once in case B: a middle grid point (neither `scf.if` taken). The run's witness is the list
   of pieces each stored buffer ends with; one module per case, each importing the one before. -/
import proofs.«108204_j49847390437921_1_alg».proof.Proof.KI.E0.RunA

-- membership in a rectangle of production extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each stored buffer, as pieces (last first), in case B, with the proof that on whole
    staging memrefs — the seven inputs' at their contents `x0 … x6`, output 7's at anything, output 8's (no store: the window is idle and not written back here) at contents `xi8` handed back untouched, the scratch at the contents `xs0` the point before left —
    the body runs to the continuation holding the inputs' as they were and each stored buffer with its pieces written
    (the body loads output 7's buffer before storing it: the loaded values are not used). The printed function is its
    skeleton, which the symbolic executor runs through the part call; each `scf.if` is decided by the case's hypotheses. -/
noncomputable def kernelRun0_B (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    Σ' (L7 : List (View.Piece (Elt F) S10000x64 .f32)) (L8 : List (View.Piece (Elt F) S1x64 .f32)), { LS0 : List (View.Piece (Elt F) S1x64 .f32) //
      ∀ (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xi8 ∗ (∃ f, arg10.view.loc (c : Thread nD τ) ↦[arg10.view.set]{fullShare} arg10.view.writes (Elt F) f LS0)) -∗ K ⟨⟩))
          ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10) K } := by
  refine ⟨?_, [], ?_, fun xi8 E K => ?run⟩
  case run =>
    simp only [cc0__edge_kernel_eq_skeleton]; unfold cc0__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    iexists _; iexact HS0

end Cert.KernelIdeal.Hand

end
-- ==== Proof.KI.E0.RunC.lean ====
/- The edge kernel's whole body at the pipeline `cfg0`, run once in case C: the last grid point (the first `scf.if` not taken; the second taken: the scratch is stored to output 8). The run's witness is the list
   of pieces each stored buffer ends with; one module per case, each importing the one before. -/
import proofs.«108204_j49847390437921_1_alg».proof.Proof.KI.E0.RunB

-- membership in a rectangle of production extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each stored buffer, as pieces (last first), in case C, with the proof that on whole
    staging memrefs — the seven inputs' at their contents `x0 … x6`, both outputs' at anything, the scratch at the contents `xs0` the point before left —
    the body runs to the continuation holding the inputs' as they were and each stored buffer with its pieces written
    (the body loads output 7's buffer before storing it, and output 8's likewise: the loaded values are not used). The printed function is its
    skeleton, which the symbolic executor runs through the part call; each `scf.if` is decided by the case's hypotheses. -/
noncomputable def kernelRun0_C (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    Σ' (L7 : List (View.Piece (Elt F) S10000x64 .f32)) (L8 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0)) -∗ K ⟨⟩))
          ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__edge_kernel_eq_skeleton]; unfold cc0__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact HS0

end Cert.KernelIdeal.Hand

end
-- ==== Proof.KI.E0.Body.lean ====
/- The edge kernel's body at the pipeline `cfg0`, last module: what the two output
   windows' staging buffers and the carried scratch hold after each of the 80 points (per case, then point by point),
   the pipeline's proof data at any entry contents `V` and any input shares `q`, the body obligation at every point,
   and the region invariant's two ends. -/
import proofs.«108204_j49847390437921_1_alg».proof.Proof.KI.E0.RunC

-- membership in a rectangle of production extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the stored buffers -/

/-- Case A's pieces for output 7 tile its 10000×64 block (one whole store), so they cover it. -/
theorem cover0_A_7 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (y : S10000x64.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4 x5 x6).1 S10000x64.size (by sl_kernel_rfl) y

/-- What case A leaves in output 7's staging buffer: its pieces read back over junk. -/
def out0_A_7 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) : Vec F S10000x64 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 hc1 x0 x1 x2 x3 x4 x5 x6).1)

/-- Case A stores nothing into output 8 (the window is idle at its points and not written back there): no pieces,
    a placeholder nothing consults, since at these points the window is neither written back nor read at the next point. -/
def out0_A_8 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) : Vec F S1x64 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 hc0 hc1 x0 x1 x2 x3 x4 x5 x6).2.1)

/-- Case A's pieces for the scratch the kernel carries between points cover it. -/
theorem scover0_A_0 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (y : S1x64.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4 x5 x6).2.2.1 S1x64.size (by sl_kernel_rfl) y

/-- What case A leaves in the scratch: its pieces read back over junk. -/
def sout0_A_0 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) : Vec F S1x64 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4 x5 x6).2.2.1)

/-- Case B's pieces for output 7 tile its 10000×64 block (one whole store), so they cover it. -/
theorem cover0_B_7 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S10000x64.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 x5 x6 xs0).1 S10000x64.size (by sl_kernel_rfl) y

/-- What case B leaves in output 7's staging buffer: its pieces read back over junk. -/
def out0_B_7 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S10000x64 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 hc1 x0 x1 x2 x3 x4 x5 x6 xs0).1)

/-- Case B stores nothing into output 8 (the window is idle at its points and not written back there): no pieces,
    a placeholder nothing consults, since at these points the window is neither written back nor read at the next point. -/
def out0_B_8 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 hc0 hc1 x0 x1 x2 x3 x4 x5 x6 xs0).2.1)

/-- Case B's pieces for the scratch the kernel carries between points cover it. -/
theorem scover0_B_0 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S1x64.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 x5 x6 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 x5 x6 xs0).2.2.1 S1x64.size (by sl_kernel_rfl) y

/-- What case B leaves in the scratch: its pieces read back over junk. -/
def sout0_B_0 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 x5 x6 xs0).2.2.1)

/-- Case C's pieces for output 7 tile its 10000×64 block (one whole store), so they cover it. -/
theorem cover0_C_7 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S10000x64.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 x5 x6 xs0).1 S10000x64.size (by sl_kernel_rfl) y

/-- What case C leaves in output 7's staging buffer: its pieces read back over junk. -/
def out0_C_7 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S10000x64 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 x5 x6 xs0).1)

/-- Case C's pieces for output 8 tile its 1×64 block (one whole store), so they cover it. -/
theorem cover0_C_8 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 x5 x6 xs0).2.1 S1x64.size (by sl_kernel_rfl) y

/-- What case C leaves in output 8's staging buffer: its pieces read back over junk. -/
def out0_C_8 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 hc0 hc1 x0 x1 x2 x3 x4 x5 x6 xs0).2.1)

/-- Case C's pieces for the scratch the kernel carries between points cover it. -/
theorem scover0_C_0 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S1x64.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 x5 x6 xs0).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 x5 x6 xs0).2.2.1 S1x64.size (by sl_kernel_rfl) y

/-- What case C leaves in the scratch: its pieces read back over junk. -/
def sout0_C_0 (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 x5 x6 xs0).2.2.1)

section Region0

variable (q : Fin cfg0.W → PosShare TreeShare)
variable (V : (c : Dev nD) → (b : Ref sig .tc) → Buf (Elt F) ((c : Thread nD τ).loc b))

/-! ## What the outputs hold after each point -/

/-- THE ACCUMULATION. What output 7's and output 8's staging buffers and the carried scratch hold after the body at
    position `n` (a triple, in that order): the case the closed forms select at `n`, run at the point's memrefs and input
    blocks, the scratch read at what position `n - 1` left in it. An assignment of the conditions no point meets is no case. -/
def outsAt0 (c : Dev nD) : (n : ℕ) → n < cfg0.N → Vec F S10000x64 .f32 × Vec F S1x64 .f32 × Vec F S1x64 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 80 = 0 then
      if h1 : (n + 1) % 80 = 79 then
        False.elim (by omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : (n + 1) % 80 = 79 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2)

/-- `outsAt0` at a point of case A: that case's contents. -/
theorem outsAt0_A (c : Dev nD) (t : Fin cfg0.N) (h0 : t.val % 80 = 0) (h1 : ¬t.val % 80 = 79) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 80 = 0) (h1 : ¬t.val % 80 = 79) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 80 = 0) (h1 : t.val % 80 = 79) :
    outsAt0 V c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer of the region at
    anything, the generator register at some state); afterwards the same with the carried scratch at what the point
    before left in it (`outsAt0`'s third component). -/
def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(iprop(owns (c : Thread nD τ) scM0_0 fullShare (outsAt0 V c n hn).2.2) ∗ Pipeline.scopedRestBut (Ix := Unit) (Name := ℕ) (U := UR sig nD τ) (Lvl := ℕ) (Val := Elt F) spec0 c [cc0_scratch0]) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).2.2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the outputs' at `outsAt0`'s first two components; the invariant `PhiS0`;
    the inputs' shares `q`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
  Φ t := PhiS0 V c t.val (Nat.le_of_lt_succ t.isLt)
  q := q
  owed _ := 0

/-- The proof data's arrays are the region-entry contents (the definition projected, so that `V` is never unfolded). -/
theorem A_eq0 (c : Dev nD) (w : Fin cfg0.W) : (dat0 q V c).A w = V c (Pipeline.arrRef spec0 w) := by
  dsimp only [dat0]

/-- The invariant at a point's start (the proof data at `t.castSucc`), restated at `t.val`. -/
theorem PhiS0_castSucc (c : Dev nD) (t : Fin cfg0.N) :
    (dat0 q V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 q V c).after 0 t = iblk0 V c 0 t := by dsimp only [dat0]
theorem after0_1 (c : Dev nD) (t : Fin cfg0.N) : (dat0 q V c).after 1 t = iblk0 V c 1 t := by dsimp only [dat0]
theorem after0_2 (c : Dev nD) (t : Fin cfg0.N) : (dat0 q V c).after 2 t = iblk0 V c 2 t := by dsimp only [dat0]
theorem after0_3 (c : Dev nD) (t : Fin cfg0.N) : (dat0 q V c).after 3 t = iblk0 V c 3 t := by dsimp only [dat0]
theorem after0_4 (c : Dev nD) (t : Fin cfg0.N) : (dat0 q V c).after 4 t = iblk0 V c 4 t := by dsimp only [dat0]
theorem after0_5 (c : Dev nD) (t : Fin cfg0.N) : (dat0 q V c).after 5 t = iblk0 V c 5 t := by dsimp only [dat0]
theorem after0_6 (c : Dev nD) (t : Fin cfg0.N) : (dat0 q V c).after 6 t = iblk0 V c 6 t := by dsimp only [dat0]
theorem after0_7 (c : Dev nD) (t : Fin cfg0.N) : (dat0 q V c).after 7 t = (outsAt0 V c t.val t.isLt).1 := by dsimp only [dat0]
theorem after0_8 (c : Dev nD) (t : Fin cfg0.N) : (dat0 q V c).after 8 t = (outsAt0 V c t.val t.isLt).2.1 := by dsimp only [dat0]

/-- Each input's current staging buffer holds its block at every point, fetched there or not. -/
theorem before0_0 (c : Dev nD) (t : Fin cfg0.N) (d) : (dat0 q V c).before 0 t d = iblk0 V c 0 t :=
  before0_0_of V (dat0 q V c) (A_eq0 q V c 0) (after0_0 q V c) t d
theorem before0_1 (c : Dev nD) (t : Fin cfg0.N) (d) : (dat0 q V c).before 1 t d = iblk0 V c 1 t :=
  before0_1_of V (dat0 q V c) (A_eq0 q V c 1) (after0_1 q V c) t d
theorem before0_2 (c : Dev nD) (t : Fin cfg0.N) (d) : (dat0 q V c).before 2 t d = iblk0 V c 2 t :=
  before0_2_of V (dat0 q V c) (A_eq0 q V c 2) (after0_2 q V c) t d
theorem before0_3 (c : Dev nD) (t : Fin cfg0.N) (d) : (dat0 q V c).before 3 t d = iblk0 V c 3 t :=
  before0_3_of V (dat0 q V c) (A_eq0 q V c 3) (after0_3 q V c) t d
theorem before0_4 (c : Dev nD) (t : Fin cfg0.N) (d) : (dat0 q V c).before 4 t d = iblk0 V c 4 t :=
  before0_4_of V (dat0 q V c) (A_eq0 q V c 4) (after0_4 q V c) t d
theorem before0_5 (c : Dev nD) (t : Fin cfg0.N) (d) : (dat0 q V c).before 5 t d = iblk0 V c 5 t :=
  before0_5_of V (dat0 q V c) (A_eq0 q V c 5) (after0_5 q V c) t d
theorem before0_6 (c : Dev nD) (t : Fin cfg0.N) (d) : (dat0 q V c).before 6 t d = iblk0 V c 6 t :=
  before0_6_of V (dat0 q V c) (A_eq0 q V c 6) (after0_6 q V c) t d

/-! ## The body obligation, at a generic point -/

/-- What the body is called with at point `t` (the obligation's precondition, the windows one by one), -/
def bodyPre0 (c : Dev nD) (t : Fin cfg0.N) : sProp 𝕄 :=
  iprop((dat0 q V c).Φ t.castSucc ∗ (dat0 q V c).owesAt () t.castSucc
    ∗ (∃ d, owns (c : Thread nD τ) (ms0_0 t) fullShare ((dat0 q V c).before 0 t d))
    ∗ (∃ d, owns (c : Thread nD τ) (ms0_1 t) fullShare ((dat0 q V c).before 1 t d))
    ∗ (∃ d, owns (c : Thread nD τ) (ms0_2 t) fullShare ((dat0 q V c).before 2 t d))
    ∗ (∃ d, owns (c : Thread nD τ) (ms0_3 t) fullShare ((dat0 q V c).before 3 t d))
    ∗ (∃ d, owns (c : Thread nD τ) (ms0_4 t) fullShare ((dat0 q V c).before 4 t d))
    ∗ (∃ d, owns (c : Thread nD τ) (ms0_5 t) fullShare ((dat0 q V c).before 5 t d))
    ∗ (∃ d, owns (c : Thread nD τ) (ms0_6 t) fullShare ((dat0 q V c).before 6 t d))
    ∗ (∃ d, owns (c : Thread nD τ) (ms0_7 t) fullShare ((dat0 q V c).before 7 t d))
    ∗ (∃ d, owns (c : Thread nD τ) (ms0_8 t) fullShare ((dat0 q V c).before 8 t d)))

/-- and what it returns. -/
def bodyPost0 (c : Dev nD) (t : Fin cfg0.N) : sProp 𝕄 :=
  iprop((dat0 q V c).Φ t.succ ∗ (dat0 q V c).owesAt () t.succ
    ∗ (dat0 q V c).leavesExact 0 t
    ∗ (dat0 q V c).leavesExact 1 t
    ∗ (dat0 q V c).leavesExact 2 t
    ∗ (dat0 q V c).leavesExact 3 t
    ∗ (dat0 q V c).leavesExact 4 t
    ∗ (dat0 q V c).leavesExact 5 t
    ∗ (dat0 q V c).leavesExact 6 t
    ∗ (dat0 q V c).leavesExact 7 t
    ∗ (dat0 q V c).leavesExact 8 t)

set_option maxHeartbeats 4800000 in
/-- The body at any point: the inputs' memrefs hold their blocks; the closed forms say which case the point is in; so that
    case's run applies. The invariant hands the body the carried scratch at what the point before left (at anything at the
    first point) and takes it back at this point's contents; output 7's buffer comes back at the case's pieces read back,
    output 8's untouched where the case does not store it; the other scoped buffers, the generator register and what the
    core owes pass through unread. -/
theorem sound_body0 (c : Dev nD) (t : Fin cfg0.N) :
    bodyPre0 q V c t ⊢ wp frame (wpE (defs₀ (F := F)) Variants.none c none) Set.univ (bodyAt0 t) (fun _ => bodyPost0 q V c t) := by
  unfold bodyPre0 bodyPost0 bodyAt0
  simp only [before0_0, before0_1, before0_2, before0_3, before0_4, before0_5, before0_6]
  rw [show (dat0 q V c).owesAt () t.succ = (dat0 q V c).owesAt () t.castSucc from rfl]
  rw [show (dat0 q V c).Φ t.succ = PhiS0 V c (t.val + 1) t.isLt from rfl, PhiS0_succ]
  have hN : t.val < 80 := lt_of_lt_of_eq t.isLt (show cfg0.N = 80 from N_0)
  by_cases h0 : t.val % 80 = 0
  · by_cases h1 : t.val % 80 = 79
    · exfalso; omega
    ·
      rw [show (dat0 q V c).leavesExact 0 t = owns (c : Thread nD τ) (ms0_0 t) fullShare ((dat0 q V c).after 0 t) from by
        unfold Dat.leavesExact; rw [liveAt0_0 t], after0_0]
      rw [show (dat0 q V c).leavesExact 1 t = owns (c : Thread nD τ) (ms0_1 t) fullShare ((dat0 q V c).after 1 t) from by
        unfold Dat.leavesExact; rw [liveAt0_1 t], after0_1]
      rw [show (dat0 q V c).leavesExact 2 t = owns (c : Thread nD τ) (ms0_2 t) fullShare ((dat0 q V c).after 2 t) from by
        unfold Dat.leavesExact; rw [liveAt0_2 t], after0_2]
      rw [show (dat0 q V c).leavesExact 3 t = owns (c : Thread nD τ) (ms0_3 t) fullShare ((dat0 q V c).after 3 t) from by
        unfold Dat.leavesExact; rw [liveAt0_3 t], after0_3]
      rw [show (dat0 q V c).leavesExact 4 t = owns (c : Thread nD τ) (ms0_4 t) fullShare ((dat0 q V c).after 4 t) from by
        unfold Dat.leavesExact; rw [liveAt0_4 t], after0_4]
      rw [show (dat0 q V c).leavesExact 5 t = owns (c : Thread nD τ) (ms0_5 t) fullShare ((dat0 q V c).after 5 t) from by
        unfold Dat.leavesExact; rw [liveAt0_5 t], after0_5]
      rw [show (dat0 q V c).leavesExact 6 t = owns (c : Thread nD τ) (ms0_6 t) fullShare ((dat0 q V c).after 6 t) from by
        unfold Dat.leavesExact; rw [liveAt0_6 t], after0_6]
      rw [show (dat0 q V c).leavesExact 7 t = owns (c : Thread nD τ) (ms0_7 t) fullShare ((dat0 q V c).after 7 t) from by
        unfold Dat.leavesExact; rw [liveAt0_7 t], after0_7]
      rw [Dat.leavesExact_idle (dat0 q V c) 8 t (idleAt0_8_A t ((hcond0_0 t).mpr h0) (fun h => h1 ((hcond0_1 t).mp h))) (noFlush0_8_A t ((hcond0_0 t).mpr h0) (fun h => h1 ((hcond0_1 t).mp h)))]
      rw [outsAt0_A V c t h0 h1]
      unfold out0_A_7 sout0_A_0; (try dsimp only)
      by_cases hz : t.val = 0
      ·
        rw [PhiS0_castSucc q V c t, PhiS0_zero V c _ _ hz, PhiA0_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        iintro ⟨H0, H1, H2, H3, H4, H5, H6, ⟨%e7, H7⟩, H8, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _)
        iexists _; iexact H8
      · exfalso; omega
  · by_cases h1 : t.val % 80 = 79
    ·
      rw [show (dat0 q V c).leavesExact 0 t = owns (c : Thread nD τ) (ms0_0 t) fullShare ((dat0 q V c).after 0 t) from by
        unfold Dat.leavesExact; rw [liveAt0_0 t], after0_0]
      rw [show (dat0 q V c).leavesExact 1 t = owns (c : Thread nD τ) (ms0_1 t) fullShare ((dat0 q V c).after 1 t) from by
        unfold Dat.leavesExact; rw [liveAt0_1 t], after0_1]
      rw [show (dat0 q V c).leavesExact 2 t = owns (c : Thread nD τ) (ms0_2 t) fullShare ((dat0 q V c).after 2 t) from by
        unfold Dat.leavesExact; rw [liveAt0_2 t], after0_2]
      rw [show (dat0 q V c).leavesExact 3 t = owns (c : Thread nD τ) (ms0_3 t) fullShare ((dat0 q V c).after 3 t) from by
        unfold Dat.leavesExact; rw [liveAt0_3 t], after0_3]
      rw [show (dat0 q V c).leavesExact 4 t = owns (c : Thread nD τ) (ms0_4 t) fullShare ((dat0 q V c).after 4 t) from by
        unfold Dat.leavesExact; rw [liveAt0_4 t], after0_4]
      rw [show (dat0 q V c).leavesExact 5 t = owns (c : Thread nD τ) (ms0_5 t) fullShare ((dat0 q V c).after 5 t) from by
        unfold Dat.leavesExact; rw [liveAt0_5 t], after0_5]
      rw [show (dat0 q V c).leavesExact 6 t = owns (c : Thread nD τ) (ms0_6 t) fullShare ((dat0 q V c).after 6 t) from by
        unfold Dat.leavesExact; rw [liveAt0_6 t], after0_6]
      rw [show (dat0 q V c).leavesExact 7 t = owns (c : Thread nD τ) (ms0_7 t) fullShare ((dat0 q V c).after 7 t) from by
        unfold Dat.leavesExact; rw [liveAt0_7 t], after0_7]
      rw [show (dat0 q V c).leavesExact 8 t = owns (c : Thread nD τ) (ms0_8 t) fullShare ((dat0 q V c).after 8 t) from by
        unfold Dat.leavesExact; rw [liveAt0_8_C t (fun h => h0 ((hcond0_0 t).mp h)) ((hcond0_1 t).mpr h1)], after0_8]
      rw [outsAt0_C V c t h0 h1]
      unfold out0_C_7 out0_C_8 sout0_C_0; (try dsimp only)
      by_cases hz : t.val = 0
      · exfalso; omega
      ·
        rw [PhiS0_castSucc q V c t, PhiS0_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        iintro ⟨H0, H1, H2, H3, H4, H5, H6, ⟨%e7, H7⟩, ⟨%e8, H8⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _)
    ·
      rw [show (dat0 q V c).leavesExact 0 t = owns (c : Thread nD τ) (ms0_0 t) fullShare ((dat0 q V c).after 0 t) from by
        unfold Dat.leavesExact; rw [liveAt0_0 t], after0_0]
      rw [show (dat0 q V c).leavesExact 1 t = owns (c : Thread nD τ) (ms0_1 t) fullShare ((dat0 q V c).after 1 t) from by
        unfold Dat.leavesExact; rw [liveAt0_1 t], after0_1]
      rw [show (dat0 q V c).leavesExact 2 t = owns (c : Thread nD τ) (ms0_2 t) fullShare ((dat0 q V c).after 2 t) from by
        unfold Dat.leavesExact; rw [liveAt0_2 t], after0_2]
      rw [show (dat0 q V c).leavesExact 3 t = owns (c : Thread nD τ) (ms0_3 t) fullShare ((dat0 q V c).after 3 t) from by
        unfold Dat.leavesExact; rw [liveAt0_3 t], after0_3]
      rw [show (dat0 q V c).leavesExact 4 t = owns (c : Thread nD τ) (ms0_4 t) fullShare ((dat0 q V c).after 4 t) from by
        unfold Dat.leavesExact; rw [liveAt0_4 t], after0_4]
      rw [show (dat0 q V c).leavesExact 5 t = owns (c : Thread nD τ) (ms0_5 t) fullShare ((dat0 q V c).after 5 t) from by
        unfold Dat.leavesExact; rw [liveAt0_5 t], after0_5]
      rw [show (dat0 q V c).leavesExact 6 t = owns (c : Thread nD τ) (ms0_6 t) fullShare ((dat0 q V c).after 6 t) from by
        unfold Dat.leavesExact; rw [liveAt0_6 t], after0_6]
      rw [show (dat0 q V c).leavesExact 7 t = owns (c : Thread nD τ) (ms0_7 t) fullShare ((dat0 q V c).after 7 t) from by
        unfold Dat.leavesExact; rw [liveAt0_7 t], after0_7]
      rw [Dat.leavesExact_idle (dat0 q V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B V c t h0 h1]
      unfold out0_B_7 sout0_B_0; (try dsimp only)
      by_cases hz : t.val = 0
      · exfalso; omega
      ·
        rw [PhiS0_castSucc q V c t, PhiS0_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        iintro ⟨H0, H1, H2, H3, H4, H5, H6, ⟨%e7, H7⟩, H8, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _)
        iexists _; iexact H8

/-- The library's body obligation, at every point. -/
theorem body_obligation0 (c : Dev nD) : BodyObligation (dat0 (F := F) q V c) (defs₀ (F := F)) Variants.none () Set.univ := fun t => by
  rw [bigSep_W0, bigSep_W0]
  exact sound_body0 q V c t

/-- What the launch hands the region is the invariant before the first point. -/
theorem hin0 (c : Dev nD) : Pipeline.ΦA spec0 c ⊢ (dat0 q V c).Φ 0 := by
  rw [show (dat0 q V c).Φ 0 = PhiS0 V c 0 (Nat.zero_le _) from rfl, PhiS0_zero V c 0 _ rfl]
  try exact Idealize.SL.BI.Entails.refl _

/-- After any point but the first the invariant gives the class's back: the carried scratch's named contents are forgotten. -/
theorem Phi_out0 (c : Dev nD) (t : Fin (cfg0.N + 1)) (ht : t.val ≠ 0) : (dat0 q V c).Φ t ⊢ Pipeline.ΦA spec0 c := by
  rw [show (dat0 q V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 q V c).Φ (Fin.last cfg0.N) ⊢ Pipeline.ΦA spec0 c :=
  Phi_out0 q V c _ (by rw [Fin.val_last]; have : cfg0.N = 80 := N_0; omega)

end Region0

end Cert.KernelIdeal.Hand

end
-- ==== Proof.KI.N1.Runs.lean ====
/- The node kernel at this region: what the three cases of its body share. Each window's block at a point, read off the
   contents the region is entered with (a parameter `V`); each input's staging buffer at its block at every point;
   the body's two branch conditions, decided over the ten grid points (the first point resets the accumulator, the
   last stores it to output 7); where the windows are idle; the staging and scratch memrefs as the pipeline passes
   them; and the region invariant with the kernel's own scratch split out of the scoped rest. -/
import proofs.«108204_j49847390437921_1_alg».proof.Proof.Gen.KernelIdeal.Launch
import proofs.«108204_j49847390437921_1_alg».proof.Proof.Gen.KernelIdeal.Skeleton
import proofs.«108204_j49847390437921_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of the blocks' extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): unfetched, the block index
    has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): unfetched, the block index
    has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's branch conditions -/

/-- The condition of the body's first `scf.if` (the accumulator's reset), from the grid coordinates: the part's
    scalar chain substituted. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val % 10 = 0 :=
  (by decide +kernel : ∀ t : Fin grid1.N, cond1_0 (grid1.coords t) ↔ t.val % 10 = 0)

/-- The condition of the body's second `scf.if` (the store of the accumulator to output 7). -/
abbrev cond1_1 (i : grid1.Coords) : Prop := k1_cond2 i = 1#1
/-- It holds at the last point only — decided over the grid. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Window 5 is never idle (an input). -/
theorem liveAt1_5 : ∀ t : Fin cfg1.N, cfg1.idle 5 (grid1.coords t) = false := by decide +kernel
/-- Window 6 is never idle (stored at every point). -/
theorem liveAt1_6 : ∀ t : Fin cfg1.N, cfg1.idle 6 (grid1.coords t) = false := by decide +kernel

/-- At the first point output 7 is idle: the case stores nothing into it. -/
theorem idleAt1_7_A : ∀ t : Fin cfg1.N, cond1_0 (grid1.coords t) → ¬cond1_1 (grid1.coords t) → cfg1.idle 7 (grid1.coords t) = true := by decide +kernel
/-- At the first point the pipeline does not write output 7's block back. -/
theorem noFlush1_7_A : ∀ t : Fin cfg1.N, cond1_0 (grid1.coords t) → ¬cond1_1 (grid1.coords t) → (cfg1.win 7).flush t = false := by decide +kernel
/-- At a middle point output 7 is idle: the case stores nothing into it. -/
theorem idleAt1_7_B : ∀ t : Fin cfg1.N, ¬cond1_0 (grid1.coords t) → ¬cond1_1 (grid1.coords t) → cfg1.idle 7 (grid1.coords t) = true := by decide +kernel
/-- At a middle point the pipeline does not write output 7's block back. -/
theorem noFlush1_7_B : ∀ t : Fin cfg1.N, ¬cond1_0 (grid1.coords t) → ¬cond1_1 (grid1.coords t) → (cfg1.win 7).flush t = false := by decide +kernel
/-- At the last point output 7 is live: the case stores into it. -/
theorem liveAt1_7_C : ∀ t : Fin cfg1.N, ¬cond1_0 (grid1.coords t) → cond1_1 (grid1.coords t) → cfg1.idle 7 (grid1.coords t) = false := by decide +kernel

/-! ## The staging and scratch memrefs -/

/-- One staging buffer of each output window, through which its contents are stated (read back over its pieces: the
    choice of buffer does not matter). -/
abbrev VO1_6 : View sig .tc .vmem S10000x64 .f32 := (Memref.whole cc1_stg6_0 : Memref sig .tc .vmem S10000x64 .f32).view
abbrev VO1_7 : View sig .tc .vmem S1x64 .f32 := (Memref.whole cc1_stg7_0 : Memref sig .tc .vmem S1x64 .f32).view
/-- Each window's current staging memref at point `t`, spelled as the pipeline passes it, and its wholeness. -/
abbrev ms1_0 (t : Fin cfg1.N) : Memref sig .tc .vmem S10000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10000x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4x64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S10000x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x64 .f32 := win1_7.stage (cfg1.slots t 7)
abbrev hs1_7 (t : Fin cfg1.N) : (ms1_7 t).IsWhole := hstage1_7 ((cfg1.slots t 7).cast nbuf1_7)
/-- The scratch operand: a whole scoped buffer of the kernel's own, passed beside the windows. -/
abbrev scM1_0 : Memref sig .tc .vmem S1x64 .f32 := Memref.whole cc1_scratch0
/-- The scratch the kernel carries between points, as a view: what it holds is stated through it. -/
abbrev VS1_0 : View sig .tc .vmem S1x64 .f32 := scM1_0.view

/-- The class's region invariant with the kernel's scratch split out as a memref owned at some contents; the other
    scoped buffers stay unopened beside it. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Hand

end
-- ==== Proof.KI.N1.RunA.lean ====
/- The node kernel at this region: the run of its whole body at the first point (one module per case, each importing the one
   before it, so that each case elaborates on its own and an auxiliary equation of the part's skeleton is declared once). -/
import proofs.«108204_j49847390437921_1_alg».proof.Proof.KI.N1.Runs

-- membership in a rectangle of the blocks' extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), at the first point: the accumulator's reset is taken, the store to output 7 is not;
    WITH the proof that on whole staging memrefs — the inputs' at their contents `x·`, output 6's at anything (the body
    loads it before storing, and uses nothing of what it loads), output 7's, into which the case stores nothing, at contents
    `xi7` handed back untouched, the scratch at anything (the reset overwrites it before it is read) — the
    body runs to the continuation holding the inputs' as they were and each written buffer with its pieces written. The
    printed function is its skeleton, run through its part; each `scf.if` is decided by the case's hypotheses; the
    pieces are the witness the run finds. -/
noncomputable def kernelRun1_A (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) :
    Σ' (L6 : List (View.Piece (Elt F) S10000x64 .f32)) (L7 : List (View.Piece (Elt F) S1x64 .f32)), { LS0 : List (View.Piece (Elt F) S1x64 .f32) //
      ∀ (xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc1__node_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc1__node_kernel_eq_skeleton]; unfold cc1__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

end Cert.KernelIdeal.Hand

end
-- ==== Proof.KI.N1.RunB.lean ====
/- The node kernel at this region: the run of its whole body at a middle point (one module per case, each importing the one
   before it, so that each case elaborates on its own and an auxiliary equation of the part's skeleton is declared once). -/
import proofs.«108204_j49847390437921_1_alg».proof.Proof.KI.N1.RunA

-- membership in a rectangle of the blocks' extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), at a middle point: neither the accumulator's reset nor the store to output 7 is taken;
    WITH the proof that on whole staging memrefs — the inputs' at their contents `x·`, output 6's at anything (the body
    loads it before storing, and uses nothing of what it loads), output 7's, into which the case stores nothing, at contents
    `xi7` handed back untouched, the scratch at what the point before left (`xs0`) — the
    body runs to the continuation holding the inputs' as they were and each written buffer with its pieces written. The
    printed function is its skeleton, run through its part; each `scf.if` is decided by the case's hypotheses; the
    pieces are the witness the run finds. -/
noncomputable def kernelRun1_B (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) :
    Σ' (L6 : List (View.Piece (Elt F) S10000x64 .f32)) (L7 : List (View.Piece (Elt F) S1x64 .f32)), { LS0 : List (View.Piece (Elt F) S1x64 .f32) //
      ∀ (xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc1__node_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc1__node_kernel_eq_skeleton]; unfold cc1__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

end Cert.KernelIdeal.Hand

end
-- ==== Proof.KI.N1.RunC.lean ====
/- The node kernel at this region: the run of its whole body at the last point (one module per case, each importing the one
   before it, so that each case elaborates on its own and an auxiliary equation of the part's skeleton is declared once). -/
import proofs.«108204_j49847390437921_1_alg».proof.Proof.KI.N1.RunB

-- membership in a rectangle of the blocks' extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), at the last point: the accumulator's reset is not taken, the store to output 7 is;
    WITH the proof that on whole staging memrefs — the inputs' at their contents `x·`, output 6's at anything (the body
    loads it before storing, and uses nothing of what it loads), output 7's at anything (likewise), the scratch at what the point before left (`xs0`) — the
    body runs to the continuation holding the inputs' as they were and each written buffer with its pieces written. The
    printed function is its skeleton, run through its part; each `scf.if` is decided by the case's hypotheses; the
    pieces are the witness the run finds. -/
noncomputable def kernelRun1_C (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) :
    Σ' (L6 : List (View.Piece (Elt F) S10000x64 .f32)) (L7 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc1__node_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc1__node_kernel_eq_skeleton]; unfold cc1__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.KernelIdeal.Hand

end
-- ==== Proof.KI.N1.Body.lean ====
/- The node kernel at this region: its proof data and body obligation, at region-entry contents `V` and array shares `q`.
   From the three runs: what each case leaves in output 6's and output 7's staging buffers and in the scratch (its
   pieces read back; they cover the buffer); the accumulation `outsAt1` over the ten points (the scratch carried from
   point to point); the region invariant with the scratch at what the point before left; the proof data `dat1`; the
   body at a generic point, by cases on the point; and the invariant's two ends. -/
import proofs.«108204_j49847390437921_1_alg».proof.Proof.KI.N1.RunC

-- membership in a rectangle of the blocks' extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the share held of each window's array, and the TensorCore's buffer contents when the region is entered
variable (q : Fin cfg1.W → PosShare TreeShare) (V : (c : Dev nD) → (b : Ref sig .tc) → Buf (Elt F) ((c : Thread nD τ).loc b))

/-! ## What each case leaves -/

/-- The pieces the first point stores into output 6 tile its block (one store of the whole block), so they cover it. -/
theorem cover1_A_6 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) (y : S10000x64.Idx) :
    ∃ pc ∈ (kernelRun1_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3 x4 x5).1 S10000x64.size (by sl_kernel_rfl) y

/-- What the first point leaves in output 6's staging buffer: its pieces read back over junk. -/
def out1_A_6 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) : Vec F S10000x64 .f32 :=
  VO1_6.read (Elt F) (VO1_6.writes (Elt F) VO1_6.junk (kernelRun1_A c i arg1 harg1 arg2 harg2 arg3 harg3 arg4 harg4 arg5 harg5 arg6 harg6 arg7 harg7 arg8 harg8 arg9 harg9 hc0 hc1 x0 x1 x2 x3 x4 x5).1)

/-- The first point stores nothing into output 7 (the window is idle there and not written back): no pieces — a
    placeholder that nothing consults, the window being neither written back there nor read at the next point. -/
def out1_A_7 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) : Vec F S1x64 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 hc0 hc1 x0 x1 x2 x3 x4 x5).2.1)

/-- The pieces the first point stores into the scratch cover it. -/
theorem scover1_A_0 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) (y : S1x64.Idx) :
    ∃ pc ∈ (kernelRun1_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3 x4 x5).2.2.1 S1x64.size (by sl_kernel_rfl) y

/-- What the first point leaves in the scratch: its pieces read back over junk. -/
def sout1_A_0 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) : Vec F S1x64 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 hc0 hc1 x0 x1 x2 x3 x4 x5).2.2.1)

/-- The pieces a middle point stores into output 6 tile its block (one store of the whole block), so they cover it. -/
theorem cover1_B_6 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S10000x64.Idx) :
    ∃ pc ∈ (kernelRun1_B c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 x4 x5 xs0).1 S10000x64.size (by sl_kernel_rfl) y

/-- What a middle point leaves in output 6's staging buffer: its pieces read back over junk. -/
def out1_B_6 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S10000x64 .f32 :=
  VO1_6.read (Elt F) (VO1_6.writes (Elt F) VO1_6.junk (kernelRun1_B c i arg1 harg1 arg2 harg2 arg3 harg3 arg4 harg4 arg5 harg5 arg6 harg6 arg7 harg7 arg8 harg8 arg9 harg9 hc0 hc1 x0 x1 x2 x3 x4 x5 xs0).1)

/-- A middle point stores nothing into output 7 (the window is idle there and not written back): no pieces — a
    placeholder that nothing consults, the window being neither written back there nor read at the next point. -/
def out1_B_7 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VO1_7.read (Elt F) (VO1_7.writes (Elt F) VO1_7.junk (kernelRun1_B c i arg1 harg1 arg2 harg2 arg3 harg3 arg4 harg4 arg5 harg5 arg6 harg6 arg7 harg7 arg8 harg8 arg9 harg9 hc0 hc1 x0 x1 x2 x3 x4 x5 xs0).2.1)

/-- The pieces a middle point stores into the scratch cover it. -/
theorem scover1_B_0 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S1x64.Idx) :
    ∃ pc ∈ (kernelRun1_B c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 x4 x5 xs0).2.2.1 S1x64.size (by sl_kernel_rfl) y

/-- What a middle point leaves in the scratch: its pieces read back over junk. -/
def sout1_B_0 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 hc0 hc1 x0 x1 x2 x3 x4 x5 xs0).2.2.1)

/-- The pieces the last point stores into output 6 tile its block (one store of the whole block), so they cover it. -/
theorem cover1_C_6 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S10000x64.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 xs0).1 S10000x64.size (by sl_kernel_rfl) y

/-- What the last point leaves in output 6's staging buffer: its pieces read back over junk. -/
def out1_C_6 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S10000x64 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 hc0 hc1 x0 x1 x2 x3 x4 x5 xs0).1)

/-- The pieces the last point stores into output 7 tile its block (one store of the whole block), so they cover it. -/
theorem cover1_C_7 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S1x64.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 xs0).2.1 S1x64.size (by sl_kernel_rfl) y

/-- What the last point leaves in output 7's staging buffer: its pieces read back over junk. -/
def out1_C_7 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VO1_7.read (Elt F) (VO1_7.writes (Elt F) VO1_7.junk (kernelRun1_C c i arg1 harg1 arg2 harg2 arg3 harg3 arg4 harg4 arg5 harg5 arg6 harg6 arg7 harg7 arg8 harg8 arg9 harg9 hc0 hc1 x0 x1 x2 x3 x4 x5 xs0).2.1)

/-- The pieces the last point stores into the scratch cover it. -/
theorem scover1_C_0 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S1x64.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 xs0).2.2.1 S1x64.size (by sl_kernel_rfl) y

/-- What the last point leaves in the scratch: its pieces read back over junk. -/
def sout1_C_0 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 hc0 hc1 x0 x1 x2 x3 x4 x5 xs0).2.2.1)

/-! ## What the outputs and the scratch hold after each point -/

/-- THE ACCUMULATION. What output 6's and output 7's staging buffers and the scratch hold after the body at position
    `n`: the case the closed forms select at `n`, run at the point's memrefs and input blocks, the scratch at what
    this leaves at `n - 1`. An assignment of the conditions no point meets is no case. -/
def outsAt1 (c : Dev nD) : (n : ℕ) → n < cfg1.N → Vec F S10000x64 .f32 × Vec F S1x64 .f32 × Vec F S1x64 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 10 = 0 then
      if h1 : (n + 1) % 10 = 9 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 10 = 9 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2, out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2)

/-- `outsAt1` at the first point: that case's contents. -/
theorem outsAt1_A (c : Dev nD) (t : Fin cfg1.N) (h0 : t.val % 10 = 0) (h1 : ¬t.val % 10 = 9) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a middle point: that case's contents, over what the point before left. -/
theorem outsAt1_B (c : Dev nD) (t : Fin cfg1.N) (h0 : ¬t.val % 10 = 0) (h1 : ¬t.val % 10 = 9) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last point: that case's contents, over what the point before left. -/
theorem outsAt1_C (c : Dev nD) (t : Fin cfg1.N) (h0 : ¬t.val % 10 = 0) (h1 : t.val % 10 = 9) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the class's (the scratch at anything);
    afterwards the scratch at what the point before left in it (`outsAt1`'s third component), the other scoped buffers
    unopened, and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2)) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(iprop(owns (c : Thread nD τ) scM1_0 fullShare ((outsAt1 V c n hn).2.2)) ∗ Pipeline.scopedRestBut (Ix := Unit) (Name := ℕ) (U := UR sig nD τ) (Lvl := ℕ) (Val := Elt F) spec1 c [cc1_scratch0]) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the outputs' at `outsAt1`'s components; the invariant `PhiS1`;
    nothing owed; the arrays' shares `q`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
  Φ t := PhiS1 V c t.val (Nat.le_of_lt_succ t.isLt)
  q := q
  owed _ := 0

/-- The proof data's arrays are the region-entry contents (the definition projected, `V` never unfolded). -/
theorem A_eq1 (c : Dev nD) (w : Fin cfg1.W) : (dat1 q V c).A w = V c (Pipeline.arrRef spec1 w) := by
  dsimp only [dat1]

/-- The invariant at a point's start, restated at `t.val`. -/
theorem PhiS1_castSucc (c : Dev nD) (t : Fin cfg1.N) :
    (dat1 q V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 q V c).after 0 t = iblk1 V c 0 t := by dsimp only [dat1]
theorem after1_1 (c : Dev nD) (t : Fin cfg1.N) : (dat1 q V c).after 1 t = iblk1 V c 1 t := by dsimp only [dat1]
theorem after1_2 (c : Dev nD) (t : Fin cfg1.N) : (dat1 q V c).after 2 t = iblk1 V c 2 t := by dsimp only [dat1]
theorem after1_3 (c : Dev nD) (t : Fin cfg1.N) : (dat1 q V c).after 3 t = iblk1 V c 3 t := by dsimp only [dat1]
theorem after1_4 (c : Dev nD) (t : Fin cfg1.N) : (dat1 q V c).after 4 t = iblk1 V c 4 t := by dsimp only [dat1]
theorem after1_5 (c : Dev nD) (t : Fin cfg1.N) : (dat1 q V c).after 5 t = iblk1 V c 5 t := by dsimp only [dat1]
theorem after1_6 (c : Dev nD) (t : Fin cfg1.N) : (dat1 q V c).after 6 t = (outsAt1 V c t.val t.isLt).1 := by dsimp only [dat1]
theorem after1_7 (c : Dev nD) (t : Fin cfg1.N) : (dat1 q V c).after 7 t = (outsAt1 V c t.val t.isLt).2.1 := by dsimp only [dat1]

/-- Each input's current staging buffer holds its block at every point, fetched there or not. -/
theorem before1_0 (c : Dev nD) (t : Fin cfg1.N) (d) : (dat1 q V c).before 0 t d = iblk1 V c 0 t :=
  before1_0_of V (dat1 q V c) (A_eq1 q V c 0) (after1_0 q V c) t d
theorem before1_1 (c : Dev nD) (t : Fin cfg1.N) (d) : (dat1 q V c).before 1 t d = iblk1 V c 1 t :=
  before1_1_of V (dat1 q V c) (A_eq1 q V c 1) (after1_1 q V c) t d
theorem before1_2 (c : Dev nD) (t : Fin cfg1.N) (d) : (dat1 q V c).before 2 t d = iblk1 V c 2 t :=
  before1_2_of V (dat1 q V c) (A_eq1 q V c 2) (after1_2 q V c) t d
theorem before1_3 (c : Dev nD) (t : Fin cfg1.N) (d) : (dat1 q V c).before 3 t d = iblk1 V c 3 t :=
  before1_3_of V (dat1 q V c) (A_eq1 q V c 3) (after1_3 q V c) t d
theorem before1_4 (c : Dev nD) (t : Fin cfg1.N) (d) : (dat1 q V c).before 4 t d = iblk1 V c 4 t :=
  before1_4_of V (dat1 q V c) (A_eq1 q V c 4) (after1_4 q V c) t d
theorem before1_5 (c : Dev nD) (t : Fin cfg1.N) (d) : (dat1 q V c).before 5 t d = iblk1 V c 5 t :=
  before1_5_of V (dat1 q V c) (A_eq1 q V c 5) (after1_5 q V c) t d

/-! ## The body obligation, at a generic point -/

/-- What the body is called with at point `t` (the body obligation's precondition, the windows one by one), -/
def bodyPre1 (c : Dev nD) (t : Fin cfg1.N) : sProp 𝕄 :=
  iprop((dat1 q V c).Φ t.castSucc ∗ (dat1 q V c).owesAt () t.castSucc
    ∗ (∃ d, owns (c : Thread nD τ) (ms1_0 t) fullShare ((dat1 q V c).before 0 t d))
    ∗ (∃ d, owns (c : Thread nD τ) (ms1_1 t) fullShare ((dat1 q V c).before 1 t d))
    ∗ (∃ d, owns (c : Thread nD τ) (ms1_2 t) fullShare ((dat1 q V c).before 2 t d))
    ∗ (∃ d, owns (c : Thread nD τ) (ms1_3 t) fullShare ((dat1 q V c).before 3 t d))
    ∗ (∃ d, owns (c : Thread nD τ) (ms1_4 t) fullShare ((dat1 q V c).before 4 t d))
    ∗ (∃ d, owns (c : Thread nD τ) (ms1_5 t) fullShare ((dat1 q V c).before 5 t d))
    ∗ (∃ d, owns (c : Thread nD τ) (ms1_6 t) fullShare ((dat1 q V c).before 6 t d))
    ∗ (∃ d, owns (c : Thread nD τ) (ms1_7 t) fullShare ((dat1 q V c).before 7 t d)))

/-- and what it returns. -/
def bodyPost1 (c : Dev nD) (t : Fin cfg1.N) : sProp 𝕄 :=
  iprop((dat1 q V c).Φ t.succ ∗ (dat1 q V c).owesAt () t.succ
    ∗ (dat1 q V c).leavesExact 0 t
    ∗ (dat1 q V c).leavesExact 1 t
    ∗ (dat1 q V c).leavesExact 2 t
    ∗ (dat1 q V c).leavesExact 3 t
    ∗ (dat1 q V c).leavesExact 4 t
    ∗ (dat1 q V c).leavesExact 5 t
    ∗ (dat1 q V c).leavesExact 6 t
    ∗ (dat1 q V c).leavesExact 7 t)

set_option maxHeartbeats 4800000 in
/-- The body at any point: the inputs' memrefs hold their blocks; the closed forms say which case the point is in; so
    that case's run applies. The invariant hands the body the scratch at what the point before left (at anything at
    the first point) and takes it back at this point's contents, its pieces covering it; the other scoped buffers and
    the generator register pass through; output 6's buffer is left at its pieces read back; output 7's is handed back
    as found except at the last point, where it is left at its pieces read back; the core owes nothing throughout. -/
theorem sound_body1 (c : Dev nD) (t : Fin cfg1.N) :
    bodyPre1 q V c t ⊢ wp frame (wpE (defs₀ (F := F)) Variants.none c none) Set.univ (bodyAt1 t) (fun _ => bodyPost1 q V c t) := by
  unfold bodyPre1 bodyPost1 bodyAt1
  simp only [before1_0, before1_1, before1_2, before1_3, before1_4, before1_5]
  rw [show (dat1 q V c).owesAt () t.succ = (dat1 q V c).owesAt () t.castSucc from rfl]
  rw [show (dat1 q V c).Φ t.succ = PhiS1 V c (t.val + 1) t.isLt from rfl, PhiS1_succ]
  have hN : t.val < 10 := lt_of_lt_of_eq t.isLt (show cfg1.N = 10 from N_1)
  by_cases h0 : t.val % 10 = 0
  · by_cases h1 : t.val % 10 = 9
    · exfalso; omega
    · rw [show (dat1 q V c).leavesExact 0 t = owns (c : Thread nD τ) (ms1_0 t) fullShare ((dat1 q V c).after 0 t) from by
        unfold Dat.leavesExact; rw [liveAt1_0 t], after1_0]
      rw [show (dat1 q V c).leavesExact 1 t = owns (c : Thread nD τ) (ms1_1 t) fullShare ((dat1 q V c).after 1 t) from by
        unfold Dat.leavesExact; rw [liveAt1_1 t], after1_1]
      rw [show (dat1 q V c).leavesExact 2 t = owns (c : Thread nD τ) (ms1_2 t) fullShare ((dat1 q V c).after 2 t) from by
        unfold Dat.leavesExact; rw [liveAt1_2 t], after1_2]
      rw [show (dat1 q V c).leavesExact 3 t = owns (c : Thread nD τ) (ms1_3 t) fullShare ((dat1 q V c).after 3 t) from by
        unfold Dat.leavesExact; rw [liveAt1_3 t], after1_3]
      rw [show (dat1 q V c).leavesExact 4 t = owns (c : Thread nD τ) (ms1_4 t) fullShare ((dat1 q V c).after 4 t) from by
        unfold Dat.leavesExact; rw [liveAt1_4 t], after1_4]
      rw [show (dat1 q V c).leavesExact 5 t = owns (c : Thread nD τ) (ms1_5 t) fullShare ((dat1 q V c).after 5 t) from by
        unfold Dat.leavesExact; rw [liveAt1_5 t], after1_5]
      rw [show (dat1 q V c).leavesExact 6 t = owns (c : Thread nD τ) (ms1_6 t) fullShare ((dat1 q V c).after 6 t) from by
        unfold Dat.leavesExact; rw [liveAt1_6 t], after1_6]
      rw [Dat.leavesExact_idle (dat1 q V c) 7 t (idleAt1_7_A t ((hcond1_0 t).mpr h0) (fun h => h1 ((hcond1_1 t).mp h))) (noFlush1_7_A t ((hcond1_0 t).mpr h0) (fun h => h1 ((hcond1_1 t).mp h)))]
      rw [outsAt1_A V c t h0 h1]
      unfold out1_A_6 sout1_A_0; (try dsimp only)
      by_cases hz : t.val = 0
      · rw [PhiS1_castSucc q V c t, PhiS1_zero V c _ _ hz, PhiA1_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover1_A_6 c _ _ _ _ _ _ _ _ _ _ _ _ _ _ _ _ _ _ _ _ _ _ _ _ _ _ _)
        iexists _; iexact H7
      · exfalso; omega
  · by_cases h1 : t.val % 10 = 9
    · rw [show (dat1 q V c).leavesExact 0 t = owns (c : Thread nD τ) (ms1_0 t) fullShare ((dat1 q V c).after 0 t) from by
        unfold Dat.leavesExact; rw [liveAt1_0 t], after1_0]
      rw [show (dat1 q V c).leavesExact 1 t = owns (c : Thread nD τ) (ms1_1 t) fullShare ((dat1 q V c).after 1 t) from by
        unfold Dat.leavesExact; rw [liveAt1_1 t], after1_1]
      rw [show (dat1 q V c).leavesExact 2 t = owns (c : Thread nD τ) (ms1_2 t) fullShare ((dat1 q V c).after 2 t) from by
        unfold Dat.leavesExact; rw [liveAt1_2 t], after1_2]
      rw [show (dat1 q V c).leavesExact 3 t = owns (c : Thread nD τ) (ms1_3 t) fullShare ((dat1 q V c).after 3 t) from by
        unfold Dat.leavesExact; rw [liveAt1_3 t], after1_3]
      rw [show (dat1 q V c).leavesExact 4 t = owns (c : Thread nD τ) (ms1_4 t) fullShare ((dat1 q V c).after 4 t) from by
        unfold Dat.leavesExact; rw [liveAt1_4 t], after1_4]
      rw [show (dat1 q V c).leavesExact 5 t = owns (c : Thread nD τ) (ms1_5 t) fullShare ((dat1 q V c).after 5 t) from by
        unfold Dat.leavesExact; rw [liveAt1_5 t], after1_5]
      rw [show (dat1 q V c).leavesExact 6 t = owns (c : Thread nD τ) (ms1_6 t) fullShare ((dat1 q V c).after 6 t) from by
        unfold Dat.leavesExact; rw [liveAt1_6 t], after1_6]
      rw [show (dat1 q V c).leavesExact 7 t = owns (c : Thread nD τ) (ms1_7 t) fullShare ((dat1 q V c).after 7 t) from by
        unfold Dat.leavesExact; rw [liveAt1_7_C t (fun h => h0 ((hcond1_0 t).mp h)) ((hcond1_1 t).mpr h1)], after1_7]
      rw [outsAt1_C V c t h0 h1]
      unfold out1_C_6 out1_C_7 sout1_C_0; (try dsimp only)
      by_cases hz : t.val = 0
      · exfalso; omega
      · rw [PhiS1_castSucc q V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover1_C_6 c _ _ _ _ _ _ _ _ _ _ _ _ _ _ _ _ _ _ _ _ _ _ _ _ _ _ _ _)
        unfold owns; iexists _; isplitr
        swap; · iexact H7
        ipureintro; exact View.read_writes_of_cover _ _ _ _ _ (cover1_C_7 c _ _ _ _ _ _ _ _ _ _ _ _ _ _ _ _ _ _ _ _ _ _ _ _ _ _ _ _)
    · rw [show (dat1 q V c).leavesExact 0 t = owns (c : Thread nD τ) (ms1_0 t) fullShare ((dat1 q V c).after 0 t) from by
        unfold Dat.leavesExact; rw [liveAt1_0 t], after1_0]
      rw [show (dat1 q V c).leavesExact 1 t = owns (c : Thread nD τ) (ms1_1 t) fullShare ((dat1 q V c).after 1 t) from by
        unfold Dat.leavesExact; rw [liveAt1_1 t], after1_1]
      rw [show (dat1 q V c).leavesExact 2 t = owns (c : Thread nD τ) (ms1_2 t) fullShare ((dat1 q V c).after 2 t) from by
        unfold Dat.leavesExact; rw [liveAt1_2 t], after1_2]
      rw [show (dat1 q V c).leavesExact 3 t = owns (c : Thread nD τ) (ms1_3 t) fullShare ((dat1 q V c).after 3 t) from by
        unfold Dat.leavesExact; rw [liveAt1_3 t], after1_3]
      rw [show (dat1 q V c).leavesExact 4 t = owns (c : Thread nD τ) (ms1_4 t) fullShare ((dat1 q V c).after 4 t) from by
        unfold Dat.leavesExact; rw [liveAt1_4 t], after1_4]
      rw [show (dat1 q V c).leavesExact 5 t = owns (c : Thread nD τ) (ms1_5 t) fullShare ((dat1 q V c).after 5 t) from by
        unfold Dat.leavesExact; rw [liveAt1_5 t], after1_5]
      rw [show (dat1 q V c).leavesExact 6 t = owns (c : Thread nD τ) (ms1_6 t) fullShare ((dat1 q V c).after 6 t) from by
        unfold Dat.leavesExact; rw [liveAt1_6 t], after1_6]
      rw [Dat.leavesExact_idle (dat1 q V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [outsAt1_B V c t h0 h1]
      unfold out1_B_6 sout1_B_0; (try dsimp only)
      by_cases hz : t.val = 0
      · exfalso; omega
      · rw [PhiS1_castSucc q V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover1_B_6 c _ _ _ _ _ _ _ _ _ _ _ _ _ _ _ _ _ _ _ _ _ _ _ _ _ _ _ _)
        iexists _; iexact H7

/-- The library's body obligation, at every point. -/
theorem body_obligation1 (c : Dev nD) : BodyObligation (dat1 (F := F) q V c) (defs₀ (F := F)) Variants.none () Set.univ := fun t => by
  rw [bigSep_W1, bigSep_W1]
  exact sound_body1 q V c t

/-- What the launch hands the region is the invariant before the first point. -/
theorem hin1 (c : Dev nD) : (Pipeline.ΦA spec1 c : sProp 𝕄) ⊢ (dat1 q V c).Φ 0 := by
  rw [show (dat1 q V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 q V c).Φ t ⊢ (Pipeline.ΦA spec1 c : sProp 𝕄) := by
  rw [show (dat1 q V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

/-- The same after the last point. -/
theorem hout1 (c : Dev nD) : (dat1 q V c).Φ (Fin.last cfg1.N) ⊢ (Pipeline.ΦA spec1 c : sProp 𝕄) :=
  Phi_out1 q V c _ (by rw [Fin.val_last]; have : cfg1.N = 10 := N_1; omega)

end Regions

end Cert.KernelIdeal.Hand

end
-- ==== Proof.KI.E2.Runs.lean ====
/- The edge kernel's body at the pipeline `cfg2`, first module: what the three
   whole-body runs share. The windows' blocks read off the arrays as the region finds them (a parameter `V`), the
   inputs' staging buffers at their blocks at every point, the two branch conditions of the body in closed form over
   the 80 grid points, where the two output windows are live or idle, the staging and scratch memrefs the body is
   called with, and the region invariant with the kernel's own scratch split off. -/
import proofs.«108204_j49847390437921_1_alg».proof.Proof.Gen.KernelIdeal.Launch
import proofs.«108204_j49847390437921_1_alg».proof.Proof.Gen.KernelIdeal.Skeleton
import proofs.«108204_j49847390437921_1_alg».proof.Proof.Gen.KernelIdeal.Points
import Idealize.ShloMosaic.Lib.Pipeline.FrameBody
import Idealize.ShloMosaic.Lib.Ring
import Idealize.ShloMosaic.Lib.Tactic

-- membership in a rectangle of production extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

-- the TensorCore's buffer contents when the region is entered: everything below is stated at any such contents
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (an unfetched
    input's block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (an unfetched
    input's block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (an unfetched
    input's block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (an unfetched
    input's block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (an unfetched
    input's block index has not moved), for any proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (an unfetched
    input's block index has not moved), for any proof data whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not (an unfetched
    input's block index has not moved), for any proof data whose array is `V`'s and whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's branch conditions -/

/-- The condition of the body's first `scf.if` (the scratch is reset): the grid coordinate is 0, as the body computes it. -/
abbrev cond2_0 (i : grid2.Coords) : Prop := (Scalar.cmpi .ne (Scalar.extui (Scalar.cmpi .eq (BitVec.ofNat 32 (i 0).val) 0#32)) 0#32) = 1#1
/-- It holds at the first of the 80 points only. -/
theorem hcond2_0 : ∀ t : Fin cfg2.N, cond2_0 (grid2.coords t) ↔ t.val % 80 = 0 :=
  (by decide +kernel : ∀ t : Fin grid2.N, cond2_0 (grid2.coords t) ↔ t.val % 80 = 0)

/-- The condition of the body's second `scf.if` (the scratch is stored to the second output): the grid coordinate is 79. -/
abbrev cond2_1 (i : grid2.Coords) : Prop := k2_cond2 i = 1#1
/-- It holds at the last of the 80 points only. -/
theorem hcond2_1 : ∀ t : Fin cfg2.N, cond2_1 (grid2.coords t) ↔ t.val % 80 = 79 :=
  (by decide +kernel : ∀ t : Fin grid2.N, cond2_1 (grid2.coords t) ↔ t.val % 80 = 79)

/-! ## Where the windows are idle -/

/-- Window 0 is never idle. -/
theorem liveAt2_0 : ∀ t : Fin cfg2.N, cfg2.idle 0 (grid2.coords t) = false := by decide +kernel
/-- Window 1 is never idle. -/
theorem liveAt2_1 : ∀ t : Fin cfg2.N, cfg2.idle 1 (grid2.coords t) = false := by decide +kernel
/-- Window 2 is never idle. -/
theorem liveAt2_2 : ∀ t : Fin cfg2.N, cfg2.idle 2 (grid2.coords t) = false := by decide +kernel
/-- Window 3 is never idle. -/
theorem liveAt2_3 : ∀ t : Fin cfg2.N, cfg2.idle 3 (grid2.coords t) = false := by decide +kernel
/-- Window 4 is never idle. -/
theorem liveAt2_4 : ∀ t : Fin cfg2.N, cfg2.idle 4 (grid2.coords t) = false := by decide +kernel
/-- Window 5 is never idle. -/
theorem liveAt2_5 : ∀ t : Fin cfg2.N, cfg2.idle 5 (grid2.coords t) = false := by decide +kernel
/-- Window 6 is never idle. -/
theorem liveAt2_6 : ∀ t : Fin cfg2.N, cfg2.idle 6 (grid2.coords t) = false := by decide +kernel
/-- Window 7 is never idle. -/
theorem liveAt2_7 : ∀ t : Fin cfg2.N, cfg2.idle 7 (grid2.coords t) = false := by decide +kernel
/-- At the first point (case A) output 8 is idle: the case stores nothing into it. -/
theorem idleAt2_8_A : ∀ t : Fin cfg2.N, cond2_0 (grid2.coords t) → ¬cond2_1 (grid2.coords t) → cfg2.idle 8 (grid2.coords t) = true := by decide +kernel
/-- At the first point the pipeline does not write output 8's block back. -/
theorem noFlush2_8_A : ∀ t : Fin cfg2.N, cond2_0 (grid2.coords t) → ¬cond2_1 (grid2.coords t) → (cfg2.win 8).flush t = false := by decide +kernel
/-- At the middle points (case B) output 8 is idle: the case stores nothing into it. -/
theorem idleAt2_8_B : ∀ t : Fin cfg2.N, ¬cond2_0 (grid2.coords t) → ¬cond2_1 (grid2.coords t) → cfg2.idle 8 (grid2.coords t) = true := by decide +kernel
/-- At the middle points the pipeline does not write output 8's block back. -/
theorem noFlush2_8_B : ∀ t : Fin cfg2.N, ¬cond2_0 (grid2.coords t) → ¬cond2_1 (grid2.coords t) → (cfg2.win 8).flush t = false := by decide +kernel
/-- At the last point (case C) output 8 is live: the case stores into it. -/
theorem liveAt2_8_C : ∀ t : Fin cfg2.N, ¬cond2_0 (grid2.coords t) → cond2_1 (grid2.coords t) → cfg2.idle 8 (grid2.coords t) = false := by decide +kernel

/-! ## The memrefs the body is called with -/

/-- One staging buffer of each output window, through which its contents are stated (any choice reads the same). -/
abbrev VO2_7 : View sig .tc .vmem S10000x64 .f32 := (Memref.whole cc2_stg7_0 : Memref sig .tc .vmem S10000x64 .f32).view
abbrev VO2_8 : View sig .tc .vmem S1x64 .f32 := (Memref.whole cc2_stg8_0 : Memref sig .tc .vmem S1x64 .f32).view
/-- Each window's current staging memref at point `t`, spelled as the pipeline passes it, and its wholeness. -/
abbrev ms2_0 (t : Fin cfg2.N) : Memref sig .tc .vmem S10000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S10000x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S10000x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S5x64x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S10000x64 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x64 .f32 := win2_8.stage (cfg2.slots t 8)
abbrev hs2_8 (t : Fin cfg2.N) : (ms2_8 t).IsWhole := hstage2_8 ((cfg2.slots t 8).cast nbuf2_8)
/-- The scratch operand: a whole scoped buffer of the kernel's own, passed beside the windows. -/
abbrev scM2_0 : Memref sig .tc .vmem S1x64 .f32 := Memref.whole cc2_scratch0
/-- The scratch the kernel carries between points, as a view: what it holds is stated through it. -/
abbrev VS2_0 : View sig .tc .vmem S1x64 .f32 := scM2_0.view

/-- The region invariant with the kernel's scratch as a memref owned at some contents, every other scoped buffer
    carried unopened, and the generator register at some state: what the body obligation hands the run and takes back. -/
theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.KernelIdeal.Hand

end
-- ==== Proof.KI.E2.RunA.lean ====
/- The edge kernel's whole body at the pipeline `cfg2`, run once in case A: the first grid point (the first `scf.if` taken: the scratch is reset; the second not taken). The run's witness is the list
   of pieces each stored buffer ends with; one module per case, each importing the one before. -/
import proofs.«108204_j49847390437921_1_alg».proof.Proof.KI.E2.Runs

-- membership in a rectangle of production extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each stored buffer, as pieces (last first), in case A, with the proof that on whole
    staging memrefs — the seven inputs' at their contents `x0 … x6`, output 7's at anything, output 8's (no store: the window is idle and not written back here) at contents `xi8` handed back untouched, the scratch at anything (it is reset before it is read) —
    the body runs to the continuation holding the inputs' as they were and each stored buffer with its pieces written
    (the body loads output 7's buffer before storing it: the loaded values are not used). The printed function is its
    skeleton, which the symbolic executor runs through the part call; each `scf.if` is decided by the case's hypotheses. -/
noncomputable def kernelRun2_A (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) :
    Σ' (L7 : List (View.Piece (Elt F) S10000x64 .f32)) (L8 : List (View.Piece (Elt F) S1x64 .f32)), { LS0 : List (View.Piece (Elt F) S1x64 .f32) //
      ∀ (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xi8 ∗ (∃ f, arg10.view.loc (c : Thread nD τ) ↦[arg10.view.set]{fullShare} arg10.view.writes (Elt F) f LS0)) -∗ K ⟨⟩))
          ⊢ wp frame (wpE (defs₀ (F := F)) Variants.none c none) E (cc2__edge_kernel i arg1 harg1 arg2 harg2 arg3 harg3 arg4 harg4 arg5 harg5 arg6 harg6 arg7 harg7 arg8 harg8 arg9 harg9 arg10 harg10) K } := by
  refine ⟨?_, [], ?_, fun xi8 E K => ?run⟩
  case run =>
    simp only [cc2__edge_kernel_eq_skeleton]; unfold cc2__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    iexists _; iexact HS0

end Cert.KernelIdeal.Hand

end
-- ==== Proof.KI.E2.RunB.lean ====
/- The edge kernel's whole body at the pipeline `cfg2`, run once in case B: a middle grid point (neither `scf.if` taken). The run's witness is the list
   of pieces each stored buffer ends with; one module per case, each importing the one before. -/
import proofs.«108204_j49847390437921_1_alg».proof.Proof.KI.E2.RunA

-- membership in a rectangle of production extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each stored buffer, as pieces (last first), in case B, with the proof that on whole
    staging memrefs — the seven inputs' at their contents `x0 … x6`, output 7's at anything, output 8's (no store: the window is idle and not written back here) at contents `xi8` handed back untouched, the scratch at the contents `xs0` the point before left —
    the body runs to the continuation holding the inputs' as they were and each stored buffer with its pieces written
    (the body loads output 7's buffer before storing it: the loaded values are not used). The printed function is its
    skeleton, which the symbolic executor runs through the part call; each `scf.if` is decided by the case's hypotheses. -/
noncomputable def kernelRun2_B (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    Σ' (L7 : List (View.Piece (Elt F) S10000x64 .f32)) (L8 : List (View.Piece (Elt F) S1x64 .f32)), { LS0 : List (View.Piece (Elt F) S1x64 .f32) //
      ∀ (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xi8 ∗ (∃ f, arg10.view.loc (c : Thread nD τ) ↦[arg10.view.set]{fullShare} arg10.view.writes (Elt F) f LS0)) -∗ K ⟨⟩))
          ⊢ wp frame (wpE (defs₀ (F := F)) Variants.none c none) E (cc2__edge_kernel i arg1 harg1 arg2 harg2 arg3 harg3 arg4 harg4 arg5 harg5 arg6 harg6 arg7 harg7 arg8 harg8 arg9 harg9 arg10 harg10) K } := by
  refine ⟨?_, [], ?_, fun xi8 E K => ?run⟩
  case run =>
    simp only [cc2__edge_kernel_eq_skeleton]; unfold cc2__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    iexists _; iexact HS0

end Cert.KernelIdeal.Hand

end
-- ==== Proof.KI.E2.RunC.lean ====
/- The edge kernel's whole body at the pipeline `cfg2`, run once in case C: the last grid point (the first `scf.if` not taken; the second taken: the scratch is stored to output 8). The run's witness is the list
   of pieces each stored buffer ends with; one module per case, each importing the one before. -/
import proofs.«108204_j49847390437921_1_alg».proof.Proof.KI.E2.RunB

-- membership in a rectangle of production extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each stored buffer, as pieces (last first), in case C, with the proof that on whole
    staging memrefs — the seven inputs' at their contents `x0 … x6`, both outputs' at anything, the scratch at the contents `xs0` the point before left —
    the body runs to the continuation holding the inputs' as they were and each stored buffer with its pieces written
    (the body loads output 7's buffer before storing it, and output 8's likewise: the loaded values are not used). The printed function is its
    skeleton, which the symbolic executor runs through the part call; each `scf.if` is decided by the case's hypotheses. -/
noncomputable def kernelRun2_C (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    Σ' (L7 : List (View.Piece (Elt F) S10000x64 .f32)) (L8 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0)) -∗ K ⟨⟩))
          ⊢ wp frame (wpE (defs₀ (F := F)) Variants.none c none) E (cc2__edge_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc2__edge_kernel_eq_skeleton]; unfold cc2__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact HS0

end Cert.KernelIdeal.Hand

end
-- ==== Proof.KI.E2.Body.lean ====
/- The edge kernel's body at the pipeline `cfg2`, last module: what the two output
   windows' staging buffers and the carried scratch hold after each of the 80 points (per case, then point by point),
   the pipeline's proof data at any entry contents `V` and any input shares `q`, the body obligation at every point,
   and the region invariant's two ends. -/
import proofs.«108204_j49847390437921_1_alg».proof.Proof.KI.E2.RunC

-- membership in a rectangle of production extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the stored buffers -/

/-- Case A's pieces for output 7 tile its 10000×64 block (one whole store), so they cover it. -/
theorem cover2_A_7 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (y : S10000x64.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4 x5 x6).1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4 x5 x6).1 S10000x64.size (by sl_kernel_rfl) y

/-- What case A leaves in output 7's staging buffer: its pieces read back over junk. -/
def out2_A_7 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) : Vec F S10000x64 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 arg10 harg10 hc0 hc1 x0 x1 x2 x3 x4 x5 x6).1)

/-- Case A stores nothing into output 8 (the window is idle at its points and not written back there): no pieces,
    a placeholder nothing consults, since at these points the window is neither written back nor read at the next point. -/
def out2_A_8 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) : Vec F S1x64 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 arg10 harg10 hc0 hc1 x0 x1 x2 x3 x4 x5 x6).2.1)

/-- Case A's pieces for the scratch the kernel carries between points cover it. -/
theorem scover2_A_0 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (y : S1x64.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4 x5 x6).2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4 x5 x6).2.2.1 S1x64.size (by sl_kernel_rfl) y

/-- What case A leaves in the scratch: its pieces read back over junk. -/
def sout2_A_0 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) : Vec F S1x64 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 hc0 hc1 x0 x1 x2 x3 x4 x5 x6).2.2.1)

/-- Case B's pieces for output 7 tile its 10000×64 block (one whole store), so they cover it. -/
theorem cover2_B_7 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S10000x64.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 x5 x6 xs0).1 S10000x64.size (by sl_kernel_rfl) y

/-- What case B leaves in output 7's staging buffer: its pieces read back over junk. -/
def out2_B_7 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S10000x64 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 arg10 harg10 hc0 hc1 x0 x1 x2 x3 x4 x5 x6 xs0).1)

/-- Case B stores nothing into output 8 (the window is idle at its points and not written back there): no pieces,
    a placeholder nothing consults, since at these points the window is neither written back nor read at the next point. -/
def out2_B_8 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VO2_8.read (Elt F) (VO2_8.writes (Elt F) VO2_8.junk (kernelRun2_B c i arg1 harg1 arg2 harg2 arg3 harg3 arg4 harg4 arg5 harg5 arg6 harg6 arg7 harg7 arg8 harg8 arg9 harg9 arg10 harg10 hc0 hc1 x0 x1 x2 x3 x4 x5 x6 xs0).2.1)

/-- Case B's pieces for the scratch the kernel carries between points cover it. -/
theorem scover2_B_0 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S1x64.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 x5 x6 xs0).2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 x5 x6 xs0).2.2.1 S1x64.size (by sl_kernel_rfl) y

/-- What case B leaves in the scratch: its pieces read back over junk. -/
def sout2_B_0 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 hc0 hc1 x0 x1 x2 x3 x4 x5 x6 xs0).2.2.1)

/-- Case C's pieces for output 7 tile its 10000×64 block (one whole store), so they cover it. -/
theorem cover2_C_7 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S10000x64.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 x5 x6 xs0).1 S10000x64.size (by sl_kernel_rfl) y

/-- What case C leaves in output 7's staging buffer: its pieces read back over junk. -/
def out2_C_7 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S10000x64 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 hc0 hc1 x0 x1 x2 x3 x4 x5 x6 xs0).1)

/-- Case C's pieces for output 8 tile its 1×64 block (one whole store), so they cover it. -/
theorem cover2_C_8 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 x5 x6 xs0).2.1 S1x64.size (by sl_kernel_rfl) y

/-- What case C leaves in output 8's staging buffer: its pieces read back over junk. -/
def out2_C_8 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VO2_8.read (Elt F) (VO2_8.writes (Elt F) VO2_8.junk (kernelRun2_C c i arg1 harg1 arg2 harg2 arg3 harg3 arg4 harg4 arg5 harg5 arg6 harg6 arg7 harg7 arg8 harg8 arg9 harg9 arg10 harg10 hc0 hc1 x0 x1 x2 x3 x4 x5 x6 xs0).2.1)

/-- Case C's pieces for the scratch the kernel carries between points cover it. -/
theorem scover2_C_0 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 x5 x6 xs0).2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 x5 x6 xs0).2.2.1 S1x64.size (by sl_kernel_rfl) y

/-- What case C leaves in the scratch: its pieces read back over junk. -/
def sout2_C_0 (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 hc0 hc1 x0 x1 x2 x3 x4 x5 x6 xs0).2.2.1)

section Region2

variable (q : Fin cfg2.W → PosShare TreeShare)
variable (V : (c : Dev nD) → (b : Ref sig .tc) → Buf (Elt F) ((c : Thread nD τ).loc b))

/-! ## What the outputs hold after each point -/

/-- THE ACCUMULATION. What output 7's and output 8's staging buffers and the carried scratch hold after the body at
    position `n` (a triple, in that order): the case the closed forms select at `n`, run at the point's memrefs and input
    blocks, the scratch read at what position `n - 1` left in it. An assignment of the conditions no point meets is no case. -/
def outsAt2 (c : Dev nD) : (n : ℕ) → n < cfg2.N → Vec F S10000x64 .f32 × Vec F S1x64 .f32 × Vec F S1x64 .f32
  | 0, hn => (out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩))
  | n + 1, hn =>
    if h0 : (n + 1) % 80 = 0 then
      if h1 : (n + 1) % 80 = 79 then
        False.elim (by omega)
      else
        (out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩))
    else
      if h1 : (n + 1) % 80 = 79 then
        (out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2, out2_C_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2)
      else
        (out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2, out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.2)

/-- `outsAt2` at a point of case A: that case's contents. -/
theorem outsAt2_A (c : Dev nD) (t : Fin cfg2.N) (h0 : t.val % 80 = 0) (h1 : ¬t.val % 80 = 79) :
    outsAt2 V c t.val t.isLt = (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 80 = 0) (h1 : ¬t.val % 80 = 79) :
    outsAt2 V c t.val t.isLt = (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2, out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 80 = 0) (h1 : t.val % 80 = 79) :
    outsAt2 V c t.val t.isLt = (out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2, out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer of the region at
    anything, the generator register at some state); afterwards the same with the carried scratch at what the point
    before left in it (`outsAt2`'s third component). -/
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the carried scratch at that point's contents. -/
theorem PhiS2_succ (c : Dev nD) (n : ℕ) (hn : n < cfg2.N) :
    PhiS2 V c (n + 1) hn = iprop(iprop(iprop(owns (c : Thread nD τ) scM2_0 fullShare (outsAt2 V c n hn).2.2) ∗ Pipeline.scopedRestBut (Ix := Unit) (Name := ℕ) (U := UR sig nD τ) (Lvl := ℕ) (Val := Elt F) spec2 c [cc2_scratch0]) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the outputs' at `outsAt2`'s first two components; the invariant `PhiS2`;
    the inputs' shares `q`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
    | ⟨8, _⟩ => (outsAt2 V c t.val t.isLt).2.1
  Φ t := PhiS2 V c t.val (Nat.le_of_lt_succ t.isLt)
  q := q
  owed _ := 0

/-- The proof data's arrays are the region-entry contents (the definition projected, so that `V` is never unfolded). -/
theorem A_eq2 (c : Dev nD) (w : Fin cfg2.W) : (dat2 q V c).A w = V c (Pipeline.arrRef spec2 w) := by
  dsimp only [dat2]

/-- The invariant at a point's start (the proof data at `t.castSucc`), restated at `t.val`. -/
theorem PhiS2_castSucc (c : Dev nD) (t : Fin cfg2.N) :
    (dat2 q V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 q V c).after 0 t = iblk2 V c 0 t := by dsimp only [dat2]
theorem after2_1 (c : Dev nD) (t : Fin cfg2.N) : (dat2 q V c).after 1 t = iblk2 V c 1 t := by dsimp only [dat2]
theorem after2_2 (c : Dev nD) (t : Fin cfg2.N) : (dat2 q V c).after 2 t = iblk2 V c 2 t := by dsimp only [dat2]
theorem after2_3 (c : Dev nD) (t : Fin cfg2.N) : (dat2 q V c).after 3 t = iblk2 V c 3 t := by dsimp only [dat2]
theorem after2_4 (c : Dev nD) (t : Fin cfg2.N) : (dat2 q V c).after 4 t = iblk2 V c 4 t := by dsimp only [dat2]
theorem after2_5 (c : Dev nD) (t : Fin cfg2.N) : (dat2 q V c).after 5 t = iblk2 V c 5 t := by dsimp only [dat2]
theorem after2_6 (c : Dev nD) (t : Fin cfg2.N) : (dat2 q V c).after 6 t = iblk2 V c 6 t := by dsimp only [dat2]
theorem after2_7 (c : Dev nD) (t : Fin cfg2.N) : (dat2 q V c).after 7 t = (outsAt2 V c t.val t.isLt).1 := by dsimp only [dat2]
theorem after2_8 (c : Dev nD) (t : Fin cfg2.N) : (dat2 q V c).after 8 t = (outsAt2 V c t.val t.isLt).2.1 := by dsimp only [dat2]

/-- Each input's current staging buffer holds its block at every point, fetched there or not. -/
theorem before2_0 (c : Dev nD) (t : Fin cfg2.N) (d) : (dat2 q V c).before 0 t d = iblk2 V c 0 t :=
  before2_0_of V (dat2 q V c) (A_eq2 q V c 0) (after2_0 q V c) t d
theorem before2_1 (c : Dev nD) (t : Fin cfg2.N) (d) : (dat2 q V c).before 1 t d = iblk2 V c 1 t :=
  before2_1_of V (dat2 q V c) (A_eq2 q V c 1) (after2_1 q V c) t d
theorem before2_2 (c : Dev nD) (t : Fin cfg2.N) (d) : (dat2 q V c).before 2 t d = iblk2 V c 2 t :=
  before2_2_of V (dat2 q V c) (A_eq2 q V c 2) (after2_2 q V c) t d
theorem before2_3 (c : Dev nD) (t : Fin cfg2.N) (d) : (dat2 q V c).before 3 t d = iblk2 V c 3 t :=
  before2_3_of V (dat2 q V c) (A_eq2 q V c 3) (after2_3 q V c) t d
theorem before2_4 (c : Dev nD) (t : Fin cfg2.N) (d) : (dat2 q V c).before 4 t d = iblk2 V c 4 t :=
  before2_4_of V (dat2 q V c) (A_eq2 q V c 4) (after2_4 q V c) t d
theorem before2_5 (c : Dev nD) (t : Fin cfg2.N) (d) : (dat2 q V c).before 5 t d = iblk2 V c 5 t :=
  before2_5_of V (dat2 q V c) (A_eq2 q V c 5) (after2_5 q V c) t d
theorem before2_6 (c : Dev nD) (t : Fin cfg2.N) (d) : (dat2 q V c).before 6 t d = iblk2 V c 6 t :=
  before2_6_of V (dat2 q V c) (A_eq2 q V c 6) (after2_6 q V c) t d

/-! ## The body obligation, at a generic point -/

/-- What the body is called with at point `t` (the obligation's precondition, the windows one by one), -/
def bodyPre2 (c : Dev nD) (t : Fin cfg2.N) : sProp 𝕄 :=
  iprop((dat2 q V c).Φ t.castSucc ∗ (dat2 q V c).owesAt () t.castSucc
    ∗ (∃ d, owns (c : Thread nD τ) (ms2_0 t) fullShare ((dat2 q V c).before 0 t d))
    ∗ (∃ d, owns (c : Thread nD τ) (ms2_1 t) fullShare ((dat2 q V c).before 1 t d))
    ∗ (∃ d, owns (c : Thread nD τ) (ms2_2 t) fullShare ((dat2 q V c).before 2 t d))
    ∗ (∃ d, owns (c : Thread nD τ) (ms2_3 t) fullShare ((dat2 q V c).before 3 t d))
    ∗ (∃ d, owns (c : Thread nD τ) (ms2_4 t) fullShare ((dat2 q V c).before 4 t d))
    ∗ (∃ d, owns (c : Thread nD τ) (ms2_5 t) fullShare ((dat2 q V c).before 5 t d))
    ∗ (∃ d, owns (c : Thread nD τ) (ms2_6 t) fullShare ((dat2 q V c).before 6 t d))
    ∗ (∃ d, owns (c : Thread nD τ) (ms2_7 t) fullShare ((dat2 q V c).before 7 t d))
    ∗ (∃ d, owns (c : Thread nD τ) (ms2_8 t) fullShare ((dat2 q V c).before 8 t d)))

/-- and what it returns. -/
def bodyPost2 (c : Dev nD) (t : Fin cfg2.N) : sProp 𝕄 :=
  iprop((dat2 q V c).Φ t.succ ∗ (dat2 q V c).owesAt () t.succ
    ∗ (dat2 q V c).leavesExact 0 t
    ∗ (dat2 q V c).leavesExact 1 t
    ∗ (dat2 q V c).leavesExact 2 t
    ∗ (dat2 q V c).leavesExact 3 t
    ∗ (dat2 q V c).leavesExact 4 t
    ∗ (dat2 q V c).leavesExact 5 t
    ∗ (dat2 q V c).leavesExact 6 t
    ∗ (dat2 q V c).leavesExact 7 t
    ∗ (dat2 q V c).leavesExact 8 t)

set_option maxHeartbeats 4800000 in
/-- The body at any point: the inputs' memrefs hold their blocks; the closed forms say which case the point is in; so that
    case's run applies. The invariant hands the body the carried scratch at what the point before left (at anything at the
    first point) and takes it back at this point's contents; output 7's buffer comes back at the case's pieces read back,
    output 8's untouched where the case does not store it; the other scoped buffers, the generator register and what the
    core owes pass through unread. -/
theorem sound_body2 (c : Dev nD) (t : Fin cfg2.N) :
    bodyPre2 q V c t ⊢ wp frame (wpE (defs₀ (F := F)) Variants.none c none) Set.univ (bodyAt2 t) (fun _ => bodyPost2 q V c t) := by
  unfold bodyPre2 bodyPost2 bodyAt2
  simp only [before2_0, before2_1, before2_2, before2_3, before2_4, before2_5, before2_6]
  rw [show (dat2 q V c).owesAt () t.succ = (dat2 q V c).owesAt () t.castSucc from rfl]
  rw [show (dat2 q V c).Φ t.succ = PhiS2 V c (t.val + 1) t.isLt from rfl, PhiS2_succ]
  have hN : t.val < 80 := lt_of_lt_of_eq t.isLt (show cfg2.N = 80 from N_2)
  by_cases h0 : t.val % 80 = 0
  · by_cases h1 : t.val % 80 = 79
    · exfalso; omega
    ·
      rw [show (dat2 q V c).leavesExact 0 t = owns (c : Thread nD τ) (ms2_0 t) fullShare ((dat2 q V c).after 0 t) from by
        unfold Dat.leavesExact; rw [liveAt2_0 t], after2_0]
      rw [show (dat2 q V c).leavesExact 1 t = owns (c : Thread nD τ) (ms2_1 t) fullShare ((dat2 q V c).after 1 t) from by
        unfold Dat.leavesExact; rw [liveAt2_1 t], after2_1]
      rw [show (dat2 q V c).leavesExact 2 t = owns (c : Thread nD τ) (ms2_2 t) fullShare ((dat2 q V c).after 2 t) from by
        unfold Dat.leavesExact; rw [liveAt2_2 t], after2_2]
      rw [show (dat2 q V c).leavesExact 3 t = owns (c : Thread nD τ) (ms2_3 t) fullShare ((dat2 q V c).after 3 t) from by
        unfold Dat.leavesExact; rw [liveAt2_3 t], after2_3]
      rw [show (dat2 q V c).leavesExact 4 t = owns (c : Thread nD τ) (ms2_4 t) fullShare ((dat2 q V c).after 4 t) from by
        unfold Dat.leavesExact; rw [liveAt2_4 t], after2_4]
      rw [show (dat2 q V c).leavesExact 5 t = owns (c : Thread nD τ) (ms2_5 t) fullShare ((dat2 q V c).after 5 t) from by
        unfold Dat.leavesExact; rw [liveAt2_5 t], after2_5]
      rw [show (dat2 q V c).leavesExact 6 t = owns (c : Thread nD τ) (ms2_6 t) fullShare ((dat2 q V c).after 6 t) from by
        unfold Dat.leavesExact; rw [liveAt2_6 t], after2_6]
      rw [show (dat2 q V c).leavesExact 7 t = owns (c : Thread nD τ) (ms2_7 t) fullShare ((dat2 q V c).after 7 t) from by
        unfold Dat.leavesExact; rw [liveAt2_7 t], after2_7]
      rw [Dat.leavesExact_idle (dat2 q V c) 8 t (idleAt2_8_A t ((hcond2_0 t).mpr h0) (fun h => h1 ((hcond2_1 t).mp h))) (noFlush2_8_A t ((hcond2_0 t).mpr h0) (fun h => h1 ((hcond2_1 t).mp h)))]
      rw [outsAt2_A V c t h0 h1]
      unfold out2_A_7 sout2_A_0; (try dsimp only)
      by_cases hz : t.val = 0
      ·
        rw [PhiS2_castSucc q V c t, PhiS2_zero V c _ _ hz, PhiA2_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_A c (grid2.coords t) _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        iintro ⟨H0, H1, H2, H3, H4, H5, H6, ⟨%e7, H7⟩, H8, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover2_A_7 c _ _ _ _ _ _ _ _ _ _ _ _ _ _ _ _ _ _ _ _ _ _ _ _ _ _ _ _ _ _)
        iexists _; iexact H8
      · exfalso; omega
  · by_cases h1 : t.val % 80 = 79
    ·
      rw [show (dat2 q V c).leavesExact 0 t = owns (c : Thread nD τ) (ms2_0 t) fullShare ((dat2 q V c).after 0 t) from by
        unfold Dat.leavesExact; rw [liveAt2_0 t], after2_0]
      rw [show (dat2 q V c).leavesExact 1 t = owns (c : Thread nD τ) (ms2_1 t) fullShare ((dat2 q V c).after 1 t) from by
        unfold Dat.leavesExact; rw [liveAt2_1 t], after2_1]
      rw [show (dat2 q V c).leavesExact 2 t = owns (c : Thread nD τ) (ms2_2 t) fullShare ((dat2 q V c).after 2 t) from by
        unfold Dat.leavesExact; rw [liveAt2_2 t], after2_2]
      rw [show (dat2 q V c).leavesExact 3 t = owns (c : Thread nD τ) (ms2_3 t) fullShare ((dat2 q V c).after 3 t) from by
        unfold Dat.leavesExact; rw [liveAt2_3 t], after2_3]
      rw [show (dat2 q V c).leavesExact 4 t = owns (c : Thread nD τ) (ms2_4 t) fullShare ((dat2 q V c).after 4 t) from by
        unfold Dat.leavesExact; rw [liveAt2_4 t], after2_4]
      rw [show (dat2 q V c).leavesExact 5 t = owns (c : Thread nD τ) (ms2_5 t) fullShare ((dat2 q V c).after 5 t) from by
        unfold Dat.leavesExact; rw [liveAt2_5 t], after2_5]
      rw [show (dat2 q V c).leavesExact 6 t = owns (c : Thread nD τ) (ms2_6 t) fullShare ((dat2 q V c).after 6 t) from by
        unfold Dat.leavesExact; rw [liveAt2_6 t], after2_6]
      rw [show (dat2 q V c).leavesExact 7 t = owns (c : Thread nD τ) (ms2_7 t) fullShare ((dat2 q V c).after 7 t) from by
        unfold Dat.leavesExact; rw [liveAt2_7 t], after2_7]
      rw [show (dat2 q V c).leavesExact 8 t = owns (c : Thread nD τ) (ms2_8 t) fullShare ((dat2 q V c).after 8 t) from by
        unfold Dat.leavesExact; rw [liveAt2_8_C t (fun h => h0 ((hcond2_0 t).mp h)) ((hcond2_1 t).mpr h1)], after2_8]
      rw [outsAt2_C V c t h0 h1]
      unfold out2_C_7 out2_C_8 sout2_C_0; (try dsimp only)
      by_cases hz : t.val = 0
      · exfalso; omega
      ·
        rw [PhiS2_castSucc q V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_C c (grid2.coords t) _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        iintro ⟨H0, H1, H2, H3, H4, H5, H6, ⟨%e7, H7⟩, ⟨%e8, H8⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover2_C_7 c _ _ _ _ _ _ _ _ _ _ _ _ _ _ _ _ _ _ _ _ _ _ _ _ _ _ _ _ _ _ _)
        unfold owns; iexists _; isplitr
        swap; · iexact H8
        ipureintro; exact View.read_writes_of_cover _ _ _ _ _ (cover2_C_8 c _ _ _ _ _ _ _ _ _ _ _ _ _ _ _ _ _ _ _ _ _ _ _ _ _ _ _ _ _ _ _)
    ·
      rw [show (dat2 q V c).leavesExact 0 t = owns (c : Thread nD τ) (ms2_0 t) fullShare ((dat2 q V c).after 0 t) from by
        unfold Dat.leavesExact; rw [liveAt2_0 t], after2_0]
      rw [show (dat2 q V c).leavesExact 1 t = owns (c : Thread nD τ) (ms2_1 t) fullShare ((dat2 q V c).after 1 t) from by
        unfold Dat.leavesExact; rw [liveAt2_1 t], after2_1]
      rw [show (dat2 q V c).leavesExact 2 t = owns (c : Thread nD τ) (ms2_2 t) fullShare ((dat2 q V c).after 2 t) from by
        unfold Dat.leavesExact; rw [liveAt2_2 t], after2_2]
      rw [show (dat2 q V c).leavesExact 3 t = owns (c : Thread nD τ) (ms2_3 t) fullShare ((dat2 q V c).after 3 t) from by
        unfold Dat.leavesExact; rw [liveAt2_3 t], after2_3]
      rw [show (dat2 q V c).leavesExact 4 t = owns (c : Thread nD τ) (ms2_4 t) fullShare ((dat2 q V c).after 4 t) from by
        unfold Dat.leavesExact; rw [liveAt2_4 t], after2_4]
      rw [show (dat2 q V c).leavesExact 5 t = owns (c : Thread nD τ) (ms2_5 t) fullShare ((dat2 q V c).after 5 t) from by
        unfold Dat.leavesExact; rw [liveAt2_5 t], after2_5]
      rw [show (dat2 q V c).leavesExact 6 t = owns (c : Thread nD τ) (ms2_6 t) fullShare ((dat2 q V c).after 6 t) from by
        unfold Dat.leavesExact; rw [liveAt2_6 t], after2_6]
      rw [show (dat2 q V c).leavesExact 7 t = owns (c : Thread nD τ) (ms2_7 t) fullShare ((dat2 q V c).after 7 t) from by
        unfold Dat.leavesExact; rw [liveAt2_7 t], after2_7]
      rw [Dat.leavesExact_idle (dat2 q V c) 8 t (idleAt2_8_B t (fun h => h0 ((hcond2_0 t).mp h)) (fun h => h1 ((hcond2_1 t).mp h))) (noFlush2_8_B t (fun h => h0 ((hcond2_0 t).mp h)) (fun h => h1 ((hcond2_1 t).mp h)))]
      rw [outsAt2_B V c t h0 h1]
      unfold out2_B_7 sout2_B_0; (try dsimp only)
      by_cases hz : t.val = 0
      · exfalso; omega
      ·
        rw [PhiS2_castSucc q V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_B c (grid2.coords t) _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        iintro ⟨H0, H1, H2, H3, H4, H5, H6, ⟨%e7, H7⟩, H8, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover2_B_7 c _ _ _ _ _ _ _ _ _ _ _ _ _ _ _ _ _ _ _ _ _ _ _ _ _ _ _ _ _ _ _)
        iexists _; iexact H8

/-- The library's body obligation, at every point. -/
theorem body_obligation2 (c : Dev nD) : BodyObligation (dat2 (F := F) q V c) (defs₀ (F := F)) Variants.none () Set.univ := fun t => by
  rw [bigSep_W2, bigSep_W2]
  exact sound_body2 q V c t

/-- What the launch hands the region is the invariant before the first point. -/
theorem hin2 (c : Dev nD) : Pipeline.ΦA spec2 c ⊢ (dat2 q V c).Φ 0 := by
  rw [show (dat2 q V c).Φ 0 = PhiS2 V c 0 (Nat.zero_le _) from rfl, PhiS2_zero V c 0 _ rfl]
  try exact Idealize.SL.BI.Entails.refl _

/-- After any point but the first the invariant gives the class's back: the carried scratch's named contents are forgotten. -/
theorem Phi_out2 (c : Dev nD) (t : Fin (cfg2.N + 1)) (ht : t.val ≠ 0) : (dat2 q V c).Φ t ⊢ Pipeline.ΦA spec2 c := by
  rw [show (dat2 q V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 q V c).Φ (Fin.last cfg2.N) ⊢ Pipeline.ΦA spec2 c :=
  Phi_out2 q V c _ (by rw [Fin.val_last]; have : cfg2.N = 80 := N_2; omega)

end Region2

end Cert.KernelIdeal.Hand

end
-- ==== Proof.KI.N3.Runs.lean ====
/- The node kernel at this region: what the three cases of its body share. Each window's block at a point, read off the
   contents the region is entered with (a parameter `V`); each input's staging buffer at its block at every point;
   the body's two branch conditions, decided over the ten grid points (the first point resets the accumulator, the
   last stores it to output 7); where the windows are idle; the staging and scratch memrefs as the pipeline passes
   them; and the region invariant with the kernel's own scratch split out of the scoped rest. -/
import proofs.«108204_j49847390437921_1_alg».proof.Proof.Gen.KernelIdeal.Launch
import proofs.«108204_j49847390437921_1_alg».proof.Proof.Gen.KernelIdeal.Skeleton
import proofs.«108204_j49847390437921_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of the blocks' extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block index
    has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): unfetched, the block index
    has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): unfetched, the block index
    has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): unfetched, the block index
    has not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s (`hA`) and whose body leaves the block in place (`hafter`): unfetched, the block index
    has not moved; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s (`hA`) and whose body leaves the block in place (`hafter`): unfetched, the block index
    has not moved; the window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

end Regions

/-! ## The body's branch conditions -/

/-- The condition of the body's first `scf.if` (the accumulator's reset), from the grid coordinates: the part's
    scalar chain substituted. -/
abbrev cond3_0 (i : grid3.Coords) : Prop := (Scalar.cmpi .ne (Scalar.extui (Scalar.cmpi .eq (BitVec.ofNat 32 (i 0).val) 0#32)) 0#32) = 1#1
/-- It holds at the first point only — decided over the grid. -/
theorem hcond3_0 : ∀ t : Fin cfg3.N, cond3_0 (grid3.coords t) ↔ t.val % 10 = 0 :=
  (by decide +kernel : ∀ t : Fin grid3.N, cond3_0 (grid3.coords t) ↔ t.val % 10 = 0)

/-- The condition of the body's second `scf.if` (the store of the accumulator to output 7). -/
abbrev cond3_1 (i : grid3.Coords) : Prop := k3_cond2 i = 1#1
/-- It holds at the last point only — decided over the grid. -/
theorem hcond3_1 : ∀ t : Fin cfg3.N, cond3_1 (grid3.coords t) ↔ t.val % 10 = 9 :=
  (by decide +kernel : ∀ t : Fin grid3.N, cond3_1 (grid3.coords t) ↔ t.val % 10 = 9)

/-! ## Where the windows are idle -/

/-- Window 0 is never idle (an input). -/
theorem liveAt3_0 : ∀ t : Fin cfg3.N, cfg3.idle 0 (grid3.coords t) = false := by decide +kernel
/-- Window 1 is never idle (an input). -/
theorem liveAt3_1 : ∀ t : Fin cfg3.N, cfg3.idle 1 (grid3.coords t) = false := by decide +kernel
/-- Window 2 is never idle (an input). -/
theorem liveAt3_2 : ∀ t : Fin cfg3.N, cfg3.idle 2 (grid3.coords t) = false := by decide +kernel
/-- Window 3 is never idle (an input). -/
theorem liveAt3_3 : ∀ t : Fin cfg3.N, cfg3.idle 3 (grid3.coords t) = false := by decide +kernel
/-- Window 4 is never idle (an input). -/
theorem liveAt3_4 : ∀ t : Fin cfg3.N, cfg3.idle 4 (grid3.coords t) = false := by decide +kernel
/-- Window 5 is never idle (an input). -/
theorem liveAt3_5 : ∀ t : Fin cfg3.N, cfg3.idle 5 (grid3.coords t) = false := by decide +kernel
/-- Window 6 is never idle (stored at every point). -/
theorem liveAt3_6 : ∀ t : Fin cfg3.N, cfg3.idle 6 (grid3.coords t) = false := by decide +kernel

/-- At the first point output 7 is idle: the case stores nothing into it. -/
theorem idleAt3_7_A : ∀ t : Fin cfg3.N, cond3_0 (grid3.coords t) → ¬cond3_1 (grid3.coords t) → cfg3.idle 7 (grid3.coords t) = true := by decide +kernel
/-- At the first point the pipeline does not write output 7's block back. -/
theorem noFlush3_7_A : ∀ t : Fin cfg3.N, cond3_0 (grid3.coords t) → ¬cond3_1 (grid3.coords t) → (cfg3.win 7).flush t = false := by decide +kernel
/-- At a middle point output 7 is idle: the case stores nothing into it. -/
theorem idleAt3_7_B : ∀ t : Fin cfg3.N, ¬cond3_0 (grid3.coords t) → ¬cond3_1 (grid3.coords t) → cfg3.idle 7 (grid3.coords t) = true := by decide +kernel
/-- At a middle point the pipeline does not write output 7's block back. -/
theorem noFlush3_7_B : ∀ t : Fin cfg3.N, ¬cond3_0 (grid3.coords t) → ¬cond3_1 (grid3.coords t) → (cfg3.win 7).flush t = false := by decide +kernel
/-- At the last point output 7 is live: the case stores into it. -/
theorem liveAt3_7_C : ∀ t : Fin cfg3.N, ¬cond3_0 (grid3.coords t) → cond3_1 (grid3.coords t) → cfg3.idle 7 (grid3.coords t) = false := by decide +kernel

/-! ## The staging and scratch memrefs -/

/-- One staging buffer of each output window, through which its contents are stated (read back over its pieces: the
    choice of buffer does not matter). -/
abbrev VO3_6 : View sig .tc .vmem S10000x64 .f32 := (Memref.whole cc3_stg6_0 : Memref sig .tc .vmem S10000x64 .f32).view
abbrev VO3_7 : View sig .tc .vmem S1x64 .f32 := (Memref.whole cc3_stg7_0 : Memref sig .tc .vmem S1x64 .f32).view
/-- Each window's current staging memref at point `t`, spelled as the pipeline passes it, and its wholeness. -/
abbrev ms3_0 (t : Fin cfg3.N) : Memref sig .tc .vmem S10000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10000x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S10000x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S4x64x64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x64 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S10000x64 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x64 .f32 := win3_7.stage (cfg3.slots t 7)
abbrev hs3_7 (t : Fin cfg3.N) : (ms3_7 t).IsWhole := hstage3_7 ((cfg3.slots t 7).cast nbuf3_7)
/-- The scratch operand: a whole scoped buffer of the kernel's own, passed beside the windows. -/
abbrev scM3_0 : Memref sig .tc .vmem S1x64 .f32 := Memref.whole cc3_scratch0
/-- The scratch the kernel carries between points, as a view: what it holds is stated through it. -/
abbrev VS3_0 : View sig .tc .vmem S1x64 .f32 := scM3_0.view

/-- The class's region invariant with the kernel's scratch split out as a memref owned at some contents; the other
    scoped buffers stay unopened beside it. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.KernelIdeal.Hand

end
-- ==== Proof.KI.N3.RunA.lean ====
/- The node kernel at this region: the run of its whole body at the first point (one module per case, each importing the one
   before it, so that each case elaborates on its own and an auxiliary equation of the part's skeleton is declared once). -/
import proofs.«108204_j49847390437921_1_alg».proof.Proof.KI.N3.Runs

-- membership in a rectangle of the blocks' extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), at the first point: the accumulator's reset is taken, the store to output 7 is not;
    WITH the proof that on whole staging memrefs — the inputs' at their contents `x·`, output 6's at anything (the body
    loads it before storing, and uses nothing of what it loads), output 7's, into which the case stores nothing, at contents
    `xi7` handed back untouched, the scratch at anything (the reset overwrites it before it is read) — the
    body runs to the continuation holding the inputs' as they were and each written buffer with its pieces written. The
    printed function is its skeleton, run through its part; each `scf.if` is decided by the case's hypotheses; the
    pieces are the witness the run finds. -/
noncomputable def kernelRun3_A (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) :
    Σ' (L6 : List (View.Piece (Elt F) S10000x64 .f32)) (L7 : List (View.Piece (Elt F) S1x64 .f32)), { LS0 : List (View.Piece (Elt F) S1x64 .f32) //
      ∀ (xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc3__node_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc3__node_kernel_eq_skeleton]; unfold cc3__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

end Cert.KernelIdeal.Hand

end
-- ==== Proof.KI.N3.RunB.lean ====
/- The node kernel at this region: the run of its whole body at a middle point (one module per case, each importing the one
   before it, so that each case elaborates on its own and an auxiliary equation of the part's skeleton is declared once). -/
import proofs.«108204_j49847390437921_1_alg».proof.Proof.KI.N3.RunA

-- membership in a rectangle of the blocks' extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), at a middle point: neither the accumulator's reset nor the store to output 7 is taken;
    WITH the proof that on whole staging memrefs — the inputs' at their contents `x·`, output 6's at anything (the body
    loads it before storing, and uses nothing of what it loads), output 7's, into which the case stores nothing, at contents
    `xi7` handed back untouched, the scratch at what the point before left (`xs0`) — the
    body runs to the continuation holding the inputs' as they were and each written buffer with its pieces written. The
    printed function is its skeleton, run through its part; each `scf.if` is decided by the case's hypotheses; the
    pieces are the witness the run finds. -/
noncomputable def kernelRun3_B (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) :
    Σ' (L6 : List (View.Piece (Elt F) S10000x64 .f32)) (L7 : List (View.Piece (Elt F) S1x64 .f32)), { LS0 : List (View.Piece (Elt F) S1x64 .f32) //
      ∀ (xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc3__node_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc3__node_kernel_eq_skeleton]; unfold cc3__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

end Cert.KernelIdeal.Hand

end
-- ==== Proof.KI.N3.RunC.lean ====
/- The node kernel at this region: the run of its whole body at the last point (one module per case, each importing the one
   before it, so that each case elaborates on its own and an auxiliary equation of the part's skeleton is declared once). -/
import proofs.«108204_j49847390437921_1_alg».proof.Proof.KI.N3.RunB

-- membership in a rectangle of the blocks' extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), at the last point: the accumulator's reset is not taken, the store to output 7 is;
    WITH the proof that on whole staging memrefs — the inputs' at their contents `x·`, output 6's at anything (the body
    loads it before storing, and uses nothing of what it loads), output 7's at anything (likewise), the scratch at what the point before left (`xs0`) — the
    body runs to the continuation holding the inputs' as they were and each written buffer with its pieces written. The
    printed function is its skeleton, run through its part; each `scf.if` is decided by the case's hypotheses; the
    pieces are the witness the run finds. -/
noncomputable def kernelRun3_C (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) :
    Σ' (L6 : List (View.Piece (Elt F) S10000x64 .f32)) (L7 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc3__node_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc3__node_kernel_eq_skeleton]; unfold cc3__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.KernelIdeal.Hand

end
-- ==== Proof.KI.N3.Body.lean ====
/- The node kernel at this region: its proof data and body obligation, at region-entry contents `V` and array shares `q`.
   From the three runs: what each case leaves in output 6's and output 7's staging buffers and in the scratch (its
   pieces read back; they cover the buffer); the accumulation `outsAt3` over the ten points (the scratch carried from
   point to point); the region invariant with the scratch at what the point before left; the proof data `dat3`; the
   body at a generic point, by cases on the point; and the invariant's two ends. -/
import proofs.«108204_j49847390437921_1_alg».proof.Proof.KI.N3.RunC

-- membership in a rectangle of the blocks' extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the share held of each window's array, and the TensorCore's buffer contents when the region is entered
variable (q : Fin cfg3.W → PosShare TreeShare) (V : (c : Dev nD) → (b : Ref sig .tc) → Buf (Elt F) ((c : Thread nD τ).loc b))

/-! ## What each case leaves -/

/-- The pieces the first point stores into output 6 tile its block (one store of the whole block), so they cover it. -/
theorem cover3_A_6 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) (y : S10000x64.Idx) :
    ∃ pc ∈ (kernelRun3_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3 x4 x5).1 S10000x64.size (by sl_kernel_rfl) y

/-- What the first point leaves in output 6's staging buffer: its pieces read back over junk. -/
def out3_A_6 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) : Vec F S10000x64 .f32 :=
  VO3_6.read (Elt F) (VO3_6.writes (Elt F) VO3_6.junk (kernelRun3_A c i arg1 harg1 arg2 harg2 arg3 harg3 arg4 harg4 arg5 harg5 arg6 harg6 arg7 harg7 arg8 harg8 arg9 harg9 hc0 hc1 x0 x1 x2 x3 x4 x5).1)

/-- The first point stores nothing into output 7 (the window is idle there and not written back): no pieces — a
    placeholder that nothing consults, the window being neither written back there nor read at the next point. -/
def out3_A_7 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) : Vec F S1x64 .f32 :=
  VO3_7.read (Elt F) (VO3_7.writes (Elt F) VO3_7.junk (kernelRun3_A c i arg1 harg1 arg2 harg2 arg3 harg3 arg4 harg4 arg5 harg5 arg6 harg6 arg7 harg7 arg8 harg8 arg9 harg9 hc0 hc1 x0 x1 x2 x3 x4 x5).2.1)

/-- The pieces the first point stores into the scratch cover it. -/
theorem scover3_A_0 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) (y : S1x64.Idx) :
    ∃ pc ∈ (kernelRun3_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3 x4 x5).2.2.1 S1x64.size (by sl_kernel_rfl) y

/-- What the first point leaves in the scratch: its pieces read back over junk. -/
def sout3_A_0 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) : Vec F S1x64 .f32 :=
  VS3_0.read (Elt F) (VS3_0.writes (Elt F) VS3_0.junk (kernelRun3_A c i arg1 harg1 arg2 harg2 arg3 harg3 arg4 harg4 arg5 harg5 arg6 harg6 arg7 harg7 arg8 harg8 arg9 harg9 hc0 hc1 x0 x1 x2 x3 x4 x5).2.2.1)

/-- The pieces a middle point stores into output 6 tile its block (one store of the whole block), so they cover it. -/
theorem cover3_B_6 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S10000x64.Idx) :
    ∃ pc ∈ (kernelRun3_B c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 x4 x5 xs0).1 S10000x64.size (by sl_kernel_rfl) y

/-- What a middle point leaves in output 6's staging buffer: its pieces read back over junk. -/
def out3_B_6 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S10000x64 .f32 :=
  VO3_6.read (Elt F) (VO3_6.writes (Elt F) VO3_6.junk (kernelRun3_B c i arg1 harg1 arg2 harg2 arg3 harg3 arg4 harg4 arg5 harg5 arg6 harg6 arg7 harg7 arg8 harg8 arg9 harg9 hc0 hc1 x0 x1 x2 x3 x4 x5 xs0).1)

/-- A middle point stores nothing into output 7 (the window is idle there and not written back): no pieces — a
    placeholder that nothing consults, the window being neither written back there nor read at the next point. -/
def out3_B_7 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VO3_7.read (Elt F) (VO3_7.writes (Elt F) VO3_7.junk (kernelRun3_B c i arg1 harg1 arg2 harg2 arg3 harg3 arg4 harg4 arg5 harg5 arg6 harg6 arg7 harg7 arg8 harg8 arg9 harg9 hc0 hc1 x0 x1 x2 x3 x4 x5 xs0).2.1)

/-- The pieces a middle point stores into the scratch cover it. -/
theorem scover3_B_0 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S1x64.Idx) :
    ∃ pc ∈ (kernelRun3_B c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 x4 x5 xs0).2.2.1 S1x64.size (by sl_kernel_rfl) y

/-- What a middle point leaves in the scratch: its pieces read back over junk. -/
def sout3_B_0 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VS3_0.read (Elt F) (VS3_0.writes (Elt F) VS3_0.junk (kernelRun3_B c i arg1 harg1 arg2 harg2 arg3 harg3 arg4 harg4 arg5 harg5 arg6 harg6 arg7 harg7 arg8 harg8 arg9 harg9 hc0 hc1 x0 x1 x2 x3 x4 x5 xs0).2.2.1)

/-- The pieces the last point stores into output 6 tile its block (one store of the whole block), so they cover it. -/
theorem cover3_C_6 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S10000x64.Idx) :
    ∃ pc ∈ (kernelRun3_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 x5 xs0).1 S10000x64.size (by sl_kernel_rfl) y

/-- What the last point leaves in output 6's staging buffer: its pieces read back over junk. -/
def out3_C_6 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S10000x64 .f32 :=
  VO3_6.read (Elt F) (VO3_6.writes (Elt F) VO3_6.junk (kernelRun3_C c i arg1 harg1 arg2 harg2 arg3 harg3 arg4 harg4 arg5 harg5 arg6 harg6 arg7 harg7 arg8 harg8 arg9 harg9 hc0 hc1 x0 x1 x2 x3 x4 x5 xs0).1)

/-- The pieces the last point stores into output 7 tile its block (one store of the whole block), so they cover it. -/
theorem cover3_C_7 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S1x64.Idx) :
    ∃ pc ∈ (kernelRun3_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 x5 xs0).2.1 S1x64.size (by sl_kernel_rfl) y

/-- What the last point leaves in output 7's staging buffer: its pieces read back over junk. -/
def out3_C_7 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VO3_7.read (Elt F) (VO3_7.writes (Elt F) VO3_7.junk (kernelRun3_C c i arg1 harg1 arg2 harg2 arg3 harg3 arg4 harg4 arg5 harg5 arg6 harg6 arg7 harg7 arg8 harg8 arg9 harg9 hc0 hc1 x0 x1 x2 x3 x4 x5 xs0).2.1)

/-- The pieces the last point stores into the scratch cover it. -/
theorem scover3_C_0 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S1x64.Idx) :
    ∃ pc ∈ (kernelRun3_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 x5 xs0).2.2.1 S1x64.size (by sl_kernel_rfl) y

/-- What the last point leaves in the scratch: its pieces read back over junk. -/
def sout3_C_0 (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VS3_0.read (Elt F) (VS3_0.writes (Elt F) VS3_0.junk (kernelRun3_C c i arg1 harg1 arg2 harg2 arg3 harg3 arg4 harg4 arg5 harg5 arg6 harg6 arg7 harg7 arg8 harg8 arg9 harg9 hc0 hc1 x0 x1 x2 x3 x4 x5 xs0).2.2.1)

/-! ## What the outputs and the scratch hold after each point -/

/-- THE ACCUMULATION. What output 6's and output 7's staging buffers and the scratch hold after the body at position
    `n`: the case the closed forms select at `n`, run at the point's memrefs and input blocks, the scratch at what
    this leaves at `n - 1`. An assignment of the conditions no point meets is no case. -/
def outsAt3 (c : Dev nD) : (n : ℕ) → n < cfg3.N → Vec F S10000x64 .f32 × Vec F S1x64 .f32 × Vec F S1x64 .f32
  | 0, hn => (out3_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), out3_A_7 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩))
  | n + 1, hn =>
    if h0 : (n + 1) % 10 = 0 then
      if h1 : (n + 1) % 10 = 9 then
        False.elim (by omega)
      else
        (out3_A_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), out3_A_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩))
    else
      if h1 : (n + 1) % 10 = 9 then
        (out3_C_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2, out3_C_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2)
      else
        (out3_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2, out3_B_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2)

/-- `outsAt3` at the first point: that case's contents. -/
theorem outsAt3_A (c : Dev nD) (t : Fin cfg3.N) (h0 : t.val % 10 = 0) (h1 : ¬t.val % 10 = 9) :
    outsAt3 V c t.val t.isLt = (out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)) := by
  obtain ⟨n, hn⟩ := t
  cases n with
  | zero => exact rfl
  | succ n => exact (dif_pos h0).trans ((dif_neg h1).trans rfl)

/-- `outsAt3` at a middle point: that case's contents, over what the point before left. -/
theorem outsAt3_B (c : Dev nD) (t : Fin cfg3.N) (h0 : ¬t.val % 10 = 0) (h1 : ¬t.val % 10 = 9) :
    outsAt3 V c t.val t.isLt = (out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2, out3_B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt3` at the last point: that case's contents, over what the point before left. -/
theorem outsAt3_C (c : Dev nD) (t : Fin cfg3.N) (h0 : ¬t.val % 10 = 0) (h1 : t.val % 10 = 9) :
    outsAt3 V c t.val t.isLt = (out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2, out3_C_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the class's (the scratch at anything);
    afterwards the scratch at what the point before left in it (`outsAt3`'s third component), the other scoped buffers
    unopened, and the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2)) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the scratch at that point's contents. -/
theorem PhiS3_succ (c : Dev nD) (n : ℕ) (hn : n < cfg3.N) :
    PhiS3 V c (n + 1) hn = iprop(iprop(iprop(owns (c : Thread nD τ) scM3_0 fullShare ((outsAt3 V c n hn).2.2)) ∗ Pipeline.scopedRestBut (Ix := Unit) (Name := ℕ) (U := UR sig nD τ) (Lvl := ℕ) (Val := Elt F) spec3 c [cc3_scratch0]) ∗ (∃ r, prngReg c r)) := rfl

/-- Before a point that is not the first: the scratch at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the outputs' at `outsAt3`'s components; the invariant `PhiS3`;
    nothing owed; the arrays' shares `q`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
    | ⟨7, _⟩ => (outsAt3 V c t.val t.isLt).2.1
  Φ t := PhiS3 V c t.val (Nat.le_of_lt_succ t.isLt)
  q := q
  owed _ := 0

/-- The proof data's arrays are the region-entry contents (the definition projected, `V` never unfolded). -/
theorem A_eq3 (c : Dev nD) (w : Fin cfg3.W) : (dat3 q V c).A w = V c (Pipeline.arrRef spec3 w) := by
  dsimp only [dat3]

/-- The invariant at a point's start, restated at `t.val`. -/
theorem PhiS3_castSucc (c : Dev nD) (t : Fin cfg3.N) :
    (dat3 q V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 q V c).after 0 t = iblk3 V c 0 t := by dsimp only [dat3]
theorem after3_1 (c : Dev nD) (t : Fin cfg3.N) : (dat3 q V c).after 1 t = iblk3 V c 1 t := by dsimp only [dat3]
theorem after3_2 (c : Dev nD) (t : Fin cfg3.N) : (dat3 q V c).after 2 t = iblk3 V c 2 t := by dsimp only [dat3]
theorem after3_3 (c : Dev nD) (t : Fin cfg3.N) : (dat3 q V c).after 3 t = iblk3 V c 3 t := by dsimp only [dat3]
theorem after3_4 (c : Dev nD) (t : Fin cfg3.N) : (dat3 q V c).after 4 t = iblk3 V c 4 t := by dsimp only [dat3]
theorem after3_5 (c : Dev nD) (t : Fin cfg3.N) : (dat3 q V c).after 5 t = iblk3 V c 5 t := by dsimp only [dat3]
theorem after3_6 (c : Dev nD) (t : Fin cfg3.N) : (dat3 q V c).after 6 t = (outsAt3 V c t.val t.isLt).1 := by dsimp only [dat3]
theorem after3_7 (c : Dev nD) (t : Fin cfg3.N) : (dat3 q V c).after 7 t = (outsAt3 V c t.val t.isLt).2.1 := by dsimp only [dat3]

/-- Each input's current staging buffer holds its block at every point, fetched there or not. -/
theorem before3_0 (c : Dev nD) (t : Fin cfg3.N) (d) : (dat3 q V c).before 0 t d = iblk3 V c 0 t :=
  before3_0_of V (dat3 q V c) (A_eq3 q V c 0) (after3_0 q V c) t d
theorem before3_1 (c : Dev nD) (t : Fin cfg3.N) (d) : (dat3 q V c).before 1 t d = iblk3 V c 1 t :=
  before3_1_of V (dat3 q V c) (A_eq3 q V c 1) (after3_1 q V c) t d
theorem before3_2 (c : Dev nD) (t : Fin cfg3.N) (d) : (dat3 q V c).before 2 t d = iblk3 V c 2 t :=
  before3_2_of V (dat3 q V c) (A_eq3 q V c 2) (after3_2 q V c) t d
theorem before3_3 (c : Dev nD) (t : Fin cfg3.N) (d) : (dat3 q V c).before 3 t d = iblk3 V c 3 t :=
  before3_3_of V (dat3 q V c) (A_eq3 q V c 3) (after3_3 q V c) t d
theorem before3_4 (c : Dev nD) (t : Fin cfg3.N) (d) : (dat3 q V c).before 4 t d = iblk3 V c 4 t :=
  before3_4_of V (dat3 q V c) (A_eq3 q V c 4) (after3_4 q V c) t d
theorem before3_5 (c : Dev nD) (t : Fin cfg3.N) (d) : (dat3 q V c).before 5 t d = iblk3 V c 5 t :=
  before3_5_of V (dat3 q V c) (A_eq3 q V c 5) (after3_5 q V c) t d

/-! ## The body obligation, at a generic point -/

/-- What the body is called with at point `t` (the body obligation's precondition, the windows one by one), -/
def bodyPre3 (c : Dev nD) (t : Fin cfg3.N) : sProp 𝕄 :=
  iprop((dat3 q V c).Φ t.castSucc ∗ (dat3 q V c).owesAt () t.castSucc
    ∗ (∃ d, owns (c : Thread nD τ) (ms3_0 t) fullShare ((dat3 q V c).before 0 t d))
    ∗ (∃ d, owns (c : Thread nD τ) (ms3_1 t) fullShare ((dat3 q V c).before 1 t d))
    ∗ (∃ d, owns (c : Thread nD τ) (ms3_2 t) fullShare ((dat3 q V c).before 2 t d))
    ∗ (∃ d, owns (c : Thread nD τ) (ms3_3 t) fullShare ((dat3 q V c).before 3 t d))
    ∗ (∃ d, owns (c : Thread nD τ) (ms3_4 t) fullShare ((dat3 q V c).before 4 t d))
    ∗ (∃ d, owns (c : Thread nD τ) (ms3_5 t) fullShare ((dat3 q V c).before 5 t d))
    ∗ (∃ d, owns (c : Thread nD τ) (ms3_6 t) fullShare ((dat3 q V c).before 6 t d))
    ∗ (∃ d, owns (c : Thread nD τ) (ms3_7 t) fullShare ((dat3 q V c).before 7 t d)))

/-- and what it returns. -/
def bodyPost3 (c : Dev nD) (t : Fin cfg3.N) : sProp 𝕄 :=
  iprop((dat3 q V c).Φ t.succ ∗ (dat3 q V c).owesAt () t.succ
    ∗ (dat3 q V c).leavesExact 0 t
    ∗ (dat3 q V c).leavesExact 1 t
    ∗ (dat3 q V c).leavesExact 2 t
    ∗ (dat3 q V c).leavesExact 3 t
    ∗ (dat3 q V c).leavesExact 4 t
    ∗ (dat3 q V c).leavesExact 5 t
    ∗ (dat3 q V c).leavesExact 6 t
    ∗ (dat3 q V c).leavesExact 7 t)

set_option maxHeartbeats 4800000 in
/-- The body at any point: the inputs' memrefs hold their blocks; the closed forms say which case the point is in; so
    that case's run applies. The invariant hands the body the scratch at what the point before left (at anything at
    the first point) and takes it back at this point's contents, its pieces covering it; the other scoped buffers and
    the generator register pass through; output 6's buffer is left at its pieces read back; output 7's is handed back
    as found except at the last point, where it is left at its pieces read back; the core owes nothing throughout. -/
theorem sound_body3 (c : Dev nD) (t : Fin cfg3.N) :
    bodyPre3 q V c t ⊢ wp frame (wpE (defs₀ (F := F)) Variants.none c none) Set.univ (bodyAt3 t) (fun _ => bodyPost3 q V c t) := by
  unfold bodyPre3 bodyPost3 bodyAt3
  simp only [before3_0, before3_1, before3_2, before3_3, before3_4, before3_5]
  rw [show (dat3 q V c).owesAt () t.succ = (dat3 q V c).owesAt () t.castSucc from rfl]
  rw [show (dat3 q V c).Φ t.succ = PhiS3 V c (t.val + 1) t.isLt from rfl, PhiS3_succ]
  have hN : t.val < 10 := lt_of_lt_of_eq t.isLt (show cfg3.N = 10 from N_3)
  by_cases h0 : t.val % 10 = 0
  · by_cases h1 : t.val % 10 = 9
    · exfalso; omega
    · rw [show (dat3 q V c).leavesExact 0 t = owns (c : Thread nD τ) (ms3_0 t) fullShare ((dat3 q V c).after 0 t) from by
        unfold Dat.leavesExact; rw [liveAt3_0 t], after3_0]
      rw [show (dat3 q V c).leavesExact 1 t = owns (c : Thread nD τ) (ms3_1 t) fullShare ((dat3 q V c).after 1 t) from by
        unfold Dat.leavesExact; rw [liveAt3_1 t], after3_1]
      rw [show (dat3 q V c).leavesExact 2 t = owns (c : Thread nD τ) (ms3_2 t) fullShare ((dat3 q V c).after 2 t) from by
        unfold Dat.leavesExact; rw [liveAt3_2 t], after3_2]
      rw [show (dat3 q V c).leavesExact 3 t = owns (c : Thread nD τ) (ms3_3 t) fullShare ((dat3 q V c).after 3 t) from by
        unfold Dat.leavesExact; rw [liveAt3_3 t], after3_3]
      rw [show (dat3 q V c).leavesExact 4 t = owns (c : Thread nD τ) (ms3_4 t) fullShare ((dat3 q V c).after 4 t) from by
        unfold Dat.leavesExact; rw [liveAt3_4 t], after3_4]
      rw [show (dat3 q V c).leavesExact 5 t = owns (c : Thread nD τ) (ms3_5 t) fullShare ((dat3 q V c).after 5 t) from by
        unfold Dat.leavesExact; rw [liveAt3_5 t], after3_5]
      rw [show (dat3 q V c).leavesExact 6 t = owns (c : Thread nD τ) (ms3_6 t) fullShare ((dat3 q V c).after 6 t) from by
        unfold Dat.leavesExact; rw [liveAt3_6 t], after3_6]
      rw [Dat.leavesExact_idle (dat3 q V c) 7 t (idleAt3_7_A t ((hcond3_0 t).mpr h0) (fun h => h1 ((hcond3_1 t).mp h))) (noFlush3_7_A t ((hcond3_0 t).mpr h0) (fun h => h1 ((hcond3_1 t).mp h)))]
      rw [outsAt3_A V c t h0 h1]
      unfold out3_A_6 sout3_A_0; (try dsimp only)
      by_cases hz : t.val = 0
      · rw [PhiS3_castSucc q V c t, PhiS3_zero V c _ _ hz, PhiA3_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover3_A_6 c _ _ _ _ _ _ _ _ _ _ _ _ _ _ _ _ _ _ _ _ _ _ _ _ _ _ _)
        iexists _; iexact H7
      · exfalso; omega
  · by_cases h1 : t.val % 10 = 9
    · rw [show (dat3 q V c).leavesExact 0 t = owns (c : Thread nD τ) (ms3_0 t) fullShare ((dat3 q V c).after 0 t) from by
        unfold Dat.leavesExact; rw [liveAt3_0 t], after3_0]
      rw [show (dat3 q V c).leavesExact 1 t = owns (c : Thread nD τ) (ms3_1 t) fullShare ((dat3 q V c).after 1 t) from by
        unfold Dat.leavesExact; rw [liveAt3_1 t], after3_1]
      rw [show (dat3 q V c).leavesExact 2 t = owns (c : Thread nD τ) (ms3_2 t) fullShare ((dat3 q V c).after 2 t) from by
        unfold Dat.leavesExact; rw [liveAt3_2 t], after3_2]
      rw [show (dat3 q V c).leavesExact 3 t = owns (c : Thread nD τ) (ms3_3 t) fullShare ((dat3 q V c).after 3 t) from by
        unfold Dat.leavesExact; rw [liveAt3_3 t], after3_3]
      rw [show (dat3 q V c).leavesExact 4 t = owns (c : Thread nD τ) (ms3_4 t) fullShare ((dat3 q V c).after 4 t) from by
        unfold Dat.leavesExact; rw [liveAt3_4 t], after3_4]
      rw [show (dat3 q V c).leavesExact 5 t = owns (c : Thread nD τ) (ms3_5 t) fullShare ((dat3 q V c).after 5 t) from by
        unfold Dat.leavesExact; rw [liveAt3_5 t], after3_5]
      rw [show (dat3 q V c).leavesExact 6 t = owns (c : Thread nD τ) (ms3_6 t) fullShare ((dat3 q V c).after 6 t) from by
        unfold Dat.leavesExact; rw [liveAt3_6 t], after3_6]
      rw [show (dat3 q V c).leavesExact 7 t = owns (c : Thread nD τ) (ms3_7 t) fullShare ((dat3 q V c).after 7 t) from by
        unfold Dat.leavesExact; rw [liveAt3_7_C t (fun h => h0 ((hcond3_0 t).mp h)) ((hcond3_1 t).mpr h1)], after3_7]
      rw [outsAt3_C V c t h0 h1]
      unfold out3_C_6 out3_C_7 sout3_C_0; (try dsimp only)
      by_cases hz : t.val = 0
      · exfalso; omega
      · rw [PhiS3_castSucc q V c t, PhiS3_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun3_C c (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover3_C_6 c _ _ _ _ _ _ _ _ _ _ _ _ _ _ _ _ _ _ _ _ _ _ _ _ _ _ _ _)
        unfold owns; iexists _; isplitr
        swap; · iexact H7
        ipureintro; exact View.read_writes_of_cover _ _ _ _ _ (cover3_C_7 c _ _ _ _ _ _ _ _ _ _ _ _ _ _ _ _ _ _ _ _ _ _ _ _ _ _ _ _)
    · rw [show (dat3 q V c).leavesExact 0 t = owns (c : Thread nD τ) (ms3_0 t) fullShare ((dat3 q V c).after 0 t) from by
        unfold Dat.leavesExact; rw [liveAt3_0 t], after3_0]
      rw [show (dat3 q V c).leavesExact 1 t = owns (c : Thread nD τ) (ms3_1 t) fullShare ((dat3 q V c).after 1 t) from by
        unfold Dat.leavesExact; rw [liveAt3_1 t], after3_1]
      rw [show (dat3 q V c).leavesExact 2 t = owns (c : Thread nD τ) (ms3_2 t) fullShare ((dat3 q V c).after 2 t) from by
        unfold Dat.leavesExact; rw [liveAt3_2 t], after3_2]
      rw [show (dat3 q V c).leavesExact 3 t = owns (c : Thread nD τ) (ms3_3 t) fullShare ((dat3 q V c).after 3 t) from by
        unfold Dat.leavesExact; rw [liveAt3_3 t], after3_3]
      rw [show (dat3 q V c).leavesExact 4 t = owns (c : Thread nD τ) (ms3_4 t) fullShare ((dat3 q V c).after 4 t) from by
        unfold Dat.leavesExact; rw [liveAt3_4 t], after3_4]
      rw [show (dat3 q V c).leavesExact 5 t = owns (c : Thread nD τ) (ms3_5 t) fullShare ((dat3 q V c).after 5 t) from by
        unfold Dat.leavesExact; rw [liveAt3_5 t], after3_5]
      rw [show (dat3 q V c).leavesExact 6 t = owns (c : Thread nD τ) (ms3_6 t) fullShare ((dat3 q V c).after 6 t) from by
        unfold Dat.leavesExact; rw [liveAt3_6 t], after3_6]
      rw [Dat.leavesExact_idle (dat3 q V c) 7 t (idleAt3_7_B t (fun h => h0 ((hcond3_0 t).mp h)) (fun h => h1 ((hcond3_1 t).mp h))) (noFlush3_7_B t (fun h => h0 ((hcond3_0 t).mp h)) (fun h => h1 ((hcond3_1 t).mp h)))]
      rw [outsAt3_B V c t h0 h1]
      unfold out3_B_6 sout3_B_0; (try dsimp only)
      by_cases hz : t.val = 0
      · exfalso; omega
      · rw [PhiS3_castSucc q V c t, PhiS3_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun3_B c (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover3_B_6 c _ _ _ _ _ _ _ _ _ _ _ _ _ _ _ _ _ _ _ _ _ _ _ _ _ _ _ _)
        iexists _; iexact H7

/-- The library's body obligation, at every point. -/
theorem body_obligation3 (c : Dev nD) : BodyObligation (dat3 (F := F) q V c) (defs₀ (F := F)) Variants.none () Set.univ := fun t => by
  rw [bigSep_W3, bigSep_W3]
  exact sound_body3 q V c t

/-- What the launch hands the region is the invariant before the first point. -/
theorem hin3 (c : Dev nD) : (Pipeline.ΦA spec3 c : sProp 𝕄) ⊢ (dat3 q V c).Φ 0 := by
  rw [show (dat3 q V c).Φ 0 = PhiS3 V c 0 (Nat.zero_le _) from rfl, PhiS3_zero V c 0 _ rfl]
  try exact Idealize.SL.BI.Entails.refl _

/-- After any point but the first the invariant gives the class's back: the scratch's named contents are forgotten. -/
theorem Phi_out3 (c : Dev nD) (t : Fin (cfg3.N + 1)) (ht : t.val ≠ 0) : (dat3 q V c).Φ t ⊢ (Pipeline.ΦA spec3 c : sProp 𝕄) := by
  rw [show (dat3 q V c).Φ t = PhiS3 V c t.val (Nat.le_of_lt_succ t.isLt) from rfl, PhiS3_pos V c _ _ ht, PhiA3_eq]
  iintro ⟨⟨HS0, Hrest⟩, Hg⟩
  isplitl [HS0 Hrest]
  · isplitl [HS0]
    · iexists _; iexact HS0
    iexact Hrest
  iexact Hg

/-- The same after the last point. -/
theorem hout3 (c : Dev nD) : (dat3 q V c).Φ (Fin.last cfg3.N) ⊢ (Pipeline.ΦA spec3 c : sProp 𝕄) :=
  Phi_out3 q V c _ (by rw [Fin.val_last]; have : cfg3.N = 10 := N_3; omega)

end Regions

end Cert.KernelIdeal.Hand

end
-- ==== Proof.KI.E4.Runs.lean ====
/- The edge kernel's body at the pipeline `cfg4`, first module: what the three
   whole-body runs share. The windows' blocks read off the arrays as the region finds them (a parameter `V`), the
   inputs' staging buffers at their blocks at every point, the two branch conditions of the body in closed form over
   the 80 grid points, where the two output windows are live or idle, the staging and scratch memrefs the body is
   called with, and the region invariant with the kernel's own scratch split off. -/
import proofs.«108204_j49847390437921_1_alg».proof.Proof.Gen.KernelIdeal.Launch
import proofs.«108204_j49847390437921_1_alg».proof.Proof.Gen.KernelIdeal.Skeleton
import proofs.«108204_j49847390437921_1_alg».proof.Proof.Gen.KernelIdeal.Points
import Idealize.ShloMosaic.Lib.Pipeline.FrameBody
import Idealize.ShloMosaic.Lib.Ring
import Idealize.ShloMosaic.Lib.Tactic

-- membership in a rectangle of production extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

-- the TensorCore's buffer contents when the region is entered: everything below is stated at any such contents
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (an unfetched
    input's block index has not moved), for any proof data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (an unfetched
    input's block index has not moved), for any proof data whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (an unfetched
    input's block index has not moved), for any proof data whose array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not (an unfetched
    input's block index has not moved), for any proof data whose array is `V`'s and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not (an unfetched
    input's block index has not moved), for any proof data whose array is `V`'s and whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not (an unfetched
    input's block index has not moved), for any proof data whose array is `V`'s and whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not (an unfetched
    input's block index has not moved), for any proof data whose array is `V`'s and whose body leaves the block in place. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

end Region4

/-! ## The body's branch conditions -/

/-- The condition of the body's first `scf.if` (the scratch is reset): the grid coordinate is 0, as the body computes it. -/
abbrev cond4_0 (i : grid4.Coords) : Prop := (Scalar.cmpi .ne (Scalar.extui (Scalar.cmpi .eq (BitVec.ofNat 32 (i 0).val) 0#32)) 0#32) = 1#1
/-- It holds at the first of the 80 points only. -/
theorem hcond4_0 : ∀ t : Fin cfg4.N, cond4_0 (grid4.coords t) ↔ t.val % 80 = 0 :=
  (by decide +kernel : ∀ t : Fin grid4.N, cond4_0 (grid4.coords t) ↔ t.val % 80 = 0)

/-- The condition of the body's second `scf.if` (the scratch is stored to the second output): the grid coordinate is 79. -/
abbrev cond4_1 (i : grid4.Coords) : Prop := k4_cond2 i = 1#1
/-- It holds at the last of the 80 points only. -/
theorem hcond4_1 : ∀ t : Fin cfg4.N, cond4_1 (grid4.coords t) ↔ t.val % 80 = 79 :=
  (by decide +kernel : ∀ t : Fin grid4.N, cond4_1 (grid4.coords t) ↔ t.val % 80 = 79)

/-! ## Where the windows are idle -/

/-- Window 0 is never idle. -/
theorem liveAt4_0 : ∀ t : Fin cfg4.N, cfg4.idle 0 (grid4.coords t) = false := by decide +kernel
/-- Window 1 is never idle. -/
theorem liveAt4_1 : ∀ t : Fin cfg4.N, cfg4.idle 1 (grid4.coords t) = false := by decide +kernel
/-- Window 2 is never idle. -/
theorem liveAt4_2 : ∀ t : Fin cfg4.N, cfg4.idle 2 (grid4.coords t) = false := by decide +kernel
/-- Window 3 is never idle. -/
theorem liveAt4_3 : ∀ t : Fin cfg4.N, cfg4.idle 3 (grid4.coords t) = false := by decide +kernel
/-- Window 4 is never idle. -/
theorem liveAt4_4 : ∀ t : Fin cfg4.N, cfg4.idle 4 (grid4.coords t) = false := by decide +kernel
/-- Window 5 is never idle. -/
theorem liveAt4_5 : ∀ t : Fin cfg4.N, cfg4.idle 5 (grid4.coords t) = false := by decide +kernel
/-- Window 6 is never idle. -/
theorem liveAt4_6 : ∀ t : Fin cfg4.N, cfg4.idle 6 (grid4.coords t) = false := by decide +kernel
/-- Window 7 is never idle. -/
theorem liveAt4_7 : ∀ t : Fin cfg4.N, cfg4.idle 7 (grid4.coords t) = false := by decide +kernel
/-- At the first point (case A) output 8 is idle: the case stores nothing into it. -/
theorem idleAt4_8_A : ∀ t : Fin cfg4.N, cond4_0 (grid4.coords t) → ¬cond4_1 (grid4.coords t) → cfg4.idle 8 (grid4.coords t) = true := by decide +kernel
/-- At the first point the pipeline does not write output 8's block back. -/
theorem noFlush4_8_A : ∀ t : Fin cfg4.N, cond4_0 (grid4.coords t) → ¬cond4_1 (grid4.coords t) → (cfg4.win 8).flush t = false := by decide +kernel
/-- At the middle points (case B) output 8 is idle: the case stores nothing into it. -/
theorem idleAt4_8_B : ∀ t : Fin cfg4.N, ¬cond4_0 (grid4.coords t) → ¬cond4_1 (grid4.coords t) → cfg4.idle 8 (grid4.coords t) = true := by decide +kernel
/-- At the middle points the pipeline does not write output 8's block back. -/
theorem noFlush4_8_B : ∀ t : Fin cfg4.N, ¬cond4_0 (grid4.coords t) → ¬cond4_1 (grid4.coords t) → (cfg4.win 8).flush t = false := by decide +kernel
/-- At the last point (case C) output 8 is live: the case stores into it. -/
theorem liveAt4_8_C : ∀ t : Fin cfg4.N, ¬cond4_0 (grid4.coords t) → cond4_1 (grid4.coords t) → cfg4.idle 8 (grid4.coords t) = false := by decide +kernel

/-! ## The memrefs the body is called with -/

/-- One staging buffer of each output window, through which its contents are stated (any choice reads the same). -/
abbrev VO4_7 : View sig .tc .vmem S10000x64 .f32 := (Memref.whole cc4_stg7_0 : Memref sig .tc .vmem S10000x64 .f32).view
abbrev VO4_8 : View sig .tc .vmem S1x64 .f32 := (Memref.whole cc4_stg8_0 : Memref sig .tc .vmem S1x64 .f32).view
/-- Each window's current staging memref at point `t`, spelled as the pipeline passes it, and its wholeness. -/
abbrev ms4_0 (t : Fin cfg4.N) : Memref sig .tc .vmem S10000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S10000x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S10000x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S10000x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5x64x64 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x64 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S10000x64 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x64 .f32 := win4_8.stage (cfg4.slots t 8)
abbrev hs4_8 (t : Fin cfg4.N) : (ms4_8 t).IsWhole := hstage4_8 ((cfg4.slots t 8).cast nbuf4_8)
/-- The scratch operand: a whole scoped buffer of the kernel's own, passed beside the windows. -/
abbrev scM4_0 : Memref sig .tc .vmem S1x64 .f32 := Memref.whole cc4_scratch0
/-- The scratch the kernel carries between points, as a view: what it holds is stated through it. -/
abbrev VS4_0 : View sig .tc .vmem S1x64 .f32 := scM4_0.view

/-- The region invariant with the kernel's scratch as a memref owned at some contents, every other scoped buffer
    carried unopened, and the generator register at some state: what the body obligation hands the run and takes back. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.KernelIdeal.Hand

end
-- ==== Proof.KI.E4.RunA.lean ====
/- The edge kernel's whole body at the pipeline `cfg4`, run once in case A: the first grid point (the first `scf.if` taken: the scratch is reset; the second not taken). The run's witness is the list
   of pieces each stored buffer ends with; one module per case, each importing the one before. -/
import proofs.«108204_j49847390437921_1_alg».proof.Proof.KI.E4.Runs

-- membership in a rectangle of production extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each stored buffer, as pieces (last first), in case A, with the proof that on whole
    staging memrefs — the seven inputs' at their contents `x0 … x6`, output 7's at anything, output 8's (no store: the window is idle and not written back here) at contents `xi8` handed back untouched, the scratch at anything (it is reset before it is read) —
    the body runs to the continuation holding the inputs' as they were and each stored buffer with its pieces written
    (the body loads output 7's buffer before storing it: the loaded values are not used). The printed function is its
    skeleton, which the symbolic executor runs through the part call; each `scf.if` is decided by the case's hypotheses. -/
noncomputable def kernelRun4_A (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) :
    Σ' (L7 : List (View.Piece (Elt F) S10000x64 .f32)) (L8 : List (View.Piece (Elt F) S1x64 .f32)), { LS0 : List (View.Piece (Elt F) S1x64 .f32) //
      ∀ (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xi8 ∗ (∃ f, arg10.view.loc (c : Thread nD τ) ↦[arg10.view.set]{fullShare} arg10.view.writes (Elt F) f LS0)) -∗ K ⟨⟩))
          ⊢ wp frame (wpE (defs₀ (F := F)) Variants.none c none) E (cc4__edge_kernel i arg1 harg1 arg2 harg2 arg3 harg3 arg4 harg4 arg5 harg5 arg6 harg6 arg7 harg7 arg8 harg8 arg9 harg9 arg10 harg10) K } := by
  refine ⟨?_, [], ?_, fun xi8 E K => ?run⟩
  case run =>
    simp only [cc4__edge_kernel_eq_skeleton]; unfold cc4__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    iexists _; iexact HS0

end Cert.KernelIdeal.Hand

end
-- ==== Proof.KI.E4.RunB.lean ====
/- The edge kernel's whole body at the pipeline `cfg4`, run once in case B: a middle grid point (neither `scf.if` taken). The run's witness is the list
   of pieces each stored buffer ends with; one module per case, each importing the one before. -/
import proofs.«108204_j49847390437921_1_alg».proof.Proof.KI.E4.RunA

-- membership in a rectangle of production extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each stored buffer, as pieces (last first), in case B, with the proof that on whole
    staging memrefs — the seven inputs' at their contents `x0 … x6`, output 7's at anything, output 8's (no store: the window is idle and not written back here) at contents `xi8` handed back untouched, the scratch at the contents `xs0` the point before left —
    the body runs to the continuation holding the inputs' as they were and each stored buffer with its pieces written
    (the body loads output 7's buffer before storing it: the loaded values are not used). The printed function is its
    skeleton, which the symbolic executor runs through the part call; each `scf.if` is decided by the case's hypotheses. -/
noncomputable def kernelRun4_B (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    Σ' (L7 : List (View.Piece (Elt F) S10000x64 .f32)) (L8 : List (View.Piece (Elt F) S1x64 .f32)), { LS0 : List (View.Piece (Elt F) S1x64 .f32) //
      ∀ (xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xi8 ∗ (∃ f, arg10.view.loc (c : Thread nD τ) ↦[arg10.view.set]{fullShare} arg10.view.writes (Elt F) f LS0)) -∗ K ⟨⟩))
          ⊢ wp frame (wpE (defs₀ (F := F)) Variants.none c none) E (cc4__edge_kernel i arg1 harg1 arg2 harg2 arg3 harg3 arg4 harg4 arg5 harg5 arg6 harg6 arg7 harg7 arg8 harg8 arg9 harg9 arg10 harg10) K } := by
  refine ⟨?_, [], ?_, fun xi8 E K => ?run⟩
  case run =>
    simp only [cc4__edge_kernel_eq_skeleton]; unfold cc4__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    iexists _; iexact HS0

end Cert.KernelIdeal.Hand

end
-- ==== Proof.KI.E4.RunC.lean ====
/- The edge kernel's whole body at the pipeline `cfg4`, run once in case C: the last grid point (the first `scf.if` not taken; the second taken: the scratch is stored to output 8). The run's witness is the list
   of pieces each stored buffer ends with; one module per case, each importing the one before. -/
import proofs.«108204_j49847390437921_1_alg».proof.Proof.KI.E4.RunB

-- membership in a rectangle of production extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each stored buffer, as pieces (last first), in case C, with the proof that on whole
    staging memrefs — the seven inputs' at their contents `x0 … x6`, both outputs' at anything, the scratch at the contents `xs0` the point before left —
    the body runs to the continuation holding the inputs' as they were and each stored buffer with its pieces written
    (the body loads output 7's buffer before storing it, and output 8's likewise: the loaded values are not used). The printed function is its
    skeleton, which the symbolic executor runs through the part call; each `scf.if` is decided by the case's hypotheses. -/
noncomputable def kernelRun4_C (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    Σ' (L7 : List (View.Piece (Elt F) S10000x64 .f32)) (L8 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0)) -∗ K ⟨⟩))
          ⊢ wp frame (wpE (defs₀ (F := F)) Variants.none c none) E (cc4__edge_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc4__edge_kernel_eq_skeleton]; unfold cc4__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact HS0

end Cert.KernelIdeal.Hand

end
-- ==== Proof.KI.E4.Body.lean ====
/- The edge kernel's body at the pipeline `cfg4`, last module: what the two output
   windows' staging buffers and the carried scratch hold after each of the 80 points (per case, then point by point),
   the pipeline's proof data at any entry contents `V` and any input shares `q`, the body obligation at every point,
   and the region invariant's two ends. -/
import proofs.«108204_j49847390437921_1_alg».proof.Proof.KI.E4.RunC

-- membership in a rectangle of production extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the stored buffers -/

/-- Case A's pieces for output 7 tile its 10000×64 block (one whole store), so they cover it. -/
theorem cover4_A_7 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (y : S10000x64.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4 x5 x6).1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4 x5 x6).1 S10000x64.size (by sl_kernel_rfl) y

/-- What case A leaves in output 7's staging buffer: its pieces read back over junk. -/
def out4_A_7 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) : Vec F S10000x64 .f32 :=
  VO4_7.read (Elt F) (VO4_7.writes (Elt F) VO4_7.junk (kernelRun4_A c i arg1 harg1 arg2 harg2 arg3 harg3 arg4 harg4 arg5 harg5 arg6 harg6 arg7 harg7 arg8 harg8 arg9 harg9 arg10 harg10 hc0 hc1 x0 x1 x2 x3 x4 x5 x6).1)

/-- Case A stores nothing into output 8 (the window is idle at its points and not written back there): no pieces,
    a placeholder nothing consults, since at these points the window is neither written back nor read at the next point. -/
def out4_A_8 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) : Vec F S1x64 .f32 :=
  VO4_8.read (Elt F) (VO4_8.writes (Elt F) VO4_8.junk (kernelRun4_A c i arg1 harg1 arg2 harg2 arg3 harg3 arg4 harg4 arg5 harg5 arg6 harg6 arg7 harg7 arg8 harg8 arg9 harg9 arg10 harg10 hc0 hc1 x0 x1 x2 x3 x4 x5 x6).2.1)

/-- Case A's pieces for the scratch the kernel carries between points cover it. -/
theorem scover4_A_0 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (y : S1x64.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4 x5 x6).2.2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4 x5 x6).2.2.1 S1x64.size (by sl_kernel_rfl) y

/-- What case A leaves in the scratch: its pieces read back over junk. -/
def sout4_A_0 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) : Vec F S1x64 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 hc0 hc1 x0 x1 x2 x3 x4 x5 x6).2.2.1)

/-- Case B's pieces for output 7 tile its 10000×64 block (one whole store), so they cover it. -/
theorem cover4_B_7 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S10000x64.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 x5 x6 xs0).1 S10000x64.size (by sl_kernel_rfl) y

/-- What case B leaves in output 7's staging buffer: its pieces read back over junk. -/
def out4_B_7 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S10000x64 .f32 :=
  VO4_7.read (Elt F) (VO4_7.writes (Elt F) VO4_7.junk (kernelRun4_B c i arg1 harg1 arg2 harg2 arg3 harg3 arg4 harg4 arg5 harg5 arg6 harg6 arg7 harg7 arg8 harg8 arg9 harg9 arg10 harg10 hc0 hc1 x0 x1 x2 x3 x4 x5 x6 xs0).1)

/-- Case B stores nothing into output 8 (the window is idle at its points and not written back there): no pieces,
    a placeholder nothing consults, since at these points the window is neither written back nor read at the next point. -/
def out4_B_8 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VO4_8.read (Elt F) (VO4_8.writes (Elt F) VO4_8.junk (kernelRun4_B c i arg1 harg1 arg2 harg2 arg3 harg3 arg4 harg4 arg5 harg5 arg6 harg6 arg7 harg7 arg8 harg8 arg9 harg9 arg10 harg10 hc0 hc1 x0 x1 x2 x3 x4 x5 x6 xs0).2.1)

/-- Case B's pieces for the scratch the kernel carries between points cover it. -/
theorem scover4_B_0 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S1x64.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 x5 x6 xs0).2.2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 x5 x6 xs0).2.2.1 S1x64.size (by sl_kernel_rfl) y

/-- What case B leaves in the scratch: its pieces read back over junk. -/
def sout4_B_0 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 hc0 hc1 x0 x1 x2 x3 x4 x5 x6 xs0).2.2.1)

/-- Case C's pieces for output 7 tile its 10000×64 block (one whole store), so they cover it. -/
theorem cover4_C_7 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S10000x64.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 x5 x6 xs0).1 S10000x64.size (by sl_kernel_rfl) y

/-- What case C leaves in output 7's staging buffer: its pieces read back over junk. -/
def out4_C_7 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S10000x64 .f32 :=
  VO4_7.read (Elt F) (VO4_7.writes (Elt F) VO4_7.junk (kernelRun4_C c i arg1 harg1 arg2 harg2 arg3 harg3 arg4 harg4 arg5 harg5 arg6 harg6 arg7 harg7 arg8 harg8 arg9 harg9 arg10 harg10 hc0 hc1 x0 x1 x2 x3 x4 x5 x6 xs0).1)

/-- Case C's pieces for output 8 tile its 1×64 block (one whole store), so they cover it. -/
theorem cover4_C_8 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 x5 x6 xs0).2.1 S1x64.size (by sl_kernel_rfl) y

/-- What case C leaves in output 8's staging buffer: its pieces read back over junk. -/
def out4_C_8 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VO4_8.read (Elt F) (VO4_8.writes (Elt F) VO4_8.junk (kernelRun4_C c i arg1 harg1 arg2 harg2 arg3 harg3 arg4 harg4 arg5 harg5 arg6 harg6 arg7 harg7 arg8 harg8 arg9 harg9 arg10 harg10 hc0 hc1 x0 x1 x2 x3 x4 x5 x6 xs0).2.1)

/-- Case C's pieces for the scratch the kernel carries between points cover it. -/
theorem scover4_C_0 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 x5 x6 xs0).2.2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 x5 x6 xs0).2.2.1 S1x64.size (by sl_kernel_rfl) y

/-- What case C leaves in the scratch: its pieces read back over junk. -/
def sout4_C_0 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) : Vec F S1x64 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 arg10 harg10 hc0 hc1 x0 x1 x2 x3 x4 x5 x6 xs0).2.2.1)

section Region4

variable (q : Fin cfg4.W → PosShare TreeShare)
variable (V : (c : Dev nD) → (b : Ref sig .tc) → Buf (Elt F) ((c : Thread nD τ).loc b))

/-! ## What the outputs hold after each point -/

/-- THE ACCUMULATION. What output 7's and output 8's staging buffers and the carried scratch hold after the body at
    position `n` (a triple, in that order): the case the closed forms select at `n`, run at the point's memrefs and input
    blocks, the scratch read at what position `n - 1` left in it. An assignment of the conditions no point meets is no case. -/
def outsAt4 (c : Dev nD) : (n : ℕ) → n < cfg4.N → Vec F S10000x64 .f32 × Vec F S1x64 .f32 × Vec F S1x64 .f32
  | 0, hn => (out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩), out4_A_8 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩))
  | n + 1, hn =>
    if h0 : (n + 1) % 80 = 0 then
      if h1 : (n + 1) % 80 = 79 then
        False.elim (by omega)
      else
        (out4_A_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩), out4_A_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩))
    else
      if h1 : (n + 1) % 80 = 79 then
        (out4_C_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2, out4_C_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2)
      else
        (out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2, out4_B_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (outsAt4 c n (Nat.lt_of_succ_lt hn)).2.2)

/-- `outsAt4` at a point of case A: that case's contents. -/
theorem outsAt4_A (c : Dev nD) (t : Fin cfg4.N) (h0 : t.val % 80 = 0) (h1 : ¬t.val % 80 = 79) :
    outsAt4 V c t.val t.isLt = (out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t), out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t)) := by
  obtain ⟨n, hn⟩ := t
  cases n with
  | zero => exact rfl
  | succ n => exact (dif_pos h0).trans ((dif_neg h1).trans rfl)

/-- `outsAt4` at a point of case B: that case's contents, over what the point before left. -/
theorem outsAt4_B (c : Dev nD) (t : Fin cfg4.N) (h0 : ¬t.val % 80 = 0) (h1 : ¬t.val % 80 = 79) :
    outsAt4 V c t.val t.isLt = (out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2, out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: that case's contents, over what the point before left. -/
theorem outsAt4_C (c : Dev nD) (t : Fin cfg4.N) (h0 : ¬t.val % 80 = 0) (h1 : t.val % 80 = 79) :
    outsAt4 V c t.val t.isLt = (out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2, out4_C_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer of the region at
    anything, the generator register at some state); afterwards the same with the carried scratch at what the point
    before left in it (`outsAt4`'s third component). -/
def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the carried scratch at that point's contents. -/
theorem PhiS4_succ (c : Dev nD) (n : ℕ) (hn : n < cfg4.N) :
    PhiS4 V c (n + 1) hn = iprop(iprop(iprop(owns (c : Thread nD τ) scM4_0 fullShare (outsAt4 V c n hn).2.2) ∗ Pipeline.scopedRestBut (Ix := Unit) (Name := ℕ) (U := UR sig nD τ) (Lvl := ℕ) (Val := Elt F) spec4 c [cc4_scratch0]) ∗ (∃ r, prngReg c r)) := rfl

/-- Before a point that is not the first: the carried scratch at what the point before left. -/
theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).2.2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the outputs' at `outsAt4`'s first two components; the invariant `PhiS4`;
    the inputs' shares `q`; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => (outsAt4 V c t.val t.isLt).1
    | ⟨8, _⟩ => (outsAt4 V c t.val t.isLt).2.1
  Φ t := PhiS4 V c t.val (Nat.le_of_lt_succ t.isLt)
  q := q
  owed _ := 0

/-- The proof data's arrays are the region-entry contents (the definition projected, so that `V` is never unfolded). -/
theorem A_eq4 (c : Dev nD) (w : Fin cfg4.W) : (dat4 q V c).A w = V c (Pipeline.arrRef spec4 w) := by
  dsimp only [dat4]

/-- The invariant at a point's start (the proof data at `t.castSucc`), restated at `t.val`. -/
theorem PhiS4_castSucc (c : Dev nD) (t : Fin cfg4.N) :
    (dat4 q V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 q V c).after 0 t = iblk4 V c 0 t := by dsimp only [dat4]
theorem after4_1 (c : Dev nD) (t : Fin cfg4.N) : (dat4 q V c).after 1 t = iblk4 V c 1 t := by dsimp only [dat4]
theorem after4_2 (c : Dev nD) (t : Fin cfg4.N) : (dat4 q V c).after 2 t = iblk4 V c 2 t := by dsimp only [dat4]
theorem after4_3 (c : Dev nD) (t : Fin cfg4.N) : (dat4 q V c).after 3 t = iblk4 V c 3 t := by dsimp only [dat4]
theorem after4_4 (c : Dev nD) (t : Fin cfg4.N) : (dat4 q V c).after 4 t = iblk4 V c 4 t := by dsimp only [dat4]
theorem after4_5 (c : Dev nD) (t : Fin cfg4.N) : (dat4 q V c).after 5 t = iblk4 V c 5 t := by dsimp only [dat4]
theorem after4_6 (c : Dev nD) (t : Fin cfg4.N) : (dat4 q V c).after 6 t = iblk4 V c 6 t := by dsimp only [dat4]
theorem after4_7 (c : Dev nD) (t : Fin cfg4.N) : (dat4 q V c).after 7 t = (outsAt4 V c t.val t.isLt).1 := by dsimp only [dat4]
theorem after4_8 (c : Dev nD) (t : Fin cfg4.N) : (dat4 q V c).after 8 t = (outsAt4 V c t.val t.isLt).2.1 := by dsimp only [dat4]

/-- Each input's current staging buffer holds its block at every point, fetched there or not. -/
theorem before4_0 (c : Dev nD) (t : Fin cfg4.N) (d) : (dat4 q V c).before 0 t d = iblk4 V c 0 t :=
  before4_0_of V (dat4 q V c) (A_eq4 q V c 0) (after4_0 q V c) t d
theorem before4_1 (c : Dev nD) (t : Fin cfg4.N) (d) : (dat4 q V c).before 1 t d = iblk4 V c 1 t :=
  before4_1_of V (dat4 q V c) (A_eq4 q V c 1) (after4_1 q V c) t d
theorem before4_2 (c : Dev nD) (t : Fin cfg4.N) (d) : (dat4 q V c).before 2 t d = iblk4 V c 2 t :=
  before4_2_of V (dat4 q V c) (A_eq4 q V c 2) (after4_2 q V c) t d
theorem before4_3 (c : Dev nD) (t : Fin cfg4.N) (d) : (dat4 q V c).before 3 t d = iblk4 V c 3 t :=
  before4_3_of V (dat4 q V c) (A_eq4 q V c 3) (after4_3 q V c) t d
theorem before4_4 (c : Dev nD) (t : Fin cfg4.N) (d) : (dat4 q V c).before 4 t d = iblk4 V c 4 t :=
  before4_4_of V (dat4 q V c) (A_eq4 q V c 4) (after4_4 q V c) t d
theorem before4_5 (c : Dev nD) (t : Fin cfg4.N) (d) : (dat4 q V c).before 5 t d = iblk4 V c 5 t :=
  before4_5_of V (dat4 q V c) (A_eq4 q V c 5) (after4_5 q V c) t d
theorem before4_6 (c : Dev nD) (t : Fin cfg4.N) (d) : (dat4 q V c).before 6 t d = iblk4 V c 6 t :=
  before4_6_of V (dat4 q V c) (A_eq4 q V c 6) (after4_6 q V c) t d

/-! ## The body obligation, at a generic point -/

/-- What the body is called with at point `t` (the obligation's precondition, the windows one by one), -/
def bodyPre4 (c : Dev nD) (t : Fin cfg4.N) : sProp 𝕄 :=
  iprop((dat4 q V c).Φ t.castSucc ∗ (dat4 q V c).owesAt () t.castSucc
    ∗ (∃ d, owns (c : Thread nD τ) (ms4_0 t) fullShare ((dat4 q V c).before 0 t d))
    ∗ (∃ d, owns (c : Thread nD τ) (ms4_1 t) fullShare ((dat4 q V c).before 1 t d))
    ∗ (∃ d, owns (c : Thread nD τ) (ms4_2 t) fullShare ((dat4 q V c).before 2 t d))
    ∗ (∃ d, owns (c : Thread nD τ) (ms4_3 t) fullShare ((dat4 q V c).before 3 t d))
    ∗ (∃ d, owns (c : Thread nD τ) (ms4_4 t) fullShare ((dat4 q V c).before 4 t d))
    ∗ (∃ d, owns (c : Thread nD τ) (ms4_5 t) fullShare ((dat4 q V c).before 5 t d))
    ∗ (∃ d, owns (c : Thread nD τ) (ms4_6 t) fullShare ((dat4 q V c).before 6 t d))
    ∗ (∃ d, owns (c : Thread nD τ) (ms4_7 t) fullShare ((dat4 q V c).before 7 t d))
    ∗ (∃ d, owns (c : Thread nD τ) (ms4_8 t) fullShare ((dat4 q V c).before 8 t d)))

/-- and what it returns. -/
def bodyPost4 (c : Dev nD) (t : Fin cfg4.N) : sProp 𝕄 :=
  iprop((dat4 q V c).Φ t.succ ∗ (dat4 q V c).owesAt () t.succ
    ∗ (dat4 q V c).leavesExact 0 t
    ∗ (dat4 q V c).leavesExact 1 t
    ∗ (dat4 q V c).leavesExact 2 t
    ∗ (dat4 q V c).leavesExact 3 t
    ∗ (dat4 q V c).leavesExact 4 t
    ∗ (dat4 q V c).leavesExact 5 t
    ∗ (dat4 q V c).leavesExact 6 t
    ∗ (dat4 q V c).leavesExact 7 t
    ∗ (dat4 q V c).leavesExact 8 t)

set_option maxHeartbeats 4800000 in
/-- The body at any point: the inputs' memrefs hold their blocks; the closed forms say which case the point is in; so that
    case's run applies. The invariant hands the body the carried scratch at what the point before left (at anything at the
    first point) and takes it back at this point's contents; output 7's buffer comes back at the case's pieces read back,
    output 8's untouched where the case does not store it; the other scoped buffers, the generator register and what the
    core owes pass through unread. -/
theorem sound_body4 (c : Dev nD) (t : Fin cfg4.N) :
    bodyPre4 q V c t ⊢ wp frame (wpE (defs₀ (F := F)) Variants.none c none) Set.univ (bodyAt4 t) (fun _ => bodyPost4 q V c t) := by
  unfold bodyPre4 bodyPost4 bodyAt4
  simp only [before4_0, before4_1, before4_2, before4_3, before4_4, before4_5, before4_6]
  rw [show (dat4 q V c).owesAt () t.succ = (dat4 q V c).owesAt () t.castSucc from rfl]
  rw [show (dat4 q V c).Φ t.succ = PhiS4 V c (t.val + 1) t.isLt from rfl, PhiS4_succ]
  have hN : t.val < 80 := lt_of_lt_of_eq t.isLt (show cfg4.N = 80 from N_4)
  by_cases h0 : t.val % 80 = 0
  · by_cases h1 : t.val % 80 = 79
    · exfalso; omega
    ·
      rw [show (dat4 q V c).leavesExact 0 t = owns (c : Thread nD τ) (ms4_0 t) fullShare ((dat4 q V c).after 0 t) from by
        unfold Dat.leavesExact; rw [liveAt4_0 t], after4_0]
      rw [show (dat4 q V c).leavesExact 1 t = owns (c : Thread nD τ) (ms4_1 t) fullShare ((dat4 q V c).after 1 t) from by
        unfold Dat.leavesExact; rw [liveAt4_1 t], after4_1]
      rw [show (dat4 q V c).leavesExact 2 t = owns (c : Thread nD τ) (ms4_2 t) fullShare ((dat4 q V c).after 2 t) from by
        unfold Dat.leavesExact; rw [liveAt4_2 t], after4_2]
      rw [show (dat4 q V c).leavesExact 3 t = owns (c : Thread nD τ) (ms4_3 t) fullShare ((dat4 q V c).after 3 t) from by
        unfold Dat.leavesExact; rw [liveAt4_3 t], after4_3]
      rw [show (dat4 q V c).leavesExact 4 t = owns (c : Thread nD τ) (ms4_4 t) fullShare ((dat4 q V c).after 4 t) from by
        unfold Dat.leavesExact; rw [liveAt4_4 t], after4_4]
      rw [show (dat4 q V c).leavesExact 5 t = owns (c : Thread nD τ) (ms4_5 t) fullShare ((dat4 q V c).after 5 t) from by
        unfold Dat.leavesExact; rw [liveAt4_5 t], after4_5]
      rw [show (dat4 q V c).leavesExact 6 t = owns (c : Thread nD τ) (ms4_6 t) fullShare ((dat4 q V c).after 6 t) from by
        unfold Dat.leavesExact; rw [liveAt4_6 t], after4_6]
      rw [show (dat4 q V c).leavesExact 7 t = owns (c : Thread nD τ) (ms4_7 t) fullShare ((dat4 q V c).after 7 t) from by
        unfold Dat.leavesExact; rw [liveAt4_7 t], after4_7]
      rw [Dat.leavesExact_idle (dat4 q V c) 8 t (idleAt4_8_A t ((hcond4_0 t).mpr h0) (fun h => h1 ((hcond4_1 t).mp h))) (noFlush4_8_A t ((hcond4_0 t).mpr h0) (fun h => h1 ((hcond4_1 t).mp h)))]
      rw [outsAt4_A V c t h0 h1]
      unfold out4_A_7 sout4_A_0; (try dsimp only)
      by_cases hz : t.val = 0
      ·
        rw [PhiS4_castSucc q V c t, PhiS4_zero V c _ _ hz, PhiA4_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun4_A c (grid4.coords t) _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        iintro ⟨H0, H1, H2, H3, H4, H5, H6, ⟨%e7, H7⟩, H8, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover4_A_7 c _ _ _ _ _ _ _ _ _ _ _ _ _ _ _ _ _ _ _ _ _ _ _ _ _ _ _ _ _ _)
        iexists _; iexact H8
      · exfalso; omega
  · by_cases h1 : t.val % 80 = 79
    ·
      rw [show (dat4 q V c).leavesExact 0 t = owns (c : Thread nD τ) (ms4_0 t) fullShare ((dat4 q V c).after 0 t) from by
        unfold Dat.leavesExact; rw [liveAt4_0 t], after4_0]
      rw [show (dat4 q V c).leavesExact 1 t = owns (c : Thread nD τ) (ms4_1 t) fullShare ((dat4 q V c).after 1 t) from by
        unfold Dat.leavesExact; rw [liveAt4_1 t], after4_1]
      rw [show (dat4 q V c).leavesExact 2 t = owns (c : Thread nD τ) (ms4_2 t) fullShare ((dat4 q V c).after 2 t) from by
        unfold Dat.leavesExact; rw [liveAt4_2 t], after4_2]
      rw [show (dat4 q V c).leavesExact 3 t = owns (c : Thread nD τ) (ms4_3 t) fullShare ((dat4 q V c).after 3 t) from by
        unfold Dat.leavesExact; rw [liveAt4_3 t], after4_3]
      rw [show (dat4 q V c).leavesExact 4 t = owns (c : Thread nD τ) (ms4_4 t) fullShare ((dat4 q V c).after 4 t) from by
        unfold Dat.leavesExact; rw [liveAt4_4 t], after4_4]
      rw [show (dat4 q V c).leavesExact 5 t = owns (c : Thread nD τ) (ms4_5 t) fullShare ((dat4 q V c).after 5 t) from by
        unfold Dat.leavesExact; rw [liveAt4_5 t], after4_5]
      rw [show (dat4 q V c).leavesExact 6 t = owns (c : Thread nD τ) (ms4_6 t) fullShare ((dat4 q V c).after 6 t) from by
        unfold Dat.leavesExact; rw [liveAt4_6 t], after4_6]
      rw [show (dat4 q V c).leavesExact 7 t = owns (c : Thread nD τ) (ms4_7 t) fullShare ((dat4 q V c).after 7 t) from by
        unfold Dat.leavesExact; rw [liveAt4_7 t], after4_7]
      rw [show (dat4 q V c).leavesExact 8 t = owns (c : Thread nD τ) (ms4_8 t) fullShare ((dat4 q V c).after 8 t) from by
        unfold Dat.leavesExact; rw [liveAt4_8_C t (fun h => h0 ((hcond4_0 t).mp h)) ((hcond4_1 t).mpr h1)], after4_8]
      rw [outsAt4_C V c t h0 h1]
      unfold out4_C_7 out4_C_8 sout4_C_0; (try dsimp only)
      by_cases hz : t.val = 0
      · exfalso; omega
      ·
        rw [PhiS4_castSucc q V c t, PhiS4_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun4_C c (grid4.coords t) _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        iintro ⟨H0, H1, H2, H3, H4, H5, H6, ⟨%e7, H7⟩, ⟨%e8, H8⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover4_C_7 c _ _ _ _ _ _ _ _ _ _ _ _ _ _ _ _ _ _ _ _ _ _ _ _ _ _ _ _ _ _ _)
        unfold owns; iexists _; isplitr
        swap; · iexact H8
        ipureintro; exact View.read_writes_of_cover _ _ _ _ _ (cover4_C_8 c _ _ _ _ _ _ _ _ _ _ _ _ _ _ _ _ _ _ _ _ _ _ _ _ _ _ _ _ _ _ _)
    ·
      rw [show (dat4 q V c).leavesExact 0 t = owns (c : Thread nD τ) (ms4_0 t) fullShare ((dat4 q V c).after 0 t) from by
        unfold Dat.leavesExact; rw [liveAt4_0 t], after4_0]
      rw [show (dat4 q V c).leavesExact 1 t = owns (c : Thread nD τ) (ms4_1 t) fullShare ((dat4 q V c).after 1 t) from by
        unfold Dat.leavesExact; rw [liveAt4_1 t], after4_1]
      rw [show (dat4 q V c).leavesExact 2 t = owns (c : Thread nD τ) (ms4_2 t) fullShare ((dat4 q V c).after 2 t) from by
        unfold Dat.leavesExact; rw [liveAt4_2 t], after4_2]
      rw [show (dat4 q V c).leavesExact 3 t = owns (c : Thread nD τ) (ms4_3 t) fullShare ((dat4 q V c).after 3 t) from by
        unfold Dat.leavesExact; rw [liveAt4_3 t], after4_3]
      rw [show (dat4 q V c).leavesExact 4 t = owns (c : Thread nD τ) (ms4_4 t) fullShare ((dat4 q V c).after 4 t) from by
        unfold Dat.leavesExact; rw [liveAt4_4 t], after4_4]
      rw [show (dat4 q V c).leavesExact 5 t = owns (c : Thread nD τ) (ms4_5 t) fullShare ((dat4 q V c).after 5 t) from by
        unfold Dat.leavesExact; rw [liveAt4_5 t], after4_5]
      rw [show (dat4 q V c).leavesExact 6 t = owns (c : Thread nD τ) (ms4_6 t) fullShare ((dat4 q V c).after 6 t) from by
        unfold Dat.leavesExact; rw [liveAt4_6 t], after4_6]
      rw [show (dat4 q V c).leavesExact 7 t = owns (c : Thread nD τ) (ms4_7 t) fullShare ((dat4 q V c).after 7 t) from by
        unfold Dat.leavesExact; rw [liveAt4_7 t], after4_7]
      rw [Dat.leavesExact_idle (dat4 q V c) 8 t (idleAt4_8_B t (fun h => h0 ((hcond4_0 t).mp h)) (fun h => h1 ((hcond4_1 t).mp h))) (noFlush4_8_B t (fun h => h0 ((hcond4_0 t).mp h)) (fun h => h1 ((hcond4_1 t).mp h)))]
      rw [outsAt4_B V c t h0 h1]
      unfold out4_B_7 sout4_B_0; (try dsimp only)
      by_cases hz : t.val = 0
      · exfalso; omega
      ·
        rw [PhiS4_castSucc q V c t, PhiS4_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun4_B c (grid4.coords t) _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [HS0]; · iexact HS0
        iintro ⟨H0, H1, H2, H3, H4, H5, H6, ⟨%e7, H7⟩, H8, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover4_B_7 c _ _ _ _ _ _ _ _ _ _ _ _ _ _ _ _ _ _ _ _ _ _ _ _ _ _ _ _ _ _ _)
        iexists _; iexact H8

/-- The library's body obligation, at every point. -/
theorem body_obligation4 (c : Dev nD) : BodyObligation (dat4 (F := F) q V c) (defs₀ (F := F)) Variants.none () Set.univ := fun t => by
  rw [bigSep_W4, bigSep_W4]
  exact sound_body4 q V c t

/-- What the launch hands the region is the invariant before the first point. -/
theorem hin4 (c : Dev nD) : Pipeline.ΦA spec4 c ⊢ (dat4 q V c).Φ 0 := by
  rw [show (dat4 q V c).Φ 0 = PhiS4 V c 0 (Nat.zero_le _) from rfl, PhiS4_zero V c 0 _ rfl]
  try exact Idealize.SL.BI.Entails.refl _

/-- After any point but the first the invariant gives the class's back: the carried scratch's named contents are forgotten. -/
theorem Phi_out4 (c : Dev nD) (t : Fin (cfg4.N + 1)) (ht : t.val ≠ 0) : (dat4 q V c).Φ t ⊢ Pipeline.ΦA spec4 c := by
  rw [show (dat4 q V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

/-- The same after the last point. -/
theorem hout4 (c : Dev nD) : (dat4 q V c).Φ (Fin.last cfg4.N) ⊢ Pipeline.ΦA spec4 c :=
  Phi_out4 q V c _ (by rw [Fin.val_last]; have : cfg4.N = 80 := N_4; omega)

end Region4

end Cert.KernelIdeal.Hand

end
-- ==== Proof.KI.N5.Runs.lean ====
/- The node kernel at this region: what the three cases of its body share. Each window's block at a point, read off the
   contents the region is entered with (a parameter `V`); each input's staging buffer at its block at every point;
   the body's two branch conditions, decided over the ten grid points (the first point resets the accumulator, the
   last stores it to output 7); where the windows are idle; the staging and scratch memrefs as the pipeline passes
   them; and the region invariant with the kernel's own scratch split out of the scoped rest. -/
import proofs.«108204_j49847390437921_1_alg».proof.Proof.Gen.KernelIdeal.Launch
import proofs.«108204_j49847390437921_1_alg».proof.Proof.Gen.KernelIdeal.Skeleton
import proofs.«108204_j49847390437921_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of the blocks' extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block index
    has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): unfetched, the block index
    has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): unfetched, the block index
    has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): unfetched, the block index
    has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): unfetched, the block index
    has not moved; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof
    data whose array is `V`'s (`hA`) and whose body leaves the block in place (`hafter`): unfetched, the block index
    has not moved; the window is uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

end Regions

/-! ## The body's branch conditions -/

/-- The condition of the body's first `scf.if` (the accumulator's reset), from the grid coordinates: the part's
    scalar chain substituted. -/
abbrev cond5_0 (i : grid5.Coords) : Prop := (Scalar.cmpi .ne (Scalar.extui (Scalar.cmpi .eq (BitVec.ofNat 32 (i 0).val) 0#32)) 0#32) = 1#1
/-- It holds at the first point only — decided over the grid. -/
theorem hcond5_0 : ∀ t : Fin cfg5.N, cond5_0 (grid5.coords t) ↔ t.val % 10 = 0 :=
  (by decide +kernel : ∀ t : Fin grid5.N, cond5_0 (grid5.coords t) ↔ t.val % 10 = 0)

/-- The condition of the body's second `scf.if` (the store of the accumulator to output 7). -/
abbrev cond5_1 (i : grid5.Coords) : Prop := k5_cond2 i = 1#1
/-- It holds at the last point only — decided over the grid. -/
theorem hcond5_1 : ∀ t : Fin cfg5.N, cond5_1 (grid5.coords t) ↔ t.val % 10 = 9 :=
  (by decide +kernel : ∀ t : Fin grid5.N, cond5_1 (grid5.coords t) ↔ t.val % 10 = 9)

/-! ## Where the windows are idle -/

/-- Window 0 is never idle (an input). -/
theorem liveAt5_0 : ∀ t : Fin cfg5.N, cfg5.idle 0 (grid5.coords t) = false := by decide +kernel
/-- Window 1 is never idle (an input). -/
theorem liveAt5_1 : ∀ t : Fin cfg5.N, cfg5.idle 1 (grid5.coords t) = false := by decide +kernel
/-- Window 2 is never idle (an input). -/
theorem liveAt5_2 : ∀ t : Fin cfg5.N, cfg5.idle 2 (grid5.coords t) = false := by decide +kernel
/-- Window 3 is never idle (an input). -/
theorem liveAt5_3 : ∀ t : Fin cfg5.N, cfg5.idle 3 (grid5.coords t) = false := by decide +kernel
/-- Window 4 is never idle (an input). -/
theorem liveAt5_4 : ∀ t : Fin cfg5.N, cfg5.idle 4 (grid5.coords t) = false := by decide +kernel
/-- Window 5 is never idle (an input). -/
theorem liveAt5_5 : ∀ t : Fin cfg5.N, cfg5.idle 5 (grid5.coords t) = false := by decide +kernel
/-- Window 6 is never idle (stored at every point). -/
theorem liveAt5_6 : ∀ t : Fin cfg5.N, cfg5.idle 6 (grid5.coords t) = false := by decide +kernel

/-- At the first point output 7 is idle: the case stores nothing into it. -/
theorem idleAt5_7_A : ∀ t : Fin cfg5.N, cond5_0 (grid5.coords t) → ¬cond5_1 (grid5.coords t) → cfg5.idle 7 (grid5.coords t) = true := by decide +kernel
/-- At the first point the pipeline does not write output 7's block back. -/
theorem noFlush5_7_A : ∀ t : Fin cfg5.N, cond5_0 (grid5.coords t) → ¬cond5_1 (grid5.coords t) → (cfg5.win 7).flush t = false := by decide +kernel
/-- At a middle point output 7 is idle: the case stores nothing into it. -/
theorem idleAt5_7_B : ∀ t : Fin cfg5.N, ¬cond5_0 (grid5.coords t) → ¬cond5_1 (grid5.coords t) → cfg5.idle 7 (grid5.coords t) = true := by decide +kernel
/-- At a middle point the pipeline does not write output 7's block back. -/
theorem noFlush5_7_B : ∀ t : Fin cfg5.N, ¬cond5_0 (grid5.coords t) → ¬cond5_1 (grid5.coords t) → (cfg5.win 7).flush t = false := by decide +kernel
/-- At the last point output 7 is live: the case stores into it. -/
theorem liveAt5_7_C : ∀ t : Fin cfg5.N, ¬cond5_0 (grid5.coords t) → cond5_1 (grid5.coords t) → cfg5.idle 7 (grid5.coords t) = false := by decide +kernel

/-! ## The staging and scratch memrefs -/

/-- One staging buffer of each output window, through which its contents are stated (read back over its pieces: the
    choice of buffer does not matter). -/
abbrev VO5_6 : View sig .tc .vmem S10000x64 .f32 := (Memref.whole cc5_stg6_0 : Memref sig .tc .vmem S10000x64 .f32).view
abbrev VO5_7 : View sig .tc .vmem S1x64 .f32 := (Memref.whole cc5_stg7_0 : Memref sig .tc .vmem S1x64 .f32).view
/-- Each window's current staging memref at point `t`, spelled as the pipeline passes it, and its wholeness. -/
abbrev ms5_0 (t : Fin cfg5.N) : Memref sig .tc .vmem S10000x64 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S10000x64 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S10000x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x64 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S4x64x64 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x64 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S10000x64 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S1x64 .f32 := win5_7.stage (cfg5.slots t 7)
abbrev hs5_7 (t : Fin cfg5.N) : (ms5_7 t).IsWhole := hstage5_7 ((cfg5.slots t 7).cast nbuf5_7)
/-- The scratch operand: a whole scoped buffer of the kernel's own, passed beside the windows. -/
abbrev scM5_0 : Memref sig .tc .vmem S1x64 .f32 := Memref.whole cc5_scratch0
/-- The scratch the kernel carries between points, as a view: what it holds is stated through it. -/
abbrev VS5_0 : View sig .tc .vmem S1x64 .f32 := scM5_0.view

/-- The class's region invariant with the kernel's scratch split out as a memref owned at some contents; the other
    scoped buffers stay unopened beside it. -/
theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

end Cert.KernelIdeal.Hand

end
-- ==== Proof.KI.N5.RunA.lean ====
/- The node kernel at this region: the run of its whole body at the first point (one module per case, each importing the one
   before it, so that each case elaborates on its own and an auxiliary equation of the part's skeleton is declared once). -/
import proofs.«108204_j49847390437921_1_alg».proof.Proof.KI.N5.Runs

-- membership in a rectangle of the blocks' extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), at the first point: the accumulator's reset is taken, the store to output 7 is not;
    WITH the proof that on whole staging memrefs — the inputs' at their contents `x·`, output 6's at anything (the body
    loads it before storing, and uses nothing of what it loads), output 7's, into which the case stores nothing, at contents
    `xi7` handed back untouched, the scratch at anything (the reset overwrites it before it is read) — the
    body runs to the continuation holding the inputs' as they were and each written buffer with its pieces written. The
    printed function is its skeleton, run through its part; each `scf.if` is decided by the case's hypotheses; the
    pieces are the witness the run finds. -/
noncomputable def kernelRun5_A (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) :
    Σ' (L6 : List (View.Piece (Elt F) S10000x64 .f32)) (L7 : List (View.Piece (Elt F) S1x64 .f32)), { LS0 : List (View.Piece (Elt F) S1x64 .f32) //
      ∀ (xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc5__node_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc5__node_kernel_eq_skeleton]; unfold cc5__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

end Cert.KernelIdeal.Hand

end
-- ==== Proof.KI.N5.RunB.lean ====
/- The node kernel at this region: the run of its whole body at a middle point (one module per case, each importing the one
   before it, so that each case elaborates on its own and an auxiliary equation of the part's skeleton is declared once). -/
import proofs.«108204_j49847390437921_1_alg».proof.Proof.KI.N5.RunA

-- membership in a rectangle of the blocks' extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), at a middle point: neither the accumulator's reset nor the store to output 7 is taken;
    WITH the proof that on whole staging memrefs — the inputs' at their contents `x·`, output 6's at anything (the body
    loads it before storing, and uses nothing of what it loads), output 7's, into which the case stores nothing, at contents
    `xi7` handed back untouched, the scratch at what the point before left (`xs0`) — the
    body runs to the continuation holding the inputs' as they were and each written buffer with its pieces written. The
    printed function is its skeleton, run through its part; each `scf.if` is decided by the case's hypotheses; the
    pieces are the witness the run finds. -/
noncomputable def kernelRun5_B (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) :
    Σ' (L6 : List (View.Piece (Elt F) S10000x64 .f32)) (L7 : List (View.Piece (Elt F) S1x64 .f32)), { LS0 : List (View.Piece (Elt F) S1x64 .f32) //
      ∀ (xi7 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc5__node_kernel i arg1 harg1 arg2 harg2 arg3 harg3 arg4 harg4 arg5 harg5 arg6 harg6 arg7 harg7 arg8 harg8 arg9 harg9) K } := by
  refine ⟨?_, [], ?_, fun xi7 E K => ?run⟩
  case run =>
    simp only [cc5__node_kernel_eq_skeleton]; unfold cc5__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

end Cert.KernelIdeal.Hand

end
-- ==== Proof.KI.N5.RunC.lean ====
/- The node kernel at this region: the run of its whole body at the last point (one module per case, each importing the one
   before it, so that each case elaborates on its own and an auxiliary equation of the part's skeleton is declared once). -/
import proofs.«108204_j49847390437921_1_alg».proof.Proof.KI.N5.RunB

-- membership in a rectangle of the blocks' extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output's staging memref and in the scratch, as pieces (last first), at the last point: the accumulator's reset is not taken, the store to output 7 is;
    WITH the proof that on whole staging memrefs — the inputs' at their contents `x·`, output 6's at anything (the body
    loads it before storing, and uses nothing of what it loads), output 7's at anything (likewise), the scratch at what the point before left (`xs0`) — the
    body runs to the continuation holding the inputs' as they were and each written buffer with its pieces written. The
    printed function is its skeleton, run through its part; each `scf.if` is decided by the case's hypotheses; the
    pieces are the witness the run finds. -/
noncomputable def kernelRun5_C (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) :
    Σ' (L6 : List (View.Piece (Elt F) S10000x64 .f32)) (L7 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc5__node_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc5__node_kernel_eq_skeleton]; unfold cc5__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.KernelIdeal.Hand

end
-- ==== Proof.KI.N5.Body.lean ====
/- The node kernel at this region: its proof data and body obligation, at region-entry contents `V` and array shares `q`.
   From the three runs: what each case leaves in output 6's and output 7's staging buffers and in the scratch (its
   pieces read back; they cover the buffer); the accumulation `outsAt5` over the ten points (the scratch carried from
   point to point); the region invariant with the scratch at what the point before left; the proof data `dat5`; the
   body at a generic point, by cases on the point; and the invariant's two ends. -/
import proofs.«108204_j49847390437921_1_alg».proof.Proof.KI.N5.RunC

-- membership in a rectangle of the blocks' extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the share held of each window's array, and the TensorCore's buffer contents when the region is entered
variable (q : Fin cfg5.W → PosShare TreeShare) (V : (c : Dev nD) → (b : Ref sig .tc) → Buf (Elt F) ((c : Thread nD τ).loc b))

/-! ## What each case leaves -/

/-- The pieces the first point stores into output 6 tile its block (one store of the whole block), so they cover it. -/
theorem cover5_A_6 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) (y : S10000x64.Idx) :
    ∃ pc ∈ (kernelRun5_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun5_A c i arg1 harg1 arg2 harg2 arg3 harg3 arg4 harg4 arg5 harg5 arg6 harg6 arg7 harg7 arg8 harg8 arg9 harg9 hc0 hc1 x0 x1 x2 x3 x4 x5).1 S10000x64.size (by sl_kernel_rfl) y

/-- What the first point leaves in output 6's staging buffer: its pieces read back over junk. -/
def out5_A_6 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) : Vec F S10000x64 .f32 :=
  VO5_6.read (Elt F) (VO5_6.writes (Elt F) VO5_6.junk (kernelRun5_A c i arg1 harg1 arg2 harg2 arg3 harg3 arg4 harg4 arg5 harg5 arg6 harg6 arg7 harg7 arg8 harg8 arg9 harg9 hc0 hc1 x0 x1 x2 x3 x4 x5).1)

/-- The first point stores nothing into output 7 (the window is idle there and not written back): no pieces — a
    placeholder that nothing consults, the window being neither written back there nor read at the next point. -/
def out5_A_7 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) : Vec F S1x64 .f32 :=
  VO5_7.read (Elt F) (VO5_7.writes (Elt F) VO5_7.junk (kernelRun5_A c i arg1 harg1 arg2 harg2 arg3 harg3 arg4 harg4 arg5 harg5 arg6 harg6 arg7 harg7 arg8 harg8 arg9 harg9 hc0 hc1 x0 x1 x2 x3 x4 x5).2.1)

/-- The pieces the first point stores into the scratch cover it. -/
theorem scover5_A_0 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) (y : S1x64.Idx) :
    ∃ pc ∈ (kernelRun5_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun5_A c i arg1 harg1 arg2 harg2 arg3 harg3 arg4 harg4 arg5 harg5 arg6 harg6 arg7 harg7 arg8 harg8 arg9 harg9 hc0 hc1 x0 x1 x2 x3 x4 x5).2.2.1 S1x64.size (by sl_kernel_rfl) y

/-- What the first point leaves in the scratch: its pieces read back over junk. -/
def sout5_A_0 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) : Vec F S1x64 .f32 :=
  VS5_0.read (Elt F) (VS5_0.writes (Elt F) VS5_0.junk (kernelRun5_A c i arg1 harg1 arg2 harg2 arg3 harg3 arg4 harg4 arg5 harg5 arg6 harg6 arg7 harg7 arg8 harg8 arg9 harg9 hc0 hc1 x0 x1 x2 x3 x4 x5).2.2.1)

/-- The pieces a middle point stores into output 6 tile its block (one store of the whole block), so they cover it. -/
theorem cover5_B_6 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S10000x64.Idx) :
    ∃ pc ∈ (kernelRun5_B c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun5_B c i arg1 harg1 arg2 harg2 arg3 harg3 arg4 harg4 arg5 harg5 arg6 harg6 arg7 harg7 arg8 harg8 arg9 harg9 hc0 hc1 x0 x1 x2 x3 x4 x5 xs0).1 S10000x64.size (by sl_kernel_rfl) y

/-- What a middle point leaves in output 6's staging buffer: its pieces read back over junk. -/
def out5_B_6 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S10000x64 .f32 :=
  VO5_6.read (Elt F) (VO5_6.writes (Elt F) VO5_6.junk (kernelRun5_B c i arg1 harg1 arg2 harg2 arg3 harg3 arg4 harg4 arg5 harg5 arg6 harg6 arg7 harg7 arg8 harg8 arg9 harg9 hc0 hc1 x0 x1 x2 x3 x4 x5 xs0).1)

/-- A middle point stores nothing into output 7 (the window is idle there and not written back): no pieces — a
    placeholder that nothing consults, the window being neither written back there nor read at the next point. -/
def out5_B_7 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VO5_7.read (Elt F) (VO5_7.writes (Elt F) VO5_7.junk (kernelRun5_B c i arg1 harg1 arg2 harg2 arg3 harg3 arg4 harg4 arg5 harg5 arg6 harg6 arg7 harg7 arg8 harg8 arg9 harg9 hc0 hc1 x0 x1 x2 x3 x4 x5 xs0).2.1)

/-- The pieces a middle point stores into the scratch cover it. -/
theorem scover5_B_0 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S1x64.Idx) :
    ∃ pc ∈ (kernelRun5_B c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun5_B c i arg1 harg1 arg2 harg2 arg3 harg3 arg4 harg4 arg5 harg5 arg6 harg6 arg7 harg7 arg8 harg8 arg9 harg9 hc0 hc1 x0 x1 x2 x3 x4 x5 xs0).2.2.1 S1x64.size (by sl_kernel_rfl) y

/-- What a middle point leaves in the scratch: its pieces read back over junk. -/
def sout5_B_0 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : ¬cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VS5_0.read (Elt F) (VS5_0.writes (Elt F) VS5_0.junk (kernelRun5_B c i arg1 harg1 arg2 harg2 arg3 harg3 arg4 harg4 arg5 harg5 arg6 harg6 arg7 harg7 arg8 harg8 arg9 harg9 hc0 hc1 x0 x1 x2 x3 x4 x5 xs0).2.2.1)

/-- The pieces the last point stores into output 6 tile its block (one store of the whole block), so they cover it. -/
theorem cover5_C_6 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S10000x64.Idx) :
    ∃ pc ∈ (kernelRun5_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun5_C c i arg1 harg1 arg2 harg2 arg3 harg3 arg4 harg4 arg5 harg5 arg6 harg6 arg7 harg7 arg8 harg8 arg9 harg9 hc0 hc1 x0 x1 x2 x3 x4 x5 xs0).1 S10000x64.size (by sl_kernel_rfl) y

/-- What the last point leaves in output 6's staging buffer: its pieces read back over junk. -/
def out5_C_6 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S10000x64 .f32 :=
  VO5_6.read (Elt F) (VO5_6.writes (Elt F) VO5_6.junk (kernelRun5_C c i arg1 harg1 arg2 harg2 arg3 harg3 arg4 harg4 arg5 harg5 arg6 harg6 arg7 harg7 arg8 harg8 arg9 harg9 hc0 hc1 x0 x1 x2 x3 x4 x5 xs0).1)

/-- The pieces the last point stores into output 7 tile its block (one store of the whole block), so they cover it. -/
theorem cover5_C_7 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S1x64.Idx) :
    ∃ pc ∈ (kernelRun5_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun5_C c i arg1 harg1 arg2 harg2 arg3 harg3 arg4 harg4 arg5 harg5 arg6 harg6 arg7 harg7 arg8 harg8 arg9 harg9 hc0 hc1 x0 x1 x2 x3 x4 x5 xs0).2.1 S1x64.size (by sl_kernel_rfl) y

/-- What the last point leaves in output 7's staging buffer: its pieces read back over junk. -/
def out5_C_7 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VO5_7.read (Elt F) (VO5_7.writes (Elt F) VO5_7.junk (kernelRun5_C c i arg1 harg1 arg2 harg2 arg3 harg3 arg4 harg4 arg5 harg5 arg6 harg6 arg7 harg7 arg8 harg8 arg9 harg9 hc0 hc1 x0 x1 x2 x3 x4 x5 xs0).2.1)

/-- The pieces the last point stores into the scratch cover it. -/
theorem scover5_C_0 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) (y : S1x64.Idx) :
    ∃ pc ∈ (kernelRun5_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun5_C c i arg1 harg1 arg2 harg2 arg3 harg3 arg4 harg4 arg5 harg5 arg6 harg6 arg7 harg7 arg8 harg8 arg9 harg9 hc0 hc1 x0 x1 x2 x3 x4 x5 xs0).2.2.1 S1x64.size (by sl_kernel_rfl) y

/-- What the last point leaves in the scratch: its pieces read back over junk. -/
def sout5_C_0 (c : Dev nD) (i : grid5.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond5_0 i) (hc1 : cond5_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) : Vec F S1x64 .f32 :=
  VS5_0.read (Elt F) (VS5_0.writes (Elt F) VS5_0.junk (kernelRun5_C c i arg1 harg1 arg2 harg2 arg3 harg3 arg4 harg4 arg5 harg5 arg6 harg6 arg7 harg7 arg8 harg8 arg9 harg9 hc0 hc1 x0 x1 x2 x3 x4 x5 xs0).2.2.1)

/-! ## What the outputs and the scratch hold after each point -/

/-- THE ACCUMULATION. What output 6's and output 7's staging buffers and the scratch hold after the body at position
    `n`: the case the closed forms select at `n`, run at the point's memrefs and input blocks, the scratch at what
    this leaves at `n - 1`. An assignment of the conditions no point meets is no case. -/
def outsAt5 (c : Dev nD) : (n : ℕ) → n < cfg5.N → Vec F S10000x64 .f32 × Vec F S1x64 .f32 × Vec F S1x64 .f32
  | 0, hn => (out5_A_6 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩), out5_A_7 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩))
  | n + 1, hn =>
    if h0 : (n + 1) % 10 = 0 then
      if h1 : (n + 1) % 10 = 9 then
        False.elim (by omega)
      else
        (out5_A_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩), out5_A_7 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩))
    else
      if h1 : (n + 1) % 10 = 9 then
        (out5_C_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2.2, out5_C_7 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2.2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2.2)
      else
        (out5_B_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2.2, out5_B_7 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2.2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2.2)

/-- `outsAt5` at the first point: that case's contents. -/
theorem outsAt5_A (c : Dev nD) (t : Fin cfg5.N) (h0 : t.val % 10 = 0) (h1 : ¬t.val % 10 = 9) :
    outsAt5 V c t.val t.isLt = (out5_A_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t), out5_A_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t)) := by
  obtain ⟨n, hn⟩ := t
  cases n with
  | zero => exact rfl
  | succ n => exact (dif_pos h0).trans ((dif_neg h1).trans rfl)

/-- `outsAt5` at a middle point: that case's contents, over what the point before left. -/
theorem outsAt5_B (c : Dev nD) (t : Fin cfg5.N) (h0 : ¬t.val % 10 = 0) (h1 : ¬t.val % 10 = 9) :
    outsAt5 V c t.val t.isLt = (out5_B_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2.2, out5_B_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2.2, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt5` at the last point: that case's contents, over what the point before left. -/
theorem outsAt5_C (c : Dev nD) (t : Fin cfg5.N) (h0 : ¬t.val % 10 = 0) (h1 : t.val % 10 = 9) :
    outsAt5 V c t.val t.isLt = (out5_C_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2.2, out5_C_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2.2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the class's (the scratch at anything);
    afterwards the scratch at what the point before left in it (`outsAt5`'s third component), the other scoped buffers
    unopened, and the generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2.2)) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

/-- After point `n` (before point `n + 1`): the scratch at that point's contents. -/
theorem PhiS5_succ (c : Dev nD) (n : ℕ) (hn : n < cfg5.N) :
    PhiS5 V c (n + 1) hn = iprop(iprop(iprop(owns (c : Thread nD τ) scM5_0 fullShare ((outsAt5 V c n hn).2.2)) ∗ Pipeline.scopedRestBut (Ix := Unit) (Name := ℕ) (U := UR sig nD τ) (Lvl := ℕ) (Val := Elt F) spec5 c [cc5_scratch0]) ∗ (∃ r, prngReg c r)) := rfl

/-- Before a point that is not the first: the scratch at what the point before left. -/
theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2.2)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the outputs' at `outsAt5`'s components; the invariant `PhiS5`;
    nothing owed; the arrays' shares `q`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => (outsAt5 V c t.val t.isLt).1
    | ⟨7, _⟩ => (outsAt5 V c t.val t.isLt).2.1
  Φ t := PhiS5 V c t.val (Nat.le_of_lt_succ t.isLt)
  q := q
  owed _ := 0

/-- The proof data's arrays are the region-entry contents (the definition projected, `V` never unfolded). -/
theorem A_eq5 (c : Dev nD) (w : Fin cfg5.W) : (dat5 q V c).A w = V c (Pipeline.arrRef spec5 w) := by
  dsimp only [dat5]

/-- The invariant at a point's start, restated at `t.val`. -/
theorem PhiS5_castSucc (c : Dev nD) (t : Fin cfg5.N) :
    (dat5 q V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 q V c).after 0 t = iblk5 V c 0 t := by dsimp only [dat5]
theorem after5_1 (c : Dev nD) (t : Fin cfg5.N) : (dat5 q V c).after 1 t = iblk5 V c 1 t := by dsimp only [dat5]
theorem after5_2 (c : Dev nD) (t : Fin cfg5.N) : (dat5 q V c).after 2 t = iblk5 V c 2 t := by dsimp only [dat5]
theorem after5_3 (c : Dev nD) (t : Fin cfg5.N) : (dat5 q V c).after 3 t = iblk5 V c 3 t := by dsimp only [dat5]
theorem after5_4 (c : Dev nD) (t : Fin cfg5.N) : (dat5 q V c).after 4 t = iblk5 V c 4 t := by dsimp only [dat5]
theorem after5_5 (c : Dev nD) (t : Fin cfg5.N) : (dat5 q V c).after 5 t = iblk5 V c 5 t := by dsimp only [dat5]
theorem after5_6 (c : Dev nD) (t : Fin cfg5.N) : (dat5 q V c).after 6 t = (outsAt5 V c t.val t.isLt).1 := by dsimp only [dat5]
theorem after5_7 (c : Dev nD) (t : Fin cfg5.N) : (dat5 q V c).after 7 t = (outsAt5 V c t.val t.isLt).2.1 := by dsimp only [dat5]

/-- Each input's current staging buffer holds its block at every point, fetched there or not. -/
theorem before5_0 (c : Dev nD) (t : Fin cfg5.N) (d) : (dat5 q V c).before 0 t d = iblk5 V c 0 t :=
  before5_0_of V (dat5 q V c) (A_eq5 q V c 0) (after5_0 q V c) t d
theorem before5_1 (c : Dev nD) (t : Fin cfg5.N) (d) : (dat5 q V c).before 1 t d = iblk5 V c 1 t :=
  before5_1_of V (dat5 q V c) (A_eq5 q V c 1) (after5_1 q V c) t d
theorem before5_2 (c : Dev nD) (t : Fin cfg5.N) (d) : (dat5 q V c).before 2 t d = iblk5 V c 2 t :=
  before5_2_of V (dat5 q V c) (A_eq5 q V c 2) (after5_2 q V c) t d
theorem before5_3 (c : Dev nD) (t : Fin cfg5.N) (d) : (dat5 q V c).before 3 t d = iblk5 V c 3 t :=
  before5_3_of V (dat5 q V c) (A_eq5 q V c 3) (after5_3 q V c) t d
theorem before5_4 (c : Dev nD) (t : Fin cfg5.N) (d) : (dat5 q V c).before 4 t d = iblk5 V c 4 t :=
  before5_4_of V (dat5 q V c) (A_eq5 q V c 4) (after5_4 q V c) t d
theorem before5_5 (c : Dev nD) (t : Fin cfg5.N) (d) : (dat5 q V c).before 5 t d = iblk5 V c 5 t :=
  before5_5_of V (dat5 q V c) (A_eq5 q V c 5) (after5_5 q V c) t d

/-! ## The body obligation, at a generic point -/

/-- What the body is called with at point `t` (the body obligation's precondition, the windows one by one), -/
def bodyPre5 (c : Dev nD) (t : Fin cfg5.N) : sProp 𝕄 :=
  iprop((dat5 q V c).Φ t.castSucc ∗ (dat5 q V c).owesAt () t.castSucc
    ∗ (∃ d, owns (c : Thread nD τ) (ms5_0 t) fullShare ((dat5 q V c).before 0 t d))
    ∗ (∃ d, owns (c : Thread nD τ) (ms5_1 t) fullShare ((dat5 q V c).before 1 t d))
    ∗ (∃ d, owns (c : Thread nD τ) (ms5_2 t) fullShare ((dat5 q V c).before 2 t d))
    ∗ (∃ d, owns (c : Thread nD τ) (ms5_3 t) fullShare ((dat5 q V c).before 3 t d))
    ∗ (∃ d, owns (c : Thread nD τ) (ms5_4 t) fullShare ((dat5 q V c).before 4 t d))
    ∗ (∃ d, owns (c : Thread nD τ) (ms5_5 t) fullShare ((dat5 q V c).before 5 t d))
    ∗ (∃ d, owns (c : Thread nD τ) (ms5_6 t) fullShare ((dat5 q V c).before 6 t d))
    ∗ (∃ d, owns (c : Thread nD τ) (ms5_7 t) fullShare ((dat5 q V c).before 7 t d)))

/-- and what it returns. -/
def bodyPost5 (c : Dev nD) (t : Fin cfg5.N) : sProp 𝕄 :=
  iprop((dat5 q V c).Φ t.succ ∗ (dat5 q V c).owesAt () t.succ
    ∗ (dat5 q V c).leavesExact 0 t
    ∗ (dat5 q V c).leavesExact 1 t
    ∗ (dat5 q V c).leavesExact 2 t
    ∗ (dat5 q V c).leavesExact 3 t
    ∗ (dat5 q V c).leavesExact 4 t
    ∗ (dat5 q V c).leavesExact 5 t
    ∗ (dat5 q V c).leavesExact 6 t
    ∗ (dat5 q V c).leavesExact 7 t)

set_option maxHeartbeats 4800000 in
/-- The body at any point: the inputs' memrefs hold their blocks; the closed forms say which case the point is in; so
    that case's run applies. The invariant hands the body the scratch at what the point before left (at anything at
    the first point) and takes it back at this point's contents, its pieces covering it; the other scoped buffers and
    the generator register pass through; output 6's buffer is left at its pieces read back; output 7's is handed back
    as found except at the last point, where it is left at its pieces read back; the core owes nothing throughout. -/
theorem sound_body5 (c : Dev nD) (t : Fin cfg5.N) :
    bodyPre5 q V c t ⊢ wp frame (wpE (defs₀ (F := F)) Variants.none c none) Set.univ (bodyAt5 t) (fun _ => bodyPost5 q V c t) := by
  unfold bodyPre5 bodyPost5 bodyAt5
  simp only [before5_0, before5_1, before5_2, before5_3, before5_4, before5_5]
  rw [show (dat5 q V c).owesAt () t.succ = (dat5 q V c).owesAt () t.castSucc from rfl]
  rw [show (dat5 q V c).Φ t.succ = PhiS5 V c (t.val + 1) t.isLt from rfl, PhiS5_succ]
  have hN : t.val < 10 := lt_of_lt_of_eq t.isLt (show cfg5.N = 10 from N_5)
  by_cases h0 : t.val % 10 = 0
  · by_cases h1 : t.val % 10 = 9
    · exfalso; omega
    · rw [show (dat5 q V c).leavesExact 0 t = owns (c : Thread nD τ) (ms5_0 t) fullShare ((dat5 q V c).after 0 t) from by
        unfold Dat.leavesExact; rw [liveAt5_0 t], after5_0]
      rw [show (dat5 q V c).leavesExact 1 t = owns (c : Thread nD τ) (ms5_1 t) fullShare ((dat5 q V c).after 1 t) from by
        unfold Dat.leavesExact; rw [liveAt5_1 t], after5_1]
      rw [show (dat5 q V c).leavesExact 2 t = owns (c : Thread nD τ) (ms5_2 t) fullShare ((dat5 q V c).after 2 t) from by
        unfold Dat.leavesExact; rw [liveAt5_2 t], after5_2]
      rw [show (dat5 q V c).leavesExact 3 t = owns (c : Thread nD τ) (ms5_3 t) fullShare ((dat5 q V c).after 3 t) from by
        unfold Dat.leavesExact; rw [liveAt5_3 t], after5_3]
      rw [show (dat5 q V c).leavesExact 4 t = owns (c : Thread nD τ) (ms5_4 t) fullShare ((dat5 q V c).after 4 t) from by
        unfold Dat.leavesExact; rw [liveAt5_4 t], after5_4]
      rw [show (dat5 q V c).leavesExact 5 t = owns (c : Thread nD τ) (ms5_5 t) fullShare ((dat5 q V c).after 5 t) from by
        unfold Dat.leavesExact; rw [liveAt5_5 t], after5_5]
      rw [show (dat5 q V c).leavesExact 6 t = owns (c : Thread nD τ) (ms5_6 t) fullShare ((dat5 q V c).after 6 t) from by
        unfold Dat.leavesExact; rw [liveAt5_6 t], after5_6]
      rw [Dat.leavesExact_idle (dat5 q V c) 7 t (idleAt5_7_A t ((hcond5_0 t).mpr h0) (fun h => h1 ((hcond5_1 t).mp h))) (noFlush5_7_A t ((hcond5_0 t).mpr h0) (fun h => h1 ((hcond5_1 t).mp h)))]
      rw [outsAt5_A V c t h0 h1]
      unfold out5_A_6 sout5_A_0; (try dsimp only)
      by_cases hz : t.val = 0
      · rw [PhiS5_castSucc q V c t, PhiS5_zero V c _ _ hz, PhiA5_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun5_A c (grid5.coords t) _ _ _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t) (iblk5 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover5_A_0 c _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover5_A_6 c _ _ _ _ _ _ _ _ _ _ _ _ _ _ _ _ _ _ _ _ _ _ _ _ _ _ _)
        iexists _; iexact H7
      · exfalso; omega
  · by_cases h1 : t.val % 10 = 9
    · rw [show (dat5 q V c).leavesExact 0 t = owns (c : Thread nD τ) (ms5_0 t) fullShare ((dat5 q V c).after 0 t) from by
        unfold Dat.leavesExact; rw [liveAt5_0 t], after5_0]
      rw [show (dat5 q V c).leavesExact 1 t = owns (c : Thread nD τ) (ms5_1 t) fullShare ((dat5 q V c).after 1 t) from by
        unfold Dat.leavesExact; rw [liveAt5_1 t], after5_1]
      rw [show (dat5 q V c).leavesExact 2 t = owns (c : Thread nD τ) (ms5_2 t) fullShare ((dat5 q V c).after 2 t) from by
        unfold Dat.leavesExact; rw [liveAt5_2 t], after5_2]
      rw [show (dat5 q V c).leavesExact 3 t = owns (c : Thread nD τ) (ms5_3 t) fullShare ((dat5 q V c).after 3 t) from by
        unfold Dat.leavesExact; rw [liveAt5_3 t], after5_3]
      rw [show (dat5 q V c).leavesExact 4 t = owns (c : Thread nD τ) (ms5_4 t) fullShare ((dat5 q V c).after 4 t) from by
        unfold Dat.leavesExact; rw [liveAt5_4 t], after5_4]
      rw [show (dat5 q V c).leavesExact 5 t = owns (c : Thread nD τ) (ms5_5 t) fullShare ((dat5 q V c).after 5 t) from by
        unfold Dat.leavesExact; rw [liveAt5_5 t], after5_5]
      rw [show (dat5 q V c).leavesExact 6 t = owns (c : Thread nD τ) (ms5_6 t) fullShare ((dat5 q V c).after 6 t) from by
        unfold Dat.leavesExact; rw [liveAt5_6 t], after5_6]
      rw [show (dat5 q V c).leavesExact 7 t = owns (c : Thread nD τ) (ms5_7 t) fullShare ((dat5 q V c).after 7 t) from by
        unfold Dat.leavesExact; rw [liveAt5_7_C t (fun h => h0 ((hcond5_0 t).mp h)) ((hcond5_1 t).mpr h1)], after5_7]
      rw [outsAt5_C V c t h0 h1]
      unfold out5_C_6 out5_C_7 sout5_C_0; (try dsimp only)
      by_cases hz : t.val = 0
      · exfalso; omega
      · rw [PhiS5_castSucc q V c t, PhiS5_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun5_C c (grid5.coords t) _ _ _ _ _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) (iblk5 V c 5 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover5_C_0 c _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover5_C_6 c _ _ _ _ _ _ _ _ _ _ _ _ _ _ _ _ _ _ _ _ _ _ _ _ _ _ _ _)
        unfold owns; iexists _; isplitr
        swap; · iexact H7
        ipureintro; exact View.read_writes_of_cover _ _ _ _ _ (cover5_C_7 c _ _ _ _ _ _ _ _ _ _ _ _ _ _ _ _ _ _ _ _ _ _ _ _ _ _ _ _)
    · rw [show (dat5 q V c).leavesExact 0 t = owns (c : Thread nD τ) (ms5_0 t) fullShare ((dat5 q V c).after 0 t) from by
        unfold Dat.leavesExact; rw [liveAt5_0 t], after5_0]
      rw [show (dat5 q V c).leavesExact 1 t = owns (c : Thread nD τ) (ms5_1 t) fullShare ((dat5 q V c).after 1 t) from by
        unfold Dat.leavesExact; rw [liveAt5_1 t], after5_1]
      rw [show (dat5 q V c).leavesExact 2 t = owns (c : Thread nD τ) (ms5_2 t) fullShare ((dat5 q V c).after 2 t) from by
        unfold Dat.leavesExact; rw [liveAt5_2 t], after5_2]
      rw [show (dat5 q V c).leavesExact 3 t = owns (c : Thread nD τ) (ms5_3 t) fullShare ((dat5 q V c).after 3 t) from by
        unfold Dat.leavesExact; rw [liveAt5_3 t], after5_3]
      rw [show (dat5 q V c).leavesExact 4 t = owns (c : Thread nD τ) (ms5_4 t) fullShare ((dat5 q V c).after 4 t) from by
        unfold Dat.leavesExact; rw [liveAt5_4 t], after5_4]
      rw [show (dat5 q V c).leavesExact 5 t = owns (c : Thread nD τ) (ms5_5 t) fullShare ((dat5 q V c).after 5 t) from by
        unfold Dat.leavesExact; rw [liveAt5_5 t], after5_5]
      rw [show (dat5 q V c).leavesExact 6 t = owns (c : Thread nD τ) (ms5_6 t) fullShare ((dat5 q V c).after 6 t) from by
        unfold Dat.leavesExact; rw [liveAt5_6 t], after5_6]
      rw [Dat.leavesExact_idle (dat5 q V c) 7 t (idleAt5_7_B t (fun h => h0 ((hcond5_0 t).mp h)) (fun h => h1 ((hcond5_1 t).mp h))) (noFlush5_7_B t (fun h => h0 ((hcond5_0 t).mp h)) (fun h => h1 ((hcond5_1 t).mp h)))]
      rw [outsAt5_B V c t h0 h1]
      unfold out5_B_6 sout5_B_0; (try dsimp only)
      by_cases hz : t.val = 0
      · exfalso; omega
      · rw [PhiS5_castSucc q V c t, PhiS5_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun5_B c (grid5.coords t) _ _ _ _ _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover5_B_0 c _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover5_B_6 c _ _ _ _ _ _ _ _ _ _ _ _ _ _ _ _ _ _ _ _ _ _ _ _ _ _ _ _)
        iexists _; iexact H7

/-- The library's body obligation, at every point. -/
theorem body_obligation5 (c : Dev nD) : BodyObligation (dat5 (F := F) q V c) (defs₀ (F := F)) Variants.none () Set.univ := fun t => by
  rw [bigSep_W5, bigSep_W5]
  exact sound_body5 q V c t

/-- What the launch hands the region is the invariant before the first point. -/
theorem hin5 (c : Dev nD) : (Pipeline.ΦA spec5 c : sProp 𝕄) ⊢ (dat5 q V c).Φ 0 := by
  rw [show (dat5 q V c).Φ 0 = PhiS5 V c 0 (Nat.zero_le _) from rfl, PhiS5_zero V c 0 _ rfl]
  try exact Idealize.SL.BI.Entails.refl _

/-- After any point but the first the invariant gives the class's back: the scratch's named contents are forgotten. -/
theorem Phi_out5 (c : Dev nD) (t : Fin (cfg5.N + 1)) (ht : t.val ≠ 0) : (dat5 q V c).Φ t ⊢ (Pipeline.ΦA spec5 c : sProp 𝕄) := by
  rw [show (dat5 q V c).Φ t = PhiS5 V c t.val (Nat.le_of_lt_succ t.isLt) from rfl, PhiS5_pos V c _ _ ht, PhiA5_eq]
  iintro ⟨⟨HS0, Hrest⟩, Hg⟩
  isplitl [HS0 Hrest]
  · isplitl [HS0]
    · iexists _; iexact HS0
    iexact Hrest
  iexact Hg

/-- The same after the last point. -/
theorem hout5 (c : Dev nD) : (dat5 q V c).Φ (Fin.last cfg5.N) ⊢ (Pipeline.ΦA spec5 c : sProp 𝕄) :=
  Phi_out5 q V c _ (by rw [Fin.val_last]; have : cfg5.N = 10 := N_5; omega)

end Regions

end Cert.KernelIdeal.Hand

end
-- ==== Proof.KI.Bodies.lean ====
/- The proof data and body obligations of the six regions: the edge kernel at regions 0, 2, 4, the node kernel at regions 1, 3, 5. -/
import proofs.«108204_j49847390437921_1_alg».proof.Proof.KI.E0.Body
import proofs.«108204_j49847390437921_1_alg».proof.Proof.KI.N1.Body
import proofs.«108204_j49847390437921_1_alg».proof.Proof.KI.E2.Body
import proofs.«108204_j49847390437921_1_alg».proof.Proof.KI.N3.Body
import proofs.«108204_j49847390437921_1_alg».proof.Proof.KI.E4.Body
import proofs.«108204_j49847390437921_1_alg».proof.Proof.KI.N5.Body
-- ==== Proof.KI.RegionsData.lean ====
/- The contents the six regions leave in their output arrays, each computed from the contents its region is entered
   with; the proof data of every region at those entry contents; and the thread state that rides through the run. -/
import proofs.«108204_j49847390437921_1_alg».proof.Proof.Gen.KernelIdeal.Regions
import proofs.«108204_j49847390437921_1_alg».proof.Proof.KI.Bodies

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The shares of the input arrays

Windows 0 and 1 of regions 0 and 1 read ONE array: each holds a half of it. Every other input array is held whole. -/

def qS0 : Fin cfg0.W → PosShare TreeShare := fun w => if w = 0 then fullShare.left else if w = 1 then fullShare.right else fullShare
def qS1 : Fin cfg1.W → PosShare TreeShare := fun w => if w = 0 then fullShare.left else if w = 1 then fullShare.right else fullShare

/-! ## What a region's exit valuation holds at the region's two output arrays (at any unknowns `o`) -/

theorem V2_at_0 (o : Outs (F := F)) (c : Dev nD) : V2 m o c main_v30_0 = o 2 main_v30_0 c := by
  simp only [V2, Function.update_of_ne (StableHlo.devRef_ne_of_ne (by decide : main_v30_0 ≠ main_v30_1) : (Proc.devRef .tc main_v30_0 : DevRef τ sig) ≠ Proc.devRef .tc main_v30_1), Function.update_self]
theorem V2_at_1 (o : Outs (F := F)) (c : Dev nD) : V2 m o c main_v30_1 = o 2 main_v30_1 c := by
  simp only [V2, Function.update_self]

theorem V4_at_0 (o : Outs (F := F)) (c : Dev nD) : V4 m o c main_v46_0 = o 4 main_v46_0 c := by
  simp only [V4, Function.update_of_ne (StableHlo.devRef_ne_of_ne (by decide : main_v46_0 ≠ main_v46_1) : (Proc.devRef .tc main_v46_0 : DevRef τ sig) ≠ Proc.devRef .tc main_v46_1), Function.update_self]
theorem V4_at_1 (o : Outs (F := F)) (c : Dev nD) : V4 m o c main_v46_1 = o 4 main_v46_1 c := by
  simp only [V4, Function.update_self]

theorem V8_at_0 (o : Outs (F := F)) (c : Dev nD) : V8 m o c main_v79_0 = o 8 main_v79_0 c := by
  simp only [V8, Function.update_of_ne (StableHlo.devRef_ne_of_ne (by decide : main_v79_0 ≠ main_v79_1) : (Proc.devRef .tc main_v79_0 : DevRef τ sig) ≠ Proc.devRef .tc main_v79_1), Function.update_self]
theorem V8_at_1 (o : Outs (F := F)) (c : Dev nD) : V8 m o c main_v79_1 = o 8 main_v79_1 c := by
  simp only [V8, Function.update_self]

theorem V10_at_0 (o : Outs (F := F)) (c : Dev nD) : V10 m o c main_v95_0 = o 10 main_v95_0 c := by
  simp only [V10, Function.update_of_ne (StableHlo.devRef_ne_of_ne (by decide : main_v95_0 ≠ main_v95_1) : (Proc.devRef .tc main_v95_0 : DevRef τ sig) ≠ Proc.devRef .tc main_v95_1), Function.update_self]
theorem V10_at_1 (o : Outs (F := F)) (c : Dev nD) : V10 m o c main_v95_1 = o 10 main_v95_1 c := by
  simp only [V10, Function.update_self]

theorem V14_at_0 (o : Outs (F := F)) (c : Dev nD) : V14 m o c main_v128_0 = o 14 main_v128_0 c := by
  simp only [V14, Function.update_of_ne (StableHlo.devRef_ne_of_ne (by decide : main_v128_0 ≠ main_v128_1) : (Proc.devRef .tc main_v128_0 : DevRef τ sig) ≠ Proc.devRef .tc main_v128_1), Function.update_self]
theorem V14_at_1 (o : Outs (F := F)) (c : Dev nD) : V14 m o c main_v128_1 = o 14 main_v128_1 c := by
  simp only [V14, Function.update_self]

theorem V16_at_0 (o : Outs (F := F)) (c : Dev nD) : V16 m o c main_v144_0 = o 16 main_v144_0 c := by
  simp only [V16, Function.update_of_ne (StableHlo.devRef_ne_of_ne (by decide : main_v144_0 ≠ main_v144_1) : (Proc.devRef .tc main_v144_0 : DevRef τ sig) ≠ Proc.devRef .tc main_v144_1), Function.update_self]
theorem V16_at_1 (o : Outs (F := F)) (c : Dev nD) : V16 m o c main_v144_1 = o 16 main_v144_1 c := by
  simp only [V16, Function.update_self]

/-! ## The valuations depend on the unknowns only at the points before them -/

theorem V3_congr (o o' : Outs (F := F)) (h2 : o 2 = o' 2) (c : Dev nD) : V3 m o c = V3 m o' c := by
  unfold V3 V2; rw [h2]
theorem V7_congr (o o' : Outs (F := F)) (h2 : o 2 = o' 2) (h4 : o 4 = o' 4) (c : Dev nD) : V7 m o c = V7 m o' c := by
  unfold V7 V6 V5 V4 V3 V2; rw [h2, h4]
theorem V9_congr (o o' : Outs (F := F)) (h2 : o 2 = o' 2) (h4 : o 4 = o' 4) (h8 : o 8 = o' 8) (c : Dev nD) : V9 m o c = V9 m o' c := by
  unfold V9 V8 V7 V6 V5 V4 V3 V2; rw [h2, h4, h8]
theorem V13_congr (o o' : Outs (F := F)) (h2 : o 2 = o' 2) (h4 : o 4 = o' 4) (h8 : o 8 = o' 8) (h10 : o 10 = o' 10) (c : Dev nD) :
    V13 m o c = V13 m o' c := by
  unfold V13 V12 V11 V10 V9 V8 V7 V6 V5 V4 V3 V2; rw [h2, h4, h8, h10]
theorem V15_congr (o o' : Outs (F := F)) (h2 : o 2 = o' 2) (h4 : o 4 = o' 4) (h8 : o 8 = o' 8) (h10 : o 10 = o' 10) (h14 : o 14 = o' 14)
    (c : Dev nD) : V15 m o c = V15 m o' c := by
  unfold V15 V14 V13 V12 V11 V10 V9 V8 V7 V6 V5 V4 V3 V2; rw [h2, h4, h8, h10, h14]

/-! ## The contents the regions leave, region by region

Region K's output arrays end at what its pipeline's write-backs fold to (`Dat.arrAt … N`) from the contents the region is
entered with; those are the launch contents carried through the host stretches and the EARLIER regions' outputs. So the
unknowns are built in six stages, each stage knowing the outputs of the regions before it; away from the twelve points
read, a stage holds the launch contents (never read). -/

/-- Stage none: nothing known. -/
def outsI : Outs (F := F) := fun _ r c => m ((c : Thread nD τ).loc r)

/-- What region 0 leaves in `main_v30_0` and in `main_v30_1`. -/
def X0_0 (c : Dev nD) : Buf (Elt F) ((c : Thread nD τ).loc main_v30_0) := (dat0 qS0 (fun c b => V1 m c b) c).arrAt 7 cfg0.N
def X0_1 (c : Dev nD) : Buf (Elt F) ((c : Thread nD τ).loc main_v30_1) := (dat0 qS0 (fun c b => V1 m c b) c).arrAt 8 cfg0.N
/-- The unknowns through region 0. -/
def outs0 : Outs (F := F) := fun J r c =>
  if J = 2 then
    if h : r = main_v30_0 then h ▸ X0_0 m c
    else if h : r = main_v30_1 then h ▸ X0_1 m c
    else outsI m J r c
  else outsI m J r c

/-- What region 1 leaves in `main_v46_0` and in `main_v46_1`. -/
def X1_0 (c : Dev nD) : Buf (Elt F) ((c : Thread nD τ).loc main_v46_0) := (dat1 qS1 (fun c b => V3 m (outs0 m) c b) c).arrAt 6 cfg1.N
def X1_1 (c : Dev nD) : Buf (Elt F) ((c : Thread nD τ).loc main_v46_1) := (dat1 qS1 (fun c b => V3 m (outs0 m) c b) c).arrAt 7 cfg1.N
/-- The unknowns through region 1. -/
def outs1 : Outs (F := F) := fun J r c =>
  if J = 4 then
    if h : r = main_v46_0 then h ▸ X1_0 m c
    else if h : r = main_v46_1 then h ▸ X1_1 m c
    else outs0 m J r c
  else outs0 m J r c

/-- What region 2 leaves in `main_v79_0` and in `main_v79_1`. -/
def X2_0 (c : Dev nD) : Buf (Elt F) ((c : Thread nD τ).loc main_v79_0) := (dat2 (fun _ => fullShare) (fun c b => V7 m (outs1 m) c b) c).arrAt 7 cfg2.N
def X2_1 (c : Dev nD) : Buf (Elt F) ((c : Thread nD τ).loc main_v79_1) := (dat2 (fun _ => fullShare) (fun c b => V7 m (outs1 m) c b) c).arrAt 8 cfg2.N
/-- The unknowns through region 2. -/
def outs2 : Outs (F := F) := fun J r c =>
  if J = 8 then
    if h : r = main_v79_0 then h ▸ X2_0 m c
    else if h : r = main_v79_1 then h ▸ X2_1 m c
    else outs1 m J r c
  else outs1 m J r c

/-- What region 3 leaves in `main_v95_0` and in `main_v95_1`. -/
def X3_0 (c : Dev nD) : Buf (Elt F) ((c : Thread nD τ).loc main_v95_0) := (dat3 (fun _ => fullShare) (fun c b => V9 m (outs2 m) c b) c).arrAt 6 cfg3.N
def X3_1 (c : Dev nD) : Buf (Elt F) ((c : Thread nD τ).loc main_v95_1) := (dat3 (fun _ => fullShare) (fun c b => V9 m (outs2 m) c b) c).arrAt 7 cfg3.N
/-- The unknowns through region 3. -/
def outs3 : Outs (F := F) := fun J r c =>
  if J = 10 then
    if h : r = main_v95_0 then h ▸ X3_0 m c
    else if h : r = main_v95_1 then h ▸ X3_1 m c
    else outs2 m J r c
  else outs2 m J r c

/-- What region 4 leaves in `main_v128_0` and in `main_v128_1`. -/
def X4_0 (c : Dev nD) : Buf (Elt F) ((c : Thread nD τ).loc main_v128_0) := (dat4 (fun _ => fullShare) (fun c b => V13 m (outs3 m) c b) c).arrAt 7 cfg4.N
def X4_1 (c : Dev nD) : Buf (Elt F) ((c : Thread nD τ).loc main_v128_1) := (dat4 (fun _ => fullShare) (fun c b => V13 m (outs3 m) c b) c).arrAt 8 cfg4.N
/-- The unknowns through region 4. -/
def outs4 : Outs (F := F) := fun J r c =>
  if J = 14 then
    if h : r = main_v128_0 then h ▸ X4_0 m c
    else if h : r = main_v128_1 then h ▸ X4_1 m c
    else outs3 m J r c
  else outs3 m J r c

/-- What region 5 leaves in `main_v144_0` and in `main_v144_1`. -/
def X5_0 (c : Dev nD) : Buf (Elt F) ((c : Thread nD τ).loc main_v144_0) := (dat5 (fun _ => fullShare) (fun c b => V15 m (outs4 m) c b) c).arrAt 6 cfg5.N
def X5_1 (c : Dev nD) : Buf (Elt F) ((c : Thread nD τ).loc main_v144_1) := (dat5 (fun _ => fullShare) (fun c b => V15 m (outs4 m) c b) c).arrAt 7 cfg5.N
/-- The unknowns through region 5. -/
def outs5 : Outs (F := F) := fun J r c =>
  if J = 16 then
    if h : r = main_v144_0 then h ▸ X5_0 m c
    else if h : r = main_v144_1 then h ▸ X5_1 m c
    else outs4 m J r c
  else outs4 m J r c

/-- THE CONTENTS THE REGIONS LEAVE: the unknowns of the generated valuations `V0 … V18`, all six regions known. -/
abbrev outs : Outs (F := F) := outs5 m

/-! ## A later stage agrees with an earlier one at the earlier one's points -/
theorem outs_eq0_at2 : outs m 2 = outs0 m 2 := by
  funext r c; simp only [outs, outs5, outs4, outs3, outs2, outs1, outs0, Nat.reduceEqDiff, ↓reduceIte]
theorem outs_eq1_at2 : outs m 2 = outs1 m 2 := by
  funext r c; simp only [outs, outs5, outs4, outs3, outs2, outs1, outs0, Nat.reduceEqDiff, ↓reduceIte]
theorem outs_eq1_at4 : outs m 4 = outs1 m 4 := by
  funext r c; simp only [outs, outs5, outs4, outs3, outs2, outs1, outs0, Nat.reduceEqDiff, ↓reduceIte]
theorem outs_eq2_at2 : outs m 2 = outs2 m 2 := by
  funext r c; simp only [outs, outs5, outs4, outs3, outs2, outs1, outs0, Nat.reduceEqDiff, ↓reduceIte]
theorem outs_eq2_at4 : outs m 4 = outs2 m 4 := by
  funext r c; simp only [outs, outs5, outs4, outs3, outs2, outs1, outs0, Nat.reduceEqDiff, ↓reduceIte]
theorem outs_eq2_at8 : outs m 8 = outs2 m 8 := by
  funext r c; simp only [outs, outs5, outs4, outs3, outs2, outs1, outs0, Nat.reduceEqDiff, ↓reduceIte]
theorem outs_eq3_at2 : outs m 2 = outs3 m 2 := by
  funext r c; simp only [outs, outs5, outs4, outs3, outs2, outs1, outs0, Nat.reduceEqDiff, ↓reduceIte]
theorem outs_eq3_at4 : outs m 4 = outs3 m 4 := by
  funext r c; simp only [outs, outs5, outs4, outs3, outs2, outs1, outs0, Nat.reduceEqDiff, ↓reduceIte]
theorem outs_eq3_at8 : outs m 8 = outs3 m 8 := by
  funext r c; simp only [outs, outs5, outs4, outs3, outs2, outs1, outs0, Nat.reduceEqDiff, ↓reduceIte]
theorem outs_eq3_at10 : outs m 10 = outs3 m 10 := by
  funext r c; simp only [outs, outs5, outs4, outs3, outs2, outs1, outs0, Nat.reduceEqDiff, ↓reduceIte]
theorem outs_eq4_at2 : outs m 2 = outs4 m 2 := by
  funext r c; simp only [outs, outs5, outs4, outs3, outs2, outs1, outs0, Nat.reduceEqDiff, ↓reduceIte]
theorem outs_eq4_at4 : outs m 4 = outs4 m 4 := by
  funext r c; simp only [outs, outs5, outs4, outs3, outs2, outs1, outs0, Nat.reduceEqDiff, ↓reduceIte]
theorem outs_eq4_at8 : outs m 8 = outs4 m 8 := by
  funext r c; simp only [outs, outs5, outs4, outs3, outs2, outs1, outs0, Nat.reduceEqDiff, ↓reduceIte]
theorem outs_eq4_at10 : outs m 10 = outs4 m 10 := by
  funext r c; simp only [outs, outs5, outs4, outs3, outs2, outs1, outs0, Nat.reduceEqDiff, ↓reduceIte]
theorem outs_eq4_at14 : outs m 14 = outs4 m 14 := by
  funext r c; simp only [outs, outs5, outs4, outs3, outs2, outs1, outs0, Nat.reduceEqDiff, ↓reduceIte]

/-! ## The contents each region is entered with and left at, read at the TensorCore's references -/

/-- Region 0's entry contents. -/
abbrev VE0 (c : Dev nD) (b : Ref sig .tc) : Buf (Elt F) ((c : Thread nD τ).loc b) := V1 m c b
/-- Region 0's exit contents. -/
abbrev VX0 (c : Dev nD) (b : Ref sig .tc) : Buf (Elt F) ((c : Thread nD τ).loc b) := V2 m (outs m) c b

/-- Region 1's entry contents. -/
abbrev VE1 (c : Dev nD) (b : Ref sig .tc) : Buf (Elt F) ((c : Thread nD τ).loc b) := V3 m (outs m) c b
/-- Region 1's exit contents. -/
abbrev VX1 (c : Dev nD) (b : Ref sig .tc) : Buf (Elt F) ((c : Thread nD τ).loc b) := V4 m (outs m) c b

/-- Region 2's entry contents. -/
abbrev VE2 (c : Dev nD) (b : Ref sig .tc) : Buf (Elt F) ((c : Thread nD τ).loc b) := V7 m (outs m) c b
/-- Region 2's exit contents. -/
abbrev VX2 (c : Dev nD) (b : Ref sig .tc) : Buf (Elt F) ((c : Thread nD τ).loc b) := V8 m (outs m) c b

/-- Region 3's entry contents. -/
abbrev VE3 (c : Dev nD) (b : Ref sig .tc) : Buf (Elt F) ((c : Thread nD τ).loc b) := V9 m (outs m) c b
/-- Region 3's exit contents. -/
abbrev VX3 (c : Dev nD) (b : Ref sig .tc) : Buf (Elt F) ((c : Thread nD τ).loc b) := V10 m (outs m) c b

/-- Region 4's entry contents. -/
abbrev VE4 (c : Dev nD) (b : Ref sig .tc) : Buf (Elt F) ((c : Thread nD τ).loc b) := V13 m (outs m) c b
/-- Region 4's exit contents. -/
abbrev VX4 (c : Dev nD) (b : Ref sig .tc) : Buf (Elt F) ((c : Thread nD τ).loc b) := V14 m (outs m) c b

/-- Region 5's entry contents. -/
abbrev VE5 (c : Dev nD) (b : Ref sig .tc) : Buf (Elt F) ((c : Thread nD τ).loc b) := V15 m (outs m) c b
/-- Region 5's exit contents. -/
abbrev VX5 (c : Dev nD) (b : Ref sig .tc) : Buf (Elt F) ((c : Thread nD τ).loc b) := V16 m (outs m) c b

/-! ## Each stage's entry contents are the final ones -/
theorem VE1_eq : (fun c b => V3 m (outs0 m) c b : (c : Dev nD) → (b : Ref sig .tc) → Buf (Elt F) ((c : Thread nD τ).loc b)) = VE1 m := by
  funext c b; exact (congrFun (V3_congr m (outs m) (outs0 m) (outs_eq0_at2 m) c) _).symm
theorem VE2_eq : (fun c b => V7 m (outs1 m) c b : (c : Dev nD) → (b : Ref sig .tc) → Buf (Elt F) ((c : Thread nD τ).loc b)) = VE2 m := by
  funext c b; exact (congrFun (V7_congr m (outs m) (outs1 m) (outs_eq1_at2 m) (outs_eq1_at4 m) c) _).symm
theorem VE3_eq : (fun c b => V9 m (outs2 m) c b : (c : Dev nD) → (b : Ref sig .tc) → Buf (Elt F) ((c : Thread nD τ).loc b)) = VE3 m := by
  funext c b; exact (congrFun (V9_congr m (outs m) (outs2 m) (outs_eq2_at2 m) (outs_eq2_at4 m) (outs_eq2_at8 m) c) _).symm
theorem VE4_eq : (fun c b => V13 m (outs3 m) c b : (c : Dev nD) → (b : Ref sig .tc) → Buf (Elt F) ((c : Thread nD τ).loc b)) = VE4 m := by
  funext c b; exact (congrFun (V13_congr m (outs m) (outs3 m) (outs_eq3_at2 m) (outs_eq3_at4 m) (outs_eq3_at8 m) (outs_eq3_at10 m) c) _).symm
theorem VE5_eq : (fun c b => V15 m (outs4 m) c b : (c : Dev nD) → (b : Ref sig .tc) → Buf (Elt F) ((c : Thread nD τ).loc b)) = VE5 m := by
  funext c b; exact (congrFun (V15_congr m (outs m) (outs4 m) (outs_eq4_at2 m) (outs_eq4_at4 m) (outs_eq4_at8 m) (outs_eq4_at10 m) (outs_eq4_at14 m) c) _).symm

/-! ## THE TWELVE READ-BACKS: what the unknowns hold at the points the valuations read them -/

theorem outs_2_0 (c : Dev nD) : outs m 2 main_v30_0 c = X0_0 m c := by
  rw [outs_eq0_at2 m]; simp only [outs0, ↓reduceIte, ↓reduceDIte]
/-- `main_v30_0` after region 0: window 7's array as the region's write-backs leave it, from the region's entry contents. -/
theorem X0_0_eq (c : Dev nD) : X0_0 m c = (dat0 qS0 (VE0 m) c).arrAt 7 cfg0.N := by
  rfl
theorem VX0_out0 (c : Dev nD) : VX0 m c main_v30_0 = (dat0 qS0 (VE0 m) c).arrAt 7 cfg0.N :=
  (V2_at_0 m (outs m) c).trans ((outs_2_0 m c).trans (X0_0_eq m c))

theorem outs_2_1 (c : Dev nD) : outs m 2 main_v30_1 c = X0_1 m c := by
  rw [outs_eq0_at2 m]; simp only [outs0, ↓reduceIte, ↓reduceDIte, dif_neg (by decide : ¬ main_v30_1 = main_v30_0)]
/-- `main_v30_1` after region 0: window 8's array as the region's write-backs leave it, from the region's entry contents. -/
theorem X0_1_eq (c : Dev nD) : X0_1 m c = (dat0 qS0 (VE0 m) c).arrAt 8 cfg0.N := by
  rfl
theorem VX0_out1 (c : Dev nD) : VX0 m c main_v30_1 = (dat0 qS0 (VE0 m) c).arrAt 8 cfg0.N :=
  (V2_at_1 m (outs m) c).trans ((outs_2_1 m c).trans (X0_1_eq m c))

theorem outs_4_0 (c : Dev nD) : outs m 4 main_v46_0 c = X1_0 m c := by
  rw [outs_eq1_at4 m]; simp only [outs1, ↓reduceIte, ↓reduceDIte]
/-- `main_v46_0` after region 1: window 6's array as the region's write-backs leave it, from the region's entry contents. -/
theorem X1_0_eq (c : Dev nD) : X1_0 m c = (dat1 qS1 (VE1 m) c).arrAt 6 cfg1.N := by
  rw [← VE1_eq m]; rfl
theorem VX1_out0 (c : Dev nD) : VX1 m c main_v46_0 = (dat1 qS1 (VE1 m) c).arrAt 6 cfg1.N :=
  (V4_at_0 m (outs m) c).trans ((outs_4_0 m c).trans (X1_0_eq m c))

theorem outs_4_1 (c : Dev nD) : outs m 4 main_v46_1 c = X1_1 m c := by
  rw [outs_eq1_at4 m]; simp only [outs1, ↓reduceIte, ↓reduceDIte, dif_neg (by decide : ¬ main_v46_1 = main_v46_0)]
/-- `main_v46_1` after region 1: window 7's array as the region's write-backs leave it, from the region's entry contents. -/
theorem X1_1_eq (c : Dev nD) : X1_1 m c = (dat1 qS1 (VE1 m) c).arrAt 7 cfg1.N := by
  rw [← VE1_eq m]; rfl
theorem VX1_out1 (c : Dev nD) : VX1 m c main_v46_1 = (dat1 qS1 (VE1 m) c).arrAt 7 cfg1.N :=
  (V4_at_1 m (outs m) c).trans ((outs_4_1 m c).trans (X1_1_eq m c))

theorem outs_8_0 (c : Dev nD) : outs m 8 main_v79_0 c = X2_0 m c := by
  rw [outs_eq2_at8 m]; simp only [outs2, ↓reduceIte, ↓reduceDIte]
/-- `main_v79_0` after region 2: window 7's array as the region's write-backs leave it, from the region's entry contents. -/
theorem X2_0_eq (c : Dev nD) : X2_0 m c = (dat2 (fun _ => fullShare) (VE2 m) c).arrAt 7 cfg2.N := by
  rw [← VE2_eq m]; rfl
theorem VX2_out0 (c : Dev nD) : VX2 m c main_v79_0 = (dat2 (fun _ => fullShare) (VE2 m) c).arrAt 7 cfg2.N :=
  (V8_at_0 m (outs m) c).trans ((outs_8_0 m c).trans (X2_0_eq m c))

theorem outs_8_1 (c : Dev nD) : outs m 8 main_v79_1 c = X2_1 m c := by
  rw [outs_eq2_at8 m]; simp only [outs2, ↓reduceIte, ↓reduceDIte, dif_neg (by decide : ¬ main_v79_1 = main_v79_0)]
/-- `main_v79_1` after region 2: window 8's array as the region's write-backs leave it, from the region's entry contents. -/
theorem X2_1_eq (c : Dev nD) : X2_1 m c = (dat2 (fun _ => fullShare) (VE2 m) c).arrAt 8 cfg2.N := by
  rw [← VE2_eq m]; rfl
theorem VX2_out1 (c : Dev nD) : VX2 m c main_v79_1 = (dat2 (fun _ => fullShare) (VE2 m) c).arrAt 8 cfg2.N :=
  (V8_at_1 m (outs m) c).trans ((outs_8_1 m c).trans (X2_1_eq m c))

theorem outs_10_0 (c : Dev nD) : outs m 10 main_v95_0 c = X3_0 m c := by
  rw [outs_eq3_at10 m]; simp only [outs3, ↓reduceIte, ↓reduceDIte]
/-- `main_v95_0` after region 3: window 6's array as the region's write-backs leave it, from the region's entry contents. -/
theorem X3_0_eq (c : Dev nD) : X3_0 m c = (dat3 (fun _ => fullShare) (VE3 m) c).arrAt 6 cfg3.N := by
  rw [← VE3_eq m]; rfl
theorem VX3_out0 (c : Dev nD) : VX3 m c main_v95_0 = (dat3 (fun _ => fullShare) (VE3 m) c).arrAt 6 cfg3.N :=
  (V10_at_0 m (outs m) c).trans ((outs_10_0 m c).trans (X3_0_eq m c))

theorem outs_10_1 (c : Dev nD) : outs m 10 main_v95_1 c = X3_1 m c := by
  rw [outs_eq3_at10 m]; simp only [outs3, ↓reduceIte, ↓reduceDIte, dif_neg (by decide : ¬ main_v95_1 = main_v95_0)]
/-- `main_v95_1` after region 3: window 7's array as the region's write-backs leave it, from the region's entry contents. -/
theorem X3_1_eq (c : Dev nD) : X3_1 m c = (dat3 (fun _ => fullShare) (VE3 m) c).arrAt 7 cfg3.N := by
  rw [← VE3_eq m]; rfl
theorem VX3_out1 (c : Dev nD) : VX3 m c main_v95_1 = (dat3 (fun _ => fullShare) (VE3 m) c).arrAt 7 cfg3.N :=
  (V10_at_1 m (outs m) c).trans ((outs_10_1 m c).trans (X3_1_eq m c))

theorem outs_14_0 (c : Dev nD) : outs m 14 main_v128_0 c = X4_0 m c := by
  rw [outs_eq4_at14 m]; simp only [outs4, ↓reduceIte, ↓reduceDIte]
/-- `main_v128_0` after region 4: window 7's array as the region's write-backs leave it, from the region's entry contents. -/
theorem X4_0_eq (c : Dev nD) : X4_0 m c = (dat4 (fun _ => fullShare) (VE4 m) c).arrAt 7 cfg4.N := by
  rw [← VE4_eq m]; rfl
theorem VX4_out0 (c : Dev nD) : VX4 m c main_v128_0 = (dat4 (fun _ => fullShare) (VE4 m) c).arrAt 7 cfg4.N :=
  (V14_at_0 m (outs m) c).trans ((outs_14_0 m c).trans (X4_0_eq m c))

theorem outs_14_1 (c : Dev nD) : outs m 14 main_v128_1 c = X4_1 m c := by
  rw [outs_eq4_at14 m]; simp only [outs4, ↓reduceIte, ↓reduceDIte, dif_neg (by decide : ¬ main_v128_1 = main_v128_0)]
/-- `main_v128_1` after region 4: window 8's array as the region's write-backs leave it, from the region's entry contents. -/
theorem X4_1_eq (c : Dev nD) : X4_1 m c = (dat4 (fun _ => fullShare) (VE4 m) c).arrAt 8 cfg4.N := by
  rw [← VE4_eq m]; rfl
theorem VX4_out1 (c : Dev nD) : VX4 m c main_v128_1 = (dat4 (fun _ => fullShare) (VE4 m) c).arrAt 8 cfg4.N :=
  (V14_at_1 m (outs m) c).trans ((outs_14_1 m c).trans (X4_1_eq m c))

theorem outs_16_0 (c : Dev nD) : outs m 16 main_v144_0 c = X5_0 m c := by
  simp only [outs, outs5, ↓reduceIte, ↓reduceDIte]
/-- `main_v144_0` after region 5: window 6's array as the region's write-backs leave it, from the region's entry contents. -/
theorem X5_0_eq (c : Dev nD) : X5_0 m c = (dat5 (fun _ => fullShare) (VE5 m) c).arrAt 6 cfg5.N := by
  rw [← VE5_eq m]; rfl
theorem VX5_out0 (c : Dev nD) : VX5 m c main_v144_0 = (dat5 (fun _ => fullShare) (VE5 m) c).arrAt 6 cfg5.N :=
  (V16_at_0 m (outs m) c).trans ((outs_16_0 m c).trans (X5_0_eq m c))

theorem outs_16_1 (c : Dev nD) : outs m 16 main_v144_1 c = X5_1 m c := by
  simp only [outs, outs5, ↓reduceIte, ↓reduceDIte, dif_neg (by decide : ¬ main_v144_1 = main_v144_0)]
/-- `main_v144_1` after region 5: window 7's array as the region's write-backs leave it, from the region's entry contents. -/
theorem X5_1_eq (c : Dev nD) : X5_1 m c = (dat5 (fun _ => fullShare) (VE5 m) c).arrAt 7 cfg5.N := by
  rw [← VE5_eq m]; rfl
theorem VX5_out1 (c : Dev nD) : VX5 m c main_v144_1 = (dat5 (fun _ => fullShare) (VE5 m) c).arrAt 7 cfg5.N :=
  (V16_at_1 m (outs m) c).trans ((outs_16_1 m c).trans (X5_1_eq m c))

/-! ## The proof data family and the thread state -/

/-- Every pipeline's proof data, each at its region's entry contents — a literal `match`, so that the kit's
    `Pipeline.pin pcfgs adm p` at a numeral reduces to the printed configuration. -/
def pdats : (p : Fin 6) → (c : Dev nD) → Dat τ (Elt F) Unit ℕ (UR sig nD τ) ℕ (Pipeline.pin (pcfgs (F := F)) adm p) c
  | ⟨0, _⟩ => fun c => dat0 qS0 (VE0 m) c
  | ⟨1, _⟩ => fun c => dat1 qS1 (VE1 m) c
  | ⟨2, _⟩ => fun c => dat2 (fun _ => fullShare) (VE2 m) c
  | ⟨3, _⟩ => fun c => dat3 (fun _ => fullShare) (VE3 m) c
  | ⟨4, _⟩ => fun c => dat4 (fun _ => fullShare) (VE4 m) c
  | ⟨5, _⟩ => fun c => dat5 (fun _ => fullShare) (VE5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)

end Cert.KernelIdeal.Hand

end
-- ==== Proof.KI.SharedLemmas.lean ====
/- The windows' arrays split out of a core's unscoped buffers, and put back, for the two regions whose first two input
   windows read one array. -/
import proofs.«108204_j49847390437921_1_alg».proof.Proof.Gen.KernelIdeal.Launch
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Regions whose first two input windows read ONE array

Custom call 0's windows 0 and 1 both read one array (custom call 1's likewise). The core holds that array once,
whole, at the full share; the pipeline's proof data hold it once PER WINDOW. So at the region's entry the
whole-buffer points-to is dealt between the two windows along the two halves of the full share, and at its exit the
halves — which hold the same contents, no input being written — are joined again. Every other window's array is a
buffer of its own and passes through whole. -/

/-! ## Region 0: the buffers behind the arrays, one by one -/

/-- Windows 0 and 1 read one array; the other windows' arrays are buffers of their own: the arrays name
    8 distinct buffers, those of every window but window 1. -/
theorem arrImage0 : Finset.univ.image (Pipeline.arrRef spec0) = [Pipeline.arrRef spec0 0, Pipeline.arrRef spec0 2, Pipeline.arrRef spec0 3, Pipeline.arrRef spec0 4, Pipeline.arrRef spec0 5, Pipeline.arrRef spec0 6, Pipeline.arrRef spec0 7, Pipeline.arrRef spec0 8].toFinset := by decide
theorem arrList0_nodup : [Pipeline.arrRef spec0 0, Pipeline.arrRef spec0 2, Pipeline.arrRef spec0 3, Pipeline.arrRef spec0 4, Pipeline.arrRef spec0 5, Pipeline.arrRef spec0 6, Pipeline.arrRef spec0 7, Pipeline.arrRef spec0 8].Nodup := by decide

/-- The buffers behind the arrays, each whole at the full share, as a chain. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop(((((c : Thread nD τ).loc (Pipeline.arrRef spec0 0)) ↦{fullShare} V (Pipeline.arrRef spec0 0)) : sProp 𝕄)
          ∗ ((((c : Thread nD τ).loc (Pipeline.arrRef spec0 2)) ↦{fullShare} V (Pipeline.arrRef spec0 2)) : sProp 𝕄)
          ∗ ((((c : Thread nD τ).loc (Pipeline.arrRef spec0 3)) ↦{fullShare} V (Pipeline.arrRef spec0 3)) : sProp 𝕄)
          ∗ ((((c : Thread nD τ).loc (Pipeline.arrRef spec0 4)) ↦{fullShare} V (Pipeline.arrRef spec0 4)) : sProp 𝕄)
          ∗ ((((c : Thread nD τ).loc (Pipeline.arrRef spec0 5)) ↦{fullShare} V (Pipeline.arrRef spec0 5)) : sProp 𝕄)
          ∗ ((((c : Thread nD τ).loc (Pipeline.arrRef spec0 6)) ↦{fullShare} V (Pipeline.arrRef spec0 6)) : sProp 𝕄)
          ∗ ((((c : Thread nD τ).loc (Pipeline.arrRef spec0 7)) ↦{fullShare} V (Pipeline.arrRef spec0 7)) : sProp 𝕄)
          ∗ ((((c : Thread nD τ).loc (Pipeline.arrRef spec0 8)) ↦{fullShare} V (Pipeline.arrRef spec0 8)) : sProp 𝕄)) := by
  unfold Pipeline.arrBufs
  exact bigSep_eq_bigSepL_of_eq [Pipeline.arrRef spec0 0, Pipeline.arrRef spec0 2, Pipeline.arrRef spec0 3, Pipeline.arrRef spec0 4, Pipeline.arrRef spec0 5, Pipeline.arrRef spec0 6, Pipeline.arrRef spec0 7, Pipeline.arrRef spec0 8] arrImage0 arrList0_nodup _

/-- The proof data's arrays: every array is a whole buffer, so each window holds its buffer's every element,
    at the window's share. -/
theorem arrays0_eq (c : Dev nD) (dat : Dat τ (Elt F) Unit ℕ (UR sig nD τ) ℕ cfg0 c) (G : (w : Fin cfg0.W) → Buf (Elt F) ((cfg0.win w).arr.view.loc (c : Thread nD τ))) :
    dat.arrays G = bigSep Finset.univ fun w : Fin cfg0.W =>
      ((((c : Thread nD τ).loc (Pipeline.arrRef spec0 w)) ↦{dat.share w} G w) : sProp 𝕄) := by
  unfold Dat.arrays
  exact bigSep_congr fun w _ => by rw [(arr_whole0 w).set_eq_univ]

/-- The same, window by window. -/
theorem arrays0_chain (c : Dev nD) (dat : Dat τ (Elt F) Unit ℕ (UR sig nD τ) ℕ cfg0 c) (G : (w : Fin cfg0.W) → Buf (Elt F) ((cfg0.win w).arr.view.loc (c : Thread nD τ))) :
    dat.arrays G = iprop(((((c : Thread nD τ).loc (Pipeline.arrRef spec0 0)) ↦{dat.share 0} G 0) : sProp 𝕄)
          ∗ ((((c : Thread nD τ).loc (Pipeline.arrRef spec0 1)) ↦{dat.share 1} G 1) : sProp 𝕄)
          ∗ ((((c : Thread nD τ).loc (Pipeline.arrRef spec0 2)) ↦{dat.share 2} G 2) : sProp 𝕄)
          ∗ ((((c : Thread nD τ).loc (Pipeline.arrRef spec0 3)) ↦{dat.share 3} G 3) : sProp 𝕄)
          ∗ ((((c : Thread nD τ).loc (Pipeline.arrRef spec0 4)) ↦{dat.share 4} G 4) : sProp 𝕄)
          ∗ ((((c : Thread nD τ).loc (Pipeline.arrRef spec0 5)) ↦{dat.share 5} G 5) : sProp 𝕄)
          ∗ ((((c : Thread nD τ).loc (Pipeline.arrRef spec0 6)) ↦{dat.share 6} G 6) : sProp 𝕄)
          ∗ ((((c : Thread nD τ).loc (Pipeline.arrRef spec0 7)) ↦{dat.share 7} G 7) : sProp 𝕄)
          ∗ ((((c : Thread nD τ).loc (Pipeline.arrRef spec0 8)) ↦{dat.share 8} G 8) : sProp 𝕄)) :=
  (arrays0_eq c dat G).trans (bigSep_W0 _)

section Shares0

variable (c : Dev nD) (dat : Dat τ (Elt F) Unit ℕ (UR sig nD τ) ℕ cfg0 c)
  (hq0 : dat.q 0 = fullShare.left) (hq1 : dat.q 1 = fullShare.right)
  (hq : ∀ w : Fin cfg0.W, 2 ≤ w.val → dat.q w = fullShare)

include hq0 in
/-- Window 0 is an input: it holds its array at its own share, the left half. -/
theorem share0_0 : dat.share 0 = fullShare.left := by unfold Dat.share; exact hq0
include hq1 in
/-- Window 1 likewise, at the right half. -/
theorem share0_1 : dat.share 1 = fullShare.right := by unfold Dat.share; exact hq1
include hq in
/-- Every other window holds its array at the full share: an input by `hq`, an output always. -/
theorem share0_ge (w : Fin cfg0.W) (hw : 2 ≤ w.val) : dat.share w = fullShare := by
  unfold Dat.share; split
  · rfl
  · exact hq w hw

variable (V : (b : Ref sig .tc) → Buf (Elt F) ((c : Thread nD τ).loc b)) (G : (w : Fin cfg0.W) → Buf (Elt F) ((cfg0.win w).arr.view.loc (c : Thread nD τ))) (hG : ∀ w, G w = V (Pipeline.arrRef spec0 w))

include hq0 hG in
/-- Window 0's holding, at contents read off `V`: the left half of its buffer. -/
theorem win0_0 : ((((c : Thread nD τ).loc (Pipeline.arrRef spec0 0)) ↦{dat.share 0} G 0) : sProp 𝕄)
    = (((c : Thread nD τ).loc (Pipeline.arrRef spec0 0)) ↦{fullShare.left} V (Pipeline.arrRef spec0 0)) := by
  rw [share0_0 c dat hq0, hG 0]
include hq1 hG in
/-- Window 1's: the right half of the SAME buffer, window 1's array being window 0's. -/
theorem win0_1 : ((((c : Thread nD τ).loc (Pipeline.arrRef spec0 1)) ↦{dat.share 1} G 1) : sProp 𝕄)
    = (((c : Thread nD τ).loc (Pipeline.arrRef spec0 0)) ↦{fullShare.right} V (Pipeline.arrRef spec0 0)) := by
  rw [share0_1 c dat hq1, hG 1] <;> rfl
include hq hG in
/-- Any other window's: its buffer whole at the full share. -/
theorem win0_ge (w : Fin cfg0.W) (hw : 2 ≤ w.val) :
    ((((c : Thread nD τ).loc (Pipeline.arrRef spec0 w)) ↦{dat.share w} G w) : sProp 𝕄)
      = (((c : Thread nD τ).loc (Pipeline.arrRef spec0 w)) ↦{fullShare} V (Pipeline.arrRef spec0 w)) := by
  rw [share0_ge c dat hq w hw, hG w]

include hq0 hq1 hq hG in
/-- ENTRY, the arrays' part: the buffers behind the arrays at `V` make the proof data's arrays at contents read
    off `V`, the common array of windows 0 and 1 dealt between them along the full share's halves. -/
theorem arrays_of_arrBufs0 :
    (Pipeline.arrBufs (Ix := Unit) (Name := ℕ) (U := UR sig nD τ) (Lvl := ℕ) spec0 c V : sProp 𝕄) ⊢ dat.arrays G := by
  rw [arrBufs0_eq c V, arrays0_chain c dat G]
  refine .trans (BIClass.sep_mono ?_ ?_) Laws.sep_assoc.1
  · exact .trans (pointsTo_share (PosShare.mem_left_op_right fullShare)).1
      (BIClass.sep_mono (BIBase.Entails.of_eq (win0_0 c dat hq0 V G hG).symm) (BIBase.Entails.of_eq (win0_1 c dat hq1 V G hG).symm))
  · exact BIClass.sep_mono (BIBase.Entails.of_eq (win0_ge c dat hq V G hG 2 (by decide)).symm)
      (BIClass.sep_mono (BIBase.Entails.of_eq (win0_ge c dat hq V G hG 3 (by decide)).symm)
      (BIClass.sep_mono (BIBase.Entails.of_eq (win0_ge c dat hq V G hG 4 (by decide)).symm)
      (BIClass.sep_mono (BIBase.Entails.of_eq (win0_ge c dat hq V G hG 5 (by decide)).symm)
      (BIClass.sep_mono (BIBase.Entails.of_eq (win0_ge c dat hq V G hG 6 (by decide)).symm)
      (BIClass.sep_mono (BIBase.Entails.of_eq (win0_ge c dat hq V G hG 7 (by decide)).symm)
      ((BIBase.Entails.of_eq (win0_ge c dat hq V G hG 8 (by decide)).symm)))))))

-- the default heartbeat budget does not cover this declaration's elaboration
set_option maxHeartbeats 1000000 in
include hq0 hq1 hq hG in
/-- EXIT, the arrays' part: the converse. Windows 0 and 1 hold the same contents of their common array at the two
    halves, which join to the whole buffer at the full share. -/
theorem arrBufs_of_arrays0 :
    dat.arrays G ⊢ (Pipeline.arrBufs (Ix := Unit) (Name := ℕ) (U := UR sig nD τ) (Lvl := ℕ) spec0 c V : sProp 𝕄) := by
  rw [arrBufs0_eq c V, arrays0_chain c dat G]
  refine .trans Laws.sep_assoc.2 (BIClass.sep_mono ?_ ?_)
  · exact .trans (BIClass.sep_mono (BIBase.Entails.of_eq (win0_0 c dat hq0 V G hG)) (BIBase.Entails.of_eq (win0_1 c dat hq1 V G hG)))
      (pointsTo_share (PosShare.mem_left_op_right fullShare)).2
  · exact BIClass.sep_mono (BIBase.Entails.of_eq (win0_ge c dat hq V G hG 2 (by decide)))
      (BIClass.sep_mono (BIBase.Entails.of_eq (win0_ge c dat hq V G hG 3 (by decide)))
      (BIClass.sep_mono (BIBase.Entails.of_eq (win0_ge c dat hq V G hG 4 (by decide)))
      (BIClass.sep_mono (BIBase.Entails.of_eq (win0_ge c dat hq V G hG 5 (by decide)))
      (BIClass.sep_mono (BIBase.Entails.of_eq (win0_ge c dat hq V G hG 6 (by decide)))
      (BIClass.sep_mono (BIBase.Entails.of_eq (win0_ge c dat hq V G hG 7 (by decide)))
      ((BIBase.Entails.of_eq (win0_ge c dat hq V G hG 8 (by decide)))))))))

include hq0 hq1 hq in
/-- ENTRY, region 0: the core's unscoped buffers at `V` are the proof data's arrays at their entry contents — those
    being read off `V` — and the unscoped buffers that are no window's array. -/
theorem entry_split0 (hA : ∀ w, dat.arrAt w 0 = V (Pipeline.arrRef spec0 w)) :
    (unscopedBufs (Ix := Unit) (Name := ℕ) (U := UR sig nD τ) (Lvl := ℕ) c V : sProp 𝕄)
      ⊢ iprop(dat.arrays (dat.arrAt · 0) ∗ Pipeline.unscopedRest spec0 c V) := by
  rw [Pipeline.unscopedBufs_split₀ cfgs 0 winFacts₀0.arr_unscoped c V]
  exact BIClass.sep_mono (arrays_of_arrBufs0 c dat hq0 hq1 hq V _ hA) .rfl

include hq0 hq1 hq hG in
/-- EXIT, region 0: the arrays at contents `G`, read off `V`, and the other unscoped buffers at `V₀` are the
    core's unscoped buffers at `V`, when `V` agrees with `V₀` off the arrays. -/
theorem exit_join0 (V₀ : (b : Ref sig .tc) → Buf (Elt F) ((c : Thread nD τ).loc b))
    (hrest : ∀ b, b ∉ Finset.univ.image (Pipeline.arrRef spec0) → V b = V₀ b) :
    iprop(dat.arrays G ∗ Pipeline.unscopedRest spec0 c V₀)
      ⊢ (unscopedBufs (Ix := Unit) (Name := ℕ) (U := UR sig nD τ) (Lvl := ℕ) c V : sProp 𝕄) := by
  rw [Pipeline.unscopedBufs_split₀ cfgs 0 winFacts₀0.arr_unscoped c V]
  refine BIClass.sep_mono (arrBufs_of_arrays0 c dat hq0 hq1 hq V G hG) (BIBase.Entails.of_eq ?_)
  unfold Pipeline.unscopedRest
  exact bigSep_congr fun b hb => (by rw [hrest b (Finset.mem_sdiff.mp hb).2])

end Shares0

/-! ## Region 1: the buffers behind the arrays, one by one -/

/-- Windows 0 and 1 read one array; the other windows' arrays are buffers of their own: the arrays name
    7 distinct buffers, those of every window but window 1. -/
theorem arrImage1 : Finset.univ.image (Pipeline.arrRef spec1) = [Pipeline.arrRef spec1 0, Pipeline.arrRef spec1 2, Pipeline.arrRef spec1 3, Pipeline.arrRef spec1 4, Pipeline.arrRef spec1 5, Pipeline.arrRef spec1 6, Pipeline.arrRef spec1 7].toFinset := by decide
theorem arrList1_nodup : [Pipeline.arrRef spec1 0, Pipeline.arrRef spec1 2, Pipeline.arrRef spec1 3, Pipeline.arrRef spec1 4, Pipeline.arrRef spec1 5, Pipeline.arrRef spec1 6, Pipeline.arrRef spec1 7].Nodup := by decide

/-- The buffers behind the arrays, each whole at the full share, as a chain. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop(((((c : Thread nD τ).loc (Pipeline.arrRef spec1 0)) ↦{fullShare} V (Pipeline.arrRef spec1 0)) : sProp 𝕄)
          ∗ ((((c : Thread nD τ).loc (Pipeline.arrRef spec1 2)) ↦{fullShare} V (Pipeline.arrRef spec1 2)) : sProp 𝕄)
          ∗ ((((c : Thread nD τ).loc (Pipeline.arrRef spec1 3)) ↦{fullShare} V (Pipeline.arrRef spec1 3)) : sProp 𝕄)
          ∗ ((((c : Thread nD τ).loc (Pipeline.arrRef spec1 4)) ↦{fullShare} V (Pipeline.arrRef spec1 4)) : sProp 𝕄)
          ∗ ((((c : Thread nD τ).loc (Pipeline.arrRef spec1 5)) ↦{fullShare} V (Pipeline.arrRef spec1 5)) : sProp 𝕄)
          ∗ ((((c : Thread nD τ).loc (Pipeline.arrRef spec1 6)) ↦{fullShare} V (Pipeline.arrRef spec1 6)) : sProp 𝕄)
          ∗ ((((c : Thread nD τ).loc (Pipeline.arrRef spec1 7)) ↦{fullShare} V (Pipeline.arrRef spec1 7)) : sProp 𝕄)) := by
  unfold Pipeline.arrBufs
  exact bigSep_eq_bigSepL_of_eq [Pipeline.arrRef spec1 0, Pipeline.arrRef spec1 2, Pipeline.arrRef spec1 3, Pipeline.arrRef spec1 4, Pipeline.arrRef spec1 5, Pipeline.arrRef spec1 6, Pipeline.arrRef spec1 7] arrImage1 arrList1_nodup _

/-- The proof data's arrays: every array is a whole buffer, so each window holds its buffer's every element,
    at the window's share. -/
theorem arrays1_eq (c : Dev nD) (dat : Dat τ (Elt F) Unit ℕ (UR sig nD τ) ℕ cfg1 c) (G : (w : Fin cfg1.W) → Buf (Elt F) ((cfg1.win w).arr.view.loc (c : Thread nD τ))) :
    dat.arrays G = bigSep Finset.univ fun w : Fin cfg1.W =>
      ((((c : Thread nD τ).loc (Pipeline.arrRef spec1 w)) ↦{dat.share w} G w) : sProp 𝕄) := by
  unfold Dat.arrays
  exact bigSep_congr fun w _ => by rw [(arr_whole1 w).set_eq_univ]

/-- The same, window by window. -/
theorem arrays1_chain (c : Dev nD) (dat : Dat τ (Elt F) Unit ℕ (UR sig nD τ) ℕ cfg1 c) (G : (w : Fin cfg1.W) → Buf (Elt F) ((cfg1.win w).arr.view.loc (c : Thread nD τ))) :
    dat.arrays G = iprop(((((c : Thread nD τ).loc (Pipeline.arrRef spec1 0)) ↦{dat.share 0} G 0) : sProp 𝕄)
          ∗ ((((c : Thread nD τ).loc (Pipeline.arrRef spec1 1)) ↦{dat.share 1} G 1) : sProp 𝕄)
          ∗ ((((c : Thread nD τ).loc (Pipeline.arrRef spec1 2)) ↦{dat.share 2} G 2) : sProp 𝕄)
          ∗ ((((c : Thread nD τ).loc (Pipeline.arrRef spec1 3)) ↦{dat.share 3} G 3) : sProp 𝕄)
          ∗ ((((c : Thread nD τ).loc (Pipeline.arrRef spec1 4)) ↦{dat.share 4} G 4) : sProp 𝕄)
          ∗ ((((c : Thread nD τ).loc (Pipeline.arrRef spec1 5)) ↦{dat.share 5} G 5) : sProp 𝕄)
          ∗ ((((c : Thread nD τ).loc (Pipeline.arrRef spec1 6)) ↦{dat.share 6} G 6) : sProp 𝕄)
          ∗ ((((c : Thread nD τ).loc (Pipeline.arrRef spec1 7)) ↦{dat.share 7} G 7) : sProp 𝕄)) :=
  (arrays1_eq c dat G).trans (bigSep_W1 _)

section Shares1

variable (c : Dev nD) (dat : Dat τ (Elt F) Unit ℕ (UR sig nD τ) ℕ cfg1 c)
  (hq0 : dat.q 0 = fullShare.left) (hq1 : dat.q 1 = fullShare.right)
  (hq : ∀ w : Fin cfg1.W, 2 ≤ w.val → dat.q w = fullShare)

include hq0 in
/-- Window 0 is an input: it holds its array at its own share, the left half. -/
theorem share1_0 : dat.share 0 = fullShare.left := by unfold Dat.share; exact hq0
include hq1 in
/-- Window 1 likewise, at the right half. -/
theorem share1_1 : dat.share 1 = fullShare.right := by unfold Dat.share; exact hq1
include hq in
/-- Every other window holds its array at the full share: an input by `hq`, an output always. -/
theorem share1_ge (w : Fin cfg1.W) (hw : 2 ≤ w.val) : dat.share w = fullShare := by
  unfold Dat.share; split
  · rfl
  · exact hq w hw

variable (V : (b : Ref sig .tc) → Buf (Elt F) ((c : Thread nD τ).loc b)) (G : (w : Fin cfg1.W) → Buf (Elt F) ((cfg1.win w).arr.view.loc (c : Thread nD τ))) (hG : ∀ w, G w = V (Pipeline.arrRef spec1 w))

include hq0 hG in
/-- Window 0's holding, at contents read off `V`: the left half of its buffer. -/
theorem win1_0 : ((((c : Thread nD τ).loc (Pipeline.arrRef spec1 0)) ↦{dat.share 0} G 0) : sProp 𝕄)
    = (((c : Thread nD τ).loc (Pipeline.arrRef spec1 0)) ↦{fullShare.left} V (Pipeline.arrRef spec1 0)) := by
  rw [share1_0 c dat hq0, hG 0]
include hq1 hG in
/-- Window 1's: the right half of the SAME buffer, window 1's array being window 0's. -/
theorem win1_1 : ((((c : Thread nD τ).loc (Pipeline.arrRef spec1 1)) ↦{dat.share 1} G 1) : sProp 𝕄)
    = (((c : Thread nD τ).loc (Pipeline.arrRef spec1 0)) ↦{fullShare.right} V (Pipeline.arrRef spec1 0)) := by
  rw [share1_1 c dat hq1, hG 1] <;> rfl
include hq hG in
/-- Any other window's: its buffer whole at the full share. -/
theorem win1_ge (w : Fin cfg1.W) (hw : 2 ≤ w.val) :
    ((((c : Thread nD τ).loc (Pipeline.arrRef spec1 w)) ↦{dat.share w} G w) : sProp 𝕄)
      = (((c : Thread nD τ).loc (Pipeline.arrRef spec1 w)) ↦{fullShare} V (Pipeline.arrRef spec1 w)) := by
  rw [share1_ge c dat hq w hw, hG w]

include hq0 hq1 hq hG in
/-- ENTRY, the arrays' part: the buffers behind the arrays at `V` make the proof data's arrays at contents read
    off `V`, the common array of windows 0 and 1 dealt between them along the full share's halves. -/
theorem arrays_of_arrBufs1 :
    (Pipeline.arrBufs (Ix := Unit) (Name := ℕ) (U := UR sig nD τ) (Lvl := ℕ) spec1 c V : sProp 𝕄) ⊢ dat.arrays G := by
  rw [arrBufs1_eq c V, arrays1_chain c dat G]
  refine .trans (BIClass.sep_mono ?_ ?_) Laws.sep_assoc.1
  · exact .trans (pointsTo_share (PosShare.mem_left_op_right fullShare)).1
      (BIClass.sep_mono (BIBase.Entails.of_eq (win1_0 c dat hq0 V G hG).symm) (BIBase.Entails.of_eq (win1_1 c dat hq1 V G hG).symm))
  · exact BIClass.sep_mono (BIBase.Entails.of_eq (win1_ge c dat hq V G hG 2 (by decide)).symm)
      (BIClass.sep_mono (BIBase.Entails.of_eq (win1_ge c dat hq V G hG 3 (by decide)).symm)
      (BIClass.sep_mono (BIBase.Entails.of_eq (win1_ge c dat hq V G hG 4 (by decide)).symm)
      (BIClass.sep_mono (BIBase.Entails.of_eq (win1_ge c dat hq V G hG 5 (by decide)).symm)
      (BIClass.sep_mono (BIBase.Entails.of_eq (win1_ge c dat hq V G hG 6 (by decide)).symm)
      ((BIBase.Entails.of_eq (win1_ge c dat hq V G hG 7 (by decide)).symm))))))

-- the default heartbeat budget does not cover this declaration's elaboration
set_option maxHeartbeats 1000000 in
include hq0 hq1 hq hG in
/-- EXIT, the arrays' part: the converse. Windows 0 and 1 hold the same contents of their common array at the two
    halves, which join to the whole buffer at the full share. -/
theorem arrBufs_of_arrays1 :
    dat.arrays G ⊢ (Pipeline.arrBufs (Ix := Unit) (Name := ℕ) (U := UR sig nD τ) (Lvl := ℕ) spec1 c V : sProp 𝕄) := by
  rw [arrBufs1_eq c V, arrays1_chain c dat G]
  refine .trans Laws.sep_assoc.2 (BIClass.sep_mono ?_ ?_)
  · exact .trans (BIClass.sep_mono (BIBase.Entails.of_eq (win1_0 c dat hq0 V G hG)) (BIBase.Entails.of_eq (win1_1 c dat hq1 V G hG)))
      (pointsTo_share (PosShare.mem_left_op_right fullShare)).2
  · exact BIClass.sep_mono (BIBase.Entails.of_eq (win1_ge c dat hq V G hG 2 (by decide)))
      (BIClass.sep_mono (BIBase.Entails.of_eq (win1_ge c dat hq V G hG 3 (by decide)))
      (BIClass.sep_mono (BIBase.Entails.of_eq (win1_ge c dat hq V G hG 4 (by decide)))
      (BIClass.sep_mono (BIBase.Entails.of_eq (win1_ge c dat hq V G hG 5 (by decide)))
      (BIClass.sep_mono (BIBase.Entails.of_eq (win1_ge c dat hq V G hG 6 (by decide)))
      ((BIBase.Entails.of_eq (win1_ge c dat hq V G hG 7 (by decide))))))))

include hq0 hq1 hq in
/-- ENTRY, region 1: the core's unscoped buffers at `V` are the proof data's arrays at their entry contents — those
    being read off `V` — and the unscoped buffers that are no window's array. -/
theorem entry_split1 (hA : ∀ w, dat.arrAt w 0 = V (Pipeline.arrRef spec1 w)) :
    (unscopedBufs (Ix := Unit) (Name := ℕ) (U := UR sig nD τ) (Lvl := ℕ) c V : sProp 𝕄)
      ⊢ iprop(dat.arrays (dat.arrAt · 0) ∗ Pipeline.unscopedRest spec1 c V) := by
  rw [Pipeline.unscopedBufs_split₀ cfgs 1 winFacts₀1.arr_unscoped c V]
  exact BIClass.sep_mono (arrays_of_arrBufs1 c dat hq0 hq1 hq V _ hA) .rfl

include hq0 hq1 hq hG in
/-- EXIT, region 1: the arrays at contents `G`, read off `V`, and the other unscoped buffers at `V₀` are the
    core's unscoped buffers at `V`, when `V` agrees with `V₀` off the arrays. -/
theorem exit_join1 (V₀ : (b : Ref sig .tc) → Buf (Elt F) ((c : Thread nD τ).loc b))
    (hrest : ∀ b, b ∉ Finset.univ.image (Pipeline.arrRef spec1) → V b = V₀ b) :
    iprop(dat.arrays G ∗ Pipeline.unscopedRest spec1 c V₀)
      ⊢ (unscopedBufs (Ix := Unit) (Name := ℕ) (U := UR sig nD τ) (Lvl := ℕ) c V : sProp 𝕄) := by
  rw [Pipeline.unscopedBufs_split₀ cfgs 1 winFacts₀1.arr_unscoped c V]
  refine BIClass.sep_mono (arrBufs_of_arrays1 c dat hq0 hq1 hq V G hG) (BIBase.Entails.of_eq ?_)
  unfold Pipeline.unscopedRest
  exact bigSep_congr fun b hb => (by rw [hrest b (Finset.mem_sdiff.mp hb).2])

end Shares1

end Cert.KernelIdeal.Hand
-- ==== Proof.KI.Shared0.lean ====
/- Region 0 of @main as a segment of the run: a region whose first two input windows read one array. -/
import proofs.«108204_j49847390437921_1_alg».proof.Proof.KI.RegionsData
import proofs.«108204_j49847390437921_1_alg».proof.Proof.KI.SharedLemmas

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 0 of @main (custom call 0) as a segment of the run

Its first two input windows read one array, so the windows' arrays are not distinct buffers: the arrays are split out
of the core's unscoped buffers, and put back, by this region's own entry and exit lemmas, the common array dealt
between the two windows along the halves of the full share. -/

/-- The shares the proof data hold the input arrays at. -/
theorem qS0_0 : qS0 0 = fullShare.left := by unfold qS0; rfl
theorem qS0_1 : qS0 1 = fullShare.right := by unfold qS0; rfl
theorem qS0_ge (w : Fin cfg0.W) (hw : 2 ≤ w.val) : qS0 w = fullShare := by
  have h0 : w ≠ 0 := fun h => by rw [h] at hw; exact absurd hw (by decide)
  have h1 : w ≠ 1 := fun h => by rw [h] at hw; exact absurd hw (by decide)
  unfold qS0; rw [if_neg h0, if_neg h1]

/-- Region 0's output windows are 7 and 8; no input window's array is one of the two output arrays. -/
theorem outs0_cases : ∀ w : Fin 9, (cfg0.win w).isOut = true → w = 7 ∨ w = 8 := by decide
theorem ins0_ref : ∀ w : Fin 9, (cfg0.win w).isOut = false →
    Pipeline.arrRef spec0 w ∉ ([main_v30_0, main_v30_1] : List (Ref sig .tc)) := by decide

/-- At the region's exit each of its arrays holds what the pipeline leaves: an input array what it held at entry (no
    input is written, and the exit contents differ from the entry contents at the two outputs only), an output array
    its write-backs folded. -/
theorem hF0 (c : Dev nD) (w : Fin 9) : (dat0 qS0 (VE0 m) c).arrAt w cfg0.N = VX0 m c (Pipeline.arrRef spec0 w) := by
  cases ho : (cfg0.win w).isOut
  · exact ((dat0 qS0 (VE0 m) c).arrAt_in w ho _).trans
      ((A_eq0 _ _ c w).trans (V2_of m (outs m) c _ (ins0_ref w ho)).symm)
  · rcases outs0_cases w ho with rfl | rfl
    · exact (VX0_out0 m c).symm
    · exact (VX0_out1 m c).symm

/-- Off the region's arrays the exit contents are the entry contents: they differ at the two outputs only. -/
theorem hrest0 (c : Dev nD) : ∀ b, b ∉ Finset.univ.image (Pipeline.arrRef spec0) → VX0 m c b = VE0 m c b :=
  fun b hb => V2_of m (outs m) c b fun hm => hb <| by
    rcases List.mem_cons.mp hm with rfl | hm
    · exact Finset.mem_image.mpr ⟨7, Finset.mem_univ _, rfl⟩
    · rcases List.mem_cons.mp hm with rfl | hm
      · exact Finset.mem_image.mpr ⟨8, Finset.mem_univ _, rfl⟩
      · exact absurd hm List.not_mem_nil

/-- REGION 0 over the thread state: entered from every unscoped buffer at the entry contents, left at the exit
    contents. The generator register goes into the region's invariant and comes back; nothing is owed; the kernel has
    no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 qS0 (VE0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := entry_split0 c (dat0 qS0 (VE0 m) c) qS0_0 qS0_1 qS0_ge (VE0 m c)
      fun w => A_eq0 qS0 (VE0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 qS0 (VE0 m) c)
    unfold Pipeline.ΦA
    iintro ⟨Hp, -, Hr⟩
    isplitl [Hr]; · iexact Hr
    iexact Hp
  hout c := by
    rw [Pipeline.ownSems0_none]
    refine (hout0 qS0 (VE0 m) c).trans ?_
    unfold Pipeline.ΦA
    iintro ⟨Hr, Hp⟩
    isplitl [Hp]; · iexact Hp
    isplitr; · iempintro
    iexact Hr
  hexit c := by
    have hjoin := exit_join0 c (dat0 qS0 (VE0 m) c) qS0_0 qS0_1 qS0_ge (VX0 m c)
      (fun w => (dat0 qS0 (VE0 m) c).arrAt w cfg0.N) (hF0 m c) (VE0 m c) (hrest0 m c)
    rw [Pipeline.unscopedBufs_held] at hjoin
    iintro ⟨Ha, HO, HY, Hrest⟩
    imodintro
    isplitl [Ha Hrest]
    · iapply hjoin
      isplitl [Ha]
      · iexact Ha
      · iexact Hrest
    isplitl [HY]; · iexact HY
    unfold Pipeline.Dat.owesAt Pipeline.owesWithin
    icases HO with ⟨%W, -, HO⟩; iexists W; iexact HO

end Cert.KernelIdeal.Hand
-- ==== Proof.KI.Shared1.lean ====
/- Region 1 as a segment over the thread state. Its windows 0 and 1 read ONE array, each at a half of it: the arrays are
   split out of the unscoped buffers, and put back, by the two-halves lemmas of SharedLemmas.lean. -/
import proofs.«108204_j49847390437921_1_alg».proof.Proof.KI.RegionsData
import proofs.«108204_j49847390437921_1_alg».proof.Proof.KI.SharedLemmas

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 1 (custom_call 1) over the thread state -/

/-- Windows 0 and 1 hold the two halves of their common array; every other input window holds its array whole. -/
theorem qS1_0 : qS1 0 = fullShare.left := rfl
theorem qS1_1 : qS1 1 = fullShare.right := rfl
theorem qS1_ge (w : Fin cfg1.W) (hw : 2 ≤ w.val) : qS1 w = fullShare := by
  unfold qS1
  rw [if_neg (fun h => by rw [h] at hw; exact absurd hw (by decide)), if_neg (fun h => by rw [h] at hw; exact absurd hw (by decide))]

/-- Region 1's output windows are 6 and 7; no input window's array is one of the two output arrays. -/
theorem outs1_cases : ∀ w : Fin 8, (cfg1.win w).isOut = true → w = 6 ∨ w = 7 := by decide
theorem ins1_ref : ∀ w : Fin 8, (cfg1.win w).isOut = false →
    Pipeline.arrRef spec1 w ∉ ([main_v46_0, main_v46_1] : List (Ref sig .tc)) := by decide
/-- At region 1's exit each of its arrays holds what the pipeline leaves: an input array what the region was entered
    with (no write-back touches it, and the exit valuation differs from the entry one at the two outputs only), an
    output array the unknown the exit valuation puts there. -/
theorem hF1 (c : Dev nD) (w : Fin 8) : (dat1 qS1 (VE1 m) c).arrAt w cfg1.N = VX1 m c (Pipeline.arrRef spec1 w) := by
  cases ho : (cfg1.win w).isOut
  · exact ((dat1 qS1 (VE1 m) c).arrAt_in w ho _).trans
      ((A_eq1 _ _ c w).trans (V4_of m (outs m) c _ (ins1_ref w ho)).symm)
  · rcases outs1_cases w ho with rfl | rfl
    · exact (VX1_out0 m c).symm
    · exact (VX1_out1 m c).symm
/-- and every other buffer what it held at entry. -/
theorem hrest1 (c : Dev nD) : ∀ b, b ∉ Finset.univ.image (Pipeline.arrRef spec1) → VX1 m c b = VE1 m c b :=
  fun b hb => V4_of m (outs m) c b fun hm => hb <| by
    rcases List.mem_cons.mp hm with rfl | hm
    · exact Finset.mem_image.mpr ⟨6, Finset.mem_univ _, rfl⟩
    · rcases List.mem_cons.mp hm with rfl | hm
      · exact Finset.mem_image.mpr ⟨7, Finset.mem_univ _, rfl⟩
      · exact absurd hm List.not_mem_nil

-- the record's fields are stated over `pin pcs a p`, which unifies with the pinned configuration only when unification may
-- unfold plain definitions in a metavariable's type
set_option backward.isDefEq.respectTransparency.types false in
/-- REGION 1: entered from every unscoped buffer at `V3`, left at `V4`. Its arrays split out of the unscoped buffers
    (windows 0 and 1 each taking a half of their common array) and put back at the exit contents; the generator register
    and the scratch into the body's invariant and out; nothing owed; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 qS1 (VE1 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit : (unscopedBufs (Ix := Unit) (Name := ℕ) (U := UR sig nD τ) (Lvl := ℕ) c (VE1 m c) : sProp 𝕄)
        ⊢ iprop((pdats m 1 c).arrays ((pdats m 1 c).arrAt · 0) ∗ Pipeline.unscopedRest spec1 c (VE1 m c)) :=
      entry_split1 c (dat1 qS1 (VE1 m) c) qS1_0 qS1_1 qS1_ge (VE1 m c) fun w => A_eq1 _ _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 qS1 (VE1 m) c)
    unfold Pipeline.ΦA
    iintro ⟨Hp, -, Hr⟩
    isplitl [Hr]; · iexact Hr
    iexact Hp
  hout c := by
    rw [Pipeline.ownSems0_none]
    refine (hout1 qS1 (VE1 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (VE1 m c))
        ⊢ (unscopedBufs (Ix := Unit) (Name := ℕ) (U := UR sig nD τ) (Lvl := ℕ) c (VX1 m c) : sProp 𝕄) :=
      exit_join1 c (dat1 qS1 (VE1 m) c) qS1_0 qS1_1 qS1_ge (VX1 m c) ((dat1 qS1 (VE1 m) c).arrAt · cfg1.N) (hF1 m c) (VE1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Regions.lean ====
/- The run of the program over its six regions: regions 2 to 5 as segments over the thread state "every unscoped buffer at
   the boundary's contents, the generator register at some state, nothing owed" (regions 0 and 1, whose first two windows
   read one array, are in Shared0.lean and Shared1.lean), the launch over @main's eighteen segments, and from it the contents of the
   result's buffer at the end and the frame claim. -/
import Idealize.ShloMosaic.Lib.Pipeline.RegionsLoop
import proofs.«108204_j49847390437921_1_alg».proof.Proof.KI.RegionsData
import proofs.«108204_j49847390437921_1_alg».proof.Proof.KI.Shared0
import proofs.«108204_j49847390437921_1_alg».proof.Proof.KI.Shared1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 2 (custom_call 2) over the thread state -/

/-- Region 2's output windows are 7 and 8; no input window's array is one of the two output arrays. -/
theorem outs2_cases : ∀ w : Fin 9, (cfg2.win w).isOut = true → w = 7 ∨ w = 8 := by decide
theorem ins2_ref : ∀ w : Fin 9, (cfg2.win w).isOut = false →
    Pipeline.arrRef spec2 w ∉ ([main_v79_0, main_v79_1] : List (Ref sig .tc)) := by decide
/-- At region 2's exit each of its arrays holds what the pipeline leaves: an input array what the region was entered
    with (no write-back touches it, and the exit valuation differs from the entry one at the two outputs only), an
    output array the unknown the exit valuation puts there. -/
theorem hF2 (c : Dev nD) (w : Fin 9) : (dat2 (fun _ => fullShare) (VE2 m) c).arrAt w cfg2.N = VX2 m c (Pipeline.arrRef spec2 w) := by
  cases ho : (cfg2.win w).isOut
  · exact ((dat2 (fun _ => fullShare) (VE2 m) c).arrAt_in w ho _).trans
      ((A_eq2 _ _ c w).trans (V8_of m (outs m) c _ (ins2_ref w ho)).symm)
  · rcases outs2_cases w ho with rfl | rfl
    · exact (VX2_out0 m c).symm
    · exact (VX2_out1 m c).symm
/-- and every other buffer what it held at entry. -/
theorem hrest2 (c : Dev nD) : ∀ b, b ∉ Finset.univ.image (Pipeline.arrRef spec2) → VX2 m c b = VE2 m c b :=
  fun b hb => V8_of m (outs m) c b fun hm => hb <| by
    rcases List.mem_cons.mp hm with rfl | hm
    · exact Finset.mem_image.mpr ⟨7, Finset.mem_univ _, rfl⟩
    · rcases List.mem_cons.mp hm with rfl | hm
      · exact Finset.mem_image.mpr ⟨8, Finset.mem_univ _, rfl⟩
      · exact absurd hm List.not_mem_nil

-- a library lemma stated over `pin pcs a p` unifies with the pinned configuration only when unification may unfold plain
-- definitions in a metavariable's type
set_option backward.isDefEq.respectTransparency.types false in
/-- REGION 2: entered from every unscoped buffer at `V7`, left at `V8`. Its arrays split out of the unscoped
    buffers and put back at the exit contents; the generator register and the scratch into the body's invariant and out;
    nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun _ => fullShare) (VE2 m) c).loose
  hwaits := Pipeline.hwaits_of_owed_zero _ _ _ _ L lv 2 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (VE2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VE2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (fun _ => fullShare) (VE2 m) c)
    unfold Pipeline.ΦA
    iintro ⟨Hp, -, Hr⟩
    isplitl [Hr]; · iexact Hr
    iexact Hp
  hout c := by
    rw [Pipeline.ownSems0_none]
    refine (hout2 (fun _ => fullShare) (VE2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VE2 m c) (VX2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # REGION 3 (custom_call 3) over the thread state -/

/-- Region 3's output windows are 6 and 7; no input window's array is one of the two output arrays. -/
theorem outs3_cases : ∀ w : Fin 8, (cfg3.win w).isOut = true → w = 6 ∨ w = 7 := by decide
theorem ins3_ref : ∀ w : Fin 8, (cfg3.win w).isOut = false →
    Pipeline.arrRef spec3 w ∉ ([main_v95_0, main_v95_1] : List (Ref sig .tc)) := by decide
/-- At region 3's exit each of its arrays holds what the pipeline leaves: an input array what the region was entered
    with (no write-back touches it, and the exit valuation differs from the entry one at the two outputs only), an
    output array the unknown the exit valuation puts there. -/
theorem hF3 (c : Dev nD) (w : Fin 8) : (dat3 (fun _ => fullShare) (VE3 m) c).arrAt w cfg3.N = VX3 m c (Pipeline.arrRef spec3 w) := by
  cases ho : (cfg3.win w).isOut
  · exact ((dat3 (fun _ => fullShare) (VE3 m) c).arrAt_in w ho _).trans
      ((A_eq3 _ _ c w).trans (V10_of m (outs m) c _ (ins3_ref w ho)).symm)
  · rcases outs3_cases w ho with rfl | rfl
    · exact (VX3_out0 m c).symm
    · exact (VX3_out1 m c).symm
/-- and every other buffer what it held at entry. -/
theorem hrest3 (c : Dev nD) : ∀ b, b ∉ Finset.univ.image (Pipeline.arrRef spec3) → VX3 m c b = VE3 m c b :=
  fun b hb => V10_of m (outs m) c b fun hm => hb <| by
    rcases List.mem_cons.mp hm with rfl | hm
    · exact Finset.mem_image.mpr ⟨6, Finset.mem_univ _, rfl⟩
    · rcases List.mem_cons.mp hm with rfl | hm
      · exact Finset.mem_image.mpr ⟨7, Finset.mem_univ _, rfl⟩
      · exact absurd hm List.not_mem_nil

-- a library lemma stated over `pin pcs a p` unifies with the pinned configuration only when unification may unfold plain
-- definitions in a metavariable's type
set_option backward.isDefEq.respectTransparency.types false in
/-- REGION 3: entered from every unscoped buffer at `V9`, left at `V10`. Its arrays split out of the unscoped
    buffers and put back at the exit contents; the generator register and the scratch into the body's invariant and out;
    nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun _ => fullShare) (VE3 m) c).loose
  hwaits := Pipeline.hwaits_of_owed_zero _ _ _ _ L lv 3 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec3 c (VE3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (VE3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (fun _ => fullShare) (VE3 m) c)
    unfold Pipeline.ΦA
    iintro ⟨Hp, -, Hr⟩
    isplitl [Hr]; · iexact Hr
    iexact Hp
  hout c := by
    rw [Pipeline.ownSems0_none]
    refine (hout3 (fun _ => fullShare) (VE3 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (VE3 m c) (VX3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # REGION 4 (custom_call 4) over the thread state -/

/-- Region 4's output windows are 7 and 8; no input window's array is one of the two output arrays. -/
theorem outs4_cases : ∀ w : Fin 9, (cfg4.win w).isOut = true → w = 7 ∨ w = 8 := by decide
theorem ins4_ref : ∀ w : Fin 9, (cfg4.win w).isOut = false →
    Pipeline.arrRef spec4 w ∉ ([main_v128_0, main_v128_1] : List (Ref sig .tc)) := by decide
/-- At region 4's exit each of its arrays holds what the pipeline leaves: an input array what the region was entered
    with (no write-back touches it, and the exit valuation differs from the entry one at the two outputs only), an
    output array the unknown the exit valuation puts there. -/
theorem hF4 (c : Dev nD) (w : Fin 9) : (dat4 (fun _ => fullShare) (VE4 m) c).arrAt w cfg4.N = VX4 m c (Pipeline.arrRef spec4 w) := by
  cases ho : (cfg4.win w).isOut
  · exact ((dat4 (fun _ => fullShare) (VE4 m) c).arrAt_in w ho _).trans
      ((A_eq4 _ _ c w).trans (V14_of m (outs m) c _ (ins4_ref w ho)).symm)
  · rcases outs4_cases w ho with rfl | rfl
    · exact (VX4_out0 m c).symm
    · exact (VX4_out1 m c).symm
/-- and every other buffer what it held at entry. -/
theorem hrest4 (c : Dev nD) : ∀ b, b ∉ Finset.univ.image (Pipeline.arrRef spec4) → VX4 m c b = VE4 m c b :=
  fun b hb => V14_of m (outs m) c b fun hm => hb <| by
    rcases List.mem_cons.mp hm with rfl | hm
    · exact Finset.mem_image.mpr ⟨7, Finset.mem_univ _, rfl⟩
    · rcases List.mem_cons.mp hm with rfl | hm
      · exact Finset.mem_image.mpr ⟨8, Finset.mem_univ _, rfl⟩
      · exact absurd hm List.not_mem_nil

-- a library lemma stated over `pin pcs a p` unifies with the pinned configuration only when unification may unfold plain
-- definitions in a metavariable's type
set_option backward.isDefEq.respectTransparency.types false in
/-- REGION 4: entered from every unscoped buffer at `V13`, left at `V14`. Its arrays split out of the unscoped
    buffers and put back at the exit contents; the generator register and the scratch into the body's invariant and out;
    nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (fun _ => fullShare) (VE4 m) c).loose
  hwaits := Pipeline.hwaits_of_owed_zero _ _ _ _ L lv 4 fun _ _ => rfl
  pre c := iprop(StableHlo.held (c : Thread nD τ) (Pipeline.ucRefs τ sig) (V13 m (outs m) c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := UR sig nD τ) (Lvl := ℕ) spec4 c (VE4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (VE4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (fun _ => fullShare) (VE4 m) c)
    unfold Pipeline.ΦA
    iintro ⟨Hp, -, Hr⟩
    isplitl [Hr]; · iexact Hr
    iexact Hp
  hout c := by
    rw [Pipeline.ownSems0_none]
    refine (hout4 (fun _ => fullShare) (VE4 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (VE4 m c) (VX4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # REGION 5 (custom_call 5) over the thread state -/

/-- Region 5's output windows are 6 and 7; no input window's array is one of the two output arrays. -/
theorem outs5_cases : ∀ w : Fin 8, (cfg5.win w).isOut = true → w = 6 ∨ w = 7 := by decide
theorem ins5_ref : ∀ w : Fin 8, (cfg5.win w).isOut = false →
    Pipeline.arrRef spec5 w ∉ ([main_v144_0, main_v144_1] : List (Ref sig .tc)) := by decide
/-- At region 5's exit each of its arrays holds what the pipeline leaves: an input array what the region was entered
    with (no write-back touches it, and the exit valuation differs from the entry one at the two outputs only), an
    output array the unknown the exit valuation puts there. -/
theorem hF5 (c : Dev nD) (w : Fin 8) : (dat5 (fun _ => fullShare) (VE5 m) c).arrAt w cfg5.N = VX5 m c (Pipeline.arrRef spec5 w) := by
  cases ho : (cfg5.win w).isOut
  · exact ((dat5 (fun _ => fullShare) (VE5 m) c).arrAt_in w ho _).trans
      ((A_eq5 _ _ c w).trans (V16_of m (outs m) c _ (ins5_ref w ho)).symm)
  · rcases outs5_cases w ho with rfl | rfl
    · exact (VX5_out0 m c).symm
    · exact (VX5_out1 m c).symm
/-- and every other buffer what it held at entry. -/
theorem hrest5 (c : Dev nD) : ∀ b, b ∉ Finset.univ.image (Pipeline.arrRef spec5) → VX5 m c b = VE5 m c b :=
  fun b hb => V16_of m (outs m) c b fun hm => hb <| by
    rcases List.mem_cons.mp hm with rfl | hm
    · exact Finset.mem_image.mpr ⟨6, Finset.mem_univ _, rfl⟩
    · rcases List.mem_cons.mp hm with rfl | hm
      · exact Finset.mem_image.mpr ⟨7, Finset.mem_univ _, rfl⟩
      · exact absurd hm List.not_mem_nil

-- a library lemma stated over `pin pcs a p` unifies with the pinned configuration only when unification may unfold plain
-- definitions in a metavariable's type
set_option backward.isDefEq.respectTransparency.types false in
/-- REGION 5: entered from every unscoped buffer at `V15`, left at `V16`. Its arrays split out of the unscoped
    buffers and put back at the exit contents; the generator register and the scratch into the body's invariant and out;
    nothing owed; no semaphore of the kernel's own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (fun _ => fullShare) (VE5 m) c).loose
  hwaits := Pipeline.hwaits_of_owed_zero _ _ _ _ L lv 5 fun _ _ => rfl
  pre c := iprop(StableHlo.held (c : Thread nD τ) (Pipeline.ucRefs τ sig) (V15 m (outs m) c) ∗ R c)
  post c := iprop(StableHlo.held (c : Thread nD τ) (Pipeline.ucRefs τ sig) (V16 m (outs m) c) ∗ R c)
  X c := iprop(∃ r, prngReg c r)
  Y c := iprop(∃ r, prngReg c r)
  Z c := Pipeline.unscopedRest (Ix := Unit) (Name := ℕ) (U := UR sig nD τ) (Lvl := ℕ) spec5 c (VE5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (VE5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (fun _ => fullShare) (VE5 m) c)
    unfold Pipeline.ΦA
    iintro ⟨Hp, -, Hr⟩
    isplitl [Hr]; · iexact Hr
    iexact Hp
  hout c := by
    rw [Pipeline.ownSems0_none]
    refine (hout5 (fun _ => fullShare) (VE5 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (VE5 m c) (VX5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # THE RUN: the launch over @main's eighteen segments -/

/-- The result's buffer `main_v128_0` ends at what region 4 leaves there: no later item writes it. -/
theorem V18_main_v128_0 (c : Dev nD) : V18 m (outs m) c main_v128_0 = X4_0 m c :=
  (V18_of m (outs m) c main_v128_0 (by decide)).trans <| (V17_of m (outs m) c main_v128_0 (by decide)).trans <|
    (V16_of m (outs m) c main_v128_0 (by decide)).trans <| (V15_of m (outs m) c main_v128_0 (by decide)).trans <|
    (V14_at_0 m (outs m) c).trans (outs_14_0 m c)

/-- The rest state ends owing nothing. -/
theorem R_owes (c : Dev nD) : R (F := F) c ⊢ (iprop(∃ W, owes (c : Thread nD τ) (0 : CellTallies nD τ sig Unit) W) : sProp 𝕄) := by
  iintro ⟨-, H⟩; iexact H

-- the launch theorem's implicit arguments are found by unifying its conclusion with this one, which takes unfolding
-- plain definitions in a metavariable's type
set_option backward.isDefEq.respectTransparency.types false in
/-- THE RUN OF @main: from any memory `m` with zero counters, every weakly fair execution of @main terminates, and every
    final memory holds the result's buffer `main_v128_0` at what region 4's write-backs fold to (`X4_0`) and each argument
    as launched. -/
theorem run_main (ρ : Dev nD → PrngReg) :
    θ_run defs (onTc (τ := τ) (main (F := F))) ⟨m, fun _ => 0, ρ⟩ (fun r => ∀ c : Dev nD,
      r.2.mem ((c.tc : Thread nD τ).loc main_v128_0) = X4_0 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm (pdats m) () cellOf_inj emb₁ defs₀ 𝒱₀ L lv m ρ main
    (segs m (outs m) 𝒱₀ L lv (fun _ => R) () (pdats m) (reg0 m) (reg1 m) (reg2 m) (reg3 m) (reg4 m) (reg5 m))
    (fun c Q => by
      rewrite [main_chain c, Pipeline.Seg.run_eq_chain,
        show (segs m (outs m) 𝒱₀ L lv (fun _ => R) () (pdats m) (reg0 m) (reg1 m) (reg2 m) (reg3 m) (reg4 m) (reg5 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          Prog.lift (.customCall (Pipeline.entry 5) ()),
          StableHlo.seq hostOps6,
          StableHlo.seq hostOps6_1 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V18 m (outs m) c))
    (hch := fun c => ⟨.rfl, .rfl, .rfl, .rfl, .rfl, .rfl, .rfl, .rfl, .rfl, .rfl, .rfl, .rfl, .rfl, .rfl, .rfl, .rfl, .rfl, .rfl, sep_mono .rfl (R_owes c)⟩)
    (hinit := ?_) (QY := fun c s => s.mem ((c.tc : Thread nD τ).loc main_v128_0) = X4_0 m c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h => h)
  · -- the launch: every core's unscoped buffers are `held` at `V0`, its generator register and its `owes` make the rest
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result's buffer and each argument's read off the last valuation
    unfold StableHlo.held
    iintro ⟨Hh, HSI⟩
    ihave Hr := (pointsTo_read_all (Pipeline.ucRefs τ sig) (fun b => ((c : Thread nD τ).1, b)) (V18 m (outs m) c) s') $$ [Hh HSI]
    · isplitl [Hh] <;> iassumption
    icases Hr with ⟨%h, HSI⟩
    imodintro
    isplitr
    · ipureintro
      exact ⟨(h (Proc.devRef .tc main_v128_0) (Finset.mem_filter.mpr ⟨StableHlo.devRef_mem_tcRefs main_v128_0, by decide⟩)).trans (V18_main_v128_0 m c),
        (h (Proc.devRef .tc main_arg0) (Finset.mem_filter.mpr ⟨StableHlo.devRef_mem_tcRefs main_arg0, by decide⟩)).trans (V18_main_arg0 m (outs m) c),
        (h (Proc.devRef .tc main_arg1) (Finset.mem_filter.mpr ⟨StableHlo.devRef_mem_tcRefs main_arg1, by decide⟩)).trans (V18_main_arg1 m (outs m) c),
        (h (Proc.devRef .tc main_arg2) (Finset.mem_filter.mpr ⟨StableHlo.devRef_mem_tcRefs main_arg2, by decide⟩)).trans (V18_main_arg2 m (outs m) c),
        (h (Proc.devRef .tc main_arg3) (Finset.mem_filter.mpr ⟨StableHlo.devRef_mem_tcRefs main_arg3, by decide⟩)).trans (V18_main_arg3 m (outs m) c),
        (h (Proc.devRef .tc main_arg4) (Finset.mem_filter.mpr ⟨StableHlo.devRef_mem_tcRefs main_arg4, by decide⟩)).trans (V18_main_arg4 m (outs m) c),
        (h (Proc.devRef .tc main_arg5) (Finset.mem_filter.mpr ⟨StableHlo.devRef_mem_tcRefs main_arg5, by decide⟩)).trans (V18_main_arg5 m (outs m) c),
        (h (Proc.devRef .tc main_arg6) (Finset.mem_filter.mpr ⟨StableHlo.devRef_mem_tcRefs main_arg6, by decide⟩)).trans (V18_main_arg6 m (outs m) c),
        (h (Proc.devRef .tc main_arg7) (Finset.mem_filter.mpr ⟨StableHlo.devRef_mem_tcRefs main_arg7, by decide⟩)).trans (V18_main_arg7 m (outs m) c),
        (h (Proc.devRef .tc main_arg8) (Finset.mem_filter.mpr ⟨StableHlo.devRef_mem_tcRefs main_arg8, by decide⟩)).trans (V18_main_arg8 m (outs m) c),
        (h (Proc.devRef .tc main_arg9) (Finset.mem_filter.mpr ⟨StableHlo.devRef_mem_tcRefs main_arg9, by decide⟩)).trans (V18_main_arg9 m (outs m) c),
        (h (Proc.devRef .tc main_arg10) (Finset.mem_filter.mpr ⟨StableHlo.devRef_mem_tcRefs main_arg10, by decide⟩)).trans (V18_main_arg10 m (outs m) c),
        (h (Proc.devRef .tc main_arg11) (Finset.mem_filter.mpr ⟨StableHlo.devRef_mem_tcRefs main_arg11, by decide⟩)).trans (V18_main_arg11 m (outs m) c)⟩
    · iexact HSI

/-- THE FRAME: every weakly fair execution of @main from `m` with zero counters terminates with each argument array as
    launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_main m ρ)

end Cert.KernelIdeal.Hand

end
-- ==== Proof.Spec.lean ====
/-
  The message-passing network as whole-array functions, in the reference's own host operations: what each
  stage of a round computes from the stage before it. Both programs are read against these functions.
  Notation: n = 800000 bonds, a = 100000 atoms, width 64.
    lift:    h_e0 = bond_orders[:,None] · W_fe,  h_v0 = atoms · W_fv,  h_u0 = (Σ_rows atoms) · W_fu
    edge:    relu(he·We[0] + he0·We[1] + hl·We[2] + hr·We[3] + bcast(hu·We[4]) + bcast(be))
    node:    relu(hv·Wv[0] + hv0·Wv[1] + ebari·Wv[2] + bcast(hu·Wv[3]) + bcast(bv))
    global:  relu(hu·Wu[0] + hu0·Wu[1] + ebar·Wu[2] + vbar·Wu[3] + bu)
-/
import proofs.«108204_j49847390437921_1_alg».proof.ReferenceIdeal
import Idealize.ShloMosaic.PureOps.Ideal

noncomputable section

namespace Cert.Spec

open Cert.ReferenceIdeal Idealize.ShloMosaic

variable {F : FTy → Type} [FloatOps F] [Facts₀]

open Facts₀

/-- The contents of a buffer of shape `S` and element type `e`. -/
abbrev Arr (F : FTy → Type) [FloatOps F] (S : Shape) (e : EltTy) : Type := (⟨S, e⟩ : BufTy).Contents (Elt F)

/-! ## Index columns -/

/-- Column `k` of the bond index table, as a vector of 800000 words. -/
def col0 (bi : Arr F S800000x2 .i32) : Arr F S800000 .i32 :=
  fun i => shapeCast S800000 (extractStridedSlice S800000x1 ![0, 0] bi slices_S800000x2_S800000x1_0_0) shapeCasts_S800000x1_S800000 i
def col1 (bi : Arr F S800000x2 .i32) : Arr F S800000 .i32 :=
  fun i => shapeCast S800000 (extractStridedSlice S800000x1 ![0, 1] bi slices_S800000x2_S800000x1_0_1) shapeCasts_S800000x1_S800000 i

/-- jnp's index normalisation (a negative index counts from the end), then the column as an n×1 table. -/
def normIdx (x : Arr F S800000 .i32) : Arr F S800000x1 .i32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 100000#32))) x)

/-! ## The lifts -/

def liftE (bo : Arr F S800000 .f32) (Wfe : Arr F S1x64 .f32) : Arr F S800000x64 .f32 :=
  Host.dotGeneral dot_S800000x1_S1x64_S800000x64_1_0_0_1_n_n none (broadcastInDim S800000x1 ![0] bcast_S800000_S800000x1_0 bo) Wfe
def liftV (atoms : Arr F S100000x16 .f32) (Wfv : Arr F S16x64 .f32) : Arr F S100000x64 .f32 :=
  Host.dotGeneral dot_S100000x16_S16x64_S100000x64_1_0_0_1_n_n none atoms Wfv
def liftU (atoms : Arr F S100000x16 .f32) (Wfu : Arr F S16x64 .f32) : Arr F S1x64 .f32 :=
  Host.dotGeneral dot_S1x16_S16x64_S1x64_1_0_0_1_n_n none
    (broadcastInDim S1x16 ![1] bcast_S16_S1x16_1 (Host.reduceAdd atoms (constant S_ .f32 0x00000000#32) reducesTo_S100000x16_S16_d0 h_S_)) Wfu

/-! ## Pieces of a round -/

/-- Slab `k` of a stack of 64×64 matrices. -/
def slab5 (k : Fin 5) (W : Arr F S5x64x64 .f32) : Arr F S64x64 .f32 :=
  match k with
  | 0 => fun i => shapeCast S64x64 (extractStridedSlice S1x64x64 ![0, 0, 0] W slices_S5x64x64_S1x64x64_0_0_0) shapeCasts_S1x64x64_S64x64 i
  | 1 => fun i => shapeCast S64x64 (extractStridedSlice S1x64x64 ![1, 0, 0] W slices_S5x64x64_S1x64x64_1_0_0) shapeCasts_S1x64x64_S64x64 i
  | 2 => fun i => shapeCast S64x64 (extractStridedSlice S1x64x64 ![2, 0, 0] W slices_S5x64x64_S1x64x64_2_0_0) shapeCasts_S1x64x64_S64x64 i
  | 3 => fun i => shapeCast S64x64 (extractStridedSlice S1x64x64 ![3, 0, 0] W slices_S5x64x64_S1x64x64_3_0_0) shapeCasts_S1x64x64_S64x64 i
  | 4 => fun i => shapeCast S64x64 (extractStridedSlice S1x64x64 ![4, 0, 0] W slices_S5x64x64_S1x64x64_4_0_0) shapeCasts_S1x64x64_S64x64 i
def slab4 (k : Fin 4) (W : Arr F S4x64x64 .f32) : Arr F S64x64 .f32 :=
  match k with
  | 0 => fun i => shapeCast S64x64 (extractStridedSlice S1x64x64 ![0, 0, 0] W slices_S4x64x64_S1x64x64_0_0_0) shapeCasts_S1x64x64_S64x64 i
  | 1 => fun i => shapeCast S64x64 (extractStridedSlice S1x64x64 ![1, 0, 0] W slices_S4x64x64_S1x64x64_1_0_0) shapeCasts_S1x64x64_S64x64 i
  | 2 => fun i => shapeCast S64x64 (extractStridedSlice S1x64x64 ![2, 0, 0] W slices_S4x64x64_S1x64x64_2_0_0) shapeCasts_S1x64x64_S64x64 i
  | 3 => fun i => shapeCast S64x64 (extractStridedSlice S1x64x64 ![3, 0, 0] W slices_S4x64x64_S1x64x64_3_0_0) shapeCasts_S1x64x64_S64x64 i

def mmE (x : Arr F S800000x64 .f32) (W : Arr F S64x64 .f32) : Arr F S800000x64 .f32 :=
  Host.dotGeneral dot_S800000x64_S64x64_S800000x64_1_0_0_1_n_n none x W
def mmV (x : Arr F S100000x64 .f32) (W : Arr F S64x64 .f32) : Arr F S100000x64 .f32 :=
  Host.dotGeneral dot_S100000x64_S64x64_S100000x64_1_0_0_1_n_n none x W
def mmU (x : Arr F S1x64 .f32) (W : Arr F S64x64 .f32) : Arr F S1x64 .f32 :=
  Host.dotGeneral dot_S1x64_S64x64_S1x64_1_0_0_1_n_n none x W

def reluE (x : Arr F S800000x64 .f32) : Arr F S800000x64 .f32 :=
  maximumf x (broadcastInDim S800000x64 ![] bcast_S_S800000x64 (constant S_ .f32 0x00000000#32))
def reluV (x : Arr F S100000x64 .f32) : Arr F S100000x64 .f32 :=
  maximumf x (broadcastInDim S100000x64 ![] bcast_S_S100000x64 (constant S_ .f32 0x00000000#32))
def reluU (x : Arr F S1x64 .f32) : Arr F S1x64 .f32 :=
  maximumf x (broadcastInDim S1x64 ![] bcast_S_S1x64 (constant S_ .f32 0x00000000#32))

/-- A bias of 64 entries as a 1×64 row. -/
def row (b : Arr F S64 .f32) : Arr F S1x64 .f32 := broadcastInDim S1x64 ![1] bcast_S64_S1x64_1 b

/-- The edge update, the bias given as a 1×64 row `be1`. -/
def edge1 (he he0 hl hr : Arr F S800000x64 .f32) (hu : Arr F S1x64 .f32) (We : Arr F S5x64x64 .f32) (be1 : Arr F S1x64 .f32) :
    Arr F S800000x64 .f32 :=
  reluE (addf (addf (addf (addf (addf (mmE he (slab5 0 We)) (mmE he0 (slab5 1 We))) (mmE hl (slab5 2 We))) (mmE hr (slab5 3 We)))
    (broadcastInDim S800000x64 ![0, 1] bcast_S1x64_S800000x64_0_1 (mmU hu (slab5 4 We))))
    (broadcastInDim S800000x64 ![0, 1] bcast_S1x64_S800000x64_0_1 be1))

/-- The node update, the bias given as a 1×64 row `bv1`. -/
def node1 (hv hv0 eb : Arr F S100000x64 .f32) (hu : Arr F S1x64 .f32) (Wv : Arr F S4x64x64 .f32) (bv1 : Arr F S1x64 .f32) :
    Arr F S100000x64 .f32 :=
  reluV (addf (addf (addf (addf (mmV hv (slab4 0 Wv)) (mmV hv0 (slab4 1 Wv))) (mmV eb (slab4 2 Wv)))
    (broadcastInDim S100000x64 ![0, 1] bcast_S1x64_S100000x64_0_1 (mmU hu (slab4 3 Wv))))
    (broadcastInDim S100000x64 ![0, 1] bcast_S1x64_S100000x64_0_1 bv1))

/-- The column sums of the bond (atom) features, as a 1×64 row. -/
def sumE (x : Arr F S800000x64 .f32) : Arr F S1x64 .f32 :=
  broadcastInDim S1x64 ![1] bcast_S64_S1x64_1 (Host.reduceAdd x (constant S_ .f32 0x00000000#32) reducesTo_S800000x64_S64_d0 h_S_)
def sumV (x : Arr F S100000x64 .f32) : Arr F S1x64 .f32 :=
  broadcastInDim S1x64 ![1] bcast_S64_S1x64_1 (Host.reduceAdd x (constant S_ .f32 0x00000000#32) reducesTo_S100000x64_S64_d0 h_S_)

/-- The global update. -/
def glob (hu hu0 eb vb : Arr F S1x64 .f32) (Wu : Arr F S4x64x64 .f32) (bu : Arr F S64 .f32) : Arr F S1x64 .f32 :=
  reluU (addf (addf (addf (addf (mmU hu (slab4 0 Wu)) (mmU hu0 (slab4 1 Wu))) (mmU eb (slab4 2 Wu))) (mmU vb (slab4 3 Wu))) (row bu))

/-- Endpoint features gathered per bond. -/
def gath (hv : Arr F S100000x64 .f32) (ix : Arr F S800000x1 .i32) : Arr F S800000x64 .f32 :=
  Host.gather gather_S100000x64_S800000x1_S800000x64_1_0_n_n_0_1_164 hv ix

/-- Bond features summed onto both endpoint atoms. -/
def scat (he : Arr F S800000x64 .f32) (si di : Arr F S800000x1 .i32) : Arr F S100000x64 .f32 :=
  Host.scatterAdd scatter_S100000x64_S800000x1_S800000x64_1_0_0_1
    (Host.scatterAdd scatter_S100000x64_S800000x1_S800000x64_1_0_0_1
      (broadcastInDim S100000x64 ![] bcast_S_S100000x64 (constant S_ .f32 0x00000000#32)) si he) di he

/-! ## One round, and the network -/

/-- The state carried from round to round: bond, atom and global features. -/
structure St (F : FTy → Type) [FloatOps F] where
  he : Arr F S800000x64 .f32
  hv : Arr F S100000x64 .f32
  hu : Arr F S1x64 .f32

/-- One round over the lifted features `(he0, hv0, hu0)` and the parameters. -/
def round (he0 : Arr F S800000x64 .f32) (hv0 : Arr F S100000x64 .f32) (hu0 : Arr F S1x64 .f32)
    (si di : Arr F S800000x1 .i32) (We : Arr F S5x64x64 .f32) (be1 : Arr F S1x64 .f32) (Wv : Arr F S4x64x64 .f32) (bv1 : Arr F S1x64 .f32)
    (Wu : Arr F S4x64x64 .f32) (bu : Arr F S64 .f32) (s : St F) : St F :=
  let he' := edge1 s.he he0 (gath s.hv si) (gath s.hv di) s.hu We be1
  let hv' := node1 s.hv hv0 (scat he' si di) s.hu Wv bv1
  { he := he', hv := hv', hu := glob s.hu hu0 (sumE he') (sumV hv') Wu bu }

/-- The network's result: the bond features after the third edge update. -/
def net (atoms : Arr F S100000x16 .f32) (bo : Arr F S800000 .f32) (Wfe : Arr F S1x64 .f32) (Wfv Wfu : Arr F S16x64 .f32)
    (We : Arr F S5x64x64 .f32) (be : Arr F S64 .f32) (Wv : Arr F S4x64x64 .f32) (bv : Arr F S64 .f32)
    (Wu : Arr F S4x64x64 .f32) (bu : Arr F S64 .f32) (bi : Arr F S800000x2 .i32) : Arr F S800000x64 .f32 :=
  let he0 := liftE bo Wfe
  let hv0 := liftV atoms Wfv
  let hu0 := liftU atoms Wfu
  let si := normIdx (col0 bi)
  let di := normIdx (col1 bi)
  let R := round he0 hv0 hu0 si di We (row be) Wv (row bv) Wu bu
  let s2 := R (R { he := he0, hv := hv0, hu := hu0 })
  edge1 s2.he he0 (gath s2.hv si) (gath s2.hv di) s2.hu We (row be)

end Cert.Spec

end
-- ==== Proof.KI.GlueBase.lean ====
/-
  The host operations before region 0, read against the network's whole-array functions: what the first stretch leaves in
  the buffers the regions read, as functions of the arguments at launch. Generic in the float type.
-/
import proofs.«108204_j49847390437921_1_alg».proof.Proof.Gen.KernelIdeal.Regions
import proofs.«108204_j49847390437921_1_alg».proof.Proof.Gen.ReferenceIdeal
import proofs.«108204_j49847390437921_1_alg».proof.Proof.Spec
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ) (outs : Outs (F := F))

/-! ## The arguments at launch, and the network's first values over them -/

section Args
variable (c : Dev nD)
/-- On core `c`, the atom features as launched. -/
abbrev aAtoms : Spec.Arr F S100000x16 .f32 := m ((c : Thread nD τ).loc main_arg0)
/-- On core `c`, the bond orders as launched. -/
abbrev aBo : Spec.Arr F S800000 .f32 := m ((c : Thread nD τ).loc main_arg1)
/-- On core `c`, the bond lift's weights as launched. -/
abbrev aWfe : Spec.Arr F S1x64 .f32 := m ((c : Thread nD τ).loc main_arg2)
/-- On core `c`, the atom lift's weights as launched. -/
abbrev aWfv : Spec.Arr F S16x64 .f32 := m ((c : Thread nD τ).loc main_arg3)
/-- On core `c`, the global lift's weights as launched. -/
abbrev aWfu : Spec.Arr F S16x64 .f32 := m ((c : Thread nD τ).loc main_arg4)
/-- On core `c`, the edge update's five weight matrices as launched. -/
abbrev aWe : Spec.Arr F S5x64x64 .f32 := m ((c : Thread nD τ).loc main_arg5)
/-- On core `c`, the edge update's bias as launched. -/
abbrev aBe : Spec.Arr F S64 .f32 := m ((c : Thread nD τ).loc main_arg6)
/-- On core `c`, the node update's four weight matrices as launched. -/
abbrev aWv : Spec.Arr F S4x64x64 .f32 := m ((c : Thread nD τ).loc main_arg7)
/-- On core `c`, the node update's bias as launched. -/
abbrev aBv : Spec.Arr F S64 .f32 := m ((c : Thread nD τ).loc main_arg8)
/-- On core `c`, the global update's four weight matrices as launched. -/
abbrev aWu : Spec.Arr F S4x64x64 .f32 := m ((c : Thread nD τ).loc main_arg9)
/-- On core `c`, the global update's bias as launched. -/
abbrev aBu : Spec.Arr F S64 .f32 := m ((c : Thread nD τ).loc main_arg10)
/-- On core `c`, the bonds' endpoint indices as launched. -/
abbrev aBi : Spec.Arr F S800000x2 .i32 := m ((c : Thread nD τ).loc main_arg11)
/-- The bonds' source atoms, normalised, as an n×1 table. -/
abbrev aSi : Spec.Arr F S800000x1 .i32 := Spec.normIdx (Spec.col0 (aBi m c))
/-- The bonds' destination atoms, normalised, as an n×1 table. -/
abbrev aDi : Spec.Arr F S800000x1 .i32 := Spec.normIdx (Spec.col1 (aBi m c))
/-- The lifted atom features. -/
abbrev aHv0 : Spec.Arr F S100000x64 .f32 := Spec.liftV (aAtoms m c) (aWfv m c)
/-- The lifted global features. -/
abbrev aHu0 : Spec.Arr F S1x64 .f32 := Spec.liftU (aAtoms m c) (aWfu m c)
end Args

/-! ## A bias as a row: reshape against broadcast -/

/-- A vector of 64 entries reshaped to one row of 64 is the same vector broadcast along the row's second axis: both read
    entry `j 1` at the index `j`. -/
theorem shapeCast_row_eq_broadcast {α : Type} (h₁ : S64.ShapeCasts S1x64)
    (h₂ : S64.BroadcastsInDim S1x64 (![1] : Fin S64.rank → Fin S1x64.rank)) (b : S64.Idx → α) :
    shapeCast S1x64 b h₁ = broadcastInDim S1x64 ![1] h₂ b := by
  funext j
  have hj0 : (j 0).val < 1 := (j 0).isLt
  have hj1 : (j 1).val < 64 := (j 1).isLt
  let k : S64.Idx := fun a => ⟨(j 1).val, by
    have e : a = 0 := Subsingleton.elim _ _
    subst e; exact hj1⟩
  have hk0 : (k 0).val = (j 1).val := rfl
  rw [shapeCast_apply b h₁ j k (by
        rw [Shape.rowMajor_val_one, Shape.rowMajor_val_two, hk0]
        show (j 1).val = (j 0).val * 64 + (j 1).val
        omega),
    broadcastInDim_apply ![1] h₂ b j k (by
        intro a
        have e : a = 0 := Subsingleton.elim _ _
        subst e
        show (j 1).val = if (64 : ℕ) = 1 then 0 else (j 1).val
        rw [if_neg (by decide)])]

/-! ## Region 0's entry: after the first host stretch -/

section V1
variable (c : Dev nD)

/-- The first index column, as the stretch's reshape of its slice leaves it. -/
theorem V1_main_v1 : (V1 m c main_v1 : Spec.Arr F S800000 .i32) = Spec.col0 (aBi m c) := by
  dsimp only [V1, hostOps0]
  after_results
  rfl
/-- The second index column. -/
theorem V1_main_v3 : (V1 m c main_v3 : Spec.Arr F S800000 .i32) = Spec.col1 (aBi m c) := by
  dsimp only [V1, hostOps0]
  after_results
  rfl
/-- The lifted atom features. -/
theorem V1_main_v10 : (V1 m c main_v10 : Spec.Arr F S100000x64 .f32) = aHv0 m c := by
  dsimp only [V1, hostOps0]
  after_results
  rfl
/-- The lifted global features. -/
theorem V1_main_v13 : (V1 m c main_v13 : Spec.Arr F S1x64 .f32) = aHu0 m c := by
  dsimp only [V1, hostOps0]
  after_results
  rfl
/-- The edge bias as a row: the stretch reshapes where the network broadcasts. -/
theorem V1_main_v14 : (V1 m c main_v14 : Spec.Arr F S1x64 .f32) = Spec.row (aBe m c) := by
  dsimp only [V1, hostOps0]
  after_results
  exact shapeCast_row_eq_broadcast _ _ _
/-- The node bias as a row. -/
theorem V1_main_v15 : (V1 m c main_v15 : Spec.Arr F S1x64 .f32) = Spec.row (aBv m c) := by
  dsimp only [V1, hostOps0]
  after_results
  exact shapeCast_row_eq_broadcast _ _ _
/-- The lifted atom features gathered at the bonds' sources. -/
theorem V1_main_v22 : (V1 m c main_v22 : Spec.Arr F S800000x64 .f32) = Spec.gath (aHv0 m c) (aSi m c) := by
  dsimp only [V1, hostOps0]
  after_results_simp
  rfl
/-- The lifted atom features gathered at the bonds' destinations. -/
theorem V1_main_v29 : (V1 m c main_v29 : Spec.Arr F S800000x64 .f32) = Spec.gath (aHv0 m c) (aDi m c) := by
  dsimp only [V1, hostOps0]
  after_results_simp
  rfl

end V1

end Cert.KernelIdeal.Hand

end
-- ==== Proof.KI.Glue.lean ====
/-
  The host operations between the regions, read against the network's whole-array functions: what the unscoped buffers
  hold at each region's entry, as functions of the arguments at launch and of what the earlier regions left. Generic in
  the float type; the one equality that needs the ideal values (the lifted bond features) is in its own module.
-/
import proofs.«108204_j49847390437921_1_alg».proof.Proof.KI.GlueBase

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ) (outs : Outs (F := F))

/-! ## What the regions leave, typed -/

section Outs
variable (c : Dev nD)
/-- Region 0's results: the bond features and their column sums. -/
abbrev o30_0 : Spec.Arr F S800000x64 .f32 := outs 2 main_v30_0 c
abbrev o30_1 : Spec.Arr F S1x64 .f32 := outs 2 main_v30_1 c
/-- Region 1's results: the atom features and their column sums. -/
abbrev o46_0 : Spec.Arr F S100000x64 .f32 := outs 4 main_v46_0 c
abbrev o46_1 : Spec.Arr F S1x64 .f32 := outs 4 main_v46_1 c
/-- Region 2's results. -/
abbrev o79_0 : Spec.Arr F S800000x64 .f32 := outs 8 main_v79_0 c
abbrev o79_1 : Spec.Arr F S1x64 .f32 := outs 8 main_v79_1 c
/-- Region 3's results. -/
abbrev o95_0 : Spec.Arr F S100000x64 .f32 := outs 10 main_v95_0 c
abbrev o95_1 : Spec.Arr F S1x64 .f32 := outs 10 main_v95_1 c
end Outs

/-! ## Region 1's entry: after region 0 and the scatter of its result -/

section V3
variable (c : Dev nD)

/-- What region 0 left in its first result. -/
theorem V2_main_v30_0 : V2 m outs c main_v30_0 = outs 2 main_v30_0 c := by
  dsimp only [V2]
  rw [Function.update_of_ne (StableHlo.devRef_ne_of_ne (by decide : main_v30_0 ≠ main_v30_1) : (Proc.devRef .tc main_v30_0 : DevRef τ sig) ≠ Proc.devRef .tc main_v30_1), Function.update_self]
/-- What region 0 left in its second result. -/
theorem V2_main_v30_1 : V2 m outs c main_v30_1 = outs 2 main_v30_1 c := by
  dsimp only [V2]
  rw [Function.update_self]

/-- The index columns are as the first stretch left them. -/
theorem V2_main_v1 : (V2 m outs c main_v1 : Spec.Arr F S800000 .i32) = Spec.col0 (aBi m c) :=
  ((V2_of m outs c main_v1 (by decide))).trans (V1_main_v1 m c)
theorem V2_main_v3 : (V2 m outs c main_v3 : Spec.Arr F S800000 .i32) = Spec.col1 (aBi m c) :=
  ((V2_of m outs c main_v3 (by decide))).trans (V1_main_v3 m c)

/-- Region 0's bond features summed onto both endpoint atoms. -/
theorem V3_main_v45 : (V3 m outs c main_v45 : Spec.Arr F S100000x64 .f32) = Spec.scat (outs 2 main_v30_0 c) (aSi m c) (aDi m c) := by
  dsimp only [V3, hostOps1]
  after_results_simp
  rw [V2_main_v1, V2_main_v3, V2_main_v30_0]
  rfl
/-- The lifted atom and global features and the node bias's row are as the first stretch left them. -/
theorem V3_main_v10 : (V3 m outs c main_v10 : Spec.Arr F S100000x64 .f32) = aHv0 m c :=
  ((V3_of m outs c main_v10 (by decide)).trans <| (V2_of m outs c main_v10 (by decide))).trans (V1_main_v10 m c)
theorem V3_main_v13 : (V3 m outs c main_v13 : Spec.Arr F S1x64 .f32) = aHu0 m c :=
  ((V3_of m outs c main_v13 (by decide)).trans <| (V2_of m outs c main_v13 (by decide))).trans (V1_main_v13 m c)
theorem V3_main_v15 : (V3 m outs c main_v15 : Spec.Arr F S1x64 .f32) = Spec.row (aBv m c) :=
  ((V3_of m outs c main_v15 (by decide)).trans <| (V2_of m outs c main_v15 (by decide))).trans (V1_main_v15 m c)
/-- The edge update's weights reach region 0's entry as launched: no host operation writes an argument. -/
theorem V1_main_arg5 : (V1 m c main_arg5 : Spec.Arr F S5x64x64 .f32) = aWe m c :=
  (V1_of m c main_arg5 (by decide))
/-- The node update's weights reach region 1's entry as launched. -/
theorem V3_main_arg7 : (V3 m outs c main_arg7 : Spec.Arr F S4x64x64 .f32) = aWv m c :=
  (V3_of m outs c main_arg7 (by decide)).trans <| (V2_of m outs c main_arg7 (by decide)).trans <| (V1_of m c main_arg7 (by decide))

end V3

/-! ## Region 2's entry: after region 1, the global update and the gathers of its result -/

section V7
variable (c : Dev nD)

/-- What region 1 left in its first result. -/
theorem V4_main_v46_0 : V4 m outs c main_v46_0 = outs 4 main_v46_0 c := by
  dsimp only [V4]
  rw [Function.update_of_ne (StableHlo.devRef_ne_of_ne (by decide : main_v46_0 ≠ main_v46_1) : (Proc.devRef .tc main_v46_0 : DevRef τ sig) ≠ Proc.devRef .tc main_v46_1), Function.update_self]
/-- What region 1 left in its second result. -/
theorem V4_main_v46_1 : V4 m outs c main_v46_1 = outs 4 main_v46_1 c := by
  dsimp only [V4]
  rw [Function.update_self]

/-- The global update's operands are as earlier items left them. -/
theorem V4_main_v30_1 : (V4 m outs c main_v30_1 : Spec.Arr F S1x64 .f32) = outs 2 main_v30_1 c :=
  ((V4_of m outs c main_v30_1 (by decide)).trans <| (V3_of m outs c main_v30_1 (by decide))).trans (V2_main_v30_1 m outs c)
theorem V4_main_v13 : (V4 m outs c main_v13 : Spec.Arr F S1x64 .f32) = aHu0 m c :=
  ((V4_of m outs c main_v13 (by decide)).trans <| (V3_of m outs c main_v13 (by decide)).trans <| (V2_of m outs c main_v13 (by decide))).trans (V1_main_v13 m c)
theorem V4_main_arg9 : (V4 m outs c main_arg9 : Spec.Arr F S4x64x64 .f32) = aWu m c :=
  (V4_of m outs c main_arg9 (by decide)).trans <| (V3_of m outs c main_arg9 (by decide)).trans <| (V2_of m outs c main_arg9 (by decide)).trans <| (V1_of m c main_arg9 (by decide))
theorem V4_main_arg10 : (V4 m outs c main_arg10 : Spec.Arr F S64 .f32) = aBu m c :=
  (V4_of m outs c main_arg10 (by decide)).trans <| (V3_of m outs c main_arg10 (by decide)).trans <| (V2_of m outs c main_arg10 (by decide)).trans <| (V1_of m c main_arg10 (by decide))

/-- The first global update: the four products and the bias's row summed, then the outlined rectifier's three operations. -/
theorem V6_main_v64 : (V6 m outs c main_v64 : Spec.Arr F S1x64 .f32) = Spec.glob (aHu0 m c) (aHu0 m c) (o30_1 outs c) (o46_1 outs c) (aWu m c) (aBu m c) := by
  dsimp only [V6, hostOps2_1]
  after_results_simp
  rw [V4_main_v13, V4_main_v30_1, V4_main_v46_1, V4_main_arg9, V4_main_arg10]
  rfl
theorem V7_main_v64 : (V7 m outs c main_v64 : Spec.Arr F S1x64 .f32) = Spec.glob (aHu0 m c) (aHu0 m c) (o30_1 outs c) (o46_1 outs c) (aWu m c) (aBu m c) :=
  (V7_of m outs c main_v64 (by decide)).trans (V6_main_v64 m outs c)

/-- The index columns, the gathers' other operand. -/
theorem V4_main_v1 : (V4 m outs c main_v1 : Spec.Arr F S800000 .i32) = Spec.col0 (aBi m c) :=
  ((V4_of m outs c main_v1 (by decide)).trans <| (V3_of m outs c main_v1 (by decide))).trans (V2_main_v1 m outs c)
theorem V4_main_v3 : (V4 m outs c main_v3 : Spec.Arr F S800000 .i32) = Spec.col1 (aBi m c) :=
  ((V4_of m outs c main_v3 (by decide)).trans <| (V3_of m outs c main_v3 (by decide))).trans (V2_main_v3 m outs c)

/-- Region 1's atom features gathered at the bonds' sources. -/
theorem V7_main_v71 : (V7 m outs c main_v71 : Spec.Arr F S800000x64 .f32) = Spec.gath (o46_0 outs c) (aSi m c) := by
  dsimp only [V7, hostOps2_2]
  after_results_simp
  rw [V4_main_v1, V4_main_v46_0]
  rfl
/-- Region 1's atom features gathered at the bonds' destinations. -/
theorem V7_main_v78 : (V7 m outs c main_v78 : Spec.Arr F S800000x64 .f32) = Spec.gath (o46_0 outs c) (aDi m c) := by
  dsimp only [V7, hostOps2_2]
  after_results_simp
  rw [V4_main_v3, V4_main_v46_0]
  rfl
/-- Region 0's bond features, the lifted bond features and the edge bias's row are as earlier items left them. -/
theorem V7_main_v30_0 : (V7 m outs c main_v30_0 : Spec.Arr F S800000x64 .f32) = outs 2 main_v30_0 c :=
  ((V7_of m outs c main_v30_0 (by decide)).trans <| (V6_of m outs c main_v30_0 (by decide)).trans <| (V5_of m outs c main_v30_0 (by decide)).trans <| (V4_of m outs c main_v30_0 (by decide)).trans <| (V3_of m outs c main_v30_0 (by decide))).trans (V2_main_v30_0 m outs c)
/-- (The lifted bond features: the value at region 0's entry.) -/
theorem V7_main_v9 : V7 m outs c main_v9 = V1 m c main_v9 :=
  (V7_of m outs c main_v9 (by decide)).trans <| (V6_of m outs c main_v9 (by decide)).trans <| (V5_of m outs c main_v9 (by decide)).trans <| (V4_of m outs c main_v9 (by decide)).trans <| (V3_of m outs c main_v9 (by decide)).trans <| (V2_of m outs c main_v9 (by decide))
theorem V7_main_v14 : (V7 m outs c main_v14 : Spec.Arr F S1x64 .f32) = Spec.row (aBe m c) :=
  ((V7_of m outs c main_v14 (by decide)).trans <| (V6_of m outs c main_v14 (by decide)).trans <| (V5_of m outs c main_v14 (by decide)).trans <| (V4_of m outs c main_v14 (by decide)).trans <| (V3_of m outs c main_v14 (by decide)).trans <| (V2_of m outs c main_v14 (by decide))).trans (V1_main_v14 m c)
/-- The edge update's weights reach region 2's entry as launched. -/
theorem V7_main_arg5 : (V7 m outs c main_arg5 : Spec.Arr F S5x64x64 .f32) = aWe m c :=
  (V7_of m outs c main_arg5 (by decide)).trans <| (V6_of m outs c main_arg5 (by decide)).trans <| (V5_of m outs c main_arg5 (by decide)).trans <| (V4_of m outs c main_arg5 (by decide)).trans <| (V3_of m outs c main_arg5 (by decide)).trans <| (V2_of m outs c main_arg5 (by decide)).trans <| (V1_of m c main_arg5 (by decide))

end V7

/-! ## Region 3's entry: after region 2 and the scatter of its result -/

section V9
variable (c : Dev nD)

/-- What region 2 left in its first result. -/
theorem V8_main_v79_0 : V8 m outs c main_v79_0 = outs 8 main_v79_0 c := by
  dsimp only [V8]
  rw [Function.update_of_ne (StableHlo.devRef_ne_of_ne (by decide : main_v79_0 ≠ main_v79_1) : (Proc.devRef .tc main_v79_0 : DevRef τ sig) ≠ Proc.devRef .tc main_v79_1), Function.update_self]
/-- What region 2 left in its second result. -/
theorem V8_main_v79_1 : V8 m outs c main_v79_1 = outs 8 main_v79_1 c := by
  dsimp only [V8]
  rw [Function.update_self]

theorem V8_main_v1 : (V8 m outs c main_v1 : Spec.Arr F S800000 .i32) = Spec.col0 (aBi m c) :=
  ((V8_of m outs c main_v1 (by decide)).trans <| (V7_of m outs c main_v1 (by decide)).trans <| (V6_of m outs c main_v1 (by decide)).trans <| (V5_of m outs c main_v1 (by decide)).trans <| (V4_of m outs c main_v1 (by decide)).trans <| (V3_of m outs c main_v1 (by decide))).trans (V2_main_v1 m outs c)
theorem V8_main_v3 : (V8 m outs c main_v3 : Spec.Arr F S800000 .i32) = Spec.col1 (aBi m c) :=
  ((V8_of m outs c main_v3 (by decide)).trans <| (V7_of m outs c main_v3 (by decide)).trans <| (V6_of m outs c main_v3 (by decide)).trans <| (V5_of m outs c main_v3 (by decide)).trans <| (V4_of m outs c main_v3 (by decide)).trans <| (V3_of m outs c main_v3 (by decide))).trans (V2_main_v3 m outs c)

/-- Region 2's bond features summed onto both endpoint atoms. -/
theorem V9_main_v94 : (V9 m outs c main_v94 : Spec.Arr F S100000x64 .f32) = Spec.scat (o79_0 outs c) (aSi m c) (aDi m c) := by
  dsimp only [V9, hostOps3]
  after_results_simp
  rw [V8_main_v1, V8_main_v3, V8_main_v79_0]
  rfl
/-- Region 1's atom features, the lifted atom features, the first global update and the node bias's row are as earlier items left them. -/
theorem V9_main_v46_0 : (V9 m outs c main_v46_0 : Spec.Arr F S100000x64 .f32) = outs 4 main_v46_0 c :=
  ((V9_of m outs c main_v46_0 (by decide)).trans <| (V8_of m outs c main_v46_0 (by decide)).trans <| (V7_of m outs c main_v46_0 (by decide)).trans <| (V6_of m outs c main_v46_0 (by decide)).trans <| (V5_of m outs c main_v46_0 (by decide))).trans (V4_main_v46_0 m outs c)
theorem V9_main_v10 : (V9 m outs c main_v10 : Spec.Arr F S100000x64 .f32) = aHv0 m c :=
  ((V9_of m outs c main_v10 (by decide)).trans <| (V8_of m outs c main_v10 (by decide)).trans <| (V7_of m outs c main_v10 (by decide)).trans <| (V6_of m outs c main_v10 (by decide)).trans <| (V5_of m outs c main_v10 (by decide)).trans <| (V4_of m outs c main_v10 (by decide)).trans <| (V3_of m outs c main_v10 (by decide)).trans <| (V2_of m outs c main_v10 (by decide))).trans (V1_main_v10 m c)
theorem V9_main_v64 : (V9 m outs c main_v64 : Spec.Arr F S1x64 .f32) = Spec.glob (aHu0 m c) (aHu0 m c) (o30_1 outs c) (o46_1 outs c) (aWu m c) (aBu m c) :=
  ((V9_of m outs c main_v64 (by decide)).trans <| (V8_of m outs c main_v64 (by decide))).trans (V7_main_v64 m outs c)
theorem V9_main_v15 : (V9 m outs c main_v15 : Spec.Arr F S1x64 .f32) = Spec.row (aBv m c) :=
  ((V9_of m outs c main_v15 (by decide)).trans <| (V8_of m outs c main_v15 (by decide)).trans <| (V7_of m outs c main_v15 (by decide)).trans <| (V6_of m outs c main_v15 (by decide)).trans <| (V5_of m outs c main_v15 (by decide)).trans <| (V4_of m outs c main_v15 (by decide)).trans <| (V3_of m outs c main_v15 (by decide)).trans <| (V2_of m outs c main_v15 (by decide))).trans (V1_main_v15 m c)
/-- The node update's weights reach region 3's entry as launched. -/
theorem V9_main_arg7 : (V9 m outs c main_arg7 : Spec.Arr F S4x64x64 .f32) = aWv m c :=
  (V9_of m outs c main_arg7 (by decide)).trans <| (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m outs c main_arg7 (by decide)).trans <| (V2_of m outs c main_arg7 (by decide)).trans <| (V1_of m c main_arg7 (by decide))

end V9

/-! ## Region 4's entry: after region 3, the second global update and the gathers of its result -/

section V13
variable (c : Dev nD)

/-- What region 3 left in its first result. -/
theorem V10_main_v95_0 : V10 m outs c main_v95_0 = outs 10 main_v95_0 c := by
  dsimp only [V10]
  rw [Function.update_of_ne (StableHlo.devRef_ne_of_ne (by decide : main_v95_0 ≠ main_v95_1) : (Proc.devRef .tc main_v95_0 : DevRef τ sig) ≠ Proc.devRef .tc main_v95_1), Function.update_self]
/-- What region 3 left in its second result. -/
theorem V10_main_v95_1 : V10 m outs c main_v95_1 = outs 10 main_v95_1 c := by
  dsimp only [V10]
  rw [Function.update_self]

/-- The global update's operands are as earlier items left them. -/
theorem V10_main_v79_1 : (V10 m outs c main_v79_1 : Spec.Arr F S1x64 .f32) = outs 8 main_v79_1 c :=
  ((V10_of m outs c main_v79_1 (by decide)).trans <| (V9_of m outs c main_v79_1 (by decide))).trans (V8_main_v79_1 m outs c)
theorem V10_main_v64 : (V10 m outs c main_v64 : Spec.Arr F S1x64 .f32) = Spec.glob (aHu0 m c) (aHu0 m c) (o30_1 outs c) (o46_1 outs c) (aWu m c) (aBu m c) :=
  ((V10_of m outs c main_v64 (by decide)).trans <| (V9_of m outs c main_v64 (by decide)).trans <| (V8_of m outs c main_v64 (by decide))).trans (V7_main_v64 m outs c)
theorem V10_main_v13 : (V10 m outs c main_v13 : Spec.Arr F S1x64 .f32) = aHu0 m c :=
  ((V10_of m outs c main_v13 (by decide)).trans <| (V9_of m outs c main_v13 (by decide)).trans <| (V8_of m outs c main_v13 (by decide)).trans <| (V7_of m outs c main_v13 (by decide)).trans <| (V6_of m outs c main_v13 (by decide)).trans <| (V5_of m outs c main_v13 (by decide)).trans <| (V4_of m outs c main_v13 (by decide)).trans <| (V3_of m outs c main_v13 (by decide)).trans <| (V2_of m outs c main_v13 (by decide))).trans (V1_main_v13 m c)
theorem V10_main_arg9 : (V10 m outs c main_arg9 : Spec.Arr F S4x64x64 .f32) = aWu m c :=
  (V10_of m outs c main_arg9 (by decide)).trans <| (V9_of m outs c main_arg9 (by decide)).trans <| (V8_of m outs c main_arg9 (by decide)).trans <| (V7_of m outs c main_arg9 (by decide)).trans <| (V6_of m outs c main_arg9 (by decide)).trans <| (V5_of m outs c main_arg9 (by decide)).trans <| (V4_of m outs c main_arg9 (by decide)).trans <| (V3_of m outs c main_arg9 (by decide)).trans <| (V2_of m outs c main_arg9 (by decide)).trans <| (V1_of m c main_arg9 (by decide))
theorem V10_main_arg10 : (V10 m outs c main_arg10 : Spec.Arr F S64 .f32) = aBu m c :=
  (V10_of m outs c main_arg10 (by decide)).trans <| (V9_of m outs c main_arg10 (by decide)).trans <| (V8_of m outs c main_arg10 (by decide)).trans <| (V7_of m outs c main_arg10 (by decide)).trans <| (V6_of m outs c main_arg10 (by decide)).trans <| (V5_of m outs c main_arg10 (by decide)).trans <| (V4_of m outs c main_arg10 (by decide)).trans <| (V3_of m outs c main_arg10 (by decide)).trans <| (V2_of m outs c main_arg10 (by decide)).trans <| (V1_of m c main_arg10 (by decide))

/-- The second global update, over the first. -/
theorem V12_main_v113 : (V12 m outs c main_v113 : Spec.Arr F S1x64 .f32) = Spec.glob (Spec.glob (aHu0 m c) (aHu0 m c) (o30_1 outs c) (o46_1 outs c) (aWu m c) (aBu m c)) (aHu0 m c) (o79_1 outs c) (o95_1 outs c) (aWu m c) (aBu m c) := by
  dsimp only [V12, hostOps4_1]
  after_results_simp
  rw [V10_main_v64, V10_main_v13, V10_main_v79_1, V10_main_v95_1, V10_main_arg9, V10_main_arg10]
  rfl
theorem V13_main_v113 : (V13 m outs c main_v113 : Spec.Arr F S1x64 .f32) = Spec.glob (Spec.glob (aHu0 m c) (aHu0 m c) (o30_1 outs c) (o46_1 outs c) (aWu m c) (aBu m c)) (aHu0 m c) (o79_1 outs c) (o95_1 outs c) (aWu m c) (aBu m c) :=
  (V13_of m outs c main_v113 (by decide)).trans (V12_main_v113 m outs c)

/-- The index columns, the gathers' other operand. -/
theorem V10_main_v1 : (V10 m outs c main_v1 : Spec.Arr F S800000 .i32) = Spec.col0 (aBi m c) :=
  ((V10_of m outs c main_v1 (by decide)).trans <| (V9_of m outs c main_v1 (by decide)).trans <| (V8_of m outs c main_v1 (by decide)).trans <| (V7_of m outs c main_v1 (by decide)).trans <| (V6_of m outs c main_v1 (by decide)).trans <| (V5_of m outs c main_v1 (by decide)).trans <| (V4_of m outs c main_v1 (by decide)).trans <| (V3_of m outs c main_v1 (by decide))).trans (V2_main_v1 m outs c)
theorem V10_main_v3 : (V10 m outs c main_v3 : Spec.Arr F S800000 .i32) = Spec.col1 (aBi m c) :=
  ((V10_of m outs c main_v3 (by decide)).trans <| (V9_of m outs c main_v3 (by decide)).trans <| (V8_of m outs c main_v3 (by decide)).trans <| (V7_of m outs c main_v3 (by decide)).trans <| (V6_of m outs c main_v3 (by decide)).trans <| (V5_of m outs c main_v3 (by decide)).trans <| (V4_of m outs c main_v3 (by decide)).trans <| (V3_of m outs c main_v3 (by decide))).trans (V2_main_v3 m outs c)

/-- Region 3's atom features gathered at the bonds' sources. -/
theorem V13_main_v120 : (V13 m outs c main_v120 : Spec.Arr F S800000x64 .f32) = Spec.gath (o95_0 outs c) (aSi m c) := by
  dsimp only [V13, hostOps4_2]
  after_results_simp
  rw [V10_main_v1, V10_main_v95_0]
  rfl
/-- Region 3's atom features gathered at the bonds' destinations. -/
theorem V13_main_v127 : (V13 m outs c main_v127 : Spec.Arr F S800000x64 .f32) = Spec.gath (o95_0 outs c) (aDi m c) := by
  dsimp only [V13, hostOps4_2]
  after_results_simp
  rw [V10_main_v3, V10_main_v95_0]
  rfl
/-- Region 2's bond features, the lifted bond features and the edge bias's row are as earlier items left them. -/
theorem V13_main_v79_0 : (V13 m outs c main_v79_0 : Spec.Arr F S800000x64 .f32) = outs 8 main_v79_0 c :=
  ((V13_of m outs c main_v79_0 (by decide)).trans <| (V12_of m outs c main_v79_0 (by decide)).trans <| (V11_of m outs c main_v79_0 (by decide)).trans <| (V10_of m outs c main_v79_0 (by decide)).trans <| (V9_of m outs c main_v79_0 (by decide))).trans (V8_main_v79_0 m outs c)
/-- (The lifted bond features: the value at region 0's entry.) -/
theorem V13_main_v9 : V13 m outs c main_v9 = V1 m c main_v9 :=
  (V13_of m outs c main_v9 (by decide)).trans <| (V12_of m outs c main_v9 (by decide)).trans <| (V11_of m outs c main_v9 (by decide)).trans <| (V10_of m outs c main_v9 (by decide)).trans <| (V9_of m outs c main_v9 (by decide)).trans <| (V8_of m outs c main_v9 (by decide)).trans <| (V7_of m outs c main_v9 (by decide)).trans <| (V6_of m outs c main_v9 (by decide)).trans <| (V5_of m outs c main_v9 (by decide)).trans <| (V4_of m outs c main_v9 (by decide)).trans <| (V3_of m outs c main_v9 (by decide)).trans <| (V2_of m outs c main_v9 (by decide))
theorem V13_main_v14 : (V13 m outs c main_v14 : Spec.Arr F S1x64 .f32) = Spec.row (aBe m c) :=
  ((V13_of m outs c main_v14 (by decide)).trans <| (V12_of m outs c main_v14 (by decide)).trans <| (V11_of m outs c main_v14 (by decide)).trans <| (V10_of m outs c main_v14 (by decide)).trans <| (V9_of m outs c main_v14 (by decide)).trans <| (V8_of m outs c main_v14 (by decide)).trans <| (V7_of m outs c main_v14 (by decide)).trans <| (V6_of m outs c main_v14 (by decide)).trans <| (V5_of m outs c main_v14 (by decide)).trans <| (V4_of m outs c main_v14 (by decide)).trans <| (V3_of m outs c main_v14 (by decide)).trans <| (V2_of m outs c main_v14 (by decide))).trans (V1_main_v14 m c)
/-- The edge update's weights reach region 4's entry as launched. -/
theorem V13_main_arg5 : (V13 m outs c main_arg5 : Spec.Arr F S5x64x64 .f32) = aWe m c :=
  (V13_of m outs c main_arg5 (by decide)).trans <| (V12_of m outs c main_arg5 (by decide)).trans <| (V11_of m outs c main_arg5 (by decide)).trans <| (V10_of m outs c main_arg5 (by decide)).trans <| (V9_of m outs c main_arg5 (by decide)).trans <| (V8_of m outs c main_arg5 (by decide)).trans <| (V7_of m outs c main_arg5 (by decide)).trans <| (V6_of m outs c main_arg5 (by decide)).trans <| (V5_of m outs c main_arg5 (by decide)).trans <| (V4_of m outs c main_arg5 (by decide)).trans <| (V3_of m outs c main_arg5 (by decide)).trans <| (V2_of m outs c main_arg5 (by decide)).trans <| (V1_of m c main_arg5 (by decide))

end V13

end Cert.KernelIdeal.Hand

end
-- ==== Proof.KI.GlueLiftE.lean ====
/-
  The lifted bond features at the ideal values: the program multiplies two broadcasts where the network's function
  contracts an axis of extent one. Read at an index both are one product, so the buffer holds the network's lift at
  the entries of the three edge regions. (The one place the host operations are read at the ideal values.)
-/
import proofs.«108204_j49847390437921_1_alg».proof.Proof.KI.Glue
import Idealize.ShloMosaic.Lib.ValueIdx
import Idealize.ShloMosaic.Lib.StackMember

set_option maxRecDepth 16384

noncomputable section

namespace Cert.KernelIdeal.Hand

open Cert.KernelIdeal Cert.KernelIdeal.Gen
open Idealize.ShloMosaic Idealize.ShloMosaic.TcCoe Idealize.ShloMosaic.ValueIdx

/-- The bond lift as one product of two broadcasts: at the index (r, c) both sides are `bo r * Wfe (0, c)`, the
    contraction on the right running over an axis of extent one. -/
theorem mul_broadcasts_eq_liftE (bo : FVec Ideal S800000 .f32) (Wfe : FVec Ideal S1x64 .f32) :
    mulf (F := Ideal) (broadcastInDim S800000x64 ![0, 1] bcast_S800000x1_S800000x64_0_1 (broadcastInDim S800000x1 ![0] bcast_S800000_S800000x1_0 bo))
          (broadcastInDim S800000x64 ![0, 1] bcast_S1x64_S800000x64_0_1
            (broadcastInDim S1x64 ![1] bcast_S64_S1x64_1 (shapeCast S64 Wfe shapeCasts_S1x64_S64)))
      = Spec.liftE (F := Ideal) bo Wfe := by
  funext j
  obtain ⟨a, b, rfl⟩ : ∃ (a : Fin 800000) (b : Fin 64), j = ix2 a b := ⟨j 0, j 1, eq_ix2 j⟩
  show _ = Host.dotGeneral (DotDims.plain 800000 1 64) none
    (broadcastInDim S800000x1 ![0] bcast_S800000_S800000x1_0 bo) Wfe (ix2 a b)
  rw [StackMember.dotGeneral_plain_apply, Fin.sum_univ_one, mulf_apply]
  congr 1
  · exact broadcastInDim_apply ![0, 1] bcast_S800000x1_S800000x64_0_1 _ (ix2 a b) (ix2 a 0) (by
      intro ax
      match ax with
      | ⟨0, _⟩ => rfl
      | ⟨1, _⟩ => rfl)
  · rw [broadcastInDim_apply ![0, 1] bcast_S1x64_S800000x64_0_1 _ (ix2 a b) (ix2 0 b) (by
      intro ax
      match ax with
      | ⟨0, _⟩ => rfl
      | ⟨1, _⟩ => rfl),
      broadcastInDim_apply ![1] bcast_S64_S1x64_1 _ (ix2 0 b) (ix1 b) (by
      intro ax
      match ax with
      | ⟨0, _⟩ => rfl),
      shapeCast_apply Wfe shapeCasts_S1x64_S64 (ix1 b) (ix2 0 b) (by
      rw [Shape.rowMajor_val_one, Shape.rowMajor_val_two]
      show 0 * 64 + b.val = b.val
      omega)]

variable (m : (ℓ : Loc nD τ sig) → Buf (Elt Ideal) ℓ) (outs : Outs (F := Ideal)) (c : Dev nD)

/-- Region 0's entry: the lifted bond features. -/
theorem V1_main_v9 : (V1 m c main_v9 : Spec.Arr Ideal S800000x64 .f32) = Spec.liftE (aBo m c) (aWfe m c) := by
  dsimp only [V1, hostOps0]
  after_results_simp
  exact mul_broadcasts_eq_liftE _ _
/-- Region 2's entry: no item between writes them. -/
theorem V7_main_v9_liftE : (V7 m outs c main_v9 : Spec.Arr Ideal S800000x64 .f32) = Spec.liftE (aBo m c) (aWfe m c) :=
  (V7_main_v9 m outs c).trans (V1_main_v9 m c)
/-- Region 4's entry. -/
theorem V13_main_v9_liftE : (V13 m outs c main_v9 : Spec.Arr Ideal S800000x64 .f32) = Spec.liftE (aBo m c) (aWfe m c) :=
  (V13_main_v9 m outs c).trans (V1_main_v9 m c)

end Cert.KernelIdeal.Hand

end
-- ==== Proof.KI.ValueSpec.lean ====
/- The reference's edge update and its column sums (Spec.lean) read at an index, at the ideal values: a slab of the
   stack of weight matrices is the stack at that slab's coordinate; each dot_general is the sum over the contracted
   coordinate of the products; a 1×64 row broadcast over the 800000 rows reads the row; so an entry of the edge update
   is the clamped sum of five such sums and the bias, added first to last, and an entry of its column sums is the
   initial zero plus the sum over the 800000 rows. Nothing here depends on a region of the kernel program. -/
import proofs.«108204_j49847390437921_1_alg».proof.Proof.Spec
import Idealize.ShloMosaic.Lib.Pipeline.Value
import Idealize.ShloMosaic.Lib.ValueIdx
import Idealize.ShloMosaic.PureOps.Ideal.Laws

noncomputable section

namespace Cert.Spec

open Cert.ReferenceIdeal Idealize.ShloMosaic Idealize.ShloMosaic.ValueIdx

variable [Facts₀]

open Facts₀

/-! ## A slab of the weight stack -/

/-- Slab `k` of a 5×64×64 stack, sliced out and cast to a 64×64 matrix, at row `a`, column `b`: the stack at (k, a, b). -/
theorem sliceSlab_apply {α : Type} (k : Fin 5) (W : S5x64x64.Idx → α) (h : S5x64x64.Slices ![k.val, 0, 0] S1x64x64)
    (h' : S1x64x64.ShapeCasts S64x64) (a b : Fin 64) :
    shapeCast S64x64 (extractStridedSlice S1x64x64 ![k.val, 0, 0] W h) h' (ix2 a b) = W (ix3 k a b) :=
  (shapeCast_apply _ h' (ix2 a b) (ix3 (0 : Fin 1) a b) (by
    rw [Shape.rowMajor_val_three, Shape.rowMajor_val_two]
    show ((0 : Fin 1).val * 64 + a.val) * 64 + b.val = a.val * 64 + b.val
    simp)).trans
  (extractStridedSlice_apply _ W h (ix3 (0 : Fin 1) a b) (ix3 k a b) (fun c => match c with
    | ⟨0, _⟩ => by show k.val = k.val + (0 : Fin 1).val; simp
    | ⟨1, _⟩ => by show a.val = 0 + a.val; omega
    | ⟨2, _⟩ => by show b.val = 0 + b.val; omega))

theorem slab5_apply (k : Fin 5) (W : Arr Ideal S5x64x64 .f32) (a b : Fin 64) : slab5 k W (ix2 a b) = W (ix3 k a b) :=
  match k with
  | 0 => sliceSlab_apply 0 W _ _ a b
  | 1 => sliceSlab_apply 1 W _ _ a b
  | 2 => sliceSlab_apply 2 W _ _ a b
  | 3 => sliceSlab_apply 3 W _ _ a b
  | 4 => sliceSlab_apply 4 W _ _ a b

/-! ## The two dot_generals' dimension numbers, axis by axis -/

theorem dotE_lhs_0 (i : S800000x64.Idx) (q : dot_S800000x64_S64x64_S800000x64_1_0_0_1_n_n.contr.Idx) :
    (dot_S800000x64_S64x64_S800000x64_1_0_0_1_n_n.lhsIdx i q 0).val = (i 0).val := by
  unfold DotDims.lhsIdx
  rw [dif_neg (show ¬(0 : Fin S800000x64.rank) ∈ dot_S800000x64_S64x64_S800000x64_1_0_0_1_n_n.lhsBatch from List.not_mem_nil), dif_pos (show (0 : Fin S800000x64.rank) ∈ dot_S800000x64_S64x64_S800000x64_1_0_0_1_n_n.lhsNonContracting from List.mem_singleton.mpr rfl)]
  rfl
theorem dotE_lhs_1 (i : S800000x64.Idx) (q : dot_S800000x64_S64x64_S800000x64_1_0_0_1_n_n.contr.Idx) :
    (dot_S800000x64_S64x64_S800000x64_1_0_0_1_n_n.lhsIdx i q 1).val = (q ⟨0, Nat.one_pos⟩).val :=
  dot_S800000x64_S64x64_S800000x64_1_0_0_1_n_n.lhsIdx_val_of_single rfl i q
theorem dotE_rhs_0 (i : S800000x64.Idx) (q : dot_S800000x64_S64x64_S800000x64_1_0_0_1_n_n.contr.Idx) :
    (dot_S800000x64_S64x64_S800000x64_1_0_0_1_n_n.rhsIdx i q 0).val = (q ⟨0, Nat.one_pos⟩).val :=
  dot_S800000x64_S64x64_S800000x64_1_0_0_1_n_n.rhsIdx_val_of_single rfl i q
theorem dotE_rhs_1 (i : S800000x64.Idx) (q : dot_S800000x64_S64x64_S800000x64_1_0_0_1_n_n.contr.Idx) :
    (dot_S800000x64_S64x64_S800000x64_1_0_0_1_n_n.rhsIdx i q 1).val = (i 1).val := by
  unfold DotDims.rhsIdx
  rw [dif_neg (show ¬(1 : Fin S64x64.rank) ∈ dot_S800000x64_S64x64_S800000x64_1_0_0_1_n_n.rhsBatch from List.not_mem_nil), dif_pos (show (1 : Fin S64x64.rank) ∈ dot_S800000x64_S64x64_S800000x64_1_0_0_1_n_n.rhsNonContracting from List.mem_singleton.mpr rfl)]
  rfl

theorem dotU_lhs_0 (i : S1x64.Idx) (q : dot_S1x64_S64x64_S1x64_1_0_0_1_n_n.contr.Idx) :
    (dot_S1x64_S64x64_S1x64_1_0_0_1_n_n.lhsIdx i q 0).val = (i 0).val := by
  unfold DotDims.lhsIdx
  rw [dif_neg (show ¬(0 : Fin S1x64.rank) ∈ dot_S1x64_S64x64_S1x64_1_0_0_1_n_n.lhsBatch from List.not_mem_nil), dif_pos (show (0 : Fin S1x64.rank) ∈ dot_S1x64_S64x64_S1x64_1_0_0_1_n_n.lhsNonContracting from List.mem_singleton.mpr rfl)]
  rfl
theorem dotU_lhs_1 (i : S1x64.Idx) (q : dot_S1x64_S64x64_S1x64_1_0_0_1_n_n.contr.Idx) :
    (dot_S1x64_S64x64_S1x64_1_0_0_1_n_n.lhsIdx i q 1).val = (q ⟨0, Nat.one_pos⟩).val :=
  dot_S1x64_S64x64_S1x64_1_0_0_1_n_n.lhsIdx_val_of_single rfl i q
theorem dotU_rhs_0 (i : S1x64.Idx) (q : dot_S1x64_S64x64_S1x64_1_0_0_1_n_n.contr.Idx) :
    (dot_S1x64_S64x64_S1x64_1_0_0_1_n_n.rhsIdx i q 0).val = (q ⟨0, Nat.one_pos⟩).val :=
  dot_S1x64_S64x64_S1x64_1_0_0_1_n_n.rhsIdx_val_of_single rfl i q
theorem dotU_rhs_1 (i : S1x64.Idx) (q : dot_S1x64_S64x64_S1x64_1_0_0_1_n_n.contr.Idx) :
    (dot_S1x64_S64x64_S1x64_1_0_0_1_n_n.rhsIdx i q 1).val = (i 1).val := by
  unfold DotDims.rhsIdx
  rw [dif_neg (show ¬(1 : Fin S64x64.rank) ∈ dot_S1x64_S64x64_S1x64_1_0_0_1_n_n.rhsBatch from List.not_mem_nil), dif_pos (show (1 : Fin S64x64.rank) ∈ dot_S1x64_S64x64_S1x64_1_0_0_1_n_n.rhsNonContracting from List.mem_singleton.mpr rfl)]
  rfl

/-! ## The dot_generals at an index -/

/-- The bond features times a 64×64 matrix, at row `r`, column `j`: the sum over the contracted coordinate of the products. -/
theorem mmE_apply (x : Arr Ideal S800000x64 .f32) (W : Arr Ideal S64x64 .f32) (r : Fin 800000) (j : Fin 64) :
    mmE x W (ix2 r j) = ∑ k : Fin 64, x (ix2 r k) * W (ix2 k j) := by
  unfold mmE
  simp only [Host.dotGeneral]
  rw [Ideal.dotGeneral_apply, ← Equiv.sum_comp (contrEquiv1 dot_S800000x64_S64x64_S800000x64_1_0_0_1_n_n 64 rfl rfl).symm]
  refine Finset.sum_congr rfl fun k _ => ?_
  have hk := contrEquiv1_symm_val dot_S800000x64_S64x64_S800000x64_1_0_0_1_n_n 64 rfl rfl k
  have el : dot_S800000x64_S64x64_S800000x64_1_0_0_1_n_n.lhsIdx (ix2 r j) ((contrEquiv1 dot_S800000x64_S64x64_S800000x64_1_0_0_1_n_n 64 rfl rfl).symm k) = ix2 r k := funext fun a => Fin.ext (by
    match a with
    | ⟨0, _⟩ => exact dotE_lhs_0 _ _
    | ⟨1, _⟩ => exact (dotE_lhs_1 _ _).trans hk)
  have er : dot_S800000x64_S64x64_S800000x64_1_0_0_1_n_n.rhsIdx (ix2 r j) ((contrEquiv1 dot_S800000x64_S64x64_S800000x64_1_0_0_1_n_n 64 rfl rfl).symm k) = ix2 k j := funext fun a => Fin.ext (by
    match a with
    | ⟨0, _⟩ => exact (dotE_rhs_0 _ _).trans hk
    | ⟨1, _⟩ => exact dotE_rhs_1 _ _)
  rw [el, er]

/-- The global row times a 64×64 matrix, at column `j`: the sum over the contracted coordinate of the products. -/
theorem mmU_apply (x : Arr Ideal S1x64 .f32) (W : Arr Ideal S64x64 .f32) (r : Fin 1) (j : Fin 64) :
    mmU x W (ix2 r j) = ∑ k : Fin 64, x (ix2 r k) * W (ix2 k j) := by
  unfold mmU
  simp only [Host.dotGeneral]
  rw [Ideal.dotGeneral_apply, ← Equiv.sum_comp (contrEquiv1 dot_S1x64_S64x64_S1x64_1_0_0_1_n_n 64 rfl rfl).symm]
  refine Finset.sum_congr rfl fun k _ => ?_
  have hk := contrEquiv1_symm_val dot_S1x64_S64x64_S1x64_1_0_0_1_n_n 64 rfl rfl k
  have el : dot_S1x64_S64x64_S1x64_1_0_0_1_n_n.lhsIdx (ix2 r j) ((contrEquiv1 dot_S1x64_S64x64_S1x64_1_0_0_1_n_n 64 rfl rfl).symm k) = ix2 r k := funext fun a => Fin.ext (by
    match a with
    | ⟨0, _⟩ => exact dotU_lhs_0 _ _
    | ⟨1, _⟩ => exact (dotU_lhs_1 _ _).trans hk)
  have er : dot_S1x64_S64x64_S1x64_1_0_0_1_n_n.rhsIdx (ix2 r j) ((contrEquiv1 dot_S1x64_S64x64_S1x64_1_0_0_1_n_n 64 rfl rfl).symm k) = ix2 k j := funext fun a => Fin.ext (by
    match a with
    | ⟨0, _⟩ => exact (dotU_rhs_0 _ _).trans hk
    | ⟨1, _⟩ => exact dotU_rhs_1 _ _)
  rw [el, er]

/-! ## Broadcasts -/

/-- A 1×64 row broadcast over the 800000 rows reads the row's entry of the same column. -/
theorem rowBcastE_apply {α : Type} (x : S1x64.Idx → α) (h : S1x64.BroadcastsInDim S800000x64 ![0, 1]) (r : Fin 800000) (j : Fin 64) :
    broadcastInDim S800000x64 ![0, 1] h x (ix2 r j) = x (ix2 (0 : Fin 1) j) :=
  broadcastInDim_apply _ h x (ix2 r j) (ix2 (0 : Fin 1) j) (fun a => match a with
    | ⟨0, _⟩ => by simp [S1x64]
    | ⟨1, _⟩ => by simp [S1x64])

/-- The scalar zero broadcast over the bond features reads the zero word. -/
theorem zeroBcastE_apply (h : S_.BroadcastsInDim S800000x64 ![]) (i : S800000x64.Idx) :
    broadcastInDim S800000x64 ![] h (constant (F := Ideal) S_ .f32 0x00000000#32) i = Ideal.ofBits .f32 0x00000000#32 :=
  (broadcastInDim_apply _ h _ i ix0 (fun a => a.elim0)).trans rfl

/-! ## The edge update and its column sums at an index -/

/-- THE EDGE UPDATE at bond `r`, column `j`: the four bond-wise sums, the global row's sum and the bias, added first to
    last, clamped at zero. -/
theorem edge1_apply (he he0 hl hr : Arr Ideal S800000x64 .f32) (hu : Arr Ideal S1x64 .f32) (We : Arr Ideal S5x64x64 .f32) (be1 : Arr Ideal S1x64 .f32)
    (r : Fin 800000) (j : Fin 64) :
    edge1 he he0 hl hr hu We be1 (ix2 r j)
      = max ((∑ k : Fin 64, he (ix2 r k) * We (ix3 (0 : Fin 5) k j)) + (∑ k : Fin 64, he0 (ix2 r k) * We (ix3 (1 : Fin 5) k j))
          + (∑ k : Fin 64, hl (ix2 r k) * We (ix3 (2 : Fin 5) k j)) + (∑ k : Fin 64, hr (ix2 r k) * We (ix3 (3 : Fin 5) k j))
          + (∑ k : Fin 64, hu (ix2 (0 : Fin 1) k) * We (ix3 (4 : Fin 5) k j)) + be1 (ix2 (0 : Fin 1) j))
          (Ideal.ofBits .f32 0x00000000#32) := by
  unfold edge1 reluE
  show max (((((mmE he (slab5 0 We) (ix2 r j) + mmE he0 (slab5 1 We) (ix2 r j)) + mmE hl (slab5 2 We) (ix2 r j)) + mmE hr (slab5 3 We) (ix2 r j))
        + broadcastInDim S800000x64 ![0, 1] bcast_S1x64_S800000x64_0_1 (mmU hu (slab5 4 We)) (ix2 r j))
        + broadcastInDim S800000x64 ![0, 1] bcast_S1x64_S800000x64_0_1 be1 (ix2 r j))
      (broadcastInDim S800000x64 ![] bcast_S_S800000x64 (constant (F := Ideal) S_ .f32 0x00000000#32) (ix2 r j)) = _
  rw [rowBcastE_apply, rowBcastE_apply, zeroBcastE_apply, mmE_apply, mmE_apply, mmE_apply, mmE_apply, mmU_apply]
  simp only [slab5_apply]

/-- THE COLUMN SUMS at column `j`: the initial zero plus the sum over the 800000 bonds. -/
theorem sumE_apply (x : Arr Ideal S800000x64 .f32) (j : Fin 64) :
    sumE x (ix2 (0 : Fin 1) j) = Ideal.ofBits .f32 0x00000000#32 + ∑ r : Fin 800000, x (ix2 r j) := by
  unfold sumE
  refine (broadcastInDim_apply _ bcast_S64_S1x64_1 _ (ix2 (0 : Fin 1) j) (ix1 j) (fun a => match a with
    | ⟨0, _⟩ => by show j.val = if (64 : Nat) = 1 then 0 else j.val; rw [if_neg (by decide)])).trans ?_
  simp only [Host.reduceAdd, Ideal.hostReduceAdd_def]
  rw [Ideal.hostReduceAdd_single reducesTo_S800000x64_S64_d0 (by decide)]
  refine congrArg₂ (· + ·) rfl (Finset.sum_congr rfl fun r _ => ?_)
  exact congrArg x (funext fun a => Fin.ext (by match a with | ⟨0, _⟩ => rfl | ⟨1, _⟩ => rfl))

end Cert.Spec

end
-- ==== Proof.KI.E0.ValueArr.lean ====
/- The edge kernel at the pipeline `cfg0` against the reference's arrays: the seven arrays the region reads,
   each at its literal type (the reference's own array types), the row of the bond arrays that row `r` of the block at
   grid point `t` is (10000·t + r), the windows' index maps decided over the 80 points, and each input window's block
   read at an index as its array at the corresponding index. -/
import proofs.«108204_j49847390437921_1_alg».proof.Proof.KI.E0.Runs
import proofs.«108204_j49847390437921_1_alg».proof.Proof.KI.ValueSpec
import proofs.«108204_j49847390437921_1_alg».proof.Proof.Gen.ReferenceIdeal
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-! ## The region's arrays, at the reference's array types -/

section Arrays
variable (V : (c : Dev nD) → (b : Ref sig .tc) → Buf (Elt F) ((c : Thread nD τ).loc b))

/-- The array window 0 reads, as the region finds it. -/
abbrev arr0_0 (c : Dev nD) : Cert.Spec.Arr F Cert.ReferenceIdeal.S800000x64 .f32 := V c (Pipeline.arrRef spec0 0)
/-- The array window 1 reads, as the region finds it. -/
abbrev arr0_1 (c : Dev nD) : Cert.Spec.Arr F Cert.ReferenceIdeal.S800000x64 .f32 := V c (Pipeline.arrRef spec0 1)
/-- The array window 2 reads, as the region finds it. -/
abbrev arr0_2 (c : Dev nD) : Cert.Spec.Arr F Cert.ReferenceIdeal.S800000x64 .f32 := V c (Pipeline.arrRef spec0 2)
/-- The array window 3 reads, as the region finds it. -/
abbrev arr0_3 (c : Dev nD) : Cert.Spec.Arr F Cert.ReferenceIdeal.S800000x64 .f32 := V c (Pipeline.arrRef spec0 3)
/-- The array window 4 reads, as the region finds it. -/
abbrev arr0_4 (c : Dev nD) : Cert.Spec.Arr F Cert.ReferenceIdeal.S1x64 .f32 := V c (Pipeline.arrRef spec0 4)
/-- The array window 5 reads, as the region finds it. -/
abbrev arr0_5 (c : Dev nD) : Cert.Spec.Arr F Cert.ReferenceIdeal.S5x64x64 .f32 := V c (Pipeline.arrRef spec0 5)
/-- The array window 6 reads, as the region finds it. -/
abbrev arr0_6 (c : Dev nD) : Cert.Spec.Arr F Cert.ReferenceIdeal.S1x64 .f32 := V c (Pipeline.arrRef spec0 6)

end Arrays

/-- Row `r` of the block at grid point `t` is row 10000·t + r of the bond arrays. -/
def row0 (t : Fin cfg0.N) (r : Fin 10000) : Fin 800000 :=
  ⟨10000 * t.val + r.val, by have h1 := t.isLt; have h2 : cfg0.N = 80 := N_0; have h3 := r.isLt; omega⟩

theorem row0_val (t : Fin cfg0.N) (r : Fin 10000) : (row0 t r).val = 10000 * t.val + r.val := rfl

/-! ## The index maps over the grid -/

/-- The printed index maps, decided over the 80 points: the four bond windows and output 7 move one block of rows per
    point; the global row, the weight stack, the bias and output 8 stay at their one block. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = 0 ∧ win0_8.index t (1 : Fin 2) = 0) :=
  (by decide +kernel : ∀ t : Fin grid0.N, _)

/-! ## The input windows' blocks at an index -/

section Blocks
variable (V : (c : Dev nD) → (b : Ref sig .tc) → Buf (Elt F) ((c : Thread nD τ).loc b))

/-- Window 0's block at point `t`, at row `r`, column `k`: its array at row 10000·t + r, column `k`. -/
theorem iblk0_0_apply (c : Dev nD) (t : Fin cfg0.N) (r : Fin 10000) (k : Fin 64) :
    (iblk0 V c 0 t : Vec F S10000x64 .f32) (ix2 r k) = arr0_0 V c (ix2 (row0 t r) k) := by
  obtain ⟨e0, e1⟩ := (idx_facts0 t).1
  show V c (Pipeline.arrRef spec0 0) (((cfg0.win 0).blk t).view.emb (ix2 r k)) = V c (Pipeline.arrRef spec0 0) (ix2 (row0 t r) k)
  refine congrArg (V c (Pipeline.arrRef spec0 0)) (funext fun a => Fin.ext ?_)
  match a with
  | ⟨0, _⟩ => show win0_0.index t (0 : Fin 2) * 10000 + 1 * r.val = 10000 * t.val + r.val; rw [e0]; omega
  | ⟨1, _⟩ => show win0_0.index t (1 : Fin 2) * 64 + 1 * k.val = k.val; rw [e1]; omega

/-- Window 1's block at point `t`, at row `r`, column `k`: its array at row 10000·t + r, column `k`. -/
theorem iblk0_1_apply (c : Dev nD) (t : Fin cfg0.N) (r : Fin 10000) (k : Fin 64) :
    (iblk0 V c 1 t : Vec F S10000x64 .f32) (ix2 r k) = arr0_1 V c (ix2 (row0 t r) k) := by
  obtain ⟨e0, e1⟩ := (idx_facts0 t).2.1
  show V c (Pipeline.arrRef spec0 1) (((cfg0.win 1).blk t).view.emb (ix2 r k)) = V c (Pipeline.arrRef spec0 1) (ix2 (row0 t r) k)
  refine congrArg (V c (Pipeline.arrRef spec0 1)) (funext fun a => Fin.ext ?_)
  match a with
  | ⟨0, _⟩ => show win0_1.index t (0 : Fin 2) * 10000 + 1 * r.val = 10000 * t.val + r.val; rw [e0]; omega
  | ⟨1, _⟩ => show win0_1.index t (1 : Fin 2) * 64 + 1 * k.val = k.val; rw [e1]; omega

/-- Window 2's block at point `t`, at row `r`, column `k`: its array at row 10000·t + r, column `k`. -/
theorem iblk0_2_apply (c : Dev nD) (t : Fin cfg0.N) (r : Fin 10000) (k : Fin 64) :
    (iblk0 V c 2 t : Vec F S10000x64 .f32) (ix2 r k) = arr0_2 V c (ix2 (row0 t r) k) := by
  obtain ⟨e0, e1⟩ := (idx_facts0 t).2.2.1
  show V c (Pipeline.arrRef spec0 2) (((cfg0.win 2).blk t).view.emb (ix2 r k)) = V c (Pipeline.arrRef spec0 2) (ix2 (row0 t r) k)
  refine congrArg (V c (Pipeline.arrRef spec0 2)) (funext fun a => Fin.ext ?_)
  match a with
  | ⟨0, _⟩ => show win0_2.index t (0 : Fin 2) * 10000 + 1 * r.val = 10000 * t.val + r.val; rw [e0]; omega
  | ⟨1, _⟩ => show win0_2.index t (1 : Fin 2) * 64 + 1 * k.val = k.val; rw [e1]; omega

/-- Window 3's block at point `t`, at row `r`, column `k`: its array at row 10000·t + r, column `k`. -/
theorem iblk0_3_apply (c : Dev nD) (t : Fin cfg0.N) (r : Fin 10000) (k : Fin 64) :
    (iblk0 V c 3 t : Vec F S10000x64 .f32) (ix2 r k) = arr0_3 V c (ix2 (row0 t r) k) := by
  obtain ⟨e0, e1⟩ := (idx_facts0 t).2.2.2.1
  show V c (Pipeline.arrRef spec0 3) (((cfg0.win 3).blk t).view.emb (ix2 r k)) = V c (Pipeline.arrRef spec0 3) (ix2 (row0 t r) k)
  refine congrArg (V c (Pipeline.arrRef spec0 3)) (funext fun a => Fin.ext ?_)
  match a with
  | ⟨0, _⟩ => show win0_3.index t (0 : Fin 2) * 10000 + 1 * r.val = 10000 * t.val + r.val; rw [e0]; omega
  | ⟨1, _⟩ => show win0_3.index t (1 : Fin 2) * 64 + 1 * k.val = k.val; rw [e1]; omega

/-- Window 4's block at any point is its whole 1×64 array. -/
theorem iblk0_4_apply (c : Dev nD) (t : Fin cfg0.N) (k : Fin 64) :
    (iblk0 V c 4 t : Vec F S1x64 .f32) (ix2 (0 : Fin 1) k) = arr0_4 V c (ix2 (0 : Fin 1) k) := by
  obtain ⟨e0, e1⟩ := (idx_facts0 t).2.2.2.2.1
  show V c (Pipeline.arrRef spec0 4) (((cfg0.win 4).blk t).view.emb (ix2 (0 : Fin 1) k)) = V c (Pipeline.arrRef spec0 4) (ix2 (0 : Fin 1) k)
  refine congrArg (V c (Pipeline.arrRef spec0 4)) (funext fun a => Fin.ext ?_)
  match a with
  | ⟨0, _⟩ => show win0_4.index t (0 : Fin 2) * 1 + 1 * (0 : Fin 1).val = (0 : Fin 1).val; rw [e0]; simp
  | ⟨1, _⟩ => show win0_4.index t (1 : Fin 2) * 64 + 1 * k.val = k.val; rw [e1]; omega

/-- Window 5's block at any point is the whole 5×64×64 weight stack. -/
theorem iblk0_5_apply (c : Dev nD) (t : Fin cfg0.N) (s : Fin 5) (a b : Fin 64) :
    (iblk0 V c 5 t : Vec F S5x64x64 .f32) (ix3 s a b) = arr0_5 V c (ix3 s a b) := by
  obtain ⟨e0, e1, e2⟩ := (idx_facts0 t).2.2.2.2.2.1
  show V c (Pipeline.arrRef spec0 5) (((cfg0.win 5).blk t).view.emb (ix3 s a b)) = V c (Pipeline.arrRef spec0 5) (ix3 s a b)
  refine congrArg (V c (Pipeline.arrRef spec0 5)) (funext fun d => Fin.ext ?_)
  match d with
  | ⟨0, _⟩ => show win0_5.index t (0 : Fin 3) * 5 + 1 * s.val = s.val; rw [e0]; omega
  | ⟨1, _⟩ => show win0_5.index t (1 : Fin 3) * 64 + 1 * a.val = a.val; rw [e1]; omega
  | ⟨2, _⟩ => show win0_5.index t (2 : Fin 3) * 64 + 1 * b.val = b.val; rw [e2]; omega

/-- Window 6's block at any point is its whole 1×64 array. -/
theorem iblk0_6_apply (c : Dev nD) (t : Fin cfg0.N) (k : Fin 64) :
    (iblk0 V c 6 t : Vec F S1x64 .f32) (ix2 (0 : Fin 1) k) = arr0_6 V c (ix2 (0 : Fin 1) k) := by
  obtain ⟨e0, e1⟩ := (idx_facts0 t).2.2.2.2.2.2.1
  show V c (Pipeline.arrRef spec0 6) (((cfg0.win 6).blk t).view.emb (ix2 (0 : Fin 1) k)) = V c (Pipeline.arrRef spec0 6) (ix2 (0 : Fin 1) k)
  refine congrArg (V c (Pipeline.arrRef spec0 6)) (funext fun a => Fin.ext ?_)
  match a with
  | ⟨0, _⟩ => show win0_6.index t (0 : Fin 2) * 1 + 1 * (0 : Fin 1).val = (0 : Fin 1).val; rw [e0]; simp
  | ⟨1, _⟩ => show win0_6.index t (1 : Fin 2) * 64 + 1 * k.val = k.val; rw [e1]; omega

end Blocks

/-! ## A slab of a loaded weight stack -/

/-- The body's load of slab `k` of the weight stack's staging buffer, at (0, a, b): the buffer at (k, a, b). -/
theorem eslabLd0_apply {Val : EltTy → Type} {e : EltTy} (x5 : S5x64x64.Idx → Val e) (k : ℕ) (hk : k < 5)
    (inb : ∀ d, (![k, 0, 0] : Fin 3 → Nat) d + S1x64x64.size d ≤ S5x64x64.size d) (a b : Fin 64) :
    View.ld x5 (Rect.unit (s := S5x64x64) ![k, 0, 0] S1x64x64.size inb) (ix3 (0 : Fin 1) a b) = x5 (ix3 (⟨k, hk⟩ : Fin 5) a b) :=
  congrArg x5 (funext fun d => Fin.ext (by
    match d with
    | ⟨0, _⟩ => show k + 1 * (0 : Fin 1).val = k; simp
    | ⟨1, _⟩ => show 0 + 1 * a.val = a.val; omega
    | ⟨2, _⟩ => show 0 + 1 * b.val = b.val; omega))

end Cert.KernelIdeal.Hand

end
-- ==== Proof.KI.E0.ValuePiecesS.lean ====
/- The edge kernel at the pipeline `cfg0`: what each case of its body leaves in output 7's block, in output 8's block and
   in the carried scratch, as the body's payloads of the point's input blocks. Every buffer is filled by one store of its
   whole extent (the scratch at the first point by two, the later covering), so the pieces the run found read back as the
   stored payload; the loads read whole staging buffers, except the five 1×64×64 slabs of the stack of weight matrices. -/
import proofs.«108204_j49847390437921_1_alg».proof.Proof.KI.E0.Body
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable {F : FTy → Type} [FloatOps F]

theorem hzE0 : (![0, 0] : Fin 2 → Nat) = fun _ => 0 := funext fun a => by fin_cases a <;> rfl

/-- Slab `k` of the loaded 5×64×64 stack of weight matrices: the rectangle of extent 1×64×64 at offset (`k`, 0, 0). -/
abbrev eslab0_0 (x5 : Vec F S5x64x64 .f32) : Vec F S1x64x64 .f32 := View.ld x5 (Rect.unit (s := S5x64x64) ![0, 0, 0] S1x64x64.size inb_S5x64x64_S1x64x64_0_0_0)
abbrev eslab0_1 (x5 : Vec F S5x64x64 .f32) : Vec F S1x64x64 .f32 := View.ld x5 (Rect.unit (s := S5x64x64) ![1, 0, 0] S1x64x64.size inb_S5x64x64_S1x64x64_1_0_0)
abbrev eslab0_2 (x5 : Vec F S5x64x64 .f32) : Vec F S1x64x64 .f32 := View.ld x5 (Rect.unit (s := S5x64x64) ![2, 0, 0] S1x64x64.size inb_S5x64x64_S1x64x64_2_0_0)
abbrev eslab0_3 (x5 : Vec F S5x64x64 .f32) : Vec F S1x64x64 .f32 := View.ld x5 (Rect.unit (s := S5x64x64) ![3, 0, 0] S1x64x64.size inb_S5x64x64_S1x64x64_3_0_0)
abbrev eslab0_4 (x5 : Vec F S5x64x64 .f32) : Vec F S1x64x64 .f32 := View.ld x5 (Rect.unit (s := S5x64x64) ![4, 0, 0] S1x64x64.size inb_S5x64x64_S1x64x64_4_0_0)

/-- The four bond-wise products summed, from a point's input blocks: the four row blocks against slabs 0, 1, 2, 3. -/
abbrev esum0 (x0 x1 x2 x3 : Vec F S10000x64 .f32) (x5 : Vec F S5x64x64 .f32) : FVec F S10000x64 .f32 :=
  k0_pay5 x0 x1 x2 x3 (eslab0_0 x5) (eslab0_1 x5) (eslab0_2 x5) (eslab0_3 x5)

/-- OUTPUT 7'S BLOCK from a point's input blocks: the summed products, plus the global row against slab 4 and the bias
    row broadcast down the rows, clamped at zero. -/
abbrev eblk0 (x0 x1 x2 x3 : Vec F S10000x64 .f32) (x4 : Vec F S1x64 .f32) (x5 : Vec F S5x64x64 .f32) (x6 : Vec F S1x64 .f32) : FVec F S10000x64 .f32 :=
  k0_pay1 (k0_pay4 x4) (esum0 x0 x1 x2 x3 x5) (eslab0_4 x5) x6

/-- THE SCRATCH'S UPDATE from a point's input blocks and what the scratch held (`v40`): that, plus the column sums of
    output 7's block. -/
abbrev escr0 (x0 x1 x2 x3 : Vec F S10000x64 .f32) (x4 : Vec F S1x64 .f32) (x5 : Vec F S5x64x64 .f32) (x6 : Vec F S1x64 .f32) (v40 : Vec F S1x64 .f32) : FVec F S1x64 .f32 :=
  k0_pay2 (k0_pay4 x4) (esum0 x0 x1 x2 x3 x5) (eslab0_4 x5) x6 v40

/-! ## Output 7: the update's block, at every point -/

/-- At the first point output 7's staging buffer is left at the update's block. -/
theorem out0_A_7_eq (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) :
    out0_A_7 c i arg1 harg1 arg2 harg2 arg3 harg3 arg4 harg4 arg5 harg5 arg6 harg6 arg7 harg7 arg8 harg8 arg9 harg9 arg10 harg10 hc0 hc1 x0 x1 x2 x3 x4 x5 x6 = eblk0 x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_unit_zero hzE0]
  simp only [View.readAt_eq_ld, harg1.read_unread, harg2.read_unread, harg3.read_unread, harg4.read_unread, harg5.read_unread, harg6.read_unread, harg7.read_unread, harg10.read_unread, View.ld_unit_zero (S := S10000x64) hzE0, View.ld_unit_zero (S := S1x64) hzE0, View.readCov_unit_zero (S := S1x64) _ hzE0]

/-- At a middle point output 7's staging buffer is left at the update's block. -/
theorem out0_B_7_eq (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    out0_B_7 c i arg1 harg1 arg2 harg2 arg3 harg3 arg4 harg4 arg5 harg5 arg6 harg6 arg7 harg7 arg8 harg8 arg9 harg9 arg10 harg10 hc0 hc1 x0 x1 x2 x3 x4 x5 x6 xs0 = eblk0 x0 x1 x2 x3 x4 x5 x6 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hzE0]
  simp only [View.readAt_eq_ld, harg1.read_unread, harg2.read_unread, harg3.read_unread, harg4.read_unread, harg5.read_unread, harg6.read_unread, harg7.read_unread, harg10.read_unread, View.ld_unit_zero (S := S10000x64) hzE0, View.ld_unit_zero (S := S1x64) hzE0, View.readCov_unit_zero (S := S1x64) _ hzE0]

/-- At the last point output 7's staging buffer is left at the update's block. -/
theorem out0_C_7_eq (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    out0_C_7 c i arg1 harg1 arg2 harg2 arg3 harg3 arg4 harg4 arg5 harg5 arg6 harg6 arg7 harg7 arg8 harg8 arg9 harg9 arg10 harg10 hc0 hc1 x0 x1 x2 x3 x4 x5 x6 xs0 = eblk0 x0 x1 x2 x3 x4 x5 x6 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hzE0]
  simp only [View.readAt_eq_ld, harg1.read_unread, harg2.read_unread, harg3.read_unread, harg4.read_unread, harg5.read_unread, harg6.read_unread, harg7.read_unread, harg10.read_unread, View.ld_unit_zero (S := S10000x64) hzE0, View.ld_unit_zero (S := S1x64) hzE0, View.readCov_unit_zero (S := S1x64) _ hzE0]

/-! ## The scratch: the column sums carried from point to point -/

/-- At the first point the scratch is reset to the zero row, read back, and left at that plus the block's column sums. -/
theorem sout0_A_0_eq (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) :
    sout0_A_0 c i arg1 harg1 arg2 harg2 arg3 harg3 arg4 harg4 arg5 harg5 arg6 harg6 arg7 harg7 arg8 harg8 arg9 harg9 arg10 harg10 hc0 hc1 x0 x1 x2 x3 x4 x5 x6 = escr0 x0 x1 x2 x3 x4 x5 x6 (k0_pay3 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S1x64) hzE0]
  simp only [View.readAt_eq_ld, harg1.read_unread, harg2.read_unread, harg3.read_unread, harg4.read_unread, harg5.read_unread, harg6.read_unread, harg7.read_unread, harg10.read_unread, View.ld_unit_zero (S := S10000x64) hzE0, View.ld_unit_zero (S := S1x64) hzE0, View.readCov_unit_zero (S := S1x64) _ hzE0]

/-- At a middle point the scratch is left at what the point before left plus the block's column sums. -/
theorem sout0_B_0_eq (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    sout0_B_0 c i arg1 harg1 arg2 harg2 arg3 harg3 arg4 harg4 arg5 harg5 arg6 harg6 arg7 harg7 arg8 harg8 arg9 harg9 arg10 harg10 hc0 hc1 x0 x1 x2 x3 x4 x5 x6 xs0 = escr0 x0 x1 x2 x3 x4 x5 x6 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hzE0]
  simp only [View.readAt_eq_ld, harg1.read_unread, harg2.read_unread, harg3.read_unread, harg4.read_unread, harg5.read_unread, harg6.read_unread, harg7.read_unread, harg10.read_unread, View.ld_unit_zero (S := S10000x64) hzE0, View.ld_unit_zero (S := S1x64) hzE0, View.readCov_unit_zero (S := S1x64) _ hzE0]

/-- At the last point the scratch is left at what the point before left plus the block's column sums. -/
theorem sout0_C_0_eq (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    sout0_C_0 c i arg1 harg1 arg2 harg2 arg3 harg3 arg4 harg4 arg5 harg5 arg6 harg6 arg7 harg7 arg8 harg8 arg9 harg9 arg10 harg10 hc0 hc1 x0 x1 x2 x3 x4 x5 x6 xs0 = escr0 x0 x1 x2 x3 x4 x5 x6 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hzE0]
  simp only [View.readAt_eq_ld, harg1.read_unread, harg2.read_unread, harg3.read_unread, harg4.read_unread, harg5.read_unread, harg6.read_unread, harg7.read_unread, harg10.read_unread, View.ld_unit_zero (S := S10000x64) hzE0, View.ld_unit_zero (S := S1x64) hzE0, View.readCov_unit_zero (S := S1x64) _ hzE0]

/-! ## Output 8: the scratch stored at the last point -/

/-- At the last point output 8's staging buffer is left at the scratch's new contents, read back after its store. -/
theorem out0_C_8_eq (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    out0_C_8 c i arg1 harg1 arg2 harg2 arg3 harg3 arg4 harg4 arg5 harg5 arg6 harg6 arg7 harg7 arg8 harg8 arg9 harg9 arg10 harg10 hc0 hc1 x0 x1 x2 x3 x4 x5 x6 xs0 = escr0 x0 x1 x2 x3 x4 x5 x6 xs0 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hzE0]
  simp only [View.readAt_eq_ld, harg1.read_unread, harg2.read_unread, harg3.read_unread, harg4.read_unread, harg5.read_unread, harg6.read_unread, harg7.read_unread, harg10.read_unread, View.ld_unit_zero (S := S10000x64) hzE0, View.ld_unit_zero (S := S1x64) hzE0, View.readCov_unit_zero (S := S1x64) _ hzE0]

end Cert.KernelIdeal.Hand

end
-- ==== Proof.KI.ValueMM.lean ====
/- The kernels' vector operations read at an index, at the ideal values, for the shapes both kernels share: a slab of
   a loaded stack of 64×64 matrices as a matrix; a matmul of a 10000×64 block, and of a 1×64 row, by a 64×64 matrix into
   the zero accumulator as the plain sum over the contracted coordinate; a 1×64 row broadcast down the 10000 rows of a
   block; the column sums of a block. Nothing here depends on a region. -/
import proofs.«108204_j49847390437921_1_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

/-! ## Layout operations -/

/-- The one slab of a loaded 1×64×64 stack, cast to a 64×64 matrix, read at row `k`, column `j`: the same row-major position. -/
theorem slabCast_apply {α : Type} (w : S1x64x64.Idx → α) (h : S1x64x64.ShapeCasts S64x64) (k j : Fin 64) :
    shapeCast S64x64 w h (ix2 k j) = w (ix3 (0 : Fin 1) k j) :=
  shapeCast_apply w h (ix2 k j) (ix3 (0 : Fin 1) k j) (by
    rw [Shape.rowMajor_val_three, Shape.rowMajor_val_two]
    show ((0 : Fin 1).val * 64 + k.val) * 64 + j.val = k.val * 64 + j.val
    simp)

/-- A 1×64 row broadcast to a 10000×64 block reads the row's entry of the same column at every row. -/
theorem rowBcast_apply {α : Type} (x : S1x64.Idx → α) (h : S1x64.Broadcasts S10000x64) (r : Fin 10000) (j : Fin 64) :
    broadcastTo S10000x64 x h (ix2 r j) = x (ix2 (0 : Fin 1) j) :=
  broadcastTo_apply x h (ix2 r j) (ix2 (0 : Fin 1) j) (fun a => match a with
    | ⟨0, _⟩ => by simp [S1x64]
    | ⟨1, _⟩ => by simp [S1x64])

/-- A 64-vector cast to a 1×64 row reads the vector's entry of the same column. -/
theorem vecRow_apply {α : Type} (x : S64.Idx → α) (h : S64.ShapeCasts S1x64) (j : Fin 64) :
    shapeCast S1x64 x h (ix2 (0 : Fin 1) j) = x (ix1 j) :=
  shapeCast_apply x h (ix2 (0 : Fin 1) j) (ix1 j) (by
    rw [Shape.rowMajor_val_one, Shape.rowMajor_val_two]
    show j.val = (0 : Fin 1).val * 64 + j.val
    simp)

/-! ## The two matmuls' dimension numbers, axis by axis -/

theorem dotBlk_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dotBlk_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem dotBlk_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem dotBlk_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem dotRow_lhs_0 (i : S1x64.Idx) (q : dot_S1x64_S64x64_S1x64_1_0_0_1_n_n.contr.Idx) :
    (dot_S1x64_S64x64_S1x64_1_0_0_1_n_n.lhsIdx i q 0).val = (i 0).val := by
  unfold DotDims.lhsIdx
  rw [dif_neg (show ¬(0 : Fin S1x64.rank) ∈ dot_S1x64_S64x64_S1x64_1_0_0_1_n_n.lhsBatch by decide), dif_pos (show (0 : Fin S1x64.rank) ∈ dot_S1x64_S64x64_S1x64_1_0_0_1_n_n.lhsNonContracting by decide)]
  rfl
theorem dotRow_lhs_1 (i : S1x64.Idx) (q : dot_S1x64_S64x64_S1x64_1_0_0_1_n_n.contr.Idx) :
    (dot_S1x64_S64x64_S1x64_1_0_0_1_n_n.lhsIdx i q 1).val = (q ⟨0, by decide⟩).val :=
  dot_S1x64_S64x64_S1x64_1_0_0_1_n_n.lhsIdx_val_of_single rfl i q
theorem dotRow_rhs_0 (i : S1x64.Idx) (q : dot_S1x64_S64x64_S1x64_1_0_0_1_n_n.contr.Idx) :
    (dot_S1x64_S64x64_S1x64_1_0_0_1_n_n.rhsIdx i q 0).val = (q ⟨0, by decide⟩).val :=
  dot_S1x64_S64x64_S1x64_1_0_0_1_n_n.rhsIdx_val_of_single rfl i q
theorem dotRow_rhs_1 (i : S1x64.Idx) (q : dot_S1x64_S64x64_S1x64_1_0_0_1_n_n.contr.Idx) :
    (dot_S1x64_S64x64_S1x64_1_0_0_1_n_n.rhsIdx i q 1).val = (i 1).val := by
  unfold DotDims.rhsIdx
  rw [dif_neg (show ¬(1 : Fin S64x64.rank) ∈ dot_S1x64_S64x64_S1x64_1_0_0_1_n_n.rhsBatch by decide), dif_pos (show (1 : Fin S64x64.rank) ∈ dot_S1x64_S64x64_S1x64_1_0_0_1_n_n.rhsNonContracting by decide)]
  rfl

/-! ## The matmuls at an index -/

/-- A 10000×64 block times a 64×64 matrix into the zero accumulator, at row `r`, column `j`: the sum over the contracted coordinate of the products. -/
theorem mmBlk_apply (x : FVec Ideal S10000x64 .f32) (W : FVec Ideal S64x64 .f32) (r : Fin 10000) (j : Fin 64) :
    matmul dot_S10000x64_S64x64_S10000x64_1_0_0_1_n_n none x W (constant S10000x64 .f32 0x00000000#32) (ix2 r j)
      = ∑ k : Fin 64, x (ix2 r k) * W (ix2 k j) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r j) ((contrEquiv1 dot_S10000x64_S64x64_S10000x64_1_0_0_1_n_n 64 rfl rfl).symm k) = ix2 r k := funext fun a => Fin.ext (by
    match a with
    | ⟨0, _⟩ => exact dotBlk_lhs_0 _ _
    | ⟨1, _⟩ => exact (dotBlk_lhs_1 _ _).trans hk)
  have er : dot_S10000x64_S64x64_S10000x64_1_0_0_1_n_n.rhsIdx (ix2 r j) ((contrEquiv1 dot_S10000x64_S64x64_S10000x64_1_0_0_1_n_n 64 rfl rfl).symm k) = ix2 k j := funext fun a => Fin.ext (by
    match a with
    | ⟨0, _⟩ => exact (dotBlk_rhs_0 _ _).trans hk
    | ⟨1, _⟩ => exact dotBlk_rhs_1 _ _)
  rw [el, er]

/-- A 1×64 row times a 64×64 matrix into the zero accumulator, at column `j`: the sum over the contracted coordinate of the products. -/
theorem mmRow_apply (x : FVec Ideal S1x64 .f32) (W : FVec Ideal S64x64 .f32) (r : Fin 1) (j : Fin 64) :
    matmul dot_S1x64_S64x64_S1x64_1_0_0_1_n_n none x W (constant S1x64 .f32 0x00000000#32) (ix2 r j)
      = ∑ k : Fin 64, x (ix2 r k) * W (ix2 k j) := by
  simp only [matmul]
  rw [Ideal.matmul_constant_zero_apply, ← Equiv.sum_comp (contrEquiv1 dot_S1x64_S64x64_S1x64_1_0_0_1_n_n 64 rfl rfl).symm]
  refine Finset.sum_congr rfl fun k _ => ?_
  have hk := contrEquiv1_symm_val dot_S1x64_S64x64_S1x64_1_0_0_1_n_n 64 rfl rfl k
  have el : dot_S1x64_S64x64_S1x64_1_0_0_1_n_n.lhsIdx (ix2 r j) ((contrEquiv1 dot_S1x64_S64x64_S1x64_1_0_0_1_n_n 64 rfl rfl).symm k) = ix2 r k := funext fun a => Fin.ext (by
    match a with
    | ⟨0, _⟩ => exact dotRow_lhs_0 _ _
    | ⟨1, _⟩ => exact (dotRow_lhs_1 _ _).trans hk)
  have er : dot_S1x64_S64x64_S1x64_1_0_0_1_n_n.rhsIdx (ix2 r j) ((contrEquiv1 dot_S1x64_S64x64_S1x64_1_0_0_1_n_n 64 rfl rfl).symm k) = ix2 k j := funext fun a => Fin.ext (by
    match a with
    | ⟨0, _⟩ => exact (dotRow_rhs_0 _ _).trans hk
    | ⟨1, _⟩ => exact dotRow_rhs_1 _ _)
  rw [el, er]

/-! ## Column sums of a block -/

/-- The add-reduction of a 10000×64 block over its rows, at column `j`: the sum over the rows. -/
theorem colSum_apply (x : FVec Ideal S10000x64 .f32) (h : S10000x64.Reduces [0] S64) (hφ : FKind.Formats .f32)
    (hacc : (0x00000000#32 : BitVec 32) = FKind.add.neutral .f32 hφ) (j : Fin 64) :
    multiReduction .add [0] S64 x 0x00000000#32 h hφ hacc (ix1 j) = ∑ r : Fin 10000, x (ix2 r j) := by
  rw [Ideal.multiReduction_add_single]
  refine Finset.sum_congr rfl fun r _ => congrArg x (funext fun a => Fin.ext ?_)
  match a with
  | ⟨0, _⟩ => rfl
  | ⟨1, _⟩ => rfl

end Cert.KernelIdeal.Hand

end
-- ==== Proof.KI.E0.ValuePay.lean ====
/- The edge kernel's payloads at the pipeline `cfg0`, read at an index at the ideal values: the four block matmuls summed
   (`k0_pay5`), the global row passed through (`k0_pay4`), the block's update — the sum, plus the global row's matmul
   and the bias broadcast down the rows, clamped at zero (`k0_pay1`) —, the scratch's update by the block's column sums
   (`k0_pay2`) and its reset (`k0_pay3`). Each is stated over variables of the literal vector types. -/
import proofs.«108204_j49847390437921_1_alg».proof.Proof.Gen.KernelIdeal.Skeleton
import proofs.«108204_j49847390437921_1_alg».proof.Proof.KI.ValueMM

noncomputable section

namespace Cert.KernelIdeal.Hand

open Cert.KernelIdeal Cert.KernelIdeal.Gen
open Idealize.ShloMosaic Idealize.ShloMosaic.ValueIdx

/-- The sum of the four block matmuls at row `r`, column `j`: four sums over the contracted coordinate, added first to last. -/
theorem k0_pay5_apply (v3 v5 v7 v9 : Vec Ideal S10000x64 .f32) (v13 v16 v20 v24 : Vec Ideal S1x64x64 .f32) (r : Fin 10000) (j : Fin 64) :
    k0_pay5 v3 v5 v7 v9 v13 v16 v20 v24 (ix2 r j)
      = (∑ k : Fin 64, v3 (ix2 r k) * v13 (ix3 (0 : Fin 1) k j)) + (∑ k : Fin 64, v5 (ix2 r k) * v16 (ix3 (0 : Fin 1) k j))
        + (∑ k : Fin 64, v7 (ix2 r k) * v20 (ix3 (0 : Fin 1) k j)) + (∑ k : Fin 64, v9 (ix2 r k) * v24 (ix3 (0 : Fin 1) k j)) := by
  unfold k0_pay5
  simp only [addf_apply, mmBlk_apply, shapeCast_self, slabCast_apply]

/-- The global row is passed on as loaded. -/
theorem k0_pay4_eq {F : FTy → Type} [FloatOps F] (v11 : Vec F S1x64 .f32) : k0_pay4 v11 = v11 := by
  unfold k0_pay4
  exact shapeCast_self _ _

/-- The block's update at row `r`, column `j`: what the matmuls left there, plus the global row's matmul at `j`, plus the
    bias at `j`, clamped at zero. -/
theorem k0_pay1_apply (v12 : FVec Ideal S1x64 .f32) (v27 : FVec Ideal S10000x64 .f32) (v28 : Vec Ideal S1x64x64 .f32) (v33 : Vec Ideal S1x64 .f32)
    (r : Fin 10000) (j : Fin 64) :
    k0_pay1 v12 v27 v28 v33 (ix2 r j)
      = max (v27 (ix2 r j) + (∑ k : Fin 64, v12 (ix2 (0 : Fin 1) k) * v28 (ix3 (0 : Fin 1) k j)) + v33 (ix2 (0 : Fin 1) j))
          (Ideal.ofBits .f32 0x00000000#32) := by
  unfold k0_pay1
  simp only [maximumf_apply, addf_apply, rowBcast_apply, mmRow_apply, shapeCast_self, slabCast_apply, broadcast_apply]
  rfl

/-- The scratch's update at column `j`: what it held, plus the sum over the block's rows of the block's update. -/
theorem k0_pay2_apply (v12 : FVec Ideal S1x64 .f32) (v27 : FVec Ideal S10000x64 .f32) (v28 : Vec Ideal S1x64x64 .f32) (v33 : Vec Ideal S1x64 .f32)
    (v40 : Vec Ideal S1x64 .f32) (j : Fin 64) :
    k0_pay2 v12 v27 v28 v33 v40 (ix2 (0 : Fin 1) j)
      = v40 (ix2 (0 : Fin 1) j) + ∑ r : Fin 10000, k0_pay1 v12 v27 v28 v33 (ix2 r j) := by
  unfold k0_pay2
  simp only [shapeCast_self, addf_apply, vecRow_apply]
  exact congrArg (v40 (ix2 (0 : Fin 1) j) + ·) (colSum_apply _ _ _ _ j)

/-- The scratch's reset: the zero word everywhere. -/
theorem k0_pay3_apply (i : S1x64.Idx) : k0_pay3 (F := Ideal) i = Ideal.ofBits .f32 0x00000000#32 := by
  unfold k0_pay3
  simp only [shapeCast_self, broadcast_apply]
  rfl

end Cert.KernelIdeal.Hand

end
-- ==== Proof.KI.E0.ValueBlk.lean ====
/- The edge kernel's block at the pipeline `cfg0` against the reference: output 7's block from a point's input blocks, read
   at row `r`, column `j`, is the clamped sum of the five sums over the contracted coordinate and the bias; with the input
   blocks read off the arrays (rows 10000·t + r of the bond arrays, the whole global row, weight stack and bias) this is
   the reference's edge update at row 10000·t + r, column `j`, term for term in the same order of additions. -/
import proofs.«108204_j49847390437921_1_alg».proof.Proof.KI.E0.ValueArr
import proofs.«108204_j49847390437921_1_alg».proof.Proof.KI.E0.ValuePiecesS
import proofs.«108204_j49847390437921_1_alg».proof.Proof.KI.E0.ValuePay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-! ## The loaded slabs at an index -/

theorem eslab0_0_apply (x5 : Vec Ideal S5x64x64 .f32) (a b : Fin 64) : eslab0_0 x5 (ix3 (0 : Fin 1) a b) = x5 (ix3 (0 : Fin 5) a b) :=
  eslabLd0_apply x5 0 (by omega) inb_S5x64x64_S1x64x64_0_0_0 a b
theorem eslab0_1_apply (x5 : Vec Ideal S5x64x64 .f32) (a b : Fin 64) : eslab0_1 x5 (ix3 (0 : Fin 1) a b) = x5 (ix3 (1 : Fin 5) a b) :=
  eslabLd0_apply x5 1 (by omega) inb_S5x64x64_S1x64x64_1_0_0 a b
theorem eslab0_2_apply (x5 : Vec Ideal S5x64x64 .f32) (a b : Fin 64) : eslab0_2 x5 (ix3 (0 : Fin 1) a b) = x5 (ix3 (2 : Fin 5) a b) :=
  eslabLd0_apply x5 2 (by omega) inb_S5x64x64_S1x64x64_2_0_0 a b
theorem eslab0_3_apply (x5 : Vec Ideal S5x64x64 .f32) (a b : Fin 64) : eslab0_3 x5 (ix3 (0 : Fin 1) a b) = x5 (ix3 (3 : Fin 5) a b) :=
  eslabLd0_apply x5 3 (by omega) inb_S5x64x64_S1x64x64_3_0_0 a b
theorem eslab0_4_apply (x5 : Vec Ideal S5x64x64 .f32) (a b : Fin 64) : eslab0_4 x5 (ix3 (0 : Fin 1) a b) = x5 (ix3 (4 : Fin 5) a b) :=
  eslabLd0_apply x5 4 (by omega) inb_S5x64x64_S1x64x64_4_0_0 a b

/-! ## Output 7's block at an index -/

/-- The block's update over any five 1×64×64 slabs that read as slabs 0 … 4 of a weight stack `x5`, at row `r`, column `j`. -/
theorem eblk0_core (x0 x1 x2 x3 : Vec Ideal S10000x64 .f32) (x4 : Vec Ideal S1x64 .f32) (x5 : Vec Ideal S5x64x64 .f32) (x6 : Vec Ideal S1x64 .f32)
    (w0 w1 w2 w3 w4 : Vec Ideal S1x64x64 .f32)
    (hw0 : ∀ a b : Fin 64, w0 (ix3 (0 : Fin 1) a b) = x5 (ix3 (0 : Fin 5) a b))
    (hw1 : ∀ a b : Fin 64, w1 (ix3 (0 : Fin 1) a b) = x5 (ix3 (1 : Fin 5) a b))
    (hw2 : ∀ a b : Fin 64, w2 (ix3 (0 : Fin 1) a b) = x5 (ix3 (2 : Fin 5) a b))
    (hw3 : ∀ a b : Fin 64, w3 (ix3 (0 : Fin 1) a b) = x5 (ix3 (3 : Fin 5) a b))
    (hw4 : ∀ a b : Fin 64, w4 (ix3 (0 : Fin 1) a b) = x5 (ix3 (4 : Fin 5) a b))
    (r : Fin 10000) (j : Fin 64) :
    k0_pay1 (k0_pay4 x4) (k0_pay5 x0 x1 x2 x3 w0 w1 w2 w3) w4 x6 (ix2 r j)
      = max ((∑ k : Fin 64, x0 (ix2 r k) * x5 (ix3 (0 : Fin 5) k j)) + (∑ k : Fin 64, x1 (ix2 r k) * x5 (ix3 (1 : Fin 5) k j))
          + (∑ k : Fin 64, x2 (ix2 r k) * x5 (ix3 (2 : Fin 5) k j)) + (∑ k : Fin 64, x3 (ix2 r k) * x5 (ix3 (3 : Fin 5) k j))
          + (∑ k : Fin 64, x4 (ix2 (0 : Fin 1) k) * x5 (ix3 (4 : Fin 5) k j)) + x6 (ix2 (0 : Fin 1) j))
          (Ideal.ofBits .f32 0x00000000#32) := by
  rw [k0_pay1_apply, k0_pay5_apply, k0_pay4_eq]
  simp only [hw0, hw1, hw2, hw3, hw4]

/-- Output 7's block from a point's input blocks, at row `r`, column `j`. -/
theorem eblk0_apply (x0 x1 x2 x3 : Vec Ideal S10000x64 .f32) (x4 : Vec Ideal S1x64 .f32) (x5 : Vec Ideal S5x64x64 .f32) (x6 : Vec Ideal S1x64 .f32)
    (r : Fin 10000) (j : Fin 64) :
    eblk0 x0 x1 x2 x3 x4 x5 x6 (ix2 r j)
      = max ((∑ k : Fin 64, x0 (ix2 r k) * x5 (ix3 (0 : Fin 5) k j)) + (∑ k : Fin 64, x1 (ix2 r k) * x5 (ix3 (1 : Fin 5) k j))
          + (∑ k : Fin 64, x2 (ix2 r k) * x5 (ix3 (2 : Fin 5) k j)) + (∑ k : Fin 64, x3 (ix2 r k) * x5 (ix3 (3 : Fin 5) k j))
          + (∑ k : Fin 64, x4 (ix2 (0 : Fin 1) k) * x5 (ix3 (4 : Fin 5) k j)) + x6 (ix2 (0 : Fin 1) j))
          (Ideal.ofBits .f32 0x00000000#32) :=
  eblk0_core x0 x1 x2 x3 x4 x5 x6 (eslab0_0 x5) (eslab0_1 x5) (eslab0_2 x5) (eslab0_3 x5) (eslab0_4 x5)
    (eslab0_0_apply x5) (eslab0_1_apply x5) (eslab0_2_apply x5) (eslab0_3_apply x5) (eslab0_4_apply x5) r j

/-- Over any blocks and arrays: if row `r` of the four bond blocks is row `R` of the bond arrays, and the global row, the
    weight stack and the bias row are the arrays', then output 7's block at row `r`, column `j` is the reference's edge
    update at row `R`, column `j` — the same five sums and bias, added in the same order, clamped at the same zero. -/
theorem eblk0_eq_edge1 (x0 x1 x2 x3 : Vec Ideal S10000x64 .f32) (x4 : Vec Ideal S1x64 .f32) (x5 : Vec Ideal S5x64x64 .f32) (x6 : Vec Ideal S1x64 .f32)
    (he he0 hl hr : Cert.Spec.Arr Ideal Cert.ReferenceIdeal.S800000x64 .f32) (hu : Cert.Spec.Arr Ideal Cert.ReferenceIdeal.S1x64 .f32)
    (We : Cert.Spec.Arr Ideal Cert.ReferenceIdeal.S5x64x64 .f32) (be1 : Cert.Spec.Arr Ideal Cert.ReferenceIdeal.S1x64 .f32)
    (r : Fin 10000) (R : Fin 800000) (j : Fin 64)
    (h0 : ∀ k : Fin 64, x0 (ix2 r k) = he (ix2 R k)) (h1 : ∀ k : Fin 64, x1 (ix2 r k) = he0 (ix2 R k))
    (h2 : ∀ k : Fin 64, x2 (ix2 r k) = hl (ix2 R k)) (h3 : ∀ k : Fin 64, x3 (ix2 r k) = hr (ix2 R k))
    (h4 : ∀ k : Fin 64, x4 (ix2 (0 : Fin 1) k) = hu (ix2 (0 : Fin 1) k))
    (h5 : ∀ (s : Fin 5) (a b : Fin 64), x5 (ix3 s a b) = We (ix3 s a b))
    (h6 : ∀ k : Fin 64, x6 (ix2 (0 : Fin 1) k) = be1 (ix2 (0 : Fin 1) k)) :
    eblk0 x0 x1 x2 x3 x4 x5 x6 (ix2 r j) = Cert.Spec.edge1 he he0 hl hr hu We be1 (ix2 R j) := by
  rw [eblk0_apply, Cert.Spec.edge1_apply]
  simp only [h0, h1, h2, h3, h4, h5, h6]

/-- OUTPUT 7'S BLOCK IS THE REFERENCE'S: from the input blocks of point `t`, at row `r`, column `j`, it is the reference's
    edge update of the region's arrays at row 10000·t + r, column `j`. -/
theorem eblk0_block2 (V : (c : Dev nD) → (b : Ref sig .tc) → Buf (Elt Ideal) ((c : Thread nD τ).loc b)) (c : Dev nD)
    (t : Fin cfg0.N) (r : Fin 10000) (j : Fin 64) :
    eblk0 (F := Ideal) (iblk0 V c 0 t) (iblk0 V c 1 t) (iblk0 V c 2 t) (iblk0 V c 3 t) (iblk0 V c 4 t) (iblk0 V c 5 t) (iblk0 V c 6 t) (ix2 r j)
      = Cert.Spec.edge1 (arr0_0 V c) (arr0_1 V c) (arr0_2 V c) (arr0_3 V c) (arr0_4 V c) (arr0_5 V c) (arr0_6 V c) (ix2 (row0 t r) j) :=
  eblk0_eq_edge1 (iblk0 V c 0 t) (iblk0 V c 1 t) (iblk0 V c 2 t) (iblk0 V c 3 t) (iblk0 V c 4 t) (iblk0 V c 5 t) (iblk0 V c 6 t)
    (arr0_0 V c) (arr0_1 V c) (arr0_2 V c) (arr0_3 V c) (arr0_4 V c) (arr0_5 V c) (arr0_6 V c) r (row0 t r) j
    (fun k => iblk0_0_apply V c t r k) (fun k => iblk0_1_apply V c t r k) (fun k => iblk0_2_apply V c t r k) (fun k => iblk0_3_apply V c t r k)
    (fun k => iblk0_4_apply V c t k) (fun s a b => iblk0_5_apply V c t s a b) (fun k => iblk0_6_apply V c t k)

end Cert.KernelIdeal.Hand

end
-- ==== Proof.KI.E0.ValueCover.lean ====
/- This region's first output array, 800000 rows of 64: every index of it lies in the block some point writes back. Point `t`
   writes rows `10000·t … 10000·t + 9999`, all 64 columns; the 80 blocks tile the rows, row `R` lying in block `R / 10000`. -/
import proofs.«108204_j49847390437921_1_alg».proof.Proof.Gen.KernelIdeal.Points
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

/-- Output 7's index map, decided over the 80 points: block `t` of the rows, the one block of the columns. -/
theorem idx_rows0_7 : ∀ t : Fin cfg0.N, win0_7.index t (0 : Fin 2) = t.val ∧ win0_7.index t (1 : Fin 2) = 0 :=
  (by decide +kernel : ∀ t : Fin grid0.N, _)

/-- An index of the array is in point `t`'s block iff each coordinate is in the block's range on its axis. -/
theorem mem_blk0_7 (t : Fin cfg0.N) (i : S800000x64.Idx) :
    i ∈ ((cfg0.win 7).blk t).view.set ↔ ∀ a : Fin 2, win0_7.index t a * S10000x64.size a ≤ (i a).val ∧ (i a).val < win0_7.index t a * S10000x64.size a + S10000x64.size a := by
  show i ∈ ((View.whole (Pipeline.arrRef spec0 7)).slice (win0_7.rect t)).set ↔ _
  rw [View.set_slice_whole, Rect.mem_set_unit]
  exact Iff.rfl

/-- Every index of the array is in some point's block, and every point writes its block back: row `R` is in the block
    of point `R / 10000`. -/
theorem cover0_7 : ∀ i : S800000x64.Idx, ∃ t : Fin cfg0.N, (cfg0.win 7).flush t = true ∧ i ∈ ((cfg0.win 7).blk t).view.set := by
  intro i
  have hi0 : (i 0).val < 800000 := (i 0).isLt
  have hi1 : (i 1).val < 64 := (i 1).isLt
  have hN : cfg0.N = 80 := by decide
  obtain ⟨t, ht⟩ : ∃ t : Fin cfg0.N, t.val = (i 0).val / 10000 := ⟨⟨(i 0).val / 10000, by omega⟩, rfl⟩
  obtain ⟨e0, e1⟩ := idx_rows0_7 t
  refine ⟨t, flush0_7 t, ?_⟩
  rw [mem_blk0_7]
  intro a
  match a with
  | ⟨0, _⟩ =>
    show win0_7.index t (0 : Fin 2) * 10000 ≤ (i 0).val ∧ (i 0).val < win0_7.index t (0 : Fin 2) * 10000 + 10000
    rw [e0]; omega
  | ⟨1, _⟩ =>
    show win0_7.index t (1 : Fin 2) * 64 ≤ (i 1).val ∧ (i 1).val < win0_7.index t (1 : Fin 2) * 64 + 64
    rw [e1]; omega

end Cert.KernelIdeal.Hand

end
-- ==== Proof.KI.E0.ValueOut.lean ====
/- The edge kernel's first output at the pipeline `cfg0` is the reference's edge update: after every point output 7's staging
   buffer holds the update's block of that point's input blocks (whichever case the point is in), which is rows
   10000·t … 10000·t + 9999 of the reference's edge update of the region's arrays; every point writes its block back, the 80
   blocks tile the 800000 rows (the cover, proved apart), so the array ends holding the edge update. -/
import proofs.«108204_j49847390437921_1_alg».proof.Proof.KI.E0.ValueBlk
import proofs.«108204_j49847390437921_1_alg».proof.Proof.KI.E0.ValueCover

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-! ## Output 7's staging buffer after each point -/

/-- After point `t`, in each of the three cases, output 7's staging buffer holds the update's block of the point's input blocks. -/
theorem out7_eq0 (V : (c : Dev nD) → (b : Ref sig .tc) → Buf (Elt F) ((c : Thread nD τ).loc b)) (c : Dev nD) (t : Fin cfg0.N) :
    (outsAt0 V c t.val t.isLt).1 = eblk0 (iblk0 V c 0 t) (iblk0 V c 1 t) (iblk0 V c 2 t) (iblk0 V c 3 t) (iblk0 V c 4 t) (iblk0 V c 5 t) (iblk0 V c 6 t) := by
  have hN : t.val < 80 := lt_of_lt_of_eq t.isLt (show cfg0.N = 80 from N_0)
  by_cases h0 : t.val % 80 = 0
  · have h1 : ¬t.val % 80 = 79 := by omega
    rw [outsAt0_A V c t h0 h1]
    dsimp only
    exact out0_A_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)
  · by_cases h1 : t.val % 80 = 79
    · rw [outsAt0_C V c t h0 h1]
      dsimp only
      exact out0_C_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2
    · rw [outsAt0_B V c t h0 h1]
      dsimp only
      exact out0_B_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2

section Region0

variable (q : Fin cfg0.W → PosShare TreeShare)
variable (V : (c : Dev nD) → (b : Ref sig .tc) → Buf (Elt Ideal) ((c : Thread nD τ).loc b))

/-- OUTPUT 7'S BUFFER AFTER POINT `t`, at row `r`, column `j`: the reference's edge update at row 10000·t + r, column `j`. -/
theorem out7_block0 (c : Dev nD) (t : Fin cfg0.N) (r : Fin 10000) (j : Fin 64) :
    (outsAt0 (F := Ideal) V c t.val t.isLt).1 (ix2 r j) = Cert.Spec.edge1 (arr0_0 V c) (arr0_1 V c) (arr0_2 V c) (arr0_3 V c) (arr0_4 V c) (arr0_5 V c) (arr0_6 V c) (ix2 (row0 t r) j) :=
  (congrFun (out7_eq0 V c t) (ix2 r j)).trans (eblk0_block2 V c t r j)

/-! ## What each point writes back -/

/-- Point `t` writes back block `t` of the reference's edge update. -/
theorem flushed0_7_eq (c : Dev nD) (t : Fin cfg0.N) :
    (dat0 (F := Ideal) q V c).flushed 7 t
      = ((cfg0.win 7).blk t).view.read (Elt Ideal) (Cert.Spec.edge1 (arr0_0 V c) (arr0_1 V c) (arr0_2 V c) (arr0_3 V c) (arr0_4 V c) (arr0_5 V c) (arr0_6 V c)) := by
  show (cfg0.win 7).cut (grid0.coords t) ((dat0 q V c).after 7 t) = _
  rw [after0_7]
  funext y
  show (outsAt0 V c t.val t.isLt).1 y = Cert.Spec.edge1 (arr0_0 V c) (arr0_1 V c) (arr0_2 V c) (arr0_3 V c) (arr0_4 V c) (arr0_5 V c) (arr0_6 V c) (((cfg0.win 7).blk t).view.emb y)
  obtain ⟨r, j, rfl⟩ : ∃ (r : Fin 10000) (j : Fin 64), y = ix2 r j := ⟨y 0, y 1, eq_ix2 y⟩
  obtain ⟨e0, e1⟩ := (idx_facts0 t).2.2.2.2.2.2.2.1
  refine (out7_block0 V c t r j).trans (congrArg (Cert.Spec.edge1 (arr0_0 V c) (arr0_1 V c) (arr0_2 V c) (arr0_3 V c) (arr0_4 V c) (arr0_5 V c) (arr0_6 V c)) (funext fun a => Fin.ext ?_))
  match a with
  | ⟨0, _⟩ => show 10000 * t.val + r.val = win0_7.index t (0 : Fin 2) * 10000 + 1 * r.val; rw [e0]; omega
  | ⟨1, _⟩ => show j.val = win0_7.index t (1 : Fin 2) * 64 + 1 * j.val; rw [e1]; omega

/-! ## The array after the region -/

/-- THE FIRST OUTPUT after the region: the reference's edge update of the arrays the region found. -/
theorem edge_out0 (c : Dev nD) :
    (dat0 (F := Ideal) q V c).arrAt 7 cfg0.N = Cert.Spec.edge1 (arr0_0 V c) (arr0_1 V c) (arr0_2 V c) (arr0_3 V c) (arr0_4 V c) (arr0_5 V c) (arr0_6 V c) :=
  (dat0 q V c).arrAt_eq_of_cover 7 (Cert.Spec.edge1 (arr0_0 V c) (arr0_1 V c) (arr0_2 V c) (arr0_3 V c) (arr0_4 V c) (arr0_5 V c) (arr0_6 V c)) (fun t _ => flushed0_7_eq q V c t) cover0_7

end Region0

end Cert.KernelIdeal.Hand

end
-- ==== Proof.KI.E0.ValueAcc.lean ====
/- The edge kernel at the pipeline `cfg0`, at the ideal values: the scratch the body carries from point to point is the
   running column sum of the blocks it has stored to output 7. After point `n` its entry of column `j` is the zero the
   first point resets it to, plus, point by point up to `n`, the sum over the 10000 rows of that point's block at column
   `j` — by induction on the point, the cases read off the pieces each leaves. -/
import proofs.«108204_j49847390437921_1_alg».proof.Proof.KI.E0.ValuePiecesS
import proofs.«108204_j49847390437921_1_alg».proof.Proof.KI.E0.ValuePay

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

/-- The scratch's update at column `j`, over a point's input blocks: what the scratch held there, plus the sum over the
    rows of output 7's block at that column. -/
theorem escr0_apply (x0 x1 x2 x3 : Vec Ideal S10000x64 .f32) (x4 : Vec Ideal S1x64 .f32) (x5 : Vec Ideal S5x64x64 .f32) (x6 : Vec Ideal S1x64 .f32)
    (v40 : Vec Ideal S1x64 .f32) (j : Fin 64) :
    escr0 x0 x1 x2 x3 x4 x5 x6 v40 (ix2 (0 : Fin 1) j)
      = v40 (ix2 (0 : Fin 1) j) + ∑ r : Fin 10000, eblk0 x0 x1 x2 x3 x4 x5 x6 (ix2 r j) :=
  k0_pay2_apply (k0_pay4 x4) (esum0 x0 x1 x2 x3 x5) (eslab0_4 x5) x6 v40 j

section Region0

variable (V : (c : Dev nD) → (b : Ref sig .tc) → Buf (Elt Ideal) ((c : Thread nD τ).loc b))

/-- OUTPUT 7'S BLOCK AT POINT `s`, from the arrays as the region finds them: the update's block of the point's input blocks. -/
abbrev eblkAt0 (c : Dev nD) (s : Fin cfg0.N) : FVec Ideal S10000x64 .f32 :=
  eblk0 (iblk0 V c 0 s) (iblk0 V c 1 s) (iblk0 V c 2 s) (iblk0 V c 3 s) (iblk0 V c 4 s) (iblk0 V c 5 s) (iblk0 V c 6 s)

/-- The column sum of point `s`'s block at column `j` (zero past the grid's 80 points). -/
def colN0 (c : Dev nD) (s : ℕ) (j : Fin 64) : Ideal .f32 :=
  if h : s < cfg0.N then ∑ r : Fin 10000, eblkAt0 V c ⟨s, h⟩ (ix2 r j) else 0

theorem colN0_of_lt (c : Dev nD) (s : ℕ) (h : s < cfg0.N) (j : Fin 64) :
    colN0 V c s j = ∑ r : Fin 10000, eblkAt0 V c ⟨s, h⟩ (ix2 r j) := dif_pos h

/-- THE RUNNING COLUMN SUM. After point `n` the carried scratch holds, at column `j`, the zero of the reset plus the column
    sums of the blocks of points 0 … `n`, added in point order. -/
theorem scratch_acc0 (c : Dev nD) (j : Fin 64) : ∀ (n : ℕ) (hn : n < cfg0.N),
    (outsAt0 (F := Ideal) V c n hn).2.2 (ix2 (0 : Fin 1) j)
      = Ideal.ofBits .f32 0x00000000#32 + ∑ s ∈ Finset.range (n + 1), colN0 V c s j
  | 0, hn => by
    have h0 : (⟨0, hn⟩ : Fin cfg0.N).val % 80 = 0 := Nat.zero_mod _
    have h1 : ¬(⟨0, hn⟩ : Fin cfg0.N).val % 80 = 79 := by dsimp only; omega
    rw [outsAt0_A V c ⟨0, hn⟩ h0 h1]
    dsimp only
    refine (congrFun (sout0_A_0_eq (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr h0) (fun h => h1 ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩)) (ix2 (0 : Fin 1) j)).trans ?_
    refine (escr0_apply (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (k0_pay3 (F := Ideal)) j).trans ?_
    rw [k0_pay3_apply, Finset.sum_range_one, colN0_of_lt V c 0 hn j]
  | n + 1, hn => by
    have ih := scratch_acc0 c j n (Nat.lt_of_succ_lt hn)
    have hN : cfg0.N = 80 := N_0
    have h0 : ¬(⟨n + 1, hn⟩ : Fin cfg0.N).val % 80 = 0 := by dsimp only; omega
    by_cases h1 : (⟨n + 1, hn⟩ : Fin cfg0.N).val % 80 = 79
    ·
      rw [outsAt0_C V c ⟨n + 1, hn⟩ h0 h1]
      dsimp only
      refine (congrFun (sout0_C_0_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 V c ((⟨n + 1, hn⟩ : Fin cfg0.N).val - 1) (Nat.lt_of_le_of_lt (Nat.sub_le _ _) (⟨n + 1, hn⟩ : Fin cfg0.N).isLt)).2.2) (ix2 (0 : Fin 1) j)).trans ?_
      refine (escr0_apply (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 V c ((⟨n + 1, hn⟩ : Fin cfg0.N).val - 1) (Nat.lt_of_le_of_lt (Nat.sub_le _ _) (⟨n + 1, hn⟩ : Fin cfg0.N).isLt)).2.2 j).trans ?_
      rw [Finset.sum_range_succ, colN0_of_lt V c (n + 1) hn j, ← add_assoc]
      exact congrArg (· + _) ih
    ·
      rw [outsAt0_B V c ⟨n + 1, hn⟩ h0 h1]
      dsimp only
      refine (congrFun (sout0_B_0_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 V c ((⟨n + 1, hn⟩ : Fin cfg0.N).val - 1) (Nat.lt_of_le_of_lt (Nat.sub_le _ _) (⟨n + 1, hn⟩ : Fin cfg0.N).isLt)).2.2) (ix2 (0 : Fin 1) j)).trans ?_
      refine (escr0_apply (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 V c ((⟨n + 1, hn⟩ : Fin cfg0.N).val - 1) (Nat.lt_of_le_of_lt (Nat.sub_le _ _) (⟨n + 1, hn⟩ : Fin cfg0.N).isLt)).2.2 j).trans ?_
      rw [Finset.sum_range_succ, colN0_of_lt V c (n + 1) hn j, ← add_assoc]
      exact congrArg (· + _) ih

end Region0

end Cert.KernelIdeal.Hand

end
-- ==== Proof.KI.E0.ValueSum.lean ====
/- The edge kernel at the pipeline `cfg0`, at the ideal values: its second result. Output 8's one block is the whole 1×64
   array and is written back once, after the last of the 80 points, holding what the carried scratch then holds: the zero
   of the reset plus the 80 blocks' column sums in point order. The blocks of output 7 are the 80 consecutive runs of
   10000 rows of the reference's bond update, so over the extended reals (a commutative monoid: no finiteness is asked)
   the 80 column sums regroup, along Fin 80 × Fin 10000 ≃ Fin 800000, into the reference's column sum over all rows. -/
import proofs.«108204_j49847390437921_1_alg».proof.Proof.KI.E0.ValueAcc
import proofs.«108204_j49847390437921_1_alg».proof.Proof.KI.E0.ValueArr
import proofs.«108204_j49847390437921_1_alg».proof.Proof.KI.E0.ValueBlk
import Idealize.ShloMosaic.Lib.Pipeline.Value
import Mathlib.Algebra.BigOperators.Fin
import Mathlib.Data.Fintype.BigOperators
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.Sem
open Idealize.ShloMosaic.Pipeline (Dat Cfg Window)
open scoped BigOperators

/-- A view of a whole buffer through the unit-stride rectangle of the buffer's own sizes at zero offsets, however the
    zeros are spelt, goes through every element. -/
theorem set_access_unit_zero0 {κ : Kind} (b : Ref sig κ) {off : Fin b.ty.shape.rank → Nat}
    (h : off = fun _ => 0) (inb : ∀ a, off a + b.ty.shape.size a ≤ b.ty.shape.size a) :
    ((Memref.whole b).access (Rect.unit off b.ty.shape.size inb) : View sig κ _ _ _).set = Finset.univ := by
  subst h; exact Memref.set_access_whole b

section Region0

variable (q : Fin cfg0.W → PosShare TreeShare)
variable (V : (c : Dev nD) → (b : Ref sig .tc) → Buf (Elt Ideal) ((c : Thread nD τ).loc b))

/-- The last of the 80 points. -/
abbrev tLast0 : Fin cfg0.N := ⟨79, by rw [show cfg0.N = 80 from N_0]; decide⟩

/-- The reference's bond update of the arrays as the region finds them, and its column sums. -/
abbrev eRef0 (c : Dev nD) : Cert.Spec.Arr Ideal Cert.ReferenceIdeal.S800000x64 .f32 := Cert.Spec.edge1 (arr0_0 V c) (arr0_1 V c) (arr0_2 V c) (arr0_3 V c) (arr0_4 V c) (arr0_5 V c) (arr0_6 V c)
abbrev sumRef0 (c : Dev nD) : Cert.Spec.Arr Ideal Cert.ReferenceIdeal.S1x64 .f32 := Cert.Spec.sumE (eRef0 V c)

/-- At the last point output 8's staging buffer is left at what the scratch is left at: the scratch is stored there
    after its own update. -/
theorem out8_eq_scr0 (c : Dev nD) (t : Fin cfg0.N) (h0 : ¬t.val % 80 = 0) (h1 : t.val % 80 = 79) :
    (outsAt0 (F := Ideal) V c t.val t.isLt).2.1 = (outsAt0 (F := Ideal) V c t.val t.isLt).2.2 := by
  rw [outsAt0_C V c t h0 h1]
  dsimp only
  exact (out0_C_8_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2).trans
    (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2).symm

/-- So after the last point it holds, at column `j`, the zero of the reset plus the 80 blocks' column sums. -/
theorem last_out8_0 (c : Dev nD) (j : Fin 64) :
    (outsAt0 (F := Ideal) V c (tLast0).val (tLast0).isLt).2.1 (ix2 (0 : Fin 1) j)
      = Ideal.ofBits .f32 0x00000000#32 + ∑ s ∈ Finset.range 80, colN0 V c s j :=
  (congrFun (out8_eq_scr0 V c tLast0 (by decide) (by decide)) (ix2 (0 : Fin 1) j)).trans (scratch_acc0 V c j 79 (tLast0).isLt)

/-- THE REGROUPING. If every block of output 7 is its run of 10000 rows of the reference's bond update (`hblk`), the 80
    blocks' column sums at column `j` add up to that update's column sum over all 800000 rows. -/
theorem sum_cols0 (c : Dev nD)
    (hblk : ∀ (t : Fin cfg0.N) (r : Fin 10000) (j : Fin 64), eblkAt0 V c t (ix2 r j) = eRef0 V c (ix2 (row0 t r) j)) (j : Fin 64) :
    ∑ s ∈ Finset.range 80, colN0 V c s j = ∑ R : Fin 800000, eRef0 V c (ix2 R j) := by
  have hN : cfg0.N = 80 := N_0
  have e : ∀ s : Fin 80, colN0 V c s.val j = ∑ r : Fin 10000, eRef0 V c (ix2 (finProdFinEquiv (s, r) : Fin 800000) j) := fun s => by
    rw [colN0_of_lt V c s.val (by have := s.isLt; omega) j]
    refine Finset.sum_congr rfl fun r _ => ?_
    rw [hblk]
    exact congrArg (fun R : Fin 800000 => eRef0 V c (ix2 R j)) (Fin.ext (by
      show 10000 * s.val + r.val = r.val + 10000 * s.val
      omega))
  rw [Finset.sum_range, Fintype.sum_congr _ _ e,
    ← Fintype.sum_prod_type (f := fun p : Fin 80 × Fin 10000 => eRef0 V c (ix2 (finProdFinEquiv p : Fin 800000) j))]
  exact Equiv.sum_comp (finProdFinEquiv (m := 80) (n := 10000)) (fun R : Fin 800000 => eRef0 V c (ix2 R j))

/-- The one write-back of window 8, at the last point, writes the reference's column sums: block (0, 0) of the 1×64 array
    read through zero offsets is the array. -/
theorem flushed8_eq0 (c : Dev nD)
    (hblk : ∀ (t : Fin cfg0.N) (r : Fin 10000) (j : Fin 64), eblkAt0 V c t (ix2 r j) = eRef0 V c (ix2 (row0 t r) j))
    (t : Fin cfg0.N) (hf : (cfg0.win 8).flush t = true) :
    (dat0 (F := Ideal) q V c).flushed 8 t = ((cfg0.win 8).blk t).view.read (Elt Ideal) (sumRef0 V c) := by
  have hN : cfg0.N = 80 := N_0
  have h79 : t.val = 79 := by have := (flush0_8 t).mp hf; have := t.isLt; omega
  obtain rfl : t = tLast0 := Fin.ext h79
  show (cfg0.win 8).cut (grid0.coords tLast0) ((dat0 (F := Ideal) q V c).after 8 tLast0) = _
  rw [after0_8]
  have hz' : (fun a => win0_8.index tLast0 a * main_v30_1.ty.shape.size a) = fun _ => 0 := funext fun a => by fin_cases a <;> decide
  refine Eq.trans ?_ (Memref.read_access_unit_zero (Elt Ideal) main_v30_1 hz' (fun a => by rw [congrFun hz' a]; simp) (sumRef0 V c)).symm
  funext y
  obtain ⟨a, b, rfl⟩ : ∃ (a : Fin 1) (b : Fin 64), y = ix2 a b := ⟨y 0, y 1, eq_ix2 y⟩
  obtain rfl : a = 0 := Subsingleton.elim _ _
  show (outsAt0 (F := Ideal) V c (tLast0).val (tLast0).isLt).2.1 (ix2 (0 : Fin 1) b) = sumRef0 V c (ix2 (0 : Fin 1) b)
  rw [last_out8_0 V c b, sum_cols0 V c hblk b]
  exact (Cert.Spec.sumE_apply (eRef0 V c) b).symm

/-- That point's block covers the array. -/
theorem cover8_0 (c : Dev nD) (i : ((cfg0.win 8).arr.view.loc (c.tc : Thread nD τ)).2.ty.Idx) :
    ∃ t : Fin cfg0.N, (cfg0.win 8).flush t = true ∧ i ∈ ((cfg0.win 8).blk t).view.set := by
  have hz' : (fun a => win0_8.index tLast0 a * main_v30_1.ty.shape.size a) = fun _ => 0 := funext fun a => by fin_cases a <;> decide
  refine ⟨tLast0, (flush0_8 tLast0).mpr rfl, ?_⟩
  have hs := set_access_unit_zero0 main_v30_1 hz' (fun a => by rw [congrFun hz' a]; simp)
  exact hs ▸ Finset.mem_univ i

/-- THE SECOND RESULT, from the blocks: window 8's array ends holding the reference's column sums of its bond update,
    given that every block of output 7 is its run of rows of that update. -/
theorem edge_sum0_of (c : Dev nD)
    (hblk : ∀ (t : Fin cfg0.N) (r : Fin 10000) (j : Fin 64), eblkAt0 V c t (ix2 r j) = eRef0 V c (ix2 (row0 t r) j)) :
    (dat0 (F := Ideal) q V c).arrAt 8 cfg0.N = sumRef0 V c :=
  (dat0 (F := Ideal) q V c).arrAt_eq_of_cover 8 (sumRef0 V c) (flushed8_eq0 q V c hblk) (cover8_0 c)

/-- THE SECOND RESULT. Window 8's array ends holding the reference's column sums of its bond update of the arrays as
    the region finds them: every block of output 7 is its run of 10000 rows of that update. -/
theorem edge_sum0 (c : Dev nD) :
    (dat0 (F := Ideal) q V c).arrAt 8 cfg0.N
      = Cert.Spec.sumE (Cert.Spec.edge1 (arr0_0 V c) (arr0_1 V c) (arr0_2 V c) (arr0_3 V c) (arr0_4 V c) (arr0_5 V c) (arr0_6 V c)) :=
  edge_sum0_of q V c (eblk0_block2 V c)

end Region0

end Cert.KernelIdeal.Hand

end
-- ==== Proof.KI.N1.ValuePieces.lean ====
/- The node kernel at this region: what each case of its body leaves in output 6's block, in output 7's block and in the
   carried scratch, as the body's payloads of the point's input blocks. Every buffer is filled by one store of its
   whole extent (the scratch at the first point by two, the later covering), so the pieces the run found read back as
   the stored payload; the loads read whole staging buffers, except the four 1×64×64 slabs of the weights. -/
import proofs.«108204_j49847390437921_1_alg».proof.Proof.KI.N1.Body
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable {F : FTy → Type} [FloatOps F]

theorem hz1 : (![0, 0] : Fin 2 → Nat) = fun _ => 0 := funext fun a => by fin_cases a <;> rfl

/-- Slab `s` of the loaded 4×64×64 weights: the rectangle of extent 1×64×64 at offset (`s`, 0, 0). -/
abbrev wslab1_0 (x4 : Vec F S4x64x64 .f32) : Vec F S1x64x64 .f32 := View.ld x4 (Rect.unit (s := S4x64x64) ![0, 0, 0] S1x64x64.size inb_S4x64x64_S1x64x64_0_0_0)
abbrev wslab1_1 (x4 : Vec F S4x64x64 .f32) : Vec F S1x64x64 .f32 := View.ld x4 (Rect.unit (s := S4x64x64) ![1, 0, 0] S1x64x64.size inb_S4x64x64_S1x64x64_1_0_0)
abbrev wslab1_2 (x4 : Vec F S4x64x64 .f32) : Vec F S1x64x64 .f32 := View.ld x4 (Rect.unit (s := S4x64x64) ![2, 0, 0] S1x64x64.size inb_S4x64x64_S1x64x64_2_0_0)
abbrev wslab1_3 (x4 : Vec F S4x64x64 .f32) : Vec F S1x64x64 .f32 := View.ld x4 (Rect.unit (s := S4x64x64) ![3, 0, 0] S1x64x64.size inb_S4x64x64_S1x64x64_3_0_0)

/-- The four products summed, from a point's input blocks: three row blocks against slabs 0, 1, 2 and the global row
    against slab 3. -/
abbrev pre1 (x0 x1 x2 : Vec F S10000x64 .f32) (x3 : Vec F S1x64 .f32) (x4 : Vec F S4x64x64 .f32) : FVec F S10000x64 .f32 :=
  k1_pay4 x0 x1 x2 x3 (wslab1_0 x4) (wslab1_1 x4) (wslab1_2 x4) (wslab1_3 x4)

/-! ## Output 6: the update's block, at every point -/

/-- At the first point output 6's staging buffer is left at the relu of the summed products plus the bias row. -/
theorem out1_A_6_eq (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) :
    out1_A_6 c i arg1 harg1 arg2 harg2 arg3 harg3 arg4 harg4 arg5 harg5 arg6 harg6 arg7 harg7 arg8 harg8 arg9 harg9 hc0 hc1 x0 x1 x2 x3 x4 x5 = k1_pay1 (pre1 x0 x1 x2 x3 x4) (k1_pay5 x5) := by
  unfold out1_A_6
  rw [View.read_writes_eq_canon _ _ _ (cover1_A_6 c i arg1 harg1 arg2 harg2 arg3 harg3 arg4 harg4 arg5 harg5 arg6 harg6 arg7 harg7 arg8 harg8 arg9 harg9 hc0 hc1 x0 x1 x2 x3 x4 x5)]
  unfold kernelRun1_A
  dsimp only
  sl_unfold_words
  rw [View.canon_unit_zero hz1]
  simp only [View.readAt_eq_ld, harg1.read_unread, harg2.read_unread, harg3.read_unread, harg4.read_unread, harg5.read_unread, harg6.read_unread, harg9.read_unread, View.ld_unit_zero (S := S10000x64) hz1, View.ld_unit_zero (S := S1x64) hz1, View.readCov_unit_zero (S := S1x64) _ hz1]

/-- At a middle point output 6's staging buffer is left at the relu of the summed products plus the bias row. -/
theorem out1_B_6_eq (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) :
    out1_B_6 c i arg1 harg1 arg2 harg2 arg3 harg3 arg4 harg4 arg5 harg5 arg6 harg6 arg7 harg7 arg8 harg8 arg9 harg9 hc0 hc1 x0 x1 x2 x3 x4 x5 xs0 = k1_pay1 (pre1 x0 x1 x2 x3 x4) (k1_pay5 x5) := by
  unfold out1_B_6
  rw [View.read_writes_eq_canon _ _ _ (cover1_B_6 c i arg1 harg1 arg2 harg2 arg3 harg3 arg4 harg4 arg5 harg5 arg6 harg6 arg7 harg7 arg8 harg8 arg9 harg9 hc0 hc1 x0 x1 x2 x3 x4 x5 xs0)]
  unfold kernelRun1_B
  dsimp only
  sl_unfold_words
  rw [View.canon_unit_zero hz1]
  simp only [View.readAt_eq_ld, harg1.read_unread, harg2.read_unread, harg3.read_unread, harg4.read_unread, harg5.read_unread, harg6.read_unread, harg9.read_unread, View.ld_unit_zero (S := S10000x64) hz1, View.ld_unit_zero (S := S1x64) hz1, View.readCov_unit_zero (S := S1x64) _ hz1]

/-- At the last point output 6's staging buffer is left at the relu of the summed products plus the bias row. -/
theorem out1_C_6_eq (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) :
    out1_C_6 c i arg1 harg1 arg2 harg2 arg3 harg3 arg4 harg4 arg5 harg5 arg6 harg6 arg7 harg7 arg8 harg8 arg9 harg9 hc0 hc1 x0 x1 x2 x3 x4 x5 xs0 = k1_pay1 (pre1 x0 x1 x2 x3 x4) (k1_pay5 x5) := by
  unfold out1_C_6
  rw [View.read_writes_eq_canon _ _ _ (cover1_C_6 c i arg1 harg1 arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero hz1]
  simp only [View.readAt_eq_ld, harg1.read_unread, harg2.read_unread, harg3.read_unread, harg4.read_unread, harg5.read_unread, harg6.read_unread, harg9.read_unread, View.ld_unit_zero (S := S10000x64) hz1, View.ld_unit_zero (S := S1x64) hz1, View.readCov_unit_zero (S := S1x64) _ hz1]

/-! ## The scratch: the column sums carried from point to point -/

/-- At the first point the scratch is reset to the zero row, read back, and left at that plus the block's column sums. -/
theorem sout1_A_0_eq (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) :
    sout1_A_0 c i arg1 harg1 arg2 harg2 arg3 harg3 arg4 harg4 arg5 harg5 arg6 harg6 arg7 harg7 arg8 harg8 arg9 harg9 hc0 hc1 x0 x1 x2 x3 x4 x5 = k1_pay2 (pre1 x0 x1 x2 x3 x4) (k1_pay5 x5) (k1_pay3 (F := F)) := by
  unfold sout1_A_0
  rw [View.read_writes_eq_canon _ _ _ (scover1_A_0 c i arg1 harg1 arg2 harg2 arg3 harg3 arg4 harg4 arg5 harg5 arg6 harg6 arg7 harg7 arg8 harg8 arg9 harg9 hc0 hc1 x0 x1 x2 x3 x4 x5)]
  unfold kernelRun1_A
  dsimp only
  sl_unfold_words
  rw [View.canon_cons_unit_zero (S := S1x64) hz1]
  simp only [View.readAt_eq_ld, harg1.read_unread, harg2.read_unread, harg3.read_unread, harg4.read_unread, harg5.read_unread, harg6.read_unread, harg9.read_unread, View.ld_unit_zero (S := S10000x64) hz1, View.ld_unit_zero (S := S1x64) hz1, View.readCov_unit_zero (S := S1x64) _ hz1]

/-- At a middle point the scratch is left at what the point before left plus the block's column sums. -/
theorem sout1_B_0_eq (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : ¬cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) :
    sout1_B_0 c i arg1 harg1 arg2 harg2 arg3 harg3 arg4 harg4 arg5 harg5 arg6 harg6 arg7 harg7 arg8 harg8 arg9 harg9 hc0 hc1 x0 x1 x2 x3 x4 x5 xs0 = k1_pay2 (pre1 x0 x1 x2 x3 x4) (k1_pay5 x5) xs0 := by
  unfold sout1_B_0
  rw [View.read_writes_eq_canon _ _ _ (scover1_B_0 c i arg1 harg1 arg2 harg2 arg3 harg3 arg4 harg4 arg5 harg5 arg6 harg6 arg7 harg7 arg8 harg8 arg9 harg9 hc0 hc1 x0 x1 x2 x3 x4 x5 xs0)]
  unfold kernelRun1_B
  dsimp only
  sl_unfold_words
  rw [View.canon_unit_zero hz1]
  simp only [View.readAt_eq_ld, harg1.read_unread, harg2.read_unread, harg3.read_unread, harg4.read_unread, harg5.read_unread, harg6.read_unread, harg9.read_unread, View.ld_unit_zero (S := S10000x64) hz1, View.ld_unit_zero (S := S1x64) hz1, View.readCov_unit_zero (S := S1x64) _ hz1]

/-- At the last point the scratch is left at what the point before left plus the block's column sums. -/
theorem sout1_C_0_eq (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) :
    sout1_C_0 c i arg1 harg1 arg2 harg2 arg3 harg3 arg4 harg4 arg5 harg5 arg6 harg6 arg7 harg7 arg8 harg8 arg9 harg9 hc0 hc1 x0 x1 x2 x3 x4 x5 xs0 = k1_pay2 (pre1 x0 x1 x2 x3 x4) (k1_pay5 x5) xs0 := by
  unfold sout1_C_0
  rw [View.read_writes_eq_canon _ _ _ (scover1_C_0 c i arg1 harg1 arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero hz1]
  simp only [View.readAt_eq_ld, harg1.read_unread, harg2.read_unread, harg3.read_unread, harg4.read_unread, harg5.read_unread, harg6.read_unread, harg9.read_unread, View.ld_unit_zero (S := S10000x64) hz1, View.ld_unit_zero (S := S1x64) hz1, View.readCov_unit_zero (S := S1x64) _ hz1]

/-! ## Output 7: the scratch stored at the last point -/

/-- At the last point output 7's staging buffer is left at the scratch's new contents, read back after its store. -/
theorem out1_C_7_eq (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond1_0 i) (hc1 : cond1_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) :
    out1_C_7 c i arg1 harg1 arg2 harg2 arg3 harg3 arg4 harg4 arg5 harg5 arg6 harg6 arg7 harg7 arg8 harg8 arg9 harg9 hc0 hc1 x0 x1 x2 x3 x4 x5 xs0 = k1_pay2 (pre1 x0 x1 x2 x3 x4) (k1_pay5 x5) xs0 := by
  unfold out1_C_7
  rw [View.read_writes_eq_canon _ _ _ (cover1_C_7 c i arg1 harg1 arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero hz1]
  simp only [View.readAt_eq_ld, harg1.read_unread, harg2.read_unread, harg3.read_unread, harg4.read_unread, harg5.read_unread, harg6.read_unread, harg9.read_unread, View.ld_unit_zero (S := S10000x64) hz1, View.ld_unit_zero (S := S1x64) hz1, View.readCov_unit_zero (S := S1x64) _ hz1]

end Cert.KernelIdeal.Hand

end
-- ==== Proof.KI.N1.ValuePay.lean ====
/- The node kernel at this region, at the ideal values: what each payload of its body holds at an index. Row `r` of a block
   of the update is relu(Σₖ hv[r,k]·W₀[k,j] + Σₖ hv0[r,k]·W₁[k,j] + Σₖ eb[r,k]·W₂[k,j] + Σₖ hu[0,k]·W₃[k,j] + bv[0,j]): a
   matmul into the zero accumulator is the plain sum over the contraction axis, the additions in the order the body
   makes them; the accumulator's update adds the block's column sums to what it held; its reset is the zero row. -/
import proofs.«108204_j49847390437921_1_alg».proof.Proof.Gen.KernelIdeal.Skeleton
import proofs.«108204_j49847390437921_1_alg».proof.Proof.KI.ValueMM

noncomputable section

namespace Cert.KernelIdeal.Hand

open Cert.KernelIdeal Cert.KernelIdeal.Gen
open Idealize.ShloMosaic Idealize.ShloMosaic.ValueIdx
open scoped BigOperators

/-- The sum of the four products at (`r`, `j`): three of the point's 10000×64 input blocks against slabs 0, 1, 2 of
    the weights, and the global row against slab 3, broadcast over the rows. -/
theorem k1_pay4_apply (v3 v5 v7 : Vec Ideal S10000x64 .f32) (v9 : Vec Ideal S1x64 .f32) (v11 v14 v18 v22 : Vec Ideal S1x64x64 .f32)
    (r : Fin 10000) (j : Fin 64) :
    k1_pay4 (F := Ideal) v3 v5 v7 v9 v11 v14 v18 v22 (ix2 r j)
      = (∑ k : Fin 64, v3 (ix2 r k) * v11 (ix3 (0 : Fin 1) k j)) + (∑ k : Fin 64, v5 (ix2 r k) * v14 (ix3 (0 : Fin 1) k j))
        + (∑ k : Fin 64, v7 (ix2 r k) * v18 (ix3 (0 : Fin 1) k j)) + (∑ k : Fin 64, v9 (ix2 (0 : Fin 1) k) * v22 (ix3 (0 : Fin 1) k j)) := by
  unfold k1_pay4
  simp only [shapeCast_self, addf_apply]
  rw [mmBlk_apply, mmBlk_apply, mmBlk_apply, rowBcast_apply, mmRow_apply]
  simp only [slabCast_apply]

/-- The bias row broadcast over the block's rows. -/
theorem k1_pay5_apply (v27 : Vec Ideal S1x64 .f32) (r : Fin 10000) (j : Fin 64) :
    k1_pay5 (F := Ideal) v27 (ix2 r j) = v27 (ix2 (0 : Fin 1) j) := by
  unfold k1_pay5
  simp only [shapeCast_self]
  rw [rowBcast_apply]

/-- The block stored to output 6: the sum of its two operands, clipped below at the zero word's value. -/
theorem k1_pay1_apply (v26 v29 : FVec Ideal S10000x64 .f32) (i : S10000x64.Idx) :
    k1_pay1 (F := Ideal) v26 v29 i = max (v26 i + v29 i) (Ideal.ofBits .f32 0x00000000#32) := rfl

/-- The accumulator's update at column `j`: what it held plus the sum over the block's rows of the stored block. -/
theorem k1_pay2_apply (v26 v29 : FVec Ideal S10000x64 .f32) (v34 : Vec Ideal S1x64 .f32) (j : Fin 64) :
    k1_pay2 (F := Ideal) v26 v29 v34 (ix2 (0 : Fin 1) j) = v34 (ix2 (0 : Fin 1) j) + ∑ r : Fin 10000, k1_pay1 (F := Ideal) v26 v29 (ix2 r j) := by
  unfold k1_pay2
  simp only [shapeCast_self, addf_apply]
  rw [vecRow_apply]
  exact congrArg (v34 (ix2 (0 : Fin 1) j) + ·) (colSum_apply _ _ _ _ j)

/-- The accumulator's reset: the zero word's value in every column. -/
theorem k1_pay3_apply (i : S1x64.Idx) : k1_pay3 (F := Ideal) i = Ideal.ofBits .f32 0x00000000#32 := by
  unfold k1_pay3
  simp only [shapeCast_self]
  rfl

end Cert.KernelIdeal.Hand

end
-- ==== Proof.KI.ValueSpecN.lean ====
/- The reference's node update and its column sums (`Cert.Spec.node1`, `Cert.Spec.sumV`) read at an index, at the ideal
   values: row `R`, column `j` of the update is relu(Σₖ hv[R,k]·Wv[0,k,j] + Σₖ hv0[R,k]·Wv[1,k,j] + Σₖ eb[R,k]·Wv[2,k,j]
   + Σₖ hu[0,k]·Wv[3,k,j] + bv[0,j]), the additions in the reference's order; column `j` of the sums is the zero word's
   value plus the sum over the 100000 rows. -/
import proofs.«108204_j49847390437921_1_alg».proof.Proof.Spec
import proofs.«108204_j49847390437921_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.Spec.NodeAt

open Cert.ReferenceIdeal Cert.ReferenceIdeal.Gen Cert.Spec
open Idealize.ShloMosaic Idealize.ShloMosaic.ValueIdx
open scoped BigOperators

/-! ## The two products' dimension numbers, axis by axis -/

theorem dotV_lhs_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem dotV_lhs_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem dotV_rhs_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem dotV_rhs_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

theorem dotU_lhs_0 (i : S1x64.Idx) (q : dot_S1x64_S64x64_S1x64_1_0_0_1_n_n.contr.Idx) :
    (dot_S1x64_S64x64_S1x64_1_0_0_1_n_n.lhsIdx i q 0).val = (i 0).val := by
  unfold DotDims.lhsIdx
  rw [dif_neg (show ¬(0 : Fin S1x64.rank) ∈ dot_S1x64_S64x64_S1x64_1_0_0_1_n_n.lhsBatch by decide), dif_pos (show (0 : Fin S1x64.rank) ∈ dot_S1x64_S64x64_S1x64_1_0_0_1_n_n.lhsNonContracting by decide)]
  rfl
theorem dotU_lhs_1 (i : S1x64.Idx) (q : dot_S1x64_S64x64_S1x64_1_0_0_1_n_n.contr.Idx) :
    (dot_S1x64_S64x64_S1x64_1_0_0_1_n_n.lhsIdx i q 1).val = (q ⟨0, by decide⟩).val :=
  dot_S1x64_S64x64_S1x64_1_0_0_1_n_n.lhsIdx_val_of_single rfl i q
theorem dotU_rhs_0 (i : S1x64.Idx) (q : dot_S1x64_S64x64_S1x64_1_0_0_1_n_n.contr.Idx) :
    (dot_S1x64_S64x64_S1x64_1_0_0_1_n_n.rhsIdx i q 0).val = (q ⟨0, by decide⟩).val :=
  dot_S1x64_S64x64_S1x64_1_0_0_1_n_n.rhsIdx_val_of_single rfl i q
theorem dotU_rhs_1 (i : S1x64.Idx) (q : dot_S1x64_S64x64_S1x64_1_0_0_1_n_n.contr.Idx) :
    (dot_S1x64_S64x64_S1x64_1_0_0_1_n_n.rhsIdx i q 1).val = (i 1).val := by
  unfold DotDims.rhsIdx
  rw [dif_neg (show ¬(1 : Fin S64x64.rank) ∈ dot_S1x64_S64x64_S1x64_1_0_0_1_n_n.rhsBatch by decide), dif_pos (show (1 : Fin S64x64.rank) ∈ dot_S1x64_S64x64_S1x64_1_0_0_1_n_n.rhsNonContracting by decide)]
  rfl

/-! ## The products at an index -/

/-- The reference's product of a 100000×64 array with a 64×64 matrix, at the ideal values, read at (`r`, `j`): the sum over
    the contracted coordinate `k` of the array at (`r`, `k`) times the matrix at (`k`, `j`). -/
theorem mmV_apply (x : FVec Ideal S100000x64 .f32) (W : FVec Ideal S64x64 .f32) (r : Fin 100000) (j : Fin 64) :
    mmV (F := Ideal) x W (ix2 r j) = ∑ k : Fin 64, x (ix2 r k) * W (ix2 k j) := by
  unfold mmV
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r j) ((contrEquiv1 dot_S100000x64_S64x64_S100000x64_1_0_0_1_n_n 64 rfl rfl).symm k) = ix2 r k := funext fun a => Fin.ext (by
    match a with
    | ⟨0, _⟩ => exact dotV_lhs_0 _ _
    | ⟨1, _⟩ => exact (dotV_lhs_1 _ _).trans hk)
  have er : dot_S100000x64_S64x64_S100000x64_1_0_0_1_n_n.rhsIdx (ix2 r j) ((contrEquiv1 dot_S100000x64_S64x64_S100000x64_1_0_0_1_n_n 64 rfl rfl).symm k) = ix2 k j := funext fun a => Fin.ext (by
    match a with
    | ⟨0, _⟩ => exact (dotV_rhs_0 _ _).trans hk
    | ⟨1, _⟩ => exact dotV_rhs_1 _ _)
  rw [el, er]

/-- The reference's product of a 1×64 array with a 64×64 matrix, at the ideal values, read at (`r`, `j`): the sum over
    the contracted coordinate `k` of the array at (`r`, `k`) times the matrix at (`k`, `j`). -/
theorem mmU_apply (x : FVec Ideal S1x64 .f32) (W : FVec Ideal S64x64 .f32) (r : Fin 1) (j : Fin 64) :
    mmU (F := Ideal) x W (ix2 r j) = ∑ k : Fin 64, x (ix2 r k) * W (ix2 k j) := by
  unfold mmU
  simp only [Host.dotGeneral]
  rw [Ideal.dotGeneral_apply, ← Equiv.sum_comp (contrEquiv1 dot_S1x64_S64x64_S1x64_1_0_0_1_n_n 64 rfl rfl).symm]
  refine Finset.sum_congr rfl fun k _ => ?_
  have hk := contrEquiv1_symm_val dot_S1x64_S64x64_S1x64_1_0_0_1_n_n 64 rfl rfl k
  have el : dot_S1x64_S64x64_S1x64_1_0_0_1_n_n.lhsIdx (ix2 r j) ((contrEquiv1 dot_S1x64_S64x64_S1x64_1_0_0_1_n_n 64 rfl rfl).symm k) = ix2 r k := funext fun a => Fin.ext (by
    match a with
    | ⟨0, _⟩ => exact dotU_lhs_0 _ _
    | ⟨1, _⟩ => exact (dotU_lhs_1 _ _).trans hk)
  have er : dot_S1x64_S64x64_S1x64_1_0_0_1_n_n.rhsIdx (ix2 r j) ((contrEquiv1 dot_S1x64_S64x64_S1x64_1_0_0_1_n_n 64 rfl rfl).symm k) = ix2 k j := funext fun a => Fin.ext (by
    match a with
    | ⟨0, _⟩ => exact (dotU_rhs_0 _ _).trans hk
    | ⟨1, _⟩ => exact dotU_rhs_1 _ _)
  rw [el, er]

/-! ## Layout -/

/-- Slab `k` of the stack of four 64×64 matrices, read at (`a`, `b`): the stack at (`k`, `a`, `b`). -/
theorem slab4_apply (k : Fin 4) (W : FVec Ideal S4x64x64 .f32) (a b : Fin 64) :
    slab4 (F := Ideal) k W (ix2 a b) = W (ix3 k a b) := by
  match k with
  | 0 =>
    show shapeCast S64x64 (extractStridedSlice S1x64x64 ![0, 0, 0] W slices_S4x64x64_S1x64x64_0_0_0) shapeCasts_S1x64x64_S64x64 (ix2 a b) = _
    rw [shapeCast_1ab_ab_apply]
    exact extractStridedSlice_apply ![0, 0, 0] W _ (ix3 (0 : Fin 1) a b) (ix3 (0 : Fin 4) a b) (fun c => match c with
      | ⟨0, _⟩ => rfl
      | ⟨1, _⟩ => by show a.val = 0 + a.val; omega
      | ⟨2, _⟩ => by show b.val = 0 + b.val; omega)
  | 1 =>
    show shapeCast S64x64 (extractStridedSlice S1x64x64 ![1, 0, 0] W slices_S4x64x64_S1x64x64_1_0_0) shapeCasts_S1x64x64_S64x64 (ix2 a b) = _
    rw [shapeCast_1ab_ab_apply]
    exact extractStridedSlice_apply ![1, 0, 0] W _ (ix3 (0 : Fin 1) a b) (ix3 (1 : Fin 4) a b) (fun c => match c with
      | ⟨0, _⟩ => rfl
      | ⟨1, _⟩ => by show a.val = 0 + a.val; omega
      | ⟨2, _⟩ => by show b.val = 0 + b.val; omega)
  | 2 =>
    show shapeCast S64x64 (extractStridedSlice S1x64x64 ![2, 0, 0] W slices_S4x64x64_S1x64x64_2_0_0) shapeCasts_S1x64x64_S64x64 (ix2 a b) = _
    rw [shapeCast_1ab_ab_apply]
    exact extractStridedSlice_apply ![2, 0, 0] W _ (ix3 (0 : Fin 1) a b) (ix3 (2 : Fin 4) a b) (fun c => match c with
      | ⟨0, _⟩ => rfl
      | ⟨1, _⟩ => by show a.val = 0 + a.val; omega
      | ⟨2, _⟩ => by show b.val = 0 + b.val; omega)
  | 3 =>
    show shapeCast S64x64 (extractStridedSlice S1x64x64 ![3, 0, 0] W slices_S4x64x64_S1x64x64_3_0_0) shapeCasts_S1x64x64_S64x64 (ix2 a b) = _
    rw [shapeCast_1ab_ab_apply]
    exact extractStridedSlice_apply ![3, 0, 0] W _ (ix3 (0 : Fin 1) a b) (ix3 (3 : Fin 4) a b) (fun c => match c with
      | ⟨0, _⟩ => rfl
      | ⟨1, _⟩ => by show a.val = 0 + a.val; omega
      | ⟨2, _⟩ => by show b.val = 0 + b.val; omega)

/-- A 1×64 row broadcast over the 100000 rows reads the row's entry of the same column. -/
theorem bcastRow_apply (y : FVec Ideal S1x64 .f32) (h : S1x64.BroadcastsInDim S100000x64 (![0, 1] : Fin 2 → Fin S100000x64.rank))
    (R : Fin 100000) (j : Fin 64) :
    broadcastInDim S100000x64 ![0, 1] h y (ix2 R j) = y (ix2 (0 : Fin 1) j) :=
  broadcastInDim_apply _ h y (ix2 R j) (ix2 (0 : Fin 1) j) (fun a => match a with
    | ⟨0, _⟩ => by show (0 : ℕ) = if (1 : ℕ) = 1 then 0 else R.val; rw [if_pos rfl]
    | ⟨1, _⟩ => by show j.val = if (64 : ℕ) = 1 then 0 else j.val; rw [if_neg (by decide)])

/-- The zero scalar broadcast over the array reads the zero word's value everywhere. -/
theorem bcastZero_apply (h : S_.BroadcastsInDim S100000x64 (![] : Fin 0 → Fin S100000x64.rank)) (i : S100000x64.Idx) :
    broadcastInDim S100000x64 ![] h (constant (F := Ideal) S_ .f32 0x00000000#32) i = Ideal.ofBits .f32 0x00000000#32 :=
  broadcastInDim_apply _ h _ i ix0 (fun a => a.elim0)

/-! ## The node update and its column sums -/

/-- The reference's node update at row `R`, column `j`. -/
theorem node1_apply (hv hv0 eb : FVec Ideal S100000x64 .f32) (hu : FVec Ideal S1x64 .f32) (Wv : FVec Ideal S4x64x64 .f32)
    (bv1 : FVec Ideal S1x64 .f32) (R : Fin 100000) (j : Fin 64) :
    node1 (F := Ideal) hv hv0 eb hu Wv bv1 (ix2 R j)
      = max ((∑ k : Fin 64, hv (ix2 R k) * Wv (ix3 (0 : Fin 4) k j)) + (∑ k : Fin 64, hv0 (ix2 R k) * Wv (ix3 (1 : Fin 4) k j))
          + (∑ k : Fin 64, eb (ix2 R k) * Wv (ix3 (2 : Fin 4) k j)) + (∑ k : Fin 64, hu (ix2 (0 : Fin 1) k) * Wv (ix3 (3 : Fin 4) k j))
          + bv1 (ix2 (0 : Fin 1) j)) (Ideal.ofBits .f32 0x00000000#32) := by
  unfold node1 reluV
  simp only [maximumf_apply, addf_apply]
  rw [bcastZero_apply, bcastRow_apply, bcastRow_apply, mmV_apply, mmV_apply, mmV_apply, mmU_apply]
  simp only [slab4_apply]

/-- The reference's column sums at column `j`: the zero word's value plus the sum over the rows. -/
theorem sumV_apply (x : FVec Ideal S100000x64 .f32) (j : Fin 64) :
    sumV (F := Ideal) x (ix2 (0 : Fin 1) j) = Ideal.ofBits .f32 0x00000000#32 + ∑ R : Fin 100000, x (ix2 R j) := by
  unfold sumV
  refine (broadcastInDim_apply _ bcast_S64_S1x64_1 _ (ix2 (0 : Fin 1) j) (ix1 j) (fun a => match a with
    | ⟨0, _⟩ => by show j.val = if (64 : ℕ) = 1 then 0 else j.val; rw [if_neg (by decide)])).trans ?_
  show Ideal.hostReduceAdd reducesTo_S100000x64_S64_d0 x _ (ix1 j) = _
  rw [Ideal.hostReduceAdd_single reducesTo_S100000x64_S64_d0 (by decide : S100000x64.Reduces [0] S64)]
  refine congrArg (Ideal.ofBits .f32 0x00000000#32 + ·) (Finset.sum_congr rfl fun R _ => congrArg x (funext fun a => Fin.ext ?_))
  match a with
  | ⟨0, _⟩ => rfl
  | ⟨1, _⟩ => rfl

end Cert.Spec.NodeAt

end
-- ==== Proof.KI.ValueRowsN.lean ====
/- Regrouping a sum over the 100000 rows of a column into the ten blocks of 10000 rows the node kernel's grid walks:
   a finite sum in a commutative monoid (the extended reals), re-indexed along Fin 10 × Fin 10000 ≃ Fin 100000;
   no finiteness is needed. -/
import Mathlib.Algebra.BigOperators.Fin
import Mathlib.Data.Fintype.BigOperators
import Mathlib.Logic.Equiv.Fin.Basic

namespace Cert.Spec.NodeAt

open scoped BigOperators

variable {M : Type*} [AddCommMonoid M]

/-- The sum of rows `10000·t … 10000·t + 9999` of a column `g` of 100000 entries (nothing past the column's end). -/
def rowsN (g : Fin 100000 → M) (t : ℕ) : M :=
  ∑ r : Fin 10000, if h : 10000 * t + r.val < 100000 then g ⟨10000 * t + r.val, h⟩ else 0

/-- Block `t` of the ten: its rows are all inside the column. -/
theorem rowsN_of_lt (g : Fin 100000 → M) (t : ℕ) (ht : t < 10) :
    rowsN g t = ∑ r : Fin 10000, g ⟨10000 * t + r.val, by have := r.isLt; omega⟩ :=
  Finset.sum_congr rfl fun r _ => dif_pos (by have := r.isLt; omega)

/-- The ten blocks' sums add up to the column's sum. -/
theorem sum_rowsN (g : Fin 100000 → M) : ∑ t ∈ Finset.range 10, rowsN g t = ∑ R : Fin 100000, g R := by
  have e : ∀ t : Fin 10, rowsN g t.val = ∑ r : Fin 10000, g (finProdFinEquiv (t, r)) := fun t =>
    (rowsN_of_lt g t.val t.isLt).trans (Finset.sum_congr rfl fun r _ => congrArg g (Fin.ext (by
      show 10000 * t.val + r.val = r.val + 10000 * t.val
      omega)))
  rw [Finset.sum_range, Fintype.sum_congr _ _ e,
    ← Fintype.sum_prod_type (f := fun p : Fin 10 × Fin 10000 => g (finProdFinEquiv p))]
  exact Equiv.sum_comp (finProdFinEquiv (m := 10) (n := 10000)) g

end Cert.Spec.NodeAt
-- ==== Proof.KI.N1.ValueBlk.lean ====
/- The node kernel at this region, at the ideal values: the block its body stores to output 6 at a point, against the
   reference's node update of the arrays the region is entered with. Point `t`'s input blocks are rows
   `10000·t … 10000·t + 9999` of the three row arrays and the whole of the global row, the weights and the bias; the
   products, the additions and the clipping are the reference's, in its order; so the stored block is those rows of the
   reference's update, at every point and in each of the body's three cases. -/
import proofs.«108204_j49847390437921_1_alg».proof.Proof.KI.N1.ValuePieces
import proofs.«108204_j49847390437921_1_alg».proof.Proof.KI.N1.ValuePay
import proofs.«108204_j49847390437921_1_alg».proof.Proof.KI.ValueSpecN
import proofs.«108204_j49847390437921_1_alg».proof.Proof.KI.ValueRowsN

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

/-! ## The entry arrays and the printed index maps -/

section Arrays
variable {F : FTy → Type} [FloatOps F] (V : (c : Dev nD) → (b : Ref sig .tc) → Buf (Elt F) ((c : Thread nD τ).loc b))

/-- The six arrays the region reads, as it finds them, each at its literal shape: the atom features, the lifted atom
    features, the summed bond messages (100000×64), the global row (1×64), the weights (4×64×64), the bias row (1×64). -/
abbrev arr1_0 (c : Dev nD) : Vec F S100000x64 .f32 := V c (Pipeline.arrRef spec1 0)
abbrev arr1_1 (c : Dev nD) : Vec F S100000x64 .f32 := V c (Pipeline.arrRef spec1 1)
abbrev arr1_2 (c : Dev nD) : Vec F S100000x64 .f32 := V c (Pipeline.arrRef spec1 2)
abbrev arr1_3 (c : Dev nD) : Vec F S1x64 .f32 := V c (Pipeline.arrRef spec1 3)
abbrev arr1_4 (c : Dev nD) : Vec F S4x64x64 .f32 := V c (Pipeline.arrRef spec1 4)
abbrev arr1_5 (c : Dev nD) : Vec F S1x64 .f32 := V c (Pipeline.arrRef spec1 5)

end Arrays

/-- The printed index maps, decided over the ten grid points: the row windows' block index is the point on the row
    axis and 0 on the column axis. -/
theorem idx_rows1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx_rows1_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem idx_rows1_2 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)
theorem idx_rows1_6 : ∀ t : Fin cfg1.N, win1_6.index t (0 : Fin 2) = t.val ∧ win1_6.index t (1 : Fin 2) = 0 :=
  (by decide +kernel : ∀ t : Fin grid1.N, win1_6.index t (0 : Fin 2) = t.val ∧ win1_6.index t (1 : Fin 2) = 0)
/-- The whole-array windows' block index is 0 on every axis, at every point. -/
theorem idx_whole1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx_whole1_4 : ∀ t : Fin cfg1.N, win1_4.index t (0 : Fin 3) = 0 ∧ win1_4.index t (1 : Fin 3) = 0 ∧ win1_4.index t (2 : Fin 3) = 0 :=
  (by decide +kernel : ∀ t : Fin grid1.N, win1_4.index t (0 : Fin 3) = 0 ∧ win1_4.index t (1 : Fin 3) = 0 ∧ win1_4.index t (2 : Fin 3) = 0)
theorem idx_whole1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx_whole1_7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)

/-! ## The input blocks as rows of the entry arrays -/

/-- Row `r` of a row window's block at point `t` is row `10000·t + r` of its array. -/
theorem blk1_0_apply {F : FTy → Type} [FloatOps F] (V : (c : Dev nD) → (b : Ref sig .tc) → Buf (Elt F) ((c : Thread nD τ).loc b)) (c : Dev nD) (t : Fin cfg1.N) (r : Fin 10000) (k : Fin 64)
    (R : Fin 100000) (hR : R.val = 10000 * t.val + r.val) :
    (iblk1 V c 0 t : Vec F S10000x64 .f32) (ix2 r k) = (arr1_0 V c) (ix2 R k) := by
  obtain ⟨e0, e1⟩ := idx_rows1_0 t
  unfold iblk1
  rw [View.read_apply]
  refine congrArg (V c (Pipeline.arrRef spec1 0)) (funext fun a => Fin.ext ?_)
  match a with
  | ⟨0, _⟩ => show win1_0.index t (0 : Fin 2) * 10000 + 1 * r.val = R.val; rw [e0, hR]; omega
  | ⟨1, _⟩ => show win1_0.index t (1 : Fin 2) * 64 + 1 * k.val = k.val; rw [e1]; omega

theorem blk1_1_apply {F : FTy → Type} [FloatOps F] (V : (c : Dev nD) → (b : Ref sig .tc) → Buf (Elt F) ((c : Thread nD τ).loc b)) (c : Dev nD) (t : Fin cfg1.N) (r : Fin 10000) (k : Fin 64)
    (R : Fin 100000) (hR : R.val = 10000 * t.val + r.val) :
    (iblk1 V c 1 t : Vec F S10000x64 .f32) (ix2 r k) = (arr1_1 V c) (ix2 R k) := by
  obtain ⟨e0, e1⟩ := idx_rows1_1 t
  unfold iblk1
  rw [View.read_apply]
  refine congrArg (V c (Pipeline.arrRef spec1 1)) (funext fun a => Fin.ext ?_)
  match a with
  | ⟨0, _⟩ => show win1_1.index t (0 : Fin 2) * 10000 + 1 * r.val = R.val; rw [e0, hR]; omega
  | ⟨1, _⟩ => show win1_1.index t (1 : Fin 2) * 64 + 1 * k.val = k.val; rw [e1]; omega

theorem blk1_2_apply {F : FTy → Type} [FloatOps F] (V : (c : Dev nD) → (b : Ref sig .tc) → Buf (Elt F) ((c : Thread nD τ).loc b)) (c : Dev nD) (t : Fin cfg1.N) (r : Fin 10000) (k : Fin 64)
    (R : Fin 100000) (hR : R.val = 10000 * t.val + r.val) :
    (iblk1 V c 2 t : Vec F S10000x64 .f32) (ix2 r k) = (arr1_2 V c) (ix2 R k) := by
  obtain ⟨e0, e1⟩ := idx_rows1_2 t
  unfold iblk1
  rw [View.read_apply]
  refine congrArg (V c (Pipeline.arrRef spec1 2)) (funext fun a => Fin.ext ?_)
  match a with
  | ⟨0, _⟩ => show win1_2.index t (0 : Fin 2) * 10000 + 1 * r.val = R.val; rw [e0, hR]; omega
  | ⟨1, _⟩ => show win1_2.index t (1 : Fin 2) * 64 + 1 * k.val = k.val; rw [e1]; omega

/-- The global row's, the weights' and the bias row's block is the whole array, at every point. -/
theorem blk1_3_eq {F : FTy → Type} [FloatOps F] (V : (c : Dev nD) → (b : Ref sig .tc) → Buf (Elt F) ((c : Thread nD τ).loc b)) (c : Dev nD) (t : Fin cfg1.N) :
    (iblk1 V c 3 t : Vec F S1x64 .f32) = arr1_3 V c := by
  obtain ⟨e0, e1⟩ := idx_whole1_3 t
  funext y
  unfold iblk1
  rw [View.read_apply]
  refine congrArg (V c (Pipeline.arrRef spec1 3)) (funext fun a => Fin.ext ?_)
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega
theorem blk1_4_eq {F : FTy → Type} [FloatOps F] (V : (c : Dev nD) → (b : Ref sig .tc) → Buf (Elt F) ((c : Thread nD τ).loc b)) (c : Dev nD) (t : Fin cfg1.N) :
    (iblk1 V c 4 t : Vec F S4x64x64 .f32) = arr1_4 V c := by
  obtain ⟨e0, e1, e2⟩ := idx_whole1_4 t
  funext y
  unfold iblk1
  rw [View.read_apply]
  refine congrArg (V c (Pipeline.arrRef spec1 4)) (funext fun a => Fin.ext ?_)
  match a with
  | ⟨0, _⟩ => show win1_4.index t (0 : Fin 3) * 4 + 1 * (y 0).val = (y 0).val; rw [e0]; omega
  | ⟨1, _⟩ => show win1_4.index t (1 : Fin 3) * 64 + 1 * (y 1).val = (y 1).val; rw [e1]; omega
  | ⟨2, _⟩ => show win1_4.index t (2 : Fin 3) * 64 + 1 * (y 2).val = (y 2).val; rw [e2]; omega
theorem blk1_5_eq {F : FTy → Type} [FloatOps F] (V : (c : Dev nD) → (b : Ref sig .tc) → Buf (Elt F) ((c : Thread nD τ).loc b)) (c : Dev nD) (t : Fin cfg1.N) :
    (iblk1 V c 5 t : Vec F S1x64 .f32) = arr1_5 V c := by
  obtain ⟨e0, e1⟩ := idx_whole1_5 t
  funext y
  unfold iblk1
  rw [View.read_apply]
  refine congrArg (V c (Pipeline.arrRef spec1 5)) (funext fun a => Fin.ext ?_)
  match a with
  | ⟨0, _⟩ => show win1_5.index t (0 : Fin 2) * 1 + 1 * (y 0).val = (y 0).val; rw [e0]; omega
  | ⟨1, _⟩ => show win1_5.index t (1 : Fin 2) * 64 + 1 * (y 1).val = (y 1).val; rw [e1]; omega

/-- Slab `s` of the loaded weights at (`0`, `k`, `j`) is the stack at (`s`, `k`, `j`). -/
theorem wslab1_0_apply {F : FTy → Type} [FloatOps F] (x4 : Vec F S4x64x64 .f32) (k j : Fin 64) : wslab1_0 x4 (ix3 (0 : Fin 1) k j) = x4 (ix3 (0 : Fin 4) k j) :=
  congrArg x4 (funext fun a => Fin.ext (match a with | ⟨0, _⟩ => rfl | ⟨1, _⟩ => by show 0 + 1 * k.val = k.val; omega | ⟨2, _⟩ => by show 0 + 1 * j.val = j.val; omega))
theorem wslab1_1_apply {F : FTy → Type} [FloatOps F] (x4 : Vec F S4x64x64 .f32) (k j : Fin 64) : wslab1_1 x4 (ix3 (0 : Fin 1) k j) = x4 (ix3 (1 : Fin 4) k j) :=
  congrArg x4 (funext fun a => Fin.ext (match a with | ⟨0, _⟩ => rfl | ⟨1, _⟩ => by show 0 + 1 * k.val = k.val; omega | ⟨2, _⟩ => by show 0 + 1 * j.val = j.val; omega))
theorem wslab1_2_apply {F : FTy → Type} [FloatOps F] (x4 : Vec F S4x64x64 .f32) (k j : Fin 64) : wslab1_2 x4 (ix3 (0 : Fin 1) k j) = x4 (ix3 (2 : Fin 4) k j) :=
  congrArg x4 (funext fun a => Fin.ext (match a with | ⟨0, _⟩ => rfl | ⟨1, _⟩ => by show 0 + 1 * k.val = k.val; omega | ⟨2, _⟩ => by show 0 + 1 * j.val = j.val; omega))
theorem wslab1_3_apply {F : FTy → Type} [FloatOps F] (x4 : Vec F S4x64x64 .f32) (k j : Fin 64) : wslab1_3 x4 (ix3 (0 : Fin 1) k j) = x4 (ix3 (3 : Fin 4) k j) :=
  congrArg x4 (funext fun a => Fin.ext (match a with | ⟨0, _⟩ => rfl | ⟨1, _⟩ => by show 0 + 1 * k.val = k.val; omega | ⟨2, _⟩ => by show 0 + 1 * j.val = j.val; omega))

/-! ## One point's block -/

/-- The reference's node update of the arrays the region is entered with. -/
abbrev nodeG1 (V : (c : Dev nD) → (b : Ref sig .tc) → Buf (Elt Ideal) ((c : Thread nD τ).loc b)) (c : Dev nD) : Vec Ideal S100000x64 .f32 :=
  Cert.Spec.node1 (F := Ideal) (arr1_0 V c) (arr1_1 V c) (arr1_2 V c) (arr1_3 V c) (arr1_4 V c) (arr1_5 V c)

/-- Over any arrays and blocks: where row `r` of the three row blocks is row `R` of the three row arrays, the stored
    block at (`r`, `j`) is the reference's update at (`R`, `j`): the same four sums over the contracted coordinate, added in
    the same order, plus the same bias entry, clipped at the same zero. -/
theorem blockOut1_of (hv hv0 eb : Vec Ideal S100000x64 .f32) (hu : Vec Ideal S1x64 .f32) (Wv : Vec Ideal S4x64x64 .f32) (bv : Vec Ideal S1x64 .f32)
    (x0 x1 x2 : Vec Ideal S10000x64 .f32) (R : Fin 100000) (r : Fin 10000) (j : Fin 64)
    (h0 : ∀ k, x0 (ix2 r k) = hv (ix2 R k)) (h1 : ∀ k, x1 (ix2 r k) = hv0 (ix2 R k)) (h2 : ∀ k, x2 (ix2 r k) = eb (ix2 R k)) :
    k1_pay1 (F := Ideal) (pre1 x0 x1 x2 hu Wv) (k1_pay5 bv) (ix2 r j) = Cert.Spec.node1 (F := Ideal) hv hv0 eb hu Wv bv (ix2 R j) := by
  rw [k1_pay1_apply, Cert.Spec.NodeAt.node1_apply]
  dsimp only [pre1]
  rw [k1_pay4_apply, k1_pay5_apply]
  have s0 : (∑ k : Fin 64, x0 (ix2 r k) * wslab1_0 Wv (ix3 (0 : Fin 1) k j)) = ∑ k : Fin 64, hv (ix2 R k) * Wv (ix3 (0 : Fin 4) k j) :=
    Finset.sum_congr rfl fun k _ => congrArg₂ (· * ·) (h0 k) (wslab1_0_apply Wv k j)
  have s1 : (∑ k : Fin 64, x1 (ix2 r k) * wslab1_1 Wv (ix3 (0 : Fin 1) k j)) = ∑ k : Fin 64, hv0 (ix2 R k) * Wv (ix3 (1 : Fin 4) k j) :=
    Finset.sum_congr rfl fun k _ => congrArg₂ (· * ·) (h1 k) (wslab1_1_apply Wv k j)
  have s2 : (∑ k : Fin 64, x2 (ix2 r k) * wslab1_2 Wv (ix3 (0 : Fin 1) k j)) = ∑ k : Fin 64, eb (ix2 R k) * Wv (ix3 (2 : Fin 4) k j) :=
    Finset.sum_congr rfl fun k _ => congrArg₂ (· * ·) (h2 k) (wslab1_2_apply Wv k j)
  have s3 : (∑ k : Fin 64, hu (ix2 (0 : Fin 1) k) * wslab1_3 Wv (ix3 (0 : Fin 1) k j)) = ∑ k : Fin 64, hu (ix2 (0 : Fin 1) k) * Wv (ix3 (3 : Fin 4) k j) :=
    Finset.sum_congr rfl fun k _ => congrArg (hu (ix2 (0 : Fin 1) k) * ·) (wslab1_3_apply Wv k j)
  rw [s0, s1, s2, s3]

/-- The block the body stores to output 6 at point `t`, from the point's input blocks: rows `10000·t + r` of the reference's update. -/
theorem blockPay1 (V : (c : Dev nD) → (b : Ref sig .tc) → Buf (Elt Ideal) ((c : Thread nD τ).loc b)) (c : Dev nD) (t : Fin cfg1.N) (r : Fin 10000) (j : Fin 64)
    (R : Fin 100000) (hR : R.val = 10000 * t.val + r.val) :
    k1_pay1 (F := Ideal) (pre1 (iblk1 V c 0 t) (iblk1 V c 1 t) (iblk1 V c 2 t) (iblk1 V c 3 t) (iblk1 V c 4 t)) (k1_pay5 (iblk1 V c 5 t)) (ix2 r j)
      = nodeG1 V c (ix2 R j) := by
  rw [blk1_3_eq V c t, blk1_4_eq V c t, blk1_5_eq V c t]
  exact blockOut1_of (arr1_0 V c) (arr1_1 V c) (arr1_2 V c) (arr1_3 V c) (arr1_4 V c) (arr1_5 V c) (iblk1 V c 0 t) (iblk1 V c 1 t) (iblk1 V c 2 t) R r j
    (fun k => blk1_0_apply V c t r k R hR) (fun k => blk1_1_apply V c t r k R hR) (fun k => blk1_2_apply V c t r k R hR)

/-- What output 6's staging buffer holds after point `t`, whichever of the three cases the point is in. -/
theorem outsAt1_out_eq (V : (c : Dev nD) → (b : Ref sig .tc) → Buf (Elt Ideal) ((c : Thread nD τ).loc b)) (c : Dev nD) (t : Fin cfg1.N) :
    (outsAt1 V c t.val t.isLt).1
      = k1_pay1 (F := Ideal) (pre1 (iblk1 V c 0 t) (iblk1 V c 1 t) (iblk1 V c 2 t) (iblk1 V c 3 t) (iblk1 V c 4 t)) (k1_pay5 (iblk1 V c 5 t)) := by
  by_cases h0 : t.val % 10 = 0
  · have h1 : ¬t.val % 10 = 9 := by omega
    rw [outsAt1_A V c t h0 h1]; dsimp only
    exact out1_A_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)
  · by_cases h1 : t.val % 10 = 9
    · rw [outsAt1_C V c t h0 h1]; dsimp only
      exact out1_C_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2
    · rw [outsAt1_B V c t h0 h1]; dsimp only
      exact out1_B_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2

/-- So after point `t` output 6's staging buffer holds rows `10000·t + r` of the reference's update. -/
theorem blockOut1 (V : (c : Dev nD) → (b : Ref sig .tc) → Buf (Elt Ideal) ((c : Thread nD τ).loc b)) (c : Dev nD) (t : Fin cfg1.N) (r : Fin 10000) (j : Fin 64)
    (R : Fin 100000) (hR : R.val = 10000 * t.val + r.val) :
    (outsAt1 V c t.val t.isLt).1 (ix2 r j) = nodeG1 V c (ix2 R j) :=
  (congrFun (outsAt1_out_eq V c t) (ix2 r j)).trans (blockPay1 V c t r j R hR)

end Cert.KernelIdeal.Hand

end
-- ==== Proof.KI.N1.ValueOut.lean ====
/- The node kernel at this region, at the ideal values: the array output 6 ends holding is the reference's node update of
   the arrays the region is entered with. Every point writes output 6's block back; what point `t` writes is rows
   `10000·t … 10000·t + 9999` of the reference's update (the stored block, read through the window's rectangle); the ten
   blocks tile the 100000 rows (row `R` is in block `R / 10000`); so the array is the update, whole. -/
import proofs.«108204_j49847390437921_1_alg».proof.Proof.KI.N1.ValueBlk

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.Sem
open Idealize.ShloMosaic.Pipeline (Dat Cfg Window)
open scoped BigOperators

/-- WHAT POINT `t` WRITES BACK to output 6 is block `t` of the reference's update of the entry arrays. -/
theorem flushed1_6_eq (q : Fin cfg1.W → PosShare TreeShare) (V : (c : Dev nD) → (b : Ref sig .tc) → Buf (Elt Ideal) ((c : Thread nD τ).loc b)) (c : Dev nD) (t : Fin cfg1.N) :
    (dat1 (F := Ideal) q V c).flushed 6 t = ((cfg1.win 6).blk t).view.read (Elt Ideal) (nodeG1 V c) := by
  obtain ⟨e0, e1⟩ := idx_rows1_6 t
  have hN : t.val < 10 := lt_of_lt_of_eq t.isLt (show cfg1.N = 10 from N_1)
  have key : ((outsAt1 V c t.val t.isLt).1 : Vec Ideal S10000x64 .f32)
      = fun y : S10000x64.Idx => nodeG1 V c (((cfg1.win 6).blk t).view.emb y) := by
    funext y
    obtain ⟨r, j, rfl⟩ : ∃ (r : Fin 10000) (j : Fin 64), y = ix2 r j := ⟨y 0, y 1, eq_ix2 y⟩
    refine (blockOut1 V c t r j ⟨10000 * t.val + r.val, by have := r.isLt; omega⟩ rfl).trans ?_
    refine congrArg (nodeG1 V c) (funext fun a => Fin.ext ?_)
    match a with
    | ⟨0, _⟩ => show 10000 * t.val + r.val = win1_6.index t (0 : Fin 2) * 10000 + 1 * r.val; rw [e0]; omega
    | ⟨1, _⟩ => show j.val = win1_6.index t (1 : Fin 2) * 64 + 1 * j.val; rw [e1]; omega
  show (cfg1.win 6).cut (grid1.coords t) ((dat1 q V c).after 6 t) = _
  rw [after1_6]
  exact key

/-- An index of the array is in point `t`'s block iff each coordinate is in the block's range on its axis. -/
theorem mem_blk1_6 (t : Fin cfg1.N) (i : S100000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole (Pipeline.arrRef spec1 6)).slice (win1_6.rect t)).set ↔ _
  rw [View.set_slice_whole, Rect.mem_set_unit]
  exact Iff.rfl

/-- Every row of the array is in some point's block: row `R` in that of point `R / 10000`. -/
theorem cover1_6 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by omega⟩, rfl⟩
  obtain ⟨e0, e1⟩ := idx_rows1_6 t
  refine ⟨t, flush1_6 t, ?_⟩
  rw [mem_blk1_6]
  intro a
  match a with
  | ⟨0, _⟩ => show win1_6.index t (0 : Fin 2) * 10000 ≤ (i 0).val ∧ (i 0).val < win1_6.index t (0 : Fin 2) * 10000 + 10000; rw [e0]; omega
  | ⟨1, _⟩ => show win1_6.index t (1 : Fin 2) * 64 ≤ (i 1).val ∧ (i 1).val < win1_6.index t (1 : Fin 2) * 64 + 64; rw [e1]; omega

/-- THE ARRAY of output 6 after the region: the reference's node update of the six arrays the region is entered with. -/
theorem node_out1 (q : Fin cfg1.W → PosShare TreeShare) (V : (c : Dev nD) → (b : Ref sig .tc) → Buf (Elt Ideal) ((c : Thread nD τ).loc b)) (c : Dev nD) :
    (dat1 (F := Ideal) q V c).arrAt 6 cfg1.N = Cert.Spec.node1 (F := Ideal) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 (F := Ideal) q V c).arrAt_eq_of_cover 6 (nodeG1 V c) (fun t _ => flushed1_6_eq q V c t) cover1_6

end Cert.KernelIdeal.Hand

end
-- ==== Proof.KI.N1.ValueAcc.lean ====
/- The node kernel at this region, at the ideal values: what the carried scratch holds after each point. A point adds to the
   scratch, column by column, the sum over its block's 10000 rows of the block it stores to output 6, and that block is
   rows 10000·t … 10000·t + 9999 of the reference's node update of the entry arrays; the first point starts from the
   zero row. So after point n column j of the scratch is the zero word's value plus the sums of rows' blocks 0 … n of
   column j of the update, by induction on the point; after the last point that is the zero word's value plus the sum
   over all 100000 rows, and the last point stores exactly this row to output 7. -/
import proofs.«108204_j49847390437921_1_alg».proof.Proof.KI.N1.ValueBlk

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.Sem
open Idealize.ShloMosaic.Pipeline (Dat Cfg Window)
open Cert.Spec.NodeAt (rowsN rowsN_of_lt sum_rowsN)
open scoped BigOperators

/-- Column `j` of the reference's node update of the entry arrays, as a function of the row. -/
abbrev colG1 (V : (c : Dev nD) → (b : Ref sig .tc) → Buf (Elt Ideal) ((c : Thread nD τ).loc b)) (c : Dev nD) (j : Fin 64) : Fin 100000 → Ideal .f32 :=
  fun R => nodeG1 V c (ix2 R j)

/-- One point's update of the scratch, at column `j`: what it held plus block `t`'s rows of column `j` of the update. -/
theorem accStep1 (V : (c : Dev nD) → (b : Ref sig .tc) → Buf (Elt Ideal) ((c : Thread nD τ).loc b)) (c : Dev nD) (t : Fin cfg1.N) (xs0 : Vec Ideal S1x64 .f32) (j : Fin 64) :
    k1_pay2 (F := Ideal) (pre1 (iblk1 V c 0 t) (iblk1 V c 1 t) (iblk1 V c 2 t) (iblk1 V c 3 t) (iblk1 V c 4 t)) (k1_pay5 (iblk1 V c 5 t)) xs0 (ix2 (0 : Fin 1) j)
      = xs0 (ix2 (0 : Fin 1) j) + rowsN (colG1 V c j) t.val := by
  have ht : t.val < 10 := lt_of_lt_of_eq t.isLt N_1
  rw [k1_pay2_apply, rowsN_of_lt (colG1 V c j) t.val ht]
  exact congrArg (xs0 (ix2 (0 : Fin 1) j) + ·) (Finset.sum_congr rfl fun r _ =>
    blockPay1 V c t r j ⟨10000 * t.val + r.val, by have := r.isLt; omega⟩ rfl)

/-- After the first point the scratch holds, at column `j`, the zero word's value plus block 0's rows. -/
theorem scratch1_first (V : (c : Dev nD) → (b : Ref sig .tc) → Buf (Elt Ideal) ((c : Thread nD τ).loc b)) (c : Dev nD) (t : Fin cfg1.N) (h0 : t.val % 10 = 0) (j : Fin 64) :
    (outsAt1 V c t.val t.isLt).2.2 (ix2 (0 : Fin 1) j) = Ideal.ofBits .f32 0x00000000#32 + rowsN (colG1 V c j) t.val := by
  have h1 : ¬t.val % 10 = 9 := by omega
  rw [outsAt1_A V c t h0 h1]; dsimp only
  refine (congrFun (sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) (ix2 (0 : Fin 1) j)).trans ?_
  rw [accStep1 V c t (k1_pay3 (F := Ideal)) j, k1_pay3_apply]

/-- After a later point the scratch holds, at column `j`, what the point before left plus this block's rows. -/
theorem scratch1_later (V : (c : Dev nD) → (b : Ref sig .tc) → Buf (Elt Ideal) ((c : Thread nD τ).loc b)) (c : Dev nD) (t : Fin cfg1.N) (h0 : ¬t.val % 10 = 0) (j : Fin 64) :
    (outsAt1 V c t.val t.isLt).2.2 (ix2 (0 : Fin 1) j)
      = (outsAt1 V c (t.val - 1) (Nat.lt_of_le_of_lt (Nat.sub_le _ _) t.isLt)).2.2 (ix2 (0 : Fin 1) j) + rowsN (colG1 V c j) t.val := by
  by_cases h1 : t.val % 10 = 9
  · rw [outsAt1_C V c t h0 h1]; dsimp only
    refine (congrFun (sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2) (ix2 (0 : Fin 1) j)).trans ?_
    exact accStep1 V c t (outsAt1 V c (t.val - 1) (Nat.lt_of_le_of_lt (Nat.sub_le _ _) t.isLt)).2.2 j
  · rw [outsAt1_B V c t h0 h1]; dsimp only
    refine (congrFun (sout1_B_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2) (ix2 (0 : Fin 1) j)).trans ?_
    exact accStep1 V c t (outsAt1 V c (t.val - 1) (Nat.lt_of_le_of_lt (Nat.sub_le _ _) t.isLt)).2.2 j

/-- THE INVARIANT. After point `n` the scratch holds, at column `j`, the zero word's value plus the rows of blocks
    0 … n of column `j` of the reference's update — by induction on the point. -/
theorem acc1 (V : (c : Dev nD) → (b : Ref sig .tc) → Buf (Elt Ideal) ((c : Thread nD τ).loc b)) (c : Dev nD) : ∀ (n : ℕ) (hn : n < cfg1.N) (j : Fin 64),
    (outsAt1 V c n hn).2.2 (ix2 (0 : Fin 1) j) = Ideal.ofBits .f32 0x00000000#32 + ∑ s ∈ Finset.range (n + 1), rowsN (colG1 V c j) s
  | 0, hn, j => by
    rw [Finset.sum_range_one]
    exact scratch1_first V c ⟨0, hn⟩ rfl j
  | n + 1, hn, j => by
    have hN : n + 1 < 10 := lt_of_lt_of_eq hn N_1
    have e := scratch1_later V c ⟨n + 1, hn⟩ (by dsimp only; omega) j
    rw [Finset.sum_range_succ, ← add_assoc, ← acc1 V c n (Nat.lt_of_succ_lt hn) j]
    exact e

/-- At the last point the body stores to output 7 the scratch it has just updated: the two buffers end equal. -/
theorem vbar_eq_scratch1 (V : (c : Dev nD) → (b : Ref sig .tc) → Buf (Elt Ideal) ((c : Thread nD τ).loc b)) (c : Dev nD) (t : Fin cfg1.N) (h1 : t.val % 10 = 9) :
    (outsAt1 V c t.val t.isLt).2.1 = (outsAt1 V c t.val t.isLt).2.2 := by
  have h0 : ¬t.val % 10 = 0 := by omega
  rw [outsAt1_C V c t h0 h1]; dsimp only
  exact (out1_C_7_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2).trans
    (sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2).symm

/-- So after the last point output 7's staging buffer holds, at column `j`, the zero word's value plus the sum over all
    100000 rows of column `j` of the reference's update. -/
theorem vbar_last1 (V : (c : Dev nD) → (b : Ref sig .tc) → Buf (Elt Ideal) ((c : Thread nD τ).loc b)) (c : Dev nD) (h9 : 9 < cfg1.N) (j : Fin 64) :
    (outsAt1 V c 9 h9).2.1 (ix2 (0 : Fin 1) j) = Ideal.ofBits .f32 0x00000000#32 + ∑ R : Fin 100000, nodeG1 V c (ix2 R j) := by
  rw [vbar_eq_scratch1 V c ⟨9, h9⟩ rfl, acc1 V c 9 h9 j, sum_rowsN (colG1 V c j)]

end Cert.KernelIdeal.Hand

end
-- ==== Proof.KI.ValueSumLib.lean ====
/- Small facts about indices that both kernels' column-sum arguments use: an index of a 1×n row is (0, its column). -/
import Idealize.ShloMosaic.Lib.ValueIdx

namespace Cert.KernelIdeal.Hand

open Idealize.ShloMosaic Idealize.ShloMosaic.ValueIdx

/-- An index of a 1×n array is row 0 at its column. -/
theorem eq_ix2_row0 {n : Nat} (i : (⟨2, ![1, n]⟩ : Shape).Idx) : i = ix2 (0 : Fin 1) (i 1) := by
  funext a
  match a with
  | ⟨0, _⟩ => exact Fin.ext (Nat.lt_one_iff.mp (idx2_lt0 i))
  | ⟨1, _⟩ => rfl

end Cert.KernelIdeal.Hand
-- ==== Proof.KI.N1.ValueSum.lean ====
/- The node kernel at this region: what the region leaves in output 7's array. The window's one block is the whole 1×64
   array, and the pipeline writes it back once, after the last point; so the array ends holding what the last point left
   in the window's staging buffer (at any values). At the ideal values that row is, column by column, the zero word's
   value plus the sum over all 100000 rows of the reference's node update of the entry arrays: the reference's column
   sums of that update. -/
import proofs.«108204_j49847390437921_1_alg».proof.Proof.KI.N1.ValueAcc
import proofs.«108204_j49847390437921_1_alg».proof.Proof.KI.ValueSumLib

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.Sem
open Idealize.ShloMosaic.Pipeline (Dat Cfg Window)
open Cert.Spec.NodeAt (rowsN rowsN_of_lt sum_rowsN)
open scoped BigOperators

section Final
variable {F : FTy → Type} [FloatOps F] (q : Fin cfg1.W → PosShare TreeShare) (V : (c : Dev nD) → (b : Ref sig .tc) → Buf (Elt F) ((c : Thread nD τ).loc b))

/-- The grid's last point is point 9. -/
theorem last1 : 9 < cfg1.N := by rw [show cfg1.N = 10 from N_1]; decide

/-- What the last point leaves in output 7's staging buffer, as contents of the window's array (its one block is the array). -/
abbrev vbar1 (c : Dev nD) : Buf (Elt F) ((c : Thread nD τ).loc (Pipeline.arrRef spec1 7)) := (outsAt1 V c 9 last1).2.1

/-- The one write-back, after point 9, writes it: block (0, 0) of the 1×64 array read through zero offsets is the array. -/
theorem flushed1_7_eq (c : Dev nD) (t : Fin cfg1.N) (hf : (cfg1.win 7).flush t = true) :
    (dat1 q V c).flushed 7 t = ((cfg1.win 7).blk t).view.read (Elt F) (vbar1 V c) := by
  have hN : cfg1.N = 10 := N_1
  have h9 : t.val = 9 := by have := (flush1_7 t).mp hf; have := t.isLt; omega
  obtain rfl : t = t1_9 := Fin.ext h9
  show (cfg1.win 7).cut (grid1.coords t1_9) ((dat1 q V c).after 7 t1_9) = _
  rw [after1_7]
  have hz' : (fun a : Fin 2 => win1_7.index t1_9 a * (Pipeline.arrRef spec1 7).ty.shape.size a) = fun _ => 0 := funext fun a => by fin_cases a <;> decide
  exact (Memref.read_access_unit_zero (Elt F) (Pipeline.arrRef spec1 7) hz' (fun a => by rw [congrFun hz' a]; simp) (vbar1 V c)).symm

/-- So output 7's array ends holding what the last point left in the staging buffer: point 9's block covers it. -/
theorem final1_7 (c : Dev nD) : (dat1 q V c).arrAt 7 cfg1.N = vbar1 V c :=
  (dat1 q V c).arrAt_eq_of_cover 7 (vbar1 V c) (flushed1_7_eq q V c) fun i =>
    ⟨t1_9, (flush1_7 t1_9).mpr rfl, by
      show i ∈ ((View.whole (Pipeline.arrRef spec1 7)).slice (win1_7.rect t1_9)).set
      rw [View.set_slice_whole, Rect.mem_set_unit]
      intro a
      have h0 : (i 0 : Nat) < 1 := (i 0).isLt
      have h1 : (i 1 : Nat) < 64 := (i 1).isLt
      match a with
      | ⟨0, _⟩ => show win1_7.index t1_9 0 * win1_7.size 0 ≤ (i 0 : Nat) ∧ (i 0 : Nat) < win1_7.index t1_9 0 * win1_7.size 0 + win1_7.xsize (grid1.coords t1_9) 0
                  rw [show win1_7.index t1_9 0 * win1_7.size 0 = 0 from by decide +kernel, show win1_7.xsize (grid1.coords t1_9) 0 = 1 from by decide +kernel]; omega
      | ⟨1, _⟩ => show win1_7.index t1_9 1 * win1_7.size 1 ≤ (i 1 : Nat) ∧ (i 1 : Nat) < win1_7.index t1_9 1 * win1_7.size 1 + win1_7.xsize (grid1.coords t1_9) 1
                  rw [show win1_7.index t1_9 1 * win1_7.size 1 = 0 from by decide +kernel, show win1_7.xsize (grid1.coords t1_9) 1 = 64 from by decide +kernel]; omega⟩

end Final

/-- THE VALUE of output 7: at the ideal values the region leaves in output 7's array the reference's column sums of its
    node update of the arrays the region is entered with. -/
theorem node_sum1 (q : Fin cfg1.W → PosShare TreeShare) (V : (c : Dev nD) → (b : Ref sig .tc) → Buf (Elt Ideal) ((c : Thread nD τ).loc b)) (c : Dev nD) :
    (dat1 (F := Ideal) q V c).arrAt 7 cfg1.N = Cert.Spec.sumV (F := Ideal) (nodeG1 V c) := by
  rw [final1_7 q V c]
  funext i
  obtain ⟨j, rfl⟩ : ∃ j : Fin 64, i = ix2 (0 : Fin 1) j := ⟨i 1, eq_ix2_row0 i⟩
  exact (vbar_last1 V c last1 j).trans (Cert.Spec.NodeAt.sumV_apply (nodeG1 V c) j).symm

end Cert.KernelIdeal.Hand

end
-- ==== Proof.KI.E2.ValueArr.lean ====
/- The edge kernel at the pipeline `cfg2` against the reference's arrays: the seven arrays the region reads,
   each at its literal type (the reference's own array types), the row of the bond arrays that row `r` of the block at
   grid point `t` is (10000·t + r), the windows' index maps decided over the 80 points, and each input window's block
   read at an index as its array at the corresponding index. -/
import proofs.«108204_j49847390437921_1_alg».proof.Proof.KI.E2.Runs
import proofs.«108204_j49847390437921_1_alg».proof.Proof.KI.ValueSpec
import proofs.«108204_j49847390437921_1_alg».proof.Proof.Gen.ReferenceIdeal
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-! ## The region's arrays, at the reference's array types -/

section Arrays
variable (V : (c : Dev nD) → (b : Ref sig .tc) → Buf (Elt F) ((c : Thread nD τ).loc b))

/-- The array window 0 reads, as the region finds it. -/
abbrev arr2_0 (c : Dev nD) : Cert.Spec.Arr F Cert.ReferenceIdeal.S800000x64 .f32 := V c (Pipeline.arrRef spec2 0)
/-- The array window 1 reads, as the region finds it. -/
abbrev arr2_1 (c : Dev nD) : Cert.Spec.Arr F Cert.ReferenceIdeal.S800000x64 .f32 := V c (Pipeline.arrRef spec2 1)
/-- The array window 2 reads, as the region finds it. -/
abbrev arr2_2 (c : Dev nD) : Cert.Spec.Arr F Cert.ReferenceIdeal.S800000x64 .f32 := V c (Pipeline.arrRef spec2 2)
/-- The array window 3 reads, as the region finds it. -/
abbrev arr2_3 (c : Dev nD) : Cert.Spec.Arr F Cert.ReferenceIdeal.S800000x64 .f32 := V c (Pipeline.arrRef spec2 3)
/-- The array window 4 reads, as the region finds it. -/
abbrev arr2_4 (c : Dev nD) : Cert.Spec.Arr F Cert.ReferenceIdeal.S1x64 .f32 := V c (Pipeline.arrRef spec2 4)
/-- The array window 5 reads, as the region finds it. -/
abbrev arr2_5 (c : Dev nD) : Cert.Spec.Arr F Cert.ReferenceIdeal.S5x64x64 .f32 := V c (Pipeline.arrRef spec2 5)
/-- The array window 6 reads, as the region finds it. -/
abbrev arr2_6 (c : Dev nD) : Cert.Spec.Arr F Cert.ReferenceIdeal.S1x64 .f32 := V c (Pipeline.arrRef spec2 6)

end Arrays

/-- Row `r` of the block at grid point `t` is row 10000·t + r of the bond arrays. -/
def row2 (t : Fin cfg2.N) (r : Fin 10000) : Fin 800000 :=
  ⟨10000 * t.val + r.val, by have h1 := t.isLt; have h2 : cfg2.N = 80 := N_2; have h3 := r.isLt; omega⟩

theorem row2_val (t : Fin cfg2.N) (r : Fin 10000) : (row2 t r).val = 10000 * t.val + r.val := rfl

/-! ## The index maps over the grid -/

/-- The printed index maps, decided over the 80 points: the four bond windows and output 7 move one block of rows per
    point; the global row, the weight stack, the bias and output 8 stay at their one block. -/
theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 3) = 0 ∧ win2_5.index t (1 : Fin 3) = 0 ∧ win2_5.index t (2 : Fin 3) = 0)
    ∧ (win2_6.index t (0 : Fin 2) = 0 ∧ win2_6.index t (1 : Fin 2) = 0)
    ∧ (win2_7.index t (0 : Fin 2) = t.val ∧ win2_7.index t (1 : Fin 2) = 0)
    ∧ (win2_8.index t (0 : Fin 2) = 0 ∧ win2_8.index t (1 : Fin 2) = 0) :=
  (by decide +kernel : ∀ t : Fin grid2.N, _)

/-! ## The input windows' blocks at an index -/

section Blocks
variable (V : (c : Dev nD) → (b : Ref sig .tc) → Buf (Elt F) ((c : Thread nD τ).loc b))

/-- Window 0's block at point `t`, at row `r`, column `k`: its array at row 10000·t + r, column `k`. -/
theorem iblk2_0_apply (c : Dev nD) (t : Fin cfg2.N) (r : Fin 10000) (k : Fin 64) :
    (iblk2 V c 0 t : Vec F S10000x64 .f32) (ix2 r k) = arr2_0 V c (ix2 (row2 t r) k) := by
  obtain ⟨e0, e1⟩ := (idx_facts2 t).1
  show V c (Pipeline.arrRef spec2 0) (((cfg2.win 0).blk t).view.emb (ix2 r k)) = V c (Pipeline.arrRef spec2 0) (ix2 (row2 t r) k)
  refine congrArg (V c (Pipeline.arrRef spec2 0)) (funext fun a => Fin.ext ?_)
  match a with
  | ⟨0, _⟩ => show win2_0.index t (0 : Fin 2) * 10000 + 1 * r.val = 10000 * t.val + r.val; rw [e0]; omega
  | ⟨1, _⟩ => show win2_0.index t (1 : Fin 2) * 64 + 1 * k.val = k.val; rw [e1]; omega

/-- Window 1's block at point `t`, at row `r`, column `k`: its array at row 10000·t + r, column `k`. -/
theorem iblk2_1_apply (c : Dev nD) (t : Fin cfg2.N) (r : Fin 10000) (k : Fin 64) :
    (iblk2 V c 1 t : Vec F S10000x64 .f32) (ix2 r k) = arr2_1 V c (ix2 (row2 t r) k) := by
  obtain ⟨e0, e1⟩ := (idx_facts2 t).2.1
  show V c (Pipeline.arrRef spec2 1) (((cfg2.win 1).blk t).view.emb (ix2 r k)) = V c (Pipeline.arrRef spec2 1) (ix2 (row2 t r) k)
  refine congrArg (V c (Pipeline.arrRef spec2 1)) (funext fun a => Fin.ext ?_)
  match a with
  | ⟨0, _⟩ => show win2_1.index t (0 : Fin 2) * 10000 + 1 * r.val = 10000 * t.val + r.val; rw [e0]; omega
  | ⟨1, _⟩ => show win2_1.index t (1 : Fin 2) * 64 + 1 * k.val = k.val; rw [e1]; omega

/-- Window 2's block at point `t`, at row `r`, column `k`: its array at row 10000·t + r, column `k`. -/
theorem iblk2_2_apply (c : Dev nD) (t : Fin cfg2.N) (r : Fin 10000) (k : Fin 64) :
    (iblk2 V c 2 t : Vec F S10000x64 .f32) (ix2 r k) = arr2_2 V c (ix2 (row2 t r) k) := by
  obtain ⟨e0, e1⟩ := (idx_facts2 t).2.2.1
  show V c (Pipeline.arrRef spec2 2) (((cfg2.win 2).blk t).view.emb (ix2 r k)) = V c (Pipeline.arrRef spec2 2) (ix2 (row2 t r) k)
  refine congrArg (V c (Pipeline.arrRef spec2 2)) (funext fun a => Fin.ext ?_)
  match a with
  | ⟨0, _⟩ => show win2_2.index t (0 : Fin 2) * 10000 + 1 * r.val = 10000 * t.val + r.val; rw [e0]; omega
  | ⟨1, _⟩ => show win2_2.index t (1 : Fin 2) * 64 + 1 * k.val = k.val; rw [e1]; omega

/-- Window 3's block at point `t`, at row `r`, column `k`: its array at row 10000·t + r, column `k`. -/
theorem iblk2_3_apply (c : Dev nD) (t : Fin cfg2.N) (r : Fin 10000) (k : Fin 64) :
    (iblk2 V c 3 t : Vec F S10000x64 .f32) (ix2 r k) = arr2_3 V c (ix2 (row2 t r) k) := by
  obtain ⟨e0, e1⟩ := (idx_facts2 t).2.2.2.1
  show V c (Pipeline.arrRef spec2 3) (((cfg2.win 3).blk t).view.emb (ix2 r k)) = V c (Pipeline.arrRef spec2 3) (ix2 (row2 t r) k)
  refine congrArg (V c (Pipeline.arrRef spec2 3)) (funext fun a => Fin.ext ?_)
  match a with
  | ⟨0, _⟩ => show win2_3.index t (0 : Fin 2) * 10000 + 1 * r.val = 10000 * t.val + r.val; rw [e0]; omega
  | ⟨1, _⟩ => show win2_3.index t (1 : Fin 2) * 64 + 1 * k.val = k.val; rw [e1]; omega

/-- Window 4's block at any point is its whole 1×64 array. -/
theorem iblk2_4_apply (c : Dev nD) (t : Fin cfg2.N) (k : Fin 64) :
    (iblk2 V c 4 t : Vec F S1x64 .f32) (ix2 (0 : Fin 1) k) = arr2_4 V c (ix2 (0 : Fin 1) k) := by
  obtain ⟨e0, e1⟩ := (idx_facts2 t).2.2.2.2.1
  show V c (Pipeline.arrRef spec2 4) (((cfg2.win 4).blk t).view.emb (ix2 (0 : Fin 1) k)) = V c (Pipeline.arrRef spec2 4) (ix2 (0 : Fin 1) k)
  refine congrArg (V c (Pipeline.arrRef spec2 4)) (funext fun a => Fin.ext ?_)
  match a with
  | ⟨0, _⟩ => show win2_4.index t (0 : Fin 2) * 1 + 1 * (0 : Fin 1).val = (0 : Fin 1).val; rw [e0]; simp
  | ⟨1, _⟩ => show win2_4.index t (1 : Fin 2) * 64 + 1 * k.val = k.val; rw [e1]; omega

/-- Window 5's block at any point is the whole 5×64×64 weight stack. -/
theorem iblk2_5_apply (c : Dev nD) (t : Fin cfg2.N) (s : Fin 5) (a b : Fin 64) :
    (iblk2 V c 5 t : Vec F S5x64x64 .f32) (ix3 s a b) = arr2_5 V c (ix3 s a b) := by
  obtain ⟨e0, e1, e2⟩ := (idx_facts2 t).2.2.2.2.2.1
  show V c (Pipeline.arrRef spec2 5) (((cfg2.win 5).blk t).view.emb (ix3 s a b)) = V c (Pipeline.arrRef spec2 5) (ix3 s a b)
  refine congrArg (V c (Pipeline.arrRef spec2 5)) (funext fun d => Fin.ext ?_)
  match d with
  | ⟨0, _⟩ => show win2_5.index t (0 : Fin 3) * 5 + 1 * s.val = s.val; rw [e0]; omega
  | ⟨1, _⟩ => show win2_5.index t (1 : Fin 3) * 64 + 1 * a.val = a.val; rw [e1]; omega
  | ⟨2, _⟩ => show win2_5.index t (2 : Fin 3) * 64 + 1 * b.val = b.val; rw [e2]; omega

/-- Window 6's block at any point is its whole 1×64 array. -/
theorem iblk2_6_apply (c : Dev nD) (t : Fin cfg2.N) (k : Fin 64) :
    (iblk2 V c 6 t : Vec F S1x64 .f32) (ix2 (0 : Fin 1) k) = arr2_6 V c (ix2 (0 : Fin 1) k) := by
  obtain ⟨e0, e1⟩ := (idx_facts2 t).2.2.2.2.2.2.1
  show V c (Pipeline.arrRef spec2 6) (((cfg2.win 6).blk t).view.emb (ix2 (0 : Fin 1) k)) = V c (Pipeline.arrRef spec2 6) (ix2 (0 : Fin 1) k)
  refine congrArg (V c (Pipeline.arrRef spec2 6)) (funext fun a => Fin.ext ?_)
  match a with
  | ⟨0, _⟩ => show win2_6.index t (0 : Fin 2) * 1 + 1 * (0 : Fin 1).val = (0 : Fin 1).val; rw [e0]; simp
  | ⟨1, _⟩ => show win2_6.index t (1 : Fin 2) * 64 + 1 * k.val = k.val; rw [e1]; omega

end Blocks

/-! ## A slab of a loaded weight stack -/

/-- The body's load of slab `k` of the weight stack's staging buffer, at (0, a, b): the buffer at (k, a, b). -/
theorem eslabLd2_apply {Val : EltTy → Type} {e : EltTy} (x5 : S5x64x64.Idx → Val e) (k : ℕ) (hk : k < 5)
    (inb : ∀ d, (![k, 0, 0] : Fin 3 → Nat) d + S1x64x64.size d ≤ S5x64x64.size d) (a b : Fin 64) :
    View.ld x5 (Rect.unit (s := S5x64x64) ![k, 0, 0] S1x64x64.size inb) (ix3 (0 : Fin 1) a b) = x5 (ix3 (⟨k, hk⟩ : Fin 5) a b) :=
  congrArg x5 (funext fun d => Fin.ext (by
    match d with
    | ⟨0, _⟩ => show k + 1 * (0 : Fin 1).val = k; simp
    | ⟨1, _⟩ => show 0 + 1 * a.val = a.val; omega
    | ⟨2, _⟩ => show 0 + 1 * b.val = b.val; omega))

end Cert.KernelIdeal.Hand

end
-- ==== Proof.KI.E2.ValuePiecesS.lean ====
/- The edge kernel at the pipeline `cfg2`: what each case of its body leaves in output 7's block, in output 8's block and
   in the carried scratch, as the body's payloads of the point's input blocks. Every buffer is filled by one store of its
   whole extent (the scratch at the first point by two, the later covering), so the pieces the run found read back as the
   stored payload; the loads read whole staging buffers, except the five 1×64×64 slabs of the stack of weight matrices. -/
import proofs.«108204_j49847390437921_1_alg».proof.Proof.KI.E2.Body
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable {F : FTy → Type} [FloatOps F]

theorem hzE2 : (![0, 0] : Fin 2 → Nat) = fun _ => 0 := funext fun a => by fin_cases a <;> rfl

/-- Slab `k` of the loaded 5×64×64 stack of weight matrices: the rectangle of extent 1×64×64 at offset (`k`, 0, 0). -/
abbrev eslab2_0 (x5 : Vec F S5x64x64 .f32) : Vec F S1x64x64 .f32 := View.ld x5 (Rect.unit (s := S5x64x64) ![0, 0, 0] S1x64x64.size inb_S5x64x64_S1x64x64_0_0_0)
abbrev eslab2_1 (x5 : Vec F S5x64x64 .f32) : Vec F S1x64x64 .f32 := View.ld x5 (Rect.unit (s := S5x64x64) ![1, 0, 0] S1x64x64.size inb_S5x64x64_S1x64x64_1_0_0)
abbrev eslab2_2 (x5 : Vec F S5x64x64 .f32) : Vec F S1x64x64 .f32 := View.ld x5 (Rect.unit (s := S5x64x64) ![2, 0, 0] S1x64x64.size inb_S5x64x64_S1x64x64_2_0_0)
abbrev eslab2_3 (x5 : Vec F S5x64x64 .f32) : Vec F S1x64x64 .f32 := View.ld x5 (Rect.unit (s := S5x64x64) ![3, 0, 0] S1x64x64.size inb_S5x64x64_S1x64x64_3_0_0)
abbrev eslab2_4 (x5 : Vec F S5x64x64 .f32) : Vec F S1x64x64 .f32 := View.ld x5 (Rect.unit (s := S5x64x64) ![4, 0, 0] S1x64x64.size inb_S5x64x64_S1x64x64_4_0_0)

/-- The four bond-wise products summed, from a point's input blocks: the four row blocks against slabs 0, 1, 2, 3. -/
abbrev esum2 (x0 x1 x2 x3 : Vec F S10000x64 .f32) (x5 : Vec F S5x64x64 .f32) : FVec F S10000x64 .f32 :=
  k2_pay5 x0 x1 x2 x3 (eslab2_0 x5) (eslab2_1 x5) (eslab2_2 x5) (eslab2_3 x5)

/-- OUTPUT 7'S BLOCK from a point's input blocks: the summed products, plus the global row against slab 4 and the bias
    row broadcast down the rows, clamped at zero. -/
abbrev eblk2 (x0 x1 x2 x3 : Vec F S10000x64 .f32) (x4 : Vec F S1x64 .f32) (x5 : Vec F S5x64x64 .f32) (x6 : Vec F S1x64 .f32) : FVec F S10000x64 .f32 :=
  k2_pay1 (k2_pay4 x4) (esum2 x0 x1 x2 x3 x5) (eslab2_4 x5) x6

/-- THE SCRATCH'S UPDATE from a point's input blocks and what the scratch held (`v40`): that, plus the column sums of
    output 7's block. -/
abbrev escr2 (x0 x1 x2 x3 : Vec F S10000x64 .f32) (x4 : Vec F S1x64 .f32) (x5 : Vec F S5x64x64 .f32) (x6 : Vec F S1x64 .f32) (v40 : Vec F S1x64 .f32) : FVec F S1x64 .f32 :=
  k2_pay2 (k2_pay4 x4) (esum2 x0 x1 x2 x3 x5) (eslab2_4 x5) x6 v40

/-! ## Output 7: the update's block, at every point -/

/-- At the first point output 7's staging buffer is left at the update's block. -/
theorem out2_A_7_eq (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) :
    out2_A_7 c i arg1 harg1 arg2 harg2 arg3 harg3 arg4 harg4 arg5 harg5 arg6 harg6 arg7 harg7 arg8 harg8 arg9 harg9 arg10 harg10 hc0 hc1 x0 x1 x2 x3 x4 x5 x6 = eblk2 x0 x1 x2 x3 x4 x5 x6 := by
  unfold out2_A_7
  rw [View.read_writes_eq_canon _ _ _ (cover2_A_7 c i arg1 harg1 arg2 harg2 arg3 harg3 arg4 harg4 arg5 harg5 arg6 harg6 arg7 harg7 arg8 harg8 arg9 harg9 arg10 harg10 hc0 hc1 x0 x1 x2 x3 x4 x5 x6)]
  unfold kernelRun2_A
  dsimp only
  sl_unfold_words
  rw [View.canon_unit_zero hzE2]
  simp only [View.readAt_eq_ld, harg1.read_unread, harg2.read_unread, harg3.read_unread, harg4.read_unread, harg5.read_unread, harg6.read_unread, harg7.read_unread, harg10.read_unread, View.ld_unit_zero (S := S10000x64) hzE2, View.ld_unit_zero (S := S1x64) hzE2, View.readCov_unit_zero (S := S1x64) _ hzE2]

/-- At a middle point output 7's staging buffer is left at the update's block. -/
theorem out2_B_7_eq (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    out2_B_7 c i arg1 harg1 arg2 harg2 arg3 harg3 arg4 harg4 arg5 harg5 arg6 harg6 arg7 harg7 arg8 harg8 arg9 harg9 arg10 harg10 hc0 hc1 x0 x1 x2 x3 x4 x5 x6 xs0 = eblk2 x0 x1 x2 x3 x4 x5 x6 := by
  unfold out2_B_7
  rw [View.read_writes_eq_canon _ _ _ (cover2_B_7 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun2_B
  dsimp only
  sl_unfold_words
  rw [View.canon_unit_zero hzE2]
  simp only [View.readAt_eq_ld, harg1.read_unread, harg2.read_unread, harg3.read_unread, harg4.read_unread, harg5.read_unread, harg6.read_unread, harg7.read_unread, harg10.read_unread, View.ld_unit_zero (S := S10000x64) hzE2, View.ld_unit_zero (S := S1x64) hzE2, View.readCov_unit_zero (S := S1x64) _ hzE2]

/-- At the last point output 7's staging buffer is left at the update's block. -/
theorem out2_C_7_eq (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    out2_C_7 c i arg1 harg1 arg2 harg2 arg3 harg3 arg4 harg4 arg5 harg5 arg6 harg6 arg7 harg7 arg8 harg8 arg9 harg9 arg10 harg10 hc0 hc1 x0 x1 x2 x3 x4 x5 x6 xs0 = eblk2 x0 x1 x2 x3 x4 x5 x6 := by
  unfold out2_C_7
  rw [View.read_writes_eq_canon _ _ _ (cover2_C_7 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun2_C
  dsimp only
  sl_unfold_words
  rw [View.canon_unit_zero hzE2]
  simp only [View.readAt_eq_ld, harg1.read_unread, harg2.read_unread, harg3.read_unread, harg4.read_unread, harg5.read_unread, harg6.read_unread, harg7.read_unread, harg10.read_unread, View.ld_unit_zero (S := S10000x64) hzE2, View.ld_unit_zero (S := S1x64) hzE2, View.readCov_unit_zero (S := S1x64) _ hzE2]

/-! ## The scratch: the column sums carried from point to point -/

/-- At the first point the scratch is reset to the zero row, read back, and left at that plus the block's column sums. -/
theorem sout2_A_0_eq (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) :
    sout2_A_0 c i arg1 harg1 arg2 harg2 arg3 harg3 arg4 harg4 arg5 harg5 arg6 harg6 arg7 harg7 arg8 harg8 arg9 harg9 arg10 harg10 hc0 hc1 x0 x1 x2 x3 x4 x5 x6 = escr2 x0 x1 x2 x3 x4 x5 x6 (k2_pay3 (F := F)) := by
  unfold sout2_A_0
  rw [View.read_writes_eq_canon _ _ _ (scover2_A_0 c i arg1 harg1 arg2 harg2 arg3 harg3 arg4 harg4 arg5 harg5 arg6 harg6 arg7 harg7 arg8 harg8 arg9 harg9 arg10 harg10 hc0 hc1 x0 x1 x2 x3 x4 x5 x6)]
  unfold kernelRun2_A
  dsimp only
  sl_unfold_words
  rw [View.canon_cons_unit_zero (S := S1x64) hzE2]
  simp only [View.readAt_eq_ld, harg1.read_unread, harg2.read_unread, harg3.read_unread, harg4.read_unread, harg5.read_unread, harg6.read_unread, harg7.read_unread, harg10.read_unread, View.ld_unit_zero (S := S10000x64) hzE2, View.ld_unit_zero (S := S1x64) hzE2, View.readCov_unit_zero (S := S1x64) _ hzE2]

/-- At a middle point the scratch is left at what the point before left plus the block's column sums. -/
theorem sout2_B_0_eq (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : ¬cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    sout2_B_0 c i arg1 harg1 arg2 harg2 arg3 harg3 arg4 harg4 arg5 harg5 arg6 harg6 arg7 harg7 arg8 harg8 arg9 harg9 arg10 harg10 hc0 hc1 x0 x1 x2 x3 x4 x5 x6 xs0 = escr2 x0 x1 x2 x3 x4 x5 x6 xs0 := by
  unfold sout2_B_0
  rw [View.read_writes_eq_canon _ _ _ (scover2_B_0 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun2_B
  dsimp only
  sl_unfold_words
  rw [View.canon_unit_zero hzE2]
  simp only [View.readAt_eq_ld, harg1.read_unread, harg2.read_unread, harg3.read_unread, harg4.read_unread, harg5.read_unread, harg6.read_unread, harg7.read_unread, harg10.read_unread, View.ld_unit_zero (S := S10000x64) hzE2, View.ld_unit_zero (S := S1x64) hzE2, View.readCov_unit_zero (S := S1x64) _ hzE2]

/-- At the last point the scratch is left at what the point before left plus the block's column sums. -/
theorem sout2_C_0_eq (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    sout2_C_0 c i arg1 harg1 arg2 harg2 arg3 harg3 arg4 harg4 arg5 harg5 arg6 harg6 arg7 harg7 arg8 harg8 arg9 harg9 arg10 harg10 hc0 hc1 x0 x1 x2 x3 x4 x5 x6 xs0 = escr2 x0 x1 x2 x3 x4 x5 x6 xs0 := by
  unfold sout2_C_0
  rw [View.read_writes_eq_canon _ _ _ (scover2_C_0 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun2_C
  dsimp only
  sl_unfold_words
  rw [View.canon_unit_zero hzE2]
  simp only [View.readAt_eq_ld, harg1.read_unread, harg2.read_unread, harg3.read_unread, harg4.read_unread, harg5.read_unread, harg6.read_unread, harg7.read_unread, harg10.read_unread, View.ld_unit_zero (S := S10000x64) hzE2, View.ld_unit_zero (S := S1x64) hzE2, View.readCov_unit_zero (S := S1x64) _ hzE2]

/-! ## Output 8: the scratch stored at the last point -/

/-- At the last point output 8's staging buffer is left at the scratch's new contents, read back after its store. -/
theorem out2_C_8_eq (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond2_0 i) (hc1 : cond2_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    out2_C_8 c i arg1 harg1 arg2 harg2 arg3 harg3 arg4 harg4 arg5 harg5 arg6 harg6 arg7 harg7 arg8 harg8 arg9 harg9 arg10 harg10 hc0 hc1 x0 x1 x2 x3 x4 x5 x6 xs0 = escr2 x0 x1 x2 x3 x4 x5 x6 xs0 := by
  unfold out2_C_8
  rw [View.read_writes_eq_canon _ _ _ (cover2_C_8 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun2_C
  dsimp only
  sl_unfold_words
  rw [View.canon_unit_zero hzE2]
  simp only [View.readAt_eq_ld, harg1.read_unread, harg2.read_unread, harg3.read_unread, harg4.read_unread, harg5.read_unread, harg6.read_unread, harg7.read_unread, harg10.read_unread, View.ld_unit_zero (S := S10000x64) hzE2, View.ld_unit_zero (S := S1x64) hzE2, View.readCov_unit_zero (S := S1x64) _ hzE2]

end Cert.KernelIdeal.Hand

end
-- ==== Proof.KI.E2.ValuePay.lean ====
/- The edge kernel's payloads at the pipeline `cfg2`, read at an index at the ideal values: the four block matmuls summed
   (`k2_pay5`), the global row passed through (`k2_pay4`), the block's update — the sum, plus the global row's matmul
   and the bias broadcast down the rows, clamped at zero (`k2_pay1`) —, the scratch's update by the block's column sums
   (`k2_pay2`) and its reset (`k2_pay3`). Each is stated over variables of the literal vector types. -/
import proofs.«108204_j49847390437921_1_alg».proof.Proof.Gen.KernelIdeal.Skeleton
import proofs.«108204_j49847390437921_1_alg».proof.Proof.KI.ValueMM

noncomputable section

namespace Cert.KernelIdeal.Hand

open Cert.KernelIdeal Cert.KernelIdeal.Gen
open Idealize.ShloMosaic Idealize.ShloMosaic.ValueIdx

/-- The sum of the four block matmuls at row `r`, column `j`: four sums over the contracted coordinate, added first to last. -/
theorem k2_pay5_apply (v3 v5 v7 v9 : Vec Ideal S10000x64 .f32) (v13 v16 v20 v24 : Vec Ideal S1x64x64 .f32) (r : Fin 10000) (j : Fin 64) :
    k2_pay5 v3 v5 v7 v9 v13 v16 v20 v24 (ix2 r j)
      = (∑ k : Fin 64, v3 (ix2 r k) * v13 (ix3 (0 : Fin 1) k j)) + (∑ k : Fin 64, v5 (ix2 r k) * v16 (ix3 (0 : Fin 1) k j))
        + (∑ k : Fin 64, v7 (ix2 r k) * v20 (ix3 (0 : Fin 1) k j)) + (∑ k : Fin 64, v9 (ix2 r k) * v24 (ix3 (0 : Fin 1) k j)) := by
  unfold k2_pay5
  simp only [addf_apply, mmBlk_apply, shapeCast_self, slabCast_apply]

/-- The global row is passed on as loaded. -/
theorem k2_pay4_eq {F : FTy → Type} [FloatOps F] (v11 : Vec F S1x64 .f32) : k2_pay4 v11 = v11 := by
  unfold k2_pay4
  exact shapeCast_self _ _

/-- The block's update at row `r`, column `j`: what the matmuls left there, plus the global row's matmul at `j`, plus the
    bias at `j`, clamped at zero. -/
theorem k2_pay1_apply (v12 : FVec Ideal S1x64 .f32) (v27 : FVec Ideal S10000x64 .f32) (v28 : Vec Ideal S1x64x64 .f32) (v33 : Vec Ideal S1x64 .f32)
    (r : Fin 10000) (j : Fin 64) :
    k2_pay1 v12 v27 v28 v33 (ix2 r j)
      = max (v27 (ix2 r j) + (∑ k : Fin 64, v12 (ix2 (0 : Fin 1) k) * v28 (ix3 (0 : Fin 1) k j)) + v33 (ix2 (0 : Fin 1) j))
          (Ideal.ofBits .f32 0x00000000#32) := by
  unfold k2_pay1
  simp only [maximumf_apply, addf_apply, rowBcast_apply, mmRow_apply, shapeCast_self, slabCast_apply, broadcast_apply]
  rfl

/-- The scratch's update at column `j`: what it held, plus the sum over the block's rows of the block's update. -/
theorem k2_pay2_apply (v12 : FVec Ideal S1x64 .f32) (v27 : FVec Ideal S10000x64 .f32) (v28 : Vec Ideal S1x64x64 .f32) (v33 : Vec Ideal S1x64 .f32)
    (v40 : Vec Ideal S1x64 .f32) (j : Fin 64) :
    k2_pay2 v12 v27 v28 v33 v40 (ix2 (0 : Fin 1) j)
      = v40 (ix2 (0 : Fin 1) j) + ∑ r : Fin 10000, k2_pay1 v12 v27 v28 v33 (ix2 r j) := by
  unfold k2_pay2
  simp only [shapeCast_self, addf_apply, vecRow_apply]
  exact congrArg (v40 (ix2 (0 : Fin 1) j) + ·) (colSum_apply _ _ _ _ j)

/-- The scratch's reset: the zero word everywhere. -/
theorem k2_pay3_apply (i : S1x64.Idx) : k2_pay3 (F := Ideal) i = Ideal.ofBits .f32 0x00000000#32 := by
  unfold k2_pay3
  simp only [shapeCast_self, broadcast_apply]
  rfl

end Cert.KernelIdeal.Hand

end
-- ==== Proof.KI.E2.ValueBlk.lean ====
/- The edge kernel's block at the pipeline `cfg2` against the reference: output 7's block from a point's input blocks, read
   at row `r`, column `j`, is the clamped sum of the five sums over the contracted coordinate and the bias; with the input
   blocks read off the arrays (rows 10000·t + r of the bond arrays, the whole global row, weight stack and bias) this is
   the reference's edge update at row 10000·t + r, column `j`, term for term in the same order of additions. -/
import proofs.«108204_j49847390437921_1_alg».proof.Proof.KI.E2.ValueArr
import proofs.«108204_j49847390437921_1_alg».proof.Proof.KI.E2.ValuePiecesS
import proofs.«108204_j49847390437921_1_alg».proof.Proof.KI.E2.ValuePay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-! ## The loaded slabs at an index -/

theorem eslab2_0_apply (x5 : Vec Ideal S5x64x64 .f32) (a b : Fin 64) : eslab2_0 x5 (ix3 (0 : Fin 1) a b) = x5 (ix3 (0 : Fin 5) a b) :=
  eslabLd2_apply x5 0 (by omega) inb_S5x64x64_S1x64x64_0_0_0 a b
theorem eslab2_1_apply (x5 : Vec Ideal S5x64x64 .f32) (a b : Fin 64) : eslab2_1 x5 (ix3 (0 : Fin 1) a b) = x5 (ix3 (1 : Fin 5) a b) :=
  eslabLd2_apply x5 1 (by omega) inb_S5x64x64_S1x64x64_1_0_0 a b
theorem eslab2_2_apply (x5 : Vec Ideal S5x64x64 .f32) (a b : Fin 64) : eslab2_2 x5 (ix3 (0 : Fin 1) a b) = x5 (ix3 (2 : Fin 5) a b) :=
  eslabLd2_apply x5 2 (by omega) inb_S5x64x64_S1x64x64_2_0_0 a b
theorem eslab2_3_apply (x5 : Vec Ideal S5x64x64 .f32) (a b : Fin 64) : eslab2_3 x5 (ix3 (0 : Fin 1) a b) = x5 (ix3 (3 : Fin 5) a b) :=
  eslabLd2_apply x5 3 (by omega) inb_S5x64x64_S1x64x64_3_0_0 a b
theorem eslab2_4_apply (x5 : Vec Ideal S5x64x64 .f32) (a b : Fin 64) : eslab2_4 x5 (ix3 (0 : Fin 1) a b) = x5 (ix3 (4 : Fin 5) a b) :=
  eslabLd2_apply x5 4 (by omega) inb_S5x64x64_S1x64x64_4_0_0 a b

/-! ## Output 7's block at an index -/

/-- The block's update over any five 1×64×64 slabs that read as slabs 0 … 4 of a weight stack `x5`, at row `r`, column `j`. -/
theorem eblk2_core (x0 x1 x2 x3 : Vec Ideal S10000x64 .f32) (x4 : Vec Ideal S1x64 .f32) (x5 : Vec Ideal S5x64x64 .f32) (x6 : Vec Ideal S1x64 .f32)
    (w0 w1 w2 w3 w4 : Vec Ideal S1x64x64 .f32)
    (hw0 : ∀ a b : Fin 64, w0 (ix3 (0 : Fin 1) a b) = x5 (ix3 (0 : Fin 5) a b))
    (hw1 : ∀ a b : Fin 64, w1 (ix3 (0 : Fin 1) a b) = x5 (ix3 (1 : Fin 5) a b))
    (hw2 : ∀ a b : Fin 64, w2 (ix3 (0 : Fin 1) a b) = x5 (ix3 (2 : Fin 5) a b))
    (hw3 : ∀ a b : Fin 64, w3 (ix3 (0 : Fin 1) a b) = x5 (ix3 (3 : Fin 5) a b))
    (hw4 : ∀ a b : Fin 64, w4 (ix3 (0 : Fin 1) a b) = x5 (ix3 (4 : Fin 5) a b))
    (r : Fin 10000) (j : Fin 64) :
    k2_pay1 (k2_pay4 x4) (k2_pay5 x0 x1 x2 x3 w0 w1 w2 w3) w4 x6 (ix2 r j)
      = max ((∑ k : Fin 64, x0 (ix2 r k) * x5 (ix3 (0 : Fin 5) k j)) + (∑ k : Fin 64, x1 (ix2 r k) * x5 (ix3 (1 : Fin 5) k j))
          + (∑ k : Fin 64, x2 (ix2 r k) * x5 (ix3 (2 : Fin 5) k j)) + (∑ k : Fin 64, x3 (ix2 r k) * x5 (ix3 (3 : Fin 5) k j))
          + (∑ k : Fin 64, x4 (ix2 (0 : Fin 1) k) * x5 (ix3 (4 : Fin 5) k j)) + x6 (ix2 (0 : Fin 1) j))
          (Ideal.ofBits .f32 0x00000000#32) := by
  rw [k2_pay1_apply, k2_pay5_apply, k2_pay4_eq]
  simp only [hw0, hw1, hw2, hw3, hw4]

/-- Output 7's block from a point's input blocks, at row `r`, column `j`. -/
theorem eblk2_apply (x0 x1 x2 x3 : Vec Ideal S10000x64 .f32) (x4 : Vec Ideal S1x64 .f32) (x5 : Vec Ideal S5x64x64 .f32) (x6 : Vec Ideal S1x64 .f32)
    (r : Fin 10000) (j : Fin 64) :
    eblk2 x0 x1 x2 x3 x4 x5 x6 (ix2 r j)
      = max ((∑ k : Fin 64, x0 (ix2 r k) * x5 (ix3 (0 : Fin 5) k j)) + (∑ k : Fin 64, x1 (ix2 r k) * x5 (ix3 (1 : Fin 5) k j))
          + (∑ k : Fin 64, x2 (ix2 r k) * x5 (ix3 (2 : Fin 5) k j)) + (∑ k : Fin 64, x3 (ix2 r k) * x5 (ix3 (3 : Fin 5) k j))
          + (∑ k : Fin 64, x4 (ix2 (0 : Fin 1) k) * x5 (ix3 (4 : Fin 5) k j)) + x6 (ix2 (0 : Fin 1) j))
          (Ideal.ofBits .f32 0x00000000#32) :=
  eblk2_core x0 x1 x2 x3 x4 x5 x6 (eslab2_0 x5) (eslab2_1 x5) (eslab2_2 x5) (eslab2_3 x5) (eslab2_4 x5)
    (eslab2_0_apply x5) (eslab2_1_apply x5) (eslab2_2_apply x5) (eslab2_3_apply x5) (eslab2_4_apply x5) r j

/-- Over any blocks and arrays: if row `r` of the four bond blocks is row `R` of the bond arrays, and the global row, the
    weight stack and the bias row are the arrays', then output 7's block at row `r`, column `j` is the reference's edge
    update at row `R`, column `j` — the same five sums and bias, added in the same order, clamped at the same zero. -/
theorem eblk2_eq_edge1 (x0 x1 x2 x3 : Vec Ideal S10000x64 .f32) (x4 : Vec Ideal S1x64 .f32) (x5 : Vec Ideal S5x64x64 .f32) (x6 : Vec Ideal S1x64 .f32)
    (he he0 hl hr : Cert.Spec.Arr Ideal Cert.ReferenceIdeal.S800000x64 .f32) (hu : Cert.Spec.Arr Ideal Cert.ReferenceIdeal.S1x64 .f32)
    (We : Cert.Spec.Arr Ideal Cert.ReferenceIdeal.S5x64x64 .f32) (be1 : Cert.Spec.Arr Ideal Cert.ReferenceIdeal.S1x64 .f32)
    (r : Fin 10000) (R : Fin 800000) (j : Fin 64)
    (h0 : ∀ k : Fin 64, x0 (ix2 r k) = he (ix2 R k)) (h1 : ∀ k : Fin 64, x1 (ix2 r k) = he0 (ix2 R k))
    (h2 : ∀ k : Fin 64, x2 (ix2 r k) = hl (ix2 R k)) (h3 : ∀ k : Fin 64, x3 (ix2 r k) = hr (ix2 R k))
    (h4 : ∀ k : Fin 64, x4 (ix2 (0 : Fin 1) k) = hu (ix2 (0 : Fin 1) k))
    (h5 : ∀ (s : Fin 5) (a b : Fin 64), x5 (ix3 s a b) = We (ix3 s a b))
    (h6 : ∀ k : Fin 64, x6 (ix2 (0 : Fin 1) k) = be1 (ix2 (0 : Fin 1) k)) :
    eblk2 x0 x1 x2 x3 x4 x5 x6 (ix2 r j) = Cert.Spec.edge1 he he0 hl hr hu We be1 (ix2 R j) := by
  rw [eblk2_apply, Cert.Spec.edge1_apply]
  simp only [h0, h1, h2, h3, h4, h5, h6]

/-- OUTPUT 7'S BLOCK IS THE REFERENCE'S: from the input blocks of point `t`, at row `r`, column `j`, it is the reference's
    edge update of the region's arrays at row 10000·t + r, column `j`. -/
theorem eblk2_block2 (V : (c : Dev nD) → (b : Ref sig .tc) → Buf (Elt Ideal) ((c : Thread nD τ).loc b)) (c : Dev nD)
    (t : Fin cfg2.N) (r : Fin 10000) (j : Fin 64) :
    eblk2 (F := Ideal) (iblk2 V c 0 t) (iblk2 V c 1 t) (iblk2 V c 2 t) (iblk2 V c 3 t) (iblk2 V c 4 t) (iblk2 V c 5 t) (iblk2 V c 6 t) (ix2 r j)
      = Cert.Spec.edge1 (arr2_0 V c) (arr2_1 V c) (arr2_2 V c) (arr2_3 V c) (arr2_4 V c) (arr2_5 V c) (arr2_6 V c) (ix2 (row2 t r) j) :=
  eblk2_eq_edge1 (iblk2 V c 0 t) (iblk2 V c 1 t) (iblk2 V c 2 t) (iblk2 V c 3 t) (iblk2 V c 4 t) (iblk2 V c 5 t) (iblk2 V c 6 t)
    (arr2_0 V c) (arr2_1 V c) (arr2_2 V c) (arr2_3 V c) (arr2_4 V c) (arr2_5 V c) (arr2_6 V c) r (row2 t r) j
    (fun k => iblk2_0_apply V c t r k) (fun k => iblk2_1_apply V c t r k) (fun k => iblk2_2_apply V c t r k) (fun k => iblk2_3_apply V c t r k)
    (fun k => iblk2_4_apply V c t k) (fun s a b => iblk2_5_apply V c t s a b) (fun k => iblk2_6_apply V c t k)

end Cert.KernelIdeal.Hand

end
-- ==== Proof.KI.E2.ValueCover.lean ====
/- This region's first output array, 800000 rows of 64: every index of it lies in the block some point writes back. Point `t`
   writes rows `10000·t … 10000·t + 9999`, all 64 columns; the 80 blocks tile the rows, row `R` lying in block `R / 10000`. -/
import proofs.«108204_j49847390437921_1_alg».proof.Proof.Gen.KernelIdeal.Points
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

/-- Output 7's index map, decided over the 80 points: block `t` of the rows, the one block of the columns. -/
theorem idx_rows2_7 : ∀ t : Fin cfg2.N, win2_7.index t (0 : Fin 2) = t.val ∧ win2_7.index t (1 : Fin 2) = 0 :=
  (by decide +kernel : ∀ t : Fin grid2.N, _)

/-- An index of the array is in point `t`'s block iff each coordinate is in the block's range on its axis. -/
theorem mem_blk2_7 (t : Fin cfg2.N) (i : S800000x64.Idx) :
    i ∈ ((cfg2.win 7).blk t).view.set ↔ ∀ a : Fin 2, win2_7.index t a * S10000x64.size a ≤ (i a).val ∧ (i a).val < win2_7.index t a * S10000x64.size a + S10000x64.size a := by
  show i ∈ ((View.whole (Pipeline.arrRef spec2 7)).slice (win2_7.rect t)).set ↔ _
  rw [View.set_slice_whole, Rect.mem_set_unit]
  exact Iff.rfl

/-- Every index of the array is in some point's block, and every point writes its block back: row `R` is in the block
    of point `R / 10000`. -/
theorem cover2_7 : ∀ i : S800000x64.Idx, ∃ t : Fin cfg2.N, (cfg2.win 7).flush t = true ∧ i ∈ ((cfg2.win 7).blk t).view.set := by
  intro i
  have hi0 : (i 0).val < 800000 := (i 0).isLt
  have hi1 : (i 1).val < 64 := (i 1).isLt
  have hN : cfg2.N = 80 := by decide
  obtain ⟨t, ht⟩ : ∃ t : Fin cfg2.N, t.val = (i 0).val / 10000 := ⟨⟨(i 0).val / 10000, by omega⟩, rfl⟩
  obtain ⟨e0, e1⟩ := idx_rows2_7 t
  refine ⟨t, flush2_7 t, ?_⟩
  rw [mem_blk2_7]
  intro a
  match a with
  | ⟨0, _⟩ =>
    show win2_7.index t (0 : Fin 2) * 10000 ≤ (i 0).val ∧ (i 0).val < win2_7.index t (0 : Fin 2) * 10000 + 10000
    rw [e0]; omega
  | ⟨1, _⟩ =>
    show win2_7.index t (1 : Fin 2) * 64 ≤ (i 1).val ∧ (i 1).val < win2_7.index t (1 : Fin 2) * 64 + 64
    rw [e1]; omega

end Cert.KernelIdeal.Hand

end
-- ==== Proof.KI.E2.ValueOut.lean ====
/- The edge kernel's first output at the pipeline `cfg2` is the reference's edge update: after every point output 7's staging
   buffer holds the update's block of that point's input blocks (whichever case the point is in), which is rows
   10000·t … 10000·t + 9999 of the reference's edge update of the region's arrays; every point writes its block back, the 80
   blocks tile the 800000 rows (the cover, proved apart), so the array ends holding the edge update. -/
import proofs.«108204_j49847390437921_1_alg».proof.Proof.KI.E2.ValueBlk
import proofs.«108204_j49847390437921_1_alg».proof.Proof.KI.E2.ValueCover

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-! ## Output 7's staging buffer after each point -/

/-- After point `t`, in each of the three cases, output 7's staging buffer holds the update's block of the point's input blocks. -/
theorem out7_eq2 (V : (c : Dev nD) → (b : Ref sig .tc) → Buf (Elt F) ((c : Thread nD τ).loc b)) (c : Dev nD) (t : Fin cfg2.N) :
    (outsAt2 V c t.val t.isLt).1 = eblk2 (iblk2 V c 0 t) (iblk2 V c 1 t) (iblk2 V c 2 t) (iblk2 V c 3 t) (iblk2 V c 4 t) (iblk2 V c 5 t) (iblk2 V c 6 t) := by
  have hN : t.val < 80 := lt_of_lt_of_eq t.isLt (show cfg2.N = 80 from N_2)
  by_cases h0 : t.val % 80 = 0
  · have h1 : ¬t.val % 80 = 79 := by omega
    rw [outsAt2_A V c t h0 h1]
    dsimp only
    exact out2_A_7_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)
  · by_cases h1 : t.val % 80 = 79
    · rw [outsAt2_C V c t h0 h1]
      dsimp only
      exact out2_C_7_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2
    · rw [outsAt2_B V c t h0 h1]
      dsimp only
      exact out2_B_7_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2

section Region2

variable (q : Fin cfg2.W → PosShare TreeShare)
variable (V : (c : Dev nD) → (b : Ref sig .tc) → Buf (Elt Ideal) ((c : Thread nD τ).loc b))

/-- OUTPUT 7'S BUFFER AFTER POINT `t`, at row `r`, column `j`: the reference's edge update at row 10000·t + r, column `j`. -/
theorem out7_block2 (c : Dev nD) (t : Fin cfg2.N) (r : Fin 10000) (j : Fin 64) :
    (outsAt2 (F := Ideal) V c t.val t.isLt).1 (ix2 r j) = Cert.Spec.edge1 (arr2_0 V c) (arr2_1 V c) (arr2_2 V c) (arr2_3 V c) (arr2_4 V c) (arr2_5 V c) (arr2_6 V c) (ix2 (row2 t r) j) :=
  (congrFun (out7_eq2 V c t) (ix2 r j)).trans (eblk2_block2 V c t r j)

/-! ## What each point writes back -/

/-- Point `t` writes back block `t` of the reference's edge update. -/
theorem flushed2_7_eq (c : Dev nD) (t : Fin cfg2.N) :
    (dat2 (F := Ideal) q V c).flushed 7 t
      = ((cfg2.win 7).blk t).view.read (Elt Ideal) (Cert.Spec.edge1 (arr2_0 V c) (arr2_1 V c) (arr2_2 V c) (arr2_3 V c) (arr2_4 V c) (arr2_5 V c) (arr2_6 V c)) := by
  show (cfg2.win 7).cut (grid2.coords t) ((dat2 q V c).after 7 t) = _
  rw [after2_7]
  funext y
  show (outsAt2 V c t.val t.isLt).1 y = Cert.Spec.edge1 (arr2_0 V c) (arr2_1 V c) (arr2_2 V c) (arr2_3 V c) (arr2_4 V c) (arr2_5 V c) (arr2_6 V c) (((cfg2.win 7).blk t).view.emb y)
  obtain ⟨r, j, rfl⟩ : ∃ (r : Fin 10000) (j : Fin 64), y = ix2 r j := ⟨y 0, y 1, eq_ix2 y⟩
  obtain ⟨e0, e1⟩ := (idx_facts2 t).2.2.2.2.2.2.2.1
  refine (out7_block2 V c t r j).trans (congrArg (Cert.Spec.edge1 (arr2_0 V c) (arr2_1 V c) (arr2_2 V c) (arr2_3 V c) (arr2_4 V c) (arr2_5 V c) (arr2_6 V c)) (funext fun a => Fin.ext ?_))
  match a with
  | ⟨0, _⟩ => show 10000 * t.val + r.val = win2_7.index t (0 : Fin 2) * 10000 + 1 * r.val; rw [e0]; omega
  | ⟨1, _⟩ => show j.val = win2_7.index t (1 : Fin 2) * 64 + 1 * j.val; rw [e1]; omega

/-! ## The array after the region -/

/-- THE FIRST OUTPUT after the region: the reference's edge update of the arrays the region found. -/
theorem edge_out2 (c : Dev nD) :
    (dat2 (F := Ideal) q V c).arrAt 7 cfg2.N = Cert.Spec.edge1 (arr2_0 V c) (arr2_1 V c) (arr2_2 V c) (arr2_3 V c) (arr2_4 V c) (arr2_5 V c) (arr2_6 V c) :=
  (dat2 q V c).arrAt_eq_of_cover 7 (Cert.Spec.edge1 (arr2_0 V c) (arr2_1 V c) (arr2_2 V c) (arr2_3 V c) (arr2_4 V c) (arr2_5 V c) (arr2_6 V c)) (fun t _ => flushed2_7_eq q V c t) cover2_7

end Region2

end Cert.KernelIdeal.Hand

end
-- ==== Proof.KI.E2.ValueAcc.lean ====
/- The edge kernel at the pipeline `cfg2`, at the ideal values: the scratch the body carries from point to point is the
   running column sum of the blocks it has stored to output 7. After point `n` its entry of column `j` is the zero the
   first point resets it to, plus, point by point up to `n`, the sum over the 10000 rows of that point's block at column
   `j` — by induction on the point, the cases read off the pieces each leaves. -/
import proofs.«108204_j49847390437921_1_alg».proof.Proof.KI.E2.ValuePiecesS
import proofs.«108204_j49847390437921_1_alg».proof.Proof.KI.E2.ValuePay

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

/-- The scratch's update at column `j`, over a point's input blocks: what the scratch held there, plus the sum over the
    rows of output 7's block at that column. -/
theorem escr2_apply (x0 x1 x2 x3 : Vec Ideal S10000x64 .f32) (x4 : Vec Ideal S1x64 .f32) (x5 : Vec Ideal S5x64x64 .f32) (x6 : Vec Ideal S1x64 .f32)
    (v40 : Vec Ideal S1x64 .f32) (j : Fin 64) :
    escr2 x0 x1 x2 x3 x4 x5 x6 v40 (ix2 (0 : Fin 1) j)
      = v40 (ix2 (0 : Fin 1) j) + ∑ r : Fin 10000, eblk2 x0 x1 x2 x3 x4 x5 x6 (ix2 r j) :=
  k2_pay2_apply (k2_pay4 x4) (esum2 x0 x1 x2 x3 x5) (eslab2_4 x5) x6 v40 j

section Region2

variable (V : (c : Dev nD) → (b : Ref sig .tc) → Buf (Elt Ideal) ((c : Thread nD τ).loc b))

/-- OUTPUT 7'S BLOCK AT POINT `s`, from the arrays as the region finds them: the update's block of the point's input blocks. -/
abbrev eblkAt2 (c : Dev nD) (s : Fin cfg2.N) : FVec Ideal S10000x64 .f32 :=
  eblk2 (iblk2 V c 0 s) (iblk2 V c 1 s) (iblk2 V c 2 s) (iblk2 V c 3 s) (iblk2 V c 4 s) (iblk2 V c 5 s) (iblk2 V c 6 s)

/-- The column sum of point `s`'s block at column `j` (zero past the grid's 80 points). -/
def colN2 (c : Dev nD) (s : ℕ) (j : Fin 64) : Ideal .f32 :=
  if h : s < cfg2.N then ∑ r : Fin 10000, eblkAt2 V c ⟨s, h⟩ (ix2 r j) else 0

theorem colN2_of_lt (c : Dev nD) (s : ℕ) (h : s < cfg2.N) (j : Fin 64) :
    colN2 V c s j = ∑ r : Fin 10000, eblkAt2 V c ⟨s, h⟩ (ix2 r j) := dif_pos h

/-- THE RUNNING COLUMN SUM. After point `n` the carried scratch holds, at column `j`, the zero of the reset plus the column
    sums of the blocks of points 0 … `n`, added in point order. -/
theorem scratch_acc2 (c : Dev nD) (j : Fin 64) : ∀ (n : ℕ) (hn : n < cfg2.N),
    (outsAt2 (F := Ideal) V c n hn).2.2 (ix2 (0 : Fin 1) j)
      = Ideal.ofBits .f32 0x00000000#32 + ∑ s ∈ Finset.range (n + 1), colN2 V c s j
  | 0, hn => by
    have h0 : (⟨0, hn⟩ : Fin cfg2.N).val % 80 = 0 := Nat.zero_mod _
    have h1 : ¬(⟨0, hn⟩ : Fin cfg2.N).val % 80 = 79 := by dsimp only; omega
    rw [outsAt2_A V c ⟨0, hn⟩ h0 h1]
    dsimp only
    refine (congrFun (sout2_A_0_eq (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩)) (ix2 (0 : Fin 1) j)).trans ?_
    refine (escr2_apply (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (k2_pay3 (F := Ideal)) j).trans ?_
    rw [k2_pay3_apply, Finset.sum_range_one, colN2_of_lt V c 0 hn j]
  | n + 1, hn => by
    have ih := scratch_acc2 c j n (Nat.lt_of_succ_lt hn)
    have hN : cfg2.N = 80 := N_2
    have h0 : ¬(⟨n + 1, hn⟩ : Fin cfg2.N).val % 80 = 0 := by dsimp only; omega
    by_cases h1 : (⟨n + 1, hn⟩ : Fin cfg2.N).val % 80 = 79
    ·
      rw [outsAt2_C V c ⟨n + 1, hn⟩ h0 h1]
      dsimp only
      refine (congrFun (sout2_C_0_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 V c ((⟨n + 1, hn⟩ : Fin cfg2.N).val - 1) (Nat.lt_of_le_of_lt (Nat.sub_le _ _) (⟨n + 1, hn⟩ : Fin cfg2.N).isLt)).2.2) (ix2 (0 : Fin 1) j)).trans ?_
      refine (escr2_apply (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 V c ((⟨n + 1, hn⟩ : Fin cfg2.N).val - 1) (Nat.lt_of_le_of_lt (Nat.sub_le _ _) (⟨n + 1, hn⟩ : Fin cfg2.N).isLt)).2.2 j).trans ?_
      rw [Finset.sum_range_succ, colN2_of_lt V c (n + 1) hn j, ← add_assoc]
      exact congrArg (· + _) ih
    ·
      rw [outsAt2_B V c ⟨n + 1, hn⟩ h0 h1]
      dsimp only
      refine (congrFun (sout2_B_0_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 V c ((⟨n + 1, hn⟩ : Fin cfg2.N).val - 1) (Nat.lt_of_le_of_lt (Nat.sub_le _ _) (⟨n + 1, hn⟩ : Fin cfg2.N).isLt)).2.2) (ix2 (0 : Fin 1) j)).trans ?_
      refine (escr2_apply (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 V c ((⟨n + 1, hn⟩ : Fin cfg2.N).val - 1) (Nat.lt_of_le_of_lt (Nat.sub_le _ _) (⟨n + 1, hn⟩ : Fin cfg2.N).isLt)).2.2 j).trans ?_
      rw [Finset.sum_range_succ, colN2_of_lt V c (n + 1) hn j, ← add_assoc]
      exact congrArg (· + _) ih

end Region2

end Cert.KernelIdeal.Hand

end
-- ==== Proof.KI.E2.ValueSum.lean ====
/- The edge kernel at the pipeline `cfg2`, at the ideal values: its second result. Output 8's one block is the whole 1×64
   array and is written back once, after the last of the 80 points, holding what the carried scratch then holds: the zero
   of the reset plus the 80 blocks' column sums in point order. The blocks of output 7 are the 80 consecutive runs of
   10000 rows of the reference's bond update, so over the extended reals (a commutative monoid: no finiteness is asked)
   the 80 column sums regroup, along Fin 80 × Fin 10000 ≃ Fin 800000, into the reference's column sum over all rows. -/
import proofs.«108204_j49847390437921_1_alg».proof.Proof.KI.E2.ValueAcc
import proofs.«108204_j49847390437921_1_alg».proof.Proof.KI.E2.ValueArr
import proofs.«108204_j49847390437921_1_alg».proof.Proof.KI.E2.ValueBlk
import Idealize.ShloMosaic.Lib.Pipeline.Value
import Mathlib.Algebra.BigOperators.Fin
import Mathlib.Data.Fintype.BigOperators
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.Sem
open Idealize.ShloMosaic.Pipeline (Dat Cfg Window)
open scoped BigOperators

/-- A view of a whole buffer through the unit-stride rectangle of the buffer's own sizes at zero offsets, however the
    zeros are spelt, goes through every element. -/
theorem set_access_unit_zero2 {κ : Kind} (b : Ref sig κ) {off : Fin b.ty.shape.rank → Nat}
    (h : off = fun _ => 0) (inb : ∀ a, off a + b.ty.shape.size a ≤ b.ty.shape.size a) :
    ((Memref.whole b).access (Rect.unit off b.ty.shape.size inb) : View sig κ _ _ _).set = Finset.univ := by
  subst h; exact Memref.set_access_whole b

section Region2

variable (q : Fin cfg2.W → PosShare TreeShare)
variable (V : (c : Dev nD) → (b : Ref sig .tc) → Buf (Elt Ideal) ((c : Thread nD τ).loc b))

/-- The last of the 80 points. -/
abbrev tLast2 : Fin cfg2.N := ⟨79, by rw [show cfg2.N = 80 from N_2]; decide⟩

/-- The reference's bond update of the arrays as the region finds them, and its column sums. -/
abbrev eRef2 (c : Dev nD) : Cert.Spec.Arr Ideal Cert.ReferenceIdeal.S800000x64 .f32 := Cert.Spec.edge1 (arr2_0 V c) (arr2_1 V c) (arr2_2 V c) (arr2_3 V c) (arr2_4 V c) (arr2_5 V c) (arr2_6 V c)
abbrev sumRef2 (c : Dev nD) : Cert.Spec.Arr Ideal Cert.ReferenceIdeal.S1x64 .f32 := Cert.Spec.sumE (eRef2 V c)

/-- At the last point output 8's staging buffer is left at what the scratch is left at: the scratch is stored there
    after its own update. -/
theorem out8_eq_scr2 (c : Dev nD) (t : Fin cfg2.N) (h0 : ¬t.val % 80 = 0) (h1 : t.val % 80 = 79) :
    (outsAt2 (F := Ideal) V c t.val t.isLt).2.1 = (outsAt2 (F := Ideal) V c t.val t.isLt).2.2 := by
  rw [outsAt2_C V c t h0 h1]
  dsimp only
  exact (out2_C_8_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2).trans
    (sout2_C_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.2).symm

/-- So after the last point it holds, at column `j`, the zero of the reset plus the 80 blocks' column sums. -/
theorem last_out8_2 (c : Dev nD) (j : Fin 64) :
    (outsAt2 (F := Ideal) V c (tLast2).val (tLast2).isLt).2.1 (ix2 (0 : Fin 1) j)
      = Ideal.ofBits .f32 0x00000000#32 + ∑ s ∈ Finset.range 80, colN2 V c s j :=
  (congrFun (out8_eq_scr2 V c tLast2 (by decide) (by decide)) (ix2 (0 : Fin 1) j)).trans (scratch_acc2 V c j 79 (tLast2).isLt)

/-- THE REGROUPING. If every block of output 7 is its run of 10000 rows of the reference's bond update (`hblk`), the 80
    blocks' column sums at column `j` add up to that update's column sum over all 800000 rows. -/
theorem sum_cols2 (c : Dev nD)
    (hblk : ∀ (t : Fin cfg2.N) (r : Fin 10000) (j : Fin 64), eblkAt2 V c t (ix2 r j) = eRef2 V c (ix2 (row2 t r) j)) (j : Fin 64) :
    ∑ s ∈ Finset.range 80, colN2 V c s j = ∑ R : Fin 800000, eRef2 V c (ix2 R j) := by
  have hN : cfg2.N = 80 := N_2
  have e : ∀ s : Fin 80, colN2 V c s.val j = ∑ r : Fin 10000, eRef2 V c (ix2 (finProdFinEquiv (s, r) : Fin 800000) j) := fun s => by
    rw [colN2_of_lt V c s.val (by have := s.isLt; omega) j]
    refine Finset.sum_congr rfl fun r _ => ?_
    rw [hblk]
    exact congrArg (fun R : Fin 800000 => eRef2 V c (ix2 R j)) (Fin.ext (by
      show 10000 * s.val + r.val = r.val + 10000 * s.val
      omega))
  rw [Finset.sum_range, Fintype.sum_congr _ _ e,
    ← Fintype.sum_prod_type (f := fun p : Fin 80 × Fin 10000 => eRef2 V c (ix2 (finProdFinEquiv p : Fin 800000) j))]
  exact Equiv.sum_comp (finProdFinEquiv (m := 80) (n := 10000)) (fun R : Fin 800000 => eRef2 V c (ix2 R j))

/-- The one write-back of window 8, at the last point, writes the reference's column sums: block (0, 0) of the 1×64 array
    read through zero offsets is the array. -/
theorem flushed8_eq2 (c : Dev nD)
    (hblk : ∀ (t : Fin cfg2.N) (r : Fin 10000) (j : Fin 64), eblkAt2 V c t (ix2 r j) = eRef2 V c (ix2 (row2 t r) j))
    (t : Fin cfg2.N) (hf : (cfg2.win 8).flush t = true) :
    (dat2 (F := Ideal) q V c).flushed 8 t = ((cfg2.win 8).blk t).view.read (Elt Ideal) (sumRef2 V c) := by
  have hN : cfg2.N = 80 := N_2
  have h79 : t.val = 79 := by have := (flush2_8 t).mp hf; have := t.isLt; omega
  obtain rfl : t = tLast2 := Fin.ext h79
  show (cfg2.win 8).cut (grid2.coords tLast2) ((dat2 (F := Ideal) q V c).after 8 tLast2) = _
  rw [after2_8]
  have hz' : (fun a => win2_8.index tLast2 a * main_v79_1.ty.shape.size a) = fun _ => 0 := funext fun a => by fin_cases a <;> decide
  refine Eq.trans ?_ (Memref.read_access_unit_zero (Elt Ideal) main_v79_1 hz' (fun a => by rw [congrFun hz' a]; simp) (sumRef2 V c)).symm
  funext y
  obtain ⟨a, b, rfl⟩ : ∃ (a : Fin 1) (b : Fin 64), y = ix2 a b := ⟨y 0, y 1, eq_ix2 y⟩
  obtain rfl : a = 0 := Subsingleton.elim _ _
  show (outsAt2 (F := Ideal) V c (tLast2).val (tLast2).isLt).2.1 (ix2 (0 : Fin 1) b) = sumRef2 V c (ix2 (0 : Fin 1) b)
  rw [last_out8_2 V c b, sum_cols2 V c hblk b]
  exact (Cert.Spec.sumE_apply (eRef2 V c) b).symm

/-- That point's block covers the array. -/
theorem cover8_2 (c : Dev nD) (i : ((cfg2.win 8).arr.view.loc (c.tc : Thread nD τ)).2.ty.Idx) :
    ∃ t : Fin cfg2.N, (cfg2.win 8).flush t = true ∧ i ∈ ((cfg2.win 8).blk t).view.set := by
  have hz' : (fun a => win2_8.index tLast2 a * main_v79_1.ty.shape.size a) = fun _ => 0 := funext fun a => by fin_cases a <;> decide
  refine ⟨tLast2, (flush2_8 tLast2).mpr rfl, ?_⟩
  have hs := set_access_unit_zero2 main_v79_1 hz' (fun a => by rw [congrFun hz' a]; simp)
  exact hs ▸ Finset.mem_univ i

/-- THE SECOND RESULT, from the blocks: window 8's array ends holding the reference's column sums of its bond update,
    given that every block of output 7 is its run of rows of that update. -/
theorem edge_sum2_of (c : Dev nD)
    (hblk : ∀ (t : Fin cfg2.N) (r : Fin 10000) (j : Fin 64), eblkAt2 V c t (ix2 r j) = eRef2 V c (ix2 (row2 t r) j)) :
    (dat2 (F := Ideal) q V c).arrAt 8 cfg2.N = sumRef2 V c :=
  (dat2 (F := Ideal) q V c).arrAt_eq_of_cover 8 (sumRef2 V c) (flushed8_eq2 q V c hblk) (cover8_2 c)

/-- THE SECOND RESULT. Window 8's array ends holding the reference's column sums of its bond update of the arrays as
    the region finds them: every block of output 7 is its run of 10000 rows of that update. -/
theorem edge_sum2 (c : Dev nD) :
    (dat2 (F := Ideal) q V c).arrAt 8 cfg2.N
      = Cert.Spec.sumE (Cert.Spec.edge1 (arr2_0 V c) (arr2_1 V c) (arr2_2 V c) (arr2_3 V c) (arr2_4 V c) (arr2_5 V c) (arr2_6 V c)) :=
  edge_sum2_of q V c (eblk2_block2 V c)

end Region2

end Cert.KernelIdeal.Hand

end
-- ==== Proof.KI.N3.ValuePieces.lean ====
/- The node kernel at this region: what each case of its body leaves in output 6's block, in output 7's block and in the
   carried scratch, as the body's payloads of the point's input blocks. Every buffer is filled by one store of its
   whole extent (the scratch at the first point by two, the later covering), so the pieces the run found read back as
   the stored payload; the loads read whole staging buffers, except the four 1×64×64 slabs of the weights. -/
import proofs.«108204_j49847390437921_1_alg».proof.Proof.KI.N3.Body
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable {F : FTy → Type} [FloatOps F]

theorem hz3 : (![0, 0] : Fin 2 → Nat) = fun _ => 0 := funext fun a => by fin_cases a <;> rfl

/-- Slab `s` of the loaded 4×64×64 weights: the rectangle of extent 1×64×64 at offset (`s`, 0, 0). -/
abbrev wslab3_0 (x4 : Vec F S4x64x64 .f32) : Vec F S1x64x64 .f32 := View.ld x4 (Rect.unit (s := S4x64x64) ![0, 0, 0] S1x64x64.size inb_S4x64x64_S1x64x64_0_0_0)
abbrev wslab3_1 (x4 : Vec F S4x64x64 .f32) : Vec F S1x64x64 .f32 := View.ld x4 (Rect.unit (s := S4x64x64) ![1, 0, 0] S1x64x64.size inb_S4x64x64_S1x64x64_1_0_0)
abbrev wslab3_2 (x4 : Vec F S4x64x64 .f32) : Vec F S1x64x64 .f32 := View.ld x4 (Rect.unit (s := S4x64x64) ![2, 0, 0] S1x64x64.size inb_S4x64x64_S1x64x64_2_0_0)
abbrev wslab3_3 (x4 : Vec F S4x64x64 .f32) : Vec F S1x64x64 .f32 := View.ld x4 (Rect.unit (s := S4x64x64) ![3, 0, 0] S1x64x64.size inb_S4x64x64_S1x64x64_3_0_0)

/-- The four products summed, from a point's input blocks: three row blocks against slabs 0, 1, 2 and the global row
    against slab 3. -/
abbrev pre3 (x0 x1 x2 : Vec F S10000x64 .f32) (x3 : Vec F S1x64 .f32) (x4 : Vec F S4x64x64 .f32) : FVec F S10000x64 .f32 :=
  k3_pay4 x0 x1 x2 x3 (wslab3_0 x4) (wslab3_1 x4) (wslab3_2 x4) (wslab3_3 x4)

/-! ## Output 6: the update's block, at every point -/

/-- At the first point output 6's staging buffer is left at the relu of the summed products plus the bias row. -/
theorem out3_A_6_eq (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) :
    out3_A_6 c i arg1 harg1 arg2 harg2 arg3 harg3 arg4 harg4 arg5 harg5 arg6 harg6 arg7 harg7 arg8 harg8 arg9 harg9 hc0 hc1 x0 x1 x2 x3 x4 x5 = k3_pay1 (pre3 x0 x1 x2 x3 x4) (k3_pay5 x5) := by
  unfold out3_A_6
  rw [View.read_writes_eq_canon _ _ _ (cover3_A_6 c i arg1 harg1 arg2 harg2 arg3 harg3 arg4 harg4 arg5 harg5 arg6 harg6 arg7 harg7 arg8 harg8 arg9 harg9 hc0 hc1 x0 x1 x2 x3 x4 x5)]
  unfold kernelRun3_A
  dsimp only
  sl_unfold_words
  rw [View.canon_unit_zero hz3]
  simp only [View.readAt_eq_ld, harg1.read_unread, harg2.read_unread, harg3.read_unread, harg4.read_unread, harg5.read_unread, harg6.read_unread, harg9.read_unread, View.ld_unit_zero (S := S10000x64) hz3, View.ld_unit_zero (S := S1x64) hz3, View.readCov_unit_zero (S := S1x64) _ hz3]

/-- At a middle point output 6's staging buffer is left at the relu of the summed products plus the bias row. -/
theorem out3_B_6_eq (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) :
    out3_B_6 c i arg1 harg1 arg2 harg2 arg3 harg3 arg4 harg4 arg5 harg5 arg6 harg6 arg7 harg7 arg8 harg8 arg9 harg9 hc0 hc1 x0 x1 x2 x3 x4 x5 xs0 = k3_pay1 (pre3 x0 x1 x2 x3 x4) (k3_pay5 x5) := by
  unfold out3_B_6
  rw [View.read_writes_eq_canon _ _ _ (cover3_B_6 c i arg1 harg1 arg2 harg2 arg3 harg3 arg4 harg4 arg5 harg5 arg6 harg6 arg7 harg7 arg8 harg8 arg9 harg9 hc0 hc1 x0 x1 x2 x3 x4 x5 xs0)]
  unfold kernelRun3_B
  dsimp only
  sl_unfold_words
  rw [View.canon_unit_zero hz3]
  simp only [View.readAt_eq_ld, harg1.read_unread, harg2.read_unread, harg3.read_unread, harg4.read_unread, harg5.read_unread, harg6.read_unread, harg9.read_unread, View.ld_unit_zero (S := S10000x64) hz3, View.ld_unit_zero (S := S1x64) hz3, View.readCov_unit_zero (S := S1x64) _ hz3]

/-- At the last point output 6's staging buffer is left at the relu of the summed products plus the bias row. -/
theorem out3_C_6_eq (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) :
    out3_C_6 c i arg1 harg1 arg2 harg2 arg3 harg3 arg4 harg4 arg5 harg5 arg6 harg6 arg7 harg7 arg8 harg8 arg9 harg9 hc0 hc1 x0 x1 x2 x3 x4 x5 xs0 = k3_pay1 (pre3 x0 x1 x2 x3 x4) (k3_pay5 x5) := by
  unfold out3_C_6
  rw [View.read_writes_eq_canon _ _ _ (cover3_C_6 c i arg1 harg1 arg2 harg2 arg3 harg3 arg4 harg4 arg5 harg5 arg6 harg6 arg7 harg7 arg8 harg8 arg9 harg9 hc0 hc1 x0 x1 x2 x3 x4 x5 xs0)]
  unfold kernelRun3_C
  dsimp only
  sl_unfold_words
  rw [View.canon_unit_zero hz3]
  simp only [View.readAt_eq_ld, harg1.read_unread, harg2.read_unread, harg3.read_unread, harg4.read_unread, harg5.read_unread, harg6.read_unread, harg9.read_unread, View.ld_unit_zero (S := S10000x64) hz3, View.ld_unit_zero (S := S1x64) hz3, View.readCov_unit_zero (S := S1x64) _ hz3]

/-! ## The scratch: the column sums carried from point to point -/

/-- At the first point the scratch is reset to the zero row, read back, and left at that plus the block's column sums. -/
theorem sout3_A_0_eq (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) :
    sout3_A_0 c i arg1 harg1 arg2 harg2 arg3 harg3 arg4 harg4 arg5 harg5 arg6 harg6 arg7 harg7 arg8 harg8 arg9 harg9 hc0 hc1 x0 x1 x2 x3 x4 x5 = k3_pay2 (pre3 x0 x1 x2 x3 x4) (k3_pay5 x5) (k3_pay3 (F := F)) := by
  unfold sout3_A_0
  rw [View.read_writes_eq_canon _ _ _ (scover3_A_0 c i arg1 harg1 arg2 harg2 arg3 harg3 arg4 harg4 arg5 harg5 arg6 harg6 arg7 harg7 arg8 harg8 arg9 harg9 hc0 hc1 x0 x1 x2 x3 x4 x5)]
  unfold kernelRun3_A
  dsimp only
  sl_unfold_words
  rw [View.canon_cons_unit_zero (S := S1x64) hz3]
  simp only [View.readAt_eq_ld, harg1.read_unread, harg2.read_unread, harg3.read_unread, harg4.read_unread, harg5.read_unread, harg6.read_unread, harg9.read_unread, View.ld_unit_zero (S := S10000x64) hz3, View.ld_unit_zero (S := S1x64) hz3, View.readCov_unit_zero (S := S1x64) _ hz3]

/-- At a middle point the scratch is left at what the point before left plus the block's column sums. -/
theorem sout3_B_0_eq (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : ¬cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) :
    sout3_B_0 c i arg1 harg1 arg2 harg2 arg3 harg3 arg4 harg4 arg5 harg5 arg6 harg6 arg7 harg7 arg8 harg8 arg9 harg9 hc0 hc1 x0 x1 x2 x3 x4 x5 xs0 = k3_pay2 (pre3 x0 x1 x2 x3 x4) (k3_pay5 x5) xs0 := by
  unfold sout3_B_0
  rw [View.read_writes_eq_canon _ _ _ (scover3_B_0 c i arg1 harg1 arg2 harg2 arg3 harg3 arg4 harg4 arg5 harg5 arg6 harg6 arg7 harg7 arg8 harg8 arg9 harg9 hc0 hc1 x0 x1 x2 x3 x4 x5 xs0)]
  unfold kernelRun3_B
  dsimp only
  sl_unfold_words
  rw [View.canon_unit_zero hz3]
  simp only [View.readAt_eq_ld, harg1.read_unread, harg2.read_unread, harg3.read_unread, harg4.read_unread, harg5.read_unread, harg6.read_unread, harg9.read_unread, View.ld_unit_zero (S := S10000x64) hz3, View.ld_unit_zero (S := S1x64) hz3, View.readCov_unit_zero (S := S1x64) _ hz3]

/-- At the last point the scratch is left at what the point before left plus the block's column sums. -/
theorem sout3_C_0_eq (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) :
    sout3_C_0 c i arg1 harg1 arg2 harg2 arg3 harg3 arg4 harg4 arg5 harg5 arg6 harg6 arg7 harg7 arg8 harg8 arg9 harg9 hc0 hc1 x0 x1 x2 x3 x4 x5 xs0 = k3_pay2 (pre3 x0 x1 x2 x3 x4) (k3_pay5 x5) xs0 := by
  unfold sout3_C_0
  rw [View.read_writes_eq_canon _ _ _ (scover3_C_0 c i arg1 harg1 arg2 harg2 arg3 harg3 arg4 harg4 arg5 harg5 arg6 harg6 arg7 harg7 arg8 harg8 arg9 harg9 hc0 hc1 x0 x1 x2 x3 x4 x5 xs0)]
  unfold kernelRun3_C
  dsimp only
  sl_unfold_words
  rw [View.canon_unit_zero hz3]
  simp only [View.readAt_eq_ld, harg1.read_unread, harg2.read_unread, harg3.read_unread, harg4.read_unread, harg5.read_unread, harg6.read_unread, harg9.read_unread, View.ld_unit_zero (S := S10000x64) hz3, View.ld_unit_zero (S := S1x64) hz3, View.readCov_unit_zero (S := S1x64) _ hz3]

/-! ## Output 7: the scratch stored at the last point -/

/-- At the last point output 7's staging buffer is left at the scratch's new contents, read back after its store. -/
theorem out3_C_7_eq (c : Dev nD) (i : grid3.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S1x64 .f32) (harg4 : arg4.IsWhole) (arg5 : Memref sig .tc .vmem S4x64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (hc1 : cond3_1 i)
    (x0 : Vec F S10000x64 .f32) (x1 : Vec F S10000x64 .f32) (x2 : Vec F S10000x64 .f32) (x3 : Vec F S1x64 .f32) (x4 : Vec F S4x64x64 .f32) (x5 : Vec F S1x64 .f32) (xs0 : Vec F S1x64 .f32) :
    out3_C_7 c i arg1 harg1 arg2 harg2 arg3 harg3 arg4 harg4 arg5 harg5 arg6 harg6 arg7 harg7 arg8 harg8 arg9 harg9 hc0 hc1 x0 x1 x2 x3 x4 x5 xs0 = k3_pay2 (pre3 x0 x1 x2 x3 x4) (k3_pay5 x5) xs0 := by
  unfold out3_C_7
  rw [View.read_writes_eq_canon _ _ _ (cover3_C_7 c i arg1 harg1 arg2 harg2 arg3 harg3 arg4 harg4 arg5 harg5 arg6 harg6 arg7 harg7 arg8 harg8 arg9 harg9 hc0 hc1 x0 x1 x2 x3 x4 x5 xs0)]
  unfold kernelRun3_C
  dsimp only
  sl_unfold_words
  rw [View.canon_unit_zero hz3]
  simp only [View.readAt_eq_ld, harg1.read_unread, harg2.read_unread, harg3.read_unread, harg4.read_unread, harg5.read_unread, harg6.read_unread, harg9.read_unread, View.ld_unit_zero (S := S10000x64) hz3, View.ld_unit_zero (S := S1x64) hz3, View.readCov_unit_zero (S := S1x64) _ hz3]

end Cert.KernelIdeal.Hand

end
-- ==== Proof.KI.N3.ValuePay.lean ====
/- The node kernel at this region, at the ideal values: what each payload of its body holds at an index. Row `r` of a block
   of the update is relu(Σₖ hv[r,k]·W₀[k,j] + Σₖ hv0[r,k]·W₁[k,j] + Σₖ eb[r,k]·W₂[k,j] + Σₖ hu[0,k]·W₃[k,j] + bv[0,j]): a
   matmul into the zero accumulator is the plain sum over the contraction axis, the additions in the order the body
   makes them; the accumulator's update adds the block's column sums to what it held; its reset is the zero row. -/
import proofs.«108204_j49847390437921_1_alg».proof.Proof.Gen.KernelIdeal.Skeleton
import proofs.«108204_j49847390437921_1_alg».proof.Proof.KI.ValueMM

noncomputable section

namespace Cert.KernelIdeal.Hand

open Cert.KernelIdeal Cert.KernelIdeal.Gen
open Idealize.ShloMosaic Idealize.ShloMosaic.ValueIdx
open scoped BigOperators

/-- The sum of the four products at (`r`, `j`): three of the point's 10000×64 input blocks against slabs 0, 1, 2 of
    the weights, and the global row against slab 3, broadcast over the rows. -/
theorem k3_pay4_apply (v3 v5 v7 : Vec Ideal S10000x64 .f32) (v9 : Vec Ideal S1x64 .f32) (v11 v14 v18 v22 : Vec Ideal S1x64x64 .f32)
    (r : Fin 10000) (j : Fin 64) :
    k3_pay4 (F := Ideal) v3 v5 v7 v9 v11 v14 v18 v22 (ix2 r j)
      = (∑ k : Fin 64, v3 (ix2 r k) * v11 (ix3 (0 : Fin 1) k j)) + (∑ k : Fin 64, v5 (ix2 r k) * v14 (ix3 (0 : Fin 1) k j))
        + (∑ k : Fin 64, v7 (ix2 r k) * v18 (ix3 (0 : Fin 1) k j)) + (∑ k : Fin 64, v9 (ix2 (0 : Fin 1) k) * v22 (ix3 (0 : Fin 1) k j)) := by
  unfold k3_pay4
  simp only [shapeCast_self, addf_apply]
  rw [mmBlk_apply, mmBlk_apply, mmBlk_apply, rowBcast_apply, mmRow_apply]
  simp only [slabCast_apply]

/-- The bias row broadcast over the block's rows. -/
theorem k3_pay5_apply (v27 : Vec Ideal S1x64 .f32) (r : Fin 10000) (j : Fin 64) :
    k3_pay5 (F := Ideal) v27 (ix2 r j) = v27 (ix2 (0 : Fin 1) j) := by
  unfold k3_pay5
  simp only [shapeCast_self]
  rw [rowBcast_apply]

/-- The block stored to output 6: the sum of its two operands, clipped below at the zero word's value. -/
theorem k3_pay1_apply (v26 v29 : FVec Ideal S10000x64 .f32) (i : S10000x64.Idx) :
    k3_pay1 (F := Ideal) v26 v29 i = max (v26 i + v29 i) (Ideal.ofBits .f32 0x00000000#32) := rfl

/-- The accumulator's update at column `j`: what it held plus the sum over the block's rows of the stored block. -/
theorem k3_pay2_apply (v26 v29 : FVec Ideal S10000x64 .f32) (v34 : Vec Ideal S1x64 .f32) (j : Fin 64) :
    k3_pay2 (F := Ideal) v26 v29 v34 (ix2 (0 : Fin 1) j) = v34 (ix2 (0 : Fin 1) j) + ∑ r : Fin 10000, k3_pay1 (F := Ideal) v26 v29 (ix2 r j) := by
  unfold k3_pay2
  simp only [shapeCast_self, addf_apply]
  rw [vecRow_apply]
  exact congrArg (v34 (ix2 (0 : Fin 1) j) + ·) (colSum_apply _ _ _ _ j)

/-- The accumulator's reset: the zero word's value in every column. -/
theorem k3_pay3_apply (i : S1x64.Idx) : k3_pay3 (F := Ideal) i = Ideal.ofBits .f32 0x00000000#32 := by
  unfold k3_pay3
  simp only [shapeCast_self]
  rfl

end Cert.KernelIdeal.Hand

end
-- ==== Proof.KI.N3.ValueBlk.lean ====
/- The node kernel at this region, at the ideal values: the block its body stores to output 6 at a point, against the
   reference's node update of the arrays the region is entered with. Point `t`'s input blocks are rows
   `10000·t … 10000·t + 9999` of the three row arrays and the whole of the global row, the weights and the bias; the
   products, the additions and the clipping are the reference's, in its order; so the stored block is those rows of the
   reference's update, at every point and in each of the body's three cases. -/
import proofs.«108204_j49847390437921_1_alg».proof.Proof.KI.N3.ValuePieces
import proofs.«108204_j49847390437921_1_alg».proof.Proof.KI.N3.ValuePay
import proofs.«108204_j49847390437921_1_alg».proof.Proof.KI.ValueSpecN
import proofs.«108204_j49847390437921_1_alg».proof.Proof.KI.ValueRowsN

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

/-! ## The entry arrays and the printed index maps -/

section Arrays
variable {F : FTy → Type} [FloatOps F] (V : (c : Dev nD) → (b : Ref sig .tc) → Buf (Elt F) ((c : Thread nD τ).loc b))

/-- The six arrays the region reads, as it finds them, each at its literal shape: the atom features, the lifted atom
    features, the summed bond messages (100000×64), the global row (1×64), the weights (4×64×64), the bias row (1×64). -/
abbrev arr3_0 (c : Dev nD) : Vec F S100000x64 .f32 := V c (Pipeline.arrRef spec3 0)
abbrev arr3_1 (c : Dev nD) : Vec F S100000x64 .f32 := V c (Pipeline.arrRef spec3 1)
abbrev arr3_2 (c : Dev nD) : Vec F S100000x64 .f32 := V c (Pipeline.arrRef spec3 2)
abbrev arr3_3 (c : Dev nD) : Vec F S1x64 .f32 := V c (Pipeline.arrRef spec3 3)
abbrev arr3_4 (c : Dev nD) : Vec F S4x64x64 .f32 := V c (Pipeline.arrRef spec3 4)
abbrev arr3_5 (c : Dev nD) : Vec F S1x64 .f32 := V c (Pipeline.arrRef spec3 5)

end Arrays

/-- The printed index maps, decided over the ten grid points: the row windows' block index is the point on the row
    axis and 0 on the column axis. -/
theorem idx_rows3_0 : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)
theorem idx_rows3_1 : ∀ t : Fin cfg3.N, win3_1.index t (0 : Fin 2) = t.val ∧ win3_1.index t (1 : Fin 2) = 0 :=
  (by decide +kernel : ∀ t : Fin grid3.N, win3_1.index t (0 : Fin 2) = t.val ∧ win3_1.index t (1 : Fin 2) = 0)
theorem idx_rows3_2 : ∀ t : Fin cfg3.N, win3_2.index t (0 : Fin 2) = t.val ∧ win3_2.index t (1 : Fin 2) = 0 :=
  (by decide +kernel : ∀ t : Fin grid3.N, win3_2.index t (0 : Fin 2) = t.val ∧ win3_2.index t (1 : Fin 2) = 0)
theorem idx_rows3_6 : ∀ t : Fin cfg3.N, win3_6.index t (0 : Fin 2) = t.val ∧ win3_6.index t (1 : Fin 2) = 0 :=
  (by decide +kernel : ∀ t : Fin grid3.N, win3_6.index t (0 : Fin 2) = t.val ∧ win3_6.index t (1 : Fin 2) = 0)
/-- The whole-array windows' block index is 0 on every axis, at every point. -/
theorem idx_whole3_3 : ∀ t : Fin cfg3.N, win3_3.index t (0 : Fin 2) = 0 ∧ win3_3.index t (1 : Fin 2) = 0 :=
  (by decide +kernel : ∀ t : Fin grid3.N, win3_3.index t (0 : Fin 2) = 0 ∧ win3_3.index t (1 : Fin 2) = 0)
theorem idx_whole3_4 : ∀ t : Fin cfg3.N, win3_4.index t (0 : Fin 3) = 0 ∧ win3_4.index t (1 : Fin 3) = 0 ∧ win3_4.index t (2 : Fin 3) = 0 :=
  (by decide +kernel : ∀ t : Fin grid3.N, win3_4.index t (0 : Fin 3) = 0 ∧ win3_4.index t (1 : Fin 3) = 0 ∧ win3_4.index t (2 : Fin 3) = 0)
theorem idx_whole3_5 : ∀ t : Fin cfg3.N, win3_5.index t (0 : Fin 2) = 0 ∧ win3_5.index t (1 : Fin 2) = 0 :=
  (by decide +kernel : ∀ t : Fin grid3.N, win3_5.index t (0 : Fin 2) = 0 ∧ win3_5.index t (1 : Fin 2) = 0)
theorem idx_whole3_7 : ∀ t : Fin cfg3.N, win3_7.index t (0 : Fin 2) = 0 ∧ win3_7.index t (1 : Fin 2) = 0 :=
  (by decide +kernel : ∀ t : Fin grid3.N, win3_7.index t (0 : Fin 2) = 0 ∧ win3_7.index t (1 : Fin 2) = 0)

/-! ## The input blocks as rows of the entry arrays -/

/-- Row `r` of a row window's block at point `t` is row `10000·t + r` of its array. -/
theorem blk3_0_apply {F : FTy → Type} [FloatOps F] (V : (c : Dev nD) → (b : Ref sig .tc) → Buf (Elt F) ((c : Thread nD τ).loc b)) (c : Dev nD) (t : Fin cfg3.N) (r : Fin 10000) (k : Fin 64)
    (R : Fin 100000) (hR : R.val = 10000 * t.val + r.val) :
    (iblk3 V c 0 t : Vec F S10000x64 .f32) (ix2 r k) = (arr3_0 V c) (ix2 R k) := by
  obtain ⟨e0, e1⟩ := idx_rows3_0 t
  unfold iblk3
  rw [View.read_apply]
  refine congrArg (V c (Pipeline.arrRef spec3 0)) (funext fun a => Fin.ext ?_)
  match a with
  | ⟨0, _⟩ => show win3_0.index t (0 : Fin 2) * 10000 + 1 * r.val = R.val; rw [e0, hR]; omega
  | ⟨1, _⟩ => show win3_0.index t (1 : Fin 2) * 64 + 1 * k.val = k.val; rw [e1]; omega

theorem blk3_1_apply {F : FTy → Type} [FloatOps F] (V : (c : Dev nD) → (b : Ref sig .tc) → Buf (Elt F) ((c : Thread nD τ).loc b)) (c : Dev nD) (t : Fin cfg3.N) (r : Fin 10000) (k : Fin 64)
    (R : Fin 100000) (hR : R.val = 10000 * t.val + r.val) :
    (iblk3 V c 1 t : Vec F S10000x64 .f32) (ix2 r k) = (arr3_1 V c) (ix2 R k) := by
  obtain ⟨e0, e1⟩ := idx_rows3_1 t
  unfold iblk3
  rw [View.read_apply]
  refine congrArg (V c (Pipeline.arrRef spec3 1)) (funext fun a => Fin.ext ?_)
  match a with
  | ⟨0, _⟩ => show win3_1.index t (0 : Fin 2) * 10000 + 1 * r.val = R.val; rw [e0, hR]; omega
  | ⟨1, _⟩ => show win3_1.index t (1 : Fin 2) * 64 + 1 * k.val = k.val; rw [e1]; omega

theorem blk3_2_apply {F : FTy → Type} [FloatOps F] (V : (c : Dev nD) → (b : Ref sig .tc) → Buf (Elt F) ((c : Thread nD τ).loc b)) (c : Dev nD) (t : Fin cfg3.N) (r : Fin 10000) (k : Fin 64)
    (R : Fin 100000) (hR : R.val = 10000 * t.val + r.val) :
    (iblk3 V c 2 t : Vec F S10000x64 .f32) (ix2 r k) = (arr3_2 V c) (ix2 R k) := by
  obtain ⟨e0, e1⟩ := idx_rows3_2 t
  unfold iblk3
  rw [View.read_apply]
  refine congrArg (V c (Pipeline.arrRef spec3 2)) (funext fun a => Fin.ext ?_)
  match a with
  | ⟨0, _⟩ => show win3_2.index t (0 : Fin 2) * 10000 + 1 * r.val = R.val; rw [e0, hR]; omega
  | ⟨1, _⟩ => show win3_2.index t (1 : Fin 2) * 64 + 1 * k.val = k.val; rw [e1]; omega

/-- The global row's, the weights' and the bias row's block is the whole array, at every point. -/
theorem blk3_3_eq {F : FTy → Type} [FloatOps F] (V : (c : Dev nD) → (b : Ref sig .tc) → Buf (Elt F) ((c : Thread nD τ).loc b)) (c : Dev nD) (t : Fin cfg3.N) :
    (iblk3 V c 3 t : Vec F S1x64 .f32) = arr3_3 V c := by
  obtain ⟨e0, e1⟩ := idx_whole3_3 t
  funext y
  unfold iblk3
  rw [View.read_apply]
  refine congrArg (V c (Pipeline.arrRef spec3 3)) (funext fun a => Fin.ext ?_)
  match a with
  | ⟨0, _⟩ => show win3_3.index t (0 : Fin 2) * 1 + 1 * (y 0).val = (y 0).val; rw [e0]; omega
  | ⟨1, _⟩ => show win3_3.index t (1 : Fin 2) * 64 + 1 * (y 1).val = (y 1).val; rw [e1]; omega
theorem blk3_4_eq {F : FTy → Type} [FloatOps F] (V : (c : Dev nD) → (b : Ref sig .tc) → Buf (Elt F) ((c : Thread nD τ).loc b)) (c : Dev nD) (t : Fin cfg3.N) :
    (iblk3 V c 4 t : Vec F S4x64x64 .f32) = arr3_4 V c := by
  obtain ⟨e0, e1, e2⟩ := idx_whole3_4 t
  funext y
  unfold iblk3
  rw [View.read_apply]
  refine congrArg (V c (Pipeline.arrRef spec3 4)) (funext fun a => Fin.ext ?_)
  match a with
  | ⟨0, _⟩ => show win3_4.index t (0 : Fin 3) * 4 + 1 * (y 0).val = (y 0).val; rw [e0]; omega
  | ⟨1, _⟩ => show win3_4.index t (1 : Fin 3) * 64 + 1 * (y 1).val = (y 1).val; rw [e1]; omega
  | ⟨2, _⟩ => show win3_4.index t (2 : Fin 3) * 64 + 1 * (y 2).val = (y 2).val; rw [e2]; omega
theorem blk3_5_eq {F : FTy → Type} [FloatOps F] (V : (c : Dev nD) → (b : Ref sig .tc) → Buf (Elt F) ((c : Thread nD τ).loc b)) (c : Dev nD) (t : Fin cfg3.N) :
    (iblk3 V c 5 t : Vec F S1x64 .f32) = arr3_5 V c := by
  obtain ⟨e0, e1⟩ := idx_whole3_5 t
  funext y
  unfold iblk3
  rw [View.read_apply]
  refine congrArg (V c (Pipeline.arrRef spec3 5)) (funext fun a => Fin.ext ?_)
  match a with
  | ⟨0, _⟩ => show win3_5.index t (0 : Fin 2) * 1 + 1 * (y 0).val = (y 0).val; rw [e0]; omega
  | ⟨1, _⟩ => show win3_5.index t (1 : Fin 2) * 64 + 1 * (y 1).val = (y 1).val; rw [e1]; omega

/-- Slab `s` of the loaded weights at (`0`, `k`, `j`) is the stack at (`s`, `k`, `j`). -/
theorem wslab3_0_apply {F : FTy → Type} [FloatOps F] (x4 : Vec F S4x64x64 .f32) (k j : Fin 64) : wslab3_0 x4 (ix3 (0 : Fin 1) k j) = x4 (ix3 (0 : Fin 4) k j) :=
  congrArg x4 (funext fun a => Fin.ext (match a with | ⟨0, _⟩ => rfl | ⟨1, _⟩ => by show 0 + 1 * k.val = k.val; omega | ⟨2, _⟩ => by show 0 + 1 * j.val = j.val; omega))
theorem wslab3_1_apply {F : FTy → Type} [FloatOps F] (x4 : Vec F S4x64x64 .f32) (k j : Fin 64) : wslab3_1 x4 (ix3 (0 : Fin 1) k j) = x4 (ix3 (1 : Fin 4) k j) :=
  congrArg x4 (funext fun a => Fin.ext (match a with | ⟨0, _⟩ => rfl | ⟨1, _⟩ => by show 0 + 1 * k.val = k.val; omega | ⟨2, _⟩ => by show 0 + 1 * j.val = j.val; omega))
theorem wslab3_2_apply {F : FTy → Type} [FloatOps F] (x4 : Vec F S4x64x64 .f32) (k j : Fin 64) : wslab3_2 x4 (ix3 (0 : Fin 1) k j) = x4 (ix3 (2 : Fin 4) k j) :=
  congrArg x4 (funext fun a => Fin.ext (match a with | ⟨0, _⟩ => rfl | ⟨1, _⟩ => by show 0 + 1 * k.val = k.val; omega | ⟨2, _⟩ => by show 0 + 1 * j.val = j.val; omega))
theorem wslab3_3_apply {F : FTy → Type} [FloatOps F] (x4 : Vec F S4x64x64 .f32) (k j : Fin 64) : wslab3_3 x4 (ix3 (0 : Fin 1) k j) = x4 (ix3 (3 : Fin 4) k j) :=
  congrArg x4 (funext fun a => Fin.ext (match a with | ⟨0, _⟩ => rfl | ⟨1, _⟩ => by show 0 + 1 * k.val = k.val; omega | ⟨2, _⟩ => by show 0 + 1 * j.val = j.val; omega))

/-! ## One point's block -/

/-- The reference's node update of the arrays the region is entered with. -/
abbrev nodeG3 (V : (c : Dev nD) → (b : Ref sig .tc) → Buf (Elt Ideal) ((c : Thread nD τ).loc b)) (c : Dev nD) : Vec Ideal S100000x64 .f32 :=
  Cert.Spec.node1 (F := Ideal) (arr3_0 V c) (arr3_1 V c) (arr3_2 V c) (arr3_3 V c) (arr3_4 V c) (arr3_5 V c)

/-- Over any arrays and blocks: where row `r` of the three row blocks is row `R` of the three row arrays, the stored
    block at (`r`, `j`) is the reference's update at (`R`, `j`): the same four sums over the contracted coordinate, added in
    the same order, plus the same bias entry, clipped at the same zero. -/
theorem blockOut3_of (hv hv0 eb : Vec Ideal S100000x64 .f32) (hu : Vec Ideal S1x64 .f32) (Wv : Vec Ideal S4x64x64 .f32) (bv : Vec Ideal S1x64 .f32)
    (x0 x1 x2 : Vec Ideal S10000x64 .f32) (R : Fin 100000) (r : Fin 10000) (j : Fin 64)
    (h0 : ∀ k, x0 (ix2 r k) = hv (ix2 R k)) (h1 : ∀ k, x1 (ix2 r k) = hv0 (ix2 R k)) (h2 : ∀ k, x2 (ix2 r k) = eb (ix2 R k)) :
    k3_pay1 (F := Ideal) (pre3 x0 x1 x2 hu Wv) (k3_pay5 bv) (ix2 r j) = Cert.Spec.node1 (F := Ideal) hv hv0 eb hu Wv bv (ix2 R j) := by
  rw [k3_pay1_apply, Cert.Spec.NodeAt.node1_apply]
  dsimp only [pre3]
  rw [k3_pay4_apply, k3_pay5_apply]
  have s0 : (∑ k : Fin 64, x0 (ix2 r k) * wslab3_0 Wv (ix3 (0 : Fin 1) k j)) = ∑ k : Fin 64, hv (ix2 R k) * Wv (ix3 (0 : Fin 4) k j) :=
    Finset.sum_congr rfl fun k _ => congrArg₂ (· * ·) (h0 k) (wslab3_0_apply Wv k j)
  have s1 : (∑ k : Fin 64, x1 (ix2 r k) * wslab3_1 Wv (ix3 (0 : Fin 1) k j)) = ∑ k : Fin 64, hv0 (ix2 R k) * Wv (ix3 (1 : Fin 4) k j) :=
    Finset.sum_congr rfl fun k _ => congrArg₂ (· * ·) (h1 k) (wslab3_1_apply Wv k j)
  have s2 : (∑ k : Fin 64, x2 (ix2 r k) * wslab3_2 Wv (ix3 (0 : Fin 1) k j)) = ∑ k : Fin 64, eb (ix2 R k) * Wv (ix3 (2 : Fin 4) k j) :=
    Finset.sum_congr rfl fun k _ => congrArg₂ (· * ·) (h2 k) (wslab3_2_apply Wv k j)
  have s3 : (∑ k : Fin 64, hu (ix2 (0 : Fin 1) k) * wslab3_3 Wv (ix3 (0 : Fin 1) k j)) = ∑ k : Fin 64, hu (ix2 (0 : Fin 1) k) * Wv (ix3 (3 : Fin 4) k j) :=
    Finset.sum_congr rfl fun k _ => congrArg (hu (ix2 (0 : Fin 1) k) * ·) (wslab3_3_apply Wv k j)
  rw [s0, s1, s2, s3]

/-- The block the body stores to output 6 at point `t`, from the point's input blocks: rows `10000·t + r` of the reference's update. -/
theorem blockPay3 (V : (c : Dev nD) → (b : Ref sig .tc) → Buf (Elt Ideal) ((c : Thread nD τ).loc b)) (c : Dev nD) (t : Fin cfg3.N) (r : Fin 10000) (j : Fin 64)
    (R : Fin 100000) (hR : R.val = 10000 * t.val + r.val) :
    k3_pay1 (F := Ideal) (pre3 (iblk3 V c 0 t) (iblk3 V c 1 t) (iblk3 V c 2 t) (iblk3 V c 3 t) (iblk3 V c 4 t)) (k3_pay5 (iblk3 V c 5 t)) (ix2 r j)
      = nodeG3 V c (ix2 R j) := by
  rw [blk3_3_eq V c t, blk3_4_eq V c t, blk3_5_eq V c t]
  exact blockOut3_of (arr3_0 V c) (arr3_1 V c) (arr3_2 V c) (arr3_3 V c) (arr3_4 V c) (arr3_5 V c) (iblk3 V c 0 t) (iblk3 V c 1 t) (iblk3 V c 2 t) R r j
    (fun k => blk3_0_apply V c t r k R hR) (fun k => blk3_1_apply V c t r k R hR) (fun k => blk3_2_apply V c t r k R hR)

/-- What output 6's staging buffer holds after point `t`, whichever of the three cases the point is in. -/
theorem outsAt3_out_eq (V : (c : Dev nD) → (b : Ref sig .tc) → Buf (Elt Ideal) ((c : Thread nD τ).loc b)) (c : Dev nD) (t : Fin cfg3.N) :
    (outsAt3 V c t.val t.isLt).1
      = k3_pay1 (F := Ideal) (pre3 (iblk3 V c 0 t) (iblk3 V c 1 t) (iblk3 V c 2 t) (iblk3 V c 3 t) (iblk3 V c 4 t)) (k3_pay5 (iblk3 V c 5 t)) := by
  by_cases h0 : t.val % 10 = 0
  · have h1 : ¬t.val % 10 = 9 := by omega
    rw [outsAt3_A V c t h0 h1]; dsimp only
    exact out3_A_6_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)
  · by_cases h1 : t.val % 10 = 9
    · rw [outsAt3_C V c t h0 h1]; dsimp only
      exact out3_C_6_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2
    · rw [outsAt3_B V c t h0 h1]; dsimp only
      exact out3_B_6_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2

/-- So after point `t` output 6's staging buffer holds rows `10000·t + r` of the reference's update. -/
theorem blockOut3 (V : (c : Dev nD) → (b : Ref sig .tc) → Buf (Elt Ideal) ((c : Thread nD τ).loc b)) (c : Dev nD) (t : Fin cfg3.N) (r : Fin 10000) (j : Fin 64)
    (R : Fin 100000) (hR : R.val = 10000 * t.val + r.val) :
    (outsAt3 V c t.val t.isLt).1 (ix2 r j) = nodeG3 V c (ix2 R j) :=
  (congrFun (outsAt3_out_eq V c t) (ix2 r j)).trans (blockPay3 V c t r j R hR)

end Cert.KernelIdeal.Hand

end
-- ==== Proof.KI.N3.ValueOut.lean ====
/- The node kernel at this region, at the ideal values: the array output 6 ends holding is the reference's node update of
   the arrays the region is entered with. Every point writes output 6's block back; what point `t` writes is rows
   `10000·t … 10000·t + 9999` of the reference's update (the stored block, read through the window's rectangle); the ten
   blocks tile the 100000 rows (row `R` is in block `R / 10000`); so the array is the update, whole. -/
import proofs.«108204_j49847390437921_1_alg».proof.Proof.KI.N3.ValueBlk

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.Sem
open Idealize.ShloMosaic.Pipeline (Dat Cfg Window)
open scoped BigOperators

/-- WHAT POINT `t` WRITES BACK to output 6 is block `t` of the reference's update of the entry arrays. -/
theorem flushed3_6_eq (q : Fin cfg3.W → PosShare TreeShare) (V : (c : Dev nD) → (b : Ref sig .tc) → Buf (Elt Ideal) ((c : Thread nD τ).loc b)) (c : Dev nD) (t : Fin cfg3.N) :
    (dat3 (F := Ideal) q V c).flushed 6 t = ((cfg3.win 6).blk t).view.read (Elt Ideal) (nodeG3 V c) := by
  obtain ⟨e0, e1⟩ := idx_rows3_6 t
  have hN : t.val < 10 := lt_of_lt_of_eq t.isLt (show cfg3.N = 10 from N_3)
  have key : ((outsAt3 V c t.val t.isLt).1 : Vec Ideal S10000x64 .f32)
      = fun y : S10000x64.Idx => nodeG3 V c (((cfg3.win 6).blk t).view.emb y) := by
    funext y
    obtain ⟨r, j, rfl⟩ : ∃ (r : Fin 10000) (j : Fin 64), y = ix2 r j := ⟨y 0, y 1, eq_ix2 y⟩
    refine (blockOut3 V c t r j ⟨10000 * t.val + r.val, by have := r.isLt; omega⟩ rfl).trans ?_
    refine congrArg (nodeG3 V c) (funext fun a => Fin.ext ?_)
    match a with
    | ⟨0, _⟩ => show 10000 * t.val + r.val = win3_6.index t (0 : Fin 2) * 10000 + 1 * r.val; rw [e0]; omega
    | ⟨1, _⟩ => show j.val = win3_6.index t (1 : Fin 2) * 64 + 1 * j.val; rw [e1]; omega
  show (cfg3.win 6).cut (grid3.coords t) ((dat3 q V c).after 6 t) = _
  rw [after3_6]
  exact key

/-- An index of the array is in point `t`'s block iff each coordinate is in the block's range on its axis. -/
theorem mem_blk3_6 (t : Fin cfg3.N) (i : S100000x64.Idx) :
    i ∈ ((cfg3.win 6).blk t).view.set ↔ ∀ a : Fin 2, win3_6.index t a * S10000x64.size a ≤ (i a).val ∧ (i a).val < win3_6.index t a * S10000x64.size a + S10000x64.size a := by
  show i ∈ ((View.whole (Pipeline.arrRef spec3 6)).slice (win3_6.rect t)).set ↔ _
  rw [View.set_slice_whole, Rect.mem_set_unit]
  exact Iff.rfl

/-- Every row of the array is in some point's block: row `R` in that of point `R / 10000`. -/
theorem cover3_6 (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 10 := N_3
  obtain ⟨t, ht⟩ : ∃ t : Fin cfg3.N, t.val = (i 0).val / 10000 := ⟨⟨(i 0).val / 10000, by omega⟩, rfl⟩
  obtain ⟨e0, e1⟩ := idx_rows3_6 t
  refine ⟨t, flush3_6 t, ?_⟩
  rw [mem_blk3_6]
  intro a
  match a with
  | ⟨0, _⟩ => show win3_6.index t (0 : Fin 2) * 10000 ≤ (i 0).val ∧ (i 0).val < win3_6.index t (0 : Fin 2) * 10000 + 10000; rw [e0]; omega
  | ⟨1, _⟩ => show win3_6.index t (1 : Fin 2) * 64 ≤ (i 1).val ∧ (i 1).val < win3_6.index t (1 : Fin 2) * 64 + 64; rw [e1]; omega

/-- THE ARRAY of output 6 after the region: the reference's node update of the six arrays the region is entered with. -/
theorem node_out3 (q : Fin cfg3.W → PosShare TreeShare) (V : (c : Dev nD) → (b : Ref sig .tc) → Buf (Elt Ideal) ((c : Thread nD τ).loc b)) (c : Dev nD) :
    (dat3 (F := Ideal) q V c).arrAt 6 cfg3.N = Cert.Spec.node1 (F := Ideal) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 (F := Ideal) q V c).arrAt_eq_of_cover 6 (nodeG3 V c) (fun t _ => flushed3_6_eq q V c t) cover3_6

end Cert.KernelIdeal.Hand

end
-- ==== Proof.KI.N3.ValueAcc.lean ====
/- The node kernel at this region, at the ideal values: what the carried scratch holds after each point. A point adds to the
   scratch, column by column, the sum over its block's 10000 rows of the block it stores to output 6, and that block is
   rows 10000·t … 10000·t + 9999 of the reference's node update of the entry arrays; the first point starts from the
   zero row. So after point n column j of the scratch is the zero word's value plus the sums of rows' blocks 0 … n of
   column j of the update, by induction on the point; after the last point that is the zero word's value plus the sum
   over all 100000 rows, and the last point stores exactly this row to output 7. -/
import proofs.«108204_j49847390437921_1_alg».proof.Proof.KI.N3.ValueBlk

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.Sem
open Idealize.ShloMosaic.Pipeline (Dat Cfg Window)
open Cert.Spec.NodeAt (rowsN rowsN_of_lt sum_rowsN)
open scoped BigOperators

/-- Column `j` of the reference's node update of the entry arrays, as a function of the row. -/
abbrev colG3 (V : (c : Dev nD) → (b : Ref sig .tc) → Buf (Elt Ideal) ((c : Thread nD τ).loc b)) (c : Dev nD) (j : Fin 64) : Fin 100000 → Ideal .f32 :=
  fun R => nodeG3 V c (ix2 R j)

/-- One point's update of the scratch, at column `j`: what it held plus block `t`'s rows of column `j` of the update. -/
theorem accStep3 (V : (c : Dev nD) → (b : Ref sig .tc) → Buf (Elt Ideal) ((c : Thread nD τ).loc b)) (c : Dev nD) (t : Fin cfg3.N) (xs0 : Vec Ideal S1x64 .f32) (j : Fin 64) :
    k3_pay2 (F := Ideal) (pre3 (iblk3 V c 0 t) (iblk3 V c 1 t) (iblk3 V c 2 t) (iblk3 V c 3 t) (iblk3 V c 4 t)) (k3_pay5 (iblk3 V c 5 t)) xs0 (ix2 (0 : Fin 1) j)
      = xs0 (ix2 (0 : Fin 1) j) + rowsN (colG3 V c j) t.val := by
  have ht : t.val < 10 := lt_of_lt_of_eq t.isLt N_3
  rw [k3_pay2_apply, rowsN_of_lt (colG3 V c j) t.val ht]
  exact congrArg (xs0 (ix2 (0 : Fin 1) j) + ·) (Finset.sum_congr rfl fun r _ =>
    blockPay3 V c t r j ⟨10000 * t.val + r.val, by have := r.isLt; omega⟩ rfl)

/-- After the first point the scratch holds, at column `j`, the zero word's value plus block 0's rows. -/
theorem scratch3_first (V : (c : Dev nD) → (b : Ref sig .tc) → Buf (Elt Ideal) ((c : Thread nD τ).loc b)) (c : Dev nD) (t : Fin cfg3.N) (h0 : t.val % 10 = 0) (j : Fin 64) :
    (outsAt3 V c t.val t.isLt).2.2 (ix2 (0 : Fin 1) j) = Ideal.ofBits .f32 0x00000000#32 + rowsN (colG3 V c j) t.val := by
  have h1 : ¬t.val % 10 = 9 := by omega
  rw [outsAt3_A V c t h0 h1]; dsimp only
  refine (congrFun (sout3_A_0_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)) (ix2 (0 : Fin 1) j)).trans ?_
  rw [accStep3 V c t (k3_pay3 (F := Ideal)) j, k3_pay3_apply]

/-- After a later point the scratch holds, at column `j`, what the point before left plus this block's rows. -/
theorem scratch3_later (V : (c : Dev nD) → (b : Ref sig .tc) → Buf (Elt Ideal) ((c : Thread nD τ).loc b)) (c : Dev nD) (t : Fin cfg3.N) (h0 : ¬t.val % 10 = 0) (j : Fin 64) :
    (outsAt3 V c t.val t.isLt).2.2 (ix2 (0 : Fin 1) j)
      = (outsAt3 V c (t.val - 1) (Nat.lt_of_le_of_lt (Nat.sub_le _ _) t.isLt)).2.2 (ix2 (0 : Fin 1) j) + rowsN (colG3 V c j) t.val := by
  by_cases h1 : t.val % 10 = 9
  · rw [outsAt3_C V c t h0 h1]; dsimp only
    refine (congrFun (sout3_C_0_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2) (ix2 (0 : Fin 1) j)).trans ?_
    exact accStep3 V c t (outsAt3 V c (t.val - 1) (Nat.lt_of_le_of_lt (Nat.sub_le _ _) t.isLt)).2.2 j
  · rw [outsAt3_B V c t h0 h1]; dsimp only
    refine (congrFun (sout3_B_0_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2) (ix2 (0 : Fin 1) j)).trans ?_
    exact accStep3 V c t (outsAt3 V c (t.val - 1) (Nat.lt_of_le_of_lt (Nat.sub_le _ _) t.isLt)).2.2 j

/-- THE INVARIANT. After point `n` the scratch holds, at column `j`, the zero word's value plus the rows of blocks
    0 … n of column `j` of the reference's update — by induction on the point. -/
theorem acc3 (V : (c : Dev nD) → (b : Ref sig .tc) → Buf (Elt Ideal) ((c : Thread nD τ).loc b)) (c : Dev nD) : ∀ (n : ℕ) (hn : n < cfg3.N) (j : Fin 64),
    (outsAt3 V c n hn).2.2 (ix2 (0 : Fin 1) j) = Ideal.ofBits .f32 0x00000000#32 + ∑ s ∈ Finset.range (n + 1), rowsN (colG3 V c j) s
  | 0, hn, j => by
    rw [Finset.sum_range_one]
    exact scratch3_first V c ⟨0, hn⟩ rfl j
  | n + 1, hn, j => by
    have hN : n + 1 < 10 := lt_of_lt_of_eq hn N_3
    have e := scratch3_later V c ⟨n + 1, hn⟩ (by dsimp only; omega) j
    rw [Finset.sum_range_succ, ← add_assoc, ← acc3 V c n (Nat.lt_of_succ_lt hn) j]
    exact e

/-- At the last point the body stores to output 7 the scratch it has just updated: the two buffers end equal. -/
theorem vbar_eq_scratch3 (V : (c : Dev nD) → (b : Ref sig .tc) → Buf (Elt Ideal) ((c : Thread nD τ).loc b)) (c : Dev nD) (t : Fin cfg3.N) (h1 : t.val % 10 = 9) :
    (outsAt3 V c t.val t.isLt).2.1 = (outsAt3 V c t.val t.isLt).2.2 := by
  have h0 : ¬t.val % 10 = 0 := by omega
  rw [outsAt3_C V c t h0 h1]; dsimp only
  exact (out3_C_7_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2).trans
    (sout3_C_0_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2).symm

/-- So after the last point output 7's staging buffer holds, at column `j`, the zero word's value plus the sum over all
    100000 rows of column `j` of the reference's update. -/
theorem vbar_last3 (V : (c : Dev nD) → (b : Ref sig .tc) → Buf (Elt Ideal) ((c : Thread nD τ).loc b)) (c : Dev nD) (h9 : 9 < cfg3.N) (j : Fin 64) :
    (outsAt3 V c 9 h9).2.1 (ix2 (0 : Fin 1) j) = Ideal.ofBits .f32 0x00000000#32 + ∑ R : Fin 100000, nodeG3 V c (ix2 R j) := by
  rw [vbar_eq_scratch3 V c ⟨9, h9⟩ rfl, acc3 V c 9 h9 j, sum_rowsN (colG3 V c j)]

end Cert.KernelIdeal.Hand

end
-- ==== Proof.KI.N3.ValueSum.lean ====
/- The node kernel at this region: what the region leaves in output 7's array. The window's one block is the whole 1×64
   array, and the pipeline writes it back once, after the last point; so the array ends holding what the last point left
   in the window's staging buffer (at any values). At the ideal values that row is, column by column, the zero word's
   value plus the sum over all 100000 rows of the reference's node update of the entry arrays: the reference's column
   sums of that update. -/
import proofs.«108204_j49847390437921_1_alg».proof.Proof.KI.N3.ValueAcc
import proofs.«108204_j49847390437921_1_alg».proof.Proof.KI.ValueSumLib

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.Sem
open Idealize.ShloMosaic.Pipeline (Dat Cfg Window)
open Cert.Spec.NodeAt (rowsN rowsN_of_lt sum_rowsN)
open scoped BigOperators

section Final
variable {F : FTy → Type} [FloatOps F] (q : Fin cfg3.W → PosShare TreeShare) (V : (c : Dev nD) → (b : Ref sig .tc) → Buf (Elt F) ((c : Thread nD τ).loc b))

/-- The grid's last point is point 9. -/
theorem last3 : 9 < cfg3.N := by rw [show cfg3.N = 10 from N_3]; decide

/-- What the last point leaves in output 7's staging buffer, as contents of the window's array (its one block is the array). -/
abbrev vbar3 (c : Dev nD) : Buf (Elt F) ((c : Thread nD τ).loc (Pipeline.arrRef spec3 7)) := (outsAt3 V c 9 last3).2.1

/-- The one write-back, after point 9, writes it: block (0, 0) of the 1×64 array read through zero offsets is the array. -/
theorem flushed3_7_eq (c : Dev nD) (t : Fin cfg3.N) (hf : (cfg3.win 7).flush t = true) :
    (dat3 q V c).flushed 7 t = ((cfg3.win 7).blk t).view.read (Elt F) (vbar3 V c) := by
  have hN : cfg3.N = 10 := N_3
  have h9 : t.val = 9 := by have := (flush3_7 t).mp hf; have := t.isLt; omega
  obtain rfl : t = t3_9 := Fin.ext h9
  show (cfg3.win 7).cut (grid3.coords t3_9) ((dat3 q V c).after 7 t3_9) = _
  rw [after3_7]
  have hz' : (fun a : Fin 2 => win3_7.index t3_9 a * (Pipeline.arrRef spec3 7).ty.shape.size a) = fun _ => 0 := funext fun a => by fin_cases a <;> decide
  exact (Memref.read_access_unit_zero (Elt F) (Pipeline.arrRef spec3 7) hz' (fun a => by rw [congrFun hz' a]; simp) (vbar3 V c)).symm

/-- So output 7's array ends holding what the last point left in the staging buffer: point 9's block covers it. -/
theorem final3_7 (c : Dev nD) : (dat3 q V c).arrAt 7 cfg3.N = vbar3 V c :=
  (dat3 q V c).arrAt_eq_of_cover 7 (vbar3 V c) (flushed3_7_eq q V c) fun i =>
    ⟨t3_9, (flush3_7 t3_9).mpr rfl, by
      show i ∈ ((View.whole (Pipeline.arrRef spec3 7)).slice (win3_7.rect t3_9)).set
      rw [View.set_slice_whole, Rect.mem_set_unit]
      intro a
      have h0 : (i 0 : Nat) < 1 := (i 0).isLt
      have h1 : (i 1 : Nat) < 64 := (i 1).isLt
      match a with
      | ⟨0, _⟩ => show win3_7.index t3_9 0 * win3_7.size 0 ≤ (i 0 : Nat) ∧ (i 0 : Nat) < win3_7.index t3_9 0 * win3_7.size 0 + win3_7.xsize (grid3.coords t3_9) 0
                  rw [show win3_7.index t3_9 0 * win3_7.size 0 = 0 from by decide +kernel, show win3_7.xsize (grid3.coords t3_9) 0 = 1 from by decide +kernel]; omega
      | ⟨1, _⟩ => show win3_7.index t3_9 1 * win3_7.size 1 ≤ (i 1 : Nat) ∧ (i 1 : Nat) < win3_7.index t3_9 1 * win3_7.size 1 + win3_7.xsize (grid3.coords t3_9) 1
                  rw [show win3_7.index t3_9 1 * win3_7.size 1 = 0 from by decide +kernel, show win3_7.xsize (grid3.coords t3_9) 1 = 64 from by decide +kernel]; omega⟩

end Final

/-- THE VALUE of output 7: at the ideal values the region leaves in output 7's array the reference's column sums of its
    node update of the arrays the region is entered with. -/
theorem node_sum3 (q : Fin cfg3.W → PosShare TreeShare) (V : (c : Dev nD) → (b : Ref sig .tc) → Buf (Elt Ideal) ((c : Thread nD τ).loc b)) (c : Dev nD) :
    (dat3 (F := Ideal) q V c).arrAt 7 cfg3.N = Cert.Spec.sumV (F := Ideal) (nodeG3 V c) := by
  rw [final3_7 q V c]
  funext i
  obtain ⟨j, rfl⟩ : ∃ j : Fin 64, i = ix2 (0 : Fin 1) j := ⟨i 1, eq_ix2_row0 i⟩
  exact (vbar_last3 V c last3 j).trans (Cert.Spec.NodeAt.sumV_apply (nodeG3 V c) j).symm

end Cert.KernelIdeal.Hand

end
-- ==== Proof.KI.E4.ValueArr.lean ====
/- The edge kernel at the pipeline `cfg4` against the reference's arrays: the seven arrays the region reads,
   each at its literal type (the reference's own array types), the row of the bond arrays that row `r` of the block at
   grid point `t` is (10000·t + r), the windows' index maps decided over the 80 points, and each input window's block
   read at an index as its array at the corresponding index. -/
import proofs.«108204_j49847390437921_1_alg».proof.Proof.KI.E4.Runs
import proofs.«108204_j49847390437921_1_alg».proof.Proof.KI.ValueSpec
import proofs.«108204_j49847390437921_1_alg».proof.Proof.Gen.ReferenceIdeal
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-! ## The region's arrays, at the reference's array types -/

section Arrays
variable (V : (c : Dev nD) → (b : Ref sig .tc) → Buf (Elt F) ((c : Thread nD τ).loc b))

/-- The array window 0 reads, as the region finds it. -/
abbrev arr4_0 (c : Dev nD) : Cert.Spec.Arr F Cert.ReferenceIdeal.S800000x64 .f32 := V c (Pipeline.arrRef spec4 0)
/-- The array window 1 reads, as the region finds it. -/
abbrev arr4_1 (c : Dev nD) : Cert.Spec.Arr F Cert.ReferenceIdeal.S800000x64 .f32 := V c (Pipeline.arrRef spec4 1)
/-- The array window 2 reads, as the region finds it. -/
abbrev arr4_2 (c : Dev nD) : Cert.Spec.Arr F Cert.ReferenceIdeal.S800000x64 .f32 := V c (Pipeline.arrRef spec4 2)
/-- The array window 3 reads, as the region finds it. -/
abbrev arr4_3 (c : Dev nD) : Cert.Spec.Arr F Cert.ReferenceIdeal.S800000x64 .f32 := V c (Pipeline.arrRef spec4 3)
/-- The array window 4 reads, as the region finds it. -/
abbrev arr4_4 (c : Dev nD) : Cert.Spec.Arr F Cert.ReferenceIdeal.S1x64 .f32 := V c (Pipeline.arrRef spec4 4)
/-- The array window 5 reads, as the region finds it. -/
abbrev arr4_5 (c : Dev nD) : Cert.Spec.Arr F Cert.ReferenceIdeal.S5x64x64 .f32 := V c (Pipeline.arrRef spec4 5)
/-- The array window 6 reads, as the region finds it. -/
abbrev arr4_6 (c : Dev nD) : Cert.Spec.Arr F Cert.ReferenceIdeal.S1x64 .f32 := V c (Pipeline.arrRef spec4 6)

end Arrays

/-- Row `r` of the block at grid point `t` is row 10000·t + r of the bond arrays. -/
def row4 (t : Fin cfg4.N) (r : Fin 10000) : Fin 800000 :=
  ⟨10000 * t.val + r.val, by have h1 := t.isLt; have h2 : cfg4.N = 80 := N_4; have h3 := r.isLt; omega⟩

theorem row4_val (t : Fin cfg4.N) (r : Fin 10000) : (row4 t r).val = 10000 * t.val + r.val := rfl

/-! ## The index maps over the grid -/

/-- The printed index maps, decided over the 80 points: the four bond windows and output 7 move one block of rows per
    point; the global row, the weight stack, the bias and output 8 stay at their one block. -/
theorem idx_facts4 : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = t.val ∧ win4_3.index t (1 : Fin 2) = 0)
    ∧ (win4_4.index t (0 : Fin 2) = 0 ∧ win4_4.index t (1 : Fin 2) = 0)
    ∧ (win4_5.index t (0 : Fin 3) = 0 ∧ win4_5.index t (1 : Fin 3) = 0 ∧ win4_5.index t (2 : Fin 3) = 0)
    ∧ (win4_6.index t (0 : Fin 2) = 0 ∧ win4_6.index t (1 : Fin 2) = 0)
    ∧ (win4_7.index t (0 : Fin 2) = t.val ∧ win4_7.index t (1 : Fin 2) = 0)
    ∧ (win4_8.index t (0 : Fin 2) = 0 ∧ win4_8.index t (1 : Fin 2) = 0) :=
  (by decide +kernel : ∀ t : Fin grid4.N, _)

/-! ## The input windows' blocks at an index -/

section Blocks
variable (V : (c : Dev nD) → (b : Ref sig .tc) → Buf (Elt F) ((c : Thread nD τ).loc b))

/-- Window 0's block at point `t`, at row `r`, column `k`: its array at row 10000·t + r, column `k`. -/
theorem iblk4_0_apply (c : Dev nD) (t : Fin cfg4.N) (r : Fin 10000) (k : Fin 64) :
    (iblk4 V c 0 t : Vec F S10000x64 .f32) (ix2 r k) = arr4_0 V c (ix2 (row4 t r) k) := by
  obtain ⟨e0, e1⟩ := (idx_facts4 t).1
  show V c (Pipeline.arrRef spec4 0) (((cfg4.win 0).blk t).view.emb (ix2 r k)) = V c (Pipeline.arrRef spec4 0) (ix2 (row4 t r) k)
  refine congrArg (V c (Pipeline.arrRef spec4 0)) (funext fun a => Fin.ext ?_)
  match a with
  | ⟨0, _⟩ => show win4_0.index t (0 : Fin 2) * 10000 + 1 * r.val = 10000 * t.val + r.val; rw [e0]; omega
  | ⟨1, _⟩ => show win4_0.index t (1 : Fin 2) * 64 + 1 * k.val = k.val; rw [e1]; omega

/-- Window 1's block at point `t`, at row `r`, column `k`: its array at row 10000·t + r, column `k`. -/
theorem iblk4_1_apply (c : Dev nD) (t : Fin cfg4.N) (r : Fin 10000) (k : Fin 64) :
    (iblk4 V c 1 t : Vec F S10000x64 .f32) (ix2 r k) = arr4_1 V c (ix2 (row4 t r) k) := by
  obtain ⟨e0, e1⟩ := (idx_facts4 t).2.1
  show V c (Pipeline.arrRef spec4 1) (((cfg4.win 1).blk t).view.emb (ix2 r k)) = V c (Pipeline.arrRef spec4 1) (ix2 (row4 t r) k)
  refine congrArg (V c (Pipeline.arrRef spec4 1)) (funext fun a => Fin.ext ?_)
  match a with
  | ⟨0, _⟩ => show win4_1.index t (0 : Fin 2) * 10000 + 1 * r.val = 10000 * t.val + r.val; rw [e0]; omega
  | ⟨1, _⟩ => show win4_1.index t (1 : Fin 2) * 64 + 1 * k.val = k.val; rw [e1]; omega

/-- Window 2's block at point `t`, at row `r`, column `k`: its array at row 10000·t + r, column `k`. -/
theorem iblk4_2_apply (c : Dev nD) (t : Fin cfg4.N) (r : Fin 10000) (k : Fin 64) :
    (iblk4 V c 2 t : Vec F S10000x64 .f32) (ix2 r k) = arr4_2 V c (ix2 (row4 t r) k) := by
  obtain ⟨e0, e1⟩ := (idx_facts4 t).2.2.1
  show V c (Pipeline.arrRef spec4 2) (((cfg4.win 2).blk t).view.emb (ix2 r k)) = V c (Pipeline.arrRef spec4 2) (ix2 (row4 t r) k)
  refine congrArg (V c (Pipeline.arrRef spec4 2)) (funext fun a => Fin.ext ?_)
  match a with
  | ⟨0, _⟩ => show win4_2.index t (0 : Fin 2) * 10000 + 1 * r.val = 10000 * t.val + r.val; rw [e0]; omega
  | ⟨1, _⟩ => show win4_2.index t (1 : Fin 2) * 64 + 1 * k.val = k.val; rw [e1]; omega

/-- Window 3's block at point `t`, at row `r`, column `k`: its array at row 10000·t + r, column `k`. -/
theorem iblk4_3_apply (c : Dev nD) (t : Fin cfg4.N) (r : Fin 10000) (k : Fin 64) :
    (iblk4 V c 3 t : Vec F S10000x64 .f32) (ix2 r k) = arr4_3 V c (ix2 (row4 t r) k) := by
  obtain ⟨e0, e1⟩ := (idx_facts4 t).2.2.2.1
  show V c (Pipeline.arrRef spec4 3) (((cfg4.win 3).blk t).view.emb (ix2 r k)) = V c (Pipeline.arrRef spec4 3) (ix2 (row4 t r) k)
  refine congrArg (V c (Pipeline.arrRef spec4 3)) (funext fun a => Fin.ext ?_)
  match a with
  | ⟨0, _⟩ => show win4_3.index t (0 : Fin 2) * 10000 + 1 * r.val = 10000 * t.val + r.val; rw [e0]; omega
  | ⟨1, _⟩ => show win4_3.index t (1 : Fin 2) * 64 + 1 * k.val = k.val; rw [e1]; omega

/-- Window 4's block at any point is its whole 1×64 array. -/
theorem iblk4_4_apply (c : Dev nD) (t : Fin cfg4.N) (k : Fin 64) :
    (iblk4 V c 4 t : Vec F S1x64 .f32) (ix2 (0 : Fin 1) k) = arr4_4 V c (ix2 (0 : Fin 1) k) := by
  obtain ⟨e0, e1⟩ := (idx_facts4 t).2.2.2.2.1
  show V c (Pipeline.arrRef spec4 4) (((cfg4.win 4).blk t).view.emb (ix2 (0 : Fin 1) k)) = V c (Pipeline.arrRef spec4 4) (ix2 (0 : Fin 1) k)
  refine congrArg (V c (Pipeline.arrRef spec4 4)) (funext fun a => Fin.ext ?_)
  match a with
  | ⟨0, _⟩ => show win4_4.index t (0 : Fin 2) * 1 + 1 * (0 : Fin 1).val = (0 : Fin 1).val; rw [e0]; simp
  | ⟨1, _⟩ => show win4_4.index t (1 : Fin 2) * 64 + 1 * k.val = k.val; rw [e1]; omega

/-- Window 5's block at any point is the whole 5×64×64 weight stack. -/
theorem iblk4_5_apply (c : Dev nD) (t : Fin cfg4.N) (s : Fin 5) (a b : Fin 64) :
    (iblk4 V c 5 t : Vec F S5x64x64 .f32) (ix3 s a b) = arr4_5 V c (ix3 s a b) := by
  obtain ⟨e0, e1, e2⟩ := (idx_facts4 t).2.2.2.2.2.1
  show V c (Pipeline.arrRef spec4 5) (((cfg4.win 5).blk t).view.emb (ix3 s a b)) = V c (Pipeline.arrRef spec4 5) (ix3 s a b)
  refine congrArg (V c (Pipeline.arrRef spec4 5)) (funext fun d => Fin.ext ?_)
  match d with
  | ⟨0, _⟩ => show win4_5.index t (0 : Fin 3) * 5 + 1 * s.val = s.val; rw [e0]; omega
  | ⟨1, _⟩ => show win4_5.index t (1 : Fin 3) * 64 + 1 * a.val = a.val; rw [e1]; omega
  | ⟨2, _⟩ => show win4_5.index t (2 : Fin 3) * 64 + 1 * b.val = b.val; rw [e2]; omega

/-- Window 6's block at any point is its whole 1×64 array. -/
theorem iblk4_6_apply (c : Dev nD) (t : Fin cfg4.N) (k : Fin 64) :
    (iblk4 V c 6 t : Vec F S1x64 .f32) (ix2 (0 : Fin 1) k) = arr4_6 V c (ix2 (0 : Fin 1) k) := by
  obtain ⟨e0, e1⟩ := (idx_facts4 t).2.2.2.2.2.2.1
  show V c (Pipeline.arrRef spec4 6) (((cfg4.win 6).blk t).view.emb (ix2 (0 : Fin 1) k)) = V c (Pipeline.arrRef spec4 6) (ix2 (0 : Fin 1) k)
  refine congrArg (V c (Pipeline.arrRef spec4 6)) (funext fun a => Fin.ext ?_)
  match a with
  | ⟨0, _⟩ => show win4_6.index t (0 : Fin 2) * 1 + 1 * (0 : Fin 1).val = (0 : Fin 1).val; rw [e0]; simp
  | ⟨1, _⟩ => show win4_6.index t (1 : Fin 2) * 64 + 1 * k.val = k.val; rw [e1]; omega

end Blocks

/-! ## A slab of a loaded weight stack -/

/-- The body's load of slab `k` of the weight stack's staging buffer, at (0, a, b): the buffer at (k, a, b). -/
theorem eslabLd4_apply {Val : EltTy → Type} {e : EltTy} (x5 : S5x64x64.Idx → Val e) (k : ℕ) (hk : k < 5)
    (inb : ∀ d, (![k, 0, 0] : Fin 3 → Nat) d + S1x64x64.size d ≤ S5x64x64.size d) (a b : Fin 64) :
    View.ld x5 (Rect.unit (s := S5x64x64) ![k, 0, 0] S1x64x64.size inb) (ix3 (0 : Fin 1) a b) = x5 (ix3 (⟨k, hk⟩ : Fin 5) a b) :=
  congrArg x5 (funext fun d => Fin.ext (by
    match d with
    | ⟨0, _⟩ => show k + 1 * (0 : Fin 1).val = k; simp
    | ⟨1, _⟩ => show 0 + 1 * a.val = a.val; omega
    | ⟨2, _⟩ => show 0 + 1 * b.val = b.val; omega))

end Cert.KernelIdeal.Hand

end
-- ==== Proof.KI.E4.ValuePiecesS.lean ====
/- The edge kernel at the pipeline `cfg4`: what each case of its body leaves in output 7's block, in output 8's block and
   in the carried scratch, as the body's payloads of the point's input blocks. Every buffer is filled by one store of its
   whole extent (the scratch at the first point by two, the later covering), so the pieces the run found read back as the
   stored payload; the loads read whole staging buffers, except the five 1×64×64 slabs of the stack of weight matrices. -/
import proofs.«108204_j49847390437921_1_alg».proof.Proof.KI.E4.Body
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable {F : FTy → Type} [FloatOps F]

theorem hzE4 : (![0, 0] : Fin 2 → Nat) = fun _ => 0 := funext fun a => by fin_cases a <;> rfl

/-- Slab `k` of the loaded 5×64×64 stack of weight matrices: the rectangle of extent 1×64×64 at offset (`k`, 0, 0). -/
abbrev eslab4_0 (x5 : Vec F S5x64x64 .f32) : Vec F S1x64x64 .f32 := View.ld x5 (Rect.unit (s := S5x64x64) ![0, 0, 0] S1x64x64.size inb_S5x64x64_S1x64x64_0_0_0)
abbrev eslab4_1 (x5 : Vec F S5x64x64 .f32) : Vec F S1x64x64 .f32 := View.ld x5 (Rect.unit (s := S5x64x64) ![1, 0, 0] S1x64x64.size inb_S5x64x64_S1x64x64_1_0_0)
abbrev eslab4_2 (x5 : Vec F S5x64x64 .f32) : Vec F S1x64x64 .f32 := View.ld x5 (Rect.unit (s := S5x64x64) ![2, 0, 0] S1x64x64.size inb_S5x64x64_S1x64x64_2_0_0)
abbrev eslab4_3 (x5 : Vec F S5x64x64 .f32) : Vec F S1x64x64 .f32 := View.ld x5 (Rect.unit (s := S5x64x64) ![3, 0, 0] S1x64x64.size inb_S5x64x64_S1x64x64_3_0_0)
abbrev eslab4_4 (x5 : Vec F S5x64x64 .f32) : Vec F S1x64x64 .f32 := View.ld x5 (Rect.unit (s := S5x64x64) ![4, 0, 0] S1x64x64.size inb_S5x64x64_S1x64x64_4_0_0)

/-- The four bond-wise products summed, from a point's input blocks: the four row blocks against slabs 0, 1, 2, 3. -/
abbrev esum4 (x0 x1 x2 x3 : Vec F S10000x64 .f32) (x5 : Vec F S5x64x64 .f32) : FVec F S10000x64 .f32 :=
  k4_pay5 x0 x1 x2 x3 (eslab4_0 x5) (eslab4_1 x5) (eslab4_2 x5) (eslab4_3 x5)

/-- OUTPUT 7'S BLOCK from a point's input blocks: the summed products, plus the global row against slab 4 and the bias
    row broadcast down the rows, clamped at zero. -/
abbrev eblk4 (x0 x1 x2 x3 : Vec F S10000x64 .f32) (x4 : Vec F S1x64 .f32) (x5 : Vec F S5x64x64 .f32) (x6 : Vec F S1x64 .f32) : FVec F S10000x64 .f32 :=
  k4_pay1 (k4_pay4 x4) (esum4 x0 x1 x2 x3 x5) (eslab4_4 x5) x6

/-- THE SCRATCH'S UPDATE from a point's input blocks and what the scratch held (`v40`): that, plus the column sums of
    output 7's block. -/
abbrev escr4 (x0 x1 x2 x3 : Vec F S10000x64 .f32) (x4 : Vec F S1x64 .f32) (x5 : Vec F S5x64x64 .f32) (x6 : Vec F S1x64 .f32) (v40 : Vec F S1x64 .f32) : FVec F S1x64 .f32 :=
  k4_pay2 (k4_pay4 x4) (esum4 x0 x1 x2 x3 x5) (eslab4_4 x5) x6 v40

/-! ## Output 7: the update's block, at every point -/

/-- At the first point output 7's staging buffer is left at the update's block. -/
theorem out4_A_7_eq (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) :
    out4_A_7 c i arg1 harg1 arg2 harg2 arg3 harg3 arg4 harg4 arg5 harg5 arg6 harg6 arg7 harg7 arg8 harg8 arg9 harg9 arg10 harg10 hc0 hc1 x0 x1 x2 x3 x4 x5 x6 = eblk4 x0 x1 x2 x3 x4 x5 x6 := by
  unfold out4_A_7
  rw [View.read_writes_eq_canon _ _ _ (cover4_A_7 c i arg1 harg1 arg2 harg2 arg3 harg3 arg4 harg4 arg5 harg5 arg6 harg6 arg7 harg7 arg8 harg8 arg9 harg9 arg10 harg10 hc0 hc1 x0 x1 x2 x3 x4 x5 x6)]
  unfold kernelRun4_A
  dsimp only
  sl_unfold_words
  rw [View.canon_unit_zero hzE4]
  simp only [View.readAt_eq_ld, harg1.read_unread, harg2.read_unread, harg3.read_unread, harg4.read_unread, harg5.read_unread, harg6.read_unread, harg7.read_unread, harg10.read_unread, View.ld_unit_zero (S := S10000x64) hzE4, View.ld_unit_zero (S := S1x64) hzE4, View.readCov_unit_zero (S := S1x64) _ hzE4]

/-- At a middle point output 7's staging buffer is left at the update's block. -/
theorem out4_B_7_eq (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    out4_B_7 c i arg1 harg1 arg2 harg2 arg3 harg3 arg4 harg4 arg5 harg5 arg6 harg6 arg7 harg7 arg8 harg8 arg9 harg9 arg10 harg10 hc0 hc1 x0 x1 x2 x3 x4 x5 x6 xs0 = eblk4 x0 x1 x2 x3 x4 x5 x6 := by
  unfold out4_B_7
  rw [View.read_writes_eq_canon _ _ _ (cover4_B_7 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun4_B
  dsimp only
  sl_unfold_words
  rw [View.canon_unit_zero hzE4]
  simp only [View.readAt_eq_ld, harg1.read_unread, harg2.read_unread, harg3.read_unread, harg4.read_unread, harg5.read_unread, harg6.read_unread, harg7.read_unread, harg10.read_unread, View.ld_unit_zero (S := S10000x64) hzE4, View.ld_unit_zero (S := S1x64) hzE4, View.readCov_unit_zero (S := S1x64) _ hzE4]

/-- At the last point output 7's staging buffer is left at the update's block. -/
theorem out4_C_7_eq (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    out4_C_7 c i arg1 harg1 arg2 harg2 arg3 harg3 arg4 harg4 arg5 harg5 arg6 harg6 arg7 harg7 arg8 harg8 arg9 harg9 arg10 harg10 hc0 hc1 x0 x1 x2 x3 x4 x5 x6 xs0 = eblk4 x0 x1 x2 x3 x4 x5 x6 := by
  unfold out4_C_7
  rw [View.read_writes_eq_canon _ _ _ (cover4_C_7 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun4_C
  dsimp only
  sl_unfold_words
  rw [View.canon_unit_zero hzE4]
  simp only [View.readAt_eq_ld, harg1.read_unread, harg2.read_unread, harg3.read_unread, harg4.read_unread, harg5.read_unread, harg6.read_unread, harg7.read_unread, harg10.read_unread, View.ld_unit_zero (S := S10000x64) hzE4, View.ld_unit_zero (S := S1x64) hzE4, View.readCov_unit_zero (S := S1x64) _ hzE4]

/-! ## The scratch: the column sums carried from point to point -/

/-- At the first point the scratch is reset to the zero row, read back, and left at that plus the block's column sums. -/
theorem sout4_A_0_eq (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) :
    sout4_A_0 c i arg1 harg1 arg2 harg2 arg3 harg3 arg4 harg4 arg5 harg5 arg6 harg6 arg7 harg7 arg8 harg8 arg9 harg9 arg10 harg10 hc0 hc1 x0 x1 x2 x3 x4 x5 x6 = escr4 x0 x1 x2 x3 x4 x5 x6 (k4_pay3 (F := F)) := by
  unfold sout4_A_0
  rw [View.read_writes_eq_canon _ _ _ (scover4_A_0 c i arg1 harg1 arg2 harg2 arg3 harg3 arg4 harg4 arg5 harg5 arg6 harg6 arg7 harg7 arg8 harg8 arg9 harg9 arg10 harg10 hc0 hc1 x0 x1 x2 x3 x4 x5 x6)]
  unfold kernelRun4_A
  dsimp only
  sl_unfold_words
  rw [View.canon_cons_unit_zero (S := S1x64) hzE4]
  simp only [View.readAt_eq_ld, harg1.read_unread, harg2.read_unread, harg3.read_unread, harg4.read_unread, harg5.read_unread, harg6.read_unread, harg7.read_unread, harg10.read_unread, View.ld_unit_zero (S := S10000x64) hzE4, View.ld_unit_zero (S := S1x64) hzE4, View.readCov_unit_zero (S := S1x64) _ hzE4]

/-- At a middle point the scratch is left at what the point before left plus the block's column sums. -/
theorem sout4_B_0_eq (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : ¬cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    sout4_B_0 c i arg1 harg1 arg2 harg2 arg3 harg3 arg4 harg4 arg5 harg5 arg6 harg6 arg7 harg7 arg8 harg8 arg9 harg9 arg10 harg10 hc0 hc1 x0 x1 x2 x3 x4 x5 x6 xs0 = escr4 x0 x1 x2 x3 x4 x5 x6 xs0 := by
  unfold sout4_B_0
  rw [View.read_writes_eq_canon _ _ _ (scover4_B_0 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun4_B
  dsimp only
  sl_unfold_words
  rw [View.canon_unit_zero hzE4]
  simp only [View.readAt_eq_ld, harg1.read_unread, harg2.read_unread, harg3.read_unread, harg4.read_unread, harg5.read_unread, harg6.read_unread, harg7.read_unread, harg10.read_unread, View.ld_unit_zero (S := S10000x64) hzE4, View.ld_unit_zero (S := S1x64) hzE4, View.readCov_unit_zero (S := S1x64) _ hzE4]

/-- At the last point the scratch is left at what the point before left plus the block's column sums. -/
theorem sout4_C_0_eq (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    sout4_C_0 c i arg1 harg1 arg2 harg2 arg3 harg3 arg4 harg4 arg5 harg5 arg6 harg6 arg7 harg7 arg8 harg8 arg9 harg9 arg10 harg10 hc0 hc1 x0 x1 x2 x3 x4 x5 x6 xs0 = escr4 x0 x1 x2 x3 x4 x5 x6 xs0 := by
  unfold sout4_C_0
  rw [View.read_writes_eq_canon _ _ _ (scover4_C_0 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun4_C
  dsimp only
  sl_unfold_words
  rw [View.canon_unit_zero hzE4]
  simp only [View.readAt_eq_ld, harg1.read_unread, harg2.read_unread, harg3.read_unread, harg4.read_unread, harg5.read_unread, harg6.read_unread, harg7.read_unread, harg10.read_unread, View.ld_unit_zero (S := S10000x64) hzE4, View.ld_unit_zero (S := S1x64) hzE4, View.readCov_unit_zero (S := S1x64) _ hzE4]

/-! ## Output 8: the scratch stored at the last point -/

/-- At the last point output 8's staging buffer is left at the scratch's new contents, read back after its store. -/
theorem out4_C_8_eq (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x64 .f32) (harg3 : arg3.IsWhole) (arg4 : Memref sig .tc .vmem S10000x64 .f32) (harg4 : arg4.IsWhole) (arg5 : Memref sig .tc .vmem S1x64 .f32) (harg5 : arg5.IsWhole) (arg6 : Memref sig .tc .vmem S5x64x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (hc0 : ¬cond4_0 i) (hc1 : cond4_1 i)
    (x0 : Vec F S10000x64 .f32) (x1 : Vec F S10000x64 .f32) (x2 : Vec F S10000x64 .f32) (x3 : Vec F S10000x64 .f32) (x4 : Vec F S1x64 .f32) (x5 : Vec F S5x64x64 .f32) (x6 : Vec F S1x64 .f32) (xs0 : Vec F S1x64 .f32) :
    out4_C_8 c i arg1 harg1 arg2 harg2 arg3 harg3 arg4 harg4 arg5 harg5 arg6 harg6 arg7 harg7 arg8 harg8 arg9 harg9 arg10 harg10 hc0 hc1 x0 x1 x2 x3 x4 x5 x6 xs0 = escr4 x0 x1 x2 x3 x4 x5 x6 xs0 := by
  unfold out4_C_8
  rw [View.read_writes_eq_canon _ _ _ (cover4_C_8 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun4_C
  dsimp only
  sl_unfold_words
  rw [View.canon_unit_zero hzE4]
  simp only [View.readAt_eq_ld, harg1.read_unread, harg2.read_unread, harg3.read_unread, harg4.read_unread, harg5.read_unread, harg6.read_unread, harg7.read_unread, harg10.read_unread, View.ld_unit_zero (S := S10000x64) hzE4, View.ld_unit_zero (S := S1x64) hzE4, View.readCov_unit_zero (S := S1x64) _ hzE4]

end Cert.KernelIdeal.Hand

end
-- ==== Proof.KI.E4.ValuePay.lean ====
/- The edge kernel's payloads at the pipeline `cfg4`, read at an index at the ideal values: the four block matmuls summed
   (`k4_pay5`), the global row passed through (`k4_pay4`), the block's update — the sum, plus the global row's matmul
   and the bias broadcast down the rows, clamped at zero (`k4_pay1`) —, the scratch's update by the block's column sums
   (`k4_pay2`) and its reset (`k4_pay3`). Each is stated over variables of the literal vector types. -/
import proofs.«108204_j49847390437921_1_alg».proof.Proof.Gen.KernelIdeal.Skeleton
import proofs.«108204_j49847390437921_1_alg».proof.Proof.KI.ValueMM

noncomputable section

namespace Cert.KernelIdeal.Hand

open Cert.KernelIdeal Cert.KernelIdeal.Gen
open Idealize.ShloMosaic Idealize.ShloMosaic.ValueIdx

/-- The sum of the four block matmuls at row `r`, column `j`: four sums over the contracted coordinate, added first to last. -/
theorem k4_pay5_apply (v3 v5 v7 v9 : Vec Ideal S10000x64 .f32) (v13 v16 v20 v24 : Vec Ideal S1x64x64 .f32) (r : Fin 10000) (j : Fin 64) :
    k4_pay5 v3 v5 v7 v9 v13 v16 v20 v24 (ix2 r j)
      = (∑ k : Fin 64, v3 (ix2 r k) * v13 (ix3 (0 : Fin 1) k j)) + (∑ k : Fin 64, v5 (ix2 r k) * v16 (ix3 (0 : Fin 1) k j))
        + (∑ k : Fin 64, v7 (ix2 r k) * v20 (ix3 (0 : Fin 1) k j)) + (∑ k : Fin 64, v9 (ix2 r k) * v24 (ix3 (0 : Fin 1) k j)) := by
  unfold k4_pay5
  simp only [addf_apply, mmBlk_apply, shapeCast_self, slabCast_apply]

/-- The global row is passed on as loaded. -/
theorem k4_pay4_eq {F : FTy → Type} [FloatOps F] (v11 : Vec F S1x64 .f32) : k4_pay4 v11 = v11 := by
  unfold k4_pay4
  exact shapeCast_self _ _

/-- The block's update at row `r`, column `j`: what the matmuls left there, plus the global row's matmul at `j`, plus the
    bias at `j`, clamped at zero. -/
theorem k4_pay1_apply (v12 : FVec Ideal S1x64 .f32) (v27 : FVec Ideal S10000x64 .f32) (v28 : Vec Ideal S1x64x64 .f32) (v33 : Vec Ideal S1x64 .f32)
    (r : Fin 10000) (j : Fin 64) :
    k4_pay1 v12 v27 v28 v33 (ix2 r j)
      = max (v27 (ix2 r j) + (∑ k : Fin 64, v12 (ix2 (0 : Fin 1) k) * v28 (ix3 (0 : Fin 1) k j)) + v33 (ix2 (0 : Fin 1) j))
          (Ideal.ofBits .f32 0x00000000#32) := by
  unfold k4_pay1
  simp only [maximumf_apply, addf_apply, rowBcast_apply, mmRow_apply, shapeCast_self, slabCast_apply, broadcast_apply]
  rfl

/-- The scratch's update at column `j`: what it held, plus the sum over the block's rows of the block's update. -/
theorem k4_pay2_apply (v12 : FVec Ideal S1x64 .f32) (v27 : FVec Ideal S10000x64 .f32) (v28 : Vec Ideal S1x64x64 .f32) (v33 : Vec Ideal S1x64 .f32)
    (v40 : Vec Ideal S1x64 .f32) (j : Fin 64) :
    k4_pay2 v12 v27 v28 v33 v40 (ix2 (0 : Fin 1) j)
      = v40 (ix2 (0 : Fin 1) j) + ∑ r : Fin 10000, k4_pay1 v12 v27 v28 v33 (ix2 r j) := by
  unfold k4_pay2
  simp only [shapeCast_self, addf_apply, vecRow_apply]
  exact congrArg (v40 (ix2 (0 : Fin 1) j) + ·) (colSum_apply _ _ _ _ j)

/-- The scratch's reset: the zero word everywhere. -/
theorem k4_pay3_apply (i : S1x64.Idx) : k4_pay3 (F := Ideal) i = Ideal.ofBits .f32 0x00000000#32 := by
  unfold k4_pay3
  simp only [shapeCast_self, broadcast_apply]
  rfl

end Cert.KernelIdeal.Hand

end
-- ==== Proof.KI.E4.ValueBlk.lean ====
/- The edge kernel's block at the pipeline `cfg4` against the reference: output 7's block from a point's input blocks, read
   at row `r`, column `j`, is the clamped sum of the five sums over the contracted coordinate and the bias; with the input
   blocks read off the arrays (rows 10000·t + r of the bond arrays, the whole global row, weight stack and bias) this is
   the reference's edge update at row 10000·t + r, column `j`, term for term in the same order of additions. -/
import proofs.«108204_j49847390437921_1_alg».proof.Proof.KI.E4.ValueArr
import proofs.«108204_j49847390437921_1_alg».proof.Proof.KI.E4.ValuePiecesS
import proofs.«108204_j49847390437921_1_alg».proof.Proof.KI.E4.ValuePay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-! ## The loaded slabs at an index -/

theorem eslab4_0_apply (x5 : Vec Ideal S5x64x64 .f32) (a b : Fin 64) : eslab4_0 x5 (ix3 (0 : Fin 1) a b) = x5 (ix3 (0 : Fin 5) a b) :=
  eslabLd4_apply x5 0 (by omega) inb_S5x64x64_S1x64x64_0_0_0 a b
theorem eslab4_1_apply (x5 : Vec Ideal S5x64x64 .f32) (a b : Fin 64) : eslab4_1 x5 (ix3 (0 : Fin 1) a b) = x5 (ix3 (1 : Fin 5) a b) :=
  eslabLd4_apply x5 1 (by omega) inb_S5x64x64_S1x64x64_1_0_0 a b
theorem eslab4_2_apply (x5 : Vec Ideal S5x64x64 .f32) (a b : Fin 64) : eslab4_2 x5 (ix3 (0 : Fin 1) a b) = x5 (ix3 (2 : Fin 5) a b) :=
  eslabLd4_apply x5 2 (by omega) inb_S5x64x64_S1x64x64_2_0_0 a b
theorem eslab4_3_apply (x5 : Vec Ideal S5x64x64 .f32) (a b : Fin 64) : eslab4_3 x5 (ix3 (0 : Fin 1) a b) = x5 (ix3 (3 : Fin 5) a b) :=
  eslabLd4_apply x5 3 (by omega) inb_S5x64x64_S1x64x64_3_0_0 a b
theorem eslab4_4_apply (x5 : Vec Ideal S5x64x64 .f32) (a b : Fin 64) : eslab4_4 x5 (ix3 (0 : Fin 1) a b) = x5 (ix3 (4 : Fin 5) a b) :=
  eslabLd4_apply x5 4 (by omega) inb_S5x64x64_S1x64x64_4_0_0 a b

/-! ## Output 7's block at an index -/

/-- The block's update over any five 1×64×64 slabs that read as slabs 0 … 4 of a weight stack `x5`, at row `r`, column `j`. -/
theorem eblk4_core (x0 x1 x2 x3 : Vec Ideal S10000x64 .f32) (x4 : Vec Ideal S1x64 .f32) (x5 : Vec Ideal S5x64x64 .f32) (x6 : Vec Ideal S1x64 .f32)
    (w0 w1 w2 w3 w4 : Vec Ideal S1x64x64 .f32)
    (hw0 : ∀ a b : Fin 64, w0 (ix3 (0 : Fin 1) a b) = x5 (ix3 (0 : Fin 5) a b))
    (hw1 : ∀ a b : Fin 64, w1 (ix3 (0 : Fin 1) a b) = x5 (ix3 (1 : Fin 5) a b))
    (hw2 : ∀ a b : Fin 64, w2 (ix3 (0 : Fin 1) a b) = x5 (ix3 (2 : Fin 5) a b))
    (hw3 : ∀ a b : Fin 64, w3 (ix3 (0 : Fin 1) a b) = x5 (ix3 (3 : Fin 5) a b))
    (hw4 : ∀ a b : Fin 64, w4 (ix3 (0 : Fin 1) a b) = x5 (ix3 (4 : Fin 5) a b))
    (r : Fin 10000) (j : Fin 64) :
    k4_pay1 (k4_pay4 x4) (k4_pay5 x0 x1 x2 x3 w0 w1 w2 w3) w4 x6 (ix2 r j)
      = max ((∑ k : Fin 64, x0 (ix2 r k) * x5 (ix3 (0 : Fin 5) k j)) + (∑ k : Fin 64, x1 (ix2 r k) * x5 (ix3 (1 : Fin 5) k j))
          + (∑ k : Fin 64, x2 (ix2 r k) * x5 (ix3 (2 : Fin 5) k j)) + (∑ k : Fin 64, x3 (ix2 r k) * x5 (ix3 (3 : Fin 5) k j))
          + (∑ k : Fin 64, x4 (ix2 (0 : Fin 1) k) * x5 (ix3 (4 : Fin 5) k j)) + x6 (ix2 (0 : Fin 1) j))
          (Ideal.ofBits .f32 0x00000000#32) := by
  rw [k4_pay1_apply, k4_pay5_apply, k4_pay4_eq]
  simp only [hw0, hw1, hw2, hw3, hw4]

/-- Output 7's block from a point's input blocks, at row `r`, column `j`. -/
theorem eblk4_apply (x0 x1 x2 x3 : Vec Ideal S10000x64 .f32) (x4 : Vec Ideal S1x64 .f32) (x5 : Vec Ideal S5x64x64 .f32) (x6 : Vec Ideal S1x64 .f32)
    (r : Fin 10000) (j : Fin 64) :
    eblk4 x0 x1 x2 x3 x4 x5 x6 (ix2 r j)
      = max ((∑ k : Fin 64, x0 (ix2 r k) * x5 (ix3 (0 : Fin 5) k j)) + (∑ k : Fin 64, x1 (ix2 r k) * x5 (ix3 (1 : Fin 5) k j))
          + (∑ k : Fin 64, x2 (ix2 r k) * x5 (ix3 (2 : Fin 5) k j)) + (∑ k : Fin 64, x3 (ix2 r k) * x5 (ix3 (3 : Fin 5) k j))
          + (∑ k : Fin 64, x4 (ix2 (0 : Fin 1) k) * x5 (ix3 (4 : Fin 5) k j)) + x6 (ix2 (0 : Fin 1) j))
          (Ideal.ofBits .f32 0x00000000#32) :=
  eblk4_core x0 x1 x2 x3 x4 x5 x6 (eslab4_0 x5) (eslab4_1 x5) (eslab4_2 x5) (eslab4_3 x5) (eslab4_4 x5)
    (eslab4_0_apply x5) (eslab4_1_apply x5) (eslab4_2_apply x5) (eslab4_3_apply x5) (eslab4_4_apply x5) r j

/-- Over any blocks and arrays: if row `r` of the four bond blocks is row `R` of the bond arrays, and the global row, the
    weight stack and the bias row are the arrays', then output 7's block at row `r`, column `j` is the reference's edge
    update at row `R`, column `j` — the same five sums and bias, added in the same order, clamped at the same zero. -/
theorem eblk4_eq_edge1 (x0 x1 x2 x3 : Vec Ideal S10000x64 .f32) (x4 : Vec Ideal S1x64 .f32) (x5 : Vec Ideal S5x64x64 .f32) (x6 : Vec Ideal S1x64 .f32)
    (he he0 hl hr : Cert.Spec.Arr Ideal Cert.ReferenceIdeal.S800000x64 .f32) (hu : Cert.Spec.Arr Ideal Cert.ReferenceIdeal.S1x64 .f32)
    (We : Cert.Spec.Arr Ideal Cert.ReferenceIdeal.S5x64x64 .f32) (be1 : Cert.Spec.Arr Ideal Cert.ReferenceIdeal.S1x64 .f32)
    (r : Fin 10000) (R : Fin 800000) (j : Fin 64)
    (h0 : ∀ k : Fin 64, x0 (ix2 r k) = he (ix2 R k)) (h1 : ∀ k : Fin 64, x1 (ix2 r k) = he0 (ix2 R k))
    (h2 : ∀ k : Fin 64, x2 (ix2 r k) = hl (ix2 R k)) (h3 : ∀ k : Fin 64, x3 (ix2 r k) = hr (ix2 R k))
    (h4 : ∀ k : Fin 64, x4 (ix2 (0 : Fin 1) k) = hu (ix2 (0 : Fin 1) k))
    (h5 : ∀ (s : Fin 5) (a b : Fin 64), x5 (ix3 s a b) = We (ix3 s a b))
    (h6 : ∀ k : Fin 64, x6 (ix2 (0 : Fin 1) k) = be1 (ix2 (0 : Fin 1) k)) :
    eblk4 x0 x1 x2 x3 x4 x5 x6 (ix2 r j) = Cert.Spec.edge1 he he0 hl hr hu We be1 (ix2 R j) := by
  rw [eblk4_apply, Cert.Spec.edge1_apply]
  simp only [h0, h1, h2, h3, h4, h5, h6]

/-- OUTPUT 7'S BLOCK IS THE REFERENCE'S: from the input blocks of point `t`, at row `r`, column `j`, it is the reference's
    edge update of the region's arrays at row 10000·t + r, column `j`. -/
theorem eblk4_block2 (V : (c : Dev nD) → (b : Ref sig .tc) → Buf (Elt Ideal) ((c : Thread nD τ).loc b)) (c : Dev nD)
    (t : Fin cfg4.N) (r : Fin 10000) (j : Fin 64) :
    eblk4 (F := Ideal) (iblk4 V c 0 t) (iblk4 V c 1 t) (iblk4 V c 2 t) (iblk4 V c 3 t) (iblk4 V c 4 t) (iblk4 V c 5 t) (iblk4 V c 6 t) (ix2 r j)
      = Cert.Spec.edge1 (arr4_0 V c) (arr4_1 V c) (arr4_2 V c) (arr4_3 V c) (arr4_4 V c) (arr4_5 V c) (arr4_6 V c) (ix2 (row4 t r) j) :=
  eblk4_eq_edge1 (iblk4 V c 0 t) (iblk4 V c 1 t) (iblk4 V c 2 t) (iblk4 V c 3 t) (iblk4 V c 4 t) (iblk4 V c 5 t) (iblk4 V c 6 t)
    (arr4_0 V c) (arr4_1 V c) (arr4_2 V c) (arr4_3 V c) (arr4_4 V c) (arr4_5 V c) (arr4_6 V c) r (row4 t r) j
    (fun k => iblk4_0_apply V c t r k) (fun k => iblk4_1_apply V c t r k) (fun k => iblk4_2_apply V c t r k) (fun k => iblk4_3_apply V c t r k)
    (fun k => iblk4_4_apply V c t k) (fun s a b => iblk4_5_apply V c t s a b) (fun k => iblk4_6_apply V c t k)

end Cert.KernelIdeal.Hand

end
-- ==== Proof.KI.E4.ValueCover.lean ====
/- This region's first output array, 800000 rows of 64: every index of it lies in the block some point writes back. Point `t`
   writes rows `10000·t … 10000·t + 9999`, all 64 columns; the 80 blocks tile the rows, row `R` lying in block `R / 10000`. -/
import proofs.«108204_j49847390437921_1_alg».proof.Proof.Gen.KernelIdeal.Points
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

/-- Output 7's index map, decided over the 80 points: block `t` of the rows, the one block of the columns. -/
theorem idx_rows4_7 : ∀ t : Fin cfg4.N, win4_7.index t (0 : Fin 2) = t.val ∧ win4_7.index t (1 : Fin 2) = 0 :=
  (by decide +kernel : ∀ t : Fin grid4.N, _)

/-- An index of the array is in point `t`'s block iff each coordinate is in the block's range on its axis. -/
theorem mem_blk4_7 (t : Fin cfg4.N) (i : S800000x64.Idx) :
    i ∈ ((cfg4.win 7).blk t).view.set ↔ ∀ a : Fin 2, win4_7.index t a * S10000x64.size a ≤ (i a).val ∧ (i a).val < win4_7.index t a * S10000x64.size a + S10000x64.size a := by
  show i ∈ ((View.whole (Pipeline.arrRef spec4 7)).slice (win4_7.rect t)).set ↔ _
  rw [View.set_slice_whole, Rect.mem_set_unit]
  exact Iff.rfl

/-- Every index of the array is in some point's block, and every point writes its block back: row `R` is in the block
    of point `R / 10000`. -/
theorem cover4_7 : ∀ i : S800000x64.Idx, ∃ t : Fin cfg4.N, (cfg4.win 7).flush t = true ∧ i ∈ ((cfg4.win 7).blk t).view.set := by
  intro i
  have hi0 : (i 0).val < 800000 := (i 0).isLt
  have hi1 : (i 1).val < 64 := (i 1).isLt
  have hN : cfg4.N = 80 := by decide
  obtain ⟨t, ht⟩ : ∃ t : Fin cfg4.N, t.val = (i 0).val / 10000 := ⟨⟨(i 0).val / 10000, by omega⟩, rfl⟩
  obtain ⟨e0, e1⟩ := idx_rows4_7 t
  refine ⟨t, flush4_7 t, ?_⟩
  rw [mem_blk4_7]
  intro a
  match a with
  | ⟨0, _⟩ =>
    show win4_7.index t (0 : Fin 2) * 10000 ≤ (i 0).val ∧ (i 0).val < win4_7.index t (0 : Fin 2) * 10000 + 10000
    rw [e0]; omega
  | ⟨1, _⟩ =>
    show win4_7.index t (1 : Fin 2) * 64 ≤ (i 1).val ∧ (i 1).val < win4_7.index t (1 : Fin 2) * 64 + 64
    rw [e1]; omega

end Cert.KernelIdeal.Hand

end
-- ==== Proof.KI.E4.ValueOut.lean ====
/- The edge kernel's first output at the pipeline `cfg4` is the reference's edge update: after every point output 7's staging
   buffer holds the update's block of that point's input blocks (whichever case the point is in), which is rows
   10000·t … 10000·t + 9999 of the reference's edge update of the region's arrays; every point writes its block back, the 80
   blocks tile the 800000 rows (the cover, proved apart), so the array ends holding the edge update. -/
import proofs.«108204_j49847390437921_1_alg».proof.Proof.KI.E4.ValueBlk
import proofs.«108204_j49847390437921_1_alg».proof.Proof.KI.E4.ValueCover

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-! ## Output 7's staging buffer after each point -/

/-- After point `t`, in each of the three cases, output 7's staging buffer holds the update's block of the point's input blocks. -/
theorem out7_eq4 (V : (c : Dev nD) → (b : Ref sig .tc) → Buf (Elt F) ((c : Thread nD τ).loc b)) (c : Dev nD) (t : Fin cfg4.N) :
    (outsAt4 V c t.val t.isLt).1 = eblk4 (iblk4 V c 0 t) (iblk4 V c 1 t) (iblk4 V c 2 t) (iblk4 V c 3 t) (iblk4 V c 4 t) (iblk4 V c 5 t) (iblk4 V c 6 t) := by
  have hN : t.val < 80 := lt_of_lt_of_eq t.isLt (show cfg4.N = 80 from N_4)
  by_cases h0 : t.val % 80 = 0
  · have h1 : ¬t.val % 80 = 79 := by omega
    rw [outsAt4_A V c t h0 h1]
    dsimp only
    exact out4_A_7_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t)
  · by_cases h1 : t.val % 80 = 79
    · rw [outsAt4_C V c t h0 h1]
      dsimp only
      exact out4_C_7_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2
    · rw [outsAt4_B V c t h0 h1]
      dsimp only
      exact out4_B_7_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.2

section Region4

variable (q : Fin cfg4.W → PosShare TreeShare)
variable (V : (c : Dev nD) → (b : Ref sig .tc) → Buf (Elt Ideal) ((c : Thread nD τ).loc b))

/-- OUTPUT 7'S BUFFER AFTER POINT `t`, at row `r`, column `j`: the reference's edge update at row 10000·t + r, column `j`. -/
theorem out7_block4 (c : Dev nD) (t : Fin cfg4.N) (r : Fin 10000) (j : Fin 64) :
    (outsAt4 (F := Ideal) V c t.val t.isLt).1 (ix2 r j) = Cert.Spec.edge1 (arr4_0 V c) (arr4_1 V c) (arr4_2 V c) (arr4_3 V c) (arr4_4 V c) (arr4_5 V c) (arr4_6 V c) (ix2 (row4 t r) j) :=
  (congrFun (out7_eq4 V c t) (ix2 r j)).trans (eblk4_block2 V c t r j)

/-! ## What each point writes back -/

/-- Point `t` writes back block `t` of the reference's edge update. -/
theorem flushed4_7_eq (c : Dev nD) (t : Fin cfg4.N) :
    (dat4 (F := Ideal) q V c).flushed 7 t
      = ((cfg4.win 7).blk t).view.read (Elt Ideal) (Cert.Spec.edge1 (arr4_0 V c) (arr4_1 V c) (arr4_2 V c) (arr4_3 V c) (arr4_4 V c) (arr4_5 V c) (arr4_6 V c)) := by
  show (cfg4.win 7).cut (grid4.coords t) ((dat4 q V c).after 7 t) = _
  rw [after4_7]
  funext y
  show (outsAt4 V c t.val t.isLt).1 y = Cert.Spec.edge1 (arr4_0 V c) (arr4_1 V c) (arr4_2 V c) (arr4_3 V c) (arr4_4 V c) (arr4_5 V c) (arr4_6 V c) (((cfg4.win 7).blk t).view.emb y)
  obtain ⟨r, j, rfl⟩ : ∃ (r : Fin 10000) (j : Fin 64), y = ix2 r j := ⟨y 0, y 1, eq_ix2 y⟩
  obtain ⟨e0, e1⟩ := (idx_facts4 t).2.2.2.2.2.2.2.1
  refine (out7_block4 V c t r j).trans (congrArg (Cert.Spec.edge1 (arr4_0 V c) (arr4_1 V c) (arr4_2 V c) (arr4_3 V c) (arr4_4 V c) (arr4_5 V c) (arr4_6 V c)) (funext fun a => Fin.ext ?_))
  match a with
  | ⟨0, _⟩ => show 10000 * t.val + r.val = win4_7.index t (0 : Fin 2) * 10000 + 1 * r.val; rw [e0]; omega
  | ⟨1, _⟩ => show j.val = win4_7.index t (1 : Fin 2) * 64 + 1 * j.val; rw [e1]; omega

/-! ## The array after the region -/

/-- THE FIRST OUTPUT after the region: the reference's edge update of the arrays the region found. -/
theorem edge_out4 (c : Dev nD) :
    (dat4 (F := Ideal) q V c).arrAt 7 cfg4.N = Cert.Spec.edge1 (arr4_0 V c) (arr4_1 V c) (arr4_2 V c) (arr4_3 V c) (arr4_4 V c) (arr4_5 V c) (arr4_6 V c) :=
  (dat4 q V c).arrAt_eq_of_cover 7 (Cert.Spec.edge1 (arr4_0 V c) (arr4_1 V c) (arr4_2 V c) (arr4_3 V c) (arr4_4 V c) (arr4_5 V c) (arr4_6 V c)) (fun t _ => flushed4_7_eq q V c t) cover4_7

end Region4

end Cert.KernelIdeal.Hand

end
-- ==== Proof.KI.Final.lean ====
/-
  The composition at the ideal values: what region 4 leaves in its first result is the network's function of the
  arguments at launch. Each region's output arrays are the network's edge or node update (and its column sums) of the
  arrays the region is entered with; the host operations between the regions make those entry arrays the network's
  gathers, scatters and global updates of the earlier regions' outputs; so, region by region, the outputs are the
  states of the network's two rounds, and the last edge update of the second round's state is the network's result.
-/
import proofs.«108204_j49847390437921_1_alg».proof.Proof.KI.RegionsData
import proofs.«108204_j49847390437921_1_alg».proof.Proof.KI.GlueLiftE
import proofs.«108204_j49847390437921_1_alg».proof.Proof.KI.E0.ValueOut
import proofs.«108204_j49847390437921_1_alg».proof.Proof.KI.E0.ValueSum
import proofs.«108204_j49847390437921_1_alg».proof.Proof.KI.N1.ValueOut
import proofs.«108204_j49847390437921_1_alg».proof.Proof.KI.N1.ValueSum
import proofs.«108204_j49847390437921_1_alg».proof.Proof.KI.E2.ValueOut
import proofs.«108204_j49847390437921_1_alg».proof.Proof.KI.E2.ValueSum
import proofs.«108204_j49847390437921_1_alg».proof.Proof.KI.N3.ValueOut
import proofs.«108204_j49847390437921_1_alg».proof.Proof.KI.N3.ValueSum
import proofs.«108204_j49847390437921_1_alg».proof.Proof.KI.E4.ValueOut

set_option maxRecDepth 16384

noncomputable section

namespace Cert.KernelIdeal.Hand

open Cert.KernelIdeal Cert.KernelIdeal.Gen
open Idealize.ShloMosaic Idealize.ShloMosaic.TcCoe
open Idealize.SL Idealize.SL.RA

/-! ## The network's functions respect equality of their array arguments -/

theorem edge1_congr {a0 b0 a1 b1 a2 b2 a3 b3 : Spec.Arr Ideal S800000x64 .f32} {a4 b4 : Spec.Arr Ideal S1x64 .f32} {a5 b5 : Spec.Arr Ideal S5x64x64 .f32} {a6 b6 : Spec.Arr Ideal S1x64 .f32}
    (h0 : a0 = b0) (h1 : a1 = b1) (h2 : a2 = b2) (h3 : a3 = b3) (h4 : a4 = b4) (h5 : a5 = b5) (h6 : a6 = b6) :
    Spec.edge1 a0 a1 a2 a3 a4 a5 a6 = Spec.edge1 b0 b1 b2 b3 b4 b5 b6 := by
  rw [h0, h1, h2, h3, h4, h5, h6]
theorem node1_congr {a0 b0 a1 b1 a2 b2 : Spec.Arr Ideal S100000x64 .f32} {a3 b3 : Spec.Arr Ideal S1x64 .f32} {a4 b4 : Spec.Arr Ideal S4x64x64 .f32} {a5 b5 : Spec.Arr Ideal S1x64 .f32}
    (h0 : a0 = b0) (h1 : a1 = b1) (h2 : a2 = b2) (h3 : a3 = b3) (h4 : a4 = b4) (h5 : a5 = b5) :
    Spec.node1 a0 a1 a2 a3 a4 a5 = Spec.node1 b0 b1 b2 b3 b4 b5 := by
  rw [h0, h1, h2, h3, h4, h5]
theorem glob_congr {hu hu' eb eb' vb vb' : Spec.Arr Ideal S1x64 .f32} (hu0 : Spec.Arr Ideal S1x64 .f32) (Wu : Spec.Arr Ideal S4x64x64 .f32) (bu : Spec.Arr Ideal S64 .f32)
    (h0 : hu = hu') (h1 : eb = eb') (h2 : vb = vb') : Spec.glob hu hu0 eb vb Wu bu = Spec.glob hu' hu0 eb' vb' Wu bu := by
  rw [h0, h1, h2]

variable (m : (ℓ : Loc nD τ sig) → Buf (Elt Ideal) ℓ) (c : Dev nD)

/-! ## The network's states at this launch -/

/-- The lifted bond features. -/
abbrev nHe0 : Spec.Arr Ideal S800000x64 .f32 := Spec.liftE (aBo m c) (aWfe m c)
/-- One round of the network at this launch's parameters. -/
abbrev nRound : Spec.St Ideal → Spec.St Ideal :=
  Spec.round (nHe0 m c) (aHv0 m c) (aHu0 m c) (aSi m c) (aDi m c) (aWe m c) (Spec.row (aBe m c)) (aWv m c) (Spec.row (aBv m c))
    (aWu m c) (aBu m c)
/-- The lifted state, and the states after one and after two rounds. -/
abbrev nS0 : Spec.St Ideal := { he := nHe0 m c, hv := aHv0 m c, hu := aHu0 m c }
abbrev nS1 : Spec.St Ideal := nRound m c (nS0 m c)
abbrev nS2 : Spec.St Ideal := nRound m c (nS1 m c)

/-! ## Round one -/

/-- Region 0 leaves the first round's bond features. -/
theorem X0_0_val : (X0_0 m c : Spec.Arr Ideal S800000x64 .f32) = (nS1 m c).he := by
  refine ((X0_0_eq m c).trans (edge_out0 qS0 (VE0 m) c)).trans ?_
  exact edge1_congr (V1_main_v9 m c) (V1_main_v9 m c) (V1_main_v22 m c) (V1_main_v29 m c) (V1_main_v13 m c) (V1_main_arg5 m c)
    (V1_main_v14 m c)
/-- … and their column sums. -/
theorem X0_1_val : (X0_1 m c : Spec.Arr Ideal S1x64 .f32) = Spec.sumE (nS1 m c).he := by
  refine ((X0_1_eq m c).trans (edge_sum0 qS0 (VE0 m) c)).trans ?_
  exact congrArg Spec.sumE (edge1_congr (V1_main_v9 m c) (V1_main_v9 m c) (V1_main_v22 m c) (V1_main_v29 m c) (V1_main_v13 m c)
    (V1_main_arg5 m c) (V1_main_v14 m c))
/-- The scattered messages region 1 reads are the first round's. -/
theorem scat1_val : (V3 m (outs m) c main_v45 : Spec.Arr Ideal S100000x64 .f32) = Spec.scat (nS1 m c).he (aSi m c) (aDi m c) :=
  (V3_main_v45 m (outs m) c).trans (congrArg (fun x : Spec.Arr Ideal S800000x64 .f32 => Spec.scat x (aSi m c) (aDi m c)) ((outs_2_0 m c).trans (X0_0_val m c)))
/-- Region 1 leaves the first round's atom features. -/
theorem X1_0_val : (X1_0 m c : Spec.Arr Ideal S100000x64 .f32) = (nS1 m c).hv := by
  refine ((X1_0_eq m c).trans (node_out1 qS1 (VE1 m) c)).trans ?_
  exact node1_congr (V3_main_v10 m (outs m) c) (V3_main_v10 m (outs m) c) (scat1_val m c) (V3_main_v13 m (outs m) c) (V3_main_arg7 m (outs m) c)
    (V3_main_v15 m (outs m) c)
/-- … and their column sums. -/
theorem X1_1_val : (X1_1 m c : Spec.Arr Ideal S1x64 .f32) = Spec.sumV (nS1 m c).hv := by
  refine ((X1_1_eq m c).trans (node_sum1 qS1 (VE1 m) c)).trans ?_
  exact congrArg Spec.sumV (node1_congr (V3_main_v10 m (outs m) c) (V3_main_v10 m (outs m) c) (scat1_val m c) (V3_main_v13 m (outs m) c)
    (V3_main_arg7 m (outs m) c) (V3_main_v15 m (outs m) c))
/-- The first global update over the two regions' column sums is the first round's global features. -/
theorem glob1_val :
    Spec.glob (aHu0 m c) (aHu0 m c) (o30_1 (outs m) c) (o46_1 (outs m) c) (aWu m c) (aBu m c) = (nS1 m c).hu :=
  glob_congr (aHu0 m c) (aWu m c) (aBu m c) rfl ((outs_2_1 m c).trans (X0_1_val m c)) ((outs_4_1 m c).trans (X1_1_val m c))

/-! ## Round two -/

/-- Region 2 leaves the second round's bond features. -/
theorem X2_0_val : (X2_0 m c : Spec.Arr Ideal S800000x64 .f32) = (nS2 m c).he := by
  refine ((X2_0_eq m c).trans (edge_out2 (fun _ => fullShare) (VE2 m) c)).trans ?_
  exact edge1_congr ((V7_main_v30_0 m (outs m) c).trans ((outs_2_0 m c).trans (X0_0_val m c))) (V7_main_v9_liftE m (outs m) c)
    ((V7_main_v71 m (outs m) c).trans (congrArg (fun x : Spec.Arr Ideal S100000x64 .f32 => Spec.gath x (aSi m c)) ((outs_4_0 m c).trans (X1_0_val m c))))
    ((V7_main_v78 m (outs m) c).trans (congrArg (fun x : Spec.Arr Ideal S100000x64 .f32 => Spec.gath x (aDi m c)) ((outs_4_0 m c).trans (X1_0_val m c))))
    ((V7_main_v64 m (outs m) c).trans (glob1_val m c)) (V7_main_arg5 m (outs m) c) (V7_main_v14 m (outs m) c)
/-- … and their column sums. -/
theorem X2_1_val : (X2_1 m c : Spec.Arr Ideal S1x64 .f32) = Spec.sumE (nS2 m c).he := by
  refine ((X2_1_eq m c).trans (edge_sum2 (fun _ => fullShare) (VE2 m) c)).trans ?_
  exact congrArg Spec.sumE (edge1_congr ((V7_main_v30_0 m (outs m) c).trans ((outs_2_0 m c).trans (X0_0_val m c))) (V7_main_v9_liftE m (outs m) c)
    ((V7_main_v71 m (outs m) c).trans (congrArg (fun x : Spec.Arr Ideal S100000x64 .f32 => Spec.gath x (aSi m c)) ((outs_4_0 m c).trans (X1_0_val m c))))
    ((V7_main_v78 m (outs m) c).trans (congrArg (fun x : Spec.Arr Ideal S100000x64 .f32 => Spec.gath x (aDi m c)) ((outs_4_0 m c).trans (X1_0_val m c))))
    ((V7_main_v64 m (outs m) c).trans (glob1_val m c)) (V7_main_arg5 m (outs m) c) (V7_main_v14 m (outs m) c))
/-- The scattered messages region 3 reads are the second round's. -/
theorem scat2_val : (V9 m (outs m) c main_v94 : Spec.Arr Ideal S100000x64 .f32) = Spec.scat (nS2 m c).he (aSi m c) (aDi m c) :=
  (V9_main_v94 m (outs m) c).trans (congrArg (fun x : Spec.Arr Ideal S800000x64 .f32 => Spec.scat x (aSi m c) (aDi m c)) ((outs_8_0 m c).trans (X2_0_val m c)))
/-- Region 3 leaves the second round's atom features. -/
theorem X3_0_val : (X3_0 m c : Spec.Arr Ideal S100000x64 .f32) = (nS2 m c).hv := by
  refine ((X3_0_eq m c).trans (node_out3 (fun _ => fullShare) (VE3 m) c)).trans ?_
  exact node1_congr ((V9_main_v46_0 m (outs m) c).trans ((outs_4_0 m c).trans (X1_0_val m c))) (V9_main_v10 m (outs m) c) (scat2_val m c)
    ((V9_main_v64 m (outs m) c).trans (glob1_val m c)) (V9_main_arg7 m (outs m) c) (V9_main_v15 m (outs m) c)
/-- … and their column sums. -/
theorem X3_1_val : (X3_1 m c : Spec.Arr Ideal S1x64 .f32) = Spec.sumV (nS2 m c).hv := by
  refine ((X3_1_eq m c).trans (node_sum3 (fun _ => fullShare) (VE3 m) c)).trans ?_
  exact congrArg Spec.sumV (node1_congr ((V9_main_v46_0 m (outs m) c).trans ((outs_4_0 m c).trans (X1_0_val m c))) (V9_main_v10 m (outs m) c)
    (scat2_val m c) ((V9_main_v64 m (outs m) c).trans (glob1_val m c)) (V9_main_arg7 m (outs m) c) (V9_main_v15 m (outs m) c))
/-- The second global update is the second round's global features. -/
theorem glob2_val :
    Spec.glob (Spec.glob (aHu0 m c) (aHu0 m c) (o30_1 (outs m) c) (o46_1 (outs m) c) (aWu m c) (aBu m c)) (aHu0 m c) (o79_1 (outs m) c) (o95_1 (outs m) c)
      (aWu m c) (aBu m c) = (nS2 m c).hu :=
  glob_congr (aHu0 m c) (aWu m c) (aBu m c) (glob1_val m c) ((outs_8_1 m c).trans (X2_1_val m c)) ((outs_10_1 m c).trans (X3_1_val m c))

/-! ## The third edge update: the network's result -/

/-- Region 4 leaves the network's result. -/
theorem kernel_value :
    (X4_0 (F := Ideal) m c : Cert.Spec.Arr Ideal S800000x64 .f32) =
      Cert.Spec.net (aAtoms m c) (aBo m c) (aWfe m c) (aWfv m c) (aWfu m c) (aWe m c) (aBe m c) (aWv m c) (aBv m c) (aWu m c) (aBu m c)
        (aBi m c) := by
  refine ((X4_0_eq m c).trans (edge_out4 (fun _ => fullShare) (VE4 m) c)).trans ?_
  exact edge1_congr ((V13_main_v79_0 m (outs m) c).trans ((outs_8_0 m c).trans (X2_0_val m c))) (V13_main_v9_liftE m (outs m) c)
    ((V13_main_v120 m (outs m) c).trans (congrArg (fun x : Spec.Arr Ideal S100000x64 .f32 => Spec.gath x (aSi m c)) ((outs_10_0 m c).trans (X3_0_val m c))))
    ((V13_main_v127 m (outs m) c).trans (congrArg (fun x : Spec.Arr Ideal S100000x64 .f32 => Spec.gath x (aDi m c)) ((outs_10_0 m c).trans (X3_0_val m c))))
    ((V13_main_v113 m (outs m) c).trans (glob2_val m c)) (V13_main_arg5 m (outs m) c) (V13_main_v14 m (outs m) c)

end Cert.KernelIdeal.Hand

end
-- ==== Proof.Ref.Ops0.lean ====
/- The reference program's host operations 1 to 62 in order (the first window of its main
   function; an outlined function's operations stand at its call), cut into 2 consecutive lists, and for each list
   what a run over it takes: every operation touches TensorCore buffers only and determines its result, the list
   of buffers it writes, and that a buffer outside that list keeps its contents through it. The window is the
   straight line of the lists in a row. -/
import proofs.«108204_j49847390437921_1_alg».proof.Proof.Gen.ReferenceIdeal
import Idealize.ShloMosaic.Lib.StableHlo.Run
import Idealize.ShloMosaic.Lib.Pipeline.Frame

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- Operations 1 to 55 of the program, in order. -/
abbrev w0a : List (HloOp τ sig (Elt F)) :=
  [ unary main_arg11 main_v0 ((extractStridedSlice S800000x1 ![0, 0] · slices_S800000x2_S800000x1_0_0) : (⟨S800000x2, .i32⟩ : BufTy).Contents (Elt F) → (⟨S800000x1, .i32⟩ : BufTy).Contents (Elt F)),
    reshape main_v0 main_v1 rfl shapeCasts_S800000x1_S800000,
    unary main_arg11 main_v2 ((extractStridedSlice S800000x1 ![0, 1] · slices_S800000x2_S800000x1_0_1) : (⟨S800000x2, .i32⟩ : BufTy).Contents (Elt F) → (⟨S800000x1, .i32⟩ : BufTy).Contents (Elt F)),
    reshape main_v2 main_v3 rfl shapeCasts_S800000x1_S800000,
    unary main_arg1 main_v4 (broadcastInDim S800000x1 ![0] bcast_S800000_S800000x1_0 : (⟨S800000, .f32⟩ : BufTy).Contents (Elt F) → (⟨S800000x1, .f32⟩ : BufTy).Contents (Elt F)),
    binary main_v4 main_arg2 main_v5 ((fun l r => Host.dotGeneral dot_S800000x1_S1x64_S800000x64_1_0_0_1_n_n none l r) : (⟨S800000x1, .f32⟩ : BufTy).Contents (Elt F) → (⟨S1x64, .f32⟩ : BufTy).Contents (Elt F) → (⟨S800000x64, .f32⟩ : BufTy).Contents (Elt F)),
    binary main_arg0 main_arg3 main_v6 ((fun l r => Host.dotGeneral dot_S100000x16_S16x64_S100000x64_1_0_0_1_n_n none l r) : (⟨S100000x16, .f32⟩ : BufTy).Contents (Elt F) → (⟨S16x64, .f32⟩ : BufTy).Contents (Elt F) → (⟨S100000x64, .f32⟩ : BufTy).Contents (Elt F)),
    nullary main_cst (constant S_ .f32 0x00000000#32),
    binary main_arg0 main_cst main_v7 ((fun x v => Host.reduceAdd x v reducesTo_S100000x16_S16_d0 h_S_) : (⟨S100000x16, .f32⟩ : BufTy).Contents (Elt F) → (⟨S_, .f32⟩ : BufTy).Contents (Elt F) → (⟨S16, .f32⟩ : BufTy).Contents (Elt F)),
    unary main_v7 main_v8 (broadcastInDim S1x16 ![1] bcast_S16_S1x16_1 : (⟨S16, .f32⟩ : BufTy).Contents (Elt F) → (⟨S1x16, .f32⟩ : BufTy).Contents (Elt F)),
    binary main_v8 main_arg4 main_v9 ((fun l r => Host.dotGeneral dot_S1x16_S16x64_S1x64_1_0_0_1_n_n none l r) : (⟨S1x16, .f32⟩ : BufTy).Contents (Elt F) → (⟨S16x64, .f32⟩ : BufTy).Contents (Elt F) → (⟨S1x64, .f32⟩ : BufTy).Contents (Elt F)),
    nullary main_c (constantI S_ 32 0#32),
    unary main_c main_v10 (broadcastInDim S800000 ![] bcast_S_S800000 : (⟨S_, .i32⟩ : BufTy).Contents (Elt F) → (⟨S800000, .i32⟩ : BufTy).Contents (Elt F)),
    binary main_v1 main_v10 main_v11 (cmpi .slt : (⟨S800000, .i32⟩ : BufTy).Contents (Elt F) → (⟨S800000, .i32⟩ : BufTy).Contents (Elt F) → (⟨S800000, .i1⟩ : BufTy).Contents (Elt F)),
    nullary main_c_0 (constantI S_ 32 100000#32),
    unary main_c_0 main_v12 (broadcastInDim S800000 ![] bcast_S_S800000 : (⟨S_, .i32⟩ : BufTy).Contents (Elt F) → (⟨S800000, .i32⟩ : BufTy).Contents (Elt F)),
    binary main_v1 main_v12 main_v13 (addi : (⟨S800000, .i32⟩ : BufTy).Contents (Elt F) → (⟨S800000, .i32⟩ : BufTy).Contents (Elt F) → (⟨S800000, .i32⟩ : BufTy).Contents (Elt F)),
    ternary main_v11 main_v13 main_v1 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v14 main_v15 (broadcastInDim S800000x1 ![0] bcast_S800000_S800000x1_0 : (⟨S800000, .i32⟩ : BufTy).Contents (Elt F) → (⟨S800000x1, .i32⟩ : BufTy).Contents (Elt F)),
    binary main_v6 main_v15 main_v16 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    nullary main_c_1 (constantI S_ 32 0#32),
    unary main_c_1 main_v17 (broadcastInDim S800000 ![] bcast_S_S800000 : (⟨S_, .i32⟩ : BufTy).Contents (Elt F) → (⟨S800000, .i32⟩ : BufTy).Contents (Elt F)),
    binary main_v3 main_v17 main_v18 (cmpi .slt : (⟨S800000, .i32⟩ : BufTy).Contents (Elt F) → (⟨S800000, .i32⟩ : BufTy).Contents (Elt F) → (⟨S800000, .i1⟩ : BufTy).Contents (Elt F)),
    nullary main_c_2 (constantI S_ 32 100000#32),
    unary main_c_2 main_v19 (broadcastInDim S800000 ![] bcast_S_S800000 : (⟨S_, .i32⟩ : BufTy).Contents (Elt F) → (⟨S800000, .i32⟩ : BufTy).Contents (Elt F)),
    binary main_v3 main_v19 main_v20 (addi : (⟨S800000, .i32⟩ : BufTy).Contents (Elt F) → (⟨S800000, .i32⟩ : BufTy).Contents (Elt F) → (⟨S800000, .i32⟩ : BufTy).Contents (Elt F)),
    ternary main_v18 main_v20 main_v3 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v21 main_v22 (broadcastInDim S800000x1 ![0] bcast_S800000_S800000x1_0 : (⟨S800000, .i32⟩ : BufTy).Contents (Elt F) → (⟨S800000x1, .i32⟩ : BufTy).Contents (Elt F)),
    binary main_v6 main_v22 main_v23 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    unary main_arg5 main_v24 ((extractStridedSlice S1x64x64 ![0, 0, 0] · slices_S5x64x64_S1x64x64_0_0_0) : (⟨S5x64x64, .f32⟩ : BufTy).Contents (Elt F) → (⟨S1x64x64, .f32⟩ : BufTy).Contents (Elt F)),
    reshape main_v24 main_v25 rfl shapeCasts_S1x64x64_S64x64,
    binary main_v5 main_v25 main_v26 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg5 main_v27 ((extractStridedSlice S1x64x64 ![1, 0, 0] · slices_S5x64x64_S1x64x64_1_0_0) : (⟨S5x64x64, .f32⟩ : BufTy).Contents (Elt F) → (⟨S1x64x64, .f32⟩ : BufTy).Contents (Elt F)),
    reshape main_v27 main_v28 rfl shapeCasts_S1x64x64_S64x64,
    binary main_v5 main_v28 main_v29 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    binary main_v26 main_v29 main_v30 (addf : (⟨S800000x64, .f32⟩ : BufTy).Contents (Elt F) → (⟨S800000x64, .f32⟩ : BufTy).Contents (Elt F) → (⟨S800000x64, .f32⟩ : BufTy).Contents (Elt F)),
    unary main_arg5 main_v31 ((extractStridedSlice S1x64x64 ![2, 0, 0] · slices_S5x64x64_S1x64x64_2_0_0) : (⟨S5x64x64, .f32⟩ : BufTy).Contents (Elt F) → (⟨S1x64x64, .f32⟩ : BufTy).Contents (Elt F)),
    reshape main_v31 main_v32 rfl shapeCasts_S1x64x64_S64x64,
    binary main_v16 main_v32 main_v33 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    binary main_v30 main_v33 main_v34 (addf : (⟨S800000x64, .f32⟩ : BufTy).Contents (Elt F) → (⟨S800000x64, .f32⟩ : BufTy).Contents (Elt F) → (⟨S800000x64, .f32⟩ : BufTy).Contents (Elt F)),
    unary main_arg5 main_v35 ((extractStridedSlice S1x64x64 ![3, 0, 0] · slices_S5x64x64_S1x64x64_3_0_0) : (⟨S5x64x64, .f32⟩ : BufTy).Contents (Elt F) → (⟨S1x64x64, .f32⟩ : BufTy).Contents (Elt F)),
    reshape main_v35 main_v36 rfl shapeCasts_S1x64x64_S64x64,
    binary main_v23 main_v36 main_v37 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    binary main_v34 main_v37 main_v38 (addf : (⟨S800000x64, .f32⟩ : BufTy).Contents (Elt F) → (⟨S800000x64, .f32⟩ : BufTy).Contents (Elt F) → (⟨S800000x64, .f32⟩ : BufTy).Contents (Elt F)),
    unary main_arg5 main_v39 ((extractStridedSlice S1x64x64 ![4, 0, 0] · slices_S5x64x64_S1x64x64_4_0_0) : (⟨S5x64x64, .f32⟩ : BufTy).Contents (Elt F) → (⟨S1x64x64, .f32⟩ : BufTy).Contents (Elt F)),
    reshape main_v39 main_v40 rfl shapeCasts_S1x64x64_S64x64,
    binary main_v9 main_v40 main_v41 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    unary main_v41 main_v42 (broadcastInDim S800000x64 ![0, 1] bcast_S1x64_S800000x64_0_1 : (⟨S1x64, .f32⟩ : BufTy).Contents (Elt F) → (⟨S800000x64, .f32⟩ : BufTy).Contents (Elt F)),
    binary main_v38 main_v42 main_v43 (addf : (⟨S800000x64, .f32⟩ : BufTy).Contents (Elt F) → (⟨S800000x64, .f32⟩ : BufTy).Contents (Elt F) → (⟨S800000x64, .f32⟩ : BufTy).Contents (Elt F)),
    unary main_arg6 main_v44 (broadcastInDim S1x64 ![1] bcast_S64_S1x64_1 : (⟨S64, .f32⟩ : BufTy).Contents (Elt F) → (⟨S1x64, .f32⟩ : BufTy).Contents (Elt F)),
    unary main_v44 main_v45 (broadcastInDim S800000x64 ![0, 1] bcast_S1x64_S800000x64_0_1 : (⟨S1x64, .f32⟩ : BufTy).Contents (Elt F) → (⟨S800000x64, .f32⟩ : BufTy).Contents (Elt F)),
    binary main_v43 main_v45 main_v46 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x64, .f32⟩) main_call0_v0) (broadcastInDim S800000x64 ![] bcast_S_S800000x64),
    TRef.binary (TRef.of (T := ⟨S800000x64, .f32⟩) main_v46) (TRef.of (T := ⟨S800000x64, .f32⟩) main_call0_v0) (TRef.of (T := ⟨S800000x64, .f32⟩) main_v47) maximumf ]

set_option maxRecDepth 8192 in
theorem w0a_sub : (w0a : List (HloOp τ sig (Elt F))).Forall fun op => op.bufs ⊆ tcRefs τ sig :=
  ⟨unary_bufs_sub .., reshape_bufs_sub .., unary_bufs_sub .., reshape_bufs_sub .., unary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., unary_bufs_sub .., binary_bufs_sub .., unary_bufs_sub .., unary_bufs_sub .., binary_bufs_sub .., nullary_bufs_sub .., unary_bufs_sub .., binary_bufs_sub ..⟩

set_option maxRecDepth 8192 in
/-- Every operation of the list determines its result. -/
theorem w0a_fresh : (w0a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the list's operations write, in order. -/
abbrev w0a_W : List (Ref sig .tc) := [main_v0, main_v1, main_v2, main_v3, main_v4, main_v5, main_v6, main_cst, main_v7, main_v8, main_v9, main_c, main_v10, main_v11, main_c_0, main_v12, main_v13, main_v14, main_v15, main_v16, main_c_1, main_v17, main_v18, main_c_2, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_call0_cst, main_call0_v0, main_v47]

set_option maxRecDepth 8192 in
theorem w0a_writes : (w0a : List (HloOp τ sig (Elt F))).Forall fun op => op.writes ⊆ (w0a_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem w0a_keep (V : Valuation τ sig (Elt F)) (r : Ref sig .tc) (h : r ∉ w0a_W) :
    after w0a V (Proc.devRef .tc r) = V (Proc.devRef .tc r) :=
  after_of_writes_sub w0a V w0a_writes h

/-- Operations 56 to 62 of the program, in order. -/
abbrev w0b : List (HloOp τ sig (Elt F)) :=
  [ nullary main_cst_3 (constant S_ .f32 0x00000000#32),
    unary main_cst_3 main_v48 (broadcastInDim S100000x64 ![] bcast_S_S100000x64 : (⟨S_, .f32⟩ : BufTy).Contents (Elt F) → (⟨S100000x64, .f32⟩ : BufTy).Contents (Elt F)),
    nullary main_c_4 (constantI S_ 32 0#32),
    unary main_c_4 main_v49 (broadcastInDim S800000 ![] bcast_S_S800000 : (⟨S_, .i32⟩ : BufTy).Contents (Elt F) → (⟨S800000, .i32⟩ : BufTy).Contents (Elt F)),
    binary main_v1 main_v49 main_v50 (cmpi .slt : (⟨S800000, .i32⟩ : BufTy).Contents (Elt F) → (⟨S800000, .i32⟩ : BufTy).Contents (Elt F) → (⟨S800000, .i1⟩ : BufTy).Contents (Elt F)),
    nullary main_c_5 (constantI S_ 32 100000#32),
    unary main_c_5 main_v51 (broadcastInDim S800000 ![] bcast_S_S800000 : (⟨S_, .i32⟩ : BufTy).Contents (Elt F) → (⟨S800000, .i32⟩ : BufTy).Contents (Elt F)) ]

set_option maxRecDepth 8192 in
theorem w0b_sub : (w0b : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub ..⟩

set_option maxRecDepth 8192 in
/-- Every operation of the list determines its result. -/
theorem w0b_fresh : (w0b : List (HloOp τ sig (Elt F))).Forall fun op => op.fresh = ∅ :=
  ⟨rfl, rfl, rfl, rfl, rfl, rfl, rfl⟩

/-- The buffers the list's operations write, in order. -/
abbrev w0b_W : List (Ref sig .tc) := [main_cst_3, main_v48, main_c_4, main_v49, main_v50, main_c_5, main_v51]

set_option maxRecDepth 8192 in
theorem w0b_writes : (w0b : List (HloOp τ sig (Elt F))).Forall fun op => op.writes ⊆ (w0b_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem w0b_keep (V : Valuation τ sig (Elt F)) (r : Ref sig .tc) (h : r ∉ w0b_W) :
    after w0b V (Proc.devRef .tc r) = V (Proc.devRef .tc r) :=
  after_of_writes_sub w0b V w0b_writes h

/-- The window's operations: the lists in a row. -/
abbrev win0 : List (HloOp τ sig (Elt F)) := w0a ++ (w0b)

set_option maxRecDepth 8192 in
set_option maxHeartbeats 4000000 in
/-- The window is the straight line of its operations. -/
theorem main_part0_eq (c : Dev nD) : main_part0 (F := F) c = seq win0 := rfl

end Cert.RefHand

end
-- ==== Proof.Ref.Ops1.lean ====
/- The reference program's host operations 63 to 126 in order (the second window of its main
   function; an outlined function's operations stand at its call), cut into 3 consecutive lists, and for each list
   what a run over it takes: every operation touches TensorCore buffers only and determines its result, the list
   of buffers it writes, and that a buffer outside that list keeps its contents through it. The window is the
   straight line of the lists in a row. -/
import proofs.«108204_j49847390437921_1_alg».proof.Proof.Gen.ReferenceIdeal
import Idealize.ShloMosaic.Lib.StableHlo.Run
import Idealize.ShloMosaic.Lib.Pipeline.Frame

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- Operations 63 to 97 of the program, in order. -/
abbrev w1a : List (HloOp τ sig (Elt F)) :=
  [ binary main_v1 main_v51 main_v52 (addi : (⟨S800000, .i32⟩ : BufTy).Contents (Elt F) → (⟨S800000, .i32⟩ : BufTy).Contents (Elt F) → (⟨S800000, .i32⟩ : BufTy).Contents (Elt F)),
    ternary main_v50 main_v52 main_v1 main_v53 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v53 main_v54 (broadcastInDim S800000x1 ![0] bcast_S800000_S800000x1_0 : (⟨S800000, .i32⟩ : BufTy).Contents (Elt F) → (⟨S800000x1, .i32⟩ : BufTy).Contents (Elt F)),
    ternary main_v48 main_v54 main_v47 main_v55 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    nullary main_c_6 (constantI S_ 32 0#32),
    unary main_c_6 main_v56 (broadcastInDim S800000 ![] bcast_S_S800000 : (⟨S_, .i32⟩ : BufTy).Contents (Elt F) → (⟨S800000, .i32⟩ : BufTy).Contents (Elt F)),
    binary main_v3 main_v56 main_v57 (cmpi .slt : (⟨S800000, .i32⟩ : BufTy).Contents (Elt F) → (⟨S800000, .i32⟩ : BufTy).Contents (Elt F) → (⟨S800000, .i1⟩ : BufTy).Contents (Elt F)),
    nullary main_c_7 (constantI S_ 32 100000#32),
    unary main_c_7 main_v58 (broadcastInDim S800000 ![] bcast_S_S800000 : (⟨S_, .i32⟩ : BufTy).Contents (Elt F) → (⟨S800000, .i32⟩ : BufTy).Contents (Elt F)),
    binary main_v3 main_v58 main_v59 (addi : (⟨S800000, .i32⟩ : BufTy).Contents (Elt F) → (⟨S800000, .i32⟩ : BufTy).Contents (Elt F) → (⟨S800000, .i32⟩ : BufTy).Contents (Elt F)),
    ternary main_v57 main_v59 main_v3 main_v60 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v60 main_v61 (broadcastInDim S800000x1 ![0] bcast_S800000_S800000x1_0 : (⟨S800000, .i32⟩ : BufTy).Contents (Elt F) → (⟨S800000x1, .i32⟩ : BufTy).Contents (Elt F)),
    ternary main_v55 main_v61 main_v47 main_v62 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    unary main_arg7 main_v63 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v63 main_v64 rfl shapeCasts_S1x64x64_S64x64,
    binary main_v6 main_v64 main_v65 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg7 main_v66 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v66 main_v67 rfl shapeCasts_S1x64x64_S64x64,
    binary main_v6 main_v67 main_v68 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v65 main_v68 main_v69 (addf : (⟨S100000x64, .f32⟩ : BufTy).Contents (Elt F) → (⟨S100000x64, .f32⟩ : BufTy).Contents (Elt F) → (⟨S100000x64, .f32⟩ : BufTy).Contents (Elt F)),
    unary main_arg7 main_v70 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v70 main_v71 rfl shapeCasts_S1x64x64_S64x64,
    binary main_v62 main_v71 main_v72 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v69 main_v72 main_v73 (addf : (⟨S100000x64, .f32⟩ : BufTy).Contents (Elt F) → (⟨S100000x64, .f32⟩ : BufTy).Contents (Elt F) → (⟨S100000x64, .f32⟩ : BufTy).Contents (Elt F)),
    unary main_arg7 main_v74 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v74 main_v75 rfl shapeCasts_S1x64x64_S64x64,
    binary main_v9 main_v75 main_v76 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    unary main_v76 main_v77 (broadcastInDim S100000x64 ![0, 1] bcast_S1x64_S100000x64_0_1 : (⟨S1x64, .f32⟩ : BufTy).Contents (Elt F) → (⟨S100000x64, .f32⟩ : BufTy).Contents (Elt F)),
    binary main_v73 main_v77 main_v78 (addf : (⟨S100000x64, .f32⟩ : BufTy).Contents (Elt F) → (⟨S100000x64, .f32⟩ : BufTy).Contents (Elt F) → (⟨S100000x64, .f32⟩ : BufTy).Contents (Elt F)),
    unary main_arg8 main_v79 (broadcastInDim S1x64 ![1] bcast_S64_S1x64_1 : (⟨S64, .f32⟩ : BufTy).Contents (Elt F) → (⟨S1x64, .f32⟩ : BufTy).Contents (Elt F)),
    unary main_v79 main_v80 (broadcastInDim S100000x64 ![0, 1] bcast_S1x64_S100000x64_0_1 : (⟨S1x64, .f32⟩ : BufTy).Contents (Elt F) → (⟨S100000x64, .f32⟩ : BufTy).Contents (Elt F)),
    binary main_v78 main_v80 main_v81 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v81) (TRef.of (T := ⟨S100000x64, .f32⟩) main_call1_v0) (TRef.of (T := ⟨S100000x64, .f32⟩) main_v82) maximumf ]

set_option maxRecDepth 8192 in
theorem w1a_sub : (w1a : List (HloOp τ sig (Elt F))).Forall fun op => op.bufs ⊆ tcRefs τ sig :=
  ⟨binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., unary_bufs_sub .., binary_bufs_sub .., unary_bufs_sub .., unary_bufs_sub .., binary_bufs_sub .., nullary_bufs_sub .., unary_bufs_sub .., binary_bufs_sub ..⟩

set_option maxRecDepth 8192 in
/-- Every operation of the list determines its result. -/
theorem w1a_fresh : (w1a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the list's operations write, in order. -/
abbrev w1a_W : List (Ref sig .tc) := [main_v52, main_v53, main_v54, main_v55, main_c_6, main_v56, main_v57, main_c_7, main_v58, main_v59, main_v60, main_v61, main_v62, main_v63, main_v64, main_v65, main_v66, main_v67, main_v68, main_v69, main_v70, main_v71, main_v72, main_v73, main_v74, main_v75, main_v76, main_v77, main_v78, main_v79, main_v80, main_v81, main_call1_cst, main_call1_v0, main_v82]

set_option maxRecDepth 8192 in
theorem w1a_writes : (w1a : List (HloOp τ sig (Elt F))).Forall fun op => op.writes ⊆ (w1a_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem w1a_keep (V : Valuation τ sig (Elt F)) (r : Ref sig .tc) (h : r ∉ w1a_W) :
    after w1a V (Proc.devRef .tc r) = V (Proc.devRef .tc r) :=
  after_of_writes_sub w1a V w1a_writes h

/-- Operations 98 to 123 of the program, in order. -/
abbrev w1b : List (HloOp τ sig (Elt F)) :=
  [ nullary main_cst_8 (constant S_ .f32 0x00000000#32),
    binary main_v47 main_cst_8 main_v83 ((fun x v => Host.reduceAdd x v reducesTo_S800000x64_S64_d0 h_S_) : (⟨S800000x64, .f32⟩ : BufTy).Contents (Elt F) → (⟨S_, .f32⟩ : BufTy).Contents (Elt F) → (⟨S64, .f32⟩ : BufTy).Contents (Elt F)),
    unary main_v83 main_v84 (broadcastInDim S1x64 ![1] bcast_S64_S1x64_1 : (⟨S64, .f32⟩ : BufTy).Contents (Elt F) → (⟨S1x64, .f32⟩ : BufTy).Contents (Elt F)),
    nullary main_cst_9 (constant S_ .f32 0x00000000#32),
    binary main_v82 main_cst_9 main_v85 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    unary main_v85 main_v86 (broadcastInDim S1x64 ![1] bcast_S64_S1x64_1 : (⟨S64, .f32⟩ : BufTy).Contents (Elt F) → (⟨S1x64, .f32⟩ : BufTy).Contents (Elt F)),
    unary main_arg9 main_v87 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v87 main_v88 rfl shapeCasts_S1x64x64_S64x64,
    binary main_v9 main_v88 main_v89 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    unary main_arg9 main_v90 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v90 main_v91 rfl shapeCasts_S1x64x64_S64x64,
    binary main_v9 main_v91 main_v92 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    binary main_v89 main_v92 main_v93 (addf : (⟨S1x64, .f32⟩ : BufTy).Contents (Elt F) → (⟨S1x64, .f32⟩ : BufTy).Contents (Elt F) → (⟨S1x64, .f32⟩ : BufTy).Contents (Elt F)),
    unary main_arg9 main_v94 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v94 main_v95 rfl shapeCasts_S1x64x64_S64x64,
    binary main_v84 main_v95 main_v96 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    binary main_v93 main_v96 main_v97 (addf : (⟨S1x64, .f32⟩ : BufTy).Contents (Elt F) → (⟨S1x64, .f32⟩ : BufTy).Contents (Elt F) → (⟨S1x64, .f32⟩ : BufTy).Contents (Elt F)),
    unary main_arg9 main_v98 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v98 main_v99 rfl shapeCasts_S1x64x64_S64x64,
    binary main_v86 main_v99 main_v100 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    binary main_v97 main_v100 main_v101 (addf : (⟨S1x64, .f32⟩ : BufTy).Contents (Elt F) → (⟨S1x64, .f32⟩ : BufTy).Contents (Elt F) → (⟨S1x64, .f32⟩ : BufTy).Contents (Elt F)),
    unary main_arg10 main_v102 (broadcastInDim S1x64 ![1] bcast_S64_S1x64_1 : (⟨S64, .f32⟩ : BufTy).Contents (Elt F) → (⟨S1x64, .f32⟩ : BufTy).Contents (Elt F)),
    binary main_v101 main_v102 main_v103 (addf : (⟨S1x64, .f32⟩ : BufTy).Contents (Elt F) → (⟨S1x64, .f32⟩ : BufTy).Contents (Elt F) → (⟨S1x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1x64, .f32⟩) main_call2_v0) (broadcastInDim S1x64 ![] bcast_S_S1x64),
    TRef.binary (TRef.of (T := ⟨S1x64, .f32⟩) main_v103) (TRef.of (T := ⟨S1x64, .f32⟩) main_call2_v0) (TRef.of (T := ⟨S1x64, .f32⟩) main_v104) maximumf ]

set_option maxRecDepth 8192 in
theorem w1b_sub : (w1b : List (HloOp τ sig (Elt F))).Forall fun op => op.bufs ⊆ tcRefs τ sig :=
  ⟨nullary_bufs_sub .., binary_bufs_sub .., unary_bufs_sub .., nullary_bufs_sub .., binary_bufs_sub .., unary_bufs_sub .., unary_bufs_sub .., reshape_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., binary_bufs_sub .., nullary_bufs_sub .., unary_bufs_sub .., binary_bufs_sub ..⟩

set_option maxRecDepth 8192 in
/-- Every operation of the list determines its result. -/
theorem w1b_fresh : (w1b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The buffers the list's operations write, in order. -/
abbrev w1b_W : List (Ref sig .tc) := [main_cst_8, main_v83, main_v84, main_cst_9, main_v85, main_v86, main_v87, main_v88, main_v89, main_v90, main_v91, main_v92, main_v93, main_v94, main_v95, main_v96, main_v97, main_v98, main_v99, main_v100, main_v101, main_v102, main_v103, main_call2_cst, main_call2_v0, main_v104]

set_option maxRecDepth 8192 in
theorem w1b_writes : (w1b : List (HloOp τ sig (Elt F))).Forall fun op => op.writes ⊆ (w1b_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem w1b_keep (V : Valuation τ sig (Elt F)) (r : Ref sig .tc) (h : r ∉ w1b_W) :
    after w1b V (Proc.devRef .tc r) = V (Proc.devRef .tc r) :=
  after_of_writes_sub w1b V w1b_writes h

/-- Operations 124 to 126 of the program, in order. -/
abbrev w1c : List (HloOp τ sig (Elt F)) :=
  [ nullary main_c_10 (constantI S_ 32 0#32),
    unary main_c_10 main_v105 (broadcastInDim S800000 ![] bcast_S_S800000 : (⟨S_, .i32⟩ : BufTy).Contents (Elt F) → (⟨S800000, .i32⟩ : BufTy).Contents (Elt F)),
    binary main_v1 main_v105 main_v106 (cmpi .slt : (⟨S800000, .i32⟩ : BufTy).Contents (Elt F) → (⟨S800000, .i32⟩ : BufTy).Contents (Elt F) → (⟨S800000, .i1⟩ : BufTy).Contents (Elt F)) ]

set_option maxRecDepth 8192 in
theorem w1c_sub : (w1c : List (HloOp τ sig (Elt F))).Forall fun op => op.bufs ⊆ tcRefs τ sig :=
  ⟨nullary_bufs_sub .., unary_bufs_sub .., binary_bufs_sub ..⟩

set_option maxRecDepth 8192 in
/-- Every operation of the list determines its result. -/
theorem w1c_fresh : (w1c : List (HloOp τ sig (Elt F))).Forall fun op => op.fresh = ∅ :=
  ⟨rfl, rfl, rfl⟩

/-- The buffers the list's operations write, in order. -/
abbrev w1c_W : List (Ref sig .tc) := [main_c_10, main_v105, main_v106]

set_option maxRecDepth 8192 in
theorem w1c_writes : (w1c : List (HloOp τ sig (Elt F))).Forall fun op => op.writes ⊆ (w1c_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem w1c_keep (V : Valuation τ sig (Elt F)) (r : Ref sig .tc) (h : r ∉ w1c_W) :
    after w1c V (Proc.devRef .tc r) = V (Proc.devRef .tc r) :=
  after_of_writes_sub w1c V w1c_writes h

/-- The window's operations: the lists in a row. -/
abbrev win1 : List (HloOp τ sig (Elt F)) := w1a ++ (w1b ++ (w1c))

set_option maxRecDepth 8192 in
set_option maxHeartbeats 4000000 in
/-- The window is the straight line of its operations. -/
theorem main_part1_eq (c : Dev nD) : main_part1 (F := F) c = seq win1 := rfl

end Cert.RefHand

end
-- ==== Proof.Ref.Ops2.lean ====
/- The reference program's host operations 127 to 188 in order (the third window of its main
   function; an outlined function's operations stand at its call), cut into 2 consecutive lists, and for each list
   what a run over it takes: every operation touches TensorCore buffers only and determines its result, the list
   of buffers it writes, and that a buffer outside that list keeps its contents through it. The window is the
   straight line of the lists in a row. -/
import proofs.«108204_j49847390437921_1_alg».proof.Proof.Gen.ReferenceIdeal
import Idealize.ShloMosaic.Lib.StableHlo.Run
import Idealize.ShloMosaic.Lib.Pipeline.Frame

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- Operations 127 to 167 of the program, in order. -/
abbrev w2a : List (HloOp τ sig (Elt F)) :=
  [ nullary main_c_11 (constantI S_ 32 100000#32),
    unary main_c_11 main_v107 (broadcastInDim S800000 ![] bcast_S_S800000 : (⟨S_, .i32⟩ : BufTy).Contents (Elt F) → (⟨S800000, .i32⟩ : BufTy).Contents (Elt F)),
    binary main_v1 main_v107 main_v108 (addi : (⟨S800000, .i32⟩ : BufTy).Contents (Elt F) → (⟨S800000, .i32⟩ : BufTy).Contents (Elt F) → (⟨S800000, .i32⟩ : BufTy).Contents (Elt F)),
    ternary main_v106 main_v108 main_v1 main_v109 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v109 main_v110 (broadcastInDim S800000x1 ![0] bcast_S800000_S800000x1_0 : (⟨S800000, .i32⟩ : BufTy).Contents (Elt F) → (⟨S800000x1, .i32⟩ : BufTy).Contents (Elt F)),
    binary main_v82 main_v110 main_v111 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    nullary main_c_12 (constantI S_ 32 0#32),
    unary main_c_12 main_v112 (broadcastInDim S800000 ![] bcast_S_S800000 : (⟨S_, .i32⟩ : BufTy).Contents (Elt F) → (⟨S800000, .i32⟩ : BufTy).Contents (Elt F)),
    binary main_v3 main_v112 main_v113 (cmpi .slt : (⟨S800000, .i32⟩ : BufTy).Contents (Elt F) → (⟨S800000, .i32⟩ : BufTy).Contents (Elt F) → (⟨S800000, .i1⟩ : BufTy).Contents (Elt F)),
    nullary main_c_13 (constantI S_ 32 100000#32),
    unary main_c_13 main_v114 (broadcastInDim S800000 ![] bcast_S_S800000 : (⟨S_, .i32⟩ : BufTy).Contents (Elt F) → (⟨S800000, .i32⟩ : BufTy).Contents (Elt F)),
    binary main_v3 main_v114 main_v115 (addi : (⟨S800000, .i32⟩ : BufTy).Contents (Elt F) → (⟨S800000, .i32⟩ : BufTy).Contents (Elt F) → (⟨S800000, .i32⟩ : BufTy).Contents (Elt F)),
    ternary main_v113 main_v115 main_v3 main_v116 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v116 main_v117 (broadcastInDim S800000x1 ![0] bcast_S800000_S800000x1_0 : (⟨S800000, .i32⟩ : BufTy).Contents (Elt F) → (⟨S800000x1, .i32⟩ : BufTy).Contents (Elt F)),
    binary main_v82 main_v117 main_v118 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    unary main_arg5 main_v119 ((extractStridedSlice S1x64x64 ![0, 0, 0] · slices_S5x64x64_S1x64x64_0_0_0) : (⟨S5x64x64, .f32⟩ : BufTy).Contents (Elt F) → (⟨S1x64x64, .f32⟩ : BufTy).Contents (Elt F)),
    reshape main_v119 main_v120 rfl shapeCasts_S1x64x64_S64x64,
    binary main_v47 main_v120 main_v121 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg5 main_v122 ((extractStridedSlice S1x64x64 ![1, 0, 0] · slices_S5x64x64_S1x64x64_1_0_0) : (⟨S5x64x64, .f32⟩ : BufTy).Contents (Elt F) → (⟨S1x64x64, .f32⟩ : BufTy).Contents (Elt F)),
    reshape main_v122 main_v123 rfl shapeCasts_S1x64x64_S64x64,
    binary main_v5 main_v123 main_v124 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    binary main_v121 main_v124 main_v125 (addf : (⟨S800000x64, .f32⟩ : BufTy).Contents (Elt F) → (⟨S800000x64, .f32⟩ : BufTy).Contents (Elt F) → (⟨S800000x64, .f32⟩ : BufTy).Contents (Elt F)),
    unary main_arg5 main_v126 ((extractStridedSlice S1x64x64 ![2, 0, 0] · slices_S5x64x64_S1x64x64_2_0_0) : (⟨S5x64x64, .f32⟩ : BufTy).Contents (Elt F) → (⟨S1x64x64, .f32⟩ : BufTy).Contents (Elt F)),
    reshape main_v126 main_v127 rfl shapeCasts_S1x64x64_S64x64,
    binary main_v111 main_v127 main_v128 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    binary main_v125 main_v128 main_v129 (addf : (⟨S800000x64, .f32⟩ : BufTy).Contents (Elt F) → (⟨S800000x64, .f32⟩ : BufTy).Contents (Elt F) → (⟨S800000x64, .f32⟩ : BufTy).Contents (Elt F)),
    unary main_arg5 main_v130 ((extractStridedSlice S1x64x64 ![3, 0, 0] · slices_S5x64x64_S1x64x64_3_0_0) : (⟨S5x64x64, .f32⟩ : BufTy).Contents (Elt F) → (⟨S1x64x64, .f32⟩ : BufTy).Contents (Elt F)),
    reshape main_v130 main_v131 rfl shapeCasts_S1x64x64_S64x64,
    binary main_v118 main_v131 main_v132 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    binary main_v129 main_v132 main_v133 (addf : (⟨S800000x64, .f32⟩ : BufTy).Contents (Elt F) → (⟨S800000x64, .f32⟩ : BufTy).Contents (Elt F) → (⟨S800000x64, .f32⟩ : BufTy).Contents (Elt F)),
    unary main_arg5 main_v134 ((extractStridedSlice S1x64x64 ![4, 0, 0] · slices_S5x64x64_S1x64x64_4_0_0) : (⟨S5x64x64, .f32⟩ : BufTy).Contents (Elt F) → (⟨S1x64x64, .f32⟩ : BufTy).Contents (Elt F)),
    reshape main_v134 main_v135 rfl shapeCasts_S1x64x64_S64x64,
    binary main_v104 main_v135 main_v136 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    unary main_v136 main_v137 (broadcastInDim S800000x64 ![0, 1] bcast_S1x64_S800000x64_0_1 : (⟨S1x64, .f32⟩ : BufTy).Contents (Elt F) → (⟨S800000x64, .f32⟩ : BufTy).Contents (Elt F)),
    binary main_v133 main_v137 main_v138 (addf : (⟨S800000x64, .f32⟩ : BufTy).Contents (Elt F) → (⟨S800000x64, .f32⟩ : BufTy).Contents (Elt F) → (⟨S800000x64, .f32⟩ : BufTy).Contents (Elt F)),
    unary main_arg6 main_v139 (broadcastInDim S1x64 ![1] bcast_S64_S1x64_1 : (⟨S64, .f32⟩ : BufTy).Contents (Elt F) → (⟨S1x64, .f32⟩ : BufTy).Contents (Elt F)),
    unary main_v139 main_v140 (broadcastInDim S800000x64 ![0, 1] bcast_S1x64_S800000x64_0_1 : (⟨S1x64, .f32⟩ : BufTy).Contents (Elt F) → (⟨S800000x64, .f32⟩ : BufTy).Contents (Elt F)),
    binary main_v138 main_v140 main_v141 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S800000x64, .f32⟩) main_call3_v0) (broadcastInDim S800000x64 ![] bcast_S_S800000x64),
    TRef.binary (TRef.of (T := ⟨S800000x64, .f32⟩) main_v141) (TRef.of (T := ⟨S800000x64, .f32⟩) main_call3_v0) (TRef.of (T := ⟨S800000x64, .f32⟩) main_v142) maximumf ]

set_option maxRecDepth 8192 in
theorem w2a_sub : (w2a : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., unary_bufs_sub .., binary_bufs_sub .., unary_bufs_sub .., unary_bufs_sub .., binary_bufs_sub .., nullary_bufs_sub .., unary_bufs_sub .., binary_bufs_sub ..⟩

set_option maxRecDepth 8192 in
/-- Every operation of the list determines its result. -/
theorem w2a_fresh : (w2a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the list's operations write, in order. -/
abbrev w2a_W : List (Ref sig .tc) := [main_c_11, main_v107, main_v108, main_v109, main_v110, main_v111, main_c_12, main_v112, main_v113, main_c_13, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_call3_cst, main_call3_v0, main_v142]

set_option maxRecDepth 8192 in
theorem w2a_writes : (w2a : List (HloOp τ sig (Elt F))).Forall fun op => op.writes ⊆ (w2a_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem w2a_keep (V : Valuation τ sig (Elt F)) (r : Ref sig .tc) (h : r ∉ w2a_W) :
    after w2a V (Proc.devRef .tc r) = V (Proc.devRef .tc r) :=
  after_of_writes_sub w2a V w2a_writes h

/-- Operations 168 to 188 of the program, in order. -/
abbrev w2b : List (HloOp τ sig (Elt F)) :=
  [ nullary main_cst_14 (constant S_ .f32 0x00000000#32),
    unary main_cst_14 main_v143 (broadcastInDim S100000x64 ![] bcast_S_S100000x64 : (⟨S_, .f32⟩ : BufTy).Contents (Elt F) → (⟨S100000x64, .f32⟩ : BufTy).Contents (Elt F)),
    nullary main_c_15 (constantI S_ 32 0#32),
    unary main_c_15 main_v144 (broadcastInDim S800000 ![] bcast_S_S800000 : (⟨S_, .i32⟩ : BufTy).Contents (Elt F) → (⟨S800000, .i32⟩ : BufTy).Contents (Elt F)),
    binary main_v1 main_v144 main_v145 (cmpi .slt : (⟨S800000, .i32⟩ : BufTy).Contents (Elt F) → (⟨S800000, .i32⟩ : BufTy).Contents (Elt F) → (⟨S800000, .i1⟩ : BufTy).Contents (Elt F)),
    nullary main_c_16 (constantI S_ 32 100000#32),
    unary main_c_16 main_v146 (broadcastInDim S800000 ![] bcast_S_S800000 : (⟨S_, .i32⟩ : BufTy).Contents (Elt F) → (⟨S800000, .i32⟩ : BufTy).Contents (Elt F)),
    binary main_v1 main_v146 main_v147 (addi : (⟨S800000, .i32⟩ : BufTy).Contents (Elt F) → (⟨S800000, .i32⟩ : BufTy).Contents (Elt F) → (⟨S800000, .i32⟩ : BufTy).Contents (Elt F)),
    ternary main_v145 main_v147 main_v1 main_v148 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v148 main_v149 (broadcastInDim S800000x1 ![0] bcast_S800000_S800000x1_0 : (⟨S800000, .i32⟩ : BufTy).Contents (Elt F) → (⟨S800000x1, .i32⟩ : BufTy).Contents (Elt F)),
    ternary main_v143 main_v149 main_v142 main_v150 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    nullary main_c_17 (constantI S_ 32 0#32),
    unary main_c_17 main_v151 (broadcastInDim S800000 ![] bcast_S_S800000 : (⟨S_, .i32⟩ : BufTy).Contents (Elt F) → (⟨S800000, .i32⟩ : BufTy).Contents (Elt F)),
    binary main_v3 main_v151 main_v152 (cmpi .slt : (⟨S800000, .i32⟩ : BufTy).Contents (Elt F) → (⟨S800000, .i32⟩ : BufTy).Contents (Elt F) → (⟨S800000, .i1⟩ : BufTy).Contents (Elt F)),
    nullary main_c_18 (constantI S_ 32 100000#32),
    unary main_c_18 main_v153 (broadcastInDim S800000 ![] bcast_S_S800000 : (⟨S_, .i32⟩ : BufTy).Contents (Elt F) → (⟨S800000, .i32⟩ : BufTy).Contents (Elt F)),
    binary main_v3 main_v153 main_v154 (addi : (⟨S800000, .i32⟩ : BufTy).Contents (Elt F) → (⟨S800000, .i32⟩ : BufTy).Contents (Elt F) → (⟨S800000, .i32⟩ : BufTy).Contents (Elt F)),
    ternary main_v152 main_v154 main_v3 main_v155 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v155 main_v156 (broadcastInDim S800000x1 ![0] bcast_S800000_S800000x1_0 : (⟨S800000, .i32⟩ : BufTy).Contents (Elt F) → (⟨S800000x1, .i32⟩ : BufTy).Contents (Elt F)),
    ternary main_v150 main_v156 main_v142 main_v157 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    unary main_arg7 main_v158 ((extractStridedSlice S1x64x64 ![0, 0, 0] · slices_S4x64x64_S1x64x64_0_0_0) : (⟨S4x64x64, .f32⟩ : BufTy).Contents (Elt F) → (⟨S1x64x64, .f32⟩ : BufTy).Contents (Elt F)) ]

set_option maxRecDepth 8192 in
theorem w2b_sub : (w2b : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub ..⟩

set_option maxRecDepth 8192 in
/-- Every operation of the list determines its result. -/
theorem w2b_fresh : (w2b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The buffers the list's operations write, in order. -/
abbrev w2b_W : List (Ref sig .tc) := [main_cst_14, main_v143, main_c_15, main_v144, main_v145, main_c_16, main_v146, main_v147, main_v148, main_v149, main_v150, main_c_17, main_v151, main_v152, main_c_18, main_v153, main_v154, main_v155, main_v156, main_v157, main_v158]

set_option maxRecDepth 8192 in
theorem w2b_writes : (w2b : List (HloOp τ sig (Elt F))).Forall fun op => op.writes ⊆ (w2b_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem w2b_keep (V : Valuation τ sig (Elt F)) (r : Ref sig .tc) (h : r ∉ w2b_W) :
    after w2b V (Proc.devRef .tc r) = V (Proc.devRef .tc r) :=
  after_of_writes_sub w2b V w2b_writes h

/-- The window's operations: the lists in a row. -/
abbrev win2 : List (HloOp τ sig (Elt F)) := w2a ++ (w2b)

set_option maxRecDepth 8192 in
set_option maxHeartbeats 4000000 in
/-- The window is the straight line of its operations. -/
theorem main_part2_eq (c : Dev nD) : main_part2 (F := F) c = seq win2 := rfl

end Cert.RefHand

end
-- ==== Proof.Ref.Ops3.lean ====
/- The reference program's host operations 189 to 252 in order (the fourth window of its main
   function; an outlined function's operations stand at its call), cut into 3 consecutive lists, and for each list
   what a run over it takes: every operation touches TensorCore buffers only and determines its result, the list
   of buffers it writes, and that a buffer outside that list keeps its contents through it. The window is the
   straight line of the lists in a row. -/
import proofs.«108204_j49847390437921_1_alg».proof.Proof.Gen.ReferenceIdeal
import Idealize.ShloMosaic.Lib.StableHlo.Run
import Idealize.ShloMosaic.Lib.Pipeline.Frame

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- Operations 189 to 209 of the program, in order. -/
abbrev w3a : List (HloOp τ sig (Elt F)) :=
  [ reshape main_v158 main_v159 rfl shapeCasts_S1x64x64_S64x64,
    binary main_v82 main_v159 main_v160 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg7 main_v161 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v161 main_v162 rfl shapeCasts_S1x64x64_S64x64,
    binary main_v6 main_v162 main_v163 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v160 main_v163 main_v164 (addf : (⟨S100000x64, .f32⟩ : BufTy).Contents (Elt F) → (⟨S100000x64, .f32⟩ : BufTy).Contents (Elt F) → (⟨S100000x64, .f32⟩ : BufTy).Contents (Elt F)),
    unary main_arg7 main_v165 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v165 main_v166 rfl shapeCasts_S1x64x64_S64x64,
    binary main_v157 main_v166 main_v167 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v164 main_v167 main_v168 (addf : (⟨S100000x64, .f32⟩ : BufTy).Contents (Elt F) → (⟨S100000x64, .f32⟩ : BufTy).Contents (Elt F) → (⟨S100000x64, .f32⟩ : BufTy).Contents (Elt F)),
    unary main_arg7 main_v169 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v169 main_v170 rfl shapeCasts_S1x64x64_S64x64,
    binary main_v104 main_v170 main_v171 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    unary main_v171 main_v172 (broadcastInDim S100000x64 ![0, 1] bcast_S1x64_S100000x64_0_1 : (⟨S1x64, .f32⟩ : BufTy).Contents (Elt F) → (⟨S100000x64, .f32⟩ : BufTy).Contents (Elt F)),
    binary main_v168 main_v172 main_v173 (addf : (⟨S100000x64, .f32⟩ : BufTy).Contents (Elt F) → (⟨S100000x64, .f32⟩ : BufTy).Contents (Elt F) → (⟨S100000x64, .f32⟩ : BufTy).Contents (Elt F)),
    unary main_arg8 main_v174 (broadcastInDim S1x64 ![1] bcast_S64_S1x64_1 : (⟨S64, .f32⟩ : BufTy).Contents (Elt F) → (⟨S1x64, .f32⟩ : BufTy).Contents (Elt F)),
    unary main_v174 main_v175 (broadcastInDim S100000x64 ![0, 1] bcast_S1x64_S100000x64_0_1 : (⟨S1x64, .f32⟩ : BufTy).Contents (Elt F) → (⟨S100000x64, .f32⟩ : BufTy).Contents (Elt F)),
    binary main_v173 main_v175 main_v176 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v176) (TRef.of (T := ⟨S100000x64, .f32⟩) main_call4_v0) (TRef.of (T := ⟨S100000x64, .f32⟩) main_v177) maximumf ]

set_option maxRecDepth 8192 in
theorem w3a_sub : (w3a : List (HloOp τ sig (Elt F))).Forall fun op => op.bufs ⊆ tcRefs τ sig :=
  ⟨reshape_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., unary_bufs_sub .., binary_bufs_sub .., unary_bufs_sub .., unary_bufs_sub .., binary_bufs_sub .., nullary_bufs_sub .., unary_bufs_sub .., binary_bufs_sub ..⟩

set_option maxRecDepth 8192 in
/-- Every operation of the list determines its result. -/
theorem w3a_fresh : (w3a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The buffers the list's operations write, in order. -/
abbrev w3a_W : List (Ref sig .tc) := [main_v159, main_v160, main_v161, main_v162, main_v163, main_v164, main_v165, main_v166, main_v167, main_v168, main_v169, main_v170, main_v171, main_v172, main_v173, main_v174, main_v175, main_v176, main_call4_cst, main_call4_v0, main_v177]

set_option maxRecDepth 8192 in
theorem w3a_writes : (w3a : List (HloOp τ sig (Elt F))).Forall fun op => op.writes ⊆ (w3a_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem w3a_keep (V : Valuation τ sig (Elt F)) (r : Ref sig .tc) (h : r ∉ w3a_W) :
    after w3a V (Proc.devRef .tc r) = V (Proc.devRef .tc r) :=
  after_of_writes_sub w3a V w3a_writes h

/-- Operations 210 to 235 of the program, in order. -/
abbrev w3b : List (HloOp τ sig (Elt F)) :=
  [ nullary main_cst_19 (constant S_ .f32 0x00000000#32),
    binary main_v142 main_cst_19 main_v178 ((fun x v => Host.reduceAdd x v reducesTo_S800000x64_S64_d0 h_S_) : (⟨S800000x64, .f32⟩ : BufTy).Contents (Elt F) → (⟨S_, .f32⟩ : BufTy).Contents (Elt F) → (⟨S64, .f32⟩ : BufTy).Contents (Elt F)),
    unary main_v178 main_v179 (broadcastInDim S1x64 ![1] bcast_S64_S1x64_1 : (⟨S64, .f32⟩ : BufTy).Contents (Elt F) → (⟨S1x64, .f32⟩ : BufTy).Contents (Elt F)),
    nullary main_cst_20 (constant S_ .f32 0x00000000#32),
    binary main_v177 main_cst_20 main_v180 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    unary main_v180 main_v181 (broadcastInDim S1x64 ![1] bcast_S64_S1x64_1 : (⟨S64, .f32⟩ : BufTy).Contents (Elt F) → (⟨S1x64, .f32⟩ : BufTy).Contents (Elt F)),
    unary main_arg9 main_v182 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v182 main_v183 rfl shapeCasts_S1x64x64_S64x64,
    binary main_v104 main_v183 main_v184 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    unary main_arg9 main_v185 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v185 main_v186 rfl shapeCasts_S1x64x64_S64x64,
    binary main_v9 main_v186 main_v187 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    binary main_v184 main_v187 main_v188 (addf : (⟨S1x64, .f32⟩ : BufTy).Contents (Elt F) → (⟨S1x64, .f32⟩ : BufTy).Contents (Elt F) → (⟨S1x64, .f32⟩ : BufTy).Contents (Elt F)),
    unary main_arg9 main_v189 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v189 main_v190 rfl shapeCasts_S1x64x64_S64x64,
    binary main_v179 main_v190 main_v191 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    binary main_v188 main_v191 main_v192 (addf : (⟨S1x64, .f32⟩ : BufTy).Contents (Elt F) → (⟨S1x64, .f32⟩ : BufTy).Contents (Elt F) → (⟨S1x64, .f32⟩ : BufTy).Contents (Elt F)),
    unary main_arg9 main_v193 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v193 main_v194 rfl shapeCasts_S1x64x64_S64x64,
    binary main_v181 main_v194 main_v195 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    binary main_v192 main_v195 main_v196 (addf : (⟨S1x64, .f32⟩ : BufTy).Contents (Elt F) → (⟨S1x64, .f32⟩ : BufTy).Contents (Elt F) → (⟨S1x64, .f32⟩ : BufTy).Contents (Elt F)),
    unary main_arg10 main_v197 (broadcastInDim S1x64 ![1] bcast_S64_S1x64_1 : (⟨S64, .f32⟩ : BufTy).Contents (Elt F) → (⟨S1x64, .f32⟩ : BufTy).Contents (Elt F)),
    binary main_v196 main_v197 main_v198 (addf : (⟨S1x64, .f32⟩ : BufTy).Contents (Elt F) → (⟨S1x64, .f32⟩ : BufTy).Contents (Elt F) → (⟨S1x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1x64, .f32⟩) main_call5_v0) (broadcastInDim S1x64 ![] bcast_S_S1x64),
    TRef.binary (TRef.of (T := ⟨S1x64, .f32⟩) main_v198) (TRef.of (T := ⟨S1x64, .f32⟩) main_call5_v0) (TRef.of (T := ⟨S1x64, .f32⟩) main_v199) maximumf ]

set_option maxRecDepth 8192 in
theorem w3b_sub : (w3b : List (HloOp τ sig (Elt F))).Forall fun op => op.bufs ⊆ tcRefs τ sig :=
  ⟨nullary_bufs_sub .., binary_bufs_sub .., unary_bufs_sub .., nullary_bufs_sub .., binary_bufs_sub .., unary_bufs_sub .., unary_bufs_sub .., reshape_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., binary_bufs_sub .., nullary_bufs_sub .., unary_bufs_sub .., binary_bufs_sub ..⟩

set_option maxRecDepth 8192 in
/-- Every operation of the list determines its result. -/
theorem w3b_fresh : (w3b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The buffers the list's operations write, in order. -/
abbrev w3b_W : List (Ref sig .tc) := [main_cst_19, main_v178, main_v179, main_cst_20, main_v180, main_v181, main_v182, main_v183, main_v184, main_v185, main_v186, main_v187, main_v188, main_v189, main_v190, main_v191, main_v192, main_v193, main_v194, main_v195, main_v196, main_v197, main_v198, main_call5_cst, main_call5_v0, main_v199]

set_option maxRecDepth 8192 in
theorem w3b_writes : (w3b : List (HloOp τ sig (Elt F))).Forall fun op => op.writes ⊆ (w3b_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem w3b_keep (V : Valuation τ sig (Elt F)) (r : Ref sig .tc) (h : r ∉ w3b_W) :
    after w3b V (Proc.devRef .tc r) = V (Proc.devRef .tc r) :=
  after_of_writes_sub w3b V w3b_writes h

/-- Operations 236 to 252 of the program, in order. -/
abbrev w3c : List (HloOp τ sig (Elt F)) :=
  [ nullary main_c_21 (constantI S_ 32 0#32),
    unary main_c_21 main_v200 (broadcastInDim S800000 ![] bcast_S_S800000 : (⟨S_, .i32⟩ : BufTy).Contents (Elt F) → (⟨S800000, .i32⟩ : BufTy).Contents (Elt F)),
    binary main_v1 main_v200 main_v201 (cmpi .slt : (⟨S800000, .i32⟩ : BufTy).Contents (Elt F) → (⟨S800000, .i32⟩ : BufTy).Contents (Elt F) → (⟨S800000, .i1⟩ : BufTy).Contents (Elt F)),
    nullary main_c_22 (constantI S_ 32 100000#32),
    unary main_c_22 main_v202 (broadcastInDim S800000 ![] bcast_S_S800000 : (⟨S_, .i32⟩ : BufTy).Contents (Elt F) → (⟨S800000, .i32⟩ : BufTy).Contents (Elt F)),
    binary main_v1 main_v202 main_v203 (addi : (⟨S800000, .i32⟩ : BufTy).Contents (Elt F) → (⟨S800000, .i32⟩ : BufTy).Contents (Elt F) → (⟨S800000, .i32⟩ : BufTy).Contents (Elt F)),
    ternary main_v201 main_v203 main_v1 main_v204 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v204 main_v205 (broadcastInDim S800000x1 ![0] bcast_S800000_S800000x1_0 : (⟨S800000, .i32⟩ : BufTy).Contents (Elt F) → (⟨S800000x1, .i32⟩ : BufTy).Contents (Elt F)),
    binary main_v177 main_v205 main_v206 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    nullary main_c_23 (constantI S_ 32 0#32),
    unary main_c_23 main_v207 (broadcastInDim S800000 ![] bcast_S_S800000 : (⟨S_, .i32⟩ : BufTy).Contents (Elt F) → (⟨S800000, .i32⟩ : BufTy).Contents (Elt F)),
    binary main_v3 main_v207 main_v208 (cmpi .slt : (⟨S800000, .i32⟩ : BufTy).Contents (Elt F) → (⟨S800000, .i32⟩ : BufTy).Contents (Elt F) → (⟨S800000, .i1⟩ : BufTy).Contents (Elt F)),
    nullary main_c_24 (constantI S_ 32 100000#32),
    unary main_c_24 main_v209 (broadcastInDim S800000 ![] bcast_S_S800000 : (⟨S_, .i32⟩ : BufTy).Contents (Elt F) → (⟨S800000, .i32⟩ : BufTy).Contents (Elt F)),
    binary main_v3 main_v209 main_v210 (addi : (⟨S800000, .i32⟩ : BufTy).Contents (Elt F) → (⟨S800000, .i32⟩ : BufTy).Contents (Elt F) → (⟨S800000, .i32⟩ : BufTy).Contents (Elt F)),
    ternary main_v208 main_v210 main_v3 main_v211 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v211 main_v212 (broadcastInDim S800000x1 ![0] bcast_S800000_S800000x1_0 : (⟨S800000, .i32⟩ : BufTy).Contents (Elt F) → (⟨S800000x1, .i32⟩ : BufTy).Contents (Elt F)) ]

set_option maxRecDepth 8192 in
theorem w3c_sub : (w3c : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

set_option maxRecDepth 8192 in
/-- Every operation of the list determines its result. -/
theorem w3c_fresh : (w3c : List (HloOp τ sig (Elt F))).Forall fun op => op.fresh = ∅ :=
  ⟨rfl, rfl, rfl, rfl, rfl, rfl, rfl, rfl, rfl, rfl, rfl, rfl, rfl, rfl, rfl, rfl, rfl⟩

/-- The buffers the list's operations write, in order. -/
abbrev w3c_W : List (Ref sig .tc) := [main_c_21, main_v200, main_v201, main_c_22, main_v202, main_v203, main_v204, main_v205, main_v206, main_c_23, main_v207, main_v208, main_c_24, main_v209, main_v210, main_v211, main_v212]

set_option maxRecDepth 8192 in
theorem w3c_writes : (w3c : List (HloOp τ sig (Elt F))).Forall fun op => op.writes ⊆ (w3c_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem w3c_keep (V : Valuation τ sig (Elt F)) (r : Ref sig .tc) (h : r ∉ w3c_W) :
    after w3c V (Proc.devRef .tc r) = V (Proc.devRef .tc r) :=
  after_of_writes_sub w3c V w3c_writes h

/-- The window's operations: the lists in a row. -/
abbrev win3 : List (HloOp τ sig (Elt F)) := w3a ++ (w3b ++ (w3c))

set_option maxRecDepth 8192 in
set_option maxHeartbeats 4000000 in
/-- The window is the straight line of its operations. -/
theorem main_part3_eq (c : Dev nD) : main_part3 (F := F) c = seq win3 := rfl

end Cert.RefHand

end
-- ==== Proof.Ref.Ops4.lean ====
/- The reference program's host operations 253 to 314 in order (the fifth window of its main
   function; an outlined function's operations stand at its call), cut into 2 consecutive lists, and for each list
   what a run over it takes: every operation touches TensorCore buffers only and determines its result, the list
   of buffers it writes, and that a buffer outside that list keeps its contents through it. The window is the
   straight line of the lists in a row. -/
import proofs.«108204_j49847390437921_1_alg».proof.Proof.Gen.ReferenceIdeal
import Idealize.ShloMosaic.Lib.StableHlo.Run
import Idealize.ShloMosaic.Lib.Pipeline.Frame

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- Operations 253 to 279 of the program, in order. -/
abbrev w4a : List (HloOp τ sig (Elt F)) :=
  [ binary main_v177 main_v212 main_v213 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    unary main_arg5 main_v214 ((extractStridedSlice S1x64x64 ![0, 0, 0] · slices_S5x64x64_S1x64x64_0_0_0) : (⟨S5x64x64, .f32⟩ : BufTy).Contents (Elt F) → (⟨S1x64x64, .f32⟩ : BufTy).Contents (Elt F)),
    reshape main_v214 main_v215 rfl shapeCasts_S1x64x64_S64x64,
    binary main_v142 main_v215 main_v216 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg5 main_v217 ((extractStridedSlice S1x64x64 ![1, 0, 0] · slices_S5x64x64_S1x64x64_1_0_0) : (⟨S5x64x64, .f32⟩ : BufTy).Contents (Elt F) → (⟨S1x64x64, .f32⟩ : BufTy).Contents (Elt F)),
    reshape main_v217 main_v218 rfl shapeCasts_S1x64x64_S64x64,
    binary main_v5 main_v218 main_v219 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    binary main_v216 main_v219 main_v220 (addf : (⟨S800000x64, .f32⟩ : BufTy).Contents (Elt F) → (⟨S800000x64, .f32⟩ : BufTy).Contents (Elt F) → (⟨S800000x64, .f32⟩ : BufTy).Contents (Elt F)),
    unary main_arg5 main_v221 ((extractStridedSlice S1x64x64 ![2, 0, 0] · slices_S5x64x64_S1x64x64_2_0_0) : (⟨S5x64x64, .f32⟩ : BufTy).Contents (Elt F) → (⟨S1x64x64, .f32⟩ : BufTy).Contents (Elt F)),
    reshape main_v221 main_v222 rfl shapeCasts_S1x64x64_S64x64,
    binary main_v206 main_v222 main_v223 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    binary main_v220 main_v223 main_v224 (addf : (⟨S800000x64, .f32⟩ : BufTy).Contents (Elt F) → (⟨S800000x64, .f32⟩ : BufTy).Contents (Elt F) → (⟨S800000x64, .f32⟩ : BufTy).Contents (Elt F)),
    unary main_arg5 main_v225 ((extractStridedSlice S1x64x64 ![3, 0, 0] · slices_S5x64x64_S1x64x64_3_0_0) : (⟨S5x64x64, .f32⟩ : BufTy).Contents (Elt F) → (⟨S1x64x64, .f32⟩ : BufTy).Contents (Elt F)),
    reshape main_v225 main_v226 rfl shapeCasts_S1x64x64_S64x64,
    binary main_v213 main_v226 main_v227 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    binary main_v224 main_v227 main_v228 (addf : (⟨S800000x64, .f32⟩ : BufTy).Contents (Elt F) → (⟨S800000x64, .f32⟩ : BufTy).Contents (Elt F) → (⟨S800000x64, .f32⟩ : BufTy).Contents (Elt F)),
    unary main_arg5 main_v229 ((extractStridedSlice S1x64x64 ![4, 0, 0] · slices_S5x64x64_S1x64x64_4_0_0) : (⟨S5x64x64, .f32⟩ : BufTy).Contents (Elt F) → (⟨S1x64x64, .f32⟩ : BufTy).Contents (Elt F)),
    reshape main_v229 main_v230 rfl shapeCasts_S1x64x64_S64x64,
    binary main_v199 main_v230 main_v231 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    unary main_v231 main_v232 (broadcastInDim S800000x64 ![0, 1] bcast_S1x64_S800000x64_0_1 : (⟨S1x64, .f32⟩ : BufTy).Contents (Elt F) → (⟨S800000x64, .f32⟩ : BufTy).Contents (Elt F)),
    binary main_v228 main_v232 main_v233 (addf : (⟨S800000x64, .f32⟩ : BufTy).Contents (Elt F) → (⟨S800000x64, .f32⟩ : BufTy).Contents (Elt F) → (⟨S800000x64, .f32⟩ : BufTy).Contents (Elt F)),
    unary main_arg6 main_v234 (broadcastInDim S1x64 ![1] bcast_S64_S1x64_1 : (⟨S64, .f32⟩ : BufTy).Contents (Elt F) → (⟨S1x64, .f32⟩ : BufTy).Contents (Elt F)),
    unary main_v234 main_v235 (broadcastInDim S800000x64 ![0, 1] bcast_S1x64_S800000x64_0_1 : (⟨S1x64, .f32⟩ : BufTy).Contents (Elt F) → (⟨S800000x64, .f32⟩ : BufTy).Contents (Elt F)),
    binary main_v233 main_v235 main_v236 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S800000x64, .f32⟩) main_call6_v0) (broadcastInDim S800000x64 ![] bcast_S_S800000x64),
    TRef.binary (TRef.of (T := ⟨S800000x64, .f32⟩) main_v236) (TRef.of (T := ⟨S800000x64, .f32⟩) main_call6_v0) (TRef.of (T := ⟨S800000x64, .f32⟩) main_v237) maximumf ]

set_option maxRecDepth 8192 in
theorem w4a_sub : (w4a : List (HloOp τ sig (Elt F))).Forall fun op => op.bufs ⊆ tcRefs τ sig :=
  ⟨binary_bufs_sub .., unary_bufs_sub .., reshape_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., unary_bufs_sub .., binary_bufs_sub .., unary_bufs_sub .., unary_bufs_sub .., binary_bufs_sub .., nullary_bufs_sub .., unary_bufs_sub .., binary_bufs_sub ..⟩

set_option maxRecDepth 8192 in
/-- Every operation of the list determines its result. -/
theorem w4a_fresh : (w4a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

/-- The buffers the list's operations write, in order. -/
abbrev w4a_W : List (Ref sig .tc) := [main_v213, main_v214, main_v215, main_v216, main_v217, main_v218, main_v219, main_v220, main_v221, main_v222, main_v223, main_v224, main_v225, main_v226, main_v227, main_v228, main_v229, main_v230, main_v231, main_v232, main_v233, main_v234, main_v235, main_v236, main_call6_cst, main_call6_v0, main_v237]

set_option maxRecDepth 8192 in
theorem w4a_writes : (w4a : List (HloOp τ sig (Elt F))).Forall fun op => op.writes ⊆ (w4a_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem w4a_keep (V : Valuation τ sig (Elt F)) (r : Ref sig .tc) (h : r ∉ w4a_W) :
    after w4a V (Proc.devRef .tc r) = V (Proc.devRef .tc r) :=
  after_of_writes_sub w4a V w4a_writes h

/-- Operations 280 to 314 of the program, in order. -/
abbrev w4b : List (HloOp τ sig (Elt F)) :=
  [ nullary main_cst_25 (constant S_ .f32 0x00000000#32),
    unary main_cst_25 main_v238 (broadcastInDim S100000x64 ![] bcast_S_S100000x64 : (⟨S_, .f32⟩ : BufTy).Contents (Elt F) → (⟨S100000x64, .f32⟩ : BufTy).Contents (Elt F)),
    nullary main_c_26 (constantI S_ 32 0#32),
    unary main_c_26 main_v239 (broadcastInDim S800000 ![] bcast_S_S800000 : (⟨S_, .i32⟩ : BufTy).Contents (Elt F) → (⟨S800000, .i32⟩ : BufTy).Contents (Elt F)),
    binary main_v1 main_v239 main_v240 (cmpi .slt : (⟨S800000, .i32⟩ : BufTy).Contents (Elt F) → (⟨S800000, .i32⟩ : BufTy).Contents (Elt F) → (⟨S800000, .i1⟩ : BufTy).Contents (Elt F)),
    nullary main_c_27 (constantI S_ 32 100000#32),
    unary main_c_27 main_v241 (broadcastInDim S800000 ![] bcast_S_S800000 : (⟨S_, .i32⟩ : BufTy).Contents (Elt F) → (⟨S800000, .i32⟩ : BufTy).Contents (Elt F)),
    binary main_v1 main_v241 main_v242 (addi : (⟨S800000, .i32⟩ : BufTy).Contents (Elt F) → (⟨S800000, .i32⟩ : BufTy).Contents (Elt F) → (⟨S800000, .i32⟩ : BufTy).Contents (Elt F)),
    ternary main_v240 main_v242 main_v1 main_v243 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v243 main_v244 (broadcastInDim S800000x1 ![0] bcast_S800000_S800000x1_0 : (⟨S800000, .i32⟩ : BufTy).Contents (Elt F) → (⟨S800000x1, .i32⟩ : BufTy).Contents (Elt F)),
    ternary main_v238 main_v244 main_v237 main_v245 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    nullary main_c_28 (constantI S_ 32 0#32),
    unary main_c_28 main_v246 (broadcastInDim S800000 ![] bcast_S_S800000 : (⟨S_, .i32⟩ : BufTy).Contents (Elt F) → (⟨S800000, .i32⟩ : BufTy).Contents (Elt F)),
    binary main_v3 main_v246 main_v247 (cmpi .slt : (⟨S800000, .i32⟩ : BufTy).Contents (Elt F) → (⟨S800000, .i32⟩ : BufTy).Contents (Elt F) → (⟨S800000, .i1⟩ : BufTy).Contents (Elt F)),
    nullary main_c_29 (constantI S_ 32 100000#32),
    unary main_c_29 main_v248 (broadcastInDim S800000 ![] bcast_S_S800000 : (⟨S_, .i32⟩ : BufTy).Contents (Elt F) → (⟨S800000, .i32⟩ : BufTy).Contents (Elt F)),
    binary main_v3 main_v248 main_v249 (addi : (⟨S800000, .i32⟩ : BufTy).Contents (Elt F) → (⟨S800000, .i32⟩ : BufTy).Contents (Elt F) → (⟨S800000, .i32⟩ : BufTy).Contents (Elt F)),
    ternary main_v247 main_v249 main_v3 main_v250 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v250 main_v251 (broadcastInDim S800000x1 ![0] bcast_S800000_S800000x1_0 : (⟨S800000, .i32⟩ : BufTy).Contents (Elt F) → (⟨S800000x1, .i32⟩ : BufTy).Contents (Elt F)),
    ternary main_v245 main_v251 main_v237 main_v252 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    unary main_arg7 main_v253 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v253 main_v254 rfl shapeCasts_S1x64x64_S64x64,
    binary main_v177 main_v254 main_v255 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg7 main_v256 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v256 main_v257 rfl shapeCasts_S1x64x64_S64x64,
    binary main_v6 main_v257 main_v258 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v255 main_v258 main_v259 (addf : (⟨S100000x64, .f32⟩ : BufTy).Contents (Elt F) → (⟨S100000x64, .f32⟩ : BufTy).Contents (Elt F) → (⟨S100000x64, .f32⟩ : BufTy).Contents (Elt F)),
    unary main_arg7 main_v260 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v260 main_v261 rfl shapeCasts_S1x64x64_S64x64,
    binary main_v252 main_v261 main_v262 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v259 main_v262 main_v263 (addf : (⟨S100000x64, .f32⟩ : BufTy).Contents (Elt F) → (⟨S100000x64, .f32⟩ : BufTy).Contents (Elt F) → (⟨S100000x64, .f32⟩ : BufTy).Contents (Elt F)),
    unary main_arg7 main_v264 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v264 main_v265 rfl shapeCasts_S1x64x64_S64x64,
    binary main_v199 main_v265 main_v266 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    unary main_v266 main_v267 (broadcastInDim S100000x64 ![0, 1] bcast_S1x64_S100000x64_0_1 : (⟨S1x64, .f32⟩ : BufTy).Contents (Elt F) → (⟨S100000x64, .f32⟩ : BufTy).Contents (Elt F)) ]

set_option maxRecDepth 8192 in
theorem w4b_sub : (w4b : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., unary_bufs_sub ..⟩

set_option maxRecDepth 8192 in
/-- Every operation of the list determines its result. -/
theorem w4b_fresh : (w4b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the list's operations write, in order. -/
abbrev w4b_W : List (Ref sig .tc) := [main_cst_25, main_v238, main_c_26, main_v239, main_v240, main_c_27, main_v241, main_v242, main_v243, main_v244, main_v245, main_c_28, main_v246, main_v247, main_c_29, main_v248, main_v249, main_v250, main_v251, main_v252, main_v253, main_v254, main_v255, main_v256, main_v257, main_v258, main_v259, main_v260, main_v261, main_v262, main_v263, main_v264, main_v265, main_v266, main_v267]

set_option maxRecDepth 8192 in
theorem w4b_writes : (w4b : List (HloOp τ sig (Elt F))).Forall fun op => op.writes ⊆ (w4b_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem w4b_keep (V : Valuation τ sig (Elt F)) (r : Ref sig .tc) (h : r ∉ w4b_W) :
    after w4b V (Proc.devRef .tc r) = V (Proc.devRef .tc r) :=
  after_of_writes_sub w4b V w4b_writes h

/-- The window's operations: the lists in a row. -/
abbrev win4 : List (HloOp τ sig (Elt F)) := w4a ++ (w4b)

set_option maxRecDepth 8192 in
set_option maxHeartbeats 4000000 in
/-- The window is the straight line of its operations. -/
theorem main_part4_eq (c : Dev nD) : main_part4 (F := F) c = seq win4 := rfl

end Cert.RefHand

end
-- ==== Proof.Ref.Ops5.lean ====
/- The reference program's host operations 315 to 347 in order (the sixth window of its main
   function; an outlined function's operations stand at its call), cut into 2 consecutive lists, and for each list
   what a run over it takes: every operation touches TensorCore buffers only and determines its result, the list
   of buffers it writes, and that a buffer outside that list keeps its contents through it. The window is the
   straight line of the lists in a row. -/
import proofs.«108204_j49847390437921_1_alg».proof.Proof.Gen.ReferenceIdeal
import Idealize.ShloMosaic.Lib.StableHlo.Run
import Idealize.ShloMosaic.Lib.Pipeline.Frame

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- Operations 315 to 321 of the program, in order. -/
abbrev w5a : List (HloOp τ sig (Elt F)) :=
  [ binary main_v263 main_v267 main_v268 (addf : (⟨S100000x64, .f32⟩ : BufTy).Contents (Elt F) → (⟨S100000x64, .f32⟩ : BufTy).Contents (Elt F) → (⟨S100000x64, .f32⟩ : BufTy).Contents (Elt F)),
    unary main_arg8 main_v269 (broadcastInDim S1x64 ![1] bcast_S64_S1x64_1 : (⟨S64, .f32⟩ : BufTy).Contents (Elt F) → (⟨S1x64, .f32⟩ : BufTy).Contents (Elt F)),
    unary main_v269 main_v270 (broadcastInDim S100000x64 ![0, 1] bcast_S1x64_S100000x64_0_1 : (⟨S1x64, .f32⟩ : BufTy).Contents (Elt F) → (⟨S100000x64, .f32⟩ : BufTy).Contents (Elt F)),
    binary main_v268 main_v270 main_v271 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x64, .f32⟩) main_call7_v0) (broadcastInDim S100000x64 ![] bcast_S_S100000x64),
    TRef.binary (TRef.of (T := ⟨S100000x64, .f32⟩) main_v271) (TRef.of (T := ⟨S100000x64, .f32⟩) main_call7_v0) (TRef.of (T := ⟨S100000x64, .f32⟩) main_v272) maximumf ]

set_option maxRecDepth 8192 in
theorem w5a_sub : (w5a : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩

set_option maxRecDepth 8192 in
/-- Every operation of the list determines its result. -/
theorem w5a_fresh : (w5a : List (HloOp τ sig (Elt F))).Forall fun op => op.fresh = ∅ :=
  ⟨rfl, rfl, rfl, rfl, rfl, rfl, rfl⟩

/-- The buffers the list's operations write, in order. -/
abbrev w5a_W : List (Ref sig .tc) := [main_v268, main_v269, main_v270, main_v271, main_call7_cst, main_call7_v0, main_v272]

set_option maxRecDepth 8192 in
theorem w5a_writes : (w5a : List (HloOp τ sig (Elt F))).Forall fun op => op.writes ⊆ (w5a_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem w5a_keep (V : Valuation τ sig (Elt F)) (r : Ref sig .tc) (h : r ∉ w5a_W) :
    after w5a V (Proc.devRef .tc r) = V (Proc.devRef .tc r) :=
  after_of_writes_sub w5a V w5a_writes h

/-- Operations 322 to 347 of the program, in order. -/
abbrev w5b : List (HloOp τ sig (Elt F)) :=
  [ nullary main_cst_30 (constant S_ .f32 0x00000000#32),
    binary main_v237 main_cst_30 main_v273 ((fun x v => Host.reduceAdd x v reducesTo_S800000x64_S64_d0 h_S_) : (⟨S800000x64, .f32⟩ : BufTy).Contents (Elt F) → (⟨S_, .f32⟩ : BufTy).Contents (Elt F) → (⟨S64, .f32⟩ : BufTy).Contents (Elt F)),
    unary main_v273 main_v274 (broadcastInDim S1x64 ![1] bcast_S64_S1x64_1 : (⟨S64, .f32⟩ : BufTy).Contents (Elt F) → (⟨S1x64, .f32⟩ : BufTy).Contents (Elt F)),
    nullary main_cst_31 (constant S_ .f32 0x00000000#32),
    binary main_v272 main_cst_31 main_v275 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    unary main_v275 main_v276 (broadcastInDim S1x64 ![1] bcast_S64_S1x64_1 : (⟨S64, .f32⟩ : BufTy).Contents (Elt F) → (⟨S1x64, .f32⟩ : BufTy).Contents (Elt F)),
    unary main_arg9 main_v277 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v277 main_v278 rfl shapeCasts_S1x64x64_S64x64,
    binary main_v199 main_v278 main_v279 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    unary main_arg9 main_v280 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v280 main_v281 rfl shapeCasts_S1x64x64_S64x64,
    binary main_v9 main_v281 main_v282 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    binary main_v279 main_v282 main_v283 (addf : (⟨S1x64, .f32⟩ : BufTy).Contents (Elt F) → (⟨S1x64, .f32⟩ : BufTy).Contents (Elt F) → (⟨S1x64, .f32⟩ : BufTy).Contents (Elt F)),
    unary main_arg9 main_v284 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v284 main_v285 rfl shapeCasts_S1x64x64_S64x64,
    binary main_v274 main_v285 main_v286 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    binary main_v283 main_v286 main_v287 (addf : (⟨S1x64, .f32⟩ : BufTy).Contents (Elt F) → (⟨S1x64, .f32⟩ : BufTy).Contents (Elt F) → (⟨S1x64, .f32⟩ : BufTy).Contents (Elt F)),
    unary main_arg9 main_v288 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v288 main_v289 rfl shapeCasts_S1x64x64_S64x64,
    binary main_v276 main_v289 main_v290 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    binary main_v287 main_v290 main_v291 (addf : (⟨S1x64, .f32⟩ : BufTy).Contents (Elt F) → (⟨S1x64, .f32⟩ : BufTy).Contents (Elt F) → (⟨S1x64, .f32⟩ : BufTy).Contents (Elt F)),
    unary main_arg10 main_v292 (broadcastInDim S1x64 ![1] bcast_S64_S1x64_1 : (⟨S64, .f32⟩ : BufTy).Contents (Elt F) → (⟨S1x64, .f32⟩ : BufTy).Contents (Elt F)),
    binary main_v291 main_v292 main_v293 (addf : (⟨S1x64, .f32⟩ : BufTy).Contents (Elt F) → (⟨S1x64, .f32⟩ : BufTy).Contents (Elt F) → (⟨S1x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S1x64, .f32⟩) main_call8_v0) (broadcastInDim S1x64 ![] bcast_S_S1x64),
    TRef.binary (TRef.of (T := ⟨S1x64, .f32⟩) main_v293) (TRef.of (T := ⟨S1x64, .f32⟩) main_call8_v0) (TRef.of (T := ⟨S1x64, .f32⟩) main_v294) maximumf ]

set_option maxRecDepth 8192 in
theorem w5b_sub : (w5b : List (HloOp τ sig (Elt F))).Forall fun op => op.bufs ⊆ tcRefs τ sig :=
  ⟨nullary_bufs_sub .., binary_bufs_sub .., unary_bufs_sub .., nullary_bufs_sub .., binary_bufs_sub .., unary_bufs_sub .., unary_bufs_sub .., reshape_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., binary_bufs_sub .., nullary_bufs_sub .., unary_bufs_sub .., binary_bufs_sub ..⟩

set_option maxRecDepth 8192 in
/-- Every operation of the list determines its result. -/
theorem w5b_fresh : (w5b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The buffers the list's operations write, in order. -/
abbrev w5b_W : List (Ref sig .tc) := [main_cst_30, main_v273, main_v274, main_cst_31, main_v275, main_v276, main_v277, main_v278, main_v279, main_v280, main_v281, main_v282, main_v283, main_v284, main_v285, main_v286, main_v287, main_v288, main_v289, main_v290, main_v291, main_v292, main_v293, main_call8_cst, main_call8_v0, main_v294]

set_option maxRecDepth 8192 in
theorem w5b_writes : (w5b : List (HloOp τ sig (Elt F))).Forall fun op => op.writes ⊆ (w5b_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem w5b_keep (V : Valuation τ sig (Elt F)) (r : Ref sig .tc) (h : r ∉ w5b_W) :
    after w5b V (Proc.devRef .tc r) = V (Proc.devRef .tc r) :=
  after_of_writes_sub w5b V w5b_writes h

/-- The window's operations: the lists in a row. -/
abbrev win5 : List (HloOp τ sig (Elt F)) := w5a ++ (w5b)

set_option maxRecDepth 8192 in
set_option maxHeartbeats 4000000 in
/-- The window is the straight line of its operations. -/
theorem main_part5_eq (c : Dev nD) : main_part5 (F := F) c = seq win5 := rfl

end Cert.RefHand

end
-- ==== Proof.Ref.Main.lean ====
/- The reference program's main function is the straight line of its 347 host operations, the six windows in a
   row; every weakly fair execution of it from a memory with zero counters terminates, each TensorCore buffer
   ending at the operations' fold over the launch contents; and that fold is the fourteen lists' folds one
   after the other. -/
import proofs.«108204_j49847390437921_1_alg».proof.Proof.Ref.Ops0
import proofs.«108204_j49847390437921_1_alg».proof.Proof.Ref.Ops1
import proofs.«108204_j49847390437921_1_alg».proof.Proof.Ref.Ops2
import proofs.«108204_j49847390437921_1_alg».proof.Proof.Ref.Ops3
import proofs.«108204_j49847390437921_1_alg».proof.Proof.Ref.Ops4
import proofs.«108204_j49847390437921_1_alg».proof.Proof.Ref.Ops5

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

/-- The program's 347 operations, in order: the windows in a row. -/
abbrev ops : List (HloOp τ sig (Elt F)) := win0 ++ (win1 ++ (win2 ++ (win3 ++ (win4 ++ (win5)))))

theorem main_eq (c : Dev nD) : main (F := F) c = seq ops := by
  simp only [ops, seq_append, ← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, win0, win1, win2, win3, win4, win5, List.mem_append] at h
    rcases h with (h | h) | (h | h | h) | (h | h) | (h | h | h) | (h | h) | (h | h)
    exacts [List.forall_iff_forall_mem.mp w0a_sub op h, List.forall_iff_forall_mem.mp w0b_sub op h, List.forall_iff_forall_mem.mp w1a_sub op h, List.forall_iff_forall_mem.mp w1b_sub op h, List.forall_iff_forall_mem.mp w1c_sub op h, List.forall_iff_forall_mem.mp w2a_sub op h, List.forall_iff_forall_mem.mp w2b_sub op h, List.forall_iff_forall_mem.mp w3a_sub op h, List.forall_iff_forall_mem.mp w3b_sub op h, List.forall_iff_forall_mem.mp w3c_sub op h, List.forall_iff_forall_mem.mp w4a_sub op h, List.forall_iff_forall_mem.mp w4b_sub op h, List.forall_iff_forall_mem.mp w5a_sub op h, List.forall_iff_forall_mem.mp w5b_sub op h]

theorem ops_fresh : ∀ op ∈ (ops : List (HloOp τ sig (Elt F))), op.fresh = ∅ := fun op h => by
  simp only [ops, win0, win1, win2, win3, win4, win5, List.mem_append] at h
  rcases h with (h | h) | (h | h | h) | (h | h) | (h | h | h) | (h | h) | (h | h)
  exacts [List.forall_iff_forall_mem.mp w0a_fresh op h, List.forall_iff_forall_mem.mp w0b_fresh op h, List.forall_iff_forall_mem.mp w1a_fresh op h, List.forall_iff_forall_mem.mp w1b_fresh op h, List.forall_iff_forall_mem.mp w1c_fresh op h, List.forall_iff_forall_mem.mp w2a_fresh op h, List.forall_iff_forall_mem.mp w2b_fresh op h, List.forall_iff_forall_mem.mp w3a_fresh op h, List.forall_iff_forall_mem.mp w3b_fresh op h, List.forall_iff_forall_mem.mp w3c_fresh op h, List.forall_iff_forall_mem.mp w4a_fresh op h, List.forall_iff_forall_mem.mp w4b_fresh op h, List.forall_iff_forall_mem.mp w5a_fresh op h, List.forall_iff_forall_mem.mp w5b_fresh op h]

/-- On every device, for any float values, from any memory with zero counters: every weakly fair execution of the
    main function terminates with each TensorCore buffer at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-- The fold over all the operations is the lists' folds one after the other. -/
theorem after_ops (V : Valuation τ sig (Elt F)) :
    after ops V = after w5b (after w5a (after w4b (after w4a (after w3c (after w3b (after w3a (after w2b (after w2a (after w1c (after w1b (after w1a (after w0b (after w0a (V)))))))))))))) := by
  simp only [ops, win0, win1, win2, win3, win4, win5, after_append]

end Cert.RefHand

end
-- ==== Proof.Ref.ValA.lean ====
/- What the first 55 operations compute, from any contents of the buffers: the two index columns, the three lifted
   feature arrays, and the first edge update — each the network's function of the argument arrays. -/
import proofs.«108204_j49847390437921_1_alg».proof.Proof.Ref.Ops0
import proofs.«108204_j49847390437921_1_alg».proof.Proof.Spec

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The first index column. -/
theorem A_v1 (V : Valuation τ sig (Elt F)) :
    after w0a V (Proc.devRef .tc main_v1) =
      Spec.col0 (V (Proc.devRef .tc main_arg11)) := by
  simp only [w0a]
  after_results_simp
  all_goals (try simp only [TRef.ofBuf, TRef.toBuf, cast_eq])
  all_goals rfl

set_option maxRecDepth 8192 in
set_option maxHeartbeats 4000000 in
/-- The second index column. -/
theorem A_v3 (V : Valuation τ sig (Elt F)) :
    after w0a V (Proc.devRef .tc main_v3) =
      Spec.col1 (V (Proc.devRef .tc main_arg11)) := by
  simp only [w0a]
  after_results_simp
  all_goals (try simp only [TRef.ofBuf, TRef.toBuf, cast_eq])
  all_goals rfl

set_option maxRecDepth 8192 in
set_option maxHeartbeats 4000000 in
/-- The lifted bond features. -/
theorem A_v5 (V : Valuation τ sig (Elt F)) :
    after w0a V (Proc.devRef .tc main_v5) =
      Spec.liftE (V (Proc.devRef .tc main_arg1)) (V (Proc.devRef .tc main_arg2)) := by
  simp only [w0a]
  after_results_simp
  all_goals (try simp only [TRef.ofBuf, TRef.toBuf, cast_eq])
  all_goals rfl

set_option maxRecDepth 8192 in
set_option maxHeartbeats 4000000 in
/-- The lifted atom features. -/
theorem A_v6 (V : Valuation τ sig (Elt F)) :
    after w0a V (Proc.devRef .tc main_v6) =
      Spec.liftV (V (Proc.devRef .tc main_arg0)) (V (Proc.devRef .tc main_arg3)) := by
  simp only [w0a]
  after_results_simp
  all_goals (try simp only [TRef.ofBuf, TRef.toBuf, cast_eq])
  all_goals rfl

set_option maxRecDepth 8192 in
set_option maxHeartbeats 4000000 in
/-- The lifted global features. -/
theorem A_v9 (V : Valuation τ sig (Elt F)) :
    after w0a V (Proc.devRef .tc main_v9) =
      Spec.liftU (V (Proc.devRef .tc main_arg0)) (V (Proc.devRef .tc main_arg4)) := by
  simp only [w0a]
  after_results_simp
  all_goals (try simp only [TRef.ofBuf, TRef.toBuf, cast_eq])
  all_goals rfl

set_option maxRecDepth 8192 in
set_option maxHeartbeats 4000000 in
/-- The first edge update. -/
theorem A_v47 (V : Valuation τ sig (Elt F)) :
    after w0a V (Proc.devRef .tc main_v47) =
      Spec.edge1 (Spec.liftE (V (Proc.devRef .tc main_arg1)) (V (Proc.devRef .tc main_arg2))) (Spec.liftE (V (Proc.devRef .tc main_arg1)) (V (Proc.devRef .tc main_arg2))) (Spec.gath (Spec.liftV (V (Proc.devRef .tc main_arg0)) (V (Proc.devRef .tc main_arg3))) (Spec.normIdx (Spec.col0 (V (Proc.devRef .tc main_arg11))))) (Spec.gath (Spec.liftV (V (Proc.devRef .tc main_arg0)) (V (Proc.devRef .tc main_arg3))) (Spec.normIdx (Spec.col1 (V (Proc.devRef .tc main_arg11))))) (Spec.liftU (V (Proc.devRef .tc main_arg0)) (V (Proc.devRef .tc main_arg4))) (V (Proc.devRef .tc main_arg5)) (Spec.row (V (Proc.devRef .tc main_arg6))) := by
  simp only [w0a]
  after_results_simp
  all_goals (try simp only [TRef.ofBuf, TRef.toBuf, cast_eq])
  all_goals rfl

end Cert.RefHand

end
-- ==== Proof.Ref.ValB.lean ====
/- What operations 56 to 97 compute, from any contents of the buffers: the bond features summed onto both endpoint
   atoms, then the node update — the network's function of the buffers the earlier operations left. -/
import proofs.«108204_j49847390437921_1_alg».proof.Proof.Ref.Ops0
import proofs.«108204_j49847390437921_1_alg».proof.Proof.Ref.Ops1
import proofs.«108204_j49847390437921_1_alg».proof.Proof.Spec

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The node update of a round whose atom features are the lifted ones. -/
theorem B_v82 (V : Valuation τ sig (Elt F)) :
    after w1a (after w0b V) (Proc.devRef .tc main_v82) =
      Spec.node1 (V (Proc.devRef .tc main_v6)) (V (Proc.devRef .tc main_v6)) (Spec.scat (V (Proc.devRef .tc main_v47)) (Spec.normIdx (V (Proc.devRef .tc main_v1))) (Spec.normIdx (V (Proc.devRef .tc main_v3)))) (V (Proc.devRef .tc main_v9)) (V (Proc.devRef .tc main_arg7)) (Spec.row (V (Proc.devRef .tc main_arg8))) := by
  simp only [w1a, w0b]
  after_results_simp
  all_goals (try simp only [TRef.ofBuf, TRef.toBuf, cast_eq])
  all_goals rfl

end Cert.RefHand

end
-- ==== Proof.Ref.ValC.lean ====
/- What operations 98 to 123 compute, from any contents of the buffers: the column sums of the bond and atom features,
   then the global update. -/
import proofs.«108204_j49847390437921_1_alg».proof.Proof.Ref.Ops1
import proofs.«108204_j49847390437921_1_alg».proof.Proof.Spec

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The global update of a round whose global features are the lifted ones. -/
theorem C_v104 (V : Valuation τ sig (Elt F)) :
    after w1b V (Proc.devRef .tc main_v104) =
      Spec.glob (V (Proc.devRef .tc main_v9)) (V (Proc.devRef .tc main_v9)) (Spec.sumE (V (Proc.devRef .tc main_v47))) (Spec.sumV (V (Proc.devRef .tc main_v82))) (V (Proc.devRef .tc main_arg9)) (V (Proc.devRef .tc main_arg10)) := by
  simp only [w1b]
  after_results_simp
  all_goals (try simp only [TRef.ofBuf, TRef.toBuf, cast_eq])
  all_goals rfl

end Cert.RefHand

end
-- ==== Proof.Ref.ValD.lean ====
/- What operations 124 to 167 compute, from any contents of the buffers: the endpoint features gathered per bond, then
   the edge update. -/
import proofs.«108204_j49847390437921_1_alg».proof.Proof.Ref.Ops1
import proofs.«108204_j49847390437921_1_alg».proof.Proof.Ref.Ops2
import proofs.«108204_j49847390437921_1_alg».proof.Proof.Spec

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The edge update of the second round. -/
theorem D_v142 (V : Valuation τ sig (Elt F)) :
    after w2a (after w1c V) (Proc.devRef .tc main_v142) =
      Spec.edge1 (V (Proc.devRef .tc main_v47)) (V (Proc.devRef .tc main_v5)) (Spec.gath (V (Proc.devRef .tc main_v82)) (Spec.normIdx (V (Proc.devRef .tc main_v1)))) (Spec.gath (V (Proc.devRef .tc main_v82)) (Spec.normIdx (V (Proc.devRef .tc main_v3)))) (V (Proc.devRef .tc main_v104)) (V (Proc.devRef .tc main_arg5)) (Spec.row (V (Proc.devRef .tc main_arg6))) := by
  simp only [w2a, w1c]
  after_results_simp
  all_goals (try simp only [TRef.ofBuf, TRef.toBuf, cast_eq])
  all_goals rfl

end Cert.RefHand

end
-- ==== Proof.Ref.ValE.lean ====
/- What operations 168 to 209 compute, from any contents of the buffers: the bond features summed onto both endpoint
   atoms, then the node update. -/
import proofs.«108204_j49847390437921_1_alg».proof.Proof.Ref.Ops2
import proofs.«108204_j49847390437921_1_alg».proof.Proof.Ref.Ops3
import proofs.«108204_j49847390437921_1_alg».proof.Proof.Spec

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The node update of the second round. -/
theorem E_v177 (V : Valuation τ sig (Elt F)) :
    after w3a (after w2b V) (Proc.devRef .tc main_v177) =
      Spec.node1 (V (Proc.devRef .tc main_v82)) (V (Proc.devRef .tc main_v6)) (Spec.scat (V (Proc.devRef .tc main_v142)) (Spec.normIdx (V (Proc.devRef .tc main_v1))) (Spec.normIdx (V (Proc.devRef .tc main_v3)))) (V (Proc.devRef .tc main_v104)) (V (Proc.devRef .tc main_arg7)) (Spec.row (V (Proc.devRef .tc main_arg8))) := by
  simp only [w3a, w2b]
  after_results_simp
  all_goals (try simp only [TRef.ofBuf, TRef.toBuf, cast_eq])
  all_goals rfl

end Cert.RefHand

end
-- ==== Proof.Ref.ValF.lean ====
/- What operations 210 to 235 compute, from any contents of the buffers: the column sums of the bond and atom features,
   then the global update. -/
import proofs.«108204_j49847390437921_1_alg».proof.Proof.Ref.Ops3
import proofs.«108204_j49847390437921_1_alg».proof.Proof.Spec

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The global update of the second round. -/
theorem F_v199 (V : Valuation τ sig (Elt F)) :
    after w3b V (Proc.devRef .tc main_v199) =
      Spec.glob (V (Proc.devRef .tc main_v104)) (V (Proc.devRef .tc main_v9)) (Spec.sumE (V (Proc.devRef .tc main_v142))) (Spec.sumV (V (Proc.devRef .tc main_v177))) (V (Proc.devRef .tc main_arg9)) (V (Proc.devRef .tc main_arg10)) := by
  simp only [w3b]
  after_results_simp
  all_goals (try simp only [TRef.ofBuf, TRef.toBuf, cast_eq])
  all_goals rfl

end Cert.RefHand

end
-- ==== Proof.Ref.ValG.lean ====
/- What operations 236 to 279 compute, from any contents of the buffers: the endpoint features gathered per bond, then
   the edge update — the program's result. -/
import proofs.«108204_j49847390437921_1_alg».proof.Proof.Ref.Ops3
import proofs.«108204_j49847390437921_1_alg».proof.Proof.Ref.Ops4
import proofs.«108204_j49847390437921_1_alg».proof.Proof.Spec

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The edge update of the third round. -/
theorem G_v237 (V : Valuation τ sig (Elt F)) :
    after w4a (after w3c V) (Proc.devRef .tc main_v237) =
      Spec.edge1 (V (Proc.devRef .tc main_v142)) (V (Proc.devRef .tc main_v5)) (Spec.gath (V (Proc.devRef .tc main_v177)) (Spec.normIdx (V (Proc.devRef .tc main_v1)))) (Spec.gath (V (Proc.devRef .tc main_v177)) (Spec.normIdx (V (Proc.devRef .tc main_v3)))) (V (Proc.devRef .tc main_v199)) (V (Proc.devRef .tc main_arg5)) (Spec.row (V (Proc.devRef .tc main_arg6))) := by
  simp only [w4a, w3c]
  after_results_simp
  all_goals (try simp only [TRef.ofBuf, TRef.toBuf, cast_eq])
  all_goals rfl

end Cert.RefHand

end
-- ==== Proof.RefRun.lean ====
/- The reference program computes the network: every weakly fair execution of its main function from a memory with zero
   counters terminates, the result buffer holding the network's function of the argument arrays and the argument
   arrays unchanged. The operations' fold is read stage by stage: after each stage the buffers a later stage reads
   hold the round functions' values, a buffer a stage does not write being kept through it. -/
import proofs.«108204_j49847390437921_1_alg».proof.Proof.Ref.Main
import proofs.«108204_j49847390437921_1_alg».proof.Proof.Ref.ValA
import proofs.«108204_j49847390437921_1_alg».proof.Proof.Ref.ValB
import proofs.«108204_j49847390437921_1_alg».proof.Proof.Ref.ValC
import proofs.«108204_j49847390437921_1_alg».proof.Proof.Ref.ValD
import proofs.«108204_j49847390437921_1_alg».proof.Proof.Ref.ValE
import proofs.«108204_j49847390437921_1_alg».proof.Proof.Ref.ValF
import proofs.«108204_j49847390437921_1_alg».proof.Proof.Ref.ValG

noncomputable section

namespace Cert.RefHand

open Cert.ReferenceIdeal Cert.ReferenceIdeal.Gen Idealize.ShloMosaic Idealize.ShloMosaic.TcCoe Idealize.SL.Sem Idealize.ShloMosaic.StableHlo

variable {F : FTy → Type} [FloatOps F]

section Stages

variable (V : Valuation τ sig (Elt F))

/-- The lifted bond, atom and global features, and the two normalised index columns, of the argument arrays. -/
def he0 : Spec.Arr F S800000x64 .f32 := Spec.liftE (V (Proc.devRef .tc main_arg1)) (V (Proc.devRef .tc main_arg2))
@[inherit_doc he0] def hv0 : Spec.Arr F S100000x64 .f32 := Spec.liftV (V (Proc.devRef .tc main_arg0)) (V (Proc.devRef .tc main_arg3))
@[inherit_doc he0] def hu0 : Spec.Arr F S1x64 .f32 := Spec.liftU (V (Proc.devRef .tc main_arg0)) (V (Proc.devRef .tc main_arg4))
@[inherit_doc he0] def sI : Spec.Arr F S800000x1 .i32 := Spec.normIdx (Spec.col0 (V (Proc.devRef .tc main_arg11)))
@[inherit_doc he0] def dI : Spec.Arr F S800000x1 .i32 := Spec.normIdx (Spec.col1 (V (Proc.devRef .tc main_arg11)))
/-- One round of the network over the argument arrays. -/
def rnd : Spec.St F → Spec.St F :=
  Spec.round (he0 V) (hv0 V) (hu0 V) (sI V) (dI V) (V (Proc.devRef .tc main_arg5)) (Spec.row (V (Proc.devRef .tc main_arg6))) (V (Proc.devRef .tc main_arg7)) (Spec.row (V (Proc.devRef .tc main_arg8))) (V (Proc.devRef .tc main_arg9)) (V (Proc.devRef .tc main_arg10))
/-- The state before the first round, after it, and after the second. -/
def st0 : Spec.St F := { he := he0 V, hv := hv0 V, hu := hu0 V }
@[inherit_doc st0] def st1 : Spec.St F := rnd V (st0 V)
@[inherit_doc st0] def st2 : Spec.St F := rnd V (st1 V)

/-- The buffers' contents after the stage of lists w0a. -/
def cA : Valuation τ sig (Elt F) := after w0a V
theorem cA_keep (r : Ref sig .tc) (h0 : r ∉ w0a_W) : cA V (Proc.devRef .tc r) = V (Proc.devRef .tc r) :=
  w0a_keep _ r h0
theorem cA_v1 : cA V (Proc.devRef .tc main_v1) = Spec.col0 (V (Proc.devRef .tc main_arg11)) := (A_v1 V).trans rfl
theorem cA_v3 : cA V (Proc.devRef .tc main_v3) = Spec.col1 (V (Proc.devRef .tc main_arg11)) := (A_v3 V).trans rfl
theorem cA_v5 : cA V (Proc.devRef .tc main_v5) = he0 V := (A_v5 V).trans rfl
theorem cA_v6 : cA V (Proc.devRef .tc main_v6) = hv0 V := (A_v6 V).trans rfl
theorem cA_v9 : cA V (Proc.devRef .tc main_v9) = hu0 V := (A_v9 V).trans rfl
theorem cA_v47 : cA V (Proc.devRef .tc main_v47) = (st1 V).he := (A_v47 V).trans rfl
theorem cA_arg5 : cA V (Proc.devRef .tc main_arg5) = V (Proc.devRef .tc main_arg5) := cA_keep V main_arg5 (by decide)
theorem cA_arg6 : cA V (Proc.devRef .tc main_arg6) = V (Proc.devRef .tc main_arg6) := cA_keep V main_arg6 (by decide)
theorem cA_arg7 : cA V (Proc.devRef .tc main_arg7) = V (Proc.devRef .tc main_arg7) := cA_keep V main_arg7 (by decide)
theorem cA_arg8 : cA V (Proc.devRef .tc main_arg8) = V (Proc.devRef .tc main_arg8) := cA_keep V main_arg8 (by decide)
theorem cA_arg9 : cA V (Proc.devRef .tc main_arg9) = V (Proc.devRef .tc main_arg9) := cA_keep V main_arg9 (by decide)
theorem cA_arg10 : cA V (Proc.devRef .tc main_arg10) = V (Proc.devRef .tc main_arg10) := cA_keep V main_arg10 (by decide)

/-- The buffers' contents after the stage of lists w0b, w1a. -/
def cB : Valuation τ sig (Elt F) := after w1a (after w0b (cA V))
theorem cB_keep (r : Ref sig .tc) (h0 : r ∉ w0b_W) (h1 : r ∉ w1a_W) : cB V (Proc.devRef .tc r) = cA V (Proc.devRef .tc r) :=
  (w1a_keep _ r h1).trans (w0b_keep _ r h0)
theorem cB_v1 : cB V (Proc.devRef .tc main_v1) = Spec.col0 (V (Proc.devRef .tc main_arg11)) := (cB_keep V main_v1 (by decide) (by decide)).trans (cA_v1 V)
theorem cB_v3 : cB V (Proc.devRef .tc main_v3) = Spec.col1 (V (Proc.devRef .tc main_arg11)) := (cB_keep V main_v3 (by decide) (by decide)).trans (cA_v3 V)
theorem cB_v5 : cB V (Proc.devRef .tc main_v5) = he0 V := (cB_keep V main_v5 (by decide) (by decide)).trans (cA_v5 V)
theorem cB_v6 : cB V (Proc.devRef .tc main_v6) = hv0 V := (cB_keep V main_v6 (by decide) (by decide)).trans (cA_v6 V)
theorem cB_v9 : cB V (Proc.devRef .tc main_v9) = hu0 V := (cB_keep V main_v9 (by decide) (by decide)).trans (cA_v9 V)
theorem cB_v47 : cB V (Proc.devRef .tc main_v47) = (st1 V).he := (cB_keep V main_v47 (by decide) (by decide)).trans (cA_v47 V)
theorem cB_v82 : cB V (Proc.devRef .tc main_v82) = (st1 V).hv := by
  refine (B_v82 (cA V)).trans ?_
  rw [cA_v6 V, cA_v47 V, cA_v1 V, cA_v3 V, cA_v9 V, cA_arg7 V, cA_arg8 V]
  rfl
theorem cB_arg5 : cB V (Proc.devRef .tc main_arg5) = V (Proc.devRef .tc main_arg5) := (cB_keep V main_arg5 (by decide) (by decide)).trans (cA_arg5 V)
theorem cB_arg6 : cB V (Proc.devRef .tc main_arg6) = V (Proc.devRef .tc main_arg6) := (cB_keep V main_arg6 (by decide) (by decide)).trans (cA_arg6 V)
theorem cB_arg7 : cB V (Proc.devRef .tc main_arg7) = V (Proc.devRef .tc main_arg7) := (cB_keep V main_arg7 (by decide) (by decide)).trans (cA_arg7 V)
theorem cB_arg8 : cB V (Proc.devRef .tc main_arg8) = V (Proc.devRef .tc main_arg8) := (cB_keep V main_arg8 (by decide) (by decide)).trans (cA_arg8 V)
theorem cB_arg9 : cB V (Proc.devRef .tc main_arg9) = V (Proc.devRef .tc main_arg9) := (cB_keep V main_arg9 (by decide) (by decide)).trans (cA_arg9 V)
theorem cB_arg10 : cB V (Proc.devRef .tc main_arg10) = V (Proc.devRef .tc main_arg10) := (cB_keep V main_arg10 (by decide) (by decide)).trans (cA_arg10 V)

/-- The buffers' contents after the stage of lists w1b. -/
def cC : Valuation τ sig (Elt F) := after w1b (cB V)
theorem cC_keep (r : Ref sig .tc) (h0 : r ∉ w1b_W) : cC V (Proc.devRef .tc r) = cB V (Proc.devRef .tc r) :=
  w1b_keep _ r h0
theorem cC_v1 : cC V (Proc.devRef .tc main_v1) = Spec.col0 (V (Proc.devRef .tc main_arg11)) := (cC_keep V main_v1 (by decide)).trans (cB_v1 V)
theorem cC_v3 : cC V (Proc.devRef .tc main_v3) = Spec.col1 (V (Proc.devRef .tc main_arg11)) := (cC_keep V main_v3 (by decide)).trans (cB_v3 V)
theorem cC_v5 : cC V (Proc.devRef .tc main_v5) = he0 V := (cC_keep V main_v5 (by decide)).trans (cB_v5 V)
theorem cC_v6 : cC V (Proc.devRef .tc main_v6) = hv0 V := (cC_keep V main_v6 (by decide)).trans (cB_v6 V)
theorem cC_v9 : cC V (Proc.devRef .tc main_v9) = hu0 V := (cC_keep V main_v9 (by decide)).trans (cB_v9 V)
theorem cC_v47 : cC V (Proc.devRef .tc main_v47) = (st1 V).he := (cC_keep V main_v47 (by decide)).trans (cB_v47 V)
theorem cC_v82 : cC V (Proc.devRef .tc main_v82) = (st1 V).hv := (cC_keep V main_v82 (by decide)).trans (cB_v82 V)
theorem cC_v104 : cC V (Proc.devRef .tc main_v104) = (st1 V).hu := by
  refine (C_v104 (cB V)).trans ?_
  rw [cB_v9 V, cB_v47 V, cB_v82 V, cB_arg9 V, cB_arg10 V]
  rfl
theorem cC_arg5 : cC V (Proc.devRef .tc main_arg5) = V (Proc.devRef .tc main_arg5) := (cC_keep V main_arg5 (by decide)).trans (cB_arg5 V)
theorem cC_arg6 : cC V (Proc.devRef .tc main_arg6) = V (Proc.devRef .tc main_arg6) := (cC_keep V main_arg6 (by decide)).trans (cB_arg6 V)
theorem cC_arg7 : cC V (Proc.devRef .tc main_arg7) = V (Proc.devRef .tc main_arg7) := (cC_keep V main_arg7 (by decide)).trans (cB_arg7 V)
theorem cC_arg8 : cC V (Proc.devRef .tc main_arg8) = V (Proc.devRef .tc main_arg8) := (cC_keep V main_arg8 (by decide)).trans (cB_arg8 V)
theorem cC_arg9 : cC V (Proc.devRef .tc main_arg9) = V (Proc.devRef .tc main_arg9) := (cC_keep V main_arg9 (by decide)).trans (cB_arg9 V)
theorem cC_arg10 : cC V (Proc.devRef .tc main_arg10) = V (Proc.devRef .tc main_arg10) := (cC_keep V main_arg10 (by decide)).trans (cB_arg10 V)

/-- The buffers' contents after the stage of lists w1c, w2a. -/
def cD : Valuation τ sig (Elt F) := after w2a (after w1c (cC V))
theorem cD_keep (r : Ref sig .tc) (h0 : r ∉ w1c_W) (h1 : r ∉ w2a_W) : cD V (Proc.devRef .tc r) = cC V (Proc.devRef .tc r) :=
  (w2a_keep _ r h1).trans (w1c_keep _ r h0)
theorem cD_v1 : cD V (Proc.devRef .tc main_v1) = Spec.col0 (V (Proc.devRef .tc main_arg11)) := (cD_keep V main_v1 (by decide) (by decide)).trans (cC_v1 V)
theorem cD_v3 : cD V (Proc.devRef .tc main_v3) = Spec.col1 (V (Proc.devRef .tc main_arg11)) := (cD_keep V main_v3 (by decide) (by decide)).trans (cC_v3 V)
theorem cD_v5 : cD V (Proc.devRef .tc main_v5) = he0 V := (cD_keep V main_v5 (by decide) (by decide)).trans (cC_v5 V)
theorem cD_v6 : cD V (Proc.devRef .tc main_v6) = hv0 V := (cD_keep V main_v6 (by decide) (by decide)).trans (cC_v6 V)
theorem cD_v9 : cD V (Proc.devRef .tc main_v9) = hu0 V := (cD_keep V main_v9 (by decide) (by decide)).trans (cC_v9 V)
theorem cD_v82 : cD V (Proc.devRef .tc main_v82) = (st1 V).hv := (cD_keep V main_v82 (by decide) (by decide)).trans (cC_v82 V)
theorem cD_v104 : cD V (Proc.devRef .tc main_v104) = (st1 V).hu := (cD_keep V main_v104 (by decide) (by decide)).trans (cC_v104 V)
theorem cD_v142 : cD V (Proc.devRef .tc main_v142) = (st2 V).he := by
  refine (D_v142 (cC V)).trans ?_
  rw [cC_v47 V, cC_v5 V, cC_v82 V, cC_v1 V, cC_v3 V, cC_v104 V, cC_arg5 V, cC_arg6 V]
  rfl
theorem cD_arg5 : cD V (Proc.devRef .tc main_arg5) = V (Proc.devRef .tc main_arg5) := (cD_keep V main_arg5 (by decide) (by decide)).trans (cC_arg5 V)
theorem cD_arg6 : cD V (Proc.devRef .tc main_arg6) = V (Proc.devRef .tc main_arg6) := (cD_keep V main_arg6 (by decide) (by decide)).trans (cC_arg6 V)
theorem cD_arg7 : cD V (Proc.devRef .tc main_arg7) = V (Proc.devRef .tc main_arg7) := (cD_keep V main_arg7 (by decide) (by decide)).trans (cC_arg7 V)
theorem cD_arg8 : cD V (Proc.devRef .tc main_arg8) = V (Proc.devRef .tc main_arg8) := (cD_keep V main_arg8 (by decide) (by decide)).trans (cC_arg8 V)
theorem cD_arg9 : cD V (Proc.devRef .tc main_arg9) = V (Proc.devRef .tc main_arg9) := (cD_keep V main_arg9 (by decide) (by decide)).trans (cC_arg9 V)
theorem cD_arg10 : cD V (Proc.devRef .tc main_arg10) = V (Proc.devRef .tc main_arg10) := (cD_keep V main_arg10 (by decide) (by decide)).trans (cC_arg10 V)

/-- The buffers' contents after the stage of lists w2b, w3a. -/
def cE : Valuation τ sig (Elt F) := after w3a (after w2b (cD V))
theorem cE_keep (r : Ref sig .tc) (h0 : r ∉ w2b_W) (h1 : r ∉ w3a_W) : cE V (Proc.devRef .tc r) = cD V (Proc.devRef .tc r) :=
  (w3a_keep _ r h1).trans (w2b_keep _ r h0)
theorem cE_v1 : cE V (Proc.devRef .tc main_v1) = Spec.col0 (V (Proc.devRef .tc main_arg11)) := (cE_keep V main_v1 (by decide) (by decide)).trans (cD_v1 V)
theorem cE_v3 : cE V (Proc.devRef .tc main_v3) = Spec.col1 (V (Proc.devRef .tc main_arg11)) := (cE_keep V main_v3 (by decide) (by decide)).trans (cD_v3 V)
theorem cE_v5 : cE V (Proc.devRef .tc main_v5) = he0 V := (cE_keep V main_v5 (by decide) (by decide)).trans (cD_v5 V)
theorem cE_v9 : cE V (Proc.devRef .tc main_v9) = hu0 V := (cE_keep V main_v9 (by decide) (by decide)).trans (cD_v9 V)
theorem cE_v104 : cE V (Proc.devRef .tc main_v104) = (st1 V).hu := (cE_keep V main_v104 (by decide) (by decide)).trans (cD_v104 V)
theorem cE_v142 : cE V (Proc.devRef .tc main_v142) = (st2 V).he := (cE_keep V main_v142 (by decide) (by decide)).trans (cD_v142 V)
theorem cE_v177 : cE V (Proc.devRef .tc main_v177) = (st2 V).hv := by
  refine (E_v177 (cD V)).trans ?_
  rw [cD_v82 V, cD_v6 V, cD_v142 V, cD_v1 V, cD_v3 V, cD_v104 V, cD_arg7 V, cD_arg8 V]
  rfl
theorem cE_arg5 : cE V (Proc.devRef .tc main_arg5) = V (Proc.devRef .tc main_arg5) := (cE_keep V main_arg5 (by decide) (by decide)).trans (cD_arg5 V)
theorem cE_arg6 : cE V (Proc.devRef .tc main_arg6) = V (Proc.devRef .tc main_arg6) := (cE_keep V main_arg6 (by decide) (by decide)).trans (cD_arg6 V)
theorem cE_arg9 : cE V (Proc.devRef .tc main_arg9) = V (Proc.devRef .tc main_arg9) := (cE_keep V main_arg9 (by decide) (by decide)).trans (cD_arg9 V)
theorem cE_arg10 : cE V (Proc.devRef .tc main_arg10) = V (Proc.devRef .tc main_arg10) := (cE_keep V main_arg10 (by decide) (by decide)).trans (cD_arg10 V)

/-- The buffers' contents after the stage of lists w3b. -/
def cF : Valuation τ sig (Elt F) := after w3b (cE V)
theorem cF_keep (r : Ref sig .tc) (h0 : r ∉ w3b_W) : cF V (Proc.devRef .tc r) = cE V (Proc.devRef .tc r) :=
  w3b_keep _ r h0
theorem cF_v1 : cF V (Proc.devRef .tc main_v1) = Spec.col0 (V (Proc.devRef .tc main_arg11)) := (cF_keep V main_v1 (by decide)).trans (cE_v1 V)
theorem cF_v3 : cF V (Proc.devRef .tc main_v3) = Spec.col1 (V (Proc.devRef .tc main_arg11)) := (cF_keep V main_v3 (by decide)).trans (cE_v3 V)
theorem cF_v5 : cF V (Proc.devRef .tc main_v5) = he0 V := (cF_keep V main_v5 (by decide)).trans (cE_v5 V)
theorem cF_v142 : cF V (Proc.devRef .tc main_v142) = (st2 V).he := (cF_keep V main_v142 (by decide)).trans (cE_v142 V)
theorem cF_v177 : cF V (Proc.devRef .tc main_v177) = (st2 V).hv := (cF_keep V main_v177 (by decide)).trans (cE_v177 V)
theorem cF_v199 : cF V (Proc.devRef .tc main_v199) = (st2 V).hu := by
  refine (F_v199 (cE V)).trans ?_
  rw [cE_v104 V, cE_v9 V, cE_v142 V, cE_v177 V, cE_arg9 V, cE_arg10 V]
  rfl
theorem cF_arg5 : cF V (Proc.devRef .tc main_arg5) = V (Proc.devRef .tc main_arg5) := (cF_keep V main_arg5 (by decide)).trans (cE_arg5 V)
theorem cF_arg6 : cF V (Proc.devRef .tc main_arg6) = V (Proc.devRef .tc main_arg6) := (cF_keep V main_arg6 (by decide)).trans (cE_arg6 V)

/-- The buffers' contents after the stage of lists w3c, w4a. -/
def cG : Valuation τ sig (Elt F) := after w4a (after w3c (cF V))
theorem cG_keep (r : Ref sig .tc) (h0 : r ∉ w3c_W) (h1 : r ∉ w4a_W) : cG V (Proc.devRef .tc r) = cF V (Proc.devRef .tc r) :=
  (w4a_keep _ r h1).trans (w3c_keep _ r h0)
theorem cG_v237 : cG V (Proc.devRef .tc main_v237) = Spec.net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  refine (G_v237 (cF V)).trans ?_
  rw [cF_v142 V, cF_v5 V, cF_v177 V, cF_v1 V, cF_v3 V, cF_v199 V, cF_arg5 V, cF_arg6 V]
  rfl

/-- The buffers' contents after the stage of lists w4b, w5a, w5b. -/
def cH : Valuation τ sig (Elt F) := after w5b (after w5a (after w4b (cG V)))
theorem cH_keep (r : Ref sig .tc) (h0 : r ∉ w4b_W) (h1 : r ∉ w5a_W) (h2 : r ∉ w5b_W) : cH V (Proc.devRef .tc r) = cG V (Proc.devRef .tc r) :=
  (w5b_keep _ r h2).trans ((w5a_keep _ r h1).trans (w4b_keep _ r h0))
theorem cH_v237 : cH V (Proc.devRef .tc main_v237) = Spec.net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := (cH_keep V main_v237 (by decide) (by decide) (by decide)).trans (cG_v237 V)

/-- A buffer no operation writes keeps its contents through all of them. -/
theorem after_ops_keep (r : Ref sig .tc) (h0 : r ∉ w0a_W) (h1 : r ∉ w0b_W) (h2 : r ∉ w1a_W) (h3 : r ∉ w1b_W) (h4 : r ∉ w1c_W) (h5 : r ∉ w2a_W) (h6 : r ∉ w2b_W) (h7 : r ∉ w3a_W) (h8 : r ∉ w3b_W) (h9 : r ∉ w3c_W) (h10 : r ∉ w4a_W) (h11 : r ∉ w4b_W) (h12 : r ∉ w5a_W) (h13 : r ∉ w5b_W) : after ops V (Proc.devRef .tc r) = V (Proc.devRef .tc r) := by
  rw [after_ops, w5b_keep _ r h13, w5a_keep _ r h12, w4b_keep _ r h11, w4a_keep _ r h10, w3c_keep _ r h9, w3b_keep _ r h8, w3a_keep _ r h7, w2b_keep _ r h6, w2a_keep _ r h5, w1c_keep _ r h4, w1b_keep _ r h3, w1a_keep _ r h2, w0b_keep _ r h1, w0a_keep _ r h0]

/-- The result buffer after all the operations: the network of the argument arrays. -/
theorem after_ops_v237 : after ops V (Proc.devRef .tc main_v237) = Spec.net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops]; exact cH_v237 V

theorem after_ops_arg0 : after ops V (Proc.devRef .tc main_arg0) = V (Proc.devRef .tc main_arg0) :=
  after_ops_keep V main_arg0 (by decide) (by decide) (by decide) (by decide) (by decide) (by decide) (by decide) (by decide) (by decide) (by decide) (by decide) (by decide) (by decide) (by decide)
theorem after_ops_arg1 : after ops V (Proc.devRef .tc main_arg1) = V (Proc.devRef .tc main_arg1) :=
  after_ops_keep V main_arg1 (by decide) (by decide) (by decide) (by decide) (by decide) (by decide) (by decide) (by decide) (by decide) (by decide) (by decide) (by decide) (by decide) (by decide)
theorem after_ops_arg2 : after ops V (Proc.devRef .tc main_arg2) = V (Proc.devRef .tc main_arg2) :=
  after_ops_keep V main_arg2 (by decide) (by decide) (by decide) (by decide) (by decide) (by decide) (by decide) (by decide) (by decide) (by decide) (by decide) (by decide) (by decide) (by decide)
theorem after_ops_arg3 : after ops V (Proc.devRef .tc main_arg3) = V (Proc.devRef .tc main_arg3) :=
  after_ops_keep V main_arg3 (by decide) (by decide) (by decide) (by decide) (by decide) (by decide) (by decide) (by decide) (by decide) (by decide) (by decide) (by decide) (by decide) (by decide)
theorem after_ops_arg4 : after ops V (Proc.devRef .tc main_arg4) = V (Proc.devRef .tc main_arg4) :=
  after_ops_keep V main_arg4 (by decide) (by decide) (by decide) (by decide) (by decide) (by decide) (by decide) (by decide) (by decide) (by decide) (by decide) (by decide) (by decide) (by decide)
theorem after_ops_arg5 : after ops V (Proc.devRef .tc main_arg5) = V (Proc.devRef .tc main_arg5) :=
  after_ops_keep V main_arg5 (by decide) (by decide) (by decide) (by decide) (by decide) (by decide) (by decide) (by decide) (by decide) (by decide) (by decide) (by decide) (by decide) (by decide)
theorem after_ops_arg6 : after ops V (Proc.devRef .tc main_arg6) = V (Proc.devRef .tc main_arg6) :=
  after_ops_keep V main_arg6 (by decide) (by decide) (by decide) (by decide) (by decide) (by decide) (by decide) (by decide) (by decide) (by decide) (by decide) (by decide) (by decide) (by decide)
theorem after_ops_arg7 : after ops V (Proc.devRef .tc main_arg7) = V (Proc.devRef .tc main_arg7) :=
  after_ops_keep V main_arg7 (by decide) (by decide) (by decide) (by decide) (by decide) (by decide) (by decide) (by decide) (by decide) (by decide) (by decide) (by decide) (by decide) (by decide)
theorem after_ops_arg8 : after ops V (Proc.devRef .tc main_arg8) = V (Proc.devRef .tc main_arg8) :=
  after_ops_keep V main_arg8 (by decide) (by decide) (by decide) (by decide) (by decide) (by decide) (by decide) (by decide) (by decide) (by decide) (by decide) (by decide) (by decide) (by decide)
theorem after_ops_arg9 : after ops V (Proc.devRef .tc main_arg9) = V (Proc.devRef .tc main_arg9) :=
  after_ops_keep V main_arg9 (by decide) (by decide) (by decide) (by decide) (by decide) (by decide) (by decide) (by decide) (by decide) (by decide) (by decide) (by decide) (by decide) (by decide)
theorem after_ops_arg10 : after ops V (Proc.devRef .tc main_arg10) = V (Proc.devRef .tc main_arg10) :=
  after_ops_keep V main_arg10 (by decide) (by decide) (by decide) (by decide) (by decide) (by decide) (by decide) (by decide) (by decide) (by decide) (by decide) (by decide) (by decide) (by decide)
theorem after_ops_arg11 : after ops V (Proc.devRef .tc main_arg11) = V (Proc.devRef .tc main_arg11) :=
  after_ops_keep V main_arg11 (by decide) (by decide) (by decide) (by decide) (by decide) (by decide) (by decide) (by decide) (by decide) (by decide) (by decide) (by decide) (by decide) (by decide)

end Stages

/-- On every device, for any float values, from any memory with zero counters: every weakly fair execution of the main
    function terminates with the result buffer at the network of the argument arrays, and the argument arrays unchanged. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ (fun r => ∀ c : Dev nD,
      r.2.mem ((c.tc : Thread nD τ).loc main_v237) = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v237).trans (after_ops_v237 (launchContents m c)),
      (h c main_arg0).trans (after_ops_arg0 (launchContents m c)),
      (h c main_arg1).trans (after_ops_arg1 (launchContents m c)),
      (h c main_arg2).trans (after_ops_arg2 (launchContents m c)),
      (h c main_arg3).trans (after_ops_arg3 (launchContents m c)),
      (h c main_arg4).trans (after_ops_arg4 (launchContents m c)),
      (h c main_arg5).trans (after_ops_arg5 (launchContents m c)),
      (h c main_arg6).trans (after_ops_arg6 (launchContents m c)),
      (h c main_arg7).trans (after_ops_arg7 (launchContents m c)),
      (h c main_arg8).trans (after_ops_arg8 (launchContents m c)),
      (h c main_arg9).trans (after_ops_arg9 (launchContents m c)),
      (h c main_arg10).trans (after_ops_arg10 (launchContents m c)),
      (h c main_arg11).trans (after_ops_arg11 (launchContents m c))⟩)
    (run_after m ρ)

/-- The same run, the argument arrays only. -/
theorem frame (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2) (run m ρ)

end Cert.RefHand

end
-- ==== Proof.lean ====
/-
  The certificate of a message-passing network on a graph of 100000 atoms and 800000 bonds, width 64, three rounds.
  The bond, atom and global features are lifted linearly from the inputs. A round updates the bond features from each
  bond's own features, its lifted ones, those of its two end atoms and the global ones (five 64×64 products, a bias, relu);
  adds the new bond features into their atoms; updates the atom features likewise (four products); and updates the global
  features from the COLUMN SUMS of the new bond and atom features. The result is the bond features after the third edge
  update.

  The program computes each edge and node update in a kernel over blocks of 10000 rows (80 blocks of bonds, 10 of atoms);
  beside its block of output rows the kernel keeps one row of scratch, zeroed at the first block, to which every block adds
  its own column sums, and which is stored at the last block. The gathers, the scatter-add and the global update run
  between the kernels. The reference computes the same network on whole arrays.

  How the two are compared. Proof/Spec.lean states the network as functions of whole arrays, in the reference's own
  operations, and both programs are read against those functions: the reference's run stage by stage (Proof/RefRun.lean),
  the program's run region by region (Proof/KI/), the host stretches between the regions included. A region's rows are
  compared block by block; its column sums are the blockwise sums regrouped in the commutative monoid of the extended
  reals, where addition is associative and commutative everywhere, so no entry need be finite. The six regions chain from
  the launch to the result's buffer (Proof/KI/Regions.lean), whose contents are the network of the argument arrays
  (Proof/KI/Final.lean). So from memories that agree on the arguments both programs end with one and the same array. The
  precondition is not used: no theorem cited below takes it.

  For the program as compiled only the frame is claimed: the same run, the values forgotten (Proof/K/). The ideal pass
  rewrote no operation, so there is nothing to preserve.
-/
import proofs.«108204_j49847390437921_1_alg».proof.Defs
import proofs.«108204_j49847390437921_1_alg».proof.Proof.Gen.Kernel
import proofs.«108204_j49847390437921_1_alg».proof.Proof.Gen.KernelIdeal
import proofs.«108204_j49847390437921_1_alg».proof.Proof.Gen.ReferenceIdeal
import proofs.«108204_j49847390437921_1_alg».proof.Proof.Gen.Pre_finite_inputs
import proofs.«108204_j49847390437921_1_alg».proof.Proof.K.Regions
import proofs.«108204_j49847390437921_1_alg».proof.Proof.KI.Regions
import proofs.«108204_j49847390437921_1_alg».proof.Proof.KI.Final
import proofs.«108204_j49847390437921_1_alg».proof.Proof.RefRun

noncomputable section

open Idealize.ShloMosaic Idealize.ShloMosaic.TcCoe Idealize.SL.Sem

/-! ## The claims -/

namespace Cert.Proof

/-- The program as compiled runs from any memory and leaves its argument arrays as launched. -/
theorem frame_k : Cert.frame_Kernel := fun m ρ _ => Cert.Kernel.Hand.frame (F := Bits) m ρ
/-- So does its reading over the extended reals, -/
theorem frame_ki : Cert.frame_KernelIdeal := fun m ρ _ => Cert.KernelIdeal.Hand.frame (F := Ideal) m ρ
/-- and so does the reference. -/
theorem frame_ri : Cert.frame_ReferenceIdeal := fun m ρ _ => Cert.RefHand.frame (F := Ideal) m ρ

/-- No operation was rewritten: the reading over the extended reals is the program's own text. -/
theorem preserves : Cert.preserves_Kernel_KernelIdeal := trivial

/-- Over the extended reals both programs end with the network of the argument arrays in their result buffers: the
    program by its run over the six regions and the value its last edge region leaves, the reference by its run; from
    memories that agree on the arguments the two networks are one array. -/
theorem algebraic : Cert.algebraic_KernelIdeal_ReferenceIdeal := by
  intro m ρ m' ρ' _ hagree
  refine ⟨fun c => Cert.Spec.net (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Hand.kernel_value m c), (h c).2⟩)
      (Cert.KernelIdeal.Hand.run_main (F := Ideal) m ρ)
  · refine (θ_run Cert.ReferenceIdeal.defs _ _).mono (fun _ h c => ⟨(h c).1.trans ?_, (h c).2⟩) (Cert.RefHand.run (F := Ideal) m' ρ')
    obtain ⟨h0, h1, h2, h3, h4, h5, h6, h7, h8, h9, h10, h11⟩ := hagree c
    rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
